-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v323)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v323) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v473) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x64 : Shape := ⟨2, ![5000, 64]⟩
abbrev S2x64x64 : Shape := ⟨3, ![2, 64, 64]⟩
abbrev S2x64 : Shape := ⟨2, ![2, 64]⟩
abbrev S2x3x64x64 : Shape := ⟨4, ![2, 3, 64, 64]⟩
abbrev S2x3x64 : Shape := ⟨3, ![2, 3, 64]⟩
abbrev S2x2x64 : Shape := ⟨3, ![2, 2, 64]⟩
abbrev S200000 : Shape := ⟨1, ![200000]⟩
abbrev S2x1000000 : Shape := ⟨2, ![2, 1000000]⟩
abbrev S2x100000 : Shape := ⟨2, ![2, 100000]⟩
abbrev S_ : Shape := ⟨0, ![]⟩

class Facts : Prop where
  bcast_S_S5000x64 : S_.BroadcastsInDim S5000x64 (![] : Fin 0 → Fin S5000x64.rank)
  reducesTo_S5000x64_S_d0_1 : S5000x64.ReducesTo [0, 1] S_
  h_S_ : 0 < S_.numel
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S2x3x64x64 : S_.BroadcastsInDim S2x3x64x64 (![] : Fin 0 → Fin S2x3x64x64.rank)
  reducesTo_S2x3x64x64_S_d0_1_2_3 : S2x3x64x64.ReducesTo [0, 1, 2, 3] S_
  bcast_S_S2x3x64 : S_.BroadcastsInDim S2x3x64 (![] : Fin 0 → Fin S2x3x64.rank)
  reducesTo_S2x3x64_S_d0_1_2 : S2x3x64.ReducesTo [0, 1, 2] S_
  bcast_S_S2x2x64 : S_.BroadcastsInDim S2x2x64 (![] : Fin 0 → Fin S2x2x64.rank)
  reducesTo_S2x2x64_S_d0_1_2 : S2x2x64.ReducesTo [0, 1, 2] S_
  bcast_S_S200000 : S_.BroadcastsInDim S200000 (![] : Fin 0 → Fin S200000.rank)
  reducesTo_S200000_S_d0 : S200000.ReducesTo [0] S_

variable [Facts]

def fn_part3 {F : FTy → Type} [FloatOps F] (main_arg11 : FVec F S200000 .f32) (main_arg12 : FVec F S200000 .f32) (main_v48 : IVec S_ 1) (main_v49 : FVec F S2x2x64 .f32) (main_v50 : FVec F S2x2x64 .f32) : IVec S_ 1 :=
  let main_v51 : IVec S2x2x64 1 := cmpf .olt main_v49 main_v50
  let main_c_19 : IVec S_ 1 := constantI S_ 1 1#1
  let main_v52 : IVec S_ 1 := (fun x v => Host.reduce IntOp.andi x v reducesTo_S2x2x64_S_d0_1_2 h_S_) main_v51 main_c_19
  let main_v53 : IVec S_ 1 := andi main_v48 main_v52
  let main_v54 : FVec F S200000 .f32 := Host.absf main_arg11
  let main_cst_20 : FVec F S_ .f32 := constant S_ .f32 0x7F800000#32
  let main_v55 : FVec F S200000 .f32 := broadcastInDim S200000 ![] bcast_S_S200000 main_cst_20
  let main_v56 : IVec S200000 1 := cmpf .olt main_v54 main_v55
  let main_c_21 : IVec S_ 1 := constantI S_ 1 1#1
  let main_v57 : IVec S_ 1 := (fun x v => Host.reduce IntOp.andi x v reducesTo_S200000_S_d0 h_S_) main_v56 main_c_21
  let main_v58 : IVec S_ 1 := andi main_v53 main_v57
  let main_v59 : FVec F S200000 .f32 := Host.absf main_arg12
  let main_cst_22 : FVec F S_ .f32 := constant S_ .f32 0x7F800000#32
  let main_v60 : FVec F S200000 .f32 := broadcastInDim S200000 ![] bcast_S_S200000 main_cst_22
  let main_v61 : IVec S200000 1 := cmpf .olt main_v59 main_v60
  let main_c_23 : IVec S_ 1 := constantI S_ 1 1#1
  let main_v62 : IVec S_ 1 := (fun x v => Host.reduce IntOp.andi x v reducesTo_S200000_S_d0 h_S_) main_v61 main_c_23
  let main_v63 : IVec S_ 1 := andi main_v58 main_v62
  main_v63

def fn_part2 {F : FTy → Type} [FloatOps F] (main_arg7 : FVec F S2x3x64x64 .f32) (main_arg8 : FVec F S2x3x64 .f32) (main_arg9 : FVec F S2x2x64 .f32) (main_arg10 : FVec F S2x2x64 .f32) (main_arg11 : FVec F S200000 .f32) (main_arg12 : FVec F S200000 .f32) (main_v33 : IVec S_ 1) : IVec S_ 1 :=
  let main_v34 : FVec F S2x3x64x64 .f32 := Host.absf main_arg7
  let main_cst_12 : FVec F S_ .f32 := constant S_ .f32 0x7F800000#32
  let main_v35 : FVec F S2x3x64x64 .f32 := broadcastInDim S2x3x64x64 ![] bcast_S_S2x3x64x64 main_cst_12
  let main_v36 : IVec S2x3x64x64 1 := cmpf .olt main_v34 main_v35
  let main_c_13 : IVec S_ 1 := constantI S_ 1 1#1
  let main_v37 : IVec S_ 1 := (fun x v => Host.reduce IntOp.andi x v reducesTo_S2x3x64x64_S_d0_1_2_3 h_S_) main_v36 main_c_13
  let main_v38 : IVec S_ 1 := andi main_v33 main_v37
  let main_v39 : FVec F S2x3x64 .f32 := Host.absf main_arg8
  let main_cst_14 : FVec F S_ .f32 := constant S_ .f32 0x7F800000#32
  let main_v40 : FVec F S2x3x64 .f32 := broadcastInDim S2x3x64 ![] bcast_S_S2x3x64 main_cst_14
  let main_v41 : IVec S2x3x64 1 := cmpf .olt main_v39 main_v40
  let main_c_15 : IVec S_ 1 := constantI S_ 1 1#1
  let main_v42 : IVec S_ 1 := (fun x v => Host.reduce IntOp.andi x v reducesTo_S2x3x64_S_d0_1_2 h_S_) main_v41 main_c_15
  let main_v43 : IVec S_ 1 := andi main_v38 main_v42
  let main_v44 : FVec F S2x2x64 .f32 := Host.absf main_arg9
  let main_cst_16 : FVec F S_ .f32 := constant S_ .f32 0x7F800000#32
  let main_v45 : FVec F S2x2x64 .f32 := broadcastInDim S2x2x64 ![] bcast_S_S2x2x64 main_cst_16
  let main_v46 : IVec S2x2x64 1 := cmpf .olt main_v44 main_v45
  let main_c_17 : IVec S_ 1 := constantI S_ 1 1#1
  let main_v47 : IVec S_ 1 := (fun x v => Host.reduce IntOp.andi x v reducesTo_S2x2x64_S_d0_1_2 h_S_) main_v46 main_c_17
  let main_v48 : IVec S_ 1 := andi main_v43 main_v47
  let main_v49 : FVec F S2x2x64 .f32 := Host.absf main_arg10
  let main_cst_18 : FVec F S_ .f32 := constant S_ .f32 0x7F800000#32
  let main_v50 : FVec F S2x2x64 .f32 := broadcastInDim S2x2x64 ![] bcast_S_S2x2x64 main_cst_18
  fn_part3 (F := F) main_arg11 main_arg12 main_v48 main_v49 main_v50

def fn_part1 {F : FTy → Type} [FloatOps F] (main_arg4 : FVec F S2x64x64 .f32) (main_arg5 : FVec F S2x64 .f32) (main_arg6 : FVec F S2x3x64x64 .f32) (main_arg7 : FVec F S2x3x64x64 .f32) (main_arg8 : FVec F S2x3x64 .f32) (main_arg9 : FVec F S2x2x64 .f32) (main_arg10 : FVec F S2x2x64 .f32) (main_arg11 : FVec F S200000 .f32) (main_arg12 : FVec F S200000 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S2x64x64 .f32 := Host.absf main_arg4
  let main_cst_6 : FVec F S_ .f32 := constant S_ .f32 0x7F800000#32
  let main_v20 : FVec F S2x64x64 .f32 := broadcastInDim S2x64x64 ![] bcast_S_S2x64x64 main_cst_6
  let main_v21 : IVec S2x64x64 1 := cmpf .olt main_v19 main_v20
  let main_c_7 : IVec S_ 1 := constantI S_ 1 1#1
  let main_v22 : IVec S_ 1 := (fun x v => Host.reduce IntOp.andi x v reducesTo_S2x64x64_S_d0_1_2 h_S_) main_v21 main_c_7
  let main_v23 : IVec S_ 1 := andi main_v18 main_v22
  let main_v24 : FVec F S2x64 .f32 := Host.absf main_arg5
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2x3x64x64 .f32 := Host.absf main_arg6
  let main_cst_10 : FVec F S_ .f32 := constant S_ .f32 0x7F800000#32
  let main_v30 : FVec F S2x3x64x64 .f32 := broadcastInDim S2x3x64x64 ![] bcast_S_S2x3x64x64 main_cst_10
  let main_v31 : IVec S2x3x64x64 1 := cmpf .olt main_v29 main_v30
  let main_c_11 : IVec S_ 1 := constantI S_ 1 1#1
  let main_v32 : IVec S_ 1 := (fun x v => Host.reduce IntOp.andi x v reducesTo_S2x3x64x64_S_d0_1_2_3 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S5000x64 .f32) (main_arg1 : FVec F S5000x64 .f32) (main_arg2 : FVec F S2x64x64 .f32) (main_arg3 : FVec F S2x64 .f32) (main_arg4 : FVec F S2x64x64 .f32) (main_arg5 : FVec F S2x64 .f32) (main_arg6 : FVec F S2x3x64x64 .f32) (main_arg7 : FVec F S2x3x64x64 .f32) (main_arg8 : FVec F S2x3x64 .f32) (main_arg9 : FVec F S2x2x64 .f32) (main_arg10 : FVec F S2x2x64 .f32) (main_arg11 : FVec F S200000 .f32) (main_arg12 : FVec F S200000 .f32) (main_arg13 : IVec S200000 32) (main_arg14 : IVec S200000 32) (main_arg15 : IVec S2x1000000 32) (main_arg16 : IVec S2x1000000 32) (main_arg17 : IVec S2x1000000 32) (main_arg18 : IVec S2x100000 32) (main_arg19 : IVec S2x100000 32) (main_arg20 : IVec S2x100000 32) : IVec S_ 1 :=
  let main_v0 : FVec F S5000x64 .f32 := Host.absf main_arg0
  let main_cst : FVec F S_ .f32 := constant S_ .f32 0x7F800000#32
  let main_v1 : FVec F S5000x64 .f32 := broadcastInDim S5000x64 ![] bcast_S_S5000x64 main_cst
  let main_v2 : IVec S5000x64 1 := cmpf .olt main_v0 main_v1
  let main_c : IVec S_ 1 := constantI S_ 1 1#1
  let main_v3 : IVec S_ 1 := (fun x v => Host.reduce IntOp.andi x v reducesTo_S5000x64_S_d0_1 h_S_) main_v2 main_c
  let main_v4 : FVec F S5000x64 .f32 := Host.absf main_arg1
  let main_cst_0 : FVec F S_ .f32 := constant S_ .f32 0x7F800000#32
  let main_v5 : FVec F S5000x64 .f32 := broadcastInDim S5000x64 ![] bcast_S_S5000x64 main_cst_0
  let main_v6 : IVec S5000x64 1 := cmpf .olt main_v4 main_v5
  let main_c_1 : IVec S_ 1 := constantI S_ 1 1#1
  let main_v7 : IVec S_ 1 := (fun x v => Host.reduce IntOp.andi x v reducesTo_S5000x64_S_d0_1 h_S_) main_v6 main_c_1
  let main_v8 : IVec S_ 1 := andi main_v3 main_v7
  let main_v9 : FVec F S2x64x64 .f32 := Host.absf main_arg2
  let main_cst_2 : FVec F S_ .f32 := constant S_ .f32 0x7F800000#32
  let main_v10 : FVec F S2x64x64 .f32 := broadcastInDim S2x64x64 ![] bcast_S_S2x64x64 main_cst_2
  let main_v11 : IVec S2x64x64 1 := cmpf .olt main_v9 main_v10
  let main_c_3 : IVec S_ 1 := constantI S_ 1 1#1
  let main_v12 : IVec S_ 1 := (fun x v => Host.reduce IntOp.andi x v reducesTo_S2x64x64_S_d0_1_2 h_S_) main_v11 main_c_3
  let main_v13 : IVec S_ 1 := andi main_v8 main_v12
  let main_v14 : FVec F S2x64 .f32 := Host.absf main_arg3
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg4 main_arg5 main_arg6 main_arg7 main_arg8 main_arg9 main_arg10 main_arg11 main_arg12 main_v13 main_v16
-- ==== Kernel.lean ====
abbrev S5000x64 : Shape := ⟨2, ![5000, 64]⟩
abbrev S2x64x64 : Shape := ⟨3, ![2, 64, 64]⟩
abbrev S2x64 : Shape := ⟨2, ![2, 64]⟩
abbrev S2x3x64x64 : Shape := ⟨4, ![2, 3, 64, 64]⟩
abbrev S2x3x64 : Shape := ⟨3, ![2, 3, 64]⟩
abbrev S2x2x64 : Shape := ⟨3, ![2, 2, 64]⟩
abbrev S200000 : Shape := ⟨1, ![200000]⟩
abbrev S2x1000000 : Shape := ⟨2, ![2, 1000000]⟩
abbrev S2x100000 : Shape := ⟨2, ![2, 100000]⟩
abbrev S_ : Shape := ⟨0, ![]⟩
abbrev S200000x1 : Shape := ⟨2, ![200000, 1]⟩
abbrev S200000x64 : Shape := ⟨2, ![200000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S1x1x64x64 : Shape := ⟨4, ![1, 1, 64, 64]⟩
abbrev S1x1x64 : Shape := ⟨3, ![1, 1, 64]⟩
abbrev S1x100000 : Shape := ⟨2, ![1, 100000]⟩
abbrev S100000 : Shape := ⟨1, ![100000]⟩
abbrev S100000x1 : Shape := ⟨2, ![100000, 1]⟩
abbrev S100000x64 : Shape := ⟨2, ![100000, 64]⟩
abbrev S4000x64 : Shape := ⟨2, ![4000, 64]⟩
abbrev S4000x1 : Shape := ⟨2, ![4000, 1]⟩
abbrev S4000 : Shape := ⟨1, ![4000]⟩
abbrev S6x100000 : Shape := ⟨2, ![6, 100000]⟩

abbrev nBuf : Space → Nat
  | .hbm => 499
  | .vmem => 108
  | .smem => 0
  | _ => 0

abbrev hbmTy0_0 (i : Nat) : BufTy := match i % 128 with
  | 0 => ⟨S5000x64, .f32⟩
  | 1 => ⟨S5000x64, .f32⟩
  | 2 => ⟨S2x64x64, .f32⟩
  | 3 => ⟨S2x64, .f32⟩
  | 4 => ⟨S2x64x64, .f32⟩
  | 5 => ⟨S2x64, .f32⟩
  | 6 => ⟨S2x3x64x64, .f32⟩
  | 7 => ⟨S2x3x64x64, .f32⟩
  | 8 => ⟨S2x3x64, .f32⟩
  | 9 => ⟨S2x2x64, .f32⟩
  | 10 => ⟨S2x2x64, .f32⟩
  | 11 => ⟨S200000, .f32⟩
  | 12 => ⟨S200000, .f32⟩
  | 13 => ⟨S200000, .i32⟩
  | 14 => ⟨S200000, .i32⟩
  | 15 => ⟨S2x1000000, .i32⟩
  | 16 => ⟨S2x1000000, .i32⟩
  | 17 => ⟨S2x1000000, .i32⟩
  | 18 => ⟨S2x100000, .i32⟩
  | 19 => ⟨S2x100000, .i32⟩
  | 20 => ⟨S2x100000, .i32⟩
  | 21 => ⟨S_, .i32⟩
  | 22 => ⟨S200000, .i32⟩
  | 23 => ⟨S200000, .i1⟩
  | 24 => ⟨S_, .i32⟩
  | 25 => ⟨S200000, .i32⟩
  | 26 => ⟨S200000, .i32⟩
  | 27 => ⟨S200000, .i32⟩
  | 28 => ⟨S200000x1, .i32⟩
  | 29 => ⟨S200000x64, .f32⟩
  | 30 => ⟨S_, .i32⟩
  | 31 => ⟨S200000, .i32⟩
  | 32 => ⟨S200000, .i1⟩
  | 33 => ⟨S_, .i32⟩
  | 34 => ⟨S200000, .i32⟩
  | 35 => ⟨S200000, .i32⟩
  | 36 => ⟨S200000, .i32⟩
  | 37 => ⟨S200000x1, .i32⟩
  | 38 => ⟨S200000x64, .f32⟩
  | 39 => ⟨S200000x64, .f32⟩
  | 40 => ⟨S200000x64, .f32⟩
  | 41 => ⟨S1x1000000, .i32⟩
  | 42 => ⟨S1000000, .i32⟩
  | 43 => ⟨S1x1000000, .i32⟩
  | 44 => ⟨S1000000, .i32⟩
  | 45 => ⟨S_, .i32⟩
  | 46 => ⟨S1000000, .i32⟩
  | 47 => ⟨S1000000, .i1⟩
  | 48 => ⟨S_, .i32⟩
  | 49 => ⟨S1000000, .i32⟩
  | 50 => ⟨S1000000, .i32⟩
  | 51 => ⟨S1000000, .i32⟩
  | 52 => ⟨S1000000x1, .i32⟩
  | 53 => ⟨S1000000x64, .f32⟩
  | 54 => ⟨S_, .f32⟩
  | 55 => ⟨S200000x64, .f32⟩
  | 56 => ⟨S1000000x1, .i32⟩
  | 57 => ⟨S200000x64, .f32⟩
  | 58 => ⟨S_, .f32⟩
  | 59 => ⟨S1000000, .f32⟩
  | 60 => ⟨S_, .f32⟩
  | 61 => ⟨S200000, .f32⟩
  | 62 => ⟨S1000000x1, .i32⟩
  | 63 => ⟨S200000, .f32⟩
  | 64 => ⟨S200000x1, .f32⟩
  | 65 => ⟨S_, .f32⟩
  | 66 => ⟨S200000x1, .f32⟩
  | 67 => ⟨S200000x1, .f32⟩
  | 68 => ⟨S200000x64, .f32⟩
  | 69 => ⟨S200000x64, .f32⟩
  | 70 => ⟨S1x1000000, .i32⟩
  | 71 => ⟨S1000000, .i32⟩
  | 72 => ⟨S1x1000000, .i32⟩
  | 73 => ⟨S1000000, .i32⟩
  | 74 => ⟨S_, .i32⟩
  | 75 => ⟨S1000000, .i32⟩
  | 76 => ⟨S1000000, .i1⟩
  | 77 => ⟨S_, .i32⟩
  | 78 => ⟨S1000000, .i32⟩
  | 79 => ⟨S1000000, .i32⟩
  | 80 => ⟨S1000000, .i32⟩
  | 81 => ⟨S1000000x1, .i32⟩
  | 82 => ⟨S1000000x64, .f32⟩
  | 83 => ⟨S_, .f32⟩
  | 84 => ⟨S200000x64, .f32⟩
  | 85 => ⟨S1000000x1, .i32⟩
  | 86 => ⟨S200000x64, .f32⟩
  | 87 => ⟨S_, .f32⟩
  | 88 => ⟨S1000000, .f32⟩
  | 89 => ⟨S_, .f32⟩
  | 90 => ⟨S200000, .f32⟩
  | 91 => ⟨S1000000x1, .i32⟩
  | 92 => ⟨S200000, .f32⟩
  | 93 => ⟨S200000x1, .f32⟩
  | 94 => ⟨S_, .f32⟩
  | 95 => ⟨S200000x1, .f32⟩
  | 96 => ⟨S200000x1, .f32⟩
  | 97 => ⟨S200000x64, .f32⟩
  | 98 => ⟨S200000x64, .f32⟩
  | 99 => ⟨S1x1000000, .i32⟩
  | 100 => ⟨S1000000, .i32⟩
  | 101 => ⟨S1x1000000, .i32⟩
  | 102 => ⟨S1000000, .i32⟩
  | 103 => ⟨S_, .i32⟩
  | 104 => ⟨S1000000, .i32⟩
  | 105 => ⟨S1000000, .i1⟩
  | 106 => ⟨S_, .i32⟩
  | 107 => ⟨S1000000, .i32⟩
  | 108 => ⟨S1000000, .i32⟩
  | 109 => ⟨S1000000, .i32⟩
  | 110 => ⟨S1000000x1, .i32⟩
  | 111 => ⟨S1000000x64, .f32⟩
  | 112 => ⟨S_, .f32⟩
  | 113 => ⟨S200000x64, .f32⟩
  | 114 => ⟨S1000000x1, .i32⟩
  | 115 => ⟨S200000x64, .f32⟩
  | 116 => ⟨S_, .f32⟩
  | 117 => ⟨S1000000, .f32⟩
  | 118 => ⟨S_, .f32⟩
  | 119 => ⟨S200000, .f32⟩
  | 120 => ⟨S1000000x1, .i32⟩
  | 121 => ⟨S200000, .f32⟩
  | 122 => ⟨S200000x1, .f32⟩
  | 123 => ⟨S_, .f32⟩
  | 124 => ⟨S200000x1, .f32⟩
  | 125 => ⟨S200000x1, .f32⟩
  | 126 => ⟨S200000x64, .f32⟩
  | 127 => ⟨S200000x64, .f32⟩
  | _ => ⟨S5000x64, .f32⟩

abbrev hbmTy0_1 (i : Nat) : BufTy := match i % 128 with
  | 0 => ⟨S1x1x64x64, .f32⟩
  | 1 => ⟨S64x64, .f32⟩
  | 2 => ⟨S1x1x64x64, .f32⟩
  | 3 => ⟨S64x64, .f32⟩
  | 4 => ⟨S1x1x64, .f32⟩
  | 5 => ⟨S64, .f32⟩
  | 6 => ⟨S200000x64, .f32⟩
  | 7 => ⟨S1x1x64x64, .f32⟩
  | 8 => ⟨S64x64, .f32⟩
  | 9 => ⟨S1x1x64x64, .f32⟩
  | 10 => ⟨S64x64, .f32⟩
  | 11 => ⟨S1x1x64, .f32⟩
  | 12 => ⟨S64, .f32⟩
  | 13 => ⟨S1x1x64x64, .f32⟩
  | 14 => ⟨S64x64, .f32⟩
  | 15 => ⟨S1x1x64x64, .f32⟩
  | 16 => ⟨S64x64, .f32⟩
  | 17 => ⟨S1x1x64, .f32⟩
  | 18 => ⟨S64, .f32⟩
  | 19 => ⟨S200000x64, .f32⟩
  | 20 => ⟨S_, .f32⟩
  | 21 => ⟨S64, .f32⟩
  | 22 => ⟨S_, .f32⟩
  | 23 => ⟨S64, .f32⟩
  | 24 => ⟨S64, .f32⟩
  | 25 => ⟨S_, .i32⟩
  | 26 => ⟨S_, .f32⟩
  | 27 => ⟨S64, .f32⟩
  | 28 => ⟨S1x64, .f32⟩
  | 29 => ⟨S_, .f32⟩
  | 30 => ⟨S1x64, .f32⟩
  | 31 => ⟨S1x64, .f32⟩
  | 32 => ⟨S200000x64, .f32⟩
  | 33 => ⟨S200000x64, .f32⟩
  | 34 => ⟨S200000x64, .f32⟩
  | 35 => ⟨S_, .f32⟩
  | 36 => ⟨S_, .f32⟩
  | 37 => ⟨S_, .f32⟩
  | 38 => ⟨S_, .f32⟩
  | 39 => ⟨S64, .f32⟩
  | 40 => ⟨S64, .f32⟩
  | 41 => ⟨S64, .f32⟩
  | 42 => ⟨S_, .f32⟩
  | 43 => ⟨S_, .i1⟩
  | 44 => ⟨S_, .f32⟩
  | 45 => ⟨S_, .f32⟩
  | 46 => ⟨S64, .f32⟩
  | 47 => ⟨S64, .f32⟩
  | 48 => ⟨S_, .f32⟩
  | 49 => ⟨S64, .f32⟩
  | 50 => ⟨S_, .f32⟩
  | 51 => ⟨S64, .f32⟩
  | 52 => ⟨S64, .f32⟩
  | 53 => ⟨S_, .i32⟩
  | 54 => ⟨S_, .f32⟩
  | 55 => ⟨S64, .f32⟩
  | 56 => ⟨S1x64, .f32⟩
  | 57 => ⟨S_, .f32⟩
  | 58 => ⟨S1x64, .f32⟩
  | 59 => ⟨S1x64, .f32⟩
  | 60 => ⟨S200000x64, .f32⟩
  | 61 => ⟨S200000x64, .f32⟩
  | 62 => ⟨S200000x64, .f32⟩
  | 63 => ⟨S_, .f32⟩
  | 64 => ⟨S_, .f32⟩
  | 65 => ⟨S_, .f32⟩
  | 66 => ⟨S_, .f32⟩
  | 67 => ⟨S64, .f32⟩
  | 68 => ⟨S64, .f32⟩
  | 69 => ⟨S64, .f32⟩
  | 70 => ⟨S_, .f32⟩
  | 71 => ⟨S_, .i1⟩
  | 72 => ⟨S_, .f32⟩
  | 73 => ⟨S_, .f32⟩
  | 74 => ⟨S64, .f32⟩
  | 75 => ⟨S64, .f32⟩
  | 76 => ⟨S1x1x64, .f32⟩
  | 77 => ⟨S64, .f32⟩
  | 78 => ⟨S1x1x64, .f32⟩
  | 79 => ⟨S64, .f32⟩
  | 80 => ⟨S200000x64, .f32⟩
  | 81 => ⟨S1x1x64, .f32⟩
  | 82 => ⟨S64, .f32⟩
  | 83 => ⟨S1x1x64, .f32⟩
  | 84 => ⟨S64, .f32⟩
  | 85 => ⟨S200000x64, .f32⟩
  | 86 => ⟨S1x1000000, .i32⟩
  | 87 => ⟨S1000000, .i32⟩
  | 88 => ⟨S1x1000000, .i32⟩
  | 89 => ⟨S1000000, .i32⟩
  | 90 => ⟨S_, .i32⟩
  | 91 => ⟨S1000000, .i32⟩
  | 92 => ⟨S1000000, .i1⟩
  | 93 => ⟨S_, .i32⟩
  | 94 => ⟨S1000000, .i32⟩
  | 95 => ⟨S1000000, .i32⟩
  | 96 => ⟨S1000000, .i32⟩
  | 97 => ⟨S1000000x1, .i32⟩
  | 98 => ⟨S1000000x64, .f32⟩
  | 99 => ⟨S_, .f32⟩
  | 100 => ⟨S200000x64, .f32⟩
  | 101 => ⟨S1000000x1, .i32⟩
  | 102 => ⟨S200000x64, .f32⟩
  | 103 => ⟨S_, .f32⟩
  | 104 => ⟨S1000000, .f32⟩
  | 105 => ⟨S_, .f32⟩
  | 106 => ⟨S200000, .f32⟩
  | 107 => ⟨S1000000x1, .i32⟩
  | 108 => ⟨S200000, .f32⟩
  | 109 => ⟨S200000x1, .f32⟩
  | 110 => ⟨S_, .f32⟩
  | 111 => ⟨S200000x1, .f32⟩
  | 112 => ⟨S200000x1, .f32⟩
  | 113 => ⟨S200000x64, .f32⟩
  | 114 => ⟨S200000x64, .f32⟩
  | 115 => ⟨S1x1000000, .i32⟩
  | 116 => ⟨S1000000, .i32⟩
  | 117 => ⟨S1x1000000, .i32⟩
  | 118 => ⟨S1000000, .i32⟩
  | 119 => ⟨S_, .i32⟩
  | 120 => ⟨S1000000, .i32⟩
  | 121 => ⟨S1000000, .i1⟩
  | 122 => ⟨S_, .i32⟩
  | 123 => ⟨S1000000, .i32⟩
  | 124 => ⟨S1000000, .i32⟩
  | 125 => ⟨S1000000, .i32⟩
  | 126 => ⟨S1000000x1, .i32⟩
  | 127 => ⟨S1000000x64, .f32⟩
  | _ => ⟨S5000x64, .f32⟩

abbrev hbmTy0_2 (i : Nat) : BufTy := match i % 128 with
  | 0 => ⟨S_, .f32⟩
  | 1 => ⟨S200000x64, .f32⟩
  | 2 => ⟨S1000000x1, .i32⟩
  | 3 => ⟨S200000x64, .f32⟩
  | 4 => ⟨S_, .f32⟩
  | 5 => ⟨S1000000, .f32⟩
  | 6 => ⟨S_, .f32⟩
  | 7 => ⟨S200000, .f32⟩
  | 8 => ⟨S1000000x1, .i32⟩
  | 9 => ⟨S200000, .f32⟩
  | 10 => ⟨S200000x1, .f32⟩
  | 11 => ⟨S_, .f32⟩
  | 12 => ⟨S200000x1, .f32⟩
  | 13 => ⟨S200000x1, .f32⟩
  | 14 => ⟨S200000x64, .f32⟩
  | 15 => ⟨S200000x64, .f32⟩
  | 16 => ⟨S1x1000000, .i32⟩
  | 17 => ⟨S1000000, .i32⟩
  | 18 => ⟨S1x1000000, .i32⟩
  | 19 => ⟨S1000000, .i32⟩
  | 20 => ⟨S_, .i32⟩
  | 21 => ⟨S1000000, .i32⟩
  | 22 => ⟨S1000000, .i1⟩
  | 23 => ⟨S_, .i32⟩
  | 24 => ⟨S1000000, .i32⟩
  | 25 => ⟨S1000000, .i32⟩
  | 26 => ⟨S1000000, .i32⟩
  | 27 => ⟨S1000000x1, .i32⟩
  | 28 => ⟨S1000000x64, .f32⟩
  | 29 => ⟨S_, .f32⟩
  | 30 => ⟨S200000x64, .f32⟩
  | 31 => ⟨S1000000x1, .i32⟩
  | 32 => ⟨S200000x64, .f32⟩
  | 33 => ⟨S_, .f32⟩
  | 34 => ⟨S1000000, .f32⟩
  | 35 => ⟨S_, .f32⟩
  | 36 => ⟨S200000, .f32⟩
  | 37 => ⟨S1000000x1, .i32⟩
  | 38 => ⟨S200000, .f32⟩
  | 39 => ⟨S200000x1, .f32⟩
  | 40 => ⟨S_, .f32⟩
  | 41 => ⟨S200000x1, .f32⟩
  | 42 => ⟨S200000x1, .f32⟩
  | 43 => ⟨S200000x64, .f32⟩
  | 44 => ⟨S200000x64, .f32⟩
  | 45 => ⟨S1x1x64x64, .f32⟩
  | 46 => ⟨S64x64, .f32⟩
  | 47 => ⟨S1x1x64x64, .f32⟩
  | 48 => ⟨S64x64, .f32⟩
  | 49 => ⟨S1x1x64, .f32⟩
  | 50 => ⟨S64, .f32⟩
  | 51 => ⟨S200000x64, .f32⟩
  | 52 => ⟨S1x1x64x64, .f32⟩
  | 53 => ⟨S64x64, .f32⟩
  | 54 => ⟨S1x1x64x64, .f32⟩
  | 55 => ⟨S64x64, .f32⟩
  | 56 => ⟨S1x1x64, .f32⟩
  | 57 => ⟨S64, .f32⟩
  | 58 => ⟨S1x1x64x64, .f32⟩
  | 59 => ⟨S64x64, .f32⟩
  | 60 => ⟨S1x1x64x64, .f32⟩
  | 61 => ⟨S64x64, .f32⟩
  | 62 => ⟨S1x1x64, .f32⟩
  | 63 => ⟨S64, .f32⟩
  | 64 => ⟨S200000x64, .f32⟩
  | 65 => ⟨S_, .f32⟩
  | 66 => ⟨S64, .f32⟩
  | 67 => ⟨S_, .f32⟩
  | 68 => ⟨S64, .f32⟩
  | 69 => ⟨S64, .f32⟩
  | 70 => ⟨S_, .i32⟩
  | 71 => ⟨S_, .f32⟩
  | 72 => ⟨S64, .f32⟩
  | 73 => ⟨S1x64, .f32⟩
  | 74 => ⟨S_, .f32⟩
  | 75 => ⟨S1x64, .f32⟩
  | 76 => ⟨S1x64, .f32⟩
  | 77 => ⟨S200000x64, .f32⟩
  | 78 => ⟨S200000x64, .f32⟩
  | 79 => ⟨S200000x64, .f32⟩
  | 80 => ⟨S_, .f32⟩
  | 81 => ⟨S_, .f32⟩
  | 82 => ⟨S_, .f32⟩
  | 83 => ⟨S_, .f32⟩
  | 84 => ⟨S64, .f32⟩
  | 85 => ⟨S64, .f32⟩
  | 86 => ⟨S64, .f32⟩
  | 87 => ⟨S_, .f32⟩
  | 88 => ⟨S_, .i1⟩
  | 89 => ⟨S_, .f32⟩
  | 90 => ⟨S_, .f32⟩
  | 91 => ⟨S64, .f32⟩
  | 92 => ⟨S64, .f32⟩
  | 93 => ⟨S_, .f32⟩
  | 94 => ⟨S64, .f32⟩
  | 95 => ⟨S_, .f32⟩
  | 96 => ⟨S64, .f32⟩
  | 97 => ⟨S64, .f32⟩
  | 98 => ⟨S_, .i32⟩
  | 99 => ⟨S_, .f32⟩
  | 100 => ⟨S64, .f32⟩
  | 101 => ⟨S1x64, .f32⟩
  | 102 => ⟨S_, .f32⟩
  | 103 => ⟨S1x64, .f32⟩
  | 104 => ⟨S1x64, .f32⟩
  | 105 => ⟨S200000x64, .f32⟩
  | 106 => ⟨S200000x64, .f32⟩
  | 107 => ⟨S200000x64, .f32⟩
  | 108 => ⟨S_, .f32⟩
  | 109 => ⟨S_, .f32⟩
  | 110 => ⟨S_, .f32⟩
  | 111 => ⟨S_, .f32⟩
  | 112 => ⟨S64, .f32⟩
  | 113 => ⟨S64, .f32⟩
  | 114 => ⟨S64, .f32⟩
  | 115 => ⟨S_, .f32⟩
  | 116 => ⟨S_, .i1⟩
  | 117 => ⟨S_, .f32⟩
  | 118 => ⟨S_, .f32⟩
  | 119 => ⟨S64, .f32⟩
  | 120 => ⟨S64, .f32⟩
  | 121 => ⟨S1x1x64, .f32⟩
  | 122 => ⟨S64, .f32⟩
  | 123 => ⟨S1x1x64, .f32⟩
  | 124 => ⟨S64, .f32⟩
  | 125 => ⟨S200000x64, .f32⟩
  | 126 => ⟨S1x1x64, .f32⟩
  | 127 => ⟨S64, .f32⟩
  | _ => ⟨S5000x64, .f32⟩

abbrev hbmTy0_3 (i : Nat) : BufTy := match i % 128 with
  | 0 => ⟨S1x1x64, .f32⟩
  | 1 => ⟨S64, .f32⟩
  | 2 => ⟨S200000x64, .f32⟩
  | 3 => ⟨S1x100000, .i32⟩
  | 4 => ⟨S100000, .i32⟩
  | 5 => ⟨S_, .i32⟩
  | 6 => ⟨S100000, .i32⟩
  | 7 => ⟨S100000, .i1⟩
  | 8 => ⟨S_, .i32⟩
  | 9 => ⟨S100000, .i32⟩
  | 10 => ⟨S100000, .i32⟩
  | 11 => ⟨S100000, .i32⟩
  | 12 => ⟨S100000x1, .i32⟩
  | 13 => ⟨S100000x64, .f32⟩
  | 14 => ⟨S1x100000, .i32⟩
  | 15 => ⟨S100000, .i32⟩
  | 16 => ⟨S_, .i32⟩
  | 17 => ⟨S100000, .i32⟩
  | 18 => ⟨S100000, .i1⟩
  | 19 => ⟨S_, .i32⟩
  | 20 => ⟨S100000, .i32⟩
  | 21 => ⟨S100000, .i32⟩
  | 22 => ⟨S100000, .i32⟩
  | 23 => ⟨S100000x1, .i32⟩
  | 24 => ⟨S100000x64, .f32⟩
  | 25 => ⟨S100000x1, .f32⟩
  | 26 => ⟨S100000, .f32⟩
  | 27 => ⟨S1x100000, .i32⟩
  | 28 => ⟨S100000, .i32⟩
  | 29 => ⟨S_, .i32⟩
  | 30 => ⟨S100000, .i32⟩
  | 31 => ⟨S100000, .i1⟩
  | 32 => ⟨S_, .i32⟩
  | 33 => ⟨S100000, .i32⟩
  | 34 => ⟨S100000, .i32⟩
  | 35 => ⟨S100000, .i32⟩
  | 36 => ⟨S100000x1, .i32⟩
  | 37 => ⟨S100000, .f32⟩
  | 38 => ⟨S1x100000, .i32⟩
  | 39 => ⟨S100000, .i32⟩
  | 40 => ⟨S_, .i32⟩
  | 41 => ⟨S100000, .i32⟩
  | 42 => ⟨S100000, .i1⟩
  | 43 => ⟨S_, .i32⟩
  | 44 => ⟨S100000, .i32⟩
  | 45 => ⟨S100000, .i32⟩
  | 46 => ⟨S100000, .i32⟩
  | 47 => ⟨S100000x1, .i32⟩
  | 48 => ⟨S100000x64, .f32⟩
  | 49 => ⟨S1x100000, .i32⟩
  | 50 => ⟨S100000, .i32⟩
  | 51 => ⟨S_, .i32⟩
  | 52 => ⟨S100000, .i32⟩
  | 53 => ⟨S100000, .i1⟩
  | 54 => ⟨S_, .i32⟩
  | 55 => ⟨S100000, .i32⟩
  | 56 => ⟨S100000, .i32⟩
  | 57 => ⟨S100000, .i32⟩
  | 58 => ⟨S100000x1, .i32⟩
  | 59 => ⟨S100000x64, .f32⟩
  | 60 => ⟨S100000x1, .f32⟩
  | 61 => ⟨S100000, .f32⟩
  | 62 => ⟨S1x100000, .i32⟩
  | 63 => ⟨S100000, .i32⟩
  | 64 => ⟨S_, .i32⟩
  | 65 => ⟨S100000, .i32⟩
  | 66 => ⟨S100000, .i1⟩
  | 67 => ⟨S_, .i32⟩
  | 68 => ⟨S100000, .i32⟩
  | 69 => ⟨S100000, .i32⟩
  | 70 => ⟨S100000, .i32⟩
  | 71 => ⟨S100000x1, .i32⟩
  | 72 => ⟨S100000, .f32⟩
  | 73 => ⟨S1x100000, .i32⟩
  | 74 => ⟨S100000, .i32⟩
  | 75 => ⟨S_, .i32⟩
  | 76 => ⟨S100000, .i32⟩
  | 77 => ⟨S100000, .i1⟩
  | 78 => ⟨S_, .i32⟩
  | 79 => ⟨S100000, .i32⟩
  | 80 => ⟨S100000, .i32⟩
  | 81 => ⟨S100000, .i32⟩
  | 82 => ⟨S100000x1, .i32⟩
  | 83 => ⟨S100000x64, .f32⟩
  | 84 => ⟨S1x100000, .i32⟩
  | 85 => ⟨S100000, .i32⟩
  | 86 => ⟨S_, .i32⟩
  | 87 => ⟨S100000, .i32⟩
  | 88 => ⟨S100000, .i1⟩
  | 89 => ⟨S_, .i32⟩
  | 90 => ⟨S100000, .i32⟩
  | 91 => ⟨S100000, .i32⟩
  | 92 => ⟨S100000, .i32⟩
  | 93 => ⟨S100000x1, .i32⟩
  | 94 => ⟨S100000x64, .f32⟩
  | 95 => ⟨S100000x1, .f32⟩
  | 96 => ⟨S100000, .f32⟩
  | 97 => ⟨S1x100000, .i32⟩
  | 98 => ⟨S100000, .i32⟩
  | 99 => ⟨S_, .i32⟩
  | 100 => ⟨S100000, .i32⟩
  | 101 => ⟨S100000, .i1⟩
  | 102 => ⟨S_, .i32⟩
  | 103 => ⟨S100000, .i32⟩
  | 104 => ⟨S100000, .i32⟩
  | 105 => ⟨S100000, .i32⟩
  | 106 => ⟨S100000x1, .i32⟩
  | 107 => ⟨S100000, .f32⟩
  | 108 => ⟨S1x100000, .f32⟩
  | 109 => ⟨S1x100000, .f32⟩
  | 110 => ⟨S1x100000, .f32⟩
  | 111 => ⟨S1x100000, .f32⟩
  | 112 => ⟨S1x100000, .f32⟩
  | 113 => ⟨S1x100000, .f32⟩
  | 114 => ⟨S6x100000, .f32⟩
  | _ => ⟨S5000x64, .f32⟩

abbrev hbmTy (i : Nat) : BufTy := match i / 128 with
  | 0 => hbmTy0_0 i
  | 1 => hbmTy0_1 i
  | 2 => hbmTy0_2 i
  | 3 => hbmTy0_3 i
  | _ => ⟨S5000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S2x64x64, .f32⟩
  | .local _ .vmem, ⟨3, _⟩ => ⟨S2x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S2x64x64, .f32⟩
  | .local _ .vmem, ⟨9, _⟩ => ⟨S2x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S64x64, .f32⟩
  | .local _ .vmem, ⟨18, _⟩ => ⟨S64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S64x64, .f32⟩
  | .local _ .vmem, ⟨28, _⟩ => ⟨S64x64, .f32⟩
  | .local _ .vmem, ⟨29, _⟩ => ⟨S64, .f32⟩
  | .local _ .vmem, ⟨30, _⟩ => ⟨S64x64, .f32⟩
  | .local _ .vmem, ⟨31, _⟩ => ⟨S64x64, .f32⟩
  | .local _ .vmem, ⟨32, _⟩ => ⟨S64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S64, .f32⟩
  | .local _ .vmem, ⟨38, _⟩ => ⟨S64, .f32⟩
  | .local _ .vmem, ⟨39, _⟩ => ⟨S64, .f32⟩
  | .local _ .vmem, ⟨40, _⟩ => ⟨S64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S64, .f32⟩
  | .local _ .vmem, ⟨46, _⟩ => ⟨S64, .f32⟩
  | .local _ .vmem, ⟨47, _⟩ => ⟨S64, .f32⟩
  | .local _ .vmem, ⟨48, _⟩ => ⟨S64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S64x64, .f32⟩
  | .local _ .vmem, ⟨56, _⟩ => ⟨S64x64, .f32⟩
  | .local _ .vmem, ⟨57, _⟩ => ⟨S64, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S5000x64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S5000x64, .f32⟩
  | .local _ .vmem, ⟨66, _⟩ => ⟨S64x64, .f32⟩
  | .local _ .vmem, ⟨67, _⟩ => ⟨S64x64, .f32⟩
  | .local _ .vmem, ⟨68, _⟩ => ⟨S64, .f32⟩
  | .local _ .vmem, ⟨69, _⟩ => ⟨S64x64, .f32⟩
  | .local _ .vmem, ⟨70, _⟩ => ⟨S64x64, .f32⟩
  | .local _ .vmem, ⟨71, _⟩ => ⟨S64, .f32⟩
  | .local _ .vmem, ⟨72, _⟩ => ⟨S5000x64, .f32⟩
  | .local _ .vmem, ⟨73, _⟩ => ⟨S5000x64, .f32⟩
  | .local _ .vmem, ⟨74, _⟩ => ⟨S5000x64, .f32⟩
  | .local _ .vmem, ⟨75, _⟩ => ⟨S5000x64, .f32⟩
  | .local _ .vmem, ⟨76, _⟩ => ⟨S64, .f32⟩
  | .local _ .vmem, ⟨77, _⟩ => ⟨S64, .f32⟩
  | .local _ .vmem, ⟨78, _⟩ => ⟨S64, .f32⟩
  | .local _ .vmem, ⟨79, _⟩ => ⟨S64, .f32⟩
  | .local _ .vmem, ⟨80, _⟩ => ⟨S5000x64, .f32⟩
  | .local _ .vmem, ⟨81, _⟩ => ⟨S5000x64, .f32⟩
  | .local _ .vmem, ⟨82, _⟩ => ⟨S5000x64, .f32⟩
  | .local _ .vmem, ⟨83, _⟩ => ⟨S5000x64, .f32⟩
  | .local _ .vmem, ⟨84, _⟩ => ⟨S64, .f32⟩
  | .local _ .vmem, ⟨85, _⟩ => ⟨S64, .f32⟩
  | .local _ .vmem, ⟨86, _⟩ => ⟨S64, .f32⟩
  | .local _ .vmem, ⟨87, _⟩ => ⟨S64, .f32⟩
  | .local _ .vmem, ⟨88, _⟩ => ⟨S5000x64, .f32⟩
  | .local _ .vmem, ⟨89, _⟩ => ⟨S5000x64, .f32⟩
  | .local _ .vmem, ⟨90, _⟩ => ⟨S4000x64, .f32⟩
  | .local _ .vmem, ⟨91, _⟩ => ⟨S4000x64, .f32⟩
  | .local _ .vmem, ⟨92, _⟩ => ⟨S4000x64, .f32⟩
  | .local _ .vmem, ⟨93, _⟩ => ⟨S4000x64, .f32⟩
  | .local _ .vmem, ⟨94, _⟩ => ⟨S4000x1, .f32⟩
  | .local _ .vmem, ⟨95, _⟩ => ⟨S4000x1, .f32⟩
  | .local _ .vmem, ⟨96, _⟩ => ⟨S4000x64, .f32⟩
  | .local _ .vmem, ⟨97, _⟩ => ⟨S4000x64, .f32⟩
  | .local _ .vmem, ⟨98, _⟩ => ⟨S4000x64, .f32⟩
  | .local _ .vmem, ⟨99, _⟩ => ⟨S4000x64, .f32⟩
  | .local _ .vmem, ⟨100, _⟩ => ⟨S4000x1, .f32⟩
  | .local _ .vmem, ⟨101, _⟩ => ⟨S4000x1, .f32⟩
  | .local _ .vmem, ⟨102, _⟩ => ⟨S4000x64, .f32⟩
  | .local _ .vmem, ⟨103, _⟩ => ⟨S4000x64, .f32⟩
  | .local _ .vmem, ⟨104, _⟩ => ⟨S4000x64, .f32⟩
  | .local _ .vmem, ⟨105, _⟩ => ⟨S4000x64, .f32⟩
  | .local _ .vmem, ⟨106, _⟩ => ⟨S4000x1, .f32⟩
  | .local _ .vmem, ⟨107, _⟩ => ⟨S4000x1, .f32⟩
  | _, _ => ⟨S5000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | _, _ => false

abbrev semScoped : Fin 0 → Bool
  | ⟨_, h⟩ => absurd h (Nat.not_lt_zero _)

abbrev dmaSemScoped : Fin 108 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | _ => false

abbrev sig : RefSig :=
  ofTc nBuf bufTy 0 108 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_c_3 : Ref sig .tc := ⟨.hbm, 45, rfl⟩
abbrev main_v20 : Ref sig .tc := ⟨.hbm, 46, rfl⟩
abbrev main_v21 : Ref sig .tc := ⟨.hbm, 47, rfl⟩
abbrev main_c_4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_5 : Ref sig .tc := ⟨.hbm, 58, rfl⟩
abbrev main_v30 : Ref sig .tc := ⟨.hbm, 59, rfl⟩
abbrev main_cst_6 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_7 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_c_8 : Ref sig .tc := ⟨.hbm, 74, rfl⟩
abbrev main_v43 : Ref sig .tc := ⟨.hbm, 75, rfl⟩
abbrev main_v44 : Ref sig .tc := ⟨.hbm, 76, rfl⟩
abbrev main_c_9 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_10 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_11 : Ref sig .tc := ⟨.hbm, 87, rfl⟩
abbrev main_v53 : Ref sig .tc := ⟨.hbm, 88, rfl⟩
abbrev main_cst_12 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_13 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_14 : Ref sig .tc := ⟨.hbm, 103, rfl⟩
abbrev main_v66 : Ref sig .tc := ⟨.hbm, 104, rfl⟩
abbrev main_v67 : Ref sig .tc := ⟨.hbm, 105, rfl⟩
abbrev main_c_15 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_16 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_17 : Ref sig .tc := ⟨.hbm, 116, rfl⟩
abbrev main_v76 : Ref sig .tc := ⟨.hbm, 117, rfl⟩
abbrev main_cst_18 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_19 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_20 : Ref sig .tc := ⟨.hbm, 148, rfl⟩
abbrev main_v105 : Ref sig .tc := ⟨.hbm, 149, rfl⟩
abbrev main_cst_21 : Ref sig .tc := ⟨.hbm, 150, rfl⟩
abbrev main_v106 : Ref sig .tc := ⟨.hbm, 151, rfl⟩
abbrev main_v107 : Ref sig .tc := ⟨.hbm, 152, rfl⟩
abbrev main_c_22 : Ref sig .tc := ⟨.hbm, 153, rfl⟩
abbrev main_call0_cst : Ref sig .tc := ⟨.hbm, 154, rfl⟩
abbrev main_call0_v0 : Ref sig .tc := ⟨.hbm, 155, rfl⟩
abbrev main_call0_v1 : Ref sig .tc := ⟨.hbm, 156, rfl⟩
abbrev main_call0_cst_0 : Ref sig .tc := ⟨.hbm, 157, rfl⟩
abbrev main_call0_v2 : Ref sig .tc := ⟨.hbm, 158, rfl⟩
abbrev main_call0_v3 : Ref sig .tc := ⟨.hbm, 159, rfl⟩
abbrev main_call0_v4 : Ref sig .tc := ⟨.hbm, 160, rfl⟩
abbrev main_call0_v5 : Ref sig .tc := ⟨.hbm, 161, rfl⟩
abbrev main_call0_v6 : Ref sig .tc := ⟨.hbm, 162, rfl⟩
abbrev main_call0_v7 : Ref sig .tc := ⟨.hbm, 163, rfl⟩
abbrev main_call0_cst_1 : Ref sig .tc := ⟨.hbm, 164, rfl⟩
abbrev main_call0_v8 : Ref sig .tc := ⟨.hbm, 165, rfl⟩
abbrev main_call0_cst_2 : Ref sig .tc := ⟨.hbm, 166, rfl⟩
abbrev main_call0_v9 : Ref sig .tc := ⟨.hbm, 167, rfl⟩
abbrev main_call0_v10 : Ref sig .tc := ⟨.hbm, 168, rfl⟩
abbrev main_call0_v11 : Ref sig .tc := ⟨.hbm, 169, rfl⟩
abbrev main_call0_cst_3 : Ref sig .tc := ⟨.hbm, 170, rfl⟩
abbrev main_call0_v12 : Ref sig .tc := ⟨.hbm, 171, rfl⟩
abbrev main_call0_cst_4 : Ref sig .tc := ⟨.hbm, 172, rfl⟩
abbrev main_call0_call0_v0 : Ref sig .tc := ⟨.hbm, 173, rfl⟩
abbrev main_call0_call0_v1 : Ref sig .tc := ⟨.hbm, 174, rfl⟩
abbrev main_v108 : Ref sig .tc := ⟨.hbm, 175, rfl⟩
abbrev main_cst_23 : Ref sig .tc := ⟨.hbm, 176, rfl⟩
abbrev main_v109 : Ref sig .tc := ⟨.hbm, 177, rfl⟩
abbrev main_cst_24 : Ref sig .tc := ⟨.hbm, 178, rfl⟩
abbrev main_v110 : Ref sig .tc := ⟨.hbm, 179, rfl⟩
abbrev main_v111 : Ref sig .tc := ⟨.hbm, 180, rfl⟩
abbrev main_c_25 : Ref sig .tc := ⟨.hbm, 181, rfl⟩
abbrev main_call1_cst : Ref sig .tc := ⟨.hbm, 182, rfl⟩
abbrev main_call1_v0 : Ref sig .tc := ⟨.hbm, 183, rfl⟩
abbrev main_call1_v1 : Ref sig .tc := ⟨.hbm, 184, rfl⟩
abbrev main_call1_cst_0 : Ref sig .tc := ⟨.hbm, 185, rfl⟩
abbrev main_call1_v2 : Ref sig .tc := ⟨.hbm, 186, rfl⟩
abbrev main_call1_v3 : Ref sig .tc := ⟨.hbm, 187, rfl⟩
abbrev main_call1_v4 : Ref sig .tc := ⟨.hbm, 188, rfl⟩
abbrev main_call1_v5 : Ref sig .tc := ⟨.hbm, 189, rfl⟩
abbrev main_call1_v6 : Ref sig .tc := ⟨.hbm, 190, rfl⟩
abbrev main_call1_v7 : Ref sig .tc := ⟨.hbm, 191, rfl⟩
abbrev main_call1_cst_1 : Ref sig .tc := ⟨.hbm, 192, rfl⟩
abbrev main_call1_v8 : Ref sig .tc := ⟨.hbm, 193, rfl⟩
abbrev main_call1_cst_2 : Ref sig .tc := ⟨.hbm, 194, rfl⟩
abbrev main_call1_v9 : Ref sig .tc := ⟨.hbm, 195, rfl⟩
abbrev main_call1_v10 : Ref sig .tc := ⟨.hbm, 196, rfl⟩
abbrev main_call1_v11 : Ref sig .tc := ⟨.hbm, 197, rfl⟩
abbrev main_call1_cst_3 : Ref sig .tc := ⟨.hbm, 198, rfl⟩
abbrev main_call1_v12 : Ref sig .tc := ⟨.hbm, 199, rfl⟩
abbrev main_call1_cst_4 : Ref sig .tc := ⟨.hbm, 200, rfl⟩
abbrev main_call1_call0_v0 : Ref sig .tc := ⟨.hbm, 201, rfl⟩
abbrev main_call1_call0_v1 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_v116 : Ref sig .tc := ⟨.hbm, 207, rfl⟩
abbrev main_v117 : Ref sig .tc := ⟨.hbm, 208, rfl⟩
abbrev main_v118 : Ref sig .tc := ⟨.hbm, 209, rfl⟩
abbrev main_v119 : Ref sig .tc := ⟨.hbm, 210, rfl⟩
abbrev main_v120 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_c_26 : Ref sig .tc := ⟨.hbm, 218, rfl⟩
abbrev main_v127 : Ref sig .tc := ⟨.hbm, 219, rfl⟩
abbrev main_v128 : Ref sig .tc := ⟨.hbm, 220, rfl⟩
abbrev main_c_27 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_v133 : Ref sig .tc := ⟨.hbm, 226, rfl⟩
abbrev main_cst_28 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_cst_29 : Ref sig .tc := ⟨.hbm, 231, rfl⟩
abbrev main_v137 : Ref sig .tc := ⟨.hbm, 232, rfl⟩
abbrev main_cst_30 : Ref sig .tc := ⟨.hbm, 233, rfl⟩
abbrev main_v138 : Ref sig .tc := ⟨.hbm, 234, rfl⟩
abbrev main_v139 : Ref sig .tc := ⟨.hbm, 235, rfl⟩
abbrev main_v140 : Ref sig .tc := ⟨.hbm, 236, rfl⟩
abbrev main_v141 : Ref sig .tc := ⟨.hbm, 237, rfl⟩
abbrev main_cst_31 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_c_32 : Ref sig .tc := ⟨.hbm, 247, rfl⟩
abbrev main_v150 : Ref sig .tc := ⟨.hbm, 248, rfl⟩
abbrev main_v151 : Ref sig .tc := ⟨.hbm, 249, rfl⟩
abbrev main_c_33 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_cst_34 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_35 : Ref sig .tc := ⟨.hbm, 260, rfl⟩
abbrev main_v160 : Ref sig .tc := ⟨.hbm, 261, rfl⟩
abbrev main_cst_36 : Ref sig .tc := ⟨.hbm, 262, rfl⟩
abbrev main_v161 : Ref sig .tc := ⟨.hbm, 263, rfl⟩
abbrev main_v162 : Ref sig .tc := ⟨.hbm, 264, rfl⟩
abbrev main_v163 : Ref sig .tc := ⟨.hbm, 265, rfl⟩
abbrev main_v164 : Ref sig .tc := ⟨.hbm, 266, rfl⟩
abbrev main_cst_37 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_v170 : Ref sig .tc := ⟨.hbm, 273, rfl⟩
abbrev main_v171 : Ref sig .tc := ⟨.hbm, 274, rfl⟩
abbrev main_v172 : Ref sig .tc := ⟨.hbm, 275, rfl⟩
abbrev main_c_38 : Ref sig .tc := ⟨.hbm, 276, rfl⟩
abbrev main_v173 : Ref sig .tc := ⟨.hbm, 277, rfl⟩
abbrev main_v174 : Ref sig .tc := ⟨.hbm, 278, rfl⟩
abbrev main_c_39 : Ref sig .tc := ⟨.hbm, 279, rfl⟩
abbrev main_v175 : Ref sig .tc := ⟨.hbm, 280, rfl⟩
abbrev main_v176 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_cst_40 : Ref sig .tc := ⟨.hbm, 285, rfl⟩
abbrev main_v180 : Ref sig .tc := ⟨.hbm, 286, rfl⟩
abbrev main_v181 : Ref sig .tc := ⟨.hbm, 287, rfl⟩
abbrev main_v182 : Ref sig .tc := ⟨.hbm, 288, rfl⟩
abbrev main_cst_41 : Ref sig .tc := ⟨.hbm, 289, rfl⟩
abbrev main_v183 : Ref sig .tc := ⟨.hbm, 290, rfl⟩
abbrev main_cst_42 : Ref sig .tc := ⟨.hbm, 291, rfl⟩
abbrev main_v184 : Ref sig .tc := ⟨.hbm, 292, rfl⟩
abbrev main_v185 : Ref sig .tc := ⟨.hbm, 293, rfl⟩
abbrev main_v186 : Ref sig .tc := ⟨.hbm, 294, rfl⟩
abbrev main_v187 : Ref sig .tc := ⟨.hbm, 295, rfl⟩
abbrev main_cst_43 : Ref sig .tc := ⟨.hbm, 296, rfl⟩
abbrev main_v188 : Ref sig .tc := ⟨.hbm, 297, rfl⟩
abbrev main_v189 : Ref sig .tc := ⟨.hbm, 298, rfl⟩
abbrev main_v190 : Ref sig .tc := ⟨.hbm, 299, rfl⟩
abbrev main_v191 : Ref sig .tc := ⟨.hbm, 300, rfl⟩
abbrev main_v192 : Ref sig .tc := ⟨.hbm, 301, rfl⟩
abbrev main_v193 : Ref sig .tc := ⟨.hbm, 302, rfl⟩
abbrev main_v194 : Ref sig .tc := ⟨.hbm, 303, rfl⟩
abbrev main_v195 : Ref sig .tc := ⟨.hbm, 304, rfl⟩
abbrev main_v196 : Ref sig .tc := ⟨.hbm, 305, rfl⟩
abbrev main_v197 : Ref sig .tc := ⟨.hbm, 306, rfl⟩
abbrev main_v198 : Ref sig .tc := ⟨.hbm, 307, rfl⟩
abbrev main_v199 : Ref sig .tc := ⟨.hbm, 308, rfl⟩
abbrev main_v200 : Ref sig .tc := ⟨.hbm, 309, rfl⟩
abbrev main_v201 : Ref sig .tc := ⟨.hbm, 310, rfl⟩
abbrev main_v202 : Ref sig .tc := ⟨.hbm, 311, rfl⟩
abbrev main_v203 : Ref sig .tc := ⟨.hbm, 312, rfl⟩
abbrev main_v204 : Ref sig .tc := ⟨.hbm, 313, rfl⟩
abbrev main_v205 : Ref sig .tc := ⟨.hbm, 314, rfl⟩
abbrev main_v206 : Ref sig .tc := ⟨.hbm, 315, rfl⟩
abbrev main_v207 : Ref sig .tc := ⟨.hbm, 316, rfl⟩
abbrev main_v208 : Ref sig .tc := ⟨.hbm, 317, rfl⟩
abbrev main_v209 : Ref sig .tc := ⟨.hbm, 318, rfl⟩
abbrev main_v210 : Ref sig .tc := ⟨.hbm, 319, rfl⟩
abbrev main_v211 : Ref sig .tc := ⟨.hbm, 320, rfl⟩
abbrev main_cst_44 : Ref sig .tc := ⟨.hbm, 321, rfl⟩
abbrev main_v212 : Ref sig .tc := ⟨.hbm, 322, rfl⟩
abbrev main_cst_45 : Ref sig .tc := ⟨.hbm, 323, rfl⟩
abbrev main_v213 : Ref sig .tc := ⟨.hbm, 324, rfl⟩
abbrev main_v214 : Ref sig .tc := ⟨.hbm, 325, rfl⟩
abbrev main_c_46 : Ref sig .tc := ⟨.hbm, 326, rfl⟩
abbrev main_call2_cst : Ref sig .tc := ⟨.hbm, 327, rfl⟩
abbrev main_call2_v0 : Ref sig .tc := ⟨.hbm, 328, rfl⟩
abbrev main_call2_v1 : Ref sig .tc := ⟨.hbm, 329, rfl⟩
abbrev main_call2_cst_0 : Ref sig .tc := ⟨.hbm, 330, rfl⟩
abbrev main_call2_v2 : Ref sig .tc := ⟨.hbm, 331, rfl⟩
abbrev main_call2_v3 : Ref sig .tc := ⟨.hbm, 332, rfl⟩
abbrev main_call2_v4 : Ref sig .tc := ⟨.hbm, 333, rfl⟩
abbrev main_call2_v5 : Ref sig .tc := ⟨.hbm, 334, rfl⟩
abbrev main_call2_v6 : Ref sig .tc := ⟨.hbm, 335, rfl⟩
abbrev main_call2_v7 : Ref sig .tc := ⟨.hbm, 336, rfl⟩
abbrev main_call2_cst_1 : Ref sig .tc := ⟨.hbm, 337, rfl⟩
abbrev main_call2_v8 : Ref sig .tc := ⟨.hbm, 338, rfl⟩
abbrev main_call2_cst_2 : Ref sig .tc := ⟨.hbm, 339, rfl⟩
abbrev main_call2_v9 : Ref sig .tc := ⟨.hbm, 340, rfl⟩
abbrev main_call2_v10 : Ref sig .tc := ⟨.hbm, 341, rfl⟩
abbrev main_call2_v11 : Ref sig .tc := ⟨.hbm, 342, rfl⟩
abbrev main_call2_cst_3 : Ref sig .tc := ⟨.hbm, 343, rfl⟩
abbrev main_call2_v12 : Ref sig .tc := ⟨.hbm, 344, rfl⟩
abbrev main_call2_cst_4 : Ref sig .tc := ⟨.hbm, 345, rfl⟩
abbrev main_call2_call0_v0 : Ref sig .tc := ⟨.hbm, 346, rfl⟩
abbrev main_call2_call0_v1 : Ref sig .tc := ⟨.hbm, 347, rfl⟩
abbrev main_v215 : Ref sig .tc := ⟨.hbm, 348, rfl⟩
abbrev main_cst_47 : Ref sig .tc := ⟨.hbm, 349, rfl⟩
abbrev main_v216 : Ref sig .tc := ⟨.hbm, 350, rfl⟩
abbrev main_cst_48 : Ref sig .tc := ⟨.hbm, 351, rfl⟩
abbrev main_v217 : Ref sig .tc := ⟨.hbm, 352, rfl⟩
abbrev main_v218 : Ref sig .tc := ⟨.hbm, 353, rfl⟩
abbrev main_c_49 : Ref sig .tc := ⟨.hbm, 354, rfl⟩
abbrev main_call3_cst : Ref sig .tc := ⟨.hbm, 355, rfl⟩
abbrev main_call3_v0 : Ref sig .tc := ⟨.hbm, 356, rfl⟩
abbrev main_call3_v1 : Ref sig .tc := ⟨.hbm, 357, rfl⟩
abbrev main_call3_cst_0 : Ref sig .tc := ⟨.hbm, 358, rfl⟩
abbrev main_call3_v2 : Ref sig .tc := ⟨.hbm, 359, rfl⟩
abbrev main_call3_v3 : Ref sig .tc := ⟨.hbm, 360, rfl⟩
abbrev main_call3_v4 : Ref sig .tc := ⟨.hbm, 361, rfl⟩
abbrev main_call3_v5 : Ref sig .tc := ⟨.hbm, 362, rfl⟩
abbrev main_call3_v6 : Ref sig .tc := ⟨.hbm, 363, rfl⟩
abbrev main_call3_v7 : Ref sig .tc := ⟨.hbm, 364, rfl⟩
abbrev main_call3_cst_1 : Ref sig .tc := ⟨.hbm, 365, rfl⟩
abbrev main_call3_v8 : Ref sig .tc := ⟨.hbm, 366, rfl⟩
abbrev main_call3_cst_2 : Ref sig .tc := ⟨.hbm, 367, rfl⟩
abbrev main_call3_v9 : Ref sig .tc := ⟨.hbm, 368, rfl⟩
abbrev main_call3_v10 : Ref sig .tc := ⟨.hbm, 369, rfl⟩
abbrev main_call3_v11 : Ref sig .tc := ⟨.hbm, 370, rfl⟩
abbrev main_call3_cst_3 : Ref sig .tc := ⟨.hbm, 371, rfl⟩
abbrev main_call3_v12 : Ref sig .tc := ⟨.hbm, 372, rfl⟩
abbrev main_call3_cst_4 : Ref sig .tc := ⟨.hbm, 373, rfl⟩
abbrev main_call3_call0_v0 : Ref sig .tc := ⟨.hbm, 374, rfl⟩
abbrev main_call3_call0_v1 : Ref sig .tc := ⟨.hbm, 375, rfl⟩
abbrev main_v219 : Ref sig .tc := ⟨.hbm, 376, rfl⟩
abbrev main_v220 : Ref sig .tc := ⟨.hbm, 377, rfl⟩
abbrev main_v221 : Ref sig .tc := ⟨.hbm, 378, rfl⟩
abbrev main_v222 : Ref sig .tc := ⟨.hbm, 379, rfl⟩
abbrev main_v223 : Ref sig .tc := ⟨.hbm, 380, rfl⟩
abbrev main_v224 : Ref sig .tc := ⟨.hbm, 381, rfl⟩
abbrev main_v225 : Ref sig .tc := ⟨.hbm, 382, rfl⟩
abbrev main_v226 : Ref sig .tc := ⟨.hbm, 383, rfl⟩
abbrev main_v227 : Ref sig .tc := ⟨.hbm, 384, rfl⟩
abbrev main_v228 : Ref sig .tc := ⟨.hbm, 385, rfl⟩
abbrev main_v229 : Ref sig .tc := ⟨.hbm, 386, rfl⟩
abbrev main_v230 : Ref sig .tc := ⟨.hbm, 387, rfl⟩
abbrev main_v231 : Ref sig .tc := ⟨.hbm, 388, rfl⟩
abbrev main_c_50 : Ref sig .tc := ⟨.hbm, 389, rfl⟩
abbrev main_v232 : Ref sig .tc := ⟨.hbm, 390, rfl⟩
abbrev main_v233 : Ref sig .tc := ⟨.hbm, 391, rfl⟩
abbrev main_c_51 : Ref sig .tc := ⟨.hbm, 392, rfl⟩
abbrev main_v234 : Ref sig .tc := ⟨.hbm, 393, rfl⟩
abbrev main_v235 : Ref sig .tc := ⟨.hbm, 394, rfl⟩
abbrev main_v236 : Ref sig .tc := ⟨.hbm, 395, rfl⟩
abbrev main_v237 : Ref sig .tc := ⟨.hbm, 396, rfl⟩
abbrev main_v238 : Ref sig .tc := ⟨.hbm, 397, rfl⟩
abbrev main_v239 : Ref sig .tc := ⟨.hbm, 398, rfl⟩
abbrev main_v240 : Ref sig .tc := ⟨.hbm, 399, rfl⟩
abbrev main_c_52 : Ref sig .tc := ⟨.hbm, 400, rfl⟩
abbrev main_v241 : Ref sig .tc := ⟨.hbm, 401, rfl⟩
abbrev main_v242 : Ref sig .tc := ⟨.hbm, 402, rfl⟩
abbrev main_c_53 : Ref sig .tc := ⟨.hbm, 403, rfl⟩
abbrev main_v243 : Ref sig .tc := ⟨.hbm, 404, rfl⟩
abbrev main_v244 : Ref sig .tc := ⟨.hbm, 405, rfl⟩
abbrev main_v245 : Ref sig .tc := ⟨.hbm, 406, rfl⟩
abbrev main_v246 : Ref sig .tc := ⟨.hbm, 407, rfl⟩
abbrev main_v247 : Ref sig .tc := ⟨.hbm, 408, rfl⟩
abbrev main_v248 : Ref sig .tc := ⟨.hbm, 409, rfl⟩
abbrev main_v249 : Ref sig .tc := ⟨.hbm, 410, rfl⟩
abbrev main_v250 : Ref sig .tc := ⟨.hbm, 411, rfl⟩
abbrev main_v251 : Ref sig .tc := ⟨.hbm, 412, rfl⟩
abbrev main_c_54 : Ref sig .tc := ⟨.hbm, 413, rfl⟩
abbrev main_v252 : Ref sig .tc := ⟨.hbm, 414, rfl⟩
abbrev main_v253 : Ref sig .tc := ⟨.hbm, 415, rfl⟩
abbrev main_c_55 : Ref sig .tc := ⟨.hbm, 416, rfl⟩
abbrev main_v254 : Ref sig .tc := ⟨.hbm, 417, rfl⟩
abbrev main_v255 : Ref sig .tc := ⟨.hbm, 418, rfl⟩
abbrev main_v256 : Ref sig .tc := ⟨.hbm, 419, rfl⟩
abbrev main_v257 : Ref sig .tc := ⟨.hbm, 420, rfl⟩
abbrev main_v258 : Ref sig .tc := ⟨.hbm, 421, rfl⟩
abbrev main_v259 : Ref sig .tc := ⟨.hbm, 422, rfl⟩
abbrev main_v260 : Ref sig .tc := ⟨.hbm, 423, rfl⟩
abbrev main_c_56 : Ref sig .tc := ⟨.hbm, 424, rfl⟩
abbrev main_v261 : Ref sig .tc := ⟨.hbm, 425, rfl⟩
abbrev main_v262 : Ref sig .tc := ⟨.hbm, 426, rfl⟩
abbrev main_c_57 : Ref sig .tc := ⟨.hbm, 427, rfl⟩
abbrev main_v263 : Ref sig .tc := ⟨.hbm, 428, rfl⟩
abbrev main_v264 : Ref sig .tc := ⟨.hbm, 429, rfl⟩
abbrev main_v265 : Ref sig .tc := ⟨.hbm, 430, rfl⟩
abbrev main_v266 : Ref sig .tc := ⟨.hbm, 431, rfl⟩
abbrev main_v267 : Ref sig .tc := ⟨.hbm, 432, rfl⟩
abbrev main_v268 : Ref sig .tc := ⟨.hbm, 433, rfl⟩
abbrev main_v269 : Ref sig .tc := ⟨.hbm, 434, rfl⟩
abbrev main_c_58 : Ref sig .tc := ⟨.hbm, 435, rfl⟩
abbrev main_v270 : Ref sig .tc := ⟨.hbm, 436, rfl⟩
abbrev main_v271 : Ref sig .tc := ⟨.hbm, 437, rfl⟩
abbrev main_c_59 : Ref sig .tc := ⟨.hbm, 438, rfl⟩
abbrev main_v272 : Ref sig .tc := ⟨.hbm, 439, rfl⟩
abbrev main_v273 : Ref sig .tc := ⟨.hbm, 440, rfl⟩
abbrev main_v274 : Ref sig .tc := ⟨.hbm, 441, rfl⟩
abbrev main_v275 : Ref sig .tc := ⟨.hbm, 442, rfl⟩
abbrev main_v276 : Ref sig .tc := ⟨.hbm, 443, rfl⟩
abbrev main_v277 : Ref sig .tc := ⟨.hbm, 444, rfl⟩
abbrev main_v278 : Ref sig .tc := ⟨.hbm, 445, rfl⟩
abbrev main_v279 : Ref sig .tc := ⟨.hbm, 446, rfl⟩
abbrev main_v280 : Ref sig .tc := ⟨.hbm, 447, rfl⟩
abbrev main_c_60 : Ref sig .tc := ⟨.hbm, 448, rfl⟩
abbrev main_v281 : Ref sig .tc := ⟨.hbm, 449, rfl⟩
abbrev main_v282 : Ref sig .tc := ⟨.hbm, 450, rfl⟩
abbrev main_c_61 : Ref sig .tc := ⟨.hbm, 451, rfl⟩
abbrev main_v283 : Ref sig .tc := ⟨.hbm, 452, rfl⟩
abbrev main_v284 : Ref sig .tc := ⟨.hbm, 453, rfl⟩
abbrev main_v285 : Ref sig .tc := ⟨.hbm, 454, rfl⟩
abbrev main_v286 : Ref sig .tc := ⟨.hbm, 455, rfl⟩
abbrev main_v287 : Ref sig .tc := ⟨.hbm, 456, rfl⟩
abbrev main_v288 : Ref sig .tc := ⟨.hbm, 457, rfl⟩
abbrev main_v289 : Ref sig .tc := ⟨.hbm, 458, rfl⟩
abbrev main_c_62 : Ref sig .tc := ⟨.hbm, 459, rfl⟩
abbrev main_v290 : Ref sig .tc := ⟨.hbm, 460, rfl⟩
abbrev main_v291 : Ref sig .tc := ⟨.hbm, 461, rfl⟩
abbrev main_c_63 : Ref sig .tc := ⟨.hbm, 462, rfl⟩
abbrev main_v292 : Ref sig .tc := ⟨.hbm, 463, rfl⟩
abbrev main_v293 : Ref sig .tc := ⟨.hbm, 464, rfl⟩
abbrev main_v294 : Ref sig .tc := ⟨.hbm, 465, rfl⟩
abbrev main_v295 : Ref sig .tc := ⟨.hbm, 466, rfl⟩
abbrev main_v296 : Ref sig .tc := ⟨.hbm, 467, rfl⟩
abbrev main_v297 : Ref sig .tc := ⟨.hbm, 468, rfl⟩
abbrev main_v298 : Ref sig .tc := ⟨.hbm, 469, rfl⟩
abbrev main_c_64 : Ref sig .tc := ⟨.hbm, 470, rfl⟩
abbrev main_v299 : Ref sig .tc := ⟨.hbm, 471, rfl⟩
abbrev main_v300 : Ref sig .tc := ⟨.hbm, 472, rfl⟩
abbrev main_c_65 : Ref sig .tc := ⟨.hbm, 473, rfl⟩
abbrev main_v301 : Ref sig .tc := ⟨.hbm, 474, rfl⟩
abbrev main_v302 : Ref sig .tc := ⟨.hbm, 475, rfl⟩
abbrev main_v303 : Ref sig .tc := ⟨.hbm, 476, rfl⟩
abbrev main_v304 : Ref sig .tc := ⟨.hbm, 477, rfl⟩
abbrev main_v305 : Ref sig .tc := ⟨.hbm, 478, rfl⟩
abbrev main_v306 : Ref sig .tc := ⟨.hbm, 479, rfl⟩
abbrev main_v307 : Ref sig .tc := ⟨.hbm, 480, rfl⟩
abbrev main_v308 : Ref sig .tc := ⟨.hbm, 481, rfl⟩
abbrev main_v309 : Ref sig .tc := ⟨.hbm, 482, rfl⟩
abbrev main_c_66 : Ref sig .tc := ⟨.hbm, 483, rfl⟩
abbrev main_v310 : Ref sig .tc := ⟨.hbm, 484, rfl⟩
abbrev main_v311 : Ref sig .tc := ⟨.hbm, 485, rfl⟩
abbrev main_c_67 : Ref sig .tc := ⟨.hbm, 486, rfl⟩
abbrev main_v312 : Ref sig .tc := ⟨.hbm, 487, rfl⟩
abbrev main_v313 : Ref sig .tc := ⟨.hbm, 488, rfl⟩
abbrev main_v314 : Ref sig .tc := ⟨.hbm, 489, rfl⟩
abbrev main_v315 : Ref sig .tc := ⟨.hbm, 490, rfl⟩
abbrev main_v316 : Ref sig .tc := ⟨.hbm, 491, rfl⟩
abbrev main_v317 : Ref sig .tc := ⟨.hbm, 492, rfl⟩
abbrev main_v318 : Ref sig .tc := ⟨.hbm, 493, rfl⟩
abbrev main_v319 : Ref sig .tc := ⟨.hbm, 494, rfl⟩
abbrev main_v320 : Ref sig .tc := ⟨.hbm, 495, rfl⟩
abbrev main_v321 : Ref sig .tc := ⟨.hbm, 496, rfl⟩
abbrev main_v322 : Ref sig .tc := ⟨.hbm, 497, rfl⟩
abbrev main_v323 : Ref sig .tc := ⟨.hbm, 498, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg8_0 : Ref sig .tc := ⟨.vmem, 32, rfl⟩
abbrev cc3_stg9_0 : Ref sig .tc := ⟨.vmem, 33, rfl⟩
abbrev cc3_stg9_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc6_stg0_0 : Ref sig .tc := ⟨.vmem, 51, rfl⟩
abbrev cc6_stg0_1 : Ref sig .tc := ⟨.vmem, 52, rfl⟩
abbrev cc6_stg1_0 : Ref sig .tc := ⟨.vmem, 53, rfl⟩
abbrev cc6_stg1_1 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg5_0 : Ref sig .tc := ⟨.vmem, 58, rfl⟩
abbrev cc6_stg5_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg1_1 : Ref sig .tc := ⟨.vmem, 63, rfl⟩
abbrev cc7_stg2_0 : Ref sig .tc := ⟨.vmem, 64, rfl⟩
abbrev cc7_stg2_1 : Ref sig .tc := ⟨.vmem, 65, rfl⟩
abbrev cc7_stg3_0 : Ref sig .tc := ⟨.vmem, 66, rfl⟩
abbrev cc7_stg4_0 : Ref sig .tc := ⟨.vmem, 67, rfl⟩
abbrev cc7_stg5_0 : Ref sig .tc := ⟨.vmem, 68, rfl⟩
abbrev cc7_stg6_0 : Ref sig .tc := ⟨.vmem, 69, rfl⟩
abbrev cc7_stg7_0 : Ref sig .tc := ⟨.vmem, 70, rfl⟩
abbrev cc7_stg8_0 : Ref sig .tc := ⟨.vmem, 71, rfl⟩
abbrev cc7_stg9_0 : Ref sig .tc := ⟨.vmem, 72, rfl⟩
abbrev cc7_stg9_1 : Ref sig .tc := ⟨.vmem, 73, rfl⟩
abbrev cc8_stg0_0 : Ref sig .tc := ⟨.vmem, 74, rfl⟩
abbrev cc8_stg0_1 : Ref sig .tc := ⟨.vmem, 75, rfl⟩
abbrev cc8_stg1_0 : Ref sig .tc := ⟨.vmem, 76, rfl⟩
abbrev cc8_stg2_0 : Ref sig .tc := ⟨.vmem, 77, rfl⟩
abbrev cc8_stg3_0 : Ref sig .tc := ⟨.vmem, 78, rfl⟩
abbrev cc8_stg4_0 : Ref sig .tc := ⟨.vmem, 79, rfl⟩
abbrev cc8_stg5_0 : Ref sig .tc := ⟨.vmem, 80, rfl⟩
abbrev cc8_stg5_1 : Ref sig .tc := ⟨.vmem, 81, rfl⟩
abbrev cc9_stg0_0 : Ref sig .tc := ⟨.vmem, 82, rfl⟩
abbrev cc9_stg0_1 : Ref sig .tc := ⟨.vmem, 83, rfl⟩
abbrev cc9_stg1_0 : Ref sig .tc := ⟨.vmem, 84, rfl⟩
abbrev cc9_stg2_0 : Ref sig .tc := ⟨.vmem, 85, rfl⟩
abbrev cc9_stg3_0 : Ref sig .tc := ⟨.vmem, 86, rfl⟩
abbrev cc9_stg4_0 : Ref sig .tc := ⟨.vmem, 87, rfl⟩
abbrev cc9_stg5_0 : Ref sig .tc := ⟨.vmem, 88, rfl⟩
abbrev cc9_stg5_1 : Ref sig .tc := ⟨.vmem, 89, rfl⟩
abbrev cc10_stg0_0 : Ref sig .tc := ⟨.vmem, 90, rfl⟩
abbrev cc10_stg0_1 : Ref sig .tc := ⟨.vmem, 91, rfl⟩
abbrev cc10_stg1_0 : Ref sig .tc := ⟨.vmem, 92, rfl⟩
abbrev cc10_stg1_1 : Ref sig .tc := ⟨.vmem, 93, rfl⟩
abbrev cc10_stg2_0 : Ref sig .tc := ⟨.vmem, 94, rfl⟩
abbrev cc10_stg2_1 : Ref sig .tc := ⟨.vmem, 95, rfl⟩
abbrev cc11_stg0_0 : Ref sig .tc := ⟨.vmem, 96, rfl⟩
abbrev cc11_stg0_1 : Ref sig .tc := ⟨.vmem, 97, rfl⟩
abbrev cc11_stg1_0 : Ref sig .tc := ⟨.vmem, 98, rfl⟩
abbrev cc11_stg1_1 : Ref sig .tc := ⟨.vmem, 99, rfl⟩
abbrev cc11_stg2_0 : Ref sig .tc := ⟨.vmem, 100, rfl⟩
abbrev cc11_stg2_1 : Ref sig .tc := ⟨.vmem, 101, rfl⟩
abbrev cc12_stg0_0 : Ref sig .tc := ⟨.vmem, 102, rfl⟩
abbrev cc12_stg0_1 : Ref sig .tc := ⟨.vmem, 103, rfl⟩
abbrev cc12_stg1_0 : Ref sig .tc := ⟨.vmem, 104, rfl⟩
abbrev cc12_stg1_1 : Ref sig .tc := ⟨.vmem, 105, rfl⟩
abbrev cc12_stg2_0 : Ref sig .tc := ⟨.vmem, 106, rfl⟩
abbrev cc12_stg2_1 : Ref sig .tc := ⟨.vmem, 107, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31
abbrev cc3_sem8_0 : DmaSem sig := 32
abbrev cc3_sem9_0 : DmaSem sig := 33
abbrev cc3_sem9_1 : DmaSem sig := 34
abbrev cc4_sem0_0 : DmaSem sig := 35
abbrev cc4_sem0_1 : DmaSem sig := 36
abbrev cc4_sem1_0 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem5_1 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem5_1 : DmaSem sig := 50
abbrev cc6_sem0_0 : DmaSem sig := 51
abbrev cc6_sem0_1 : DmaSem sig := 52
abbrev cc6_sem1_0 : DmaSem sig := 53
abbrev cc6_sem1_1 : DmaSem sig := 54
abbrev cc6_sem2_0 : DmaSem sig := 55
abbrev cc6_sem3_0 : DmaSem sig := 56
abbrev cc6_sem4_0 : DmaSem sig := 57
abbrev cc6_sem5_0 : DmaSem sig := 58
abbrev cc6_sem5_1 : DmaSem sig := 59
abbrev cc7_sem0_0 : DmaSem sig := 60
abbrev cc7_sem0_1 : DmaSem sig := 61
abbrev cc7_sem1_0 : DmaSem sig := 62
abbrev cc7_sem1_1 : DmaSem sig := 63
abbrev cc7_sem2_0 : DmaSem sig := 64
abbrev cc7_sem2_1 : DmaSem sig := 65
abbrev cc7_sem3_0 : DmaSem sig := 66
abbrev cc7_sem4_0 : DmaSem sig := 67
abbrev cc7_sem5_0 : DmaSem sig := 68
abbrev cc7_sem6_0 : DmaSem sig := 69
abbrev cc7_sem7_0 : DmaSem sig := 70
abbrev cc7_sem8_0 : DmaSem sig := 71
abbrev cc7_sem9_0 : DmaSem sig := 72
abbrev cc7_sem9_1 : DmaSem sig := 73
abbrev cc8_sem0_0 : DmaSem sig := 74
abbrev cc8_sem0_1 : DmaSem sig := 75
abbrev cc8_sem1_0 : DmaSem sig := 76
abbrev cc8_sem2_0 : DmaSem sig := 77
abbrev cc8_sem3_0 : DmaSem sig := 78
abbrev cc8_sem4_0 : DmaSem sig := 79
abbrev cc8_sem5_0 : DmaSem sig := 80
abbrev cc8_sem5_1 : DmaSem sig := 81
abbrev cc9_sem0_0 : DmaSem sig := 82
abbrev cc9_sem0_1 : DmaSem sig := 83
abbrev cc9_sem1_0 : DmaSem sig := 84
abbrev cc9_sem2_0 : DmaSem sig := 85
abbrev cc9_sem3_0 : DmaSem sig := 86
abbrev cc9_sem4_0 : DmaSem sig := 87
abbrev cc9_sem5_0 : DmaSem sig := 88
abbrev cc9_sem5_1 : DmaSem sig := 89
abbrev cc10_sem0_0 : DmaSem sig := 90
abbrev cc10_sem0_1 : DmaSem sig := 91
abbrev cc10_sem1_0 : DmaSem sig := 92
abbrev cc10_sem1_1 : DmaSem sig := 93
abbrev cc10_sem2_0 : DmaSem sig := 94
abbrev cc10_sem2_1 : DmaSem sig := 95
abbrev cc11_sem0_0 : DmaSem sig := 96
abbrev cc11_sem0_1 : DmaSem sig := 97
abbrev cc11_sem1_0 : DmaSem sig := 98
abbrev cc11_sem1_1 : DmaSem sig := 99
abbrev cc11_sem2_0 : DmaSem sig := 100
abbrev cc11_sem2_1 : DmaSem sig := 101
abbrev cc12_sem0_0 : DmaSem sig := 102
abbrev cc12_sem0_1 : DmaSem sig := 103
abbrev cc12_sem1_0 : DmaSem sig := 104
abbrev cc12_sem1_1 : DmaSem sig := 105
abbrev cc12_sem2_0 : DmaSem sig := 106
abbrev cc12_sem2_1 : DmaSem sig := 107

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2x64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![40], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![40], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S64x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S64x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S64x64 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S64 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S5000x64 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

abbrev grid8 : Pipeline.Grid := ⟨1, ![40], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_4 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![40], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_4 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev grid10 : Pipeline.Grid := ⟨1, ![25], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S4000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S4000x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S4000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S4000x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S4000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S4000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S4000x1 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S2x64x64_S1x64x64_0_0_0 : ∀ a, (![0, 0, 0] : Fin 3 → Nat) a + S1x64x64.size a ≤ S2x64x64.size a
  h_S1x64x64 : 0 < S1x64x64.numel
  shapeCasts_S1x64x64_S64x64 : S1x64x64.ShapeCasts S64x64
  bitsLt_bf16_f32 : FTy.bits .bf16 < FTy.bits .f32
  inb_S2x64_S1x64_0_0 : ∀ a, (![0, 0] : Fin 2 → Nat) a + S1x64.size a ≤ S2x64.size a
  h_S1x64 : 0 < S1x64.numel
  shapeCasts_S1x64_S64 : S1x64.ShapeCasts S64
  shapeCasts_S64_S1x64 : S64.ShapeCasts S1x64
  broadcasts_S1x64_S5000x64 : S1x64.Broadcasts S5000x64
  inb_S2x64x64_S1x64x64_1_0_0 : ∀ a, (![1, 0, 0] : Fin 3 → Nat) a + S1x64x64.size a ≤ S2x64x64.size a
  inb_S2x64_S1x64_1_0 : ∀ a, (![1, 0] : Fin 2 → Nat) a + S1x64.size a ≤ S2x64.size a
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x64 : S_.BroadcastsInDim S200000x64 (![] : Fin 0 → Fin S200000x64.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  slices_S2x3x64x64_S1x1x64x64_0_0_0_0 : S2x3x64x64.Slices ![0, 0, 0, 0] S1x1x64x64
  shapeCasts_S1x1x64x64_S64x64 : S1x1x64x64.ShapeCasts S64x64
  slices_S2x3x64_S1x1x64_0_0_0 : S2x3x64.Slices ![0, 0, 0] S1x1x64
  shapeCasts_S1x1x64_S64 : S1x1x64.ShapeCasts S64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S64 : S64.ShapeCasts S64
  slices_S2x3x64x64_S1x1x64x64_0_1_0_0 : S2x3x64x64.Slices ![0, 1, 0, 0] S1x1x64x64
  slices_S2x3x64_S1x1x64_0_1_0 : S2x3x64.Slices ![0, 1, 0] S1x1x64
  slices_S2x3x64x64_S1x1x64x64_0_2_0_0 : S2x3x64x64.Slices ![0, 2, 0, 0] S1x1x64x64
  slices_S2x3x64_S1x1x64_0_2_0 : S2x3x64.Slices ![0, 2, 0] S1x1x64
  reducesTo_S200000x64_S64_d0 : S200000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S200000x64_0_1 : S1x64.BroadcastsInDim S200000x64 (![0, 1] : Fin 2 → Fin S200000x64.rank)
  slices_S2x2x64_S1x1x64_0_0_0 : S2x2x64.Slices ![0, 0, 0] S1x1x64
  slices_S2x2x64_S1x1x64_0_1_0 : S2x2x64.Slices ![0, 1, 0] S1x1x64
  slices_S2x3x64x64_S1x1x64x64_1_0_0_0 : S2x3x64x64.Slices ![1, 0, 0, 0] S1x1x64x64
  slices_S2x3x64_S1x1x64_1_0_0 : S2x3x64.Slices ![1, 0, 0] S1x1x64
  slices_S2x3x64x64_S1x1x64x64_1_1_0_0 : S2x3x64x64.Slices ![1, 1, 0, 0] S1x1x64x64
  slices_S2x3x64_S1x1x64_1_1_0 : S2x3x64.Slices ![1, 1, 0] S1x1x64
  slices_S2x3x64x64_S1x1x64x64_1_2_0_0 : S2x3x64x64.Slices ![1, 2, 0, 0] S1x1x64x64
  slices_S2x3x64_S1x1x64_1_2_0 : S2x3x64.Slices ![1, 2, 0] S1x1x64
  slices_S2x2x64_S1x1x64_1_0_0 : S2x2x64.Slices ![1, 0, 0] S1x1x64
  slices_S2x2x64_S1x1x64_1_1_0 : S2x2x64.Slices ![1, 1, 0] S1x1x64
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  reduces_S4000x64_S4000 : S4000x64.Reduces [1] S4000
  shapeCasts_S4000_S4000x1 : S4000.ShapeCasts S4000x1
  inb_S4000x1_S4000x1_0_0 : ∀ a, (![0, 0] : Fin 2 → Nat) a + S4000x1.size a ≤ S4000x1.size a
  h_S4000x1 : 0 < S4000x1.numel
  shapeCasts_S100000x1_S100000 : S100000x1.ShapeCasts S100000
  bcast_S100000_S1x100000_1 : S100000.BroadcastsInDim S1x100000 (![1] : Fin 1 → Fin S1x100000.rank)
  concatenates_S1x100000_S1x100000_S1x100000_S1x100000_S1x100000_S1x100000_S6x100000_d0 : Shape.Concatenates [S1x100000, S1x100000, S1x100000, S1x100000, S1x100000, S1x100000] S6x100000 0
  gather_S5000x64_S200000x1_S200000x64_1_0_n_n_0_1_164_wf : GatherDims.WF S5000x64 S200000x1 S200000x64 [1] [0] [] [0] [] 1 ![1, 64]
  dot_S5000x64_S64x64_S5000x64_1_0_0_1_n_n_wf : DotDims.WF S5000x64 S64x64 S5000x64 [1] [0] [0] [1] [] []
  gather_S200000x64_S1000000x1_S1000000x64_1_0_n_n_0_1_164_wf : GatherDims.WF S200000x64 S1000000x1 S1000000x64 [1] [0] [] [0] [] 1 ![1, 64]
  scatter_S200000x64_S1000000x1_S1000000x64_1_0_0_1_wf : ScatterDims.WF S200000x64 S1000000x1 S1000000x64 [1] [0] [0] 1
  scatter_S200000_S1000000x1_S1000000_n_0_0_1_wf : ScatterDims.WF S200000 S1000000x1 S1000000 [] [0] [0] 1
  gather_S200000x64_S100000x1_S100000x64_1_0_n_n_0_1_164_wf : GatherDims.WF S200000x64 S100000x1 S100000x64 [1] [0] [] [0] [] 1 ![1, 64]
  gather_S200000_S100000x1_S100000_n_0_n_n_0_1_1_wf : GatherDims.WF S200000 S100000x1 S100000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S200000x64.size a
  hwx0_0 : ∀ i : grid0.Coords, EltTy.bits .f32 = 32 ∨ (Rect.block (s := S200000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64x64.size a ≤ S2x64x64.size a
  hwx0_1 : ∀ i : grid0.Coords, EltTy.bits .f32 = 32 ∨ (Rect.block (s := S2x64x64) S2x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x64.size a ≤ S2x64.size a
  hwx0_2 : ∀ i : grid0.Coords, EltTy.bits .f32 = 32 ∨ (Rect.block (s := S2x64) S2x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S200000x64.size a
  hwx0_3 : ∀ i : grid0.Coords, EltTy.bits .f32 = 32 ∨ (Rect.block (s := S200000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S200000x64.size a
  hwx1_0 : ∀ i : grid1.Coords, EltTy.bits .f32 = 32 ∨ (Rect.block (s := S200000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x64x64.size a ≤ S2x64x64.size a
  hwx1_1 : ∀ i : grid1.Coords, EltTy.bits .f32 = 32 ∨ (Rect.block (s := S2x64x64) S2x64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x64.size a ≤ S2x64.size a
  hwx1_2 : ∀ i : grid1.Coords, EltTy.bits .f32 = 32 ∨ (Rect.block (s := S2x64) S2x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S200000x64.size a
  hwx1_3 : ∀ i : grid1.Coords, EltTy.bits .f32 = 32 ∨ (Rect.block (s := S200000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S200000x64.size a
  hwx2_0 : ∀ i : grid2.Coords, EltTy.bits .f32 = 32 ∨ (Rect.block (s := S200000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S200000x64.size a
  hwx2_1 : ∀ i : grid2.Coords, EltTy.bits .f32 = 32 ∨ (Rect.block (s := S200000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S200000x64.size a
  hwx2_5 : ∀ i : grid2.Coords, EltTy.bits .f32 = 32 ∨ (Rect.block (s := S200000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S200000x64.size a
  hwx3_0 : ∀ i : grid3.Coords, EltTy.bits .f32 = 32 ∨ (Rect.block (s := S200000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S200000x64.size a
  hwx3_1 : ∀ i : grid3.Coords, EltTy.bits .f32 = 32 ∨ (Rect.block (s := S200000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S200000x64.size a
  hwx3_2 : ∀ i : grid3.Coords, EltTy.bits .f32 = 32 ∨ (Rect.block (s := S200000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64.size a ≤ S64.size a
  hwx3_5 : ∀ i : grid3.Coords, EltTy.bits .f32 = 32 ∨ (Rect.block (s := S64) S64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64x64.size a ≤ S64x64.size a
  hwx3_6 : ∀ i : grid3.Coords, EltTy.bits .f32 = 32 ∨ (Rect.block (s := S64x64) S64x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x64.size a ≤ S64x64.size a
  hwx3_7 : ∀ i : grid3.Coords, EltTy.bits .f32 = 32 ∨ (Rect.block (s := S64x64) S64x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64.size a ≤ S64.size a
  hwx3_8 : ∀ i : grid3.Coords, EltTy.bits .f32 = 32 ∨ (Rect.block (s := S64) S64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x64.size a ≤ S200000x64.size a
  hwx3_9 : ∀ i : grid3.Coords, EltTy.bits .f32 = 32 ∨ (Rect.block (s := S200000x64) S5000x64.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S200000x64.size a
  hwx4_0 : ∀ i : grid4.Coords, EltTy.bits .f32 = 32 ∨ (Rect.block (s := S200000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64.size a ≤ S64.size a
  hwx4_1 : ∀ i : grid4.Coords, EltTy.bits .f32 = 32 ∨ (Rect.block (s := S64) S64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64.size a ≤ S64.size a
  hwx4_4 : ∀ i : grid4.Coords, EltTy.bits .f32 = 32 ∨ (Rect.block (s := S64) S64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S200000x64.size a
  hwx4_5 : ∀ i : grid4.Coords, EltTy.bits .f32 = 32 ∨ (Rect.block (s := S200000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S200000x64.size a
  hwx5_0 : ∀ i : grid5.Coords, EltTy.bits .f32 = 32 ∨ (Rect.block (s := S200000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64.size a ≤ S64.size a
  hwx5_1 : ∀ i : grid5.Coords, EltTy.bits .f32 = 32 ∨ (Rect.block (s := S64) S64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64.size a ≤ S64.size a
  hwx5_4 : ∀ i : grid5.Coords, EltTy.bits .f32 = 32 ∨ (Rect.block (s := S64) S64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S200000x64.size a
  hwx5_5 : ∀ i : grid5.Coords, EltTy.bits .f32 = 32 ∨ (Rect.block (s := S200000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S200000x64.size a
  hwx6_0 : ∀ i : grid6.Coords, EltTy.bits .f32 = 32 ∨ (Rect.block (s := S200000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S200000x64.size a
  hwx6_1 : ∀ i : grid6.Coords, EltTy.bits .f32 = 32 ∨ (Rect.block (s := S200000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64.size a ≤ S64.size a
  hwx6_4 : ∀ i : grid6.Coords, EltTy.bits .f32 = 32 ∨ (Rect.block (s := S64) S64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S200000x64.size a
  hwx6_5 : ∀ i : grid6.Coords, EltTy.bits .f32 = 32 ∨ (Rect.block (s := S200000x64) S5000x64.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S200000x64.size a
  hwx7_0 : ∀ i : grid7.Coords, EltTy.bits .f32 = 32 ∨ (Rect.block (s := S200000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S200000x64.size a
  hwx7_1 : ∀ i : grid7.Coords, EltTy.bits .f32 = 32 ∨ (Rect.block (s := S200000x64) S5000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S200000x64.size a
  hwx7_2 : ∀ i : grid7.Coords, EltTy.bits .f32 = 32 ∨ (Rect.block (s := S200000x64) S5000x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S64x64.size a ≤ S64x64.size a
  hwx7_4 : ∀ i : grid7.Coords, EltTy.bits .f32 = 32 ∨ (Rect.block (s := S64x64) S64x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64.size a ≤ S64.size a
  hwx7_5 : ∀ i : grid7.Coords, EltTy.bits .f32 = 32 ∨ (Rect.block (s := S64) S64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S64x64.size a ≤ S64x64.size a
  hwx7_6 : ∀ i : grid7.Coords, EltTy.bits .f32 = 32 ∨ (Rect.block (s := S64x64) S64x64.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S64x64.size a ≤ S64x64.size a
  hwx7_7 : ∀ i : grid7.Coords, EltTy.bits .f32 = 32 ∨ (Rect.block (s := S64x64) S64x64.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S64.size a ≤ S64.size a
  hwx7_8 : ∀ i : grid7.Coords, EltTy.bits .f32 = 32 ∨ (Rect.block (s := S64) S64.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S5000x64.size a ≤ S200000x64.size a
  hwx7_9 : ∀ i : grid7.Coords, EltTy.bits .f32 = 32 ∨ (Rect.block (s := S200000x64) S5000x64.size (cc7_transform_9 i) (hinb7_9 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S200000x64.size a
  hwx8_0 : ∀ i : grid8.Coords, EltTy.bits .f32 = 32 ∨ (Rect.block (s := S200000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64.size a ≤ S64.size a
  hwx8_1 : ∀ i : grid8.Coords, EltTy.bits .f32 = 32 ∨ (Rect.block (s := S64) S64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64.size a ≤ S64.size a
  hwx8_2 : ∀ i : grid8.Coords, EltTy.bits .f32 = 32 ∨ (Rect.block (s := S64) S64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64.size a ≤ S64.size a
  hwx8_3 : ∀ i : grid8.Coords, EltTy.bits .f32 = 32 ∨ (Rect.block (s := S64) S64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S64.size a ≤ S64.size a
  hwx8_4 : ∀ i : grid8.Coords, EltTy.bits .f32 = 32 ∨ (Rect.block (s := S64) S64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S200000x64.size a
  hwx8_5 : ∀ i : grid8.Coords, EltTy.bits .f32 = 32 ∨ (Rect.block (s := S200000x64) S5000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S200000x64.size a
  hwx9_0 : ∀ i : grid9.Coords, EltTy.bits .f32 = 32 ∨ (Rect.block (s := S200000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64.size a ≤ S64.size a
  hwx9_1 : ∀ i : grid9.Coords, EltTy.bits .f32 = 32 ∨ (Rect.block (s := S64) S64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64.size a ≤ S64.size a
  hwx9_2 : ∀ i : grid9.Coords, EltTy.bits .f32 = 32 ∨ (Rect.block (s := S64) S64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64.size a ≤ S64.size a
  hwx9_3 : ∀ i : grid9.Coords, EltTy.bits .f32 = 32 ∨ (Rect.block (s := S64) S64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S64.size a ≤ S64.size a
  hwx9_4 : ∀ i : grid9.Coords, EltTy.bits .f32 = 32 ∨ (Rect.block (s := S64) S64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x64.size a ≤ S200000x64.size a
  hwx9_5 : ∀ i : grid9.Coords, EltTy.bits .f32 = 32 ∨ (Rect.block (s := S200000x64) S5000x64.size (cc9_transform_5 i) (hinb9_5 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4000x64.size a ≤ S100000x64.size a
  hwx10_0 : ∀ i : grid10.Coords, EltTy.bits .f32 = 32 ∨ (Rect.block (s := S100000x64) S4000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S4000x64.size a ≤ S100000x64.size a
  hwx10_1 : ∀ i : grid10.Coords, EltTy.bits .f32 = 32 ∨ (Rect.block (s := S100000x64) S4000x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S4000x1.size a ≤ S100000x1.size a
  hwx10_2 : ∀ i : grid10.Coords, EltTy.bits .f32 = 32 ∨ (Rect.block (s := S100000x1) S4000x1.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4000x64.size a ≤ S100000x64.size a
  hwx11_0 : ∀ i : grid11.Coords, EltTy.bits .f32 = 32 ∨ (Rect.block (s := S100000x64) S4000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S4000x64.size a ≤ S100000x64.size a
  hwx11_1 : ∀ i : grid11.Coords, EltTy.bits .f32 = 32 ∨ (Rect.block (s := S100000x64) S4000x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S4000x1.size a ≤ S100000x1.size a
  hwx11_2 : ∀ i : grid11.Coords, EltTy.bits .f32 = 32 ∨ (Rect.block (s := S100000x1) S4000x1.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4000x64.size a ≤ S100000x64.size a
  hwx12_0 : ∀ i : grid12.Coords, EltTy.bits .f32 = 32 ∨ (Rect.block (s := S100000x64) S4000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S4000x64.size a ≤ S100000x64.size a
  hwx12_1 : ∀ i : grid12.Coords, EltTy.bits .f32 = 32 ∨ (Rect.block (s := S100000x64) S4000x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S4000x1.size a ≤ S100000x1.size a
  hwx12_2 : ∀ i : grid12.Coords, EltTy.bits .f32 = 32 ∨ (Rect.block (s := S100000x1) S4000x1.size (cc12_transform_2 i) (hinb12_2 i)).WholeWords (EltTy.packing .f32)

variable [Facts₀]

def gather_S5000x64_S200000x1_S200000x64_1_0_n_n_0_1_164 : GatherDims S5000x64 S200000x1 S200000x64 where
  offsetDims := [1]
  collapsedSliceDims := [0]
  operandBatchingDims := []
  startIndicesBatchingDims := []
  startIndexMap := [0]
  indexVectorDim := 1
  sliceSizes := ![1, 64]
  wf := gather_S5000x64_S200000x1_S200000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S200000x64_S100000x1_S100000x64_1_0_n_n_0_1_164 : GatherDims S200000x64 S100000x1 S100000x64 where
  offsetDims := [1]
  collapsedSliceDims := [0]
  operandBatchingDims := []
  startIndicesBatchingDims := []
  startIndexMap := [0]
  indexVectorDim := 1
  sliceSizes := ![1, 64]
  wf := gather_S200000x64_S100000x1_S100000x64_1_0_n_n_0_1_164_wf
def gather_S200000_S100000x1_S100000_n_0_n_n_0_1_1 : GatherDims S200000 S100000x1 S100000 where
  offsetDims := []
  collapsedSliceDims := [0]
  operandBatchingDims := []
  startIndicesBatchingDims := []
  startIndexMap := [0]
  indexVectorDim := 1
  sliceSizes := ![1]
  wf := gather_S200000_S100000x1_S100000_n_0_n_n_0_1_1_wf

abbrev win0_0 : Pipeline.Window sig grid0 :=
  Pipeline.Window.ofSpec (Memref.whole main_v6) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S2x64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S2x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v86) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v88) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v90) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v91) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v14) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v84) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v93) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v95) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v97) S64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v99) S64x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v101) S64x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v103) S64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v104) S5000x64.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v104) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v114) S64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v116) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v107) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v108) S64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v117) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v91) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v119) S64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v121) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v111) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v112) S64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v122) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v122) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v145) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v193) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v195) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v197) S64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v198) S5000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v117) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v168) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v191) S5000x64.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v200) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v202) S64x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v204) S64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v206) S64x64.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v208) S64x64.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v210) S64.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v211) S5000x64.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

abbrev win8_0 : Pipeline.Window sig grid8 :=
  Pipeline.Window.ofSpec (Memref.whole main_v211) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v221) S64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v223) S64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v214) S64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v215) S64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v224) S5000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v198) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v226) S64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v228) S64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v218) S64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v219) S64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v229) S5000x64.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

abbrev win10_0 : Pipeline.Window sig grid10 :=
  Pipeline.Window.ofSpec (Memref.whole main_v238) S4000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v247) S4000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v248) S4000x1.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v267) S4000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v276) S4000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v277) S4000x1.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v296) S4000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v305) S4000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v306) S4000x1.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

class Facts : Prop extends Facts₀ where

variable [Facts]
-- ==== ReferenceIdeal.lean ====
abbrev S5000x64 : Shape := ⟨2, ![5000, 64]⟩
abbrev S2x64x64 : Shape := ⟨3, ![2, 64, 64]⟩
abbrev S2x64 : Shape := ⟨2, ![2, 64]⟩
abbrev S2x3x64x64 : Shape := ⟨4, ![2, 3, 64, 64]⟩
abbrev S2x3x64 : Shape := ⟨3, ![2, 3, 64]⟩
abbrev S2x2x64 : Shape := ⟨3, ![2, 2, 64]⟩
abbrev S200000 : Shape := ⟨1, ![200000]⟩
abbrev S2x1000000 : Shape := ⟨2, ![2, 1000000]⟩
abbrev S2x100000 : Shape := ⟨2, ![2, 100000]⟩
abbrev S_ : Shape := ⟨0, ![]⟩
abbrev S200000x1 : Shape := ⟨2, ![200000, 1]⟩
abbrev S200000x64 : Shape := ⟨2, ![200000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1x1x64x64 : Shape := ⟨4, ![1, 1, 64, 64]⟩
abbrev S1x1x64 : Shape := ⟨3, ![1, 1, 64]⟩
abbrev S1x1000000 : Shape := ⟨2, ![1, 1000000]⟩
abbrev S1000000 : Shape := ⟨1, ![1000000]⟩
abbrev S1000000x1 : Shape := ⟨2, ![1000000, 1]⟩
abbrev S1000000x64 : Shape := ⟨2, ![1000000, 64]⟩
abbrev S1x100000 : Shape := ⟨2, ![1, 100000]⟩
abbrev S100000 : Shape := ⟨1, ![100000]⟩
abbrev S100000x1 : Shape := ⟨2, ![100000, 1]⟩
abbrev S100000x64 : Shape := ⟨2, ![100000, 64]⟩
abbrev S6x100000 : Shape := ⟨2, ![6, 100000]⟩

abbrev nBuf : Space → Nat
  | .hbm => 668
  | .vmem => 0
  | .smem => 0
  | _ => 0

abbrev hbmTy0_0 (i : Nat) : BufTy := match i % 128 with
  | 0 => ⟨S5000x64, .f32⟩
  | 1 => ⟨S5000x64, .f32⟩
  | 2 => ⟨S2x64x64, .f32⟩
  | 3 => ⟨S2x64, .f32⟩
  | 4 => ⟨S2x64x64, .f32⟩
  | 5 => ⟨S2x64, .f32⟩
  | 6 => ⟨S2x3x64x64, .f32⟩
  | 7 => ⟨S2x3x64x64, .f32⟩
  | 8 => ⟨S2x3x64, .f32⟩
  | 9 => ⟨S2x2x64, .f32⟩
  | 10 => ⟨S2x2x64, .f32⟩
  | 11 => ⟨S200000, .f32⟩
  | 12 => ⟨S200000, .f32⟩
  | 13 => ⟨S200000, .i32⟩
  | 14 => ⟨S200000, .i32⟩
  | 15 => ⟨S2x1000000, .i32⟩
  | 16 => ⟨S2x1000000, .i32⟩
  | 17 => ⟨S2x1000000, .i32⟩
  | 18 => ⟨S2x100000, .i32⟩
  | 19 => ⟨S2x100000, .i32⟩
  | 20 => ⟨S2x100000, .i32⟩
  | 21 => ⟨S_, .i32⟩
  | 22 => ⟨S200000, .i32⟩
  | 23 => ⟨S200000, .i1⟩
  | 24 => ⟨S_, .i32⟩
  | 25 => ⟨S200000, .i32⟩
  | 26 => ⟨S200000, .i32⟩
  | 27 => ⟨S200000, .i32⟩
  | 28 => ⟨S200000x1, .i32⟩
  | 29 => ⟨S200000x64, .f32⟩
  | 30 => ⟨S_, .i32⟩
  | 31 => ⟨S200000, .i32⟩
  | 32 => ⟨S200000, .i1⟩
  | 33 => ⟨S_, .i32⟩
  | 34 => ⟨S200000, .i32⟩
  | 35 => ⟨S200000, .i32⟩
  | 36 => ⟨S200000, .i32⟩
  | 37 => ⟨S200000x1, .i32⟩
  | 38 => ⟨S200000x64, .f32⟩
  | 39 => ⟨S1x64x64, .f32⟩
  | 40 => ⟨S64x64, .f32⟩
  | 41 => ⟨S200000x64, .f32⟩
  | 42 => ⟨S1x64, .f32⟩
  | 43 => ⟨S64, .f32⟩
  | 44 => ⟨S1x64, .f32⟩
  | 45 => ⟨S200000x64, .f32⟩
  | 46 => ⟨S200000x64, .f32⟩
  | 47 => ⟨S_, .f32⟩
  | 48 => ⟨S200000x64, .f32⟩
  | 49 => ⟨S200000x64, .i1⟩
  | 50 => ⟨S_, .f32⟩
  | 51 => ⟨S200000x64, .f32⟩
  | 52 => ⟨S200000x64, .f32⟩
  | 53 => ⟨S200000x64, .f32⟩
  | 54 => ⟨S1x64x64, .f32⟩
  | 55 => ⟨S64x64, .f32⟩
  | 56 => ⟨S200000x64, .f32⟩
  | 57 => ⟨S1x64, .f32⟩
  | 58 => ⟨S64, .f32⟩
  | 59 => ⟨S1x64, .f32⟩
  | 60 => ⟨S200000x64, .f32⟩
  | 61 => ⟨S200000x64, .f32⟩
  | 62 => ⟨S_, .f32⟩
  | 63 => ⟨S200000x64, .f32⟩
  | 64 => ⟨S200000x64, .i1⟩
  | 65 => ⟨S_, .f32⟩
  | 66 => ⟨S200000x64, .f32⟩
  | 67 => ⟨S200000x64, .f32⟩
  | 68 => ⟨S200000x64, .f32⟩
  | 69 => ⟨S1x64x64, .f32⟩
  | 70 => ⟨S64x64, .f32⟩
  | 71 => ⟨S200000x64, .f32⟩
  | 72 => ⟨S1x64, .f32⟩
  | 73 => ⟨S64, .f32⟩
  | 74 => ⟨S1x64, .f32⟩
  | 75 => ⟨S200000x64, .f32⟩
  | 76 => ⟨S200000x64, .f32⟩
  | 77 => ⟨S_, .f32⟩
  | 78 => ⟨S200000x64, .f32⟩
  | 79 => ⟨S200000x64, .i1⟩
  | 80 => ⟨S_, .f32⟩
  | 81 => ⟨S200000x64, .f32⟩
  | 82 => ⟨S200000x64, .f32⟩
  | 83 => ⟨S200000x64, .f32⟩
  | 84 => ⟨S1x64x64, .f32⟩
  | 85 => ⟨S64x64, .f32⟩
  | 86 => ⟨S200000x64, .f32⟩
  | 87 => ⟨S1x64, .f32⟩
  | 88 => ⟨S64, .f32⟩
  | 89 => ⟨S1x64, .f32⟩
  | 90 => ⟨S200000x64, .f32⟩
  | 91 => ⟨S200000x64, .f32⟩
  | 92 => ⟨S_, .f32⟩
  | 93 => ⟨S200000x64, .f32⟩
  | 94 => ⟨S200000x64, .i1⟩
  | 95 => ⟨S_, .f32⟩
  | 96 => ⟨S200000x64, .f32⟩
  | 97 => ⟨S200000x64, .f32⟩
  | 98 => ⟨S200000x64, .f32⟩
  | 99 => ⟨S1x1x64x64, .f32⟩
  | 100 => ⟨S64x64, .f32⟩
  | 101 => ⟨S1x1x64x64, .f32⟩
  | 102 => ⟨S64x64, .f32⟩
  | 103 => ⟨S1x1x64, .f32⟩
  | 104 => ⟨S64, .f32⟩
  | 105 => ⟨S1x1000000, .i32⟩
  | 106 => ⟨S1000000, .i32⟩
  | 107 => ⟨S1x1000000, .i32⟩
  | 108 => ⟨S1000000, .i32⟩
  | 109 => ⟨S_, .i32⟩
  | 110 => ⟨S1000000, .i32⟩
  | 111 => ⟨S1000000, .i1⟩
  | 112 => ⟨S_, .i32⟩
  | 113 => ⟨S1000000, .i32⟩
  | 114 => ⟨S1000000, .i32⟩
  | 115 => ⟨S1000000, .i32⟩
  | 116 => ⟨S1000000x1, .i32⟩
  | 117 => ⟨S1000000x64, .f32⟩
  | 118 => ⟨S_, .f32⟩
  | 119 => ⟨S200000x64, .f32⟩
  | 120 => ⟨S1000000x1, .i32⟩
  | 121 => ⟨S200000x64, .f32⟩
  | 122 => ⟨S_, .f32⟩
  | 123 => ⟨S1000000, .f32⟩
  | 124 => ⟨S_, .f32⟩
  | 125 => ⟨S200000, .f32⟩
  | 126 => ⟨S1000000x1, .i32⟩
  | 127 => ⟨S200000, .f32⟩
  | _ => ⟨S5000x64, .f32⟩

abbrev hbmTy0_1 (i : Nat) : BufTy := match i % 128 with
  | 0 => ⟨S200000x1, .f32⟩
  | 1 => ⟨S_, .f32⟩
  | 2 => ⟨S200000x1, .f32⟩
  | 3 => ⟨S200000x1, .f32⟩
  | 4 => ⟨S200000x64, .f32⟩
  | 5 => ⟨S200000x64, .f32⟩
  | 6 => ⟨S200000x64, .f32⟩
  | 7 => ⟨S200000x64, .f32⟩
  | 8 => ⟨S200000x64, .f32⟩
  | 9 => ⟨S1x64, .f32⟩
  | 10 => ⟨S200000x64, .f32⟩
  | 11 => ⟨S200000x64, .f32⟩
  | 12 => ⟨S1x1x64x64, .f32⟩
  | 13 => ⟨S64x64, .f32⟩
  | 14 => ⟨S1x1x64x64, .f32⟩
  | 15 => ⟨S64x64, .f32⟩
  | 16 => ⟨S1x1x64, .f32⟩
  | 17 => ⟨S64, .f32⟩
  | 18 => ⟨S1x1000000, .i32⟩
  | 19 => ⟨S1000000, .i32⟩
  | 20 => ⟨S1x1000000, .i32⟩
  | 21 => ⟨S1000000, .i32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S1000000x64, .f32⟩
  | 31 => ⟨S_, .f32⟩
  | 32 => ⟨S200000x64, .f32⟩
  | 33 => ⟨S1000000x1, .i32⟩
  | 34 => ⟨S200000x64, .f32⟩
  | 35 => ⟨S_, .f32⟩
  | 36 => ⟨S1000000, .f32⟩
  | 37 => ⟨S_, .f32⟩
  | 38 => ⟨S200000, .f32⟩
  | 39 => ⟨S1000000x1, .i32⟩
  | 40 => ⟨S200000, .f32⟩
  | 41 => ⟨S200000x1, .f32⟩
  | 42 => ⟨S_, .f32⟩
  | 43 => ⟨S200000x1, .f32⟩
  | 44 => ⟨S200000x1, .f32⟩
  | 45 => ⟨S200000x64, .f32⟩
  | 46 => ⟨S200000x64, .f32⟩
  | 47 => ⟨S200000x64, .f32⟩
  | 48 => ⟨S200000x64, .f32⟩
  | 49 => ⟨S200000x64, .f32⟩
  | 50 => ⟨S1x64, .f32⟩
  | 51 => ⟨S200000x64, .f32⟩
  | 52 => ⟨S200000x64, .f32⟩
  | 53 => ⟨S1x1x64x64, .f32⟩
  | 54 => ⟨S64x64, .f32⟩
  | 55 => ⟨S1x1x64x64, .f32⟩
  | 56 => ⟨S64x64, .f32⟩
  | 57 => ⟨S1x1x64, .f32⟩
  | 58 => ⟨S64, .f32⟩
  | 59 => ⟨S1x1000000, .i32⟩
  | 60 => ⟨S1000000, .i32⟩
  | 61 => ⟨S1x1000000, .i32⟩
  | 62 => ⟨S1000000, .i32⟩
  | 63 => ⟨S_, .i32⟩
  | 64 => ⟨S1000000, .i32⟩
  | 65 => ⟨S1000000, .i1⟩
  | 66 => ⟨S_, .i32⟩
  | 67 => ⟨S1000000, .i32⟩
  | 68 => ⟨S1000000, .i32⟩
  | 69 => ⟨S1000000, .i32⟩
  | 70 => ⟨S1000000x1, .i32⟩
  | 71 => ⟨S1000000x64, .f32⟩
  | 72 => ⟨S_, .f32⟩
  | 73 => ⟨S200000x64, .f32⟩
  | 74 => ⟨S1000000x1, .i32⟩
  | 75 => ⟨S200000x64, .f32⟩
  | 76 => ⟨S_, .f32⟩
  | 77 => ⟨S1000000, .f32⟩
  | 78 => ⟨S_, .f32⟩
  | 79 => ⟨S200000, .f32⟩
  | 80 => ⟨S1000000x1, .i32⟩
  | 81 => ⟨S200000, .f32⟩
  | 82 => ⟨S200000x1, .f32⟩
  | 83 => ⟨S_, .f32⟩
  | 84 => ⟨S200000x1, .f32⟩
  | 85 => ⟨S200000x1, .f32⟩
  | 86 => ⟨S200000x64, .f32⟩
  | 87 => ⟨S200000x64, .f32⟩
  | 88 => ⟨S200000x64, .f32⟩
  | 89 => ⟨S200000x64, .f32⟩
  | 90 => ⟨S200000x64, .f32⟩
  | 91 => ⟨S1x64, .f32⟩
  | 92 => ⟨S200000x64, .f32⟩
  | 93 => ⟨S200000x64, .f32⟩
  | 94 => ⟨S200000x64, .f32⟩
  | 95 => ⟨S1x1x64, .f32⟩
  | 96 => ⟨S64, .f32⟩
  | 97 => ⟨S1x1x64, .f32⟩
  | 98 => ⟨S64, .f32⟩
  | 99 => ⟨S_, .f32⟩
  | 100 => ⟨S64, .f32⟩
  | 101 => ⟨S_, .f32⟩
  | 102 => ⟨S64, .f32⟩
  | 103 => ⟨S64, .f32⟩
  | 104 => ⟨S_, .i32⟩
  | 105 => ⟨S_, .f32⟩
  | 106 => ⟨S64, .f32⟩
  | 107 => ⟨S1x64, .f32⟩
  | 108 => ⟨S_, .f32⟩
  | 109 => ⟨S1x64, .f32⟩
  | 110 => ⟨S1x64, .f32⟩
  | 111 => ⟨S200000x64, .f32⟩
  | 112 => ⟨S200000x64, .f32⟩
  | 113 => ⟨S200000x64, .f32⟩
  | 114 => ⟨S_, .f32⟩
  | 115 => ⟨S_, .f32⟩
  | 116 => ⟨S_, .f32⟩
  | 117 => ⟨S_, .f32⟩
  | 118 => ⟨S64, .f32⟩
  | 119 => ⟨S64, .f32⟩
  | 120 => ⟨S64, .f32⟩
  | 121 => ⟨S_, .f32⟩
  | 122 => ⟨S_, .i1⟩
  | 123 => ⟨S_, .f32⟩
  | 124 => ⟨S_, .f32⟩
  | 125 => ⟨S64, .f32⟩
  | 126 => ⟨S64, .f32⟩
  | 127 => ⟨S1x64, .f32⟩
  | _ => ⟨S5000x64, .f32⟩

abbrev hbmTy0_2 (i : Nat) : BufTy := match i % 128 with
  | 0 => ⟨S200000x64, .f32⟩
  | 1 => ⟨S200000x64, .f32⟩
  | 2 => ⟨S1x64, .f32⟩
  | 3 => ⟨S200000x64, .f32⟩
  | 4 => ⟨S200000x64, .f32⟩
  | 5 => ⟨S_, .f32⟩
  | 6 => ⟨S64, .f32⟩
  | 7 => ⟨S64, .f32⟩
  | 8 => ⟨S64, .f32⟩
  | 9 => ⟨S1x64, .f32⟩
  | 10 => ⟨S200000x64, .f32⟩
  | 11 => ⟨S200000x64, .f32⟩
  | 12 => ⟨S1x64, .f32⟩
  | 13 => ⟨S200000x64, .f32⟩
  | 14 => ⟨S200000x64, .f32⟩
  | 15 => ⟨S1x1x64, .f32⟩
  | 16 => ⟨S64, .f32⟩
  | 17 => ⟨S1x1x64, .f32⟩
  | 18 => ⟨S64, .f32⟩
  | 19 => ⟨S_, .f32⟩
  | 20 => ⟨S64, .f32⟩
  | 21 => ⟨S_, .f32⟩
  | 22 => ⟨S64, .f32⟩
  | 23 => ⟨S64, .f32⟩
  | 24 => ⟨S_, .i32⟩
  | 25 => ⟨S_, .f32⟩
  | 26 => ⟨S64, .f32⟩
  | 27 => ⟨S1x64, .f32⟩
  | 28 => ⟨S_, .f32⟩
  | 29 => ⟨S1x64, .f32⟩
  | 30 => ⟨S1x64, .f32⟩
  | 31 => ⟨S200000x64, .f32⟩
  | 32 => ⟨S200000x64, .f32⟩
  | 33 => ⟨S200000x64, .f32⟩
  | 34 => ⟨S_, .f32⟩
  | 35 => ⟨S_, .f32⟩
  | 36 => ⟨S_, .f32⟩
  | 37 => ⟨S_, .f32⟩
  | 38 => ⟨S64, .f32⟩
  | 39 => ⟨S64, .f32⟩
  | 40 => ⟨S64, .f32⟩
  | 41 => ⟨S_, .f32⟩
  | 42 => ⟨S_, .i1⟩
  | 43 => ⟨S_, .f32⟩
  | 44 => ⟨S_, .f32⟩
  | 45 => ⟨S64, .f32⟩
  | 46 => ⟨S64, .f32⟩
  | 47 => ⟨S1x64, .f32⟩
  | 48 => ⟨S200000x64, .f32⟩
  | 49 => ⟨S200000x64, .f32⟩
  | 50 => ⟨S1x64, .f32⟩
  | 51 => ⟨S200000x64, .f32⟩
  | 52 => ⟨S200000x64, .f32⟩
  | 53 => ⟨S_, .f32⟩
  | 54 => ⟨S64, .f32⟩
  | 55 => ⟨S64, .f32⟩
  | 56 => ⟨S64, .f32⟩
  | 57 => ⟨S1x64, .f32⟩
  | 58 => ⟨S200000x64, .f32⟩
  | 59 => ⟨S200000x64, .f32⟩
  | 60 => ⟨S1x64, .f32⟩
  | 61 => ⟨S200000x64, .f32⟩
  | 62 => ⟨S200000x64, .f32⟩
  | 63 => ⟨S_, .f32⟩
  | 64 => ⟨S200000x64, .f32⟩
  | 65 => ⟨S200000x64, .i1⟩
  | 66 => ⟨S_, .f32⟩
  | 67 => ⟨S200000x64, .f32⟩
  | 68 => ⟨S200000x64, .f32⟩
  | 69 => ⟨S200000x64, .f32⟩
  | 70 => ⟨S_, .f32⟩
  | 71 => ⟨S200000x64, .f32⟩
  | 72 => ⟨S200000x64, .i1⟩
  | 73 => ⟨S_, .f32⟩
  | 74 => ⟨S200000x64, .f32⟩
  | 75 => ⟨S200000x64, .f32⟩
  | 76 => ⟨S200000x64, .f32⟩
  | 77 => ⟨S1x1x64x64, .f32⟩
  | 78 => ⟨S64x64, .f32⟩
  | 79 => ⟨S1x1x64x64, .f32⟩
  | 80 => ⟨S64x64, .f32⟩
  | 81 => ⟨S1x1x64, .f32⟩
  | 82 => ⟨S64, .f32⟩
  | 83 => ⟨S1x1000000, .i32⟩
  | 84 => ⟨S1000000, .i32⟩
  | 85 => ⟨S1x1000000, .i32⟩
  | 86 => ⟨S1000000, .i32⟩
  | 87 => ⟨S_, .i32⟩
  | 88 => ⟨S1000000, .i32⟩
  | 89 => ⟨S1000000, .i1⟩
  | 90 => ⟨S_, .i32⟩
  | 91 => ⟨S1000000, .i32⟩
  | 92 => ⟨S1000000, .i32⟩
  | 93 => ⟨S1000000, .i32⟩
  | 94 => ⟨S1000000x1, .i32⟩
  | 95 => ⟨S1000000x64, .f32⟩
  | 96 => ⟨S_, .f32⟩
  | 97 => ⟨S200000x64, .f32⟩
  | 98 => ⟨S1000000x1, .i32⟩
  | 99 => ⟨S200000x64, .f32⟩
  | 100 => ⟨S_, .f32⟩
  | 101 => ⟨S1000000, .f32⟩
  | 102 => ⟨S_, .f32⟩
  | 103 => ⟨S200000, .f32⟩
  | 104 => ⟨S1000000x1, .i32⟩
  | 105 => ⟨S200000, .f32⟩
  | 106 => ⟨S200000x1, .f32⟩
  | 107 => ⟨S_, .f32⟩
  | 108 => ⟨S200000x1, .f32⟩
  | 109 => ⟨S200000x1, .f32⟩
  | 110 => ⟨S200000x64, .f32⟩
  | 111 => ⟨S200000x64, .f32⟩
  | 112 => ⟨S200000x64, .f32⟩
  | 113 => ⟨S200000x64, .f32⟩
  | 114 => ⟨S200000x64, .f32⟩
  | 115 => ⟨S1x64, .f32⟩
  | 116 => ⟨S200000x64, .f32⟩
  | 117 => ⟨S200000x64, .f32⟩
  | 118 => ⟨S1x1x64x64, .f32⟩
  | 119 => ⟨S64x64, .f32⟩
  | 120 => ⟨S1x1x64x64, .f32⟩
  | 121 => ⟨S64x64, .f32⟩
  | 122 => ⟨S1x1x64, .f32⟩
  | 123 => ⟨S64, .f32⟩
  | 124 => ⟨S1x1000000, .i32⟩
  | 125 => ⟨S1000000, .i32⟩
  | 126 => ⟨S1x1000000, .i32⟩
  | 127 => ⟨S1000000, .i32⟩
  | _ => ⟨S5000x64, .f32⟩

abbrev hbmTy0_3 (i : Nat) : BufTy := match i % 128 with
  | 0 => ⟨S_, .i32⟩
  | 1 => ⟨S1000000, .i32⟩
  | 2 => ⟨S1000000, .i1⟩
  | 3 => ⟨S_, .i32⟩
  | 4 => ⟨S1000000, .i32⟩
  | 5 => ⟨S1000000, .i32⟩
  | 6 => ⟨S1000000, .i32⟩
  | 7 => ⟨S1000000x1, .i32⟩
  | 8 => ⟨S1000000x64, .f32⟩
  | 9 => ⟨S_, .f32⟩
  | 10 => ⟨S200000x64, .f32⟩
  | 11 => ⟨S1000000x1, .i32⟩
  | 12 => ⟨S200000x64, .f32⟩
  | 13 => ⟨S_, .f32⟩
  | 14 => ⟨S1000000, .f32⟩
  | 15 => ⟨S_, .f32⟩
  | 16 => ⟨S200000, .f32⟩
  | 17 => ⟨S1000000x1, .i32⟩
  | 18 => ⟨S200000, .f32⟩
  | 19 => ⟨S200000x1, .f32⟩
  | 20 => ⟨S_, .f32⟩
  | 21 => ⟨S200000x1, .f32⟩
  | 22 => ⟨S200000x1, .f32⟩
  | 23 => ⟨S200000x64, .f32⟩
  | 24 => ⟨S200000x64, .f32⟩
  | 25 => ⟨S200000x64, .f32⟩
  | 26 => ⟨S200000x64, .f32⟩
  | 27 => ⟨S200000x64, .f32⟩
  | 28 => ⟨S1x64, .f32⟩
  | 29 => ⟨S200000x64, .f32⟩
  | 30 => ⟨S200000x64, .f32⟩
  | 31 => ⟨S1x1x64x64, .f32⟩
  | 32 => ⟨S64x64, .f32⟩
  | 33 => ⟨S1x1x64x64, .f32⟩
  | 34 => ⟨S64x64, .f32⟩
  | 35 => ⟨S1x1x64, .f32⟩
  | 36 => ⟨S64, .f32⟩
  | 37 => ⟨S1x1000000, .i32⟩
  | 38 => ⟨S1000000, .i32⟩
  | 39 => ⟨S1x1000000, .i32⟩
  | 40 => ⟨S1000000, .i32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000x64, .f32⟩
  | 50 => ⟨S_, .f32⟩
  | 51 => ⟨S200000x64, .f32⟩
  | 52 => ⟨S1000000x1, .i32⟩
  | 53 => ⟨S200000x64, .f32⟩
  | 54 => ⟨S_, .f32⟩
  | 55 => ⟨S1000000, .f32⟩
  | 56 => ⟨S_, .f32⟩
  | 57 => ⟨S200000, .f32⟩
  | 58 => ⟨S1000000x1, .i32⟩
  | 59 => ⟨S200000, .f32⟩
  | 60 => ⟨S200000x1, .f32⟩
  | 61 => ⟨S_, .f32⟩
  | 62 => ⟨S200000x1, .f32⟩
  | 63 => ⟨S200000x1, .f32⟩
  | 64 => ⟨S200000x64, .f32⟩
  | 65 => ⟨S200000x64, .f32⟩
  | 66 => ⟨S200000x64, .f32⟩
  | 67 => ⟨S200000x64, .f32⟩
  | 68 => ⟨S200000x64, .f32⟩
  | 69 => ⟨S1x64, .f32⟩
  | 70 => ⟨S200000x64, .f32⟩
  | 71 => ⟨S200000x64, .f32⟩
  | 72 => ⟨S200000x64, .f32⟩
  | 73 => ⟨S1x1x64, .f32⟩
  | 74 => ⟨S64, .f32⟩
  | 75 => ⟨S1x1x64, .f32⟩
  | 76 => ⟨S64, .f32⟩
  | 77 => ⟨S_, .f32⟩
  | 78 => ⟨S64, .f32⟩
  | 79 => ⟨S_, .f32⟩
  | 80 => ⟨S64, .f32⟩
  | 81 => ⟨S64, .f32⟩
  | 82 => ⟨S_, .i32⟩
  | 83 => ⟨S_, .f32⟩
  | 84 => ⟨S64, .f32⟩
  | 85 => ⟨S1x64, .f32⟩
  | 86 => ⟨S_, .f32⟩
  | 87 => ⟨S1x64, .f32⟩
  | 88 => ⟨S1x64, .f32⟩
  | 89 => ⟨S200000x64, .f32⟩
  | 90 => ⟨S200000x64, .f32⟩
  | 91 => ⟨S200000x64, .f32⟩
  | 92 => ⟨S_, .f32⟩
  | 93 => ⟨S_, .f32⟩
  | 94 => ⟨S_, .f32⟩
  | 95 => ⟨S_, .f32⟩
  | 96 => ⟨S64, .f32⟩
  | 97 => ⟨S64, .f32⟩
  | 98 => ⟨S64, .f32⟩
  | 99 => ⟨S_, .f32⟩
  | 100 => ⟨S_, .i1⟩
  | 101 => ⟨S_, .f32⟩
  | 102 => ⟨S_, .f32⟩
  | 103 => ⟨S64, .f32⟩
  | 104 => ⟨S64, .f32⟩
  | 105 => ⟨S1x64, .f32⟩
  | 106 => ⟨S200000x64, .f32⟩
  | 107 => ⟨S200000x64, .f32⟩
  | 108 => ⟨S1x64, .f32⟩
  | 109 => ⟨S200000x64, .f32⟩
  | 110 => ⟨S200000x64, .f32⟩
  | 111 => ⟨S_, .f32⟩
  | 112 => ⟨S64, .f32⟩
  | 113 => ⟨S64, .f32⟩
  | 114 => ⟨S64, .f32⟩
  | 115 => ⟨S1x64, .f32⟩
  | 116 => ⟨S200000x64, .f32⟩
  | 117 => ⟨S200000x64, .f32⟩
  | 118 => ⟨S1x64, .f32⟩
  | 119 => ⟨S200000x64, .f32⟩
  | 120 => ⟨S200000x64, .f32⟩
  | 121 => ⟨S1x1x64, .f32⟩
  | 122 => ⟨S64, .f32⟩
  | 123 => ⟨S1x1x64, .f32⟩
  | 124 => ⟨S64, .f32⟩
  | 125 => ⟨S_, .f32⟩
  | 126 => ⟨S64, .f32⟩
  | 127 => ⟨S_, .f32⟩
  | _ => ⟨S5000x64, .f32⟩

abbrev hbmTy0_4 (i : Nat) : BufTy := match i % 128 with
  | 0 => ⟨S64, .f32⟩
  | 1 => ⟨S64, .f32⟩
  | 2 => ⟨S_, .i32⟩
  | 3 => ⟨S_, .f32⟩
  | 4 => ⟨S64, .f32⟩
  | 5 => ⟨S1x64, .f32⟩
  | 6 => ⟨S_, .f32⟩
  | 7 => ⟨S1x64, .f32⟩
  | 8 => ⟨S1x64, .f32⟩
  | 9 => ⟨S200000x64, .f32⟩
  | 10 => ⟨S200000x64, .f32⟩
  | 11 => ⟨S200000x64, .f32⟩
  | 12 => ⟨S_, .f32⟩
  | 13 => ⟨S_, .f32⟩
  | 14 => ⟨S_, .f32⟩
  | 15 => ⟨S_, .f32⟩
  | 16 => ⟨S64, .f32⟩
  | 17 => ⟨S64, .f32⟩
  | 18 => ⟨S64, .f32⟩
  | 19 => ⟨S_, .f32⟩
  | 20 => ⟨S_, .i1⟩
  | 21 => ⟨S_, .f32⟩
  | 22 => ⟨S_, .f32⟩
  | 23 => ⟨S64, .f32⟩
  | 24 => ⟨S64, .f32⟩
  | 25 => ⟨S1x64, .f32⟩
  | 26 => ⟨S200000x64, .f32⟩
  | 27 => ⟨S200000x64, .f32⟩
  | 28 => ⟨S1x64, .f32⟩
  | 29 => ⟨S200000x64, .f32⟩
  | 30 => ⟨S200000x64, .f32⟩
  | 31 => ⟨S_, .f32⟩
  | 32 => ⟨S64, .f32⟩
  | 33 => ⟨S64, .f32⟩
  | 34 => ⟨S64, .f32⟩
  | 35 => ⟨S1x64, .f32⟩
  | 36 => ⟨S200000x64, .f32⟩
  | 37 => ⟨S200000x64, .f32⟩
  | 38 => ⟨S1x64, .f32⟩
  | 39 => ⟨S200000x64, .f32⟩
  | 40 => ⟨S200000x64, .f32⟩
  | 41 => ⟨S1x100000, .i32⟩
  | 42 => ⟨S100000, .i32⟩
  | 43 => ⟨S_, .i32⟩
  | 44 => ⟨S100000, .i32⟩
  | 45 => ⟨S100000, .i1⟩
  | 46 => ⟨S_, .i32⟩
  | 47 => ⟨S100000, .i32⟩
  | 48 => ⟨S100000, .i32⟩
  | 49 => ⟨S100000, .i32⟩
  | 50 => ⟨S100000x1, .i32⟩
  | 51 => ⟨S100000x64, .f32⟩
  | 52 => ⟨S1x100000, .i32⟩
  | 53 => ⟨S100000, .i32⟩
  | 54 => ⟨S_, .i32⟩
  | 55 => ⟨S100000, .i32⟩
  | 56 => ⟨S100000, .i1⟩
  | 57 => ⟨S_, .i32⟩
  | 58 => ⟨S100000, .i32⟩
  | 59 => ⟨S100000, .i32⟩
  | 60 => ⟨S100000, .i32⟩
  | 61 => ⟨S100000x1, .i32⟩
  | 62 => ⟨S100000x64, .f32⟩
  | 63 => ⟨S100000x64, .f32⟩
  | 64 => ⟨S_, .f32⟩
  | 65 => ⟨S100000, .f32⟩
  | 66 => ⟨S1x100000, .i32⟩
  | 67 => ⟨S100000, .i32⟩
  | 68 => ⟨S_, .i32⟩
  | 69 => ⟨S100000, .i32⟩
  | 70 => ⟨S100000, .i1⟩
  | 71 => ⟨S_, .i32⟩
  | 72 => ⟨S100000, .i32⟩
  | 73 => ⟨S100000, .i32⟩
  | 74 => ⟨S100000, .i32⟩
  | 75 => ⟨S100000x1, .i32⟩
  | 76 => ⟨S100000, .f32⟩
  | 77 => ⟨S1x100000, .i32⟩
  | 78 => ⟨S100000, .i32⟩
  | 79 => ⟨S_, .i32⟩
  | 80 => ⟨S100000, .i32⟩
  | 81 => ⟨S100000, .i1⟩
  | 82 => ⟨S_, .i32⟩
  | 83 => ⟨S100000, .i32⟩
  | 84 => ⟨S100000, .i32⟩
  | 85 => ⟨S100000, .i32⟩
  | 86 => ⟨S100000x1, .i32⟩
  | 87 => ⟨S100000x64, .f32⟩
  | 88 => ⟨S1x100000, .i32⟩
  | 89 => ⟨S100000, .i32⟩
  | 90 => ⟨S_, .i32⟩
  | 91 => ⟨S100000, .i32⟩
  | 92 => ⟨S100000, .i1⟩
  | 93 => ⟨S_, .i32⟩
  | 94 => ⟨S100000, .i32⟩
  | 95 => ⟨S100000, .i32⟩
  | 96 => ⟨S100000, .i32⟩
  | 97 => ⟨S100000x1, .i32⟩
  | 98 => ⟨S100000x64, .f32⟩
  | 99 => ⟨S100000x64, .f32⟩
  | 100 => ⟨S_, .f32⟩
  | 101 => ⟨S100000, .f32⟩
  | 102 => ⟨S1x100000, .i32⟩
  | 103 => ⟨S100000, .i32⟩
  | 104 => ⟨S_, .i32⟩
  | 105 => ⟨S100000, .i32⟩
  | 106 => ⟨S100000, .i1⟩
  | 107 => ⟨S_, .i32⟩
  | 108 => ⟨S100000, .i32⟩
  | 109 => ⟨S100000, .i32⟩
  | 110 => ⟨S100000, .i32⟩
  | 111 => ⟨S100000x1, .i32⟩
  | 112 => ⟨S100000, .f32⟩
  | 113 => ⟨S1x100000, .i32⟩
  | 114 => ⟨S100000, .i32⟩
  | 115 => ⟨S_, .i32⟩
  | 116 => ⟨S100000, .i32⟩
  | 117 => ⟨S100000, .i1⟩
  | 118 => ⟨S_, .i32⟩
  | 119 => ⟨S100000, .i32⟩
  | 120 => ⟨S100000, .i32⟩
  | 121 => ⟨S100000, .i32⟩
  | 122 => ⟨S100000x1, .i32⟩
  | 123 => ⟨S100000x64, .f32⟩
  | 124 => ⟨S1x100000, .i32⟩
  | 125 => ⟨S100000, .i32⟩
  | 126 => ⟨S_, .i32⟩
  | 127 => ⟨S100000, .i32⟩
  | _ => ⟨S5000x64, .f32⟩

abbrev hbmTy0_5 (i : Nat) : BufTy := match i % 128 with
  | 0 => ⟨S100000, .i1⟩
  | 1 => ⟨S_, .i32⟩
  | 2 => ⟨S100000, .i32⟩
  | 3 => ⟨S100000, .i32⟩
  | 4 => ⟨S100000, .i32⟩
  | 5 => ⟨S100000x1, .i32⟩
  | 6 => ⟨S100000x64, .f32⟩
  | 7 => ⟨S100000x64, .f32⟩
  | 8 => ⟨S_, .f32⟩
  | 9 => ⟨S100000, .f32⟩
  | 10 => ⟨S1x100000, .i32⟩
  | 11 => ⟨S100000, .i32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S100000, .f32⟩
  | 21 => ⟨S1x100000, .f32⟩
  | 22 => ⟨S1x100000, .f32⟩
  | 23 => ⟨S1x100000, .f32⟩
  | 24 => ⟨S1x100000, .f32⟩
  | 25 => ⟨S1x100000, .f32⟩
  | 26 => ⟨S1x100000, .f32⟩
  | 27 => ⟨S6x100000, .f32⟩
  | _ => ⟨S5000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S5000x64, .f32⟩

abbrev bufTy : (tb : Table) → Fin (tcTables nBuf tb) → BufTy
  | .hbm, ⟨i, _⟩ => hbmTy i
  | _, _ => ⟨S5000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst : Ref sig .tc := ⟨.hbm, 47, rfl⟩
abbrev main_v22 : Ref sig .tc := ⟨.hbm, 48, rfl⟩
abbrev main_v23 : Ref sig .tc := ⟨.hbm, 49, rfl⟩
abbrev main_cst_3 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_4 : Ref sig .tc := ⟨.hbm, 62, rfl⟩
abbrev main_v35 : Ref sig .tc := ⟨.hbm, 63, rfl⟩
abbrev main_v36 : Ref sig .tc := ⟨.hbm, 64, rfl⟩
abbrev main_cst_5 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_6 : Ref sig .tc := ⟨.hbm, 77, rfl⟩
abbrev main_v48 : Ref sig .tc := ⟨.hbm, 78, rfl⟩
abbrev main_v49 : Ref sig .tc := ⟨.hbm, 79, rfl⟩
abbrev main_cst_7 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_8 : Ref sig .tc := ⟨.hbm, 92, rfl⟩
abbrev main_v61 : Ref sig .tc := ⟨.hbm, 93, rfl⟩
abbrev main_v62 : Ref sig .tc := ⟨.hbm, 94, rfl⟩
abbrev main_cst_9 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_10 : Ref sig .tc := ⟨.hbm, 109, rfl⟩
abbrev main_v76 : Ref sig .tc := ⟨.hbm, 110, rfl⟩
abbrev main_v77 : Ref sig .tc := ⟨.hbm, 111, rfl⟩
abbrev main_c_11 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_12 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_13 : Ref sig .tc := ⟨.hbm, 122, rfl⟩
abbrev main_v86 : Ref sig .tc := ⟨.hbm, 123, rfl⟩
abbrev main_cst_14 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_15 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_c_16 : Ref sig .tc := ⟨.hbm, 150, rfl⟩
abbrev main_v111 : Ref sig .tc := ⟨.hbm, 151, rfl⟩
abbrev main_v112 : Ref sig .tc := ⟨.hbm, 152, rfl⟩
abbrev main_c_17 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_18 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_19 : Ref sig .tc := ⟨.hbm, 163, rfl⟩
abbrev main_v121 : Ref sig .tc := ⟨.hbm, 164, rfl⟩
abbrev main_cst_20 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_21 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_c_22 : Ref sig .tc := ⟨.hbm, 191, rfl⟩
abbrev main_v146 : Ref sig .tc := ⟨.hbm, 192, rfl⟩
abbrev main_v147 : Ref sig .tc := ⟨.hbm, 193, rfl⟩
abbrev main_c_23 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_cst_24 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_cst_25 : Ref sig .tc := ⟨.hbm, 204, rfl⟩
abbrev main_v156 : Ref sig .tc := ⟨.hbm, 205, rfl⟩
abbrev main_cst_26 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_cst_27 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_cst_28 : Ref sig .tc := ⟨.hbm, 227, rfl⟩
abbrev main_v176 : Ref sig .tc := ⟨.hbm, 228, rfl⟩
abbrev main_cst_29 : Ref sig .tc := ⟨.hbm, 229, rfl⟩
abbrev main_v177 : Ref sig .tc := ⟨.hbm, 230, rfl⟩
abbrev main_v178 : Ref sig .tc := ⟨.hbm, 231, rfl⟩
abbrev main_c_30 : Ref sig .tc := ⟨.hbm, 232, rfl⟩
abbrev main_call4_cst : Ref sig .tc := ⟨.hbm, 233, rfl⟩
abbrev main_call4_v0 : Ref sig .tc := ⟨.hbm, 234, rfl⟩
abbrev main_call4_v1 : Ref sig .tc := ⟨.hbm, 235, rfl⟩
abbrev main_call4_cst_0 : Ref sig .tc := ⟨.hbm, 236, rfl⟩
abbrev main_call4_v2 : Ref sig .tc := ⟨.hbm, 237, rfl⟩
abbrev main_call4_v3 : Ref sig .tc := ⟨.hbm, 238, rfl⟩
abbrev main_call4_v4 : Ref sig .tc := ⟨.hbm, 239, rfl⟩
abbrev main_call4_v5 : Ref sig .tc := ⟨.hbm, 240, rfl⟩
abbrev main_call4_v6 : Ref sig .tc := ⟨.hbm, 241, rfl⟩
abbrev main_call4_v7 : Ref sig .tc := ⟨.hbm, 242, rfl⟩
abbrev main_call4_cst_1 : Ref sig .tc := ⟨.hbm, 243, rfl⟩
abbrev main_call4_v8 : Ref sig .tc := ⟨.hbm, 244, rfl⟩
abbrev main_call4_cst_2 : Ref sig .tc := ⟨.hbm, 245, rfl⟩
abbrev main_call4_v9 : Ref sig .tc := ⟨.hbm, 246, rfl⟩
abbrev main_call4_v10 : Ref sig .tc := ⟨.hbm, 247, rfl⟩
abbrev main_call4_v11 : Ref sig .tc := ⟨.hbm, 248, rfl⟩
abbrev main_call4_cst_3 : Ref sig .tc := ⟨.hbm, 249, rfl⟩
abbrev main_call4_v12 : Ref sig .tc := ⟨.hbm, 250, rfl⟩
abbrev main_call4_cst_4 : Ref sig .tc := ⟨.hbm, 251, rfl⟩
abbrev main_call4_call0_v0 : Ref sig .tc := ⟨.hbm, 252, rfl⟩
abbrev main_call4_call0_v1 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_cst_31 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_cst_32 : Ref sig .tc := ⟨.hbm, 275, rfl⟩
abbrev main_v199 : Ref sig .tc := ⟨.hbm, 276, rfl⟩
abbrev main_cst_33 : Ref sig .tc := ⟨.hbm, 277, rfl⟩
abbrev main_v200 : Ref sig .tc := ⟨.hbm, 278, rfl⟩
abbrev main_v201 : Ref sig .tc := ⟨.hbm, 279, rfl⟩
abbrev main_c_34 : Ref sig .tc := ⟨.hbm, 280, rfl⟩
abbrev main_call5_cst : Ref sig .tc := ⟨.hbm, 281, rfl⟩
abbrev main_call5_v0 : Ref sig .tc := ⟨.hbm, 282, rfl⟩
abbrev main_call5_v1 : Ref sig .tc := ⟨.hbm, 283, rfl⟩
abbrev main_call5_cst_0 : Ref sig .tc := ⟨.hbm, 284, rfl⟩
abbrev main_call5_v2 : Ref sig .tc := ⟨.hbm, 285, rfl⟩
abbrev main_call5_v3 : Ref sig .tc := ⟨.hbm, 286, rfl⟩
abbrev main_call5_v4 : Ref sig .tc := ⟨.hbm, 287, rfl⟩
abbrev main_call5_v5 : Ref sig .tc := ⟨.hbm, 288, rfl⟩
abbrev main_call5_v6 : Ref sig .tc := ⟨.hbm, 289, rfl⟩
abbrev main_call5_v7 : Ref sig .tc := ⟨.hbm, 290, rfl⟩
abbrev main_call5_cst_1 : Ref sig .tc := ⟨.hbm, 291, rfl⟩
abbrev main_call5_v8 : Ref sig .tc := ⟨.hbm, 292, rfl⟩
abbrev main_call5_cst_2 : Ref sig .tc := ⟨.hbm, 293, rfl⟩
abbrev main_call5_v9 : Ref sig .tc := ⟨.hbm, 294, rfl⟩
abbrev main_call5_v10 : Ref sig .tc := ⟨.hbm, 295, rfl⟩
abbrev main_call5_v11 : Ref sig .tc := ⟨.hbm, 296, rfl⟩
abbrev main_call5_cst_3 : Ref sig .tc := ⟨.hbm, 297, rfl⟩
abbrev main_call5_v12 : Ref sig .tc := ⟨.hbm, 298, rfl⟩
abbrev main_call5_cst_4 : Ref sig .tc := ⟨.hbm, 299, rfl⟩
abbrev main_call5_call0_v0 : Ref sig .tc := ⟨.hbm, 300, rfl⟩
abbrev main_call5_call0_v1 : Ref sig .tc := ⟨.hbm, 301, rfl⟩
abbrev main_v202 : Ref sig .tc := ⟨.hbm, 302, rfl⟩
abbrev main_v203 : Ref sig .tc := ⟨.hbm, 303, rfl⟩
abbrev main_v204 : Ref sig .tc := ⟨.hbm, 304, rfl⟩
abbrev main_v205 : Ref sig .tc := ⟨.hbm, 305, rfl⟩
abbrev main_v206 : Ref sig .tc := ⟨.hbm, 306, rfl⟩
abbrev main_v207 : Ref sig .tc := ⟨.hbm, 307, rfl⟩
abbrev main_v208 : Ref sig .tc := ⟨.hbm, 308, rfl⟩
abbrev main_cst_35 : Ref sig .tc := ⟨.hbm, 309, rfl⟩
abbrev main_v209 : Ref sig .tc := ⟨.hbm, 310, rfl⟩
abbrev main_v210 : Ref sig .tc := ⟨.hbm, 311, rfl⟩
abbrev main_v211 : Ref sig .tc := ⟨.hbm, 312, rfl⟩
abbrev main_v212 : Ref sig .tc := ⟨.hbm, 313, rfl⟩
abbrev main_v213 : Ref sig .tc := ⟨.hbm, 314, rfl⟩
abbrev main_v214 : Ref sig .tc := ⟨.hbm, 315, rfl⟩
abbrev main_v215 : Ref sig .tc := ⟨.hbm, 316, rfl⟩
abbrev main_v216 : Ref sig .tc := ⟨.hbm, 317, rfl⟩
abbrev main_v217 : Ref sig .tc := ⟨.hbm, 318, rfl⟩
abbrev main_cst_36 : Ref sig .tc := ⟨.hbm, 319, rfl⟩
abbrev main_v218 : Ref sig .tc := ⟨.hbm, 320, rfl⟩
abbrev main_v219 : Ref sig .tc := ⟨.hbm, 321, rfl⟩
abbrev main_cst_37 : Ref sig .tc := ⟨.hbm, 322, rfl⟩
abbrev main_v220 : Ref sig .tc := ⟨.hbm, 323, rfl⟩
abbrev main_v221 : Ref sig .tc := ⟨.hbm, 324, rfl⟩
abbrev main_v222 : Ref sig .tc := ⟨.hbm, 325, rfl⟩
abbrev main_cst_38 : Ref sig .tc := ⟨.hbm, 326, rfl⟩
abbrev main_v223 : Ref sig .tc := ⟨.hbm, 327, rfl⟩
abbrev main_v224 : Ref sig .tc := ⟨.hbm, 328, rfl⟩
abbrev main_cst_39 : Ref sig .tc := ⟨.hbm, 329, rfl⟩
abbrev main_v225 : Ref sig .tc := ⟨.hbm, 330, rfl⟩
abbrev main_v226 : Ref sig .tc := ⟨.hbm, 331, rfl⟩
abbrev main_v227 : Ref sig .tc := ⟨.hbm, 332, rfl⟩
abbrev main_v228 : Ref sig .tc := ⟨.hbm, 333, rfl⟩
abbrev main_v229 : Ref sig .tc := ⟨.hbm, 334, rfl⟩
abbrev main_v230 : Ref sig .tc := ⟨.hbm, 335, rfl⟩
abbrev main_v231 : Ref sig .tc := ⟨.hbm, 336, rfl⟩
abbrev main_v232 : Ref sig .tc := ⟨.hbm, 337, rfl⟩
abbrev main_v233 : Ref sig .tc := ⟨.hbm, 338, rfl⟩
abbrev main_v234 : Ref sig .tc := ⟨.hbm, 339, rfl⟩
abbrev main_v235 : Ref sig .tc := ⟨.hbm, 340, rfl⟩
abbrev main_v236 : Ref sig .tc := ⟨.hbm, 341, rfl⟩
abbrev main_v237 : Ref sig .tc := ⟨.hbm, 342, rfl⟩
abbrev main_c_40 : Ref sig .tc := ⟨.hbm, 343, rfl⟩
abbrev main_v238 : Ref sig .tc := ⟨.hbm, 344, rfl⟩
abbrev main_v239 : Ref sig .tc := ⟨.hbm, 345, rfl⟩
abbrev main_c_41 : Ref sig .tc := ⟨.hbm, 346, rfl⟩
abbrev main_v240 : Ref sig .tc := ⟨.hbm, 347, rfl⟩
abbrev main_v241 : Ref sig .tc := ⟨.hbm, 348, rfl⟩
abbrev main_v242 : Ref sig .tc := ⟨.hbm, 349, rfl⟩
abbrev main_v243 : Ref sig .tc := ⟨.hbm, 350, rfl⟩
abbrev main_v244 : Ref sig .tc := ⟨.hbm, 351, rfl⟩
abbrev main_cst_42 : Ref sig .tc := ⟨.hbm, 352, rfl⟩
abbrev main_v245 : Ref sig .tc := ⟨.hbm, 353, rfl⟩
abbrev main_v246 : Ref sig .tc := ⟨.hbm, 354, rfl⟩
abbrev main_v247 : Ref sig .tc := ⟨.hbm, 355, rfl⟩
abbrev main_cst_43 : Ref sig .tc := ⟨.hbm, 356, rfl⟩
abbrev main_v248 : Ref sig .tc := ⟨.hbm, 357, rfl⟩
abbrev main_cst_44 : Ref sig .tc := ⟨.hbm, 358, rfl⟩
abbrev main_v249 : Ref sig .tc := ⟨.hbm, 359, rfl⟩
abbrev main_v250 : Ref sig .tc := ⟨.hbm, 360, rfl⟩
abbrev main_v251 : Ref sig .tc := ⟨.hbm, 361, rfl⟩
abbrev main_v252 : Ref sig .tc := ⟨.hbm, 362, rfl⟩
abbrev main_cst_45 : Ref sig .tc := ⟨.hbm, 363, rfl⟩
abbrev main_v253 : Ref sig .tc := ⟨.hbm, 364, rfl⟩
abbrev main_v254 : Ref sig .tc := ⟨.hbm, 365, rfl⟩
abbrev main_v255 : Ref sig .tc := ⟨.hbm, 366, rfl⟩
abbrev main_v256 : Ref sig .tc := ⟨.hbm, 367, rfl⟩
abbrev main_v257 : Ref sig .tc := ⟨.hbm, 368, rfl⟩
abbrev main_v258 : Ref sig .tc := ⟨.hbm, 369, rfl⟩
abbrev main_v259 : Ref sig .tc := ⟨.hbm, 370, rfl⟩
abbrev main_v260 : Ref sig .tc := ⟨.hbm, 371, rfl⟩
abbrev main_v261 : Ref sig .tc := ⟨.hbm, 372, rfl⟩
abbrev main_v262 : Ref sig .tc := ⟨.hbm, 373, rfl⟩
abbrev main_v263 : Ref sig .tc := ⟨.hbm, 374, rfl⟩
abbrev main_v264 : Ref sig .tc := ⟨.hbm, 375, rfl⟩
abbrev main_v265 : Ref sig .tc := ⟨.hbm, 376, rfl⟩
abbrev main_v266 : Ref sig .tc := ⟨.hbm, 377, rfl⟩
abbrev main_v267 : Ref sig .tc := ⟨.hbm, 378, rfl⟩
abbrev main_v268 : Ref sig .tc := ⟨.hbm, 379, rfl⟩
abbrev main_v269 : Ref sig .tc := ⟨.hbm, 380, rfl⟩
abbrev main_v270 : Ref sig .tc := ⟨.hbm, 381, rfl⟩
abbrev main_v271 : Ref sig .tc := ⟨.hbm, 382, rfl⟩
abbrev main_v272 : Ref sig .tc := ⟨.hbm, 383, rfl⟩
abbrev main_c_46 : Ref sig .tc := ⟨.hbm, 384, rfl⟩
abbrev main_v273 : Ref sig .tc := ⟨.hbm, 385, rfl⟩
abbrev main_v274 : Ref sig .tc := ⟨.hbm, 386, rfl⟩
abbrev main_c_47 : Ref sig .tc := ⟨.hbm, 387, rfl⟩
abbrev main_v275 : Ref sig .tc := ⟨.hbm, 388, rfl⟩
abbrev main_v276 : Ref sig .tc := ⟨.hbm, 389, rfl⟩
abbrev main_v277 : Ref sig .tc := ⟨.hbm, 390, rfl⟩
abbrev main_v278 : Ref sig .tc := ⟨.hbm, 391, rfl⟩
abbrev main_v279 : Ref sig .tc := ⟨.hbm, 392, rfl⟩
abbrev main_cst_48 : Ref sig .tc := ⟨.hbm, 393, rfl⟩
abbrev main_v280 : Ref sig .tc := ⟨.hbm, 394, rfl⟩
abbrev main_v281 : Ref sig .tc := ⟨.hbm, 395, rfl⟩
abbrev main_v282 : Ref sig .tc := ⟨.hbm, 396, rfl⟩
abbrev main_cst_49 : Ref sig .tc := ⟨.hbm, 397, rfl⟩
abbrev main_v283 : Ref sig .tc := ⟨.hbm, 398, rfl⟩
abbrev main_cst_50 : Ref sig .tc := ⟨.hbm, 399, rfl⟩
abbrev main_v284 : Ref sig .tc := ⟨.hbm, 400, rfl⟩
abbrev main_v285 : Ref sig .tc := ⟨.hbm, 401, rfl⟩
abbrev main_v286 : Ref sig .tc := ⟨.hbm, 402, rfl⟩
abbrev main_v287 : Ref sig .tc := ⟨.hbm, 403, rfl⟩
abbrev main_cst_51 : Ref sig .tc := ⟨.hbm, 404, rfl⟩
abbrev main_v288 : Ref sig .tc := ⟨.hbm, 405, rfl⟩
abbrev main_v289 : Ref sig .tc := ⟨.hbm, 406, rfl⟩
abbrev main_v290 : Ref sig .tc := ⟨.hbm, 407, rfl⟩
abbrev main_v291 : Ref sig .tc := ⟨.hbm, 408, rfl⟩
abbrev main_v292 : Ref sig .tc := ⟨.hbm, 409, rfl⟩
abbrev main_v293 : Ref sig .tc := ⟨.hbm, 410, rfl⟩
abbrev main_v294 : Ref sig .tc := ⟨.hbm, 411, rfl⟩
abbrev main_v295 : Ref sig .tc := ⟨.hbm, 412, rfl⟩
abbrev main_v296 : Ref sig .tc := ⟨.hbm, 413, rfl⟩
abbrev main_v297 : Ref sig .tc := ⟨.hbm, 414, rfl⟩
abbrev main_v298 : Ref sig .tc := ⟨.hbm, 415, rfl⟩
abbrev main_v299 : Ref sig .tc := ⟨.hbm, 416, rfl⟩
abbrev main_v300 : Ref sig .tc := ⟨.hbm, 417, rfl⟩
abbrev main_v301 : Ref sig .tc := ⟨.hbm, 418, rfl⟩
abbrev main_v302 : Ref sig .tc := ⟨.hbm, 419, rfl⟩
abbrev main_v303 : Ref sig .tc := ⟨.hbm, 420, rfl⟩
abbrev main_v304 : Ref sig .tc := ⟨.hbm, 421, rfl⟩
abbrev main_v305 : Ref sig .tc := ⟨.hbm, 422, rfl⟩
abbrev main_v306 : Ref sig .tc := ⟨.hbm, 423, rfl⟩
abbrev main_v307 : Ref sig .tc := ⟨.hbm, 424, rfl⟩
abbrev main_c_52 : Ref sig .tc := ⟨.hbm, 425, rfl⟩
abbrev main_v308 : Ref sig .tc := ⟨.hbm, 426, rfl⟩
abbrev main_v309 : Ref sig .tc := ⟨.hbm, 427, rfl⟩
abbrev main_c_53 : Ref sig .tc := ⟨.hbm, 428, rfl⟩
abbrev main_v310 : Ref sig .tc := ⟨.hbm, 429, rfl⟩
abbrev main_v311 : Ref sig .tc := ⟨.hbm, 430, rfl⟩
abbrev main_v312 : Ref sig .tc := ⟨.hbm, 431, rfl⟩
abbrev main_v313 : Ref sig .tc := ⟨.hbm, 432, rfl⟩
abbrev main_v314 : Ref sig .tc := ⟨.hbm, 433, rfl⟩
abbrev main_cst_54 : Ref sig .tc := ⟨.hbm, 434, rfl⟩
abbrev main_v315 : Ref sig .tc := ⟨.hbm, 435, rfl⟩
abbrev main_v316 : Ref sig .tc := ⟨.hbm, 436, rfl⟩
abbrev main_v317 : Ref sig .tc := ⟨.hbm, 437, rfl⟩
abbrev main_cst_55 : Ref sig .tc := ⟨.hbm, 438, rfl⟩
abbrev main_v318 : Ref sig .tc := ⟨.hbm, 439, rfl⟩
abbrev main_cst_56 : Ref sig .tc := ⟨.hbm, 440, rfl⟩
abbrev main_v319 : Ref sig .tc := ⟨.hbm, 441, rfl⟩
abbrev main_v320 : Ref sig .tc := ⟨.hbm, 442, rfl⟩
abbrev main_v321 : Ref sig .tc := ⟨.hbm, 443, rfl⟩
abbrev main_v322 : Ref sig .tc := ⟨.hbm, 444, rfl⟩
abbrev main_cst_57 : Ref sig .tc := ⟨.hbm, 445, rfl⟩
abbrev main_v323 : Ref sig .tc := ⟨.hbm, 446, rfl⟩
abbrev main_v324 : Ref sig .tc := ⟨.hbm, 447, rfl⟩
abbrev main_v325 : Ref sig .tc := ⟨.hbm, 448, rfl⟩
abbrev main_v326 : Ref sig .tc := ⟨.hbm, 449, rfl⟩
abbrev main_v327 : Ref sig .tc := ⟨.hbm, 450, rfl⟩
abbrev main_v328 : Ref sig .tc := ⟨.hbm, 451, rfl⟩
abbrev main_v329 : Ref sig .tc := ⟨.hbm, 452, rfl⟩
abbrev main_v330 : Ref sig .tc := ⟨.hbm, 453, rfl⟩
abbrev main_v331 : Ref sig .tc := ⟨.hbm, 454, rfl⟩
abbrev main_v332 : Ref sig .tc := ⟨.hbm, 455, rfl⟩
abbrev main_v333 : Ref sig .tc := ⟨.hbm, 456, rfl⟩
abbrev main_v334 : Ref sig .tc := ⟨.hbm, 457, rfl⟩
abbrev main_v335 : Ref sig .tc := ⟨.hbm, 458, rfl⟩
abbrev main_v336 : Ref sig .tc := ⟨.hbm, 459, rfl⟩
abbrev main_v337 : Ref sig .tc := ⟨.hbm, 460, rfl⟩
abbrev main_cst_58 : Ref sig .tc := ⟨.hbm, 461, rfl⟩
abbrev main_v338 : Ref sig .tc := ⟨.hbm, 462, rfl⟩
abbrev main_cst_59 : Ref sig .tc := ⟨.hbm, 463, rfl⟩
abbrev main_v339 : Ref sig .tc := ⟨.hbm, 464, rfl⟩
abbrev main_v340 : Ref sig .tc := ⟨.hbm, 465, rfl⟩
abbrev main_c_60 : Ref sig .tc := ⟨.hbm, 466, rfl⟩
abbrev main_call8_cst : Ref sig .tc := ⟨.hbm, 467, rfl⟩
abbrev main_call8_v0 : Ref sig .tc := ⟨.hbm, 468, rfl⟩
abbrev main_call8_v1 : Ref sig .tc := ⟨.hbm, 469, rfl⟩
abbrev main_call8_cst_0 : Ref sig .tc := ⟨.hbm, 470, rfl⟩
abbrev main_call8_v2 : Ref sig .tc := ⟨.hbm, 471, rfl⟩
abbrev main_call8_v3 : Ref sig .tc := ⟨.hbm, 472, rfl⟩
abbrev main_call8_v4 : Ref sig .tc := ⟨.hbm, 473, rfl⟩
abbrev main_call8_v5 : Ref sig .tc := ⟨.hbm, 474, rfl⟩
abbrev main_call8_v6 : Ref sig .tc := ⟨.hbm, 475, rfl⟩
abbrev main_call8_v7 : Ref sig .tc := ⟨.hbm, 476, rfl⟩
abbrev main_call8_cst_1 : Ref sig .tc := ⟨.hbm, 477, rfl⟩
abbrev main_call8_v8 : Ref sig .tc := ⟨.hbm, 478, rfl⟩
abbrev main_call8_cst_2 : Ref sig .tc := ⟨.hbm, 479, rfl⟩
abbrev main_call8_v9 : Ref sig .tc := ⟨.hbm, 480, rfl⟩
abbrev main_call8_v10 : Ref sig .tc := ⟨.hbm, 481, rfl⟩
abbrev main_call8_v11 : Ref sig .tc := ⟨.hbm, 482, rfl⟩
abbrev main_call8_cst_3 : Ref sig .tc := ⟨.hbm, 483, rfl⟩
abbrev main_call8_v12 : Ref sig .tc := ⟨.hbm, 484, rfl⟩
abbrev main_call8_cst_4 : Ref sig .tc := ⟨.hbm, 485, rfl⟩
abbrev main_call8_call0_v0 : Ref sig .tc := ⟨.hbm, 486, rfl⟩
abbrev main_call8_call0_v1 : Ref sig .tc := ⟨.hbm, 487, rfl⟩
abbrev main_v341 : Ref sig .tc := ⟨.hbm, 488, rfl⟩
abbrev main_v342 : Ref sig .tc := ⟨.hbm, 489, rfl⟩
abbrev main_v343 : Ref sig .tc := ⟨.hbm, 490, rfl⟩
abbrev main_v344 : Ref sig .tc := ⟨.hbm, 491, rfl⟩
abbrev main_v345 : Ref sig .tc := ⟨.hbm, 492, rfl⟩
abbrev main_v346 : Ref sig .tc := ⟨.hbm, 493, rfl⟩
abbrev main_v347 : Ref sig .tc := ⟨.hbm, 494, rfl⟩
abbrev main_cst_61 : Ref sig .tc := ⟨.hbm, 495, rfl⟩
abbrev main_v348 : Ref sig .tc := ⟨.hbm, 496, rfl⟩
abbrev main_v349 : Ref sig .tc := ⟨.hbm, 497, rfl⟩
abbrev main_v350 : Ref sig .tc := ⟨.hbm, 498, rfl⟩
abbrev main_v351 : Ref sig .tc := ⟨.hbm, 499, rfl⟩
abbrev main_v352 : Ref sig .tc := ⟨.hbm, 500, rfl⟩
abbrev main_v353 : Ref sig .tc := ⟨.hbm, 501, rfl⟩
abbrev main_v354 : Ref sig .tc := ⟨.hbm, 502, rfl⟩
abbrev main_v355 : Ref sig .tc := ⟨.hbm, 503, rfl⟩
abbrev main_v356 : Ref sig .tc := ⟨.hbm, 504, rfl⟩
abbrev main_v357 : Ref sig .tc := ⟨.hbm, 505, rfl⟩
abbrev main_v358 : Ref sig .tc := ⟨.hbm, 506, rfl⟩
abbrev main_v359 : Ref sig .tc := ⟨.hbm, 507, rfl⟩
abbrev main_v360 : Ref sig .tc := ⟨.hbm, 508, rfl⟩
abbrev main_cst_62 : Ref sig .tc := ⟨.hbm, 509, rfl⟩
abbrev main_v361 : Ref sig .tc := ⟨.hbm, 510, rfl⟩
abbrev main_cst_63 : Ref sig .tc := ⟨.hbm, 511, rfl⟩
abbrev main_v362 : Ref sig .tc := ⟨.hbm, 512, rfl⟩
abbrev main_v363 : Ref sig .tc := ⟨.hbm, 513, rfl⟩
abbrev main_c_64 : Ref sig .tc := ⟨.hbm, 514, rfl⟩
abbrev main_call9_cst : Ref sig .tc := ⟨.hbm, 515, rfl⟩
abbrev main_call9_v0 : Ref sig .tc := ⟨.hbm, 516, rfl⟩
abbrev main_call9_v1 : Ref sig .tc := ⟨.hbm, 517, rfl⟩
abbrev main_call9_cst_0 : Ref sig .tc := ⟨.hbm, 518, rfl⟩
abbrev main_call9_v2 : Ref sig .tc := ⟨.hbm, 519, rfl⟩
abbrev main_call9_v3 : Ref sig .tc := ⟨.hbm, 520, rfl⟩
abbrev main_call9_v4 : Ref sig .tc := ⟨.hbm, 521, rfl⟩
abbrev main_call9_v5 : Ref sig .tc := ⟨.hbm, 522, rfl⟩
abbrev main_call9_v6 : Ref sig .tc := ⟨.hbm, 523, rfl⟩
abbrev main_call9_v7 : Ref sig .tc := ⟨.hbm, 524, rfl⟩
abbrev main_call9_cst_1 : Ref sig .tc := ⟨.hbm, 525, rfl⟩
abbrev main_call9_v8 : Ref sig .tc := ⟨.hbm, 526, rfl⟩
abbrev main_call9_cst_2 : Ref sig .tc := ⟨.hbm, 527, rfl⟩
abbrev main_call9_v9 : Ref sig .tc := ⟨.hbm, 528, rfl⟩
abbrev main_call9_v10 : Ref sig .tc := ⟨.hbm, 529, rfl⟩
abbrev main_call9_v11 : Ref sig .tc := ⟨.hbm, 530, rfl⟩
abbrev main_call9_cst_3 : Ref sig .tc := ⟨.hbm, 531, rfl⟩
abbrev main_call9_v12 : Ref sig .tc := ⟨.hbm, 532, rfl⟩
abbrev main_call9_cst_4 : Ref sig .tc := ⟨.hbm, 533, rfl⟩
abbrev main_call9_call0_v0 : Ref sig .tc := ⟨.hbm, 534, rfl⟩
abbrev main_call9_call0_v1 : Ref sig .tc := ⟨.hbm, 535, rfl⟩
abbrev main_v364 : Ref sig .tc := ⟨.hbm, 536, rfl⟩
abbrev main_v365 : Ref sig .tc := ⟨.hbm, 537, rfl⟩
abbrev main_v366 : Ref sig .tc := ⟨.hbm, 538, rfl⟩
abbrev main_v367 : Ref sig .tc := ⟨.hbm, 539, rfl⟩
abbrev main_v368 : Ref sig .tc := ⟨.hbm, 540, rfl⟩
abbrev main_v369 : Ref sig .tc := ⟨.hbm, 541, rfl⟩
abbrev main_v370 : Ref sig .tc := ⟨.hbm, 542, rfl⟩
abbrev main_cst_65 : Ref sig .tc := ⟨.hbm, 543, rfl⟩
abbrev main_v371 : Ref sig .tc := ⟨.hbm, 544, rfl⟩
abbrev main_v372 : Ref sig .tc := ⟨.hbm, 545, rfl⟩
abbrev main_v373 : Ref sig .tc := ⟨.hbm, 546, rfl⟩
abbrev main_v374 : Ref sig .tc := ⟨.hbm, 547, rfl⟩
abbrev main_v375 : Ref sig .tc := ⟨.hbm, 548, rfl⟩
abbrev main_v376 : Ref sig .tc := ⟨.hbm, 549, rfl⟩
abbrev main_v377 : Ref sig .tc := ⟨.hbm, 550, rfl⟩
abbrev main_v378 : Ref sig .tc := ⟨.hbm, 551, rfl⟩
abbrev main_v379 : Ref sig .tc := ⟨.hbm, 552, rfl⟩
abbrev main_v380 : Ref sig .tc := ⟨.hbm, 553, rfl⟩
abbrev main_v381 : Ref sig .tc := ⟨.hbm, 554, rfl⟩
abbrev main_c_66 : Ref sig .tc := ⟨.hbm, 555, rfl⟩
abbrev main_v382 : Ref sig .tc := ⟨.hbm, 556, rfl⟩
abbrev main_v383 : Ref sig .tc := ⟨.hbm, 557, rfl⟩
abbrev main_c_67 : Ref sig .tc := ⟨.hbm, 558, rfl⟩
abbrev main_v384 : Ref sig .tc := ⟨.hbm, 559, rfl⟩
abbrev main_v385 : Ref sig .tc := ⟨.hbm, 560, rfl⟩
abbrev main_v386 : Ref sig .tc := ⟨.hbm, 561, rfl⟩
abbrev main_v387 : Ref sig .tc := ⟨.hbm, 562, rfl⟩
abbrev main_v388 : Ref sig .tc := ⟨.hbm, 563, rfl⟩
abbrev main_v389 : Ref sig .tc := ⟨.hbm, 564, rfl⟩
abbrev main_v390 : Ref sig .tc := ⟨.hbm, 565, rfl⟩
abbrev main_c_68 : Ref sig .tc := ⟨.hbm, 566, rfl⟩
abbrev main_v391 : Ref sig .tc := ⟨.hbm, 567, rfl⟩
abbrev main_v392 : Ref sig .tc := ⟨.hbm, 568, rfl⟩
abbrev main_c_69 : Ref sig .tc := ⟨.hbm, 569, rfl⟩
abbrev main_v393 : Ref sig .tc := ⟨.hbm, 570, rfl⟩
abbrev main_v394 : Ref sig .tc := ⟨.hbm, 571, rfl⟩
abbrev main_v395 : Ref sig .tc := ⟨.hbm, 572, rfl⟩
abbrev main_v396 : Ref sig .tc := ⟨.hbm, 573, rfl⟩
abbrev main_v397 : Ref sig .tc := ⟨.hbm, 574, rfl⟩
abbrev main_v398 : Ref sig .tc := ⟨.hbm, 575, rfl⟩
abbrev main_cst_70 : Ref sig .tc := ⟨.hbm, 576, rfl⟩
abbrev main_v399 : Ref sig .tc := ⟨.hbm, 577, rfl⟩
abbrev main_v400 : Ref sig .tc := ⟨.hbm, 578, rfl⟩
abbrev main_v401 : Ref sig .tc := ⟨.hbm, 579, rfl⟩
abbrev main_c_71 : Ref sig .tc := ⟨.hbm, 580, rfl⟩
abbrev main_v402 : Ref sig .tc := ⟨.hbm, 581, rfl⟩
abbrev main_v403 : Ref sig .tc := ⟨.hbm, 582, rfl⟩
abbrev main_c_72 : Ref sig .tc := ⟨.hbm, 583, rfl⟩
abbrev main_v404 : Ref sig .tc := ⟨.hbm, 584, rfl⟩
abbrev main_v405 : Ref sig .tc := ⟨.hbm, 585, rfl⟩
abbrev main_v406 : Ref sig .tc := ⟨.hbm, 586, rfl⟩
abbrev main_v407 : Ref sig .tc := ⟨.hbm, 587, rfl⟩
abbrev main_v408 : Ref sig .tc := ⟨.hbm, 588, rfl⟩
abbrev main_v409 : Ref sig .tc := ⟨.hbm, 589, rfl⟩
abbrev main_v410 : Ref sig .tc := ⟨.hbm, 590, rfl⟩
abbrev main_c_73 : Ref sig .tc := ⟨.hbm, 591, rfl⟩
abbrev main_v411 : Ref sig .tc := ⟨.hbm, 592, rfl⟩
abbrev main_v412 : Ref sig .tc := ⟨.hbm, 593, rfl⟩
abbrev main_c_74 : Ref sig .tc := ⟨.hbm, 594, rfl⟩
abbrev main_v413 : Ref sig .tc := ⟨.hbm, 595, rfl⟩
abbrev main_v414 : Ref sig .tc := ⟨.hbm, 596, rfl⟩
abbrev main_v415 : Ref sig .tc := ⟨.hbm, 597, rfl⟩
abbrev main_v416 : Ref sig .tc := ⟨.hbm, 598, rfl⟩
abbrev main_v417 : Ref sig .tc := ⟨.hbm, 599, rfl⟩
abbrev main_v418 : Ref sig .tc := ⟨.hbm, 600, rfl⟩
abbrev main_v419 : Ref sig .tc := ⟨.hbm, 601, rfl⟩
abbrev main_c_75 : Ref sig .tc := ⟨.hbm, 602, rfl⟩
abbrev main_v420 : Ref sig .tc := ⟨.hbm, 603, rfl⟩
abbrev main_v421 : Ref sig .tc := ⟨.hbm, 604, rfl⟩
abbrev main_c_76 : Ref sig .tc := ⟨.hbm, 605, rfl⟩
abbrev main_v422 : Ref sig .tc := ⟨.hbm, 606, rfl⟩
abbrev main_v423 : Ref sig .tc := ⟨.hbm, 607, rfl⟩
abbrev main_v424 : Ref sig .tc := ⟨.hbm, 608, rfl⟩
abbrev main_v425 : Ref sig .tc := ⟨.hbm, 609, rfl⟩
abbrev main_v426 : Ref sig .tc := ⟨.hbm, 610, rfl⟩
abbrev main_v427 : Ref sig .tc := ⟨.hbm, 611, rfl⟩
abbrev main_cst_77 : Ref sig .tc := ⟨.hbm, 612, rfl⟩
abbrev main_v428 : Ref sig .tc := ⟨.hbm, 613, rfl⟩
abbrev main_v429 : Ref sig .tc := ⟨.hbm, 614, rfl⟩
abbrev main_v430 : Ref sig .tc := ⟨.hbm, 615, rfl⟩
abbrev main_c_78 : Ref sig .tc := ⟨.hbm, 616, rfl⟩
abbrev main_v431 : Ref sig .tc := ⟨.hbm, 617, rfl⟩
abbrev main_v432 : Ref sig .tc := ⟨.hbm, 618, rfl⟩
abbrev main_c_79 : Ref sig .tc := ⟨.hbm, 619, rfl⟩
abbrev main_v433 : Ref sig .tc := ⟨.hbm, 620, rfl⟩
abbrev main_v434 : Ref sig .tc := ⟨.hbm, 621, rfl⟩
abbrev main_v435 : Ref sig .tc := ⟨.hbm, 622, rfl⟩
abbrev main_v436 : Ref sig .tc := ⟨.hbm, 623, rfl⟩
abbrev main_v437 : Ref sig .tc := ⟨.hbm, 624, rfl⟩
abbrev main_v438 : Ref sig .tc := ⟨.hbm, 625, rfl⟩
abbrev main_v439 : Ref sig .tc := ⟨.hbm, 626, rfl⟩
abbrev main_c_80 : Ref sig .tc := ⟨.hbm, 627, rfl⟩
abbrev main_v440 : Ref sig .tc := ⟨.hbm, 628, rfl⟩
abbrev main_v441 : Ref sig .tc := ⟨.hbm, 629, rfl⟩
abbrev main_c_81 : Ref sig .tc := ⟨.hbm, 630, rfl⟩
abbrev main_v442 : Ref sig .tc := ⟨.hbm, 631, rfl⟩
abbrev main_v443 : Ref sig .tc := ⟨.hbm, 632, rfl⟩
abbrev main_v444 : Ref sig .tc := ⟨.hbm, 633, rfl⟩
abbrev main_v445 : Ref sig .tc := ⟨.hbm, 634, rfl⟩
abbrev main_v446 : Ref sig .tc := ⟨.hbm, 635, rfl⟩
abbrev main_v447 : Ref sig .tc := ⟨.hbm, 636, rfl⟩
abbrev main_v448 : Ref sig .tc := ⟨.hbm, 637, rfl⟩
abbrev main_c_82 : Ref sig .tc := ⟨.hbm, 638, rfl⟩
abbrev main_v449 : Ref sig .tc := ⟨.hbm, 639, rfl⟩
abbrev main_v450 : Ref sig .tc := ⟨.hbm, 640, rfl⟩
abbrev main_c_83 : Ref sig .tc := ⟨.hbm, 641, rfl⟩
abbrev main_v451 : Ref sig .tc := ⟨.hbm, 642, rfl⟩
abbrev main_v452 : Ref sig .tc := ⟨.hbm, 643, rfl⟩
abbrev main_v453 : Ref sig .tc := ⟨.hbm, 644, rfl⟩
abbrev main_v454 : Ref sig .tc := ⟨.hbm, 645, rfl⟩
abbrev main_v455 : Ref sig .tc := ⟨.hbm, 646, rfl⟩
abbrev main_v456 : Ref sig .tc := ⟨.hbm, 647, rfl⟩
abbrev main_cst_84 : Ref sig .tc := ⟨.hbm, 648, rfl⟩
abbrev main_v457 : Ref sig .tc := ⟨.hbm, 649, rfl⟩
abbrev main_v458 : Ref sig .tc := ⟨.hbm, 650, rfl⟩
abbrev main_v459 : Ref sig .tc := ⟨.hbm, 651, rfl⟩
abbrev main_c_85 : Ref sig .tc := ⟨.hbm, 652, rfl⟩
abbrev main_v460 : Ref sig .tc := ⟨.hbm, 653, rfl⟩
abbrev main_v461 : Ref sig .tc := ⟨.hbm, 654, rfl⟩
abbrev main_c_86 : Ref sig .tc := ⟨.hbm, 655, rfl⟩
abbrev main_v462 : Ref sig .tc := ⟨.hbm, 656, rfl⟩
abbrev main_v463 : Ref sig .tc := ⟨.hbm, 657, rfl⟩
abbrev main_v464 : Ref sig .tc := ⟨.hbm, 658, rfl⟩
abbrev main_v465 : Ref sig .tc := ⟨.hbm, 659, rfl⟩
abbrev main_v466 : Ref sig .tc := ⟨.hbm, 660, rfl⟩
abbrev main_v467 : Ref sig .tc := ⟨.hbm, 661, rfl⟩
abbrev main_v468 : Ref sig .tc := ⟨.hbm, 662, rfl⟩
abbrev main_v469 : Ref sig .tc := ⟨.hbm, 663, rfl⟩
abbrev main_v470 : Ref sig .tc := ⟨.hbm, 664, rfl⟩
abbrev main_v471 : Ref sig .tc := ⟨.hbm, 665, rfl⟩
abbrev main_v472 : Ref sig .tc := ⟨.hbm, 666, rfl⟩
abbrev main_v473 : Ref sig .tc := ⟨.hbm, 667, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  slices_S2x64x64_S1x64x64_1_0_0 : S2x64x64.Slices ![1, 0, 0] S1x64x64
  slices_S2x64_S1x64_1_0 : S2x64.Slices ![1, 0] S1x64
  slices_S2x3x64x64_S1x1x64x64_0_0_0_0 : S2x3x64x64.Slices ![0, 0, 0, 0] S1x1x64x64
  shapeCasts_S1x1x64x64_S64x64 : S1x1x64x64.ShapeCasts S64x64
  slices_S2x3x64_S1x1x64_0_0_0 : S2x3x64.Slices ![0, 0, 0] S1x1x64
  shapeCasts_S1x1x64_S64 : S1x1x64.ShapeCasts S64
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S200000x1 : S_.BroadcastsInDim S200000x1 (![] : Fin 0 → Fin S200000x1.rank)
  bcast_S200000x1_S200000x64_0_1 : S200000x1.BroadcastsInDim S200000x64 (![0, 1] : Fin 2 → Fin S200000x64.rank)
  slices_S2x3x64x64_S1x1x64x64_0_1_0_0 : S2x3x64x64.Slices ![0, 1, 0, 0] S1x1x64x64
  slices_S2x3x64_S1x1x64_0_1_0 : S2x3x64.Slices ![0, 1, 0] S1x1x64
  slices_S2x3x64x64_S1x1x64x64_0_2_0_0 : S2x3x64x64.Slices ![0, 2, 0, 0] S1x1x64x64
  slices_S2x3x64_S1x1x64_0_2_0 : S2x3x64.Slices ![0, 2, 0] S1x1x64
  slices_S2x2x64_S1x1x64_0_0_0 : S2x2x64.Slices ![0, 0, 0] S1x1x64
  reducesTo_S200000x64_S64_d0 : S200000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  slices_S2x2x64_S1x1x64_0_1_0 : S2x2x64.Slices ![0, 1, 0] S1x1x64
  slices_S2x3x64x64_S1x1x64x64_1_0_0_0 : S2x3x64x64.Slices ![1, 0, 0, 0] S1x1x64x64
  slices_S2x3x64_S1x1x64_1_0_0 : S2x3x64.Slices ![1, 0, 0] S1x1x64
  slices_S2x3x64x64_S1x1x64x64_1_1_0_0 : S2x3x64x64.Slices ![1, 1, 0, 0] S1x1x64x64
  slices_S2x3x64_S1x1x64_1_1_0 : S2x3x64.Slices ![1, 1, 0] S1x1x64
  slices_S2x3x64x64_S1x1x64x64_1_2_0_0 : S2x3x64x64.Slices ![1, 2, 0, 0] S1x1x64x64
  slices_S2x3x64_S1x1x64_1_2_0 : S2x3x64.Slices ![1, 2, 0] S1x1x64
  slices_S2x2x64_S1x1x64_1_0_0 : S2x2x64.Slices ![1, 0, 0] S1x1x64
  slices_S2x2x64_S1x1x64_1_1_0 : S2x2x64.Slices ![1, 1, 0] S1x1x64
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  reducesTo_S100000x64_S100000_d1 : S100000x64.ReducesTo [1] S100000
  bcast_S100000_S1x100000_1 : S100000.BroadcastsInDim S1x100000 (![1] : Fin 1 → Fin S1x100000.rank)
  concatenates_S1x100000_S1x100000_S1x100000_S1x100000_S1x100000_S1x100000_S6x100000_d0 : Shape.Concatenates [S1x100000, S1x100000, S1x100000, S1x100000, S1x100000, S1x100000] S6x100000 0
  gather_S5000x64_S200000x1_S200000x64_1_0_n_n_0_1_164_wf : GatherDims.WF S5000x64 S200000x1 S200000x64 [1] [0] [] [0] [] 1 ![1, 64]
  dot_S200000x64_S64x64_S200000x64_1_0_0_1_n_n_wf : DotDims.WF S200000x64 S64x64 S200000x64 [1] [0] [0] [1] [] []
  gather_S200000x64_S1000000x1_S1000000x64_1_0_n_n_0_1_164_wf : GatherDims.WF S200000x64 S1000000x1 S1000000x64 [1] [0] [] [0] [] 1 ![1, 64]
  scatter_S200000x64_S1000000x1_S1000000x64_1_0_0_1_wf : ScatterDims.WF S200000x64 S1000000x1 S1000000x64 [1] [0] [0] 1
  scatter_S200000_S1000000x1_S1000000_n_0_0_1_wf : ScatterDims.WF S200000 S1000000x1 S1000000 [] [0] [0] 1
  gather_S200000x64_S100000x1_S100000x64_1_0_n_n_0_1_164_wf : GatherDims.WF S200000x64 S100000x1 S100000x64 [1] [0] [] [0] [] 1 ![1, 64]
  gather_S200000_S100000x1_S100000_n_0_n_n_0_1_1_wf : GatherDims.WF S200000 S100000x1 S100000 [] [0] [] [0] [] 1 ![1]

variable [Facts₀]

def gather_S5000x64_S200000x1_S200000x64_1_0_n_n_0_1_164 : GatherDims S5000x64 S200000x1 S200000x64 where
  offsetDims := [1]
  collapsedSliceDims := [0]
  operandBatchingDims := []
  startIndicesBatchingDims := []
  startIndexMap := [0]
  indexVectorDim := 1
  sliceSizes := ![1, 64]
  wf := gather_S5000x64_S200000x1_S200000x64_1_0_n_n_0_1_164_wf
def dot_S200000x64_S64x64_S200000x64_1_0_0_1_n_n : DotDims S200000x64 S64x64 S200000x64 where
  lhsContracting := [1]
  rhsContracting := [0]
  lhsNonContracting := [0]
  rhsNonContracting := [1]
  lhsBatch := []
  rhsBatch := []
  wf := dot_S200000x64_S64x64_S200000x64_1_0_0_1_n_n_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def gather_S200000x64_S100000x1_S100000x64_1_0_n_n_0_1_164 : GatherDims S200000x64 S100000x1 S100000x64 where
  offsetDims := [1]
  collapsedSliceDims := [0]
  operandBatchingDims := []
  startIndicesBatchingDims := []
  startIndexMap := [0]
  indexVectorDim := 1
  sliceSizes := ![1, 64]
  wf := gather_S200000x64_S100000x1_S100000x64_1_0_n_n_0_1_164_wf
def gather_S200000_S100000x1_S100000_n_0_n_n_0_1_1 : GatherDims S200000 S100000x1 S100000 where
  offsetDims := []
  collapsedSliceDims := [0]
  operandBatchingDims := []
  startIndicesBatchingDims := []
  startIndexMap := [0]
  indexVectorDim := 1
  sliceSizes := ![1]
  wf := gather_S200000_S100000x1_S100000_n_0_n_n_0_1_1_wf

class Facts : Prop extends Facts₀ where

variable [Facts]
-- ==== Proof.K.R0.lean ====
/-
  Region 0 of the program (the encoder's two Linear + LeakyReLU layers over a block of 5000 rows), as proof data for the
  pipeline library, at any float instance and at any contents `V` of the core's buffers when the region is entered.

  At grid point `t` the body is handed the block of rows `5000 t … 5000 t + 4999` of the node features (window 0), the
  whole stacked weights (window 1) and the whole stacked biases (window 2), and stores ONE value into the whole output
  block (window 3): the payload `k0_pay1` of the five loads. So after the body every input buffer still holds its block
  and the output buffer holds the canon of that one store, which covers the block.
-/
import proofs.«151172_j14164802142730_2_alg».proof.Proof.Gen.Kernel.Launch
import proofs.«151172_j14164802142730_2_alg».proof.Proof.Gen.Kernel.Skeleton
import proofs.«151172_j14164802142730_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, whether the point fetches it or not: where it is not
    fetched the block index has not moved and the body left the buffer as it found it. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: the rows' block whole, layer 0's and layer 1's weight and bias, the output block whole -/

abbrev r0_x : Rect S5000x64 := Rect.unit (s := S5000x64) ![0, 0] S5000x64.size inb_S5000x64_S5000x64_0_0
abbrev r0_w0 : Rect S2x64x64 := Rect.unit (s := S2x64x64) ![0, 0, 0] S1x64x64.size inb_S2x64x64_S1x64x64_0_0_0
abbrev r0_b0 : Rect S2x64 := Rect.unit (s := S2x64) ![0, 0] S1x64.size inb_S2x64_S1x64_0_0
abbrev r0_w1 : Rect S2x64x64 := Rect.unit (s := S2x64x64) ![1, 0, 0] S1x64x64.size inb_S2x64x64_S1x64x64_1_0_0
abbrev r0_b1 : Rect S2x64 := Rect.unit (s := S2x64) ![1, 0] S1x64.size inb_S2x64_S1x64_1_0

/-- The output buffer after the body: its one store, of the payload of the five loads. -/
def out0_3 (x0 : Vec F S5000x64 .f32) (x1 : Vec F S2x64x64 .f32) (x2 : Vec F S2x64 .f32) : Vec F S5000x64 .f32 :=
  View.canon [⟨r0_x, k0_pay1 (View.ld x0 r0_x) (View.ld x1 r0_w0) (View.ld x2 r0_b0) (View.ld x1 r0_w1) (View.ld x2 r0_b1)⟩]

/-- The one store is of the whole block, so it covers it. -/
theorem cover0_3 (p0 : Vec F S5000x64 .f32) (y : S5000x64.Idx) :
    ∃ pc ∈ ([⟨r0_x, p0⟩] : List (View.Piece (Elt F) S5000x64 .f32)), y ∈ pc.1.set :=
  View.cover_of_tiled [⟨r0_x, p0⟩] S5000x64.size (by rfl) y

set_option maxHeartbeats 1000000 in
/-- The body on whole buffers, the inputs' at contents `x0 x1 x2` and the output's at anything, runs to the end with the
    inputs' as they were and the output's at `out0_3` of them. -/
theorem sound_kernel0 (c : Dev nD) (E : Set ℕ) (i : grid0.Coords)
    (arg1 : Memref sig .tc .vmem S5000x64 .f32) (harg1 : arg1.IsWhole) (arg2 : Memref sig .tc .vmem S2x64x64 .f32) (harg2 : arg2.IsWhole)
    (arg3 : Memref sig .tc .vmem S2x64 .f32) (harg3 : arg3.IsWhole) (arg4 : Memref sig .tc .vmem S5000x64 .f32) (harg4 : arg4.IsWhole)
    (x0 : Vec F S5000x64 .f32) (x1 : Vec F S2x64x64 .f32) (x2 : Vec F S2x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__mlp_kernel i arg1 harg1 arg2 harg2 arg3 harg3 arg4 harg4) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body each input's buffer at
    its block and the output's at `out0_3` of the three input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.K.R1.lean ====
/-
  Region 1 of the program (the encoder's two Linear + LeakyReLU layers over a block of 5000 rows), as proof data for the
  pipeline library, at any float instance and at any contents `V` of the core's buffers when the region is entered.

  At grid point `t` the body is handed the block of rows `5000 t … 5000 t + 4999` of the node features (window 0), the
  whole stacked weights (window 1) and the whole stacked biases (window 2), and stores ONE value into the whole output
  block (window 3): the payload `k1_pay1` of the five loads. So after the body every input buffer still holds its block
  and the output buffer holds the canon of that one store, which covers the block.
-/
import proofs.«151172_j14164802142730_2_alg».proof.Proof.Gen.Kernel.Launch
import proofs.«151172_j14164802142730_2_alg».proof.Proof.Gen.Kernel.Skeleton
import proofs.«151172_j14164802142730_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, whether the point fetches it or not: where it is not
    fetched the block index has not moved and the body left the buffer as it found it. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the rows' block whole, layer 0's and layer 1's weight and bias, the output block whole -/

abbrev r1_x : Rect S5000x64 := Rect.unit (s := S5000x64) ![0, 0] S5000x64.size inb_S5000x64_S5000x64_0_0
abbrev r1_w0 : Rect S2x64x64 := Rect.unit (s := S2x64x64) ![0, 0, 0] S1x64x64.size inb_S2x64x64_S1x64x64_0_0_0
abbrev r1_b0 : Rect S2x64 := Rect.unit (s := S2x64) ![0, 0] S1x64.size inb_S2x64_S1x64_0_0
abbrev r1_w1 : Rect S2x64x64 := Rect.unit (s := S2x64x64) ![1, 0, 0] S1x64x64.size inb_S2x64x64_S1x64x64_1_0_0
abbrev r1_b1 : Rect S2x64 := Rect.unit (s := S2x64) ![1, 0] S1x64.size inb_S2x64_S1x64_1_0

/-- The output buffer after the body: its one store, of the payload of the five loads. -/
def out1_3 (x0 : Vec F S5000x64 .f32) (x1 : Vec F S2x64x64 .f32) (x2 : Vec F S2x64 .f32) : Vec F S5000x64 .f32 :=
  View.canon [⟨r1_x, k1_pay1 (View.ld x0 r1_x) (View.ld x1 r1_w0) (View.ld x2 r1_b0) (View.ld x1 r1_w1) (View.ld x2 r1_b1)⟩]

/-- The one store is of the whole block, so it covers it. -/
theorem cover1_3 (p0 : Vec F S5000x64 .f32) (y : S5000x64.Idx) :
    ∃ pc ∈ ([⟨r1_x, p0⟩] : List (View.Piece (Elt F) S5000x64 .f32)), y ∈ pc.1.set :=
  View.cover_of_tiled [⟨r1_x, p0⟩] S5000x64.size (by rfl) y

set_option maxHeartbeats 1000000 in
/-- The body on whole buffers, the inputs' at contents `x0 x1 x2` and the output's at anything, runs to the end with the
    inputs' as they were and the output's at `out1_3` of them. -/
theorem sound_kernel1 (c : Dev nD) (E : Set ℕ) (i : grid1.Coords)
    (arg1 : Memref sig .tc .vmem S5000x64 .f32) (harg1 : arg1.IsWhole) (arg2 : Memref sig .tc .vmem S2x64x64 .f32) (harg2 : arg2.IsWhole)
    (arg3 : Memref sig .tc .vmem S2x64 .f32) (harg3 : arg3.IsWhole) (arg4 : Memref sig .tc .vmem S5000x64 .f32) (harg4 : arg4.IsWhole)
    (x0 : Vec F S5000x64 .f32) (x1 : Vec F S2x64x64 .f32) (x2 : Vec F S2x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__mlp_kernel i arg1 harg1 arg2 harg2 arg3 harg3 arg4 harg4) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body each input's buffer at
    its block and the output's at `out1_3` of the three input blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.K.R2.lean ====
/-
  Region 2 of the program (one SAGEConv linear combine over a block of 5000 rows), as proof data for the pipeline
  library, at any float instance and at any contents `V` of the core's buffers when the region is entered.

  At grid point `t` the body is handed the block of rows `5000 t … 5000 t + 4999` of the destination nodes' features
  (window 0) and of the aggregated messages (window 1), the whole self weight (window 2), the whole message weight
  (window 3) and the whole bias (window 4). It stores ONE value into the whole output block (window 5): the payload
  `k2_pay1` of the five loads, which is the features times the self weight plus the messages times the message weight
  plus the bias on every row. So after the body every input buffer still holds its block and the output buffer holds the
  canon of that one store, which covers the block.
-/
import proofs.«151172_j14164802142730_2_alg».proof.Proof.Gen.Kernel.Launch
import proofs.«151172_j14164802142730_2_alg».proof.Proof.Gen.Kernel.Skeleton
import proofs.«151172_j14164802142730_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point, whether the point fetches it or not: the two row blocks are
    fetched at every point; the weights and the bias are fetched once, their block index never moves and the body leaves
    their buffers as it found them. One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: a block of rows whole (both row inputs and the output), a weight whole, the bias whole -/

abbrev r2_x : Rect S5000x64 := Rect.unit (s := S5000x64) ![0, 0] S5000x64.size inb_S5000x64_S5000x64_0_0
abbrev r2_w : Rect S64x64 := Rect.unit (s := S64x64) ![0, 0] S64x64.size inb_S64x64_S64x64_0_0
abbrev r2_b : Rect S64 := Rect.unit (s := S64) ![0] S64.size inb_S64_S64_0

/-- The output buffer after the body: its one store, of the payload of the five loads. -/
def out2_5 (x0 : Vec F S5000x64 .f32) (x1 : Vec F S5000x64 .f32) (x2 : Vec F S64x64 .f32) (x3 : Vec F S64x64 .f32) (x4 : Vec F S64 .f32) :
    Vec F S5000x64 .f32 :=
  View.canon [⟨r2_x, k2_pay1 (View.ld x0 r2_x) (View.ld x1 r2_x) (View.ld x2 r2_w) (View.ld x3 r2_w) (View.ld x4 r2_b)⟩]

/-- The one store is of the whole block, so it covers it. -/
theorem cover2_5 (p0 : Vec F S5000x64 .f32) (y : S5000x64.Idx) :
    ∃ pc ∈ ([⟨r2_x, p0⟩] : List (View.Piece (Elt F) S5000x64 .f32)), y ∈ pc.1.set :=
  View.cover_of_tiled [⟨r2_x, p0⟩] S5000x64.size (by rfl) y

set_option maxHeartbeats 1000000 in
/-- The body on whole buffers, the inputs' at contents `x0 … x4` and the output's at anything, runs to the end with the
    inputs' as they were and the output's at `out2_5` of them. -/
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S64 .f32) (harg5 : arg5.IsWhole) (arg6 : Memref sig .tc .vmem S5000x64 .f32) (harg6 : arg6.IsWhole)
    (x0 : Vec F S5000x64 .f32) (x1 : Vec F S5000x64 .f32) (x2 : Vec F S64x64 .f32) (x3 : Vec F S64x64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__sage1_kernel i arg1 harg1 arg2 harg2 arg3 harg3 arg4 harg4 arg5 harg5 arg6 harg6) K := by
  simp only [cc2__sage1_kernel_eq_skeleton]; unfold cc2__sage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core `c`: the arrays as the region finds them; after the body each input's buffer at
    its block and the output's at `out2_5` of the five input blocks; the class invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.K.R3.lean ====
/-
  Region 3 of the program (the sum of two SAGEConv linear combines that share the destination features, over a block of
  5000 rows), as proof data for the pipeline library, at any float instance and at any contents `V` of the core's
  buffers when the region is entered.

  At grid point `t` the body is handed the block of rows `5000 t … 5000 t + 4999` of the destination features
  (window 0) and of the two aggregated messages (windows 1 and 2), the whole self weight, message weight and bias of the
  first conv (windows 3, 4, 5) and of the second conv (windows 6, 7, 8), and stores ONE value into the whole output block
  (window 9): the payload `k3_pay1` of the nine loads, that is
  `x·Ws + m₁·Wm + b + x·Ws' + m₂·Wm' + b'` with every matrix operand rounded to bf16 first. So after the body every
  input buffer still holds its block and the output buffer holds the canon of that one store, which covers the block.
-/
import proofs.«151172_j14164802142730_2_alg».proof.Proof.Gen.Kernel.Launch
import proofs.«151172_j14164802142730_2_alg».proof.Proof.Gen.Kernel.Skeleton
import proofs.«151172_j14164802142730_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's buffer holds its block at every point, whether the point fetches it or not: the three row blocks
    are fetched at every point; the six parameter windows are fetched once, their block index never moves and the body
    leaves their buffers as it found them. One statement per input window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: a row block whole, a weight whole, a bias whole -/

abbrev r3_x : Rect S5000x64 := Rect.unit (s := S5000x64) ![0, 0] S5000x64.size inb_S5000x64_S5000x64_0_0
abbrev r3_w : Rect S64x64 := Rect.unit (s := S64x64) ![0, 0] S64x64.size inb_S64x64_S64x64_0_0
abbrev r3_b : Rect S64 := Rect.unit (s := S64) ![0] S64.size inb_S64_S64_0

/-- The output buffer after the body: its one store, of the payload of the nine loads (the destination block, the two
    message blocks, the two convs' self and message weights, then the two biases). -/
def out3_9 (x0 : Vec F S5000x64 .f32) (x1 : Vec F S5000x64 .f32) (x2 : Vec F S5000x64 .f32) (x3 : Vec F S64x64 .f32) (x4 : Vec F S64x64 .f32) (x5 : Vec F S64 .f32) (x6 : Vec F S64x64 .f32) (x7 : Vec F S64x64 .f32) (x8 : Vec F S64 .f32) : Vec F S5000x64 .f32 :=
  View.canon [⟨r3_x, k3_pay1 (View.ld x0 r3_x) (View.ld x1 r3_x) (View.ld x2 r3_x) (View.ld x3 r3_w) (View.ld x4 r3_w) (View.ld x6 r3_w) (View.ld x7 r3_w) (View.ld x5 r3_b) (View.ld x8 r3_b)⟩]

/-- The one store is of the whole block, so it covers it. -/
theorem cover3_9 (p0 : Vec F S5000x64 .f32) (y : S5000x64.Idx) :
    ∃ pc ∈ ([⟨r3_x, p0⟩] : List (View.Piece (Elt F) S5000x64 .f32)), y ∈ pc.1.set :=
  View.cover_of_tiled [⟨r3_x, p0⟩] S5000x64.size (by rfl) y

set_option maxHeartbeats 1000000 in
/-- The body on whole buffers, the inputs' at contents `x0 x1 x2 x3 x4 x5 x6 x7 x8` and the output's at anything, runs to the end
    with the inputs' as they were and the output's at `out3_9` of them. -/
theorem sound_kernel3 (c : Dev nD) (E : Set ℕ) (i : grid3.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S64x64 .f32) (harg4 : arg4.IsWhole)
    (arg5 : Memref sig .tc .vmem S64x64 .f32) (harg5 : arg5.IsWhole) (arg6 : Memref sig .tc .vmem S64 .f32) (harg6 : arg6.IsWhole)
    (arg7 : Memref sig .tc .vmem S64x64 .f32) (harg7 : arg7.IsWhole) (arg8 : Memref sig .tc .vmem S64x64 .f32) (harg8 : arg8.IsWhole)
    (arg9 : Memref sig .tc .vmem S64 .f32) (harg9 : arg9.IsWhole) (arg10 : Memref sig .tc .vmem S5000x64 .f32) (harg10 : arg10.IsWhole)
    (x0 : Vec F S5000x64 .f32) (x1 : Vec F S5000x64 .f32) (x2 : Vec F S5000x64 .f32) (x3 : Vec F S64x64 .f32) (x4 : Vec F S64x64 .f32) (x5 : Vec F S64 .f32) (x6 : Vec F S64x64 .f32) (x7 : Vec F S64x64 .f32) (x8 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out3_9 x0 x1 x2 x3 x4 x5 x6 x7 x8)) -∗ K ⟨⟩))
      ⊢ wp frame (wpE (defs₀ (F := F)) Variants.none c none) E (cc3__sage2_kernel i arg1 harg1 arg2 harg2 arg3 harg3 arg4 harg4 arg5 harg5 arg6 harg6 arg7 harg7 arg8 harg8 arg9 harg9 arg10 harg10) K := by
  simp only [cc3__sage2_kernel_eq_skeleton, k3_part1_eq_skeleton]; unfold cc3__sage2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover3_9 _)

/-- The proof data of pipeline 3 on core `c`: the arrays as the region finds them; after the body each input's buffer at
    its block and the output's at `out3_9` of the nine input blocks; the class invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) :
    (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frame

end
-- ==== Proof.K.R4.lean ====
/-
  Region 4 of the program (the batch-norm affine step followed by LeakyReLU, over a block of 5000 rows), as proof data
  for the pipeline library, at any float instance and at any contents `V` of the core's buffers when the region is entered.

  At grid point `t` the body is handed the block of rows `5000 t … 5000 t + 4999` of the features (window 0) and four
  whole per-feature vectors of length 64: the scale gamma (window 1), the shift beta (window 2), the mean (window 3) and
  the variance (window 4). It stores ONE value into the whole output block (window 5): the payload `k4_pay1` of the five
  loads, taken in the order rows, mean, variance, gamma, beta. So after the body every input buffer still holds its block
  and the output buffer holds the canon of that one store, which covers the block.
-/
import proofs.«151172_j14164802142730_2_alg».proof.Proof.Gen.Kernel.Launch
import proofs.«151172_j14164802142730_2_alg».proof.Proof.Gen.Kernel.Skeleton
import proofs.«151172_j14164802142730_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's buffer holds its block at every point, whether the point fetches it or not: where it is not
    fetched the block index has not moved and the body left the buffer as it found it. One statement per input window. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: the rows' block whole (read, and written as the output), a per-feature vector whole -/

abbrev r4_x : Rect S5000x64 := Rect.unit (s := S5000x64) ![0, 0] S5000x64.size inb_S5000x64_S5000x64_0_0
abbrev r4_v : Rect S64 := Rect.unit (s := S64) ![0] S64.size inb_S64_S64_0

/-- The output buffer after the body: its one store, of the payload of the five loads. The payload takes the rows
    first, then the mean and the variance (windows 3 and 4), then gamma and beta (windows 1 and 2). -/
def out4_5 (x0 : Vec F S5000x64 .f32) (x1 : Vec F S64 .f32) (x2 : Vec F S64 .f32) (x3 : Vec F S64 .f32) (x4 : Vec F S64 .f32) :
    Vec F S5000x64 .f32 :=
  View.canon [⟨r4_x, k4_pay1 (View.ld x0 r4_x) (View.ld x3 r4_v) (View.ld x4 r4_v) (View.ld x1 r4_v) (View.ld x2 r4_v)⟩]

/-- The one store is of the whole block, so it covers it. -/
theorem cover4_5 (p0 : Vec F S5000x64 .f32) (y : S5000x64.Idx) :
    ∃ pc ∈ ([⟨r4_x, p0⟩] : List (View.Piece (Elt F) S5000x64 .f32)), y ∈ pc.1.set :=
  View.cover_of_tiled [⟨r4_x, p0⟩] S5000x64.size (by rfl) y

set_option maxHeartbeats 1000000 in
/-- The body on whole buffers, the inputs' at contents `x0 x1 x2 x3 x4` and the output's at anything, runs to the end with
    the inputs' as they were and the output's at `out4_5` of them. -/
theorem sound_kernel4 (c : Dev nD) (E : Set ℕ) (i : grid4.Coords)
    (arg1 : Memref sig .tc .vmem S5000x64 .f32) (harg1 : arg1.IsWhole) (arg2 : Memref sig .tc .vmem S64 .f32) (harg2 : arg2.IsWhole)
    (arg3 : Memref sig .tc .vmem S64 .f32) (harg3 : arg3.IsWhole) (arg4 : Memref sig .tc .vmem S64 .f32) (harg4 : arg4.IsWhole)
    (arg5 : Memref sig .tc .vmem S64 .f32) (harg5 : arg5.IsWhole) (arg6 : Memref sig .tc .vmem S5000x64 .f32) (harg6 : arg6.IsWhole)
    (x0 : Vec F S5000x64 .f32) (x1 : Vec F S64 .f32) (x2 : Vec F S64 .f32) (x3 : Vec F S64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E
          (cc4__bn_kernel i arg1 harg1 arg2 harg2 arg3 harg3 arg4 harg4 arg5 harg5 arg6 harg6) K := by
  simp only [cc4__bn_kernel_eq_skeleton]; unfold cc4__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The proof data of pipeline 4 on core `c`: the arrays as the region finds them; after the body each input's buffer at
    its block and the output's at `out4_5` of the five input blocks; the class invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by
  dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _
    (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Frame

end
-- ==== Proof.K.R5.lean ====
/-
  Region 5 of the program (the batch-norm affine step followed by LeakyReLU, over a block of 5000 rows), as proof data
  for the pipeline library, at any float instance and at any contents `V` of the core's buffers when the region is entered.

  At grid point `t` the body is handed the block of rows `5000 t … 5000 t + 4999` of the features (window 0) and four
  whole per-feature vectors of length 64: the scale gamma (window 1), the shift beta (window 2), the mean (window 3) and
  the variance (window 4). It stores ONE value into the whole output block (window 5): the payload `k5_pay1` of the five
  loads, taken in the order rows, mean, variance, gamma, beta. So after the body every input buffer still holds its block
  and the output buffer holds the canon of that one store, which covers the block.
-/
import proofs.«151172_j14164802142730_2_alg».proof.Proof.Gen.Kernel.Launch
import proofs.«151172_j14164802142730_2_alg».proof.Proof.Gen.Kernel.Skeleton
import proofs.«151172_j14164802142730_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's buffer holds its block at every point, whether the point fetches it or not: where it is not
    fetched the block index has not moved and the body left the buffer as it found it. One statement per input window. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: the rows' block whole (read, and written as the output), a per-feature vector whole -/

abbrev r5_x : Rect S5000x64 := Rect.unit (s := S5000x64) ![0, 0] S5000x64.size inb_S5000x64_S5000x64_0_0
abbrev r5_v : Rect S64 := Rect.unit (s := S64) ![0] S64.size inb_S64_S64_0

/-- The output buffer after the body: its one store, of the payload of the five loads. The payload takes the rows
    first, then the mean and the variance (windows 3 and 4), then gamma and beta (windows 1 and 2). -/
def out5_5 (x0 : Vec F S5000x64 .f32) (x1 : Vec F S64 .f32) (x2 : Vec F S64 .f32) (x3 : Vec F S64 .f32) (x4 : Vec F S64 .f32) :
    Vec F S5000x64 .f32 :=
  View.canon [⟨r5_x, k5_pay1 (View.ld x0 r5_x) (View.ld x3 r5_v) (View.ld x4 r5_v) (View.ld x1 r5_v) (View.ld x2 r5_v)⟩]

/-- The one store is of the whole block, so it covers it. -/
theorem cover5_5 (p0 : Vec F S5000x64 .f32) (y : S5000x64.Idx) :
    ∃ pc ∈ ([⟨r5_x, p0⟩] : List (View.Piece (Elt F) S5000x64 .f32)), y ∈ pc.1.set :=
  View.cover_of_tiled [⟨r5_x, p0⟩] S5000x64.size (by rfl) y

set_option maxHeartbeats 1000000 in
/-- The body on whole buffers, the inputs' at contents `x0 x1 x2 x3 x4` and the output's at anything, runs to the end with
    the inputs' as they were and the output's at `out5_5` of them. -/
theorem sound_kernel5 (c : Dev nD) (E : Set ℕ) (i : grid5.Coords)
    (arg1 : Memref sig .tc .vmem S5000x64 .f32) (harg1 : arg1.IsWhole) (arg2 : Memref sig .tc .vmem S64 .f32) (harg2 : arg2.IsWhole)
    (arg3 : Memref sig .tc .vmem S64 .f32) (harg3 : arg3.IsWhole) (arg4 : Memref sig .tc .vmem S64 .f32) (harg4 : arg4.IsWhole)
    (arg5 : Memref sig .tc .vmem S64 .f32) (harg5 : arg5.IsWhole) (arg6 : Memref sig .tc .vmem S5000x64 .f32) (harg6 : arg6.IsWhole)
    (x0 : Vec F S5000x64 .f32) (x1 : Vec F S64 .f32) (x2 : Vec F S64 .f32) (x3 : Vec F S64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E
          (cc5__bn_kernel i arg1 harg1 arg2 harg2 arg3 harg3 arg4 harg4 arg5 harg5 arg6 harg6) K := by
  simp only [cc5__bn_kernel_eq_skeleton]; unfold cc5__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of pipeline 5 on core `c`: the arrays as the region finds them; after the body each input's buffer at
    its block and the output's at `out5_5` of the five input blocks; the class invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by
  dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Frame

end
-- ==== Proof.K.R6.lean ====
/-
  Region 6 of the program (one SAGEConv linear combine over a block of 5000 rows), as proof data for the pipeline
  library, at any float instance and at any contents `V` of the core's buffers when the region is entered.

  At grid point `t` the body is handed the block of rows `5000 t … 5000 t + 4999` of the destination nodes' features
  (window 0) and of the aggregated messages (window 1), the whole self weight (window 2), the whole message weight
  (window 3) and the whole bias (window 4). It stores ONE value into the whole output block (window 5): the payload
  `k6_pay1` of the five loads, which is the features times the self weight plus the messages times the message weight
  plus the bias on every row. So after the body every input buffer still holds its block and the output buffer holds the
  canon of that one store, which covers the block.
-/
import proofs.«151172_j14164802142730_2_alg».proof.Proof.Gen.Kernel.Launch
import proofs.«151172_j14164802142730_2_alg».proof.Proof.Gen.Kernel.Skeleton
import proofs.«151172_j14164802142730_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's buffer holds its block at every point, whether the point fetches it or not: the two row blocks are
    fetched at every point; the weights and the bias are fetched once, their block index never moves and the body leaves
    their buffers as it found them. One statement per input window. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: a block of rows whole (both row inputs and the output), a weight whole, the bias whole -/

abbrev r6_x : Rect S5000x64 := Rect.unit (s := S5000x64) ![0, 0] S5000x64.size inb_S5000x64_S5000x64_0_0
abbrev r6_w : Rect S64x64 := Rect.unit (s := S64x64) ![0, 0] S64x64.size inb_S64x64_S64x64_0_0
abbrev r6_b : Rect S64 := Rect.unit (s := S64) ![0] S64.size inb_S64_S64_0

/-- The output buffer after the body: its one store, of the payload of the five loads. -/
def out6_5 (x0 : Vec F S5000x64 .f32) (x1 : Vec F S5000x64 .f32) (x2 : Vec F S64x64 .f32) (x3 : Vec F S64x64 .f32) (x4 : Vec F S64 .f32) :
    Vec F S5000x64 .f32 :=
  View.canon [⟨r6_x, k6_pay1 (View.ld x0 r6_x) (View.ld x1 r6_x) (View.ld x2 r6_w) (View.ld x3 r6_w) (View.ld x4 r6_b)⟩]

/-- The one store is of the whole block, so it covers it. -/
theorem cover6_5 (p0 : Vec F S5000x64 .f32) (y : S5000x64.Idx) :
    ∃ pc ∈ ([⟨r6_x, p0⟩] : List (View.Piece (Elt F) S5000x64 .f32)), y ∈ pc.1.set :=
  View.cover_of_tiled [⟨r6_x, p0⟩] S5000x64.size (by rfl) y

set_option maxHeartbeats 1000000 in
/-- The body on whole buffers, the inputs' at contents `x0 … x4` and the output's at anything, runs to the end with the
    inputs' as they were and the output's at `out6_5` of them. -/
theorem sound_kernel6 (c : Dev nD) (E : Set ℕ) (i : grid6.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S64 .f32) (harg5 : arg5.IsWhole) (arg6 : Memref sig .tc .vmem S5000x64 .f32) (harg6 : arg6.IsWhole)
    (x0 : Vec F S5000x64 .f32) (x1 : Vec F S5000x64 .f32) (x2 : Vec F S64x64 .f32) (x3 : Vec F S64x64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E
          (cc6__sage1_kernel i arg1 harg1 arg2 harg2 arg3 harg3 arg4 harg4 arg5 harg5 arg6 harg6) K := by
  simp only [cc6__sage1_kernel_eq_skeleton]; unfold cc6__sage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-- The proof data of pipeline 6 on core `c`: the arrays as the region finds them; after the body each input's buffer at
    its block and the output's at `out6_5` of the five input blocks; the class invariant; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Frame

end
-- ==== Proof.K.R7.lean ====
/-
  Region 7 of the program (the sum of two SAGEConv linear combines that share the destination features, over a block of
  5000 rows), as proof data for the pipeline library, at any float instance and at any contents `V` of the core's
  buffers when the region is entered.

  At grid point `t` the body is handed the block of rows `5000 t … 5000 t + 4999` of the destination features
  (window 0) and of the two aggregated messages (windows 1 and 2), the whole self weight, message weight and bias of the
  first conv (windows 3, 4, 5) and of the second conv (windows 6, 7, 8), and stores ONE value into the whole output block
  (window 9): the payload `k7_pay1` of the nine loads, that is
  `x·Ws + m₁·Wm + b + x·Ws' + m₂·Wm' + b'` with every matrix operand rounded to bf16 first. So after the body every
  input buffer still holds its block and the output buffer holds the canon of that one store, which covers the block.
-/
import proofs.«151172_j14164802142730_2_alg».proof.Proof.Gen.Kernel.Launch
import proofs.«151172_j14164802142730_2_alg».proof.Proof.Gen.Kernel.Skeleton
import proofs.«151172_j14164802142730_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's buffer holds its block at every point, whether the point fetches it or not: the three row blocks
    are fetched at every point; the six parameter windows are fetched once, their block index never moves and the body
    leaves their buffers as it found them. One statement per input window. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: a row block whole, a weight whole, a bias whole -/

abbrev r7_x : Rect S5000x64 := Rect.unit (s := S5000x64) ![0, 0] S5000x64.size inb_S5000x64_S5000x64_0_0
abbrev r7_w : Rect S64x64 := Rect.unit (s := S64x64) ![0, 0] S64x64.size inb_S64x64_S64x64_0_0
abbrev r7_b : Rect S64 := Rect.unit (s := S64) ![0] S64.size inb_S64_S64_0

/-- The output buffer after the body: its one store, of the payload of the nine loads (the destination block, the two
    message blocks, the two convs' self and message weights, then the two biases). -/
def out7_9 (x0 : Vec F S5000x64 .f32) (x1 : Vec F S5000x64 .f32) (x2 : Vec F S5000x64 .f32) (x3 : Vec F S64x64 .f32) (x4 : Vec F S64x64 .f32) (x5 : Vec F S64 .f32) (x6 : Vec F S64x64 .f32) (x7 : Vec F S64x64 .f32) (x8 : Vec F S64 .f32) : Vec F S5000x64 .f32 :=
  View.canon [⟨r7_x, k7_pay1 (View.ld x0 r7_x) (View.ld x1 r7_x) (View.ld x2 r7_x) (View.ld x3 r7_w) (View.ld x4 r7_w) (View.ld x6 r7_w) (View.ld x7 r7_w) (View.ld x5 r7_b) (View.ld x8 r7_b)⟩]

/-- The one store is of the whole block, so it covers it. -/
theorem cover7_9 (p0 : Vec F S5000x64 .f32) (y : S5000x64.Idx) :
    ∃ pc ∈ ([⟨r7_x, p0⟩] : List (View.Piece (Elt F) S5000x64 .f32)), y ∈ pc.1.set :=
  View.cover_of_tiled [⟨r7_x, p0⟩] S5000x64.size (by rfl) y

set_option maxHeartbeats 1000000 in
/-- The body on whole buffers, the inputs' at contents `x0 x1 x2 x3 x4 x5 x6 x7 x8` and the output's at anything, runs to the end
    with the inputs' as they were and the output's at `out7_9` of them. -/
theorem sound_kernel7 (c : Dev nD) (E : Set ℕ) (i : grid7.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S64x64 .f32) (harg4 : arg4.IsWhole)
    (arg5 : Memref sig .tc .vmem S64x64 .f32) (harg5 : arg5.IsWhole) (arg6 : Memref sig .tc .vmem S64 .f32) (harg6 : arg6.IsWhole)
    (arg7 : Memref sig .tc .vmem S64x64 .f32) (harg7 : arg7.IsWhole) (arg8 : Memref sig .tc .vmem S64x64 .f32) (harg8 : arg8.IsWhole)
    (arg9 : Memref sig .tc .vmem S64 .f32) (harg9 : arg9.IsWhole) (arg10 : Memref sig .tc .vmem S5000x64 .f32) (harg10 : arg10.IsWhole)
    (x0 : Vec F S5000x64 .f32) (x1 : Vec F S5000x64 .f32) (x2 : Vec F S5000x64 .f32) (x3 : Vec F S64x64 .f32) (x4 : Vec F S64x64 .f32) (x5 : Vec F S64 .f32) (x6 : Vec F S64x64 .f32) (x7 : Vec F S64x64 .f32) (x8 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out7_9 x0 x1 x2 x3 x4 x5 x6 x7 x8)) -∗ K ⟨⟩))
      ⊢ wp frame (wpE (defs₀ (F := F)) Variants.none c none) E (cc7__sage2_kernel i arg1 harg1 arg2 harg2 arg3 harg3 arg4 harg4 arg5 harg5 arg6 harg6 arg7 harg7 arg8 harg8 arg9 harg9 arg10 harg10) K := by
  simp only [cc7__sage2_kernel_eq_skeleton, k7_part1_eq_skeleton]; unfold cc7__sage2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover7_9 _)

/-- The proof data of pipeline 7 on core `c`: the arrays as the region finds them; after the body each input's buffer at
    its block and the output's at `out7_9` of the nine input blocks; the class invariant; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out7_9 (iblk7 V c 0 t) (iblk7 V c 1 t) (iblk7 V c 2 t) (iblk7 V c 3 t) (iblk7 V c 4 t) (iblk7 V c 5 t) (iblk7 V c 6 t) (iblk7 V c 7 t) (iblk7 V c 8 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) :
    (dat7 V c).after 9 t = out7_9 (iblk7 V c 0 t) (iblk7 V c 1 t) (iblk7 V c 2 t) (iblk7 V c 3 t) (iblk7 V c 4 t) (iblk7 V c 5 t) (iblk7 V c 6 t) (iblk7 V c 7 t) (iblk7 V c 8 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel7 c Set.univ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Frame

end
-- ==== Proof.K.R8.lean ====
/-
  Region 8 of the program (the batch-norm affine step, over a block of 5000 rows), as proof data
  for the pipeline library, at any float instance and at any contents `V` of the core's buffers when the region is entered.

  At grid point `t` the body is handed the block of rows `5000 t … 5000 t + 4999` of the features (window 0) and four
  whole per-feature vectors of length 64: the scale gamma (window 1), the shift beta (window 2), the mean (window 3) and
  the variance (window 4). It stores ONE value into the whole output block (window 5): the payload `k8_pay1` of the five
  loads, taken in the order rows, mean, variance, gamma, beta. So after the body every input buffer still holds its block
  and the output buffer holds the canon of that one store, which covers the block.
-/
import proofs.«151172_j14164802142730_2_alg».proof.Proof.Gen.Kernel.Launch
import proofs.«151172_j14164802142730_2_alg».proof.Proof.Gen.Kernel.Skeleton
import proofs.«151172_j14164802142730_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's buffer holds its block at every point, whether the point fetches it or not: where it is not
    fetched the block index has not moved and the body left the buffer as it found it. One statement per input window. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: the rows' block whole (read, and written as the output), a per-feature vector whole -/

abbrev r8_x : Rect S5000x64 := Rect.unit (s := S5000x64) ![0, 0] S5000x64.size inb_S5000x64_S5000x64_0_0
abbrev r8_v : Rect S64 := Rect.unit (s := S64) ![0] S64.size inb_S64_S64_0

/-- The output buffer after the body: its one store, of the payload of the five loads. The payload takes the rows
    first, then the mean and the variance (windows 3 and 4), then gamma and beta (windows 1 and 2). -/
def out8_5 (x0 : Vec F S5000x64 .f32) (x1 : Vec F S64 .f32) (x2 : Vec F S64 .f32) (x3 : Vec F S64 .f32) (x4 : Vec F S64 .f32) :
    Vec F S5000x64 .f32 :=
  View.canon [⟨r8_x, k8_pay1 (View.ld x0 r8_x) (View.ld x3 r8_v) (View.ld x4 r8_v) (View.ld x1 r8_v) (View.ld x2 r8_v)⟩]

/-- The one store is of the whole block, so it covers it. -/
theorem cover8_5 (p0 : Vec F S5000x64 .f32) (y : S5000x64.Idx) :
    ∃ pc ∈ ([⟨r8_x, p0⟩] : List (View.Piece (Elt F) S5000x64 .f32)), y ∈ pc.1.set :=
  View.cover_of_tiled [⟨r8_x, p0⟩] S5000x64.size (by rfl) y

set_option maxHeartbeats 1000000 in
/-- The body on whole buffers, the inputs' at contents `x0 x1 x2 x3 x4` and the output's at anything, runs to the end with
    the inputs' as they were and the output's at `out8_5` of them. -/
theorem sound_kernel8 (c : Dev nD) (E : Set ℕ) (i : grid8.Coords)
    (arg1 : Memref sig .tc .vmem S5000x64 .f32) (harg1 : arg1.IsWhole) (arg2 : Memref sig .tc .vmem S64 .f32) (harg2 : arg2.IsWhole)
    (arg3 : Memref sig .tc .vmem S64 .f32) (harg3 : arg3.IsWhole) (arg4 : Memref sig .tc .vmem S64 .f32) (harg4 : arg4.IsWhole)
    (arg5 : Memref sig .tc .vmem S64 .f32) (harg5 : arg5.IsWhole) (arg6 : Memref sig .tc .vmem S5000x64 .f32) (harg6 : arg6.IsWhole)
    (x0 : Vec F S5000x64 .f32) (x1 : Vec F S64 .f32) (x2 : Vec F S64 .f32) (x3 : Vec F S64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E
          (cc8__bn_kernel i arg1 harg1 arg2 harg2 arg3 harg3 arg4 harg4 arg5 harg5 arg6 harg6) K := by
  simp only [cc8__bn_kernel_eq_skeleton]; unfold cc8__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-- The proof data of pipeline 8 on core `c`: the arrays as the region finds them; after the body each input's buffer at
    its block and the output's at `out8_5` of the five input blocks; the class invariant; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by
  dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _
    (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Frame

end
-- ==== Proof.K.R9.lean ====
/-
  Region 9 of the program (the batch-norm affine step, over a block of 5000 rows), as proof data
  for the pipeline library, at any float instance and at any contents `V` of the core's buffers when the region is entered.

  At grid point `t` the body is handed the block of rows `5000 t … 5000 t + 4999` of the features (window 0) and four
  whole per-feature vectors of length 64: the scale gamma (window 1), the shift beta (window 2), the mean (window 3) and
  the variance (window 4). It stores ONE value into the whole output block (window 5): the payload `k9_pay1` of the five
  loads, taken in the order rows, mean, variance, gamma, beta. So after the body every input buffer still holds its block
  and the output buffer holds the canon of that one store, which covers the block.
-/
import proofs.«151172_j14164802142730_2_alg».proof.Proof.Gen.Kernel.Launch
import proofs.«151172_j14164802142730_2_alg».proof.Proof.Gen.Kernel.Skeleton
import proofs.«151172_j14164802142730_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's buffer holds its block at every point, whether the point fetches it or not: where it is not
    fetched the block index has not moved and the body left the buffer as it found it. One statement per input window. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: the rows' block whole (read, and written as the output), a per-feature vector whole -/

abbrev r9_x : Rect S5000x64 := Rect.unit (s := S5000x64) ![0, 0] S5000x64.size inb_S5000x64_S5000x64_0_0
abbrev r9_v : Rect S64 := Rect.unit (s := S64) ![0] S64.size inb_S64_S64_0

/-- The output buffer after the body: its one store, of the payload of the five loads. The payload takes the rows
    first, then the mean and the variance (windows 3 and 4), then gamma and beta (windows 1 and 2). -/
def out9_5 (x0 : Vec F S5000x64 .f32) (x1 : Vec F S64 .f32) (x2 : Vec F S64 .f32) (x3 : Vec F S64 .f32) (x4 : Vec F S64 .f32) :
    Vec F S5000x64 .f32 :=
  View.canon [⟨r9_x, k9_pay1 (View.ld x0 r9_x) (View.ld x3 r9_v) (View.ld x4 r9_v) (View.ld x1 r9_v) (View.ld x2 r9_v)⟩]

/-- The one store is of the whole block, so it covers it. -/
theorem cover9_5 (p0 : Vec F S5000x64 .f32) (y : S5000x64.Idx) :
    ∃ pc ∈ ([⟨r9_x, p0⟩] : List (View.Piece (Elt F) S5000x64 .f32)), y ∈ pc.1.set :=
  View.cover_of_tiled [⟨r9_x, p0⟩] S5000x64.size (by rfl) y

set_option maxHeartbeats 1000000 in
/-- The body on whole buffers, the inputs' at contents `x0 x1 x2 x3 x4` and the output's at anything, runs to the end with
    the inputs' as they were and the output's at `out9_5` of them. -/
theorem sound_kernel9 (c : Dev nD) (E : Set ℕ) (i : grid9.Coords)
    (arg1 : Memref sig .tc .vmem S5000x64 .f32) (harg1 : arg1.IsWhole) (arg2 : Memref sig .tc .vmem S64 .f32) (harg2 : arg2.IsWhole)
    (arg3 : Memref sig .tc .vmem S64 .f32) (harg3 : arg3.IsWhole) (arg4 : Memref sig .tc .vmem S64 .f32) (harg4 : arg4.IsWhole)
    (arg5 : Memref sig .tc .vmem S64 .f32) (harg5 : arg5.IsWhole) (arg6 : Memref sig .tc .vmem S5000x64 .f32) (harg6 : arg6.IsWhole)
    (x0 : Vec F S5000x64 .f32) (x1 : Vec F S64 .f32) (x2 : Vec F S64 .f32) (x3 : Vec F S64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out9_5 x0 x1 x2 x3 x4)) -∗ K ⟨⟩))
      ⊢ wp frame (wpE (defs₀ (F := F)) Variants.none c none) E
          (cc9__bn_kernel i arg1 harg1 arg2 harg2 arg3 harg3 arg4 harg4 arg5 harg5 arg6 harg6) K := by
  simp only [cc9__bn_kernel_eq_skeleton]; unfold cc9__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-- The proof data of pipeline 9 on core `c`: the arrays as the region finds them; after the body each input's buffer at
    its block and the output's at `out9_5` of the five input blocks; the class invariant; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) :
    (dat9 V c).after 5 t = out9_5 (iblk9 V c 0 t) (iblk9 V c 1 t) (iblk9 V c 2 t) (iblk9 V c 3 t) (iblk9 V c 4 t) := by
  dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _
    (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Frame

end
-- ==== Proof.K.R10.lean ====
/-
  Region 10 of the program (the row-wise dot product of two blocks of 4000 rows of 64 lanes), as proof data for the
  pipeline library, at any float instance and at any contents `V` of the core's buffers when the region is entered.

  At grid point `t` (of 25) the body is handed the block of rows `4000 t … 4000 t + 3999` of the left operand (window 0),
  the same block of rows of the right operand (window 1), and the matching block of 4000 rows of the one-column output
  (window 2). It loads both input blocks whole and stores ONE value into the whole output block: the payload `k10_pay1`
  of the two loads, which multiplies the blocks lane by lane and sums each row's 64 products, kept as a column. So after
  the body both input buffers still hold their blocks and the output buffer holds the canon of that one store, which
  covers the block.
-/
import proofs.«151172_j14164802142730_2_alg».proof.Proof.Gen.Kernel.Launch
import proofs.«151172_j14164802142730_2_alg».proof.Proof.Gen.Kernel.Skeleton
import proofs.«151172_j14164802142730_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's buffer holds its block at every point, whether the point fetches it or not: where it is not
    fetched the block index has not moved and the body left the buffer as it found it. One statement per input window. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: an input block whole (the same rectangle for both operands), the output block whole -/

abbrev r10_x : Rect S4000x64 := Rect.unit (s := S4000x64) ![0, 0] S4000x64.size inb_S4000x64_S4000x64_0_0
abbrev r10_o : Rect S4000x1 := Rect.unit (s := S4000x1) ![0, 0] S4000x1.size inb_S4000x1_S4000x1_0_0

/-- The output buffer after the body: its one store, of the payload of the two loads. -/
def out10_2 (x0 : Vec F S4000x64 .f32) (x1 : Vec F S4000x64 .f32) : Vec F S4000x1 .f32 :=
  View.canon [⟨r10_o, k10_pay1 (View.ld x0 r10_x) (View.ld x1 r10_x)⟩]

/-- The one store is of the whole block, so it covers it. -/
theorem cover10_2 (p0 : Vec F S4000x1 .f32) (y : S4000x1.Idx) :
    ∃ pc ∈ ([⟨r10_o, p0⟩] : List (View.Piece (Elt F) S4000x1 .f32)), y ∈ pc.1.set :=
  View.cover_of_tiled [⟨r10_o, p0⟩] S4000x1.size (by rfl) y

set_option maxHeartbeats 1000000 in
/-- The body on whole buffers, the inputs' at contents `x0 x1` and the output's at anything, runs to the end with the
    inputs' as they were and the output's at `out10_2` of them. -/
theorem sound_kernel10 (c : Dev nD) (E : Set ℕ) (i : grid10.Coords)
    (arg1 : Memref sig .tc .vmem S4000x64 .f32) (harg1 : arg1.IsWhole) (arg2 : Memref sig .tc .vmem S4000x64 .f32) (harg2 : arg2.IsWhole)
    (arg3 : Memref sig .tc .vmem S4000x1 .f32) (harg3 : arg3.IsWhole)
    (x0 : Vec F S4000x64 .f32) (x1 : Vec F S4000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out10_2 x0 x1)) -∗ K ⟨⟩))
      ⊢ wp frame (wpE (defs₀ (F := F)) Variants.none c none) E (cc10__dot_reduce_kernel i arg1 harg1 arg2 harg2 arg3 harg3) K := by
  simp only [cc10__dot_reduce_kernel_eq_skeleton]; unfold cc10__dot_reduce_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-- The proof data of pipeline 10 on core `c`: the arrays as the region finds them; after the body each input's buffer at
    its block and the output's at `out10_2` of the two input blocks; the class invariant; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) :
    (dat10 V c).after 2 t = out10_2 (iblk10 V c 0 t) (iblk10 V c 1 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.Kernel.Frame

end
-- ==== Proof.K.R11.lean ====
/-
  Region 11 of the program (the row-wise dot product of two blocks of 4000 rows of 64 lanes), as proof data for the
  pipeline library, at any float instance and at any contents `V` of the core's buffers when the region is entered.

  At grid point `t` (of 25) the body is handed the block of rows `4000 t … 4000 t + 3999` of the left operand (window 0),
  the same block of rows of the right operand (window 1), and the matching block of 4000 rows of the one-column output
  (window 2). It loads both input blocks whole and stores ONE value into the whole output block: the payload `k11_pay1`
  of the two loads, which multiplies the blocks lane by lane and sums each row's 64 products, kept as a column. So after
  the body both input buffers still hold their blocks and the output buffer holds the canon of that one store, which
  covers the block.
-/
import proofs.«151172_j14164802142730_2_alg».proof.Proof.Gen.Kernel.Launch
import proofs.«151172_j14164802142730_2_alg».proof.Proof.Gen.Kernel.Skeleton
import proofs.«151172_j14164802142730_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's buffer holds its block at every point, whether the point fetches it or not: where it is not
    fetched the block index has not moved and the body left the buffer as it found it. One statement per input window. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: an input block whole (the same rectangle for both operands), the output block whole -/

abbrev r11_x : Rect S4000x64 := Rect.unit (s := S4000x64) ![0, 0] S4000x64.size inb_S4000x64_S4000x64_0_0
abbrev r11_o : Rect S4000x1 := Rect.unit (s := S4000x1) ![0, 0] S4000x1.size inb_S4000x1_S4000x1_0_0

/-- The output buffer after the body: its one store, of the payload of the two loads. -/
def out11_2 (x0 : Vec F S4000x64 .f32) (x1 : Vec F S4000x64 .f32) : Vec F S4000x1 .f32 :=
  View.canon [⟨r11_o, k11_pay1 (View.ld x0 r11_x) (View.ld x1 r11_x)⟩]

/-- The one store is of the whole block, so it covers it. -/
theorem cover11_2 (p0 : Vec F S4000x1 .f32) (y : S4000x1.Idx) :
    ∃ pc ∈ ([⟨r11_o, p0⟩] : List (View.Piece (Elt F) S4000x1 .f32)), y ∈ pc.1.set :=
  View.cover_of_tiled [⟨r11_o, p0⟩] S4000x1.size (by rfl) y

set_option maxHeartbeats 1000000 in
/-- The body on whole buffers, the inputs' at contents `x0 x1` and the output's at anything, runs to the end with the
    inputs' as they were and the output's at `out11_2` of them. -/
theorem sound_kernel11 (c : Dev nD) (E : Set ℕ) (i : grid11.Coords)
    (arg1 : Memref sig .tc .vmem S4000x64 .f32) (harg1 : arg1.IsWhole) (arg2 : Memref sig .tc .vmem S4000x64 .f32) (harg2 : arg2.IsWhole)
    (arg3 : Memref sig .tc .vmem S4000x1 .f32) (harg3 : arg3.IsWhole)
    (x0 : Vec F S4000x64 .f32) (x1 : Vec F S4000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out11_2 x0 x1)) -∗ K ⟨⟩))
      ⊢ wp frame (wpE (defs₀ (F := F)) Variants.none c none) E (cc11__dot_reduce_kernel i arg1 harg1 arg2 harg2 arg3 harg3) K := by
  simp only [cc11__dot_reduce_kernel_eq_skeleton]; unfold cc11__dot_reduce_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover11_2 _)

/-- The proof data of pipeline 11 on core `c`: the arrays as the region finds them; after the body each input's buffer at
    its block and the output's at `out11_2` of the two input blocks; the class invariant; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) :
    (dat11 V c).after 2 t = out11_2 (iblk11 V c 0 t) (iblk11 V c 1 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ _ _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Frame

end
-- ==== Proof.K.R12.lean ====
/-
  Region 12 of the program (the row-wise dot product of two blocks of 4000 rows of 64 lanes), as proof data for the
  pipeline library, at any float instance and at any contents `V` of the core's buffers when the region is entered.

  At grid point `t` (of 25) the body is handed the block of rows `4000 t … 4000 t + 3999` of the left operand (window 0),
  the same block of rows of the right operand (window 1), and the matching block of 4000 rows of the one-column output
  (window 2). It loads both input blocks whole and stores ONE value into the whole output block: the payload `k12_pay1`
  of the two loads, which multiplies the blocks lane by lane and sums each row's 64 products, kept as a column. So after
  the body both input buffers still hold their blocks and the output buffer holds the canon of that one store, which
  covers the block.
-/
import proofs.«151172_j14164802142730_2_alg».proof.Proof.Gen.Kernel.Launch
import proofs.«151172_j14164802142730_2_alg».proof.Proof.Gen.Kernel.Skeleton
import proofs.«151172_j14164802142730_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's buffer holds its block at every point, whether the point fetches it or not: where it is not
    fetched the block index has not moved and the body left the buffer as it found it. One statement per input window. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: an input block whole (the same rectangle for both operands), the output block whole -/

abbrev r12_x : Rect S4000x64 := Rect.unit (s := S4000x64) ![0, 0] S4000x64.size inb_S4000x64_S4000x64_0_0
abbrev r12_o : Rect S4000x1 := Rect.unit (s := S4000x1) ![0, 0] S4000x1.size inb_S4000x1_S4000x1_0_0

/-- The output buffer after the body: its one store, of the payload of the two loads. -/
def out12_2 (x0 : Vec F S4000x64 .f32) (x1 : Vec F S4000x64 .f32) : Vec F S4000x1 .f32 :=
  View.canon [⟨r12_o, k12_pay1 (View.ld x0 r12_x) (View.ld x1 r12_x)⟩]

/-- The one store is of the whole block, so it covers it. -/
theorem cover12_2 (p0 : Vec F S4000x1 .f32) (y : S4000x1.Idx) :
    ∃ pc ∈ ([⟨r12_o, p0⟩] : List (View.Piece (Elt F) S4000x1 .f32)), y ∈ pc.1.set :=
  View.cover_of_tiled [⟨r12_o, p0⟩] S4000x1.size (by rfl) y

set_option maxHeartbeats 1000000 in
/-- The body on whole buffers, the inputs' at contents `x0 x1` and the output's at anything, runs to the end with the
    inputs' as they were and the output's at `out12_2` of them. -/
theorem sound_kernel12 (c : Dev nD) (E : Set ℕ) (i : grid12.Coords)
    (arg1 : Memref sig .tc .vmem S4000x64 .f32) (harg1 : arg1.IsWhole) (arg2 : Memref sig .tc .vmem S4000x64 .f32) (harg2 : arg2.IsWhole)
    (arg3 : Memref sig .tc .vmem S4000x1 .f32) (harg3 : arg3.IsWhole)
    (x0 : Vec F S4000x64 .f32) (x1 : Vec F S4000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out12_2 x0 x1)) -∗ K ⟨⟩))
      ⊢ wp frame (wpE (defs₀ (F := F)) Variants.none c none) E (cc12__dot_reduce_kernel i arg1 harg1 arg2 harg2 arg3 harg3) K := by
  simp only [cc12__dot_reduce_kernel_eq_skeleton]; unfold cc12__dot_reduce_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-- The proof data of pipeline 12 on core `c`: the arrays as the region finds them; after the body each input's buffer at
    its block and the output's at `out12_2` of the two input blocks; the class invariant; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) :
    (dat12 V c).after 2 t = out12_2 (iblk12 V c 0 t) (iblk12 V c 1 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Frame

end
-- ==== Proof.K.Folds.lean ====
/-
  What core c's buffers hold at each of the 35 boundaries between @main's 34 items, as a fold from the launch memory: a host
  stretch takes the contents to the stretch's fold over them; a kernel region leaves its arrays at what its write-backs
  leave (the inputs as entered, the output at the fold of its points' blocks) and every other buffer as entered. With it: which
  references each host stretch writes, and the family of the thirteen regions' proof data, each at its region's entry contents.
-/
import proofs.«151172_j14164802142730_2_alg».proof.Proof.K.R0
import proofs.«151172_j14164802142730_2_alg».proof.Proof.K.R1
import proofs.«151172_j14164802142730_2_alg».proof.Proof.K.R2
import proofs.«151172_j14164802142730_2_alg».proof.Proof.K.R3
import proofs.«151172_j14164802142730_2_alg».proof.Proof.K.R4
import proofs.«151172_j14164802142730_2_alg».proof.Proof.K.R5
import proofs.«151172_j14164802142730_2_alg».proof.Proof.K.R6
import proofs.«151172_j14164802142730_2_alg».proof.Proof.K.R7
import proofs.«151172_j14164802142730_2_alg».proof.Proof.K.R8
import proofs.«151172_j14164802142730_2_alg».proof.Proof.K.R9
import proofs.«151172_j14164802142730_2_alg».proof.Proof.K.R10
import proofs.«151172_j14164802142730_2_alg».proof.Proof.K.R11
import proofs.«151172_j14164802142730_2_alg».proof.Proof.K.R12

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each host stretch writes, and that none allocates -/

theorem hostOps0_fresh : (hostOps0 : List (HloOp τ sig (Elt F))).Forall fun op => op.fresh = ∅ := by
  simp only [List.Forall]; repeat' constructor
abbrev hostOps0_W : List (Ref sig .tc) := [main_c, main_v0, main_v1, main_c_0, main_v2, main_v3, main_v4, main_v5, main_v6, main_c_1, main_v7, main_v8, main_c_2, main_v9, main_v10, main_v11, main_v12, main_v13]
theorem hostOps0_writes : (hostOps0 : List (HloOp τ sig (Elt F))).Forall fun op => op.writes ⊆ ((hostOps0_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps2_fresh : (hostOps2 : List (HloOp τ sig (Elt F))).Forall fun op => op.fresh = ∅ := by
  simp only [List.Forall]; repeat' constructor
abbrev hostOps2_W : List (Ref sig .tc) := [main_v16, main_v17, main_v18, main_v19, main_c_3, main_v20, main_v21, main_c_4, main_v22, main_v23, main_v24, main_v25, main_v26, main_cst, main_v27, main_v28, main_v29, main_cst_5, main_v30, main_cst_6, main_v31, main_v32, main_v33, main_v34, main_cst_7, main_v35, main_v36, main_v37, main_v38, main_v39, main_v40, main_v41, main_v42, main_c_8, main_v43, main_v44, main_c_9, main_v45, main_v46, main_v47, main_v48, main_v49, main_cst_10, main_v50, main_v51, main_v52, main_cst_11, main_v53, main_cst_12, main_v54, main_v55, main_v56, main_v57, main_cst_13, main_v58, main_v59, main_v60, main_v61, main_v62, main_v63, main_v64, main_v65, main_c_14, main_v66, main_v67, main_c_15, main_v68, main_v69, main_v70, main_v71, main_v72, main_cst_16, main_v73, main_v74, main_v75, main_cst_17, main_v76, main_cst_18, main_v77, main_v78, main_v79, main_v80, main_cst_19, main_v81, main_v82, main_v83, main_v84, main_v85, main_v86, main_v87, main_v88, main_v89, main_v90]
theorem hostOps2_writes : (hostOps2 : List (HloOp τ sig (Elt F))).Forall fun op => op.writes ⊆ ((hostOps2_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps3_fresh : (hostOps3 : List (HloOp τ sig (Elt F))).Forall fun op => op.fresh = ∅ := by
  simp only [List.Forall]; repeat' constructor
abbrev hostOps3_W : List (Ref sig .tc) := [main_v92, main_v93, main_v94, main_v95, main_v96, main_v97, main_v98, main_v99, main_v100, main_v101, main_v102, main_v103]
theorem hostOps3_writes : (hostOps3 : List (HloOp τ sig (Elt F))).Forall fun op => op.writes ⊆ ((hostOps3_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps4_fresh : (hostOps4 : List (HloOp τ sig (Elt F))).Forall fun op => op.fresh = ∅ := by
  simp only [List.Forall]; repeat' constructor
abbrev hostOps4_W : List (Ref sig .tc) := [main_cst_20, main_v105, main_cst_21, main_v106, main_v107, main_c_22]
theorem hostOps4_writes : (hostOps4 : List (HloOp τ sig (Elt F))).Forall fun op => op.writes ⊆ ((hostOps4_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps4_1_fresh : (hostOps4_1 : List (HloOp τ sig (Elt F))).Forall fun op => op.fresh = ∅ := by
  simp only [List.Forall]; repeat' constructor
abbrev hostOps4_1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v108]
theorem hostOps4_1_writes : (hostOps4_1 : List (HloOp τ sig (Elt F))).Forall fun op => op.writes ⊆ ((hostOps4_1_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps4_2_fresh : (hostOps4_2 : List (HloOp τ sig (Elt F))).Forall fun op => op.fresh = ∅ := by
  simp only [List.Forall]; repeat' constructor
abbrev hostOps4_2_W : List (Ref sig .tc) := [main_cst_23, main_v109, main_cst_24, main_v110, main_v111, main_c_25]
theorem hostOps4_2_writes : (hostOps4_2 : List (HloOp τ sig (Elt F))).Forall fun op => op.writes ⊆ ((hostOps4_2_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps4_3_fresh : (hostOps4_3 : List (HloOp τ sig (Elt F))).Forall fun op => op.fresh = ∅ := by
  simp only [List.Forall]; repeat' constructor
abbrev hostOps4_3_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v112]
theorem hostOps4_3_writes : (hostOps4_3 : List (HloOp τ sig (Elt F))).Forall fun op => op.writes ⊆ ((hostOps4_3_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps4_4_fresh : (hostOps4_4 : List (HloOp τ sig (Elt F))).Forall fun op => op.fresh = ∅ := by
  simp only [List.Forall]; repeat' constructor
abbrev hostOps4_4_W : List (Ref sig .tc) := [main_v113, main_v114, main_v115, main_v116]
theorem hostOps4_4_writes : (hostOps4_4 : List (HloOp τ sig (Elt F))).Forall fun op => op.writes ⊆ ((hostOps4_4_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps5_fresh : (hostOps5 : List (HloOp τ sig (Elt F))).Forall fun op => op.fresh = ∅ := by
  simp only [List.Forall]; repeat' constructor
abbrev hostOps5_W : List (Ref sig .tc) := [main_v118, main_v119, main_v120, main_v121]
theorem hostOps5_writes : (hostOps5 : List (HloOp τ sig (Elt F))).Forall fun op => op.writes ⊆ ((hostOps5_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps6_fresh : (hostOps6 : List (HloOp τ sig (Elt F))).Forall fun op => op.fresh = ∅ := by
  simp only [List.Forall]; repeat' constructor
abbrev hostOps6_W : List (Ref sig .tc) := [main_v123, main_v124, main_v125, main_v126, main_c_26, main_v127, main_v128, main_c_27, main_v129, main_v130, main_v131, main_v132, main_v133, main_cst_28, main_v134, main_v135, main_v136, main_cst_29, main_v137, main_cst_30, main_v138, main_v139, main_v140, main_v141, main_cst_31, main_v142, main_v143, main_v144, main_v145, main_v146, main_v147, main_v148, main_v149, main_c_32, main_v150, main_v151, main_c_33, main_v152, main_v153, main_v154, main_v155, main_v156, main_cst_34, main_v157, main_v158, main_v159, main_cst_35, main_v160, main_cst_36, main_v161, main_v162, main_v163, main_v164, main_cst_37, main_v165, main_v166, main_v167, main_v168, main_v169, main_v170, main_v171, main_v172, main_c_38, main_v173, main_v174, main_c_39, main_v175, main_v176, main_v177, main_v178, main_v179, main_cst_40, main_v180, main_v181, main_v182, main_cst_41, main_v183, main_cst_42, main_v184, main_v185, main_v186, main_v187, main_cst_43, main_v188, main_v189, main_v190, main_v191, main_v192, main_v193, main_v194, main_v195, main_v196, main_v197]
theorem hostOps6_writes : (hostOps6 : List (HloOp τ sig (Elt F))).Forall fun op => op.writes ⊆ ((hostOps6_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps7_fresh : (hostOps7 : List (HloOp τ sig (Elt F))).Forall fun op => op.fresh = ∅ := by
  simp only [List.Forall]; repeat' constructor
abbrev hostOps7_W : List (Ref sig .tc) := [main_v199, main_v200, main_v201, main_v202, main_v203, main_v204, main_v205, main_v206, main_v207, main_v208, main_v209, main_v210]
theorem hostOps7_writes : (hostOps7 : List (HloOp τ sig (Elt F))).Forall fun op => op.writes ⊆ ((hostOps7_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps8_fresh : (hostOps8 : List (HloOp τ sig (Elt F))).Forall fun op => op.fresh = ∅ := by
  simp only [List.Forall]; repeat' constructor
abbrev hostOps8_W : List (Ref sig .tc) := [main_cst_44, main_v212, main_cst_45, main_v213, main_v214, main_c_46]
theorem hostOps8_writes : (hostOps8 : List (HloOp τ sig (Elt F))).Forall fun op => op.writes ⊆ ((hostOps8_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps8_1_fresh : (hostOps8_1 : List (HloOp τ sig (Elt F))).Forall fun op => op.fresh = ∅ := by
  simp only [List.Forall]; repeat' constructor
abbrev hostOps8_1_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v215]
theorem hostOps8_1_writes : (hostOps8_1 : List (HloOp τ sig (Elt F))).Forall fun op => op.writes ⊆ ((hostOps8_1_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps8_2_fresh : (hostOps8_2 : List (HloOp τ sig (Elt F))).Forall fun op => op.fresh = ∅ := by
  simp only [List.Forall]; repeat' constructor
abbrev hostOps8_2_W : List (Ref sig .tc) := [main_cst_47, main_v216, main_cst_48, main_v217, main_v218, main_c_49]
theorem hostOps8_2_writes : (hostOps8_2 : List (HloOp τ sig (Elt F))).Forall fun op => op.writes ⊆ ((hostOps8_2_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps8_3_fresh : (hostOps8_3 : List (HloOp τ sig (Elt F))).Forall fun op => op.fresh = ∅ := by
  simp only [List.Forall]; repeat' constructor
abbrev hostOps8_3_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v219]
theorem hostOps8_3_writes : (hostOps8_3 : List (HloOp τ sig (Elt F))).Forall fun op => op.writes ⊆ ((hostOps8_3_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps8_4_fresh : (hostOps8_4 : List (HloOp τ sig (Elt F))).Forall fun op => op.fresh = ∅ := by
  simp only [List.Forall]; repeat' constructor
abbrev hostOps8_4_W : List (Ref sig .tc) := [main_v220, main_v221, main_v222, main_v223]
theorem hostOps8_4_writes : (hostOps8_4 : List (HloOp τ sig (Elt F))).Forall fun op => op.writes ⊆ ((hostOps8_4_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps9_fresh : (hostOps9 : List (HloOp τ sig (Elt F))).Forall fun op => op.fresh = ∅ := by
  simp only [List.Forall]; repeat' constructor
abbrev hostOps9_W : List (Ref sig .tc) := [main_v225, main_v226, main_v227, main_v228]
theorem hostOps9_writes : (hostOps9 : List (HloOp τ sig (Elt F))).Forall fun op => op.writes ⊆ ((hostOps9_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps10_fresh : (hostOps10 : List (HloOp τ sig (Elt F))).Forall fun op => op.fresh = ∅ := by
  simp only [List.Forall]; repeat' constructor
abbrev hostOps10_W : List (Ref sig .tc) := [main_v230, main_v231, main_c_50, main_v232, main_v233, main_c_51, main_v234, main_v235, main_v236, main_v237, main_v238, main_v239, main_v240, main_c_52, main_v241, main_v242, main_c_53, main_v243, main_v244, main_v245, main_v246, main_v247]
theorem hostOps10_writes : (hostOps10 : List (HloOp τ sig (Elt F))).Forall fun op => op.writes ⊆ ((hostOps10_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps11_fresh : (hostOps11 : List (HloOp τ sig (Elt F))).Forall fun op => op.fresh = ∅ := by
  simp only [List.Forall]; repeat' constructor
abbrev hostOps11_W : List (Ref sig .tc) := [main_v249, main_v250, main_v251, main_c_54, main_v252, main_v253, main_c_55, main_v254, main_v255, main_v256, main_v257, main_v258, main_v259, main_v260, main_c_56, main_v261, main_v262, main_c_57, main_v263, main_v264, main_v265, main_v266, main_v267, main_v268, main_v269, main_c_58, main_v270, main_v271, main_c_59, main_v272, main_v273, main_v274, main_v275, main_v276]
theorem hostOps11_writes : (hostOps11 : List (HloOp τ sig (Elt F))).Forall fun op => op.writes ⊆ ((hostOps11_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps12_fresh : (hostOps12 : List (HloOp τ sig (Elt F))).Forall fun op => op.fresh = ∅ := by
  simp only [List.Forall]; repeat' constructor
abbrev hostOps12_W : List (Ref sig .tc) := [main_v278, main_v279, main_v280, main_c_60, main_v281, main_v282, main_c_61, main_v283, main_v284, main_v285, main_v286, main_v287, main_v288, main_v289, main_c_62, main_v290, main_v291, main_c_63, main_v292, main_v293, main_v294, main_v295, main_v296, main_v297, main_v298, main_c_64, main_v299, main_v300, main_c_65, main_v301, main_v302, main_v303, main_v304, main_v305]
theorem hostOps12_writes : (hostOps12 : List (HloOp τ sig (Elt F))).Forall fun op => op.writes ⊆ ((hostOps12_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps13_fresh : (hostOps13 : List (HloOp τ sig (Elt F))).Forall fun op => op.fresh = ∅ := by
  simp only [List.Forall]; repeat' constructor
abbrev hostOps13_W : List (Ref sig .tc) := [main_v307, main_v308, main_v309, main_c_66, main_v310, main_v311, main_c_67, main_v312, main_v313, main_v314, main_v315, main_v316, main_v317, main_v318, main_v319, main_v320, main_v321, main_v322, main_v323]
theorem hostOps13_writes : (hostOps13 : List (HloOp τ sig (Elt F))).Forall fun op => op.writes ⊆ ((hostOps13_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-! ## The fold -/

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After item 0, the host stretch hostOps0. -/
def W1 (c : Dev nD) : Valuation τ sig (Elt F) := StableHlo.after hostOps0 (W0 m ρ c)
theorem W1_eq (c : Dev nD) : W1 m ρ c = StableHlo.after hostOps0 (W0 m ρ c) := rfl
abbrev V1 : (c : Dev nD) → (b : Ref sig .tc) → Buf (Elt F) ((c : Thread nD τ).loc b) := fun c b => W1 m ρ c b
theorem W1_keep (c : Dev nD) (r : Ref sig .tc) (h : r ∉ hostOps0_W) : W1 m ρ c (Proc.devRef .tc r) = W0 m ρ c (Proc.devRef .tc r) := by
  rw [W1_eq]; exact StableHlo.after_of_writes_sub hostOps0 _ hostOps0_writes h
/-- After item 1, region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After item 2, region 1: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After item 3, the host stretch hostOps2. -/
def W4 (c : Dev nD) : Valuation τ sig (Elt F) := StableHlo.after hostOps2 (W3 m ρ c)
theorem W4_eq (c : Dev nD) : W4 m ρ c = StableHlo.after hostOps2 (W3 m ρ c) := rfl
abbrev V4 : (c : Dev nD) → (b : Ref sig .tc) → Buf (Elt F) ((c : Thread nD τ).loc b) := fun c b => W4 m ρ c b
theorem W4_keep (c : Dev nD) (r : Ref sig .tc) (h : r ∉ hostOps2_W) : W4 m ρ c (Proc.devRef .tc r) = W3 m ρ c (Proc.devRef .tc r) := by
  rw [W4_eq]; exact StableHlo.after_of_writes_sub hostOps2 _ hostOps2_writes h
/-- After item 4, region 2: its arrays at what the pipeline leaves, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After item 5, the host stretch hostOps3. -/
def W6 (c : Dev nD) : Valuation τ sig (Elt F) := StableHlo.after hostOps3 (W5 m ρ c)
theorem W6_eq (c : Dev nD) : W6 m ρ c = StableHlo.after hostOps3 (W5 m ρ c) := rfl
abbrev V6 : (c : Dev nD) → (b : Ref sig .tc) → Buf (Elt F) ((c : Thread nD τ).loc b) := fun c b => W6 m ρ c b
theorem W6_keep (c : Dev nD) (r : Ref sig .tc) (h : r ∉ hostOps3_W) : W6 m ρ c (Proc.devRef .tc r) = W5 m ρ c (Proc.devRef .tc r) := by
  rw [W6_eq]; exact StableHlo.after_of_writes_sub hostOps3 _ hostOps3_writes h
/-- After item 6, region 3: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- After item 7, the host stretch hostOps4. -/
def W8 (c : Dev nD) : Valuation τ sig (Elt F) := StableHlo.after hostOps4 (W7 m ρ c)
theorem W8_eq (c : Dev nD) : W8 m ρ c = StableHlo.after hostOps4 (W7 m ρ c) := rfl
abbrev V8 : (c : Dev nD) → (b : Ref sig .tc) → Buf (Elt F) ((c : Thread nD τ).loc b) := fun c b => W8 m ρ c b
theorem W8_keep (c : Dev nD) (r : Ref sig .tc) (h : r ∉ hostOps4_W) : W8 m ρ c (Proc.devRef .tc r) = W7 m ρ c (Proc.devRef .tc r) := by
  rw [W8_eq]; exact StableHlo.after_of_writes_sub hostOps4 _ hostOps4_writes h
/-- After item 8, the host stretch hostOps4_1. -/
def W9 (c : Dev nD) : Valuation τ sig (Elt F) := StableHlo.after hostOps4_1 (W8 m ρ c)
theorem W9_eq (c : Dev nD) : W9 m ρ c = StableHlo.after hostOps4_1 (W8 m ρ c) := rfl
abbrev V9 : (c : Dev nD) → (b : Ref sig .tc) → Buf (Elt F) ((c : Thread nD τ).loc b) := fun c b => W9 m ρ c b
theorem W9_keep (c : Dev nD) (r : Ref sig .tc) (h : r ∉ hostOps4_1_W) : W9 m ρ c (Proc.devRef .tc r) = W8 m ρ c (Proc.devRef .tc r) := by
  rw [W9_eq]; exact StableHlo.after_of_writes_sub hostOps4_1 _ hostOps4_1_writes h
/-- After item 9, the host stretch hostOps4_2. -/
def W10 (c : Dev nD) : Valuation τ sig (Elt F) := StableHlo.after hostOps4_2 (W9 m ρ c)
theorem W10_eq (c : Dev nD) : W10 m ρ c = StableHlo.after hostOps4_2 (W9 m ρ c) := rfl
abbrev V10 : (c : Dev nD) → (b : Ref sig .tc) → Buf (Elt F) ((c : Thread nD τ).loc b) := fun c b => W10 m ρ c b
theorem W10_keep (c : Dev nD) (r : Ref sig .tc) (h : r ∉ hostOps4_2_W) : W10 m ρ c (Proc.devRef .tc r) = W9 m ρ c (Proc.devRef .tc r) := by
  rw [W10_eq]; exact StableHlo.after_of_writes_sub hostOps4_2 _ hostOps4_2_writes h
/-- After item 10, the host stretch hostOps4_3. -/
def W11 (c : Dev nD) : Valuation τ sig (Elt F) := StableHlo.after hostOps4_3 (W10 m ρ c)
theorem W11_eq (c : Dev nD) : W11 m ρ c = StableHlo.after hostOps4_3 (W10 m ρ c) := rfl
abbrev V11 : (c : Dev nD) → (b : Ref sig .tc) → Buf (Elt F) ((c : Thread nD τ).loc b) := fun c b => W11 m ρ c b
theorem W11_keep (c : Dev nD) (r : Ref sig .tc) (h : r ∉ hostOps4_3_W) : W11 m ρ c (Proc.devRef .tc r) = W10 m ρ c (Proc.devRef .tc r) := by
  rw [W11_eq]; exact StableHlo.after_of_writes_sub hostOps4_3 _ hostOps4_3_writes h
/-- After item 11, the host stretch hostOps4_4. -/
def W12 (c : Dev nD) : Valuation τ sig (Elt F) := StableHlo.after hostOps4_4 (W11 m ρ c)
theorem W12_eq (c : Dev nD) : W12 m ρ c = StableHlo.after hostOps4_4 (W11 m ρ c) := rfl
abbrev V12 : (c : Dev nD) → (b : Ref sig .tc) → Buf (Elt F) ((c : Thread nD τ).loc b) := fun c b => W12 m ρ c b
theorem W12_keep (c : Dev nD) (r : Ref sig .tc) (h : r ∉ hostOps4_4_W) : W12 m ρ c (Proc.devRef .tc r) = W11 m ρ c (Proc.devRef .tc r) := by
  rw [W12_eq]; exact StableHlo.after_of_writes_sub hostOps4_4 _ hostOps4_4_writes h
/-- After item 12, region 4: its arrays at what the pipeline leaves, every other buffer as entered. -/
def W13 (c : Dev nD) : Valuation τ sig (Elt F) :=
  Pipeline.withArrays spec4 c (W12 m ρ c) fun w => (dat4 (V12 m ρ) c).arrAt w cfg4.N
theorem W13_arr (c : Dev nD) (w : Fin cfg4.W) :
    W13 m ρ c (Proc.devRef .tc (Pipeline.arrRef spec4 w)) = (dat4 (V12 m ρ) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m ρ c (Proc.devRef .tc b) = W12 m ρ c (Proc.devRef .tc b) := by
  unfold W13; exact Pipeline.withArrays_of_ne spec4 c _ _ b hb
abbrev V13 : (c : Dev nD) → (b : Ref sig .tc) → Buf (Elt F) ((c : Thread nD τ).loc b) := fun c b => W13 m ρ c b
theorem hF4 (c : Dev nD) (w : Fin cfg4.W) : (dat4 (V12 m ρ) c).arrAt w cfg4.N = V13 m ρ c (Pipeline.arrRef spec4 w) :=
  (W13_arr m ρ c w).symm
theorem hrest4 (c : Dev nD) : ∀ b, b ∉ Finset.univ.image (Pipeline.arrRef spec4) → V13 m ρ c b = V12 m ρ c b :=
  fun b hb => W13_of_ne m ρ c b fun w e => hb (Finset.mem_image.mpr ⟨w, Finset.mem_univ _, e⟩)
/-- After item 13, the host stretch hostOps5. -/
def W14 (c : Dev nD) : Valuation τ sig (Elt F) := StableHlo.after hostOps5 (W13 m ρ c)
theorem W14_eq (c : Dev nD) : W14 m ρ c = StableHlo.after hostOps5 (W13 m ρ c) := rfl
abbrev V14 : (c : Dev nD) → (b : Ref sig .tc) → Buf (Elt F) ((c : Thread nD τ).loc b) := fun c b => W14 m ρ c b
theorem W14_keep (c : Dev nD) (r : Ref sig .tc) (h : r ∉ hostOps5_W) : W14 m ρ c (Proc.devRef .tc r) = W13 m ρ c (Proc.devRef .tc r) := by
  rw [W14_eq]; exact StableHlo.after_of_writes_sub hostOps5 _ hostOps5_writes h
/-- After item 14, region 5: its arrays at what the pipeline leaves, every other buffer as entered. -/
def W15 (c : Dev nD) : Valuation τ sig (Elt F) :=
  Pipeline.withArrays spec5 c (W14 m ρ c) fun w => (dat5 (V14 m ρ) c).arrAt w cfg5.N
theorem W15_arr (c : Dev nD) (w : Fin cfg5.W) :
    W15 m ρ c (Proc.devRef .tc (Pipeline.arrRef spec5 w)) = (dat5 (V14 m ρ) c).arrAt w cfg5.N := by
  unfold W15; exact Pipeline.withArrays_arr spec5 launch5.win.arr_inj c _ _ w
theorem W15_of_ne (c : Dev nD) (b : Ref sig .tc) (hb : ∀ w, Pipeline.arrRef spec5 w ≠ b) :
    W15 m ρ c (Proc.devRef .tc b) = W14 m ρ c (Proc.devRef .tc b) := by
  unfold W15; exact Pipeline.withArrays_of_ne spec5 c _ _ b hb
abbrev V15 : (c : Dev nD) → (b : Ref sig .tc) → Buf (Elt F) ((c : Thread nD τ).loc b) := fun c b => W15 m ρ c b
theorem hF5 (c : Dev nD) (w : Fin cfg5.W) : (dat5 (V14 m ρ) c).arrAt w cfg5.N = V15 m ρ c (Pipeline.arrRef spec5 w) :=
  (W15_arr m ρ c w).symm
theorem hrest5 (c : Dev nD) : ∀ b, b ∉ Finset.univ.image (Pipeline.arrRef spec5) → V15 m ρ c b = V14 m ρ c b :=
  fun b hb => W15_of_ne m ρ c b fun w e => hb (Finset.mem_image.mpr ⟨w, Finset.mem_univ _, e⟩)
/-- After item 15, the host stretch hostOps6. -/
def W16 (c : Dev nD) : Valuation τ sig (Elt F) := StableHlo.after hostOps6 (W15 m ρ c)
theorem W16_eq (c : Dev nD) : W16 m ρ c = StableHlo.after hostOps6 (W15 m ρ c) := rfl
abbrev V16 : (c : Dev nD) → (b : Ref sig .tc) → Buf (Elt F) ((c : Thread nD τ).loc b) := fun c b => W16 m ρ c b
theorem W16_keep (c : Dev nD) (r : Ref sig .tc) (h : r ∉ hostOps6_W) : W16 m ρ c (Proc.devRef .tc r) = W15 m ρ c (Proc.devRef .tc r) := by
  rw [W16_eq]; exact StableHlo.after_of_writes_sub hostOps6 _ hostOps6_writes h
/-- After item 16, region 6: its arrays at what the pipeline leaves, every other buffer as entered. -/
def W17 (c : Dev nD) : Valuation τ sig (Elt F) :=
  Pipeline.withArrays spec6 c (W16 m ρ c) fun w => (dat6 (V16 m ρ) c).arrAt w cfg6.N
theorem W17_arr (c : Dev nD) (w : Fin cfg6.W) :
    W17 m ρ c (Proc.devRef .tc (Pipeline.arrRef spec6 w)) = (dat6 (V16 m ρ) c).arrAt w cfg6.N := by
  unfold W17; exact Pipeline.withArrays_arr spec6 launch6.win.arr_inj c _ _ w
theorem W17_of_ne (c : Dev nD) (b : Ref sig .tc) (hb : ∀ w, Pipeline.arrRef spec6 w ≠ b) :
    W17 m ρ c (Proc.devRef .tc b) = W16 m ρ c (Proc.devRef .tc b) := by
  unfold W17; exact Pipeline.withArrays_of_ne spec6 c _ _ b hb
abbrev V17 : (c : Dev nD) → (b : Ref sig .tc) → Buf (Elt F) ((c : Thread nD τ).loc b) := fun c b => W17 m ρ c b
theorem hF6 (c : Dev nD) (w : Fin cfg6.W) : (dat6 (V16 m ρ) c).arrAt w cfg6.N = V17 m ρ c (Pipeline.arrRef spec6 w) :=
  (W17_arr m ρ c w).symm
theorem hrest6 (c : Dev nD) : ∀ b, b ∉ Finset.univ.image (Pipeline.arrRef spec6) → V17 m ρ c b = V16 m ρ c b :=
  fun b hb => W17_of_ne m ρ c b fun w e => hb (Finset.mem_image.mpr ⟨w, Finset.mem_univ _, e⟩)
/-- After item 17, the host stretch hostOps7. -/
def W18 (c : Dev nD) : Valuation τ sig (Elt F) := StableHlo.after hostOps7 (W17 m ρ c)
theorem W18_eq (c : Dev nD) : W18 m ρ c = StableHlo.after hostOps7 (W17 m ρ c) := rfl
abbrev V18 : (c : Dev nD) → (b : Ref sig .tc) → Buf (Elt F) ((c : Thread nD τ).loc b) := fun c b => W18 m ρ c b
theorem W18_keep (c : Dev nD) (r : Ref sig .tc) (h : r ∉ hostOps7_W) : W18 m ρ c (Proc.devRef .tc r) = W17 m ρ c (Proc.devRef .tc r) := by
  rw [W18_eq]; exact StableHlo.after_of_writes_sub hostOps7 _ hostOps7_writes h
/-- After item 18, region 7: its arrays at what the pipeline leaves, every other buffer as entered. -/
def W19 (c : Dev nD) : Valuation τ sig (Elt F) :=
  Pipeline.withArrays spec7 c (W18 m ρ c) fun w => (dat7 (V18 m ρ) c).arrAt w cfg7.N
theorem W19_arr (c : Dev nD) (w : Fin cfg7.W) :
    W19 m ρ c (Proc.devRef .tc (Pipeline.arrRef spec7 w)) = (dat7 (V18 m ρ) c).arrAt w cfg7.N := by
  unfold W19; exact Pipeline.withArrays_arr spec7 launch7.win.arr_inj c _ _ w
theorem W19_of_ne (c : Dev nD) (b : Ref sig .tc) (hb : ∀ w, Pipeline.arrRef spec7 w ≠ b) :
    W19 m ρ c (Proc.devRef .tc b) = W18 m ρ c (Proc.devRef .tc b) := by
  unfold W19; exact Pipeline.withArrays_of_ne spec7 c _ _ b hb
abbrev V19 : (c : Dev nD) → (b : Ref sig .tc) → Buf (Elt F) ((c : Thread nD τ).loc b) := fun c b => W19 m ρ c b
theorem hF7 (c : Dev nD) (w : Fin cfg7.W) : (dat7 (V18 m ρ) c).arrAt w cfg7.N = V19 m ρ c (Pipeline.arrRef spec7 w) :=
  (W19_arr m ρ c w).symm
theorem hrest7 (c : Dev nD) : ∀ b, b ∉ Finset.univ.image (Pipeline.arrRef spec7) → V19 m ρ c b = V18 m ρ c b :=
  fun b hb => W19_of_ne m ρ c b fun w e => hb (Finset.mem_image.mpr ⟨w, Finset.mem_univ _, e⟩)
/-- After item 19, the host stretch hostOps8. -/
def W20 (c : Dev nD) : Valuation τ sig (Elt F) := StableHlo.after hostOps8 (W19 m ρ c)
theorem W20_eq (c : Dev nD) : W20 m ρ c = StableHlo.after hostOps8 (W19 m ρ c) := rfl
abbrev V20 : (c : Dev nD) → (b : Ref sig .tc) → Buf (Elt F) ((c : Thread nD τ).loc b) := fun c b => W20 m ρ c b
theorem W20_keep (c : Dev nD) (r : Ref sig .tc) (h : r ∉ hostOps8_W) : W20 m ρ c (Proc.devRef .tc r) = W19 m ρ c (Proc.devRef .tc r) := by
  rw [W20_eq]; exact StableHlo.after_of_writes_sub hostOps8 _ hostOps8_writes h
/-- After item 20, the host stretch hostOps8_1. -/
def W21 (c : Dev nD) : Valuation τ sig (Elt F) := StableHlo.after hostOps8_1 (W20 m ρ c)
theorem W21_eq (c : Dev nD) : W21 m ρ c = StableHlo.after hostOps8_1 (W20 m ρ c) := rfl
abbrev V21 : (c : Dev nD) → (b : Ref sig .tc) → Buf (Elt F) ((c : Thread nD τ).loc b) := fun c b => W21 m ρ c b
theorem W21_keep (c : Dev nD) (r : Ref sig .tc) (h : r ∉ hostOps8_1_W) : W21 m ρ c (Proc.devRef .tc r) = W20 m ρ c (Proc.devRef .tc r) := by
  rw [W21_eq]; exact StableHlo.after_of_writes_sub hostOps8_1 _ hostOps8_1_writes h
/-- After item 21, the host stretch hostOps8_2. -/
def W22 (c : Dev nD) : Valuation τ sig (Elt F) := StableHlo.after hostOps8_2 (W21 m ρ c)
theorem W22_eq (c : Dev nD) : W22 m ρ c = StableHlo.after hostOps8_2 (W21 m ρ c) := rfl
abbrev V22 : (c : Dev nD) → (b : Ref sig .tc) → Buf (Elt F) ((c : Thread nD τ).loc b) := fun c b => W22 m ρ c b
theorem W22_keep (c : Dev nD) (r : Ref sig .tc) (h : r ∉ hostOps8_2_W) : W22 m ρ c (Proc.devRef .tc r) = W21 m ρ c (Proc.devRef .tc r) := by
  rw [W22_eq]; exact StableHlo.after_of_writes_sub hostOps8_2 _ hostOps8_2_writes h
/-- After item 22, the host stretch hostOps8_3. -/
def W23 (c : Dev nD) : Valuation τ sig (Elt F) := StableHlo.after hostOps8_3 (W22 m ρ c)
theorem W23_eq (c : Dev nD) : W23 m ρ c = StableHlo.after hostOps8_3 (W22 m ρ c) := rfl
abbrev V23 : (c : Dev nD) → (b : Ref sig .tc) → Buf (Elt F) ((c : Thread nD τ).loc b) := fun c b => W23 m ρ c b
theorem W23_keep (c : Dev nD) (r : Ref sig .tc) (h : r ∉ hostOps8_3_W) : W23 m ρ c (Proc.devRef .tc r) = W22 m ρ c (Proc.devRef .tc r) := by
  rw [W23_eq]; exact StableHlo.after_of_writes_sub hostOps8_3 _ hostOps8_3_writes h
/-- After item 23, the host stretch hostOps8_4. -/
def W24 (c : Dev nD) : Valuation τ sig (Elt F) := StableHlo.after hostOps8_4 (W23 m ρ c)
theorem W24_eq (c : Dev nD) : W24 m ρ c = StableHlo.after hostOps8_4 (W23 m ρ c) := rfl
abbrev V24 : (c : Dev nD) → (b : Ref sig .tc) → Buf (Elt F) ((c : Thread nD τ).loc b) := fun c b => W24 m ρ c b
theorem W24_keep (c : Dev nD) (r : Ref sig .tc) (h : r ∉ hostOps8_4_W) : W24 m ρ c (Proc.devRef .tc r) = W23 m ρ c (Proc.devRef .tc r) := by
  rw [W24_eq]; exact StableHlo.after_of_writes_sub hostOps8_4 _ hostOps8_4_writes h
/-- After item 24, region 8: its arrays at what the pipeline leaves, every other buffer as entered. -/
def W25 (c : Dev nD) : Valuation τ sig (Elt F) :=
  Pipeline.withArrays spec8 c (W24 m ρ c) fun w => (dat8 (V24 m ρ) c).arrAt w cfg8.N
theorem W25_arr (c : Dev nD) (w : Fin cfg8.W) :
    W25 m ρ c (Proc.devRef .tc (Pipeline.arrRef spec8 w)) = (dat8 (V24 m ρ) c).arrAt w cfg8.N := by
  unfold W25; exact Pipeline.withArrays_arr spec8 launch8.win.arr_inj c _ _ w
theorem W25_of_ne (c : Dev nD) (b : Ref sig .tc) (hb : ∀ w, Pipeline.arrRef spec8 w ≠ b) :
    W25 m ρ c (Proc.devRef .tc b) = W24 m ρ c (Proc.devRef .tc b) := by
  unfold W25; exact Pipeline.withArrays_of_ne spec8 c _ _ b hb
abbrev V25 : (c : Dev nD) → (b : Ref sig .tc) → Buf (Elt F) ((c : Thread nD τ).loc b) := fun c b => W25 m ρ c b
theorem hF8 (c : Dev nD) (w : Fin cfg8.W) : (dat8 (V24 m ρ) c).arrAt w cfg8.N = V25 m ρ c (Pipeline.arrRef spec8 w) :=
  (W25_arr m ρ c w).symm
theorem hrest8 (c : Dev nD) : ∀ b, b ∉ Finset.univ.image (Pipeline.arrRef spec8) → V25 m ρ c b = V24 m ρ c b :=
  fun b hb => W25_of_ne m ρ c b fun w e => hb (Finset.mem_image.mpr ⟨w, Finset.mem_univ _, e⟩)
/-- After item 25, the host stretch hostOps9. -/
def W26 (c : Dev nD) : Valuation τ sig (Elt F) := StableHlo.after hostOps9 (W25 m ρ c)
theorem W26_eq (c : Dev nD) : W26 m ρ c = StableHlo.after hostOps9 (W25 m ρ c) := rfl
abbrev V26 : (c : Dev nD) → (b : Ref sig .tc) → Buf (Elt F) ((c : Thread nD τ).loc b) := fun c b => W26 m ρ c b
theorem W26_keep (c : Dev nD) (r : Ref sig .tc) (h : r ∉ hostOps9_W) : W26 m ρ c (Proc.devRef .tc r) = W25 m ρ c (Proc.devRef .tc r) := by
  rw [W26_eq]; exact StableHlo.after_of_writes_sub hostOps9 _ hostOps9_writes h
/-- After item 26, region 9: its arrays at what the pipeline leaves, every other buffer as entered. -/
def W27 (c : Dev nD) : Valuation τ sig (Elt F) :=
  Pipeline.withArrays spec9 c (W26 m ρ c) fun w => (dat9 (V26 m ρ) c).arrAt w cfg9.N
theorem W27_arr (c : Dev nD) (w : Fin cfg9.W) :
    W27 m ρ c (Proc.devRef .tc (Pipeline.arrRef spec9 w)) = (dat9 (V26 m ρ) c).arrAt w cfg9.N := by
  unfold W27; exact Pipeline.withArrays_arr spec9 launch9.win.arr_inj c _ _ w
theorem W27_of_ne (c : Dev nD) (b : Ref sig .tc) (hb : ∀ w, Pipeline.arrRef spec9 w ≠ b) :
    W27 m ρ c (Proc.devRef .tc b) = W26 m ρ c (Proc.devRef .tc b) := by
  unfold W27; exact Pipeline.withArrays_of_ne spec9 c _ _ b hb
abbrev V27 : (c : Dev nD) → (b : Ref sig .tc) → Buf (Elt F) ((c : Thread nD τ).loc b) := fun c b => W27 m ρ c b
theorem hF9 (c : Dev nD) (w : Fin cfg9.W) : (dat9 (V26 m ρ) c).arrAt w cfg9.N = V27 m ρ c (Pipeline.arrRef spec9 w) :=
  (W27_arr m ρ c w).symm
theorem hrest9 (c : Dev nD) : ∀ b, b ∉ Finset.univ.image (Pipeline.arrRef spec9) → V27 m ρ c b = V26 m ρ c b :=
  fun b hb => W27_of_ne m ρ c b fun w e => hb (Finset.mem_image.mpr ⟨w, Finset.mem_univ _, e⟩)
/-- After item 27, the host stretch hostOps10. -/
def W28 (c : Dev nD) : Valuation τ sig (Elt F) := StableHlo.after hostOps10 (W27 m ρ c)
theorem W28_eq (c : Dev nD) : W28 m ρ c = StableHlo.after hostOps10 (W27 m ρ c) := rfl
abbrev V28 : (c : Dev nD) → (b : Ref sig .tc) → Buf (Elt F) ((c : Thread nD τ).loc b) := fun c b => W28 m ρ c b
theorem W28_keep (c : Dev nD) (r : Ref sig .tc) (h : r ∉ hostOps10_W) : W28 m ρ c (Proc.devRef .tc r) = W27 m ρ c (Proc.devRef .tc r) := by
  rw [W28_eq]; exact StableHlo.after_of_writes_sub hostOps10 _ hostOps10_writes h
/-- After item 28, region 10: its arrays at what the pipeline leaves, every other buffer as entered. -/
def W29 (c : Dev nD) : Valuation τ sig (Elt F) :=
  Pipeline.withArrays spec10 c (W28 m ρ c) fun w => (dat10 (V28 m ρ) c).arrAt w cfg10.N
theorem W29_arr (c : Dev nD) (w : Fin cfg10.W) :
    W29 m ρ c (Proc.devRef .tc (Pipeline.arrRef spec10 w)) = (dat10 (V28 m ρ) c).arrAt w cfg10.N := by
  unfold W29; exact Pipeline.withArrays_arr spec10 launch10.win.arr_inj c _ _ w
theorem W29_of_ne (c : Dev nD) (b : Ref sig .tc) (hb : ∀ w, Pipeline.arrRef spec10 w ≠ b) :
    W29 m ρ c (Proc.devRef .tc b) = W28 m ρ c (Proc.devRef .tc b) := by
  unfold W29; exact Pipeline.withArrays_of_ne spec10 c _ _ b hb
abbrev V29 : (c : Dev nD) → (b : Ref sig .tc) → Buf (Elt F) ((c : Thread nD τ).loc b) := fun c b => W29 m ρ c b
theorem hF10 (c : Dev nD) (w : Fin cfg10.W) : (dat10 (V28 m ρ) c).arrAt w cfg10.N = V29 m ρ c (Pipeline.arrRef spec10 w) :=
  (W29_arr m ρ c w).symm
theorem hrest10 (c : Dev nD) : ∀ b, b ∉ Finset.univ.image (Pipeline.arrRef spec10) → V29 m ρ c b = V28 m ρ c b :=
  fun b hb => W29_of_ne m ρ c b fun w e => hb (Finset.mem_image.mpr ⟨w, Finset.mem_univ _, e⟩)
/-- After item 29, the host stretch hostOps11. -/
def W30 (c : Dev nD) : Valuation τ sig (Elt F) := StableHlo.after hostOps11 (W29 m ρ c)
theorem W30_eq (c : Dev nD) : W30 m ρ c = StableHlo.after hostOps11 (W29 m ρ c) := rfl
abbrev V30 : (c : Dev nD) → (b : Ref sig .tc) → Buf (Elt F) ((c : Thread nD τ).loc b) := fun c b => W30 m ρ c b
theorem W30_keep (c : Dev nD) (r : Ref sig .tc) (h : r ∉ hostOps11_W) : W30 m ρ c (Proc.devRef .tc r) = W29 m ρ c (Proc.devRef .tc r) := by
  rw [W30_eq]; exact StableHlo.after_of_writes_sub hostOps11 _ hostOps11_writes h
/-- After item 30, region 11: its arrays at what the pipeline leaves, every other buffer as entered. -/
def W31 (c : Dev nD) : Valuation τ sig (Elt F) :=
  Pipeline.withArrays spec11 c (W30 m ρ c) fun w => (dat11 (V30 m ρ) c).arrAt w cfg11.N
theorem W31_arr (c : Dev nD) (w : Fin cfg11.W) :
    W31 m ρ c (Proc.devRef .tc (Pipeline.arrRef spec11 w)) = (dat11 (V30 m ρ) c).arrAt w cfg11.N := by
  unfold W31; exact Pipeline.withArrays_arr spec11 launch11.win.arr_inj c _ _ w
theorem W31_of_ne (c : Dev nD) (b : Ref sig .tc) (hb : ∀ w, Pipeline.arrRef spec11 w ≠ b) :
    W31 m ρ c (Proc.devRef .tc b) = W30 m ρ c (Proc.devRef .tc b) := by
  unfold W31; exact Pipeline.withArrays_of_ne spec11 c _ _ b hb
abbrev V31 : (c : Dev nD) → (b : Ref sig .tc) → Buf (Elt F) ((c : Thread nD τ).loc b) := fun c b => W31 m ρ c b
theorem hF11 (c : Dev nD) (w : Fin cfg11.W) : (dat11 (V30 m ρ) c).arrAt w cfg11.N = V31 m ρ c (Pipeline.arrRef spec11 w) :=
  (W31_arr m ρ c w).symm
theorem hrest11 (c : Dev nD) : ∀ b, b ∉ Finset.univ.image (Pipeline.arrRef spec11) → V31 m ρ c b = V30 m ρ c b :=
  fun b hb => W31_of_ne m ρ c b fun w e => hb (Finset.mem_image.mpr ⟨w, Finset.mem_univ _, e⟩)
/-- After item 31, the host stretch hostOps12. -/
def W32 (c : Dev nD) : Valuation τ sig (Elt F) := StableHlo.after hostOps12 (W31 m ρ c)
theorem W32_eq (c : Dev nD) : W32 m ρ c = StableHlo.after hostOps12 (W31 m ρ c) := rfl
abbrev V32 : (c : Dev nD) → (b : Ref sig .tc) → Buf (Elt F) ((c : Thread nD τ).loc b) := fun c b => W32 m ρ c b
theorem W32_keep (c : Dev nD) (r : Ref sig .tc) (h : r ∉ hostOps12_W) : W32 m ρ c (Proc.devRef .tc r) = W31 m ρ c (Proc.devRef .tc r) := by
  rw [W32_eq]; exact StableHlo.after_of_writes_sub hostOps12 _ hostOps12_writes h
/-- After item 32, region 12: its arrays at what the pipeline leaves, every other buffer as entered. -/
def W33 (c : Dev nD) : Valuation τ sig (Elt F) :=
  Pipeline.withArrays spec12 c (W32 m ρ c) fun w => (dat12 (V32 m ρ) c).arrAt w cfg12.N
theorem W33_arr (c : Dev nD) (w : Fin cfg12.W) :
    W33 m ρ c (Proc.devRef .tc (Pipeline.arrRef spec12 w)) = (dat12 (V32 m ρ) c).arrAt w cfg12.N := by
  unfold W33; exact Pipeline.withArrays_arr spec12 launch12.win.arr_inj c _ _ w
theorem W33_of_ne (c : Dev nD) (b : Ref sig .tc) (hb : ∀ w, Pipeline.arrRef spec12 w ≠ b) :
    W33 m ρ c (Proc.devRef .tc b) = W32 m ρ c (Proc.devRef .tc b) := by
  unfold W33; exact Pipeline.withArrays_of_ne spec12 c _ _ b hb
abbrev V33 : (c : Dev nD) → (b : Ref sig .tc) → Buf (Elt F) ((c : Thread nD τ).loc b) := fun c b => W33 m ρ c b
theorem hF12 (c : Dev nD) (w : Fin cfg12.W) : (dat12 (V32 m ρ) c).arrAt w cfg12.N = V33 m ρ c (Pipeline.arrRef spec12 w) :=
  (W33_arr m ρ c w).symm
theorem hrest12 (c : Dev nD) : ∀ b, b ∉ Finset.univ.image (Pipeline.arrRef spec12) → V33 m ρ c b = V32 m ρ c b :=
  fun b hb => W33_of_ne m ρ c b fun w e => hb (Finset.mem_image.mpr ⟨w, Finset.mem_univ _, e⟩)
/-- After item 33, the host stretch hostOps13. -/
def W34 (c : Dev nD) : Valuation τ sig (Elt F) := StableHlo.after hostOps13 (W33 m ρ c)
theorem W34_eq (c : Dev nD) : W34 m ρ c = StableHlo.after hostOps13 (W33 m ρ c) := rfl
abbrev V34 : (c : Dev nD) → (b : Ref sig .tc) → Buf (Elt F) ((c : Thread nD τ).loc b) := fun c b => W34 m ρ c b
theorem W34_keep (c : Dev nD) (r : Ref sig .tc) (h : r ∉ hostOps13_W) : W34 m ρ c (Proc.devRef .tc r) = W33 m ρ c (Proc.devRef .tc r) := by
  rw [W34_eq]; exact StableHlo.after_of_writes_sub hostOps13 _ hostOps13_writes h

/-! ## The proof data family and what rides beside the buffers -/

/-- No pipeline has a prefetched table. -/
abbrev adm : (p : Fin 13) → (pcfgs (F := F) p).Adm := fun p => (cfgs p).toPCfg_adm
/-- Every pipeline's proof data, each at its region's entry contents. -/
def pdats : (p : Fin 13) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
  | ⟨4, _⟩ => fun c => dat4 (V12 m ρ) c
  | ⟨5, _⟩ => fun c => dat5 (V14 m ρ) c
  | ⟨6, _⟩ => fun c => dat6 (V16 m ρ) c
  | ⟨7, _⟩ => fun c => dat7 (V18 m ρ) c
  | ⟨8, _⟩ => fun c => dat8 (V24 m ρ) c
  | ⟨9, _⟩ => fun c => dat9 (V26 m ρ) c
  | ⟨10, _⟩ => fun c => dat10 (V28 m ρ) c
  | ⟨11, _⟩ => fun c => dat11 (V30 m ρ) c
  | ⟨12, _⟩ => fun c => dat12 (V32 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator register at some state. -/
abbrev Tₙ (c : Dev nD) : sProp 𝕄 := iprop(StableHlo.held (c : Thread nD τ) (Pipeline.ucRefs τ sig) (W34 m ρ c) ∗ ∃ r, prngReg c r)

end Cert.Kernel.Frame

end
-- ==== Proof.K.Reg0.lean ====
/-
  Region 0 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.K.Folds

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.Reg1.lean ====
/-
  Region 1 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.K.Folds

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.Reg2.lean ====
/-
  Region 2 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.K.Folds

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.Reg3.lean ====
/-
  Region 3 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.K.Folds

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.Reg4.lean ====
/-
  Region 4 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.K.Folds

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m ρ) c).loose
  hwaits := Pipeline.hwaits_of_owed_zero _ _ _ _ L lv 4 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec4 c (V12 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V12 m ρ c) (V13 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.Reg5.lean ====
/-
  Region 5 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.K.Folds

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V14 m ρ) c).loose
  hwaits := Pipeline.hwaits_of_owed_zero _ _ _ _ L lv 5 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec5 c (V14 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V14 m ρ c) (V15 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.Reg6.lean ====
/-
  Region 6 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.K.Folds

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V16 m ρ) c).loose
  hwaits := Pipeline.hwaits_of_owed_zero _ _ _ _ L lv 6 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec6 c (V16 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V16 m ρ c) (V17 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.Reg7.lean ====
/-
  Region 7 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.K.Folds

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V18 m ρ) c).loose
  hwaits := Pipeline.hwaits_of_owed_zero _ _ _ _ L lv 7 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec7 c (V18 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V18 m ρ c) (V19 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.Reg8.lean ====
/-
  Region 8 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.K.Folds

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V24 m ρ) c).loose
  hwaits := Pipeline.hwaits_of_owed_zero _ _ _ _ L lv 8 fun _ _ => rfl
  pre c := iprop(StableHlo.held (c : Thread nD τ) (Pipeline.ucRefs τ sig) (W24 m ρ c) ∗ R c)
  post c := iprop(StableHlo.held (c : Thread nD τ) (Pipeline.ucRefs τ sig) (W25 m ρ c) ∗ R c)
  X c := iprop(∃ r, prngReg c r)
  Y c := iprop(∃ r, prngReg c r)
  Z c := Pipeline.unscopedRest (Ix := Unit) (Name := ℕ) (U := UR sig nD τ) (Lvl := ℕ) spec8 c (V24 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V24 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V24 m ρ c) (V25 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.Reg9.lean ====
/-
  Region 9 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.K.Folds

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V26 m ρ) c).loose
  hwaits := Pipeline.hwaits_of_owed_zero _ _ _ _ L lv 9 fun _ _ => rfl
  pre c := iprop(StableHlo.held (c : Thread nD τ) (Pipeline.ucRefs τ sig) (W26 m ρ c) ∗ R c)
  post c := iprop(StableHlo.held (c : Thread nD τ) (Pipeline.ucRefs τ sig) (W27 m ρ c) ∗ R c)
  X c := iprop(∃ r, prngReg c r)
  Y c := iprop(∃ r, prngReg c r)
  Z c := Pipeline.unscopedRest (Ix := Unit) (Name := ℕ) (U := UR sig nD τ) (Lvl := ℕ) spec9 c (V26 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V26 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V26 m ρ c) (V27 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.Reg10.lean ====
/-
  Region 10 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.K.Folds

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V28 m ρ) c).loose
  hwaits := Pipeline.hwaits_of_owed_zero _ _ _ _ L lv 10 fun _ _ => rfl
  pre c := iprop(StableHlo.held (c : Thread nD τ) (Pipeline.ucRefs τ sig) (W28 m ρ c) ∗ R c)
  post c := iprop(StableHlo.held (c : Thread nD τ) (Pipeline.ucRefs τ sig) (W29 m ρ c) ∗ R c)
  X c := iprop(∃ r, prngReg c r)
  Y c := iprop(∃ r, prngReg c r)
  Z c := Pipeline.unscopedRest (Ix := Unit) (Name := ℕ) (U := UR sig nD τ) (Lvl := ℕ) spec10 c (V28 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V28 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V28 m ρ c) (V29 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.Reg11.lean ====
/-
  Region 11 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.K.Folds

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V30 m ρ) c).loose
  hwaits := Pipeline.hwaits_of_owed_zero _ _ _ _ L lv 11 fun _ _ => rfl
  pre c := iprop(StableHlo.held (c : Thread nD τ) (Pipeline.ucRefs τ sig) (W30 m ρ c) ∗ R c)
  post c := iprop(StableHlo.held (c : Thread nD τ) (Pipeline.ucRefs τ sig) (W31 m ρ c) ∗ R c)
  X c := iprop(∃ r, prngReg c r)
  Y c := iprop(∃ r, prngReg c r)
  Z c := Pipeline.unscopedRest (Ix := Unit) (Name := ℕ) (U := UR sig nD τ) (Lvl := ℕ) spec11 c (V30 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V30 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V30 m ρ c) (V31 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.Reg12.lean ====
/-
  Region 12 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.K.Folds

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V32 m ρ) c).loose
  hwaits := Pipeline.hwaits_of_owed_zero _ _ _ _ L lv 12 fun _ _ => rfl
  pre c := iprop(StableHlo.held (c : Thread nD τ) (Pipeline.ucRefs τ sig) (W32 m ρ c) ∗ R c)
  post c := iprop(StableHlo.held (c : Thread nD τ) (Pipeline.ucRefs τ sig) (W33 m ρ c) ∗ R c)
  X c := iprop(∃ r, prngReg c r)
  Y c := iprop(∃ r, prngReg c r)
  Z c := Pipeline.unscopedRest (Ix := Unit) (Name := ℕ) (U := UR sig nD τ) (Lvl := ℕ) spec12 c (V32 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V32 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V32 m ρ c) (V33 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Frame

end
-- ==== Proof.K.Run.lean ====
/-
  The run of the kernel program, at any float instance: @main is the chain of its 34 items (21 stretches of host operations,
  13 kernel regions); each is a segment over the thread state "every unscoped buffer of the core at the boundary's contents,
  the generator register at some state, nothing owed", and consecutive segments agree on the boundary between them. So every
  weakly fair execution from a memory with zero counters terminates without a fault, and at the end every unscoped buffer of
  every core holds the last boundary's contents `W34`.
-/
import proofs.«151172_j14164802142730_2_alg».proof.Proof.K.Reg0
import proofs.«151172_j14164802142730_2_alg».proof.Proof.K.Reg1
import proofs.«151172_j14164802142730_2_alg».proof.Proof.K.Reg2
import proofs.«151172_j14164802142730_2_alg».proof.Proof.K.Reg3
import proofs.«151172_j14164802142730_2_alg».proof.Proof.K.Reg4
import proofs.«151172_j14164802142730_2_alg».proof.Proof.K.Reg5
import proofs.«151172_j14164802142730_2_alg».proof.Proof.K.Reg6
import proofs.«151172_j14164802142730_2_alg».proof.Proof.K.Reg7
import proofs.«151172_j14164802142730_2_alg».proof.Proof.K.Reg8
import proofs.«151172_j14164802142730_2_alg».proof.Proof.K.Reg9
import proofs.«151172_j14164802142730_2_alg».proof.Proof.K.Reg10
import proofs.«151172_j14164802142730_2_alg».proof.Proof.K.Reg11
import proofs.«151172_j14164802142730_2_alg».proof.Proof.K.Reg12

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 34 segments in order. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .host (hseg hostOps4 hostOps4_sub hostOps4_fresh (W7 m ρ)),
    .host (hseg hostOps4_1 hostOps4_1_sub hostOps4_1_fresh (W8 m ρ)),
    .host (hseg hostOps4_2 hostOps4_2_sub hostOps4_2_fresh (W9 m ρ)),
    .host (hseg hostOps4_3 hostOps4_3_sub hostOps4_3_fresh (W10 m ρ)),
    .host (hseg hostOps4_4 hostOps4_4_sub hostOps4_4_fresh (W11 m ρ)),
    .region (reg4 m ρ),
    .host (hseg hostOps5 hostOps5_sub hostOps5_fresh (W13 m ρ)),
    .region (reg5 m ρ),
    .host (hseg hostOps6 hostOps6_sub hostOps6_fresh (W15 m ρ)),
    .region (reg6 m ρ),
    .host (hseg hostOps7 hostOps7_sub hostOps7_fresh (W17 m ρ)),
    .region (reg7 m ρ),
    .host (hseg hostOps8 hostOps8_sub hostOps8_fresh (W19 m ρ)),
    .host (hseg hostOps8_1 hostOps8_1_sub hostOps8_1_fresh (W20 m ρ)),
    .host (hseg hostOps8_2 hostOps8_2_sub hostOps8_2_fresh (W21 m ρ)),
    .host (hseg hostOps8_3 hostOps8_3_sub hostOps8_3_fresh (W22 m ρ)),
    .host (hseg hostOps8_4 hostOps8_4_sub hostOps8_4_fresh (W23 m ρ)),
    .region (reg8 m ρ),
    .host (hseg hostOps9 hostOps9_sub hostOps9_fresh (W25 m ρ)),
    .region (reg9 m ρ),
    .host (hseg hostOps10 hostOps10_sub hostOps10_fresh (W27 m ρ)),
    .region (reg10 m ρ),
    .host (hseg hostOps11 hostOps11_sub hostOps11_fresh (W29 m ρ)),
    .region (reg11 m ρ),
    .host (hseg hostOps12 hostOps12_sub hostOps12_fresh (W31 m ρ)),
    .region (reg12 m ρ),
    .host (hseg hostOps13 hostOps13_sub hostOps13_fresh (W33 m ρ)) ]

/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final state has each unscoped buffer of each core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W34 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W34 m ρ c) ∗ R c)
          ⊢ iprop(Tₙ m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m ρ c b)
    (hfin := fun c s' => by
      iintro ⟨⟨Hh, -⟩, HSI⟩
      unfold StableHlo.held
      imodintro
      iapply (pointsTo_read_all (Pipeline.ucRefs τ sig) (fun b => (((c : Thread nD τ)).1, b)) (W34 m ρ c) s')
      isplitl [Hh] <;> iassumption)
    (hQ := fun s h c => h c)

end Cert.Kernel.Frame

end
-- ==== Proof.K.Args.lean ====
/-
  No item of @main changes an argument array: no host stretch writes one, and a kernel region either does not touch it or
  reads it through an input window, whose array the pipeline leaves as it was entered. So at the last boundary each argument
  array still holds its launch contents.
-/
import proofs.«151172_j14164802142730_2_alg».proof.Proof.K.Folds

set_option maxRecDepth 16384

noncomputable section

namespace Cert.Kernel.Frame

open Cert.Kernel Cert.Kernel.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

theorem W34_main_arg0 (c : Dev nD) : W34 m ρ c (Proc.devRef .tc main_arg0) = m ((c : Thread nD τ).loc main_arg0) :=
  calc W34 m ρ c (Proc.devRef .tc main_arg0)
    _ = W33 m ρ c (Proc.devRef .tc main_arg0) := W34_keep m ρ c main_arg0 (by decide)
    _ = W32 m ρ c (Proc.devRef .tc main_arg0) := W33_of_ne m ρ c main_arg0 (by decide)
    _ = W31 m ρ c (Proc.devRef .tc main_arg0) := W32_keep m ρ c main_arg0 (by decide)
    _ = W30 m ρ c (Proc.devRef .tc main_arg0) := W31_of_ne m ρ c main_arg0 (by decide)
    _ = W29 m ρ c (Proc.devRef .tc main_arg0) := W30_keep m ρ c main_arg0 (by decide)
    _ = W28 m ρ c (Proc.devRef .tc main_arg0) := W29_of_ne m ρ c main_arg0 (by decide)
    _ = W27 m ρ c (Proc.devRef .tc main_arg0) := W28_keep m ρ c main_arg0 (by decide)
    _ = W26 m ρ c (Proc.devRef .tc main_arg0) := W27_of_ne m ρ c main_arg0 (by decide)
    _ = W25 m ρ c (Proc.devRef .tc main_arg0) := W26_keep m ρ c main_arg0 (by decide)
    _ = W24 m ρ c (Proc.devRef .tc main_arg0) := W25_of_ne m ρ c main_arg0 (by decide)
    _ = W23 m ρ c (Proc.devRef .tc main_arg0) := W24_keep m ρ c main_arg0 (by decide)
    _ = W22 m ρ c (Proc.devRef .tc main_arg0) := W23_keep m ρ c main_arg0 (by decide)
    _ = W21 m ρ c (Proc.devRef .tc main_arg0) := W22_keep m ρ c main_arg0 (by decide)
    _ = W20 m ρ c (Proc.devRef .tc main_arg0) := W21_keep m ρ c main_arg0 (by decide)
    _ = W19 m ρ c (Proc.devRef .tc main_arg0) := W20_keep m ρ c main_arg0 (by decide)
    _ = W18 m ρ c (Proc.devRef .tc main_arg0) := W19_of_ne m ρ c main_arg0 (by decide)
    _ = W17 m ρ c (Proc.devRef .tc main_arg0) := W18_keep m ρ c main_arg0 (by decide)
    _ = W16 m ρ c (Proc.devRef .tc main_arg0) := W17_of_ne m ρ c main_arg0 (by decide)
    _ = W15 m ρ c (Proc.devRef .tc main_arg0) := W16_keep m ρ c main_arg0 (by decide)
    _ = W14 m ρ c (Proc.devRef .tc main_arg0) := W15_of_ne m ρ c main_arg0 (by decide)
    _ = W13 m ρ c (Proc.devRef .tc main_arg0) := W14_keep m ρ c main_arg0 (by decide)
    _ = W12 m ρ c (Proc.devRef .tc main_arg0) := W13_of_ne m ρ c main_arg0 (by decide)
    _ = W11 m ρ c (Proc.devRef .tc main_arg0) := W12_keep m ρ c main_arg0 (by decide)
    _ = W10 m ρ c (Proc.devRef .tc main_arg0) := W11_keep m ρ c main_arg0 (by decide)
    _ = W9 m ρ c (Proc.devRef .tc main_arg0) := W10_keep m ρ c main_arg0 (by decide)
    _ = W8 m ρ c (Proc.devRef .tc main_arg0) := W9_keep m ρ c main_arg0 (by decide)
    _ = W7 m ρ c (Proc.devRef .tc main_arg0) := W8_keep m ρ c main_arg0 (by decide)
    _ = W6 m ρ c (Proc.devRef .tc main_arg0) := W7_of_ne m ρ c main_arg0 (by decide)
    _ = W5 m ρ c (Proc.devRef .tc main_arg0) := W6_keep m ρ c main_arg0 (by decide)
    _ = W4 m ρ c (Proc.devRef .tc main_arg0) := W5_of_ne m ρ c main_arg0 (by decide)
    _ = W3 m ρ c (Proc.devRef .tc main_arg0) := W4_keep m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_keep m ρ c main_arg0 (by decide)
    _ = m ((c : Thread nD τ).loc main_arg0) := rfl

theorem W34_main_arg1 (c : Dev nD) : W34 m ρ c (Proc.devRef .tc main_arg1) = m ((c : Thread nD τ).loc main_arg1) :=
  calc W34 m ρ c (Proc.devRef .tc main_arg1)
    _ = W33 m ρ c (Proc.devRef .tc main_arg1) := W34_keep m ρ c main_arg1 (by decide)
    _ = W32 m ρ c (Proc.devRef .tc main_arg1) := W33_of_ne m ρ c main_arg1 (by decide)
    _ = W31 m ρ c (Proc.devRef .tc main_arg1) := W32_keep m ρ c main_arg1 (by decide)
    _ = W30 m ρ c (Proc.devRef .tc main_arg1) := W31_of_ne m ρ c main_arg1 (by decide)
    _ = W29 m ρ c (Proc.devRef .tc main_arg1) := W30_keep m ρ c main_arg1 (by decide)
    _ = W28 m ρ c (Proc.devRef .tc main_arg1) := W29_of_ne m ρ c main_arg1 (by decide)
    _ = W27 m ρ c (Proc.devRef .tc main_arg1) := W28_keep m ρ c main_arg1 (by decide)
    _ = W26 m ρ c (Proc.devRef .tc main_arg1) := W27_of_ne m ρ c main_arg1 (by decide)
    _ = W25 m ρ c (Proc.devRef .tc main_arg1) := W26_keep m ρ c main_arg1 (by decide)
    _ = W24 m ρ c (Proc.devRef .tc main_arg1) := W25_of_ne m ρ c main_arg1 (by decide)
    _ = W23 m ρ c (Proc.devRef .tc main_arg1) := W24_keep m ρ c main_arg1 (by decide)
    _ = W22 m ρ c (Proc.devRef .tc main_arg1) := W23_keep m ρ c main_arg1 (by decide)
    _ = W21 m ρ c (Proc.devRef .tc main_arg1) := W22_keep m ρ c main_arg1 (by decide)
    _ = W20 m ρ c (Proc.devRef .tc main_arg1) := W21_keep m ρ c main_arg1 (by decide)
    _ = W19 m ρ c (Proc.devRef .tc main_arg1) := W20_keep m ρ c main_arg1 (by decide)
    _ = W18 m ρ c (Proc.devRef .tc main_arg1) := W19_of_ne m ρ c main_arg1 (by decide)
    _ = W17 m ρ c (Proc.devRef .tc main_arg1) := W18_keep m ρ c main_arg1 (by decide)
    _ = W16 m ρ c (Proc.devRef .tc main_arg1) := W17_of_ne m ρ c main_arg1 (by decide)
    _ = W15 m ρ c (Proc.devRef .tc main_arg1) := W16_keep m ρ c main_arg1 (by decide)
    _ = W14 m ρ c (Proc.devRef .tc main_arg1) := W15_of_ne m ρ c main_arg1 (by decide)
    _ = W13 m ρ c (Proc.devRef .tc main_arg1) := W14_keep m ρ c main_arg1 (by decide)
    _ = W12 m ρ c (Proc.devRef .tc main_arg1) := W13_of_ne m ρ c main_arg1 (by decide)
    _ = W11 m ρ c (Proc.devRef .tc main_arg1) := W12_keep m ρ c main_arg1 (by decide)
    _ = W10 m ρ c (Proc.devRef .tc main_arg1) := W11_keep m ρ c main_arg1 (by decide)
    _ = W9 m ρ c (Proc.devRef .tc main_arg1) := W10_keep m ρ c main_arg1 (by decide)
    _ = W8 m ρ c (Proc.devRef .tc main_arg1) := W9_keep m ρ c main_arg1 (by decide)
    _ = W7 m ρ c (Proc.devRef .tc main_arg1) := W8_keep m ρ c main_arg1 (by decide)
    _ = W6 m ρ c (Proc.devRef .tc main_arg1) := W7_of_ne m ρ c main_arg1 (by decide)
    _ = W5 m ρ c (Proc.devRef .tc main_arg1) := W6_keep m ρ c main_arg1 (by decide)
    _ = W4 m ρ c (Proc.devRef .tc main_arg1) := W5_of_ne m ρ c main_arg1 (by decide)
    _ = W3 m ρ c (Proc.devRef .tc main_arg1) := W4_keep m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl

theorem W34_main_arg2 (c : Dev nD) : W34 m ρ c (Proc.devRef .tc main_arg2) = m ((c : Thread nD τ).loc main_arg2) :=
  calc W34 m ρ c (Proc.devRef .tc main_arg2)
    _ = W33 m ρ c (Proc.devRef .tc main_arg2) := W34_keep m ρ c main_arg2 (by decide)
    _ = W32 m ρ c (Proc.devRef .tc main_arg2) := W33_of_ne m ρ c main_arg2 (by decide)
    _ = W31 m ρ c (Proc.devRef .tc main_arg2) := W32_keep m ρ c main_arg2 (by decide)
    _ = W30 m ρ c (Proc.devRef .tc main_arg2) := W31_of_ne m ρ c main_arg2 (by decide)
    _ = W29 m ρ c (Proc.devRef .tc main_arg2) := W30_keep m ρ c main_arg2 (by decide)
    _ = W28 m ρ c (Proc.devRef .tc main_arg2) := W29_of_ne m ρ c main_arg2 (by decide)
    _ = W27 m ρ c (Proc.devRef .tc main_arg2) := W28_keep m ρ c main_arg2 (by decide)
    _ = W26 m ρ c (Proc.devRef .tc main_arg2) := W27_of_ne m ρ c main_arg2 (by decide)
    _ = W25 m ρ c (Proc.devRef .tc main_arg2) := W26_keep m ρ c main_arg2 (by decide)
    _ = W24 m ρ c (Proc.devRef .tc main_arg2) := W25_of_ne m ρ c main_arg2 (by decide)
    _ = W23 m ρ c (Proc.devRef .tc main_arg2) := W24_keep m ρ c main_arg2 (by decide)
    _ = W22 m ρ c (Proc.devRef .tc main_arg2) := W23_keep m ρ c main_arg2 (by decide)
    _ = W21 m ρ c (Proc.devRef .tc main_arg2) := W22_keep m ρ c main_arg2 (by decide)
    _ = W20 m ρ c (Proc.devRef .tc main_arg2) := W21_keep m ρ c main_arg2 (by decide)
    _ = W19 m ρ c (Proc.devRef .tc main_arg2) := W20_keep m ρ c main_arg2 (by decide)
    _ = W18 m ρ c (Proc.devRef .tc main_arg2) := W19_of_ne m ρ c main_arg2 (by decide)
    _ = W17 m ρ c (Proc.devRef .tc main_arg2) := W18_keep m ρ c main_arg2 (by decide)
    _ = W16 m ρ c (Proc.devRef .tc main_arg2) := W17_of_ne m ρ c main_arg2 (by decide)
    _ = W15 m ρ c (Proc.devRef .tc main_arg2) := W16_keep m ρ c main_arg2 (by decide)
    _ = W14 m ρ c (Proc.devRef .tc main_arg2) := W15_of_ne m ρ c main_arg2 (by decide)
    _ = W13 m ρ c (Proc.devRef .tc main_arg2) := W14_keep m ρ c main_arg2 (by decide)
    _ = W12 m ρ c (Proc.devRef .tc main_arg2) := W13_of_ne m ρ c main_arg2 (by decide)
    _ = W11 m ρ c (Proc.devRef .tc main_arg2) := W12_keep m ρ c main_arg2 (by decide)
    _ = W10 m ρ c (Proc.devRef .tc main_arg2) := W11_keep m ρ c main_arg2 (by decide)
    _ = W9 m ρ c (Proc.devRef .tc main_arg2) := W10_keep m ρ c main_arg2 (by decide)
    _ = W8 m ρ c (Proc.devRef .tc main_arg2) := W9_keep m ρ c main_arg2 (by decide)
    _ = W7 m ρ c (Proc.devRef .tc main_arg2) := W8_keep m ρ c main_arg2 (by decide)
    _ = W6 m ρ c (Proc.devRef .tc main_arg2) := W7_of_ne m ρ c main_arg2 (by decide)
    _ = W5 m ρ c (Proc.devRef .tc main_arg2) := W6_keep m ρ c main_arg2 (by decide)
    _ = W4 m ρ c (Proc.devRef .tc main_arg2) := W5_of_ne m ρ c main_arg2 (by decide)
    _ = W3 m ρ c (Proc.devRef .tc main_arg2) := W4_keep m ρ c main_arg2 (by decide)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_keep m ρ c main_arg2 (by decide)
    _ = m ((c : Thread nD τ).loc main_arg2) := rfl

theorem W34_main_arg3 (c : Dev nD) : W34 m ρ c (Proc.devRef .tc main_arg3) = m ((c : Thread nD τ).loc main_arg3) :=
  calc W34 m ρ c (Proc.devRef .tc main_arg3)
    _ = W33 m ρ c (Proc.devRef .tc main_arg3) := W34_keep m ρ c main_arg3 (by decide)
    _ = W32 m ρ c (Proc.devRef .tc main_arg3) := W33_of_ne m ρ c main_arg3 (by decide)
    _ = W31 m ρ c (Proc.devRef .tc main_arg3) := W32_keep m ρ c main_arg3 (by decide)
    _ = W30 m ρ c (Proc.devRef .tc main_arg3) := W31_of_ne m ρ c main_arg3 (by decide)
    _ = W29 m ρ c (Proc.devRef .tc main_arg3) := W30_keep m ρ c main_arg3 (by decide)
    _ = W28 m ρ c (Proc.devRef .tc main_arg3) := W29_of_ne m ρ c main_arg3 (by decide)
    _ = W27 m ρ c (Proc.devRef .tc main_arg3) := W28_keep m ρ c main_arg3 (by decide)
    _ = W26 m ρ c (Proc.devRef .tc main_arg3) := W27_of_ne m ρ c main_arg3 (by decide)
    _ = W25 m ρ c (Proc.devRef .tc main_arg3) := W26_keep m ρ c main_arg3 (by decide)
    _ = W24 m ρ c (Proc.devRef .tc main_arg3) := W25_of_ne m ρ c main_arg3 (by decide)
    _ = W23 m ρ c (Proc.devRef .tc main_arg3) := W24_keep m ρ c main_arg3 (by decide)
    _ = W22 m ρ c (Proc.devRef .tc main_arg3) := W23_keep m ρ c main_arg3 (by decide)
    _ = W21 m ρ c (Proc.devRef .tc main_arg3) := W22_keep m ρ c main_arg3 (by decide)
    _ = W20 m ρ c (Proc.devRef .tc main_arg3) := W21_keep m ρ c main_arg3 (by decide)
    _ = W19 m ρ c (Proc.devRef .tc main_arg3) := W20_keep m ρ c main_arg3 (by decide)
    _ = W18 m ρ c (Proc.devRef .tc main_arg3) := W19_of_ne m ρ c main_arg3 (by decide)
    _ = W17 m ρ c (Proc.devRef .tc main_arg3) := W18_keep m ρ c main_arg3 (by decide)
    _ = W16 m ρ c (Proc.devRef .tc main_arg3) := W17_of_ne m ρ c main_arg3 (by decide)
    _ = W15 m ρ c (Proc.devRef .tc main_arg3) := W16_keep m ρ c main_arg3 (by decide)
    _ = W14 m ρ c (Proc.devRef .tc main_arg3) := W15_of_ne m ρ c main_arg3 (by decide)
    _ = W13 m ρ c (Proc.devRef .tc main_arg3) := W14_keep m ρ c main_arg3 (by decide)
    _ = W12 m ρ c (Proc.devRef .tc main_arg3) := W13_of_ne m ρ c main_arg3 (by decide)
    _ = W11 m ρ c (Proc.devRef .tc main_arg3) := W12_keep m ρ c main_arg3 (by decide)
    _ = W10 m ρ c (Proc.devRef .tc main_arg3) := W11_keep m ρ c main_arg3 (by decide)
    _ = W9 m ρ c (Proc.devRef .tc main_arg3) := W10_keep m ρ c main_arg3 (by decide)
    _ = W8 m ρ c (Proc.devRef .tc main_arg3) := W9_keep m ρ c main_arg3 (by decide)
    _ = W7 m ρ c (Proc.devRef .tc main_arg3) := W8_keep m ρ c main_arg3 (by decide)
    _ = W6 m ρ c (Proc.devRef .tc main_arg3) := W7_of_ne m ρ c main_arg3 (by decide)
    _ = W5 m ρ c (Proc.devRef .tc main_arg3) := W6_keep m ρ c main_arg3 (by decide)
    _ = W4 m ρ c (Proc.devRef .tc main_arg3) := W5_of_ne m ρ c main_arg3 (by decide)
    _ = W3 m ρ c (Proc.devRef .tc main_arg3) := W4_keep m ρ c main_arg3 (by decide)
    _ = W2 m ρ c (Proc.devRef .tc main_arg3) := W3_of_ne m ρ c main_arg3 (by decide)
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := W1_keep m ρ c main_arg3 (by decide)
    _ = m ((c : Thread nD τ).loc main_arg3) := rfl

theorem W34_main_arg4 (c : Dev nD) : W34 m ρ c (Proc.devRef .tc main_arg4) = m ((c : Thread nD τ).loc main_arg4) :=
  calc W34 m ρ c (Proc.devRef .tc main_arg4)
    _ = W33 m ρ c (Proc.devRef .tc main_arg4) := W34_keep m ρ c main_arg4 (by decide)
    _ = W32 m ρ c (Proc.devRef .tc main_arg4) := W33_of_ne m ρ c main_arg4 (by decide)
    _ = W31 m ρ c (Proc.devRef .tc main_arg4) := W32_keep m ρ c main_arg4 (by decide)
    _ = W30 m ρ c (Proc.devRef .tc main_arg4) := W31_of_ne m ρ c main_arg4 (by decide)
    _ = W29 m ρ c (Proc.devRef .tc main_arg4) := W30_keep m ρ c main_arg4 (by decide)
    _ = W28 m ρ c (Proc.devRef .tc main_arg4) := W29_of_ne m ρ c main_arg4 (by decide)
    _ = W27 m ρ c (Proc.devRef .tc main_arg4) := W28_keep m ρ c main_arg4 (by decide)
    _ = W26 m ρ c (Proc.devRef .tc main_arg4) := W27_of_ne m ρ c main_arg4 (by decide)
    _ = W25 m ρ c (Proc.devRef .tc main_arg4) := W26_keep m ρ c main_arg4 (by decide)
    _ = W24 m ρ c (Proc.devRef .tc main_arg4) := W25_of_ne m ρ c main_arg4 (by decide)
    _ = W23 m ρ c (Proc.devRef .tc main_arg4) := W24_keep m ρ c main_arg4 (by decide)
    _ = W22 m ρ c (Proc.devRef .tc main_arg4) := W23_keep m ρ c main_arg4 (by decide)
    _ = W21 m ρ c (Proc.devRef .tc main_arg4) := W22_keep m ρ c main_arg4 (by decide)
    _ = W20 m ρ c (Proc.devRef .tc main_arg4) := W21_keep m ρ c main_arg4 (by decide)
    _ = W19 m ρ c (Proc.devRef .tc main_arg4) := W20_keep m ρ c main_arg4 (by decide)
    _ = W18 m ρ c (Proc.devRef .tc main_arg4) := W19_of_ne m ρ c main_arg4 (by decide)
    _ = W17 m ρ c (Proc.devRef .tc main_arg4) := W18_keep m ρ c main_arg4 (by decide)
    _ = W16 m ρ c (Proc.devRef .tc main_arg4) := W17_of_ne m ρ c main_arg4 (by decide)
    _ = W15 m ρ c (Proc.devRef .tc main_arg4) := W16_keep m ρ c main_arg4 (by decide)
    _ = W14 m ρ c (Proc.devRef .tc main_arg4) := W15_of_ne m ρ c main_arg4 (by decide)
    _ = W13 m ρ c (Proc.devRef .tc main_arg4) := W14_keep m ρ c main_arg4 (by decide)
    _ = W12 m ρ c (Proc.devRef .tc main_arg4) := W13_of_ne m ρ c main_arg4 (by decide)
    _ = W11 m ρ c (Proc.devRef .tc main_arg4) := W12_keep m ρ c main_arg4 (by decide)
    _ = W10 m ρ c (Proc.devRef .tc main_arg4) := W11_keep m ρ c main_arg4 (by decide)
    _ = W9 m ρ c (Proc.devRef .tc main_arg4) := W10_keep m ρ c main_arg4 (by decide)
    _ = W8 m ρ c (Proc.devRef .tc main_arg4) := W9_keep m ρ c main_arg4 (by decide)
    _ = W7 m ρ c (Proc.devRef .tc main_arg4) := W8_keep m ρ c main_arg4 (by decide)
    _ = W6 m ρ c (Proc.devRef .tc main_arg4) := W7_of_ne m ρ c main_arg4 (by decide)
    _ = W5 m ρ c (Proc.devRef .tc main_arg4) := W6_keep m ρ c main_arg4 (by decide)
    _ = W4 m ρ c (Proc.devRef .tc main_arg4) := W5_of_ne m ρ c main_arg4 (by decide)
    _ = W3 m ρ c (Proc.devRef .tc main_arg4) := W4_keep m ρ c main_arg4 (by decide)
    _ = W2 m ρ c (Proc.devRef .tc main_arg4) := (W3_arr m ρ c 1).trans (((dat1 (V2 m ρ) c).arrAt_in 1 rfl _).trans (A_eq1 (V2 m ρ) c 1))
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

theorem W34_main_arg5 (c : Dev nD) : W34 m ρ c (Proc.devRef .tc main_arg5) = m ((c : Thread nD τ).loc main_arg5) :=
  calc W34 m ρ c (Proc.devRef .tc main_arg5)
    _ = W33 m ρ c (Proc.devRef .tc main_arg5) := W34_keep m ρ c main_arg5 (by decide)
    _ = W32 m ρ c (Proc.devRef .tc main_arg5) := W33_of_ne m ρ c main_arg5 (by decide)
    _ = W31 m ρ c (Proc.devRef .tc main_arg5) := W32_keep m ρ c main_arg5 (by decide)
    _ = W30 m ρ c (Proc.devRef .tc main_arg5) := W31_of_ne m ρ c main_arg5 (by decide)
    _ = W29 m ρ c (Proc.devRef .tc main_arg5) := W30_keep m ρ c main_arg5 (by decide)
    _ = W28 m ρ c (Proc.devRef .tc main_arg5) := W29_of_ne m ρ c main_arg5 (by decide)
    _ = W27 m ρ c (Proc.devRef .tc main_arg5) := W28_keep m ρ c main_arg5 (by decide)
    _ = W26 m ρ c (Proc.devRef .tc main_arg5) := W27_of_ne m ρ c main_arg5 (by decide)
    _ = W25 m ρ c (Proc.devRef .tc main_arg5) := W26_keep m ρ c main_arg5 (by decide)
    _ = W24 m ρ c (Proc.devRef .tc main_arg5) := W25_of_ne m ρ c main_arg5 (by decide)
    _ = W23 m ρ c (Proc.devRef .tc main_arg5) := W24_keep m ρ c main_arg5 (by decide)
    _ = W22 m ρ c (Proc.devRef .tc main_arg5) := W23_keep m ρ c main_arg5 (by decide)
    _ = W21 m ρ c (Proc.devRef .tc main_arg5) := W22_keep m ρ c main_arg5 (by decide)
    _ = W20 m ρ c (Proc.devRef .tc main_arg5) := W21_keep m ρ c main_arg5 (by decide)
    _ = W19 m ρ c (Proc.devRef .tc main_arg5) := W20_keep m ρ c main_arg5 (by decide)
    _ = W18 m ρ c (Proc.devRef .tc main_arg5) := W19_of_ne m ρ c main_arg5 (by decide)
    _ = W17 m ρ c (Proc.devRef .tc main_arg5) := W18_keep m ρ c main_arg5 (by decide)
    _ = W16 m ρ c (Proc.devRef .tc main_arg5) := W17_of_ne m ρ c main_arg5 (by decide)
    _ = W15 m ρ c (Proc.devRef .tc main_arg5) := W16_keep m ρ c main_arg5 (by decide)
    _ = W14 m ρ c (Proc.devRef .tc main_arg5) := W15_of_ne m ρ c main_arg5 (by decide)
    _ = W13 m ρ c (Proc.devRef .tc main_arg5) := W14_keep m ρ c main_arg5 (by decide)
    _ = W12 m ρ c (Proc.devRef .tc main_arg5) := W13_of_ne m ρ c main_arg5 (by decide)
    _ = W11 m ρ c (Proc.devRef .tc main_arg5) := W12_keep m ρ c main_arg5 (by decide)
    _ = W10 m ρ c (Proc.devRef .tc main_arg5) := W11_keep m ρ c main_arg5 (by decide)
    _ = W9 m ρ c (Proc.devRef .tc main_arg5) := W10_keep m ρ c main_arg5 (by decide)
    _ = W8 m ρ c (Proc.devRef .tc main_arg5) := W9_keep m ρ c main_arg5 (by decide)
    _ = W7 m ρ c (Proc.devRef .tc main_arg5) := W8_keep m ρ c main_arg5 (by decide)
    _ = W6 m ρ c (Proc.devRef .tc main_arg5) := W7_of_ne m ρ c main_arg5 (by decide)
    _ = W5 m ρ c (Proc.devRef .tc main_arg5) := W6_keep m ρ c main_arg5 (by decide)
    _ = W4 m ρ c (Proc.devRef .tc main_arg5) := W5_of_ne m ρ c main_arg5 (by decide)
    _ = W3 m ρ c (Proc.devRef .tc main_arg5) := W4_keep m ρ c main_arg5 (by decide)
    _ = W2 m ρ c (Proc.devRef .tc main_arg5) := (W3_arr m ρ c 2).trans (((dat1 (V2 m ρ) c).arrAt_in 2 rfl _).trans (A_eq1 (V2 m ρ) c 2))
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl

theorem W34_main_arg6 (c : Dev nD) : W34 m ρ c (Proc.devRef .tc main_arg6) = m ((c : Thread nD τ).loc main_arg6) :=
  calc W34 m ρ c (Proc.devRef .tc main_arg6)
    _ = W33 m ρ c (Proc.devRef .tc main_arg6) := W34_keep m ρ c main_arg6 (by decide)
    _ = W32 m ρ c (Proc.devRef .tc main_arg6) := W33_of_ne m ρ c main_arg6 (by decide)
    _ = W31 m ρ c (Proc.devRef .tc main_arg6) := W32_keep m ρ c main_arg6 (by decide)
    _ = W30 m ρ c (Proc.devRef .tc main_arg6) := W31_of_ne m ρ c main_arg6 (by decide)
    _ = W29 m ρ c (Proc.devRef .tc main_arg6) := W30_keep m ρ c main_arg6 (by decide)
    _ = W28 m ρ c (Proc.devRef .tc main_arg6) := W29_of_ne m ρ c main_arg6 (by decide)
    _ = W27 m ρ c (Proc.devRef .tc main_arg6) := W28_keep m ρ c main_arg6 (by decide)
    _ = W26 m ρ c (Proc.devRef .tc main_arg6) := W27_of_ne m ρ c main_arg6 (by decide)
    _ = W25 m ρ c (Proc.devRef .tc main_arg6) := W26_keep m ρ c main_arg6 (by decide)
    _ = W24 m ρ c (Proc.devRef .tc main_arg6) := W25_of_ne m ρ c main_arg6 (by decide)
    _ = W23 m ρ c (Proc.devRef .tc main_arg6) := W24_keep m ρ c main_arg6 (by decide)
    _ = W22 m ρ c (Proc.devRef .tc main_arg6) := W23_keep m ρ c main_arg6 (by decide)
    _ = W21 m ρ c (Proc.devRef .tc main_arg6) := W22_keep m ρ c main_arg6 (by decide)
    _ = W20 m ρ c (Proc.devRef .tc main_arg6) := W21_keep m ρ c main_arg6 (by decide)
    _ = W19 m ρ c (Proc.devRef .tc main_arg6) := W20_keep m ρ c main_arg6 (by decide)
    _ = W18 m ρ c (Proc.devRef .tc main_arg6) := W19_of_ne m ρ c main_arg6 (by decide)
    _ = W17 m ρ c (Proc.devRef .tc main_arg6) := W18_keep m ρ c main_arg6 (by decide)
    _ = W16 m ρ c (Proc.devRef .tc main_arg6) := W17_of_ne m ρ c main_arg6 (by decide)
    _ = W15 m ρ c (Proc.devRef .tc main_arg6) := W16_keep m ρ c main_arg6 (by decide)
    _ = W14 m ρ c (Proc.devRef .tc main_arg6) := W15_of_ne m ρ c main_arg6 (by decide)
    _ = W13 m ρ c (Proc.devRef .tc main_arg6) := W14_keep m ρ c main_arg6 (by decide)
    _ = W12 m ρ c (Proc.devRef .tc main_arg6) := W13_of_ne m ρ c main_arg6 (by decide)
    _ = W11 m ρ c (Proc.devRef .tc main_arg6) := W12_keep m ρ c main_arg6 (by decide)
    _ = W10 m ρ c (Proc.devRef .tc main_arg6) := W11_keep m ρ c main_arg6 (by decide)
    _ = W9 m ρ c (Proc.devRef .tc main_arg6) := W10_keep m ρ c main_arg6 (by decide)
    _ = W8 m ρ c (Proc.devRef .tc main_arg6) := W9_keep m ρ c main_arg6 (by decide)
    _ = W7 m ρ c (Proc.devRef .tc main_arg6) := W8_keep m ρ c main_arg6 (by decide)
    _ = W6 m ρ c (Proc.devRef .tc main_arg6) := W7_of_ne m ρ c main_arg6 (by decide)
    _ = W5 m ρ c (Proc.devRef .tc main_arg6) := W6_keep m ρ c main_arg6 (by decide)
    _ = W4 m ρ c (Proc.devRef .tc main_arg6) := W5_of_ne m ρ c main_arg6 (by decide)
    _ = W3 m ρ c (Proc.devRef .tc main_arg6) := W4_keep m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl

theorem W34_main_arg7 (c : Dev nD) : W34 m ρ c (Proc.devRef .tc main_arg7) = m ((c : Thread nD τ).loc main_arg7) :=
  calc W34 m ρ c (Proc.devRef .tc main_arg7)
    _ = W33 m ρ c (Proc.devRef .tc main_arg7) := W34_keep m ρ c main_arg7 (by decide)
    _ = W32 m ρ c (Proc.devRef .tc main_arg7) := W33_of_ne m ρ c main_arg7 (by decide)
    _ = W31 m ρ c (Proc.devRef .tc main_arg7) := W32_keep m ρ c main_arg7 (by decide)
    _ = W30 m ρ c (Proc.devRef .tc main_arg7) := W31_of_ne m ρ c main_arg7 (by decide)
    _ = W29 m ρ c (Proc.devRef .tc main_arg7) := W30_keep m ρ c main_arg7 (by decide)
    _ = W28 m ρ c (Proc.devRef .tc main_arg7) := W29_of_ne m ρ c main_arg7 (by decide)
    _ = W27 m ρ c (Proc.devRef .tc main_arg7) := W28_keep m ρ c main_arg7 (by decide)
    _ = W26 m ρ c (Proc.devRef .tc main_arg7) := W27_of_ne m ρ c main_arg7 (by decide)
    _ = W25 m ρ c (Proc.devRef .tc main_arg7) := W26_keep m ρ c main_arg7 (by decide)
    _ = W24 m ρ c (Proc.devRef .tc main_arg7) := W25_of_ne m ρ c main_arg7 (by decide)
    _ = W23 m ρ c (Proc.devRef .tc main_arg7) := W24_keep m ρ c main_arg7 (by decide)
    _ = W22 m ρ c (Proc.devRef .tc main_arg7) := W23_keep m ρ c main_arg7 (by decide)
    _ = W21 m ρ c (Proc.devRef .tc main_arg7) := W22_keep m ρ c main_arg7 (by decide)
    _ = W20 m ρ c (Proc.devRef .tc main_arg7) := W21_keep m ρ c main_arg7 (by decide)
    _ = W19 m ρ c (Proc.devRef .tc main_arg7) := W20_keep m ρ c main_arg7 (by decide)
    _ = W18 m ρ c (Proc.devRef .tc main_arg7) := W19_of_ne m ρ c main_arg7 (by decide)
    _ = W17 m ρ c (Proc.devRef .tc main_arg7) := W18_keep m ρ c main_arg7 (by decide)
    _ = W16 m ρ c (Proc.devRef .tc main_arg7) := W17_of_ne m ρ c main_arg7 (by decide)
    _ = W15 m ρ c (Proc.devRef .tc main_arg7) := W16_keep m ρ c main_arg7 (by decide)
    _ = W14 m ρ c (Proc.devRef .tc main_arg7) := W15_of_ne m ρ c main_arg7 (by decide)
    _ = W13 m ρ c (Proc.devRef .tc main_arg7) := W14_keep m ρ c main_arg7 (by decide)
    _ = W12 m ρ c (Proc.devRef .tc main_arg7) := W13_of_ne m ρ c main_arg7 (by decide)
    _ = W11 m ρ c (Proc.devRef .tc main_arg7) := W12_keep m ρ c main_arg7 (by decide)
    _ = W10 m ρ c (Proc.devRef .tc main_arg7) := W11_keep m ρ c main_arg7 (by decide)
    _ = W9 m ρ c (Proc.devRef .tc main_arg7) := W10_keep m ρ c main_arg7 (by decide)
    _ = W8 m ρ c (Proc.devRef .tc main_arg7) := W9_keep m ρ c main_arg7 (by decide)
    _ = W7 m ρ c (Proc.devRef .tc main_arg7) := W8_keep m ρ c main_arg7 (by decide)
    _ = W6 m ρ c (Proc.devRef .tc main_arg7) := W7_of_ne m ρ c main_arg7 (by decide)
    _ = W5 m ρ c (Proc.devRef .tc main_arg7) := W6_keep m ρ c main_arg7 (by decide)
    _ = W4 m ρ c (Proc.devRef .tc main_arg7) := W5_of_ne m ρ c main_arg7 (by decide)
    _ = W3 m ρ c (Proc.devRef .tc main_arg7) := W4_keep m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl

theorem W34_main_arg8 (c : Dev nD) : W34 m ρ c (Proc.devRef .tc main_arg8) = m ((c : Thread nD τ).loc main_arg8) :=
  calc W34 m ρ c (Proc.devRef .tc main_arg8)
    _ = W33 m ρ c (Proc.devRef .tc main_arg8) := W34_keep m ρ c main_arg8 (by decide)
    _ = W32 m ρ c (Proc.devRef .tc main_arg8) := W33_of_ne m ρ c main_arg8 (by decide)
    _ = W31 m ρ c (Proc.devRef .tc main_arg8) := W32_keep m ρ c main_arg8 (by decide)
    _ = W30 m ρ c (Proc.devRef .tc main_arg8) := W31_of_ne m ρ c main_arg8 (by decide)
    _ = W29 m ρ c (Proc.devRef .tc main_arg8) := W30_keep m ρ c main_arg8 (by decide)
    _ = W28 m ρ c (Proc.devRef .tc main_arg8) := W29_of_ne m ρ c main_arg8 (by decide)
    _ = W27 m ρ c (Proc.devRef .tc main_arg8) := W28_keep m ρ c main_arg8 (by decide)
    _ = W26 m ρ c (Proc.devRef .tc main_arg8) := W27_of_ne m ρ c main_arg8 (by decide)
    _ = W25 m ρ c (Proc.devRef .tc main_arg8) := W26_keep m ρ c main_arg8 (by decide)
    _ = W24 m ρ c (Proc.devRef .tc main_arg8) := W25_of_ne m ρ c main_arg8 (by decide)
    _ = W23 m ρ c (Proc.devRef .tc main_arg8) := W24_keep m ρ c main_arg8 (by decide)
    _ = W22 m ρ c (Proc.devRef .tc main_arg8) := W23_keep m ρ c main_arg8 (by decide)
    _ = W21 m ρ c (Proc.devRef .tc main_arg8) := W22_keep m ρ c main_arg8 (by decide)
    _ = W20 m ρ c (Proc.devRef .tc main_arg8) := W21_keep m ρ c main_arg8 (by decide)
    _ = W19 m ρ c (Proc.devRef .tc main_arg8) := W20_keep m ρ c main_arg8 (by decide)
    _ = W18 m ρ c (Proc.devRef .tc main_arg8) := W19_of_ne m ρ c main_arg8 (by decide)
    _ = W17 m ρ c (Proc.devRef .tc main_arg8) := W18_keep m ρ c main_arg8 (by decide)
    _ = W16 m ρ c (Proc.devRef .tc main_arg8) := W17_of_ne m ρ c main_arg8 (by decide)
    _ = W15 m ρ c (Proc.devRef .tc main_arg8) := W16_keep m ρ c main_arg8 (by decide)
    _ = W14 m ρ c (Proc.devRef .tc main_arg8) := W15_of_ne m ρ c main_arg8 (by decide)
    _ = W13 m ρ c (Proc.devRef .tc main_arg8) := W14_keep m ρ c main_arg8 (by decide)
    _ = W12 m ρ c (Proc.devRef .tc main_arg8) := W13_of_ne m ρ c main_arg8 (by decide)
    _ = W11 m ρ c (Proc.devRef .tc main_arg8) := W12_keep m ρ c main_arg8 (by decide)
    _ = W10 m ρ c (Proc.devRef .tc main_arg8) := W11_keep m ρ c main_arg8 (by decide)
    _ = W9 m ρ c (Proc.devRef .tc main_arg8) := W10_keep m ρ c main_arg8 (by decide)
    _ = W8 m ρ c (Proc.devRef .tc main_arg8) := W9_keep m ρ c main_arg8 (by decide)
    _ = W7 m ρ c (Proc.devRef .tc main_arg8) := W8_keep m ρ c main_arg8 (by decide)
    _ = W6 m ρ c (Proc.devRef .tc main_arg8) := W7_of_ne m ρ c main_arg8 (by decide)
    _ = W5 m ρ c (Proc.devRef .tc main_arg8) := W6_keep m ρ c main_arg8 (by decide)
    _ = W4 m ρ c (Proc.devRef .tc main_arg8) := W5_of_ne m ρ c main_arg8 (by decide)
    _ = W3 m ρ c (Proc.devRef .tc main_arg8) := W4_keep m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := W1_keep m ρ c main_arg8 (by decide)
    _ = m ((c : Thread nD τ).loc main_arg8) := rfl

theorem W34_main_arg9 (c : Dev nD) : W34 m ρ c (Proc.devRef .tc main_arg9) = m ((c : Thread nD τ).loc main_arg9) :=
  calc W34 m ρ c (Proc.devRef .tc main_arg9)
    _ = W33 m ρ c (Proc.devRef .tc main_arg9) := W34_keep m ρ c main_arg9 (by decide)
    _ = W32 m ρ c (Proc.devRef .tc main_arg9) := W33_of_ne m ρ c main_arg9 (by decide)
    _ = W31 m ρ c (Proc.devRef .tc main_arg9) := W32_keep m ρ c main_arg9 (by decide)
    _ = W30 m ρ c (Proc.devRef .tc main_arg9) := W31_of_ne m ρ c main_arg9 (by decide)
    _ = W29 m ρ c (Proc.devRef .tc main_arg9) := W30_keep m ρ c main_arg9 (by decide)
    _ = W28 m ρ c (Proc.devRef .tc main_arg9) := W29_of_ne m ρ c main_arg9 (by decide)
    _ = W27 m ρ c (Proc.devRef .tc main_arg9) := W28_keep m ρ c main_arg9 (by decide)
    _ = W26 m ρ c (Proc.devRef .tc main_arg9) := W27_of_ne m ρ c main_arg9 (by decide)
    _ = W25 m ρ c (Proc.devRef .tc main_arg9) := W26_keep m ρ c main_arg9 (by decide)
    _ = W24 m ρ c (Proc.devRef .tc main_arg9) := W25_of_ne m ρ c main_arg9 (by decide)
    _ = W23 m ρ c (Proc.devRef .tc main_arg9) := W24_keep m ρ c main_arg9 (by decide)
    _ = W22 m ρ c (Proc.devRef .tc main_arg9) := W23_keep m ρ c main_arg9 (by decide)
    _ = W21 m ρ c (Proc.devRef .tc main_arg9) := W22_keep m ρ c main_arg9 (by decide)
    _ = W20 m ρ c (Proc.devRef .tc main_arg9) := W21_keep m ρ c main_arg9 (by decide)
    _ = W19 m ρ c (Proc.devRef .tc main_arg9) := W20_keep m ρ c main_arg9 (by decide)
    _ = W18 m ρ c (Proc.devRef .tc main_arg9) := W19_of_ne m ρ c main_arg9 (by decide)
    _ = W17 m ρ c (Proc.devRef .tc main_arg9) := W18_keep m ρ c main_arg9 (by decide)
    _ = W16 m ρ c (Proc.devRef .tc main_arg9) := W17_of_ne m ρ c main_arg9 (by decide)
    _ = W15 m ρ c (Proc.devRef .tc main_arg9) := W16_keep m ρ c main_arg9 (by decide)
    _ = W14 m ρ c (Proc.devRef .tc main_arg9) := W15_of_ne m ρ c main_arg9 (by decide)
    _ = W13 m ρ c (Proc.devRef .tc main_arg9) := W14_keep m ρ c main_arg9 (by decide)
    _ = W12 m ρ c (Proc.devRef .tc main_arg9) := W13_of_ne m ρ c main_arg9 (by decide)
    _ = W11 m ρ c (Proc.devRef .tc main_arg9) := W12_keep m ρ c main_arg9 (by decide)
    _ = W10 m ρ c (Proc.devRef .tc main_arg9) := W11_keep m ρ c main_arg9 (by decide)
    _ = W9 m ρ c (Proc.devRef .tc main_arg9) := W10_keep m ρ c main_arg9 (by decide)
    _ = W8 m ρ c (Proc.devRef .tc main_arg9) := W9_keep m ρ c main_arg9 (by decide)
    _ = W7 m ρ c (Proc.devRef .tc main_arg9) := W8_keep m ρ c main_arg9 (by decide)
    _ = W6 m ρ c (Proc.devRef .tc main_arg9) := W7_of_ne m ρ c main_arg9 (by decide)
    _ = W5 m ρ c (Proc.devRef .tc main_arg9) := W6_keep m ρ c main_arg9 (by decide)
    _ = W4 m ρ c (Proc.devRef .tc main_arg9) := W5_of_ne m ρ c main_arg9 (by decide)
    _ = W3 m ρ c (Proc.devRef .tc main_arg9) := W4_keep m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := W1_keep m ρ c main_arg9 (by decide)
    _ = m ((c : Thread nD τ).loc main_arg9) := rfl

theorem W34_main_arg10 (c : Dev nD) : W34 m ρ c (Proc.devRef .tc main_arg10) = m ((c : Thread nD τ).loc main_arg10) :=
  calc W34 m ρ c (Proc.devRef .tc main_arg10)
    _ = W33 m ρ c (Proc.devRef .tc main_arg10) := W34_keep m ρ c main_arg10 (by decide)
    _ = W32 m ρ c (Proc.devRef .tc main_arg10) := W33_of_ne m ρ c main_arg10 (by decide)
    _ = W31 m ρ c (Proc.devRef .tc main_arg10) := W32_keep m ρ c main_arg10 (by decide)
    _ = W30 m ρ c (Proc.devRef .tc main_arg10) := W31_of_ne m ρ c main_arg10 (by decide)
    _ = W29 m ρ c (Proc.devRef .tc main_arg10) := W30_keep m ρ c main_arg10 (by decide)
    _ = W28 m ρ c (Proc.devRef .tc main_arg10) := W29_of_ne m ρ c main_arg10 (by decide)
    _ = W27 m ρ c (Proc.devRef .tc main_arg10) := W28_keep m ρ c main_arg10 (by decide)
    _ = W26 m ρ c (Proc.devRef .tc main_arg10) := W27_of_ne m ρ c main_arg10 (by decide)
    _ = W25 m ρ c (Proc.devRef .tc main_arg10) := W26_keep m ρ c main_arg10 (by decide)
    _ = W24 m ρ c (Proc.devRef .tc main_arg10) := W25_of_ne m ρ c main_arg10 (by decide)
    _ = W23 m ρ c (Proc.devRef .tc main_arg10) := W24_keep m ρ c main_arg10 (by decide)
    _ = W22 m ρ c (Proc.devRef .tc main_arg10) := W23_keep m ρ c main_arg10 (by decide)
    _ = W21 m ρ c (Proc.devRef .tc main_arg10) := W22_keep m ρ c main_arg10 (by decide)
    _ = W20 m ρ c (Proc.devRef .tc main_arg10) := W21_keep m ρ c main_arg10 (by decide)
    _ = W19 m ρ c (Proc.devRef .tc main_arg10) := W20_keep m ρ c main_arg10 (by decide)
    _ = W18 m ρ c (Proc.devRef .tc main_arg10) := W19_of_ne m ρ c main_arg10 (by decide)
    _ = W17 m ρ c (Proc.devRef .tc main_arg10) := W18_keep m ρ c main_arg10 (by decide)
    _ = W16 m ρ c (Proc.devRef .tc main_arg10) := W17_of_ne m ρ c main_arg10 (by decide)
    _ = W15 m ρ c (Proc.devRef .tc main_arg10) := W16_keep m ρ c main_arg10 (by decide)
    _ = W14 m ρ c (Proc.devRef .tc main_arg10) := W15_of_ne m ρ c main_arg10 (by decide)
    _ = W13 m ρ c (Proc.devRef .tc main_arg10) := W14_keep m ρ c main_arg10 (by decide)
    _ = W12 m ρ c (Proc.devRef .tc main_arg10) := W13_of_ne m ρ c main_arg10 (by decide)
    _ = W11 m ρ c (Proc.devRef .tc main_arg10) := W12_keep m ρ c main_arg10 (by decide)
    _ = W10 m ρ c (Proc.devRef .tc main_arg10) := W11_keep m ρ c main_arg10 (by decide)
    _ = W9 m ρ c (Proc.devRef .tc main_arg10) := W10_keep m ρ c main_arg10 (by decide)
    _ = W8 m ρ c (Proc.devRef .tc main_arg10) := W9_keep m ρ c main_arg10 (by decide)
    _ = W7 m ρ c (Proc.devRef .tc main_arg10) := W8_keep m ρ c main_arg10 (by decide)
    _ = W6 m ρ c (Proc.devRef .tc main_arg10) := W7_of_ne m ρ c main_arg10 (by decide)
    _ = W5 m ρ c (Proc.devRef .tc main_arg10) := W6_keep m ρ c main_arg10 (by decide)
    _ = W4 m ρ c (Proc.devRef .tc main_arg10) := W5_of_ne m ρ c main_arg10 (by decide)
    _ = W3 m ρ c (Proc.devRef .tc main_arg10) := W4_keep m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_keep m ρ c main_arg10 (by decide)
    _ = m ((c : Thread nD τ).loc main_arg10) := rfl

theorem W34_main_arg11 (c : Dev nD) : W34 m ρ c (Proc.devRef .tc main_arg11) = m ((c : Thread nD τ).loc main_arg11) :=
  calc W34 m ρ c (Proc.devRef .tc main_arg11)
    _ = W33 m ρ c (Proc.devRef .tc main_arg11) := W34_keep m ρ c main_arg11 (by decide)
    _ = W32 m ρ c (Proc.devRef .tc main_arg11) := W33_of_ne m ρ c main_arg11 (by decide)
    _ = W31 m ρ c (Proc.devRef .tc main_arg11) := W32_keep m ρ c main_arg11 (by decide)
    _ = W30 m ρ c (Proc.devRef .tc main_arg11) := W31_of_ne m ρ c main_arg11 (by decide)
    _ = W29 m ρ c (Proc.devRef .tc main_arg11) := W30_keep m ρ c main_arg11 (by decide)
    _ = W28 m ρ c (Proc.devRef .tc main_arg11) := W29_of_ne m ρ c main_arg11 (by decide)
    _ = W27 m ρ c (Proc.devRef .tc main_arg11) := W28_keep m ρ c main_arg11 (by decide)
    _ = W26 m ρ c (Proc.devRef .tc main_arg11) := W27_of_ne m ρ c main_arg11 (by decide)
    _ = W25 m ρ c (Proc.devRef .tc main_arg11) := W26_keep m ρ c main_arg11 (by decide)
    _ = W24 m ρ c (Proc.devRef .tc main_arg11) := W25_of_ne m ρ c main_arg11 (by decide)
    _ = W23 m ρ c (Proc.devRef .tc main_arg11) := W24_keep m ρ c main_arg11 (by decide)
    _ = W22 m ρ c (Proc.devRef .tc main_arg11) := W23_keep m ρ c main_arg11 (by decide)
    _ = W21 m ρ c (Proc.devRef .tc main_arg11) := W22_keep m ρ c main_arg11 (by decide)
    _ = W20 m ρ c (Proc.devRef .tc main_arg11) := W21_keep m ρ c main_arg11 (by decide)
    _ = W19 m ρ c (Proc.devRef .tc main_arg11) := W20_keep m ρ c main_arg11 (by decide)
    _ = W18 m ρ c (Proc.devRef .tc main_arg11) := W19_of_ne m ρ c main_arg11 (by decide)
    _ = W17 m ρ c (Proc.devRef .tc main_arg11) := W18_keep m ρ c main_arg11 (by decide)
    _ = W16 m ρ c (Proc.devRef .tc main_arg11) := W17_of_ne m ρ c main_arg11 (by decide)
    _ = W15 m ρ c (Proc.devRef .tc main_arg11) := W16_keep m ρ c main_arg11 (by decide)
    _ = W14 m ρ c (Proc.devRef .tc main_arg11) := W15_of_ne m ρ c main_arg11 (by decide)
    _ = W13 m ρ c (Proc.devRef .tc main_arg11) := W14_keep m ρ c main_arg11 (by decide)
    _ = W12 m ρ c (Proc.devRef .tc main_arg11) := W13_of_ne m ρ c main_arg11 (by decide)
    _ = W11 m ρ c (Proc.devRef .tc main_arg11) := W12_keep m ρ c main_arg11 (by decide)
    _ = W10 m ρ c (Proc.devRef .tc main_arg11) := W11_keep m ρ c main_arg11 (by decide)
    _ = W9 m ρ c (Proc.devRef .tc main_arg11) := W10_keep m ρ c main_arg11 (by decide)
    _ = W8 m ρ c (Proc.devRef .tc main_arg11) := W9_keep m ρ c main_arg11 (by decide)
    _ = W7 m ρ c (Proc.devRef .tc main_arg11) := W8_keep m ρ c main_arg11 (by decide)
    _ = W6 m ρ c (Proc.devRef .tc main_arg11) := W7_of_ne m ρ c main_arg11 (by decide)
    _ = W5 m ρ c (Proc.devRef .tc main_arg11) := W6_keep m ρ c main_arg11 (by decide)
    _ = W4 m ρ c (Proc.devRef .tc main_arg11) := W5_of_ne m ρ c main_arg11 (by decide)
    _ = W3 m ρ c (Proc.devRef .tc main_arg11) := W4_keep m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := W1_keep m ρ c main_arg11 (by decide)
    _ = m ((c : Thread nD τ).loc main_arg11) := rfl

theorem W34_main_arg12 (c : Dev nD) : W34 m ρ c (Proc.devRef .tc main_arg12) = m ((c : Thread nD τ).loc main_arg12) :=
  calc W34 m ρ c (Proc.devRef .tc main_arg12)
    _ = W33 m ρ c (Proc.devRef .tc main_arg12) := W34_keep m ρ c main_arg12 (by decide)
    _ = W32 m ρ c (Proc.devRef .tc main_arg12) := W33_of_ne m ρ c main_arg12 (by decide)
    _ = W31 m ρ c (Proc.devRef .tc main_arg12) := W32_keep m ρ c main_arg12 (by decide)
    _ = W30 m ρ c (Proc.devRef .tc main_arg12) := W31_of_ne m ρ c main_arg12 (by decide)
    _ = W29 m ρ c (Proc.devRef .tc main_arg12) := W30_keep m ρ c main_arg12 (by decide)
    _ = W28 m ρ c (Proc.devRef .tc main_arg12) := W29_of_ne m ρ c main_arg12 (by decide)
    _ = W27 m ρ c (Proc.devRef .tc main_arg12) := W28_keep m ρ c main_arg12 (by decide)
    _ = W26 m ρ c (Proc.devRef .tc main_arg12) := W27_of_ne m ρ c main_arg12 (by decide)
    _ = W25 m ρ c (Proc.devRef .tc main_arg12) := W26_keep m ρ c main_arg12 (by decide)
    _ = W24 m ρ c (Proc.devRef .tc main_arg12) := W25_of_ne m ρ c main_arg12 (by decide)
    _ = W23 m ρ c (Proc.devRef .tc main_arg12) := W24_keep m ρ c main_arg12 (by decide)
    _ = W22 m ρ c (Proc.devRef .tc main_arg12) := W23_keep m ρ c main_arg12 (by decide)
    _ = W21 m ρ c (Proc.devRef .tc main_arg12) := W22_keep m ρ c main_arg12 (by decide)
    _ = W20 m ρ c (Proc.devRef .tc main_arg12) := W21_keep m ρ c main_arg12 (by decide)
    _ = W19 m ρ c (Proc.devRef .tc main_arg12) := W20_keep m ρ c main_arg12 (by decide)
    _ = W18 m ρ c (Proc.devRef .tc main_arg12) := W19_of_ne m ρ c main_arg12 (by decide)
    _ = W17 m ρ c (Proc.devRef .tc main_arg12) := W18_keep m ρ c main_arg12 (by decide)
    _ = W16 m ρ c (Proc.devRef .tc main_arg12) := W17_of_ne m ρ c main_arg12 (by decide)
    _ = W15 m ρ c (Proc.devRef .tc main_arg12) := W16_keep m ρ c main_arg12 (by decide)
    _ = W14 m ρ c (Proc.devRef .tc main_arg12) := W15_of_ne m ρ c main_arg12 (by decide)
    _ = W13 m ρ c (Proc.devRef .tc main_arg12) := W14_keep m ρ c main_arg12 (by decide)
    _ = W12 m ρ c (Proc.devRef .tc main_arg12) := W13_of_ne m ρ c main_arg12 (by decide)
    _ = W11 m ρ c (Proc.devRef .tc main_arg12) := W12_keep m ρ c main_arg12 (by decide)
    _ = W10 m ρ c (Proc.devRef .tc main_arg12) := W11_keep m ρ c main_arg12 (by decide)
    _ = W9 m ρ c (Proc.devRef .tc main_arg12) := W10_keep m ρ c main_arg12 (by decide)
    _ = W8 m ρ c (Proc.devRef .tc main_arg12) := W9_keep m ρ c main_arg12 (by decide)
    _ = W7 m ρ c (Proc.devRef .tc main_arg12) := W8_keep m ρ c main_arg12 (by decide)
    _ = W6 m ρ c (Proc.devRef .tc main_arg12) := W7_of_ne m ρ c main_arg12 (by decide)
    _ = W5 m ρ c (Proc.devRef .tc main_arg12) := W6_keep m ρ c main_arg12 (by decide)
    _ = W4 m ρ c (Proc.devRef .tc main_arg12) := W5_of_ne m ρ c main_arg12 (by decide)
    _ = W3 m ρ c (Proc.devRef .tc main_arg12) := W4_keep m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := W1_keep m ρ c main_arg12 (by decide)
    _ = m ((c : Thread nD τ).loc main_arg12) := rfl

theorem W34_main_arg13 (c : Dev nD) : W34 m ρ c (Proc.devRef .tc main_arg13) = m ((c : Thread nD τ).loc main_arg13) :=
  calc W34 m ρ c (Proc.devRef .tc main_arg13)
    _ = W33 m ρ c (Proc.devRef .tc main_arg13) := W34_keep m ρ c main_arg13 (by decide)
    _ = W32 m ρ c (Proc.devRef .tc main_arg13) := W33_of_ne m ρ c main_arg13 (by decide)
    _ = W31 m ρ c (Proc.devRef .tc main_arg13) := W32_keep m ρ c main_arg13 (by decide)
    _ = W30 m ρ c (Proc.devRef .tc main_arg13) := W31_of_ne m ρ c main_arg13 (by decide)
    _ = W29 m ρ c (Proc.devRef .tc main_arg13) := W30_keep m ρ c main_arg13 (by decide)
    _ = W28 m ρ c (Proc.devRef .tc main_arg13) := W29_of_ne m ρ c main_arg13 (by decide)
    _ = W27 m ρ c (Proc.devRef .tc main_arg13) := W28_keep m ρ c main_arg13 (by decide)
    _ = W26 m ρ c (Proc.devRef .tc main_arg13) := W27_of_ne m ρ c main_arg13 (by decide)
    _ = W25 m ρ c (Proc.devRef .tc main_arg13) := W26_keep m ρ c main_arg13 (by decide)
    _ = W24 m ρ c (Proc.devRef .tc main_arg13) := W25_of_ne m ρ c main_arg13 (by decide)
    _ = W23 m ρ c (Proc.devRef .tc main_arg13) := W24_keep m ρ c main_arg13 (by decide)
    _ = W22 m ρ c (Proc.devRef .tc main_arg13) := W23_keep m ρ c main_arg13 (by decide)
    _ = W21 m ρ c (Proc.devRef .tc main_arg13) := W22_keep m ρ c main_arg13 (by decide)
    _ = W20 m ρ c (Proc.devRef .tc main_arg13) := W21_keep m ρ c main_arg13 (by decide)
    _ = W19 m ρ c (Proc.devRef .tc main_arg13) := W20_keep m ρ c main_arg13 (by decide)
    _ = W18 m ρ c (Proc.devRef .tc main_arg13) := W19_of_ne m ρ c main_arg13 (by decide)
    _ = W17 m ρ c (Proc.devRef .tc main_arg13) := W18_keep m ρ c main_arg13 (by decide)
    _ = W16 m ρ c (Proc.devRef .tc main_arg13) := W17_of_ne m ρ c main_arg13 (by decide)
    _ = W15 m ρ c (Proc.devRef .tc main_arg13) := W16_keep m ρ c main_arg13 (by decide)
    _ = W14 m ρ c (Proc.devRef .tc main_arg13) := W15_of_ne m ρ c main_arg13 (by decide)
    _ = W13 m ρ c (Proc.devRef .tc main_arg13) := W14_keep m ρ c main_arg13 (by decide)
    _ = W12 m ρ c (Proc.devRef .tc main_arg13) := W13_of_ne m ρ c main_arg13 (by decide)
    _ = W11 m ρ c (Proc.devRef .tc main_arg13) := W12_keep m ρ c main_arg13 (by decide)
    _ = W10 m ρ c (Proc.devRef .tc main_arg13) := W11_keep m ρ c main_arg13 (by decide)
    _ = W9 m ρ c (Proc.devRef .tc main_arg13) := W10_keep m ρ c main_arg13 (by decide)
    _ = W8 m ρ c (Proc.devRef .tc main_arg13) := W9_keep m ρ c main_arg13 (by decide)
    _ = W7 m ρ c (Proc.devRef .tc main_arg13) := W8_keep m ρ c main_arg13 (by decide)
    _ = W6 m ρ c (Proc.devRef .tc main_arg13) := W7_of_ne m ρ c main_arg13 (by decide)
    _ = W5 m ρ c (Proc.devRef .tc main_arg13) := W6_keep m ρ c main_arg13 (by decide)
    _ = W4 m ρ c (Proc.devRef .tc main_arg13) := W5_of_ne m ρ c main_arg13 (by decide)
    _ = W3 m ρ c (Proc.devRef .tc main_arg13) := W4_keep m ρ c main_arg13 (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := W1_keep m ρ c main_arg13 (by decide)
    _ = m ((c : Thread nD τ).loc main_arg13) := rfl

theorem W34_main_arg14 (c : Dev nD) : W34 m ρ c (Proc.devRef .tc main_arg14) = m ((c : Thread nD τ).loc main_arg14) :=
  calc W34 m ρ c (Proc.devRef .tc main_arg14)
    _ = W33 m ρ c (Proc.devRef .tc main_arg14) := W34_keep m ρ c main_arg14 (by decide)
    _ = W32 m ρ c (Proc.devRef .tc main_arg14) := W33_of_ne m ρ c main_arg14 (by decide)
    _ = W31 m ρ c (Proc.devRef .tc main_arg14) := W32_keep m ρ c main_arg14 (by decide)
    _ = W30 m ρ c (Proc.devRef .tc main_arg14) := W31_of_ne m ρ c main_arg14 (by decide)
    _ = W29 m ρ c (Proc.devRef .tc main_arg14) := W30_keep m ρ c main_arg14 (by decide)
    _ = W28 m ρ c (Proc.devRef .tc main_arg14) := W29_of_ne m ρ c main_arg14 (by decide)
    _ = W27 m ρ c (Proc.devRef .tc main_arg14) := W28_keep m ρ c main_arg14 (by decide)
    _ = W26 m ρ c (Proc.devRef .tc main_arg14) := W27_of_ne m ρ c main_arg14 (by decide)
    _ = W25 m ρ c (Proc.devRef .tc main_arg14) := W26_keep m ρ c main_arg14 (by decide)
    _ = W24 m ρ c (Proc.devRef .tc main_arg14) := W25_of_ne m ρ c main_arg14 (by decide)
    _ = W23 m ρ c (Proc.devRef .tc main_arg14) := W24_keep m ρ c main_arg14 (by decide)
    _ = W22 m ρ c (Proc.devRef .tc main_arg14) := W23_keep m ρ c main_arg14 (by decide)
    _ = W21 m ρ c (Proc.devRef .tc main_arg14) := W22_keep m ρ c main_arg14 (by decide)
    _ = W20 m ρ c (Proc.devRef .tc main_arg14) := W21_keep m ρ c main_arg14 (by decide)
    _ = W19 m ρ c (Proc.devRef .tc main_arg14) := W20_keep m ρ c main_arg14 (by decide)
    _ = W18 m ρ c (Proc.devRef .tc main_arg14) := W19_of_ne m ρ c main_arg14 (by decide)
    _ = W17 m ρ c (Proc.devRef .tc main_arg14) := W18_keep m ρ c main_arg14 (by decide)
    _ = W16 m ρ c (Proc.devRef .tc main_arg14) := W17_of_ne m ρ c main_arg14 (by decide)
    _ = W15 m ρ c (Proc.devRef .tc main_arg14) := W16_keep m ρ c main_arg14 (by decide)
    _ = W14 m ρ c (Proc.devRef .tc main_arg14) := W15_of_ne m ρ c main_arg14 (by decide)
    _ = W13 m ρ c (Proc.devRef .tc main_arg14) := W14_keep m ρ c main_arg14 (by decide)
    _ = W12 m ρ c (Proc.devRef .tc main_arg14) := W13_of_ne m ρ c main_arg14 (by decide)
    _ = W11 m ρ c (Proc.devRef .tc main_arg14) := W12_keep m ρ c main_arg14 (by decide)
    _ = W10 m ρ c (Proc.devRef .tc main_arg14) := W11_keep m ρ c main_arg14 (by decide)
    _ = W9 m ρ c (Proc.devRef .tc main_arg14) := W10_keep m ρ c main_arg14 (by decide)
    _ = W8 m ρ c (Proc.devRef .tc main_arg14) := W9_keep m ρ c main_arg14 (by decide)
    _ = W7 m ρ c (Proc.devRef .tc main_arg14) := W8_keep m ρ c main_arg14 (by decide)
    _ = W6 m ρ c (Proc.devRef .tc main_arg14) := W7_of_ne m ρ c main_arg14 (by decide)
    _ = W5 m ρ c (Proc.devRef .tc main_arg14) := W6_keep m ρ c main_arg14 (by decide)
    _ = W4 m ρ c (Proc.devRef .tc main_arg14) := W5_of_ne m ρ c main_arg14 (by decide)
    _ = W3 m ρ c (Proc.devRef .tc main_arg14) := W4_keep m ρ c main_arg14 (by decide)
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := W1_keep m ρ c main_arg14 (by decide)
    _ = m ((c : Thread nD τ).loc main_arg14) := rfl

theorem W34_main_arg15 (c : Dev nD) : W34 m ρ c (Proc.devRef .tc main_arg15) = m ((c : Thread nD τ).loc main_arg15) :=
  calc W34 m ρ c (Proc.devRef .tc main_arg15)
    _ = W33 m ρ c (Proc.devRef .tc main_arg15) := W34_keep m ρ c main_arg15 (by decide)
    _ = W32 m ρ c (Proc.devRef .tc main_arg15) := W33_of_ne m ρ c main_arg15 (by decide)
    _ = W31 m ρ c (Proc.devRef .tc main_arg15) := W32_keep m ρ c main_arg15 (by decide)
    _ = W30 m ρ c (Proc.devRef .tc main_arg15) := W31_of_ne m ρ c main_arg15 (by decide)
    _ = W29 m ρ c (Proc.devRef .tc main_arg15) := W30_keep m ρ c main_arg15 (by decide)
    _ = W28 m ρ c (Proc.devRef .tc main_arg15) := W29_of_ne m ρ c main_arg15 (by decide)
    _ = W27 m ρ c (Proc.devRef .tc main_arg15) := W28_keep m ρ c main_arg15 (by decide)
    _ = W26 m ρ c (Proc.devRef .tc main_arg15) := W27_of_ne m ρ c main_arg15 (by decide)
    _ = W25 m ρ c (Proc.devRef .tc main_arg15) := W26_keep m ρ c main_arg15 (by decide)
    _ = W24 m ρ c (Proc.devRef .tc main_arg15) := W25_of_ne m ρ c main_arg15 (by decide)
    _ = W23 m ρ c (Proc.devRef .tc main_arg15) := W24_keep m ρ c main_arg15 (by decide)
    _ = W22 m ρ c (Proc.devRef .tc main_arg15) := W23_keep m ρ c main_arg15 (by decide)
    _ = W21 m ρ c (Proc.devRef .tc main_arg15) := W22_keep m ρ c main_arg15 (by decide)
    _ = W20 m ρ c (Proc.devRef .tc main_arg15) := W21_keep m ρ c main_arg15 (by decide)
    _ = W19 m ρ c (Proc.devRef .tc main_arg15) := W20_keep m ρ c main_arg15 (by decide)
    _ = W18 m ρ c (Proc.devRef .tc main_arg15) := W19_of_ne m ρ c main_arg15 (by decide)
    _ = W17 m ρ c (Proc.devRef .tc main_arg15) := W18_keep m ρ c main_arg15 (by decide)
    _ = W16 m ρ c (Proc.devRef .tc main_arg15) := W17_of_ne m ρ c main_arg15 (by decide)
    _ = W15 m ρ c (Proc.devRef .tc main_arg15) := W16_keep m ρ c main_arg15 (by decide)
    _ = W14 m ρ c (Proc.devRef .tc main_arg15) := W15_of_ne m ρ c main_arg15 (by decide)
    _ = W13 m ρ c (Proc.devRef .tc main_arg15) := W14_keep m ρ c main_arg15 (by decide)
    _ = W12 m ρ c (Proc.devRef .tc main_arg15) := W13_of_ne m ρ c main_arg15 (by decide)
    _ = W11 m ρ c (Proc.devRef .tc main_arg15) := W12_keep m ρ c main_arg15 (by decide)
    _ = W10 m ρ c (Proc.devRef .tc main_arg15) := W11_keep m ρ c main_arg15 (by decide)
    _ = W9 m ρ c (Proc.devRef .tc main_arg15) := W10_keep m ρ c main_arg15 (by decide)
    _ = W8 m ρ c (Proc.devRef .tc main_arg15) := W9_keep m ρ c main_arg15 (by decide)
    _ = W7 m ρ c (Proc.devRef .tc main_arg15) := W8_keep m ρ c main_arg15 (by decide)
    _ = W6 m ρ c (Proc.devRef .tc main_arg15) := W7_of_ne m ρ c main_arg15 (by decide)
    _ = W5 m ρ c (Proc.devRef .tc main_arg15) := W6_keep m ρ c main_arg15 (by decide)
    _ = W4 m ρ c (Proc.devRef .tc main_arg15) := W5_of_ne m ρ c main_arg15 (by decide)
    _ = W3 m ρ c (Proc.devRef .tc main_arg15) := W4_keep m ρ c main_arg15 (by decide)
    _ = W2 m ρ c (Proc.devRef .tc main_arg15) := W3_of_ne m ρ c main_arg15 (by decide)
    _ = W1 m ρ c (Proc.devRef .tc main_arg15) := W2_of_ne m ρ c main_arg15 (by decide)
    _ = W0 m ρ c (Proc.devRef .tc main_arg15) := W1_keep m ρ c main_arg15 (by decide)
    _ = m ((c : Thread nD τ).loc main_arg15) := rfl

theorem W34_main_arg16 (c : Dev nD) : W34 m ρ c (Proc.devRef .tc main_arg16) = m ((c : Thread nD τ).loc main_arg16) :=
  calc W34 m ρ c (Proc.devRef .tc main_arg16)
    _ = W33 m ρ c (Proc.devRef .tc main_arg16) := W34_keep m ρ c main_arg16 (by decide)
    _ = W32 m ρ c (Proc.devRef .tc main_arg16) := W33_of_ne m ρ c main_arg16 (by decide)
    _ = W31 m ρ c (Proc.devRef .tc main_arg16) := W32_keep m ρ c main_arg16 (by decide)
    _ = W30 m ρ c (Proc.devRef .tc main_arg16) := W31_of_ne m ρ c main_arg16 (by decide)
    _ = W29 m ρ c (Proc.devRef .tc main_arg16) := W30_keep m ρ c main_arg16 (by decide)
    _ = W28 m ρ c (Proc.devRef .tc main_arg16) := W29_of_ne m ρ c main_arg16 (by decide)
    _ = W27 m ρ c (Proc.devRef .tc main_arg16) := W28_keep m ρ c main_arg16 (by decide)
    _ = W26 m ρ c (Proc.devRef .tc main_arg16) := W27_of_ne m ρ c main_arg16 (by decide)
    _ = W25 m ρ c (Proc.devRef .tc main_arg16) := W26_keep m ρ c main_arg16 (by decide)
    _ = W24 m ρ c (Proc.devRef .tc main_arg16) := W25_of_ne m ρ c main_arg16 (by decide)
    _ = W23 m ρ c (Proc.devRef .tc main_arg16) := W24_keep m ρ c main_arg16 (by decide)
    _ = W22 m ρ c (Proc.devRef .tc main_arg16) := W23_keep m ρ c main_arg16 (by decide)
    _ = W21 m ρ c (Proc.devRef .tc main_arg16) := W22_keep m ρ c main_arg16 (by decide)
    _ = W20 m ρ c (Proc.devRef .tc main_arg16) := W21_keep m ρ c main_arg16 (by decide)
    _ = W19 m ρ c (Proc.devRef .tc main_arg16) := W20_keep m ρ c main_arg16 (by decide)
    _ = W18 m ρ c (Proc.devRef .tc main_arg16) := W19_of_ne m ρ c main_arg16 (by decide)
    _ = W17 m ρ c (Proc.devRef .tc main_arg16) := W18_keep m ρ c main_arg16 (by decide)
    _ = W16 m ρ c (Proc.devRef .tc main_arg16) := W17_of_ne m ρ c main_arg16 (by decide)
    _ = W15 m ρ c (Proc.devRef .tc main_arg16) := W16_keep m ρ c main_arg16 (by decide)
    _ = W14 m ρ c (Proc.devRef .tc main_arg16) := W15_of_ne m ρ c main_arg16 (by decide)
    _ = W13 m ρ c (Proc.devRef .tc main_arg16) := W14_keep m ρ c main_arg16 (by decide)
    _ = W12 m ρ c (Proc.devRef .tc main_arg16) := W13_of_ne m ρ c main_arg16 (by decide)
    _ = W11 m ρ c (Proc.devRef .tc main_arg16) := W12_keep m ρ c main_arg16 (by decide)
    _ = W10 m ρ c (Proc.devRef .tc main_arg16) := W11_keep m ρ c main_arg16 (by decide)
    _ = W9 m ρ c (Proc.devRef .tc main_arg16) := W10_keep m ρ c main_arg16 (by decide)
    _ = W8 m ρ c (Proc.devRef .tc main_arg16) := W9_keep m ρ c main_arg16 (by decide)
    _ = W7 m ρ c (Proc.devRef .tc main_arg16) := W8_keep m ρ c main_arg16 (by decide)
    _ = W6 m ρ c (Proc.devRef .tc main_arg16) := W7_of_ne m ρ c main_arg16 (by decide)
    _ = W5 m ρ c (Proc.devRef .tc main_arg16) := W6_keep m ρ c main_arg16 (by decide)
    _ = W4 m ρ c (Proc.devRef .tc main_arg16) := W5_of_ne m ρ c main_arg16 (by decide)
    _ = W3 m ρ c (Proc.devRef .tc main_arg16) := W4_keep m ρ c main_arg16 (by decide)
    _ = W2 m ρ c (Proc.devRef .tc main_arg16) := W3_of_ne m ρ c main_arg16 (by decide)
    _ = W1 m ρ c (Proc.devRef .tc main_arg16) := W2_of_ne m ρ c main_arg16 (by decide)
    _ = W0 m ρ c (Proc.devRef .tc main_arg16) := W1_keep m ρ c main_arg16 (by decide)
    _ = m ((c : Thread nD τ).loc main_arg16) := rfl

theorem W34_main_arg17 (c : Dev nD) : W34 m ρ c (Proc.devRef .tc main_arg17) = m ((c : Thread nD τ).loc main_arg17) :=
  calc W34 m ρ c (Proc.devRef .tc main_arg17)
    _ = W33 m ρ c (Proc.devRef .tc main_arg17) := W34_keep m ρ c main_arg17 (by decide)
    _ = W32 m ρ c (Proc.devRef .tc main_arg17) := W33_of_ne m ρ c main_arg17 (by decide)
    _ = W31 m ρ c (Proc.devRef .tc main_arg17) := W32_keep m ρ c main_arg17 (by decide)
    _ = W30 m ρ c (Proc.devRef .tc main_arg17) := W31_of_ne m ρ c main_arg17 (by decide)
    _ = W29 m ρ c (Proc.devRef .tc main_arg17) := W30_keep m ρ c main_arg17 (by decide)
    _ = W28 m ρ c (Proc.devRef .tc main_arg17) := W29_of_ne m ρ c main_arg17 (by decide)
    _ = W27 m ρ c (Proc.devRef .tc main_arg17) := W28_keep m ρ c main_arg17 (by decide)
    _ = W26 m ρ c (Proc.devRef .tc main_arg17) := W27_of_ne m ρ c main_arg17 (by decide)
    _ = W25 m ρ c (Proc.devRef .tc main_arg17) := W26_keep m ρ c main_arg17 (by decide)
    _ = W24 m ρ c (Proc.devRef .tc main_arg17) := W25_of_ne m ρ c main_arg17 (by decide)
    _ = W23 m ρ c (Proc.devRef .tc main_arg17) := W24_keep m ρ c main_arg17 (by decide)
    _ = W22 m ρ c (Proc.devRef .tc main_arg17) := W23_keep m ρ c main_arg17 (by decide)
    _ = W21 m ρ c (Proc.devRef .tc main_arg17) := W22_keep m ρ c main_arg17 (by decide)
    _ = W20 m ρ c (Proc.devRef .tc main_arg17) := W21_keep m ρ c main_arg17 (by decide)
    _ = W19 m ρ c (Proc.devRef .tc main_arg17) := W20_keep m ρ c main_arg17 (by decide)
    _ = W18 m ρ c (Proc.devRef .tc main_arg17) := W19_of_ne m ρ c main_arg17 (by decide)
    _ = W17 m ρ c (Proc.devRef .tc main_arg17) := W18_keep m ρ c main_arg17 (by decide)
    _ = W16 m ρ c (Proc.devRef .tc main_arg17) := W17_of_ne m ρ c main_arg17 (by decide)
    _ = W15 m ρ c (Proc.devRef .tc main_arg17) := W16_keep m ρ c main_arg17 (by decide)
    _ = W14 m ρ c (Proc.devRef .tc main_arg17) := W15_of_ne m ρ c main_arg17 (by decide)
    _ = W13 m ρ c (Proc.devRef .tc main_arg17) := W14_keep m ρ c main_arg17 (by decide)
    _ = W12 m ρ c (Proc.devRef .tc main_arg17) := W13_of_ne m ρ c main_arg17 (by decide)
    _ = W11 m ρ c (Proc.devRef .tc main_arg17) := W12_keep m ρ c main_arg17 (by decide)
    _ = W10 m ρ c (Proc.devRef .tc main_arg17) := W11_keep m ρ c main_arg17 (by decide)
    _ = W9 m ρ c (Proc.devRef .tc main_arg17) := W10_keep m ρ c main_arg17 (by decide)
    _ = W8 m ρ c (Proc.devRef .tc main_arg17) := W9_keep m ρ c main_arg17 (by decide)
    _ = W7 m ρ c (Proc.devRef .tc main_arg17) := W8_keep m ρ c main_arg17 (by decide)
    _ = W6 m ρ c (Proc.devRef .tc main_arg17) := W7_of_ne m ρ c main_arg17 (by decide)
    _ = W5 m ρ c (Proc.devRef .tc main_arg17) := W6_keep m ρ c main_arg17 (by decide)
    _ = W4 m ρ c (Proc.devRef .tc main_arg17) := W5_of_ne m ρ c main_arg17 (by decide)
    _ = W3 m ρ c (Proc.devRef .tc main_arg17) := W4_keep m ρ c main_arg17 (by decide)
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := W1_keep m ρ c main_arg17 (by decide)
    _ = m ((c : Thread nD τ).loc main_arg17) := rfl

theorem W34_main_arg18 (c : Dev nD) : W34 m ρ c (Proc.devRef .tc main_arg18) = m ((c : Thread nD τ).loc main_arg18) :=
  calc W34 m ρ c (Proc.devRef .tc main_arg18)
    _ = W33 m ρ c (Proc.devRef .tc main_arg18) := W34_keep m ρ c main_arg18 (by decide)
    _ = W32 m ρ c (Proc.devRef .tc main_arg18) := W33_of_ne m ρ c main_arg18 (by decide)
    _ = W31 m ρ c (Proc.devRef .tc main_arg18) := W32_keep m ρ c main_arg18 (by decide)
    _ = W30 m ρ c (Proc.devRef .tc main_arg18) := W31_of_ne m ρ c main_arg18 (by decide)
    _ = W29 m ρ c (Proc.devRef .tc main_arg18) := W30_keep m ρ c main_arg18 (by decide)
    _ = W28 m ρ c (Proc.devRef .tc main_arg18) := W29_of_ne m ρ c main_arg18 (by decide)
    _ = W27 m ρ c (Proc.devRef .tc main_arg18) := W28_keep m ρ c main_arg18 (by decide)
    _ = W26 m ρ c (Proc.devRef .tc main_arg18) := W27_of_ne m ρ c main_arg18 (by decide)
    _ = W25 m ρ c (Proc.devRef .tc main_arg18) := W26_keep m ρ c main_arg18 (by decide)
    _ = W24 m ρ c (Proc.devRef .tc main_arg18) := W25_of_ne m ρ c main_arg18 (by decide)
    _ = W23 m ρ c (Proc.devRef .tc main_arg18) := W24_keep m ρ c main_arg18 (by decide)
    _ = W22 m ρ c (Proc.devRef .tc main_arg18) := W23_keep m ρ c main_arg18 (by decide)
    _ = W21 m ρ c (Proc.devRef .tc main_arg18) := W22_keep m ρ c main_arg18 (by decide)
    _ = W20 m ρ c (Proc.devRef .tc main_arg18) := W21_keep m ρ c main_arg18 (by decide)
    _ = W19 m ρ c (Proc.devRef .tc main_arg18) := W20_keep m ρ c main_arg18 (by decide)
    _ = W18 m ρ c (Proc.devRef .tc main_arg18) := W19_of_ne m ρ c main_arg18 (by decide)
    _ = W17 m ρ c (Proc.devRef .tc main_arg18) := W18_keep m ρ c main_arg18 (by decide)
    _ = W16 m ρ c (Proc.devRef .tc main_arg18) := W17_of_ne m ρ c main_arg18 (by decide)
    _ = W15 m ρ c (Proc.devRef .tc main_arg18) := W16_keep m ρ c main_arg18 (by decide)
    _ = W14 m ρ c (Proc.devRef .tc main_arg18) := W15_of_ne m ρ c main_arg18 (by decide)
    _ = W13 m ρ c (Proc.devRef .tc main_arg18) := W14_keep m ρ c main_arg18 (by decide)
    _ = W12 m ρ c (Proc.devRef .tc main_arg18) := W13_of_ne m ρ c main_arg18 (by decide)
    _ = W11 m ρ c (Proc.devRef .tc main_arg18) := W12_keep m ρ c main_arg18 (by decide)
    _ = W10 m ρ c (Proc.devRef .tc main_arg18) := W11_keep m ρ c main_arg18 (by decide)
    _ = W9 m ρ c (Proc.devRef .tc main_arg18) := W10_keep m ρ c main_arg18 (by decide)
    _ = W8 m ρ c (Proc.devRef .tc main_arg18) := W9_keep m ρ c main_arg18 (by decide)
    _ = W7 m ρ c (Proc.devRef .tc main_arg18) := W8_keep m ρ c main_arg18 (by decide)
    _ = W6 m ρ c (Proc.devRef .tc main_arg18) := W7_of_ne m ρ c main_arg18 (by decide)
    _ = W5 m ρ c (Proc.devRef .tc main_arg18) := W6_keep m ρ c main_arg18 (by decide)
    _ = W4 m ρ c (Proc.devRef .tc main_arg18) := W5_of_ne m ρ c main_arg18 (by decide)
    _ = W3 m ρ c (Proc.devRef .tc main_arg18) := W4_keep m ρ c main_arg18 (by decide)
    _ = W2 m ρ c (Proc.devRef .tc main_arg18) := W3_of_ne m ρ c main_arg18 (by decide)
    _ = W1 m ρ c (Proc.devRef .tc main_arg18) := W2_of_ne m ρ c main_arg18 (by decide)
    _ = W0 m ρ c (Proc.devRef .tc main_arg18) := W1_keep m ρ c main_arg18 (by decide)
    _ = m ((c : Thread nD τ).loc main_arg18) := rfl

theorem W34_main_arg19 (c : Dev nD) : W34 m ρ c (Proc.devRef .tc main_arg19) = m ((c : Thread nD τ).loc main_arg19) :=
  calc W34 m ρ c (Proc.devRef .tc main_arg19)
    _ = W33 m ρ c (Proc.devRef .tc main_arg19) := W34_keep m ρ c main_arg19 (by decide)
    _ = W32 m ρ c (Proc.devRef .tc main_arg19) := W33_of_ne m ρ c main_arg19 (by decide)
    _ = W31 m ρ c (Proc.devRef .tc main_arg19) := W32_keep m ρ c main_arg19 (by decide)
    _ = W30 m ρ c (Proc.devRef .tc main_arg19) := W31_of_ne m ρ c main_arg19 (by decide)
    _ = W29 m ρ c (Proc.devRef .tc main_arg19) := W30_keep m ρ c main_arg19 (by decide)
    _ = W28 m ρ c (Proc.devRef .tc main_arg19) := W29_of_ne m ρ c main_arg19 (by decide)
    _ = W27 m ρ c (Proc.devRef .tc main_arg19) := W28_keep m ρ c main_arg19 (by decide)
    _ = W26 m ρ c (Proc.devRef .tc main_arg19) := W27_of_ne m ρ c main_arg19 (by decide)
    _ = W25 m ρ c (Proc.devRef .tc main_arg19) := W26_keep m ρ c main_arg19 (by decide)
    _ = W24 m ρ c (Proc.devRef .tc main_arg19) := W25_of_ne m ρ c main_arg19 (by decide)
    _ = W23 m ρ c (Proc.devRef .tc main_arg19) := W24_keep m ρ c main_arg19 (by decide)
    _ = W22 m ρ c (Proc.devRef .tc main_arg19) := W23_keep m ρ c main_arg19 (by decide)
    _ = W21 m ρ c (Proc.devRef .tc main_arg19) := W22_keep m ρ c main_arg19 (by decide)
    _ = W20 m ρ c (Proc.devRef .tc main_arg19) := W21_keep m ρ c main_arg19 (by decide)
    _ = W19 m ρ c (Proc.devRef .tc main_arg19) := W20_keep m ρ c main_arg19 (by decide)
    _ = W18 m ρ c (Proc.devRef .tc main_arg19) := W19_of_ne m ρ c main_arg19 (by decide)
    _ = W17 m ρ c (Proc.devRef .tc main_arg19) := W18_keep m ρ c main_arg19 (by decide)
    _ = W16 m ρ c (Proc.devRef .tc main_arg19) := W17_of_ne m ρ c main_arg19 (by decide)
    _ = W15 m ρ c (Proc.devRef .tc main_arg19) := W16_keep m ρ c main_arg19 (by decide)
    _ = W14 m ρ c (Proc.devRef .tc main_arg19) := W15_of_ne m ρ c main_arg19 (by decide)
    _ = W13 m ρ c (Proc.devRef .tc main_arg19) := W14_keep m ρ c main_arg19 (by decide)
    _ = W12 m ρ c (Proc.devRef .tc main_arg19) := W13_of_ne m ρ c main_arg19 (by decide)
    _ = W11 m ρ c (Proc.devRef .tc main_arg19) := W12_keep m ρ c main_arg19 (by decide)
    _ = W10 m ρ c (Proc.devRef .tc main_arg19) := W11_keep m ρ c main_arg19 (by decide)
    _ = W9 m ρ c (Proc.devRef .tc main_arg19) := W10_keep m ρ c main_arg19 (by decide)
    _ = W8 m ρ c (Proc.devRef .tc main_arg19) := W9_keep m ρ c main_arg19 (by decide)
    _ = W7 m ρ c (Proc.devRef .tc main_arg19) := W8_keep m ρ c main_arg19 (by decide)
    _ = W6 m ρ c (Proc.devRef .tc main_arg19) := W7_of_ne m ρ c main_arg19 (by decide)
    _ = W5 m ρ c (Proc.devRef .tc main_arg19) := W6_keep m ρ c main_arg19 (by decide)
    _ = W4 m ρ c (Proc.devRef .tc main_arg19) := W5_of_ne m ρ c main_arg19 (by decide)
    _ = W3 m ρ c (Proc.devRef .tc main_arg19) := W4_keep m ρ c main_arg19 (by decide)
    _ = W2 m ρ c (Proc.devRef .tc main_arg19) := W3_of_ne m ρ c main_arg19 (by decide)
    _ = W1 m ρ c (Proc.devRef .tc main_arg19) := W2_of_ne m ρ c main_arg19 (by decide)
    _ = W0 m ρ c (Proc.devRef .tc main_arg19) := W1_keep m ρ c main_arg19 (by decide)
    _ = m ((c : Thread nD τ).loc main_arg19) := rfl

theorem W34_main_arg20 (c : Dev nD) : W34 m ρ c (Proc.devRef .tc main_arg20) = m ((c : Thread nD τ).loc main_arg20) :=
  calc W34 m ρ c (Proc.devRef .tc main_arg20)
    _ = W33 m ρ c (Proc.devRef .tc main_arg20) := W34_keep m ρ c main_arg20 (by decide)
    _ = W32 m ρ c (Proc.devRef .tc main_arg20) := W33_of_ne m ρ c main_arg20 (by decide)
    _ = W31 m ρ c (Proc.devRef .tc main_arg20) := W32_keep m ρ c main_arg20 (by decide)
    _ = W30 m ρ c (Proc.devRef .tc main_arg20) := W31_of_ne m ρ c main_arg20 (by decide)
    _ = W29 m ρ c (Proc.devRef .tc main_arg20) := W30_keep m ρ c main_arg20 (by decide)
    _ = W28 m ρ c (Proc.devRef .tc main_arg20) := W29_of_ne m ρ c main_arg20 (by decide)
    _ = W27 m ρ c (Proc.devRef .tc main_arg20) := W28_keep m ρ c main_arg20 (by decide)
    _ = W26 m ρ c (Proc.devRef .tc main_arg20) := W27_of_ne m ρ c main_arg20 (by decide)
    _ = W25 m ρ c (Proc.devRef .tc main_arg20) := W26_keep m ρ c main_arg20 (by decide)
    _ = W24 m ρ c (Proc.devRef .tc main_arg20) := W25_of_ne m ρ c main_arg20 (by decide)
    _ = W23 m ρ c (Proc.devRef .tc main_arg20) := W24_keep m ρ c main_arg20 (by decide)
    _ = W22 m ρ c (Proc.devRef .tc main_arg20) := W23_keep m ρ c main_arg20 (by decide)
    _ = W21 m ρ c (Proc.devRef .tc main_arg20) := W22_keep m ρ c main_arg20 (by decide)
    _ = W20 m ρ c (Proc.devRef .tc main_arg20) := W21_keep m ρ c main_arg20 (by decide)
    _ = W19 m ρ c (Proc.devRef .tc main_arg20) := W20_keep m ρ c main_arg20 (by decide)
    _ = W18 m ρ c (Proc.devRef .tc main_arg20) := W19_of_ne m ρ c main_arg20 (by decide)
    _ = W17 m ρ c (Proc.devRef .tc main_arg20) := W18_keep m ρ c main_arg20 (by decide)
    _ = W16 m ρ c (Proc.devRef .tc main_arg20) := W17_of_ne m ρ c main_arg20 (by decide)
    _ = W15 m ρ c (Proc.devRef .tc main_arg20) := W16_keep m ρ c main_arg20 (by decide)
    _ = W14 m ρ c (Proc.devRef .tc main_arg20) := W15_of_ne m ρ c main_arg20 (by decide)
    _ = W13 m ρ c (Proc.devRef .tc main_arg20) := W14_keep m ρ c main_arg20 (by decide)
    _ = W12 m ρ c (Proc.devRef .tc main_arg20) := W13_of_ne m ρ c main_arg20 (by decide)
    _ = W11 m ρ c (Proc.devRef .tc main_arg20) := W12_keep m ρ c main_arg20 (by decide)
    _ = W10 m ρ c (Proc.devRef .tc main_arg20) := W11_keep m ρ c main_arg20 (by decide)
    _ = W9 m ρ c (Proc.devRef .tc main_arg20) := W10_keep m ρ c main_arg20 (by decide)
    _ = W8 m ρ c (Proc.devRef .tc main_arg20) := W9_keep m ρ c main_arg20 (by decide)
    _ = W7 m ρ c (Proc.devRef .tc main_arg20) := W8_keep m ρ c main_arg20 (by decide)
    _ = W6 m ρ c (Proc.devRef .tc main_arg20) := W7_of_ne m ρ c main_arg20 (by decide)
    _ = W5 m ρ c (Proc.devRef .tc main_arg20) := W6_keep m ρ c main_arg20 (by decide)
    _ = W4 m ρ c (Proc.devRef .tc main_arg20) := W5_of_ne m ρ c main_arg20 (by decide)
    _ = W3 m ρ c (Proc.devRef .tc main_arg20) := W4_keep m ρ c main_arg20 (by decide)
    _ = W2 m ρ c (Proc.devRef .tc main_arg20) := W3_of_ne m ρ c main_arg20 (by decide)
    _ = W1 m ρ c (Proc.devRef .tc main_arg20) := W2_of_ne m ρ c main_arg20 (by decide)
    _ = W0 m ρ c (Proc.devRef .tc main_arg20) := W1_keep m ρ c main_arg20 (by decide)
    _ = m ((c : Thread nD τ).loc main_arg20) := rfl

end Cert.Kernel.Frame

end
-- ==== Proof.KI.R0.lean ====
/-
  Region 0 of the program (the encoder's two Linear + LeakyReLU layers over a block of 5000 rows), as proof data for the
  pipeline library, at any float instance and at any contents `V` of the core's buffers when the region is entered.

  At grid point `t` the body is handed the block of rows `5000 t … 5000 t + 4999` of the node features (window 0), the
  whole stacked weights (window 1) and the whole stacked biases (window 2), and stores ONE value into the whole output
  block (window 3): the payload `k0_pay1` of the five loads. So after the body every input buffer still holds its block
  and the output buffer holds the canon of that one store, which covers the block.
-/
import proofs.«151172_j14164802142730_2_alg».proof.Proof.Gen.KernelIdeal.Launch
import proofs.«151172_j14164802142730_2_alg».proof.Proof.Gen.KernelIdeal.Skeleton
import proofs.«151172_j14164802142730_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point, whether the point fetches it or not: where it is not
    fetched the block index has not moved and the body left the buffer as it found it. One statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: the rows' block whole, layer 0's and layer 1's weight and bias, the output block whole -/

abbrev r0_x : Rect S5000x64 := Rect.unit (s := S5000x64) ![0, 0] S5000x64.size inb_S5000x64_S5000x64_0_0
abbrev r0_w0 : Rect S2x64x64 := Rect.unit (s := S2x64x64) ![0, 0, 0] S1x64x64.size inb_S2x64x64_S1x64x64_0_0_0
abbrev r0_b0 : Rect S2x64 := Rect.unit (s := S2x64) ![0, 0] S1x64.size inb_S2x64_S1x64_0_0
abbrev r0_w1 : Rect S2x64x64 := Rect.unit (s := S2x64x64) ![1, 0, 0] S1x64x64.size inb_S2x64x64_S1x64x64_1_0_0
abbrev r0_b1 : Rect S2x64 := Rect.unit (s := S2x64) ![1, 0] S1x64.size inb_S2x64_S1x64_1_0

/-- The output buffer after the body: its one store, of the payload of the five loads. -/
def out0_3 (x0 : Vec F S5000x64 .f32) (x1 : Vec F S2x64x64 .f32) (x2 : Vec F S2x64 .f32) : Vec F S5000x64 .f32 :=
  View.canon [⟨r0_x, k0_pay1 (View.ld x0 r0_x) (View.ld x1 r0_w0) (View.ld x2 r0_b0) (View.ld x1 r0_w1) (View.ld x2 r0_b1)⟩]

/-- The one store is of the whole block, so it covers it. -/
theorem cover0_3 (p0 : Vec F S5000x64 .f32) (y : S5000x64.Idx) :
    ∃ pc ∈ ([⟨r0_x, p0⟩] : List (View.Piece (Elt F) S5000x64 .f32)), y ∈ pc.1.set :=
  View.cover_of_tiled [⟨r0_x, p0⟩] S5000x64.size (by rfl) y

set_option maxHeartbeats 1000000 in
/-- The body on whole buffers, the inputs' at contents `x0 x1 x2` and the output's at anything, runs to the end with the
    inputs' as they were and the output's at `out0_3` of them. -/
theorem sound_kernel0 (c : Dev nD) (E : Set ℕ) (i : grid0.Coords)
    (arg1 : Memref sig .tc .vmem S5000x64 .f32) (harg1 : arg1.IsWhole) (arg2 : Memref sig .tc .vmem S2x64x64 .f32) (harg2 : arg2.IsWhole)
    (arg3 : Memref sig .tc .vmem S2x64 .f32) (harg3 : arg3.IsWhole) (arg4 : Memref sig .tc .vmem S5000x64 .f32) (harg4 : arg4.IsWhole)
    (x0 : Vec F S5000x64 .f32) (x1 : Vec F S2x64x64 .f32) (x2 : Vec F S2x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__mlp_kernel i arg1 harg1 arg2 harg2 arg3 harg3 arg4 harg4) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of pipeline 0 on core `c`: the arrays as the region finds them; after the body each input's buffer at
    its block and the output's at `out0_3` of the three input blocks; the class invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.R1.lean ====
/-
  Region 1 of the program (the encoder's two Linear + LeakyReLU layers over a block of 5000 rows), as proof data for the
  pipeline library, at any float instance and at any contents `V` of the core's buffers when the region is entered.

  At grid point `t` the body is handed the block of rows `5000 t … 5000 t + 4999` of the node features (window 0), the
  whole stacked weights (window 1) and the whole stacked biases (window 2), and stores ONE value into the whole output
  block (window 3): the payload `k1_pay1` of the five loads. So after the body every input buffer still holds its block
  and the output buffer holds the canon of that one store, which covers the block.
-/
import proofs.«151172_j14164802142730_2_alg».proof.Proof.Gen.KernelIdeal.Launch
import proofs.«151172_j14164802142730_2_alg».proof.Proof.Gen.KernelIdeal.Skeleton
import proofs.«151172_j14164802142730_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's buffer holds its block at every point, whether the point fetches it or not: where it is not
    fetched the block index has not moved and the body left the buffer as it found it. One statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: the rows' block whole, layer 0's and layer 1's weight and bias, the output block whole -/

abbrev r1_x : Rect S5000x64 := Rect.unit (s := S5000x64) ![0, 0] S5000x64.size inb_S5000x64_S5000x64_0_0
abbrev r1_w0 : Rect S2x64x64 := Rect.unit (s := S2x64x64) ![0, 0, 0] S1x64x64.size inb_S2x64x64_S1x64x64_0_0_0
abbrev r1_b0 : Rect S2x64 := Rect.unit (s := S2x64) ![0, 0] S1x64.size inb_S2x64_S1x64_0_0
abbrev r1_w1 : Rect S2x64x64 := Rect.unit (s := S2x64x64) ![1, 0, 0] S1x64x64.size inb_S2x64x64_S1x64x64_1_0_0
abbrev r1_b1 : Rect S2x64 := Rect.unit (s := S2x64) ![1, 0] S1x64.size inb_S2x64_S1x64_1_0

/-- The output buffer after the body: its one store, of the payload of the five loads. -/
def out1_3 (x0 : Vec F S5000x64 .f32) (x1 : Vec F S2x64x64 .f32) (x2 : Vec F S2x64 .f32) : Vec F S5000x64 .f32 :=
  View.canon [⟨r1_x, k1_pay1 (View.ld x0 r1_x) (View.ld x1 r1_w0) (View.ld x2 r1_b0) (View.ld x1 r1_w1) (View.ld x2 r1_b1)⟩]

/-- The one store is of the whole block, so it covers it. -/
theorem cover1_3 (p0 : Vec F S5000x64 .f32) (y : S5000x64.Idx) :
    ∃ pc ∈ ([⟨r1_x, p0⟩] : List (View.Piece (Elt F) S5000x64 .f32)), y ∈ pc.1.set :=
  View.cover_of_tiled [⟨r1_x, p0⟩] S5000x64.size (by rfl) y

set_option maxHeartbeats 1000000 in
/-- The body on whole buffers, the inputs' at contents `x0 x1 x2` and the output's at anything, runs to the end with the
    inputs' as they were and the output's at `out1_3` of them. -/
theorem sound_kernel1 (c : Dev nD) (E : Set ℕ) (i : grid1.Coords)
    (arg1 : Memref sig .tc .vmem S5000x64 .f32) (harg1 : arg1.IsWhole) (arg2 : Memref sig .tc .vmem S2x64x64 .f32) (harg2 : arg2.IsWhole)
    (arg3 : Memref sig .tc .vmem S2x64 .f32) (harg3 : arg3.IsWhole) (arg4 : Memref sig .tc .vmem S5000x64 .f32) (harg4 : arg4.IsWhole)
    (x0 : Vec F S5000x64 .f32) (x1 : Vec F S2x64x64 .f32) (x2 : Vec F S2x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__mlp_kernel i arg1 harg1 arg2 harg2 arg3 harg3 arg4 harg4) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of pipeline 1 on core `c`: the arrays as the region finds them; after the body each input's buffer at
    its block and the output's at `out1_3` of the three input blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.KI.R2.lean ====
/-
  Region 2 of the program (one SAGEConv linear combine over a block of 5000 rows), as proof data for the pipeline
  library, at any float instance and at any contents `V` of the core's buffers when the region is entered.

  At grid point `t` the body is handed the block of rows `5000 t … 5000 t + 4999` of the destination nodes' features
  (window 0) and of the aggregated messages (window 1), the whole self weight (window 2), the whole message weight
  (window 3) and the whole bias (window 4). It stores ONE value into the whole output block (window 5): the payload
  `k2_pay1` of the five loads, which is the features times the self weight plus the messages times the message weight
  plus the bias on every row. So after the body every input buffer still holds its block and the output buffer holds the
  canon of that one store, which covers the block.
-/
import proofs.«151172_j14164802142730_2_alg».proof.Proof.Gen.KernelIdeal.Launch
import proofs.«151172_j14164802142730_2_alg».proof.Proof.Gen.KernelIdeal.Skeleton
import proofs.«151172_j14164802142730_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point, whether the point fetches it or not: the two row blocks are
    fetched at every point; the weights and the bias are fetched once, their block index never moves and the body leaves
    their buffers as it found them. One statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: a block of rows whole (both row inputs and the output), a weight whole, the bias whole -/

abbrev r2_x : Rect S5000x64 := Rect.unit (s := S5000x64) ![0, 0] S5000x64.size inb_S5000x64_S5000x64_0_0
abbrev r2_w : Rect S64x64 := Rect.unit (s := S64x64) ![0, 0] S64x64.size inb_S64x64_S64x64_0_0
abbrev r2_b : Rect S64 := Rect.unit (s := S64) ![0] S64.size inb_S64_S64_0

/-- The output buffer after the body: its one store, of the payload of the five loads. -/
def out2_5 (x0 : Vec F S5000x64 .f32) (x1 : Vec F S5000x64 .f32) (x2 : Vec F S64x64 .f32) (x3 : Vec F S64x64 .f32) (x4 : Vec F S64 .f32) :
    Vec F S5000x64 .f32 :=
  View.canon [⟨r2_x, k2_pay1 (View.ld x0 r2_x) (View.ld x1 r2_x) (View.ld x2 r2_w) (View.ld x3 r2_w) (View.ld x4 r2_b)⟩]

/-- The one store is of the whole block, so it covers it. -/
theorem cover2_5 (p0 : Vec F S5000x64 .f32) (y : S5000x64.Idx) :
    ∃ pc ∈ ([⟨r2_x, p0⟩] : List (View.Piece (Elt F) S5000x64 .f32)), y ∈ pc.1.set :=
  View.cover_of_tiled [⟨r2_x, p0⟩] S5000x64.size (by rfl) y

set_option maxHeartbeats 1000000 in
/-- The body on whole buffers, the inputs' at contents `x0 … x4` and the output's at anything, runs to the end with the
    inputs' as they were and the output's at `out2_5` of them. -/
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S64 .f32) (harg5 : arg5.IsWhole) (arg6 : Memref sig .tc .vmem S5000x64 .f32) (harg6 : arg6.IsWhole)
    (x0 : Vec F S5000x64 .f32) (x1 : Vec F S5000x64 .f32) (x2 : Vec F S64x64 .f32) (x3 : Vec F S64x64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2__sage1_kernel i arg1 harg1 arg2 harg2 arg3 harg3 arg4 harg4 arg5 harg5 arg6 harg6) K := by
  simp only [cc2__sage1_kernel_eq_skeleton]; unfold cc2__sage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core `c`: the arrays as the region finds them; after the body each input's buffer at
    its block and the output's at `out2_5` of the five input blocks; the class invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.KI.R3.lean ====
/-
  Region 3 of the program (the sum of two SAGEConv linear combines that share the destination features, over a block of
  5000 rows), as proof data for the pipeline library, at any float instance and at any contents `V` of the core's
  buffers when the region is entered.

  At grid point `t` the body is handed the block of rows `5000 t … 5000 t + 4999` of the destination features
  (window 0) and of the two aggregated messages (windows 1 and 2), the whole self weight, message weight and bias of the
  first conv (windows 3, 4, 5) and of the second conv (windows 6, 7, 8), and stores ONE value into the whole output block
  (window 9): the payload `k3_pay1` of the nine loads, that is
  `x·Ws + m₁·Wm + b + x·Ws' + m₂·Wm' + b'` with every matrix operand rounded to bf16 first. So after the body every
  input buffer still holds its block and the output buffer holds the canon of that one store, which covers the block.
-/
import proofs.«151172_j14164802142730_2_alg».proof.Proof.Gen.KernelIdeal.Launch
import proofs.«151172_j14164802142730_2_alg».proof.Proof.Gen.KernelIdeal.Skeleton
import proofs.«151172_j14164802142730_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's buffer holds its block at every point, whether the point fetches it or not: the three row blocks
    are fetched at every point; the six parameter windows are fetched once, their block index never moves and the body
    leaves their buffers as it found them. One statement per input window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: a row block whole, a weight whole, a bias whole -/

abbrev r3_x : Rect S5000x64 := Rect.unit (s := S5000x64) ![0, 0] S5000x64.size inb_S5000x64_S5000x64_0_0
abbrev r3_w : Rect S64x64 := Rect.unit (s := S64x64) ![0, 0] S64x64.size inb_S64x64_S64x64_0_0
abbrev r3_b : Rect S64 := Rect.unit (s := S64) ![0] S64.size inb_S64_S64_0

/-- The output buffer after the body: its one store, of the payload of the nine loads (the destination block, the two
    message blocks, the two convs' self and message weights, then the two biases). -/
def out3_9 (x0 : Vec F S5000x64 .f32) (x1 : Vec F S5000x64 .f32) (x2 : Vec F S5000x64 .f32) (x3 : Vec F S64x64 .f32) (x4 : Vec F S64x64 .f32) (x5 : Vec F S64 .f32) (x6 : Vec F S64x64 .f32) (x7 : Vec F S64x64 .f32) (x8 : Vec F S64 .f32) : Vec F S5000x64 .f32 :=
  View.canon [⟨r3_x, k3_pay1 (View.ld x0 r3_x) (View.ld x1 r3_x) (View.ld x2 r3_x) (View.ld x3 r3_w) (View.ld x4 r3_w) (View.ld x6 r3_w) (View.ld x7 r3_w) (View.ld x5 r3_b) (View.ld x8 r3_b)⟩]

/-- The one store is of the whole block, so it covers it. -/
theorem cover3_9 (p0 : Vec F S5000x64 .f32) (y : S5000x64.Idx) :
    ∃ pc ∈ ([⟨r3_x, p0⟩] : List (View.Piece (Elt F) S5000x64 .f32)), y ∈ pc.1.set :=
  View.cover_of_tiled [⟨r3_x, p0⟩] S5000x64.size (by rfl) y

set_option maxHeartbeats 1000000 in
/-- The body on whole buffers, the inputs' at contents `x0 x1 x2 x3 x4 x5 x6 x7 x8` and the output's at anything, runs to the end
    with the inputs' as they were and the output's at `out3_9` of them. -/
theorem sound_kernel3 (c : Dev nD) (E : Set ℕ) (i : grid3.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S64x64 .f32) (harg4 : arg4.IsWhole)
    (arg5 : Memref sig .tc .vmem S64x64 .f32) (harg5 : arg5.IsWhole) (arg6 : Memref sig .tc .vmem S64 .f32) (harg6 : arg6.IsWhole)
    (arg7 : Memref sig .tc .vmem S64x64 .f32) (harg7 : arg7.IsWhole) (arg8 : Memref sig .tc .vmem S64x64 .f32) (harg8 : arg8.IsWhole)
    (arg9 : Memref sig .tc .vmem S64 .f32) (harg9 : arg9.IsWhole) (arg10 : Memref sig .tc .vmem S5000x64 .f32) (harg10 : arg10.IsWhole)
    (x0 : Vec F S5000x64 .f32) (x1 : Vec F S5000x64 .f32) (x2 : Vec F S5000x64 .f32) (x3 : Vec F S64x64 .f32) (x4 : Vec F S64x64 .f32) (x5 : Vec F S64 .f32) (x6 : Vec F S64x64 .f32) (x7 : Vec F S64x64 .f32) (x8 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out3_9 x0 x1 x2 x3 x4 x5 x6 x7 x8)) -∗ K ⟨⟩))
      ⊢ wp frame (wpE (defs₀ (F := F)) Variants.none c none) E (cc3__sage2_kernel i arg1 harg1 arg2 harg2 arg3 harg3 arg4 harg4 arg5 harg5 arg6 harg6 arg7 harg7 arg8 harg8 arg9 harg9 arg10 harg10) K := by
  simp only [cc3__sage2_kernel_eq_skeleton, k3_part1_eq_skeleton]; unfold cc3__sage2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover3_9 _)

/-- The proof data of pipeline 3 on core `c`: the arrays as the region finds them; after the body each input's buffer at
    its block and the output's at `out3_9` of the nine input blocks; the class invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) :
    (dat3 V c).after 9 t = out3_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frame

end
-- ==== Proof.KI.R4.lean ====
/-
  Region 4 of the program (the batch-norm affine step followed by LeakyReLU, over a block of 5000 rows), as proof data
  for the pipeline library, at any float instance and at any contents `V` of the core's buffers when the region is entered.

  At grid point `t` the body is handed the block of rows `5000 t … 5000 t + 4999` of the features (window 0) and four
  whole per-feature vectors of length 64: the scale gamma (window 1), the shift beta (window 2), the mean (window 3) and
  the variance (window 4). It stores ONE value into the whole output block (window 5): the payload `k4_pay1` of the five
  loads, taken in the order rows, mean, variance, gamma, beta. So after the body every input buffer still holds its block
  and the output buffer holds the canon of that one store, which covers the block.
-/
import proofs.«151172_j14164802142730_2_alg».proof.Proof.Gen.KernelIdeal.Launch
import proofs.«151172_j14164802142730_2_alg».proof.Proof.Gen.KernelIdeal.Skeleton
import proofs.«151172_j14164802142730_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's buffer holds its block at every point, whether the point fetches it or not: where it is not
    fetched the block index has not moved and the body left the buffer as it found it. One statement per input window. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: the rows' block whole (read, and written as the output), a per-feature vector whole -/

abbrev r4_x : Rect S5000x64 := Rect.unit (s := S5000x64) ![0, 0] S5000x64.size inb_S5000x64_S5000x64_0_0
abbrev r4_v : Rect S64 := Rect.unit (s := S64) ![0] S64.size inb_S64_S64_0

/-- The output buffer after the body: its one store, of the payload of the five loads. The payload takes the rows
    first, then the mean and the variance (windows 3 and 4), then gamma and beta (windows 1 and 2). -/
def out4_5 (x0 : Vec F S5000x64 .f32) (x1 : Vec F S64 .f32) (x2 : Vec F S64 .f32) (x3 : Vec F S64 .f32) (x4 : Vec F S64 .f32) :
    Vec F S5000x64 .f32 :=
  View.canon [⟨r4_x, k4_pay1 (View.ld x0 r4_x) (View.ld x3 r4_v) (View.ld x4 r4_v) (View.ld x1 r4_v) (View.ld x2 r4_v)⟩]

/-- The one store is of the whole block, so it covers it. -/
theorem cover4_5 (p0 : Vec F S5000x64 .f32) (y : S5000x64.Idx) :
    ∃ pc ∈ ([⟨r4_x, p0⟩] : List (View.Piece (Elt F) S5000x64 .f32)), y ∈ pc.1.set :=
  View.cover_of_tiled [⟨r4_x, p0⟩] S5000x64.size (by rfl) y

set_option maxHeartbeats 1000000 in
/-- The body on whole buffers, the inputs' at contents `x0 x1 x2 x3 x4` and the output's at anything, runs to the end with
    the inputs' as they were and the output's at `out4_5` of them. -/
theorem sound_kernel4 (c : Dev nD) (E : Set ℕ) (i : grid4.Coords)
    (arg1 : Memref sig .tc .vmem S5000x64 .f32) (harg1 : arg1.IsWhole) (arg2 : Memref sig .tc .vmem S64 .f32) (harg2 : arg2.IsWhole)
    (arg3 : Memref sig .tc .vmem S64 .f32) (harg3 : arg3.IsWhole) (arg4 : Memref sig .tc .vmem S64 .f32) (harg4 : arg4.IsWhole)
    (arg5 : Memref sig .tc .vmem S64 .f32) (harg5 : arg5.IsWhole) (arg6 : Memref sig .tc .vmem S5000x64 .f32) (harg6 : arg6.IsWhole)
    (x0 : Vec F S5000x64 .f32) (x1 : Vec F S64 .f32) (x2 : Vec F S64 .f32) (x3 : Vec F S64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out4_5 x0 x1 x2 x3 x4)) -∗ K ⟨⟩))
      ⊢ wp frame (wpE (defs₀ (F := F)) Variants.none c none) E
          (cc4__bn_kernel i arg1 harg1 arg2 harg2 arg3 harg3 arg4 harg4 arg5 harg5 arg6 harg6) K := by
  simp only [cc4__bn_kernel_eq_skeleton]; unfold cc4__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-- The proof data of pipeline 4 on core `c`: the arrays as the region finds them; after the body each input's buffer at
    its block and the output's at `out4_5` of the five input blocks; the class invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) :
    (dat4 V c).after 5 t = out4_5 (iblk4 V c 0 t) (iblk4 V c 1 t) (iblk4 V c 2 t) (iblk4 V c 3 t) (iblk4 V c 4 t) := by
  dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _
    (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Frame

end
-- ==== Proof.KI.R5.lean ====
/-
  Region 5 of the program (the batch-norm affine step followed by LeakyReLU, over a block of 5000 rows), as proof data
  for the pipeline library, at any float instance and at any contents `V` of the core's buffers when the region is entered.

  At grid point `t` the body is handed the block of rows `5000 t … 5000 t + 4999` of the features (window 0) and four
  whole per-feature vectors of length 64: the scale gamma (window 1), the shift beta (window 2), the mean (window 3) and
  the variance (window 4). It stores ONE value into the whole output block (window 5): the payload `k5_pay1` of the five
  loads, taken in the order rows, mean, variance, gamma, beta. So after the body every input buffer still holds its block
  and the output buffer holds the canon of that one store, which covers the block.
-/
import proofs.«151172_j14164802142730_2_alg».proof.Proof.Gen.KernelIdeal.Launch
import proofs.«151172_j14164802142730_2_alg».proof.Proof.Gen.KernelIdeal.Skeleton
import proofs.«151172_j14164802142730_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's buffer holds its block at every point, whether the point fetches it or not: where it is not
    fetched the block index has not moved and the body left the buffer as it found it. One statement per input window. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: the rows' block whole (read, and written as the output), a per-feature vector whole -/

abbrev r5_x : Rect S5000x64 := Rect.unit (s := S5000x64) ![0, 0] S5000x64.size inb_S5000x64_S5000x64_0_0
abbrev r5_v : Rect S64 := Rect.unit (s := S64) ![0] S64.size inb_S64_S64_0

/-- The output buffer after the body: its one store, of the payload of the five loads. The payload takes the rows
    first, then the mean and the variance (windows 3 and 4), then gamma and beta (windows 1 and 2). -/
def out5_5 (x0 : Vec F S5000x64 .f32) (x1 : Vec F S64 .f32) (x2 : Vec F S64 .f32) (x3 : Vec F S64 .f32) (x4 : Vec F S64 .f32) :
    Vec F S5000x64 .f32 :=
  View.canon [⟨r5_x, k5_pay1 (View.ld x0 r5_x) (View.ld x3 r5_v) (View.ld x4 r5_v) (View.ld x1 r5_v) (View.ld x2 r5_v)⟩]

/-- The one store is of the whole block, so it covers it. -/
theorem cover5_5 (p0 : Vec F S5000x64 .f32) (y : S5000x64.Idx) :
    ∃ pc ∈ ([⟨r5_x, p0⟩] : List (View.Piece (Elt F) S5000x64 .f32)), y ∈ pc.1.set :=
  View.cover_of_tiled [⟨r5_x, p0⟩] S5000x64.size (by rfl) y

set_option maxHeartbeats 1000000 in
/-- The body on whole buffers, the inputs' at contents `x0 x1 x2 x3 x4` and the output's at anything, runs to the end with
    the inputs' as they were and the output's at `out5_5` of them. -/
theorem sound_kernel5 (c : Dev nD) (E : Set ℕ) (i : grid5.Coords)
    (arg1 : Memref sig .tc .vmem S5000x64 .f32) (harg1 : arg1.IsWhole) (arg2 : Memref sig .tc .vmem S64 .f32) (harg2 : arg2.IsWhole)
    (arg3 : Memref sig .tc .vmem S64 .f32) (harg3 : arg3.IsWhole) (arg4 : Memref sig .tc .vmem S64 .f32) (harg4 : arg4.IsWhole)
    (arg5 : Memref sig .tc .vmem S64 .f32) (harg5 : arg5.IsWhole) (arg6 : Memref sig .tc .vmem S5000x64 .f32) (harg6 : arg6.IsWhole)
    (x0 : Vec F S5000x64 .f32) (x1 : Vec F S64 .f32) (x2 : Vec F S64 .f32) (x3 : Vec F S64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E
          (cc5__bn_kernel i arg1 harg1 arg2 harg2 arg3 harg3 arg4 harg4 arg5 harg5 arg6 harg6) K := by
  simp only [cc5__bn_kernel_eq_skeleton]; unfold cc5__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of pipeline 5 on core `c`: the arrays as the region finds them; after the body each input's buffer at
    its block and the output's at `out5_5` of the five input blocks; the class invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by
  dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Frame

end
-- ==== Proof.KI.R6.lean ====
/-
  Region 6 of the program (one SAGEConv linear combine over a block of 5000 rows), as proof data for the pipeline
  library, at any float instance and at any contents `V` of the core's buffers when the region is entered.

  At grid point `t` the body is handed the block of rows `5000 t … 5000 t + 4999` of the destination nodes' features
  (window 0) and of the aggregated messages (window 1), the whole self weight (window 2), the whole message weight
  (window 3) and the whole bias (window 4). It stores ONE value into the whole output block (window 5): the payload
  `k6_pay1` of the five loads, which is the features times the self weight plus the messages times the message weight
  plus the bias on every row. So after the body every input buffer still holds its block and the output buffer holds the
  canon of that one store, which covers the block.
-/
import proofs.«151172_j14164802142730_2_alg».proof.Proof.Gen.KernelIdeal.Launch
import proofs.«151172_j14164802142730_2_alg».proof.Proof.Gen.KernelIdeal.Skeleton
import proofs.«151172_j14164802142730_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's buffer holds its block at every point, whether the point fetches it or not: the two row blocks are
    fetched at every point; the weights and the bias are fetched once, their block index never moves and the body leaves
    their buffers as it found them. One statement per input window. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: a block of rows whole (both row inputs and the output), a weight whole, the bias whole -/

abbrev r6_x : Rect S5000x64 := Rect.unit (s := S5000x64) ![0, 0] S5000x64.size inb_S5000x64_S5000x64_0_0
abbrev r6_w : Rect S64x64 := Rect.unit (s := S64x64) ![0, 0] S64x64.size inb_S64x64_S64x64_0_0
abbrev r6_b : Rect S64 := Rect.unit (s := S64) ![0] S64.size inb_S64_S64_0

/-- The output buffer after the body: its one store, of the payload of the five loads. -/
def out6_5 (x0 : Vec F S5000x64 .f32) (x1 : Vec F S5000x64 .f32) (x2 : Vec F S64x64 .f32) (x3 : Vec F S64x64 .f32) (x4 : Vec F S64 .f32) :
    Vec F S5000x64 .f32 :=
  View.canon [⟨r6_x, k6_pay1 (View.ld x0 r6_x) (View.ld x1 r6_x) (View.ld x2 r6_w) (View.ld x3 r6_w) (View.ld x4 r6_b)⟩]

/-- The one store is of the whole block, so it covers it. -/
theorem cover6_5 (p0 : Vec F S5000x64 .f32) (y : S5000x64.Idx) :
    ∃ pc ∈ ([⟨r6_x, p0⟩] : List (View.Piece (Elt F) S5000x64 .f32)), y ∈ pc.1.set :=
  View.cover_of_tiled [⟨r6_x, p0⟩] S5000x64.size (by rfl) y

set_option maxHeartbeats 1000000 in
/-- The body on whole buffers, the inputs' at contents `x0 … x4` and the output's at anything, runs to the end with the
    inputs' as they were and the output's at `out6_5` of them. -/
theorem sound_kernel6 (c : Dev nD) (E : Set ℕ) (i : grid6.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S64 .f32) (harg5 : arg5.IsWhole) (arg6 : Memref sig .tc .vmem S5000x64 .f32) (harg6 : arg6.IsWhole)
    (x0 : Vec F S5000x64 .f32) (x1 : Vec F S5000x64 .f32) (x2 : Vec F S64x64 .f32) (x3 : Vec F S64x64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out6_5 x0 x1 x2 x3 x4)) -∗ K ⟨⟩))
      ⊢ wp frame (wpE (defs₀ (F := F)) Variants.none c none) E
          (cc6__sage1_kernel i arg1 harg1 arg2 harg2 arg3 harg3 arg4 harg4 arg5 harg5 arg6 harg6) K := by
  simp only [cc6__sage1_kernel_eq_skeleton]; unfold cc6__sage1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-- The proof data of pipeline 6 on core `c`: the arrays as the region finds them; after the body each input's buffer at
    its block and the output's at `out6_5` of the five input blocks; the class invariant; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) :
    (dat6 V c).after 5 t = out6_5 (iblk6 V c 0 t) (iblk6 V c 1 t) (iblk6 V c 2 t) (iblk6 V c 3 t) (iblk6 V c 4 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ _ _ _ _ _ _ _ _ _ _ _ _ _
    (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Frame

end
-- ==== Proof.KI.R7.lean ====
/-
  Region 7 of the program (the sum of two SAGEConv linear combines that share the destination features, over a block of
  5000 rows), as proof data for the pipeline library, at any float instance and at any contents `V` of the core's
  buffers when the region is entered.

  At grid point `t` the body is handed the block of rows `5000 t … 5000 t + 4999` of the destination features
  (window 0) and of the two aggregated messages (windows 1 and 2), the whole self weight, message weight and bias of the
  first conv (windows 3, 4, 5) and of the second conv (windows 6, 7, 8), and stores ONE value into the whole output block
  (window 9): the payload `k7_pay1` of the nine loads, that is
  `x·Ws + m₁·Wm + b + x·Ws' + m₂·Wm' + b'` with every matrix operand rounded to bf16 first. So after the body every
  input buffer still holds its block and the output buffer holds the canon of that one store, which covers the block.
-/
import proofs.«151172_j14164802142730_2_alg».proof.Proof.Gen.KernelIdeal.Launch
import proofs.«151172_j14164802142730_2_alg».proof.Proof.Gen.KernelIdeal.Skeleton
import proofs.«151172_j14164802142730_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's buffer holds its block at every point, whether the point fetches it or not: the three row blocks
    are fetched at every point; the six parameter windows are fetched once, their block index never moves and the body
    leaves their buffers as it found them. One statement per input window. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)
theorem before7_8_of {c : Dev nD} (dat : Dat τ (Elt F) Unit ℕ (UR sig nD τ) ℕ cfg7 c) (hA : dat.A 8 = V c (Pipeline.arrRef spec7 8))
    (hafter : ∀ t, dat.after 8 t = iblk7 V c 8 t) (t : Fin cfg7.N) (d) : dat.before 8 t d = iblk7 V c 8 t :=
  (dat.before_in_eq_fetched 8 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: a row block whole, a weight whole, a bias whole -/

abbrev r7_x : Rect S5000x64 := Rect.unit (s := S5000x64) ![0, 0] S5000x64.size inb_S5000x64_S5000x64_0_0
abbrev r7_w : Rect S64x64 := Rect.unit (s := S64x64) ![0, 0] S64x64.size inb_S64x64_S64x64_0_0
abbrev r7_b : Rect S64 := Rect.unit (s := S64) ![0] S64.size inb_S64_S64_0

/-- The output buffer after the body: its one store, of the payload of the nine loads (the destination block, the two
    message blocks, the two convs' self and message weights, then the two biases). -/
def out7_9 (x0 : Vec F S5000x64 .f32) (x1 : Vec F S5000x64 .f32) (x2 : Vec F S5000x64 .f32) (x3 : Vec F S64x64 .f32) (x4 : Vec F S64x64 .f32) (x5 : Vec F S64 .f32) (x6 : Vec F S64x64 .f32) (x7 : Vec F S64x64 .f32) (x8 : Vec F S64 .f32) : Vec F S5000x64 .f32 :=
  View.canon [⟨r7_x, k7_pay1 (View.ld x0 r7_x) (View.ld x1 r7_x) (View.ld x2 r7_x) (View.ld x3 r7_w) (View.ld x4 r7_w) (View.ld x6 r7_w) (View.ld x7 r7_w) (View.ld x5 r7_b) (View.ld x8 r7_b)⟩]

/-- The one store is of the whole block, so it covers it. -/
theorem cover7_9 (p0 : Vec F S5000x64 .f32) (y : S5000x64.Idx) :
    ∃ pc ∈ ([⟨r7_x, p0⟩] : List (View.Piece (Elt F) S5000x64 .f32)), y ∈ pc.1.set :=
  View.cover_of_tiled [⟨r7_x, p0⟩] S5000x64.size (by rfl) y

set_option maxHeartbeats 1000000 in
/-- The body on whole buffers, the inputs' at contents `x0 x1 x2 x3 x4 x5 x6 x7 x8` and the output's at anything, runs to the end
    with the inputs' as they were and the output's at `out7_9` of them. -/
theorem sound_kernel7 (c : Dev nD) (E : Set ℕ) (i : grid7.Coords)
    (arg1 : Memref sig .tc .vmem S5000x64 .f32) (harg1 : arg1.IsWhole) (arg2 : Memref sig .tc .vmem S5000x64 .f32) (harg2 : arg2.IsWhole)
    (arg3 : Memref sig .tc .vmem S5000x64 .f32) (harg3 : arg3.IsWhole) (arg4 : Memref sig .tc .vmem S64x64 .f32) (harg4 : arg4.IsWhole)
    (arg5 : Memref sig .tc .vmem S64x64 .f32) (harg5 : arg5.IsWhole) (arg6 : Memref sig .tc .vmem S64 .f32) (harg6 : arg6.IsWhole)
    (arg7 : Memref sig .tc .vmem S64x64 .f32) (harg7 : arg7.IsWhole) (arg8 : Memref sig .tc .vmem S64x64 .f32) (harg8 : arg8.IsWhole)
    (arg9 : Memref sig .tc .vmem S64 .f32) (harg9 : arg9.IsWhole) (arg10 : Memref sig .tc .vmem S5000x64 .f32) (harg10 : arg10.IsWhole)
    (x0 : Vec F S5000x64 .f32) (x1 : Vec F S5000x64 .f32) (x2 : Vec F S5000x64 .f32) (x3 : Vec F S64x64 .f32) (x4 : Vec F S64x64 .f32) (x5 : Vec F S64 .f32) (x6 : Vec F S64x64 .f32) (x7 : Vec F S64x64 .f32) (x8 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (out7_9 x0 x1 x2 x3 x4 x5 x6 x7 x8)) -∗ K ⟨⟩))
      ⊢ wp frame (wpE (defs₀ (F := F)) Variants.none c none) E (cc7__sage2_kernel i arg1 harg1 arg2 harg2 arg3 harg3 arg4 harg4 arg5 harg5 arg6 harg6 arg7 harg7 arg8 harg8 arg9 harg9 arg10 harg10) K := by
  simp only [cc7__sage2_kernel_eq_skeleton, k7_part1_eq_skeleton]; unfold cc7__sage2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover7_9 _)

/-- The proof data of pipeline 7 on core `c`: the arrays as the region finds them; after the body each input's buffer at
    its block and the output's at `out7_9` of the nine input blocks; the class invariant; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => out7_9 (iblk7 V c 0 t) (iblk7 V c 1 t) (iblk7 V c 2 t) (iblk7 V c 3 t) (iblk7 V c 4 t) (iblk7 V c 5 t) (iblk7 V c 6 t) (iblk7 V c 7 t) (iblk7 V c 8 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) :
    (dat7 V c).after 9 t = out7_9 (iblk7 V c 0 t) (iblk7 V c 1 t) (iblk7 V c 2 t) (iblk7 V c 3 t) (iblk7 V c 4 t) (iblk7 V c 5 t) (iblk7 V c 6 t) (iblk7 V c 7 t) (iblk7 V c 8 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d
theorem before7_8 (c : Dev nD) (t : Fin cfg7.N) (d) : (dat7 V c).before 8 t d = iblk7 V c 8 t :=
  before7_8_of V (dat7 V c) (A_eq7 V c 8) (after7_8 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7, before7_8]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel7 c Set.univ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Frame

end
-- ==== Proof.KI.R8.lean ====
/-
  Region 8 of the program (the batch-norm affine step, over a block of 5000 rows), as proof data
  for the pipeline library, at any float instance and at any contents `V` of the core's buffers when the region is entered.

  At grid point `t` the body is handed the block of rows `5000 t … 5000 t + 4999` of the features (window 0) and four
  whole per-feature vectors of length 64: the scale gamma (window 1), the shift beta (window 2), the mean (window 3) and
  the variance (window 4). It stores ONE value into the whole output block (window 5): the payload `k8_pay1` of the five
  loads, taken in the order rows, mean, variance, gamma, beta. So after the body every input buffer still holds its block
  and the output buffer holds the canon of that one store, which covers the block.
-/
import proofs.«151172_j14164802142730_2_alg».proof.Proof.Gen.KernelIdeal.Launch
import proofs.«151172_j14164802142730_2_alg».proof.Proof.Gen.KernelIdeal.Skeleton
import proofs.«151172_j14164802142730_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's buffer holds its block at every point, whether the point fetches it or not: where it is not
    fetched the block index has not moved and the body left the buffer as it found it. One statement per input window. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: the rows' block whole (read, and written as the output), a per-feature vector whole -/

abbrev r8_x : Rect S5000x64 := Rect.unit (s := S5000x64) ![0, 0] S5000x64.size inb_S5000x64_S5000x64_0_0
abbrev r8_v : Rect S64 := Rect.unit (s := S64) ![0] S64.size inb_S64_S64_0

/-- The output buffer after the body: its one store, of the payload of the five loads. The payload takes the rows
    first, then the mean and the variance (windows 3 and 4), then gamma and beta (windows 1 and 2). -/
def out8_5 (x0 : Vec F S5000x64 .f32) (x1 : Vec F S64 .f32) (x2 : Vec F S64 .f32) (x3 : Vec F S64 .f32) (x4 : Vec F S64 .f32) :
    Vec F S5000x64 .f32 :=
  View.canon [⟨r8_x, k8_pay1 (View.ld x0 r8_x) (View.ld x3 r8_v) (View.ld x4 r8_v) (View.ld x1 r8_v) (View.ld x2 r8_v)⟩]

/-- The one store is of the whole block, so it covers it. -/
theorem cover8_5 (p0 : Vec F S5000x64 .f32) (y : S5000x64.Idx) :
    ∃ pc ∈ ([⟨r8_x, p0⟩] : List (View.Piece (Elt F) S5000x64 .f32)), y ∈ pc.1.set :=
  View.cover_of_tiled [⟨r8_x, p0⟩] S5000x64.size (by rfl) y

set_option maxHeartbeats 1000000 in
/-- The body on whole buffers, the inputs' at contents `x0 x1 x2 x3 x4` and the output's at anything, runs to the end with
    the inputs' as they were and the output's at `out8_5` of them. -/
theorem sound_kernel8 (c : Dev nD) (E : Set ℕ) (i : grid8.Coords)
    (arg1 : Memref sig .tc .vmem S5000x64 .f32) (harg1 : arg1.IsWhole) (arg2 : Memref sig .tc .vmem S64 .f32) (harg2 : arg2.IsWhole)
    (arg3 : Memref sig .tc .vmem S64 .f32) (harg3 : arg3.IsWhole) (arg4 : Memref sig .tc .vmem S64 .f32) (harg4 : arg4.IsWhole)
    (arg5 : Memref sig .tc .vmem S64 .f32) (harg5 : arg5.IsWhole) (arg6 : Memref sig .tc .vmem S5000x64 .f32) (harg6 : arg6.IsWhole)
    (x0 : Vec F S5000x64 .f32) (x1 : Vec F S64 .f32) (x2 : Vec F S64 .f32) (x3 : Vec F S64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out8_5 x0 x1 x2 x3 x4)) -∗ K ⟨⟩))
      ⊢ wp frame (wpE (defs₀ (F := F)) Variants.none c none) E
          (cc8__bn_kernel i arg1 harg1 arg2 harg2 arg3 harg3 arg4 harg4 arg5 harg5 arg6 harg6) K := by
  simp only [cc8__bn_kernel_eq_skeleton]; unfold cc8__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-- The proof data of pipeline 8 on core `c`: the arrays as the region finds them; after the body each input's buffer at
    its block and the output's at `out8_5` of the five input blocks; the class invariant; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by
  dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _
    (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Frame

end
-- ==== Proof.KI.R9.lean ====
/-
  Region 9 of the program (the batch-norm affine step, over a block of 5000 rows), as proof data
  for the pipeline library, at any float instance and at any contents `V` of the core's buffers when the region is entered.

  At grid point `t` the body is handed the block of rows `5000 t … 5000 t + 4999` of the features (window 0) and four
  whole per-feature vectors of length 64: the scale gamma (window 1), the shift beta (window 2), the mean (window 3) and
  the variance (window 4). It stores ONE value into the whole output block (window 5): the payload `k9_pay1` of the five
  loads, taken in the order rows, mean, variance, gamma, beta. So after the body every input buffer still holds its block
  and the output buffer holds the canon of that one store, which covers the block.
-/
import proofs.«151172_j14164802142730_2_alg».proof.Proof.Gen.KernelIdeal.Launch
import proofs.«151172_j14164802142730_2_alg».proof.Proof.Gen.KernelIdeal.Skeleton
import proofs.«151172_j14164802142730_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window's buffer holds its block at every point, whether the point fetches it or not: where it is not
    fetched the block index has not moved and the body left the buffer as it found it. One statement per input window. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: the rows' block whole (read, and written as the output), a per-feature vector whole -/

abbrev r9_x : Rect S5000x64 := Rect.unit (s := S5000x64) ![0, 0] S5000x64.size inb_S5000x64_S5000x64_0_0
abbrev r9_v : Rect S64 := Rect.unit (s := S64) ![0] S64.size inb_S64_S64_0

/-- The output buffer after the body: its one store, of the payload of the five loads. The payload takes the rows
    first, then the mean and the variance (windows 3 and 4), then gamma and beta (windows 1 and 2). -/
def out9_5 (x0 : Vec F S5000x64 .f32) (x1 : Vec F S64 .f32) (x2 : Vec F S64 .f32) (x3 : Vec F S64 .f32) (x4 : Vec F S64 .f32) :
    Vec F S5000x64 .f32 :=
  View.canon [⟨r9_x, k9_pay1 (View.ld x0 r9_x) (View.ld x3 r9_v) (View.ld x4 r9_v) (View.ld x1 r9_v) (View.ld x2 r9_v)⟩]

/-- The one store is of the whole block, so it covers it. -/
theorem cover9_5 (p0 : Vec F S5000x64 .f32) (y : S5000x64.Idx) :
    ∃ pc ∈ ([⟨r9_x, p0⟩] : List (View.Piece (Elt F) S5000x64 .f32)), y ∈ pc.1.set :=
  View.cover_of_tiled [⟨r9_x, p0⟩] S5000x64.size (by rfl) y

set_option maxHeartbeats 1000000 in
/-- The body on whole buffers, the inputs' at contents `x0 x1 x2 x3 x4` and the output's at anything, runs to the end with
    the inputs' as they were and the output's at `out9_5` of them. -/
theorem sound_kernel9 (c : Dev nD) (E : Set ℕ) (i : grid9.Coords)
    (arg1 : Memref sig .tc .vmem S5000x64 .f32) (harg1 : arg1.IsWhole) (arg2 : Memref sig .tc .vmem S64 .f32) (harg2 : arg2.IsWhole)
    (arg3 : Memref sig .tc .vmem S64 .f32) (harg3 : arg3.IsWhole) (arg4 : Memref sig .tc .vmem S64 .f32) (harg4 : arg4.IsWhole)
    (arg5 : Memref sig .tc .vmem S64 .f32) (harg5 : arg5.IsWhole) (arg6 : Memref sig .tc .vmem S5000x64 .f32) (harg6 : arg6.IsWhole)
    (x0 : Vec F S5000x64 .f32) (x1 : Vec F S64 .f32) (x2 : Vec F S64 .f32) (x3 : Vec F S64 .f32) (x4 : Vec F S64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out9_5 x0 x1 x2 x3 x4)) -∗ K ⟨⟩))
      ⊢ wp frame (wpE (defs₀ (F := F)) Variants.none c none) E
          (cc9__bn_kernel i arg1 harg1 arg2 harg2 arg3 harg3 arg4 harg4 arg5 harg5 arg6 harg6) K := by
  simp only [cc9__bn_kernel_eq_skeleton]; unfold cc9__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover9_5 _)

/-- The proof data of pipeline 9 on core `c`: the arrays as the region finds them; after the body each input's buffer at
    its block and the output's at `out9_5` of the five input blocks; the class invariant; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => out9_5 (iblk9 V c 0 t) (iblk9 V c 1 t) (iblk9 V c 2 t) (iblk9 V c 3 t) (iblk9 V c 4 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) :
    (dat9 V c).after 5 t = out9_5 (iblk9 V c 0 t) (iblk9 V c 1 t) (iblk9 V c 2 t) (iblk9 V c 3 t) (iblk9 V c 4 t) := by
  dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4]
  rw [show (dat9 V c).Φ t.succ = (dat9 V c).Φ t.castSucc from rfl,
    show (dat9 V c).owesAt () t.succ = (dat9 V c).owesAt () t.castSucc from rfl,
    after9_0, after9_1, after9_2, after9_3, after9_4, after9_5]
  iintro ⟨HΦ, Ho, ⟨%d0, H0⟩, ⟨%d1, H1⟩, ⟨%d2, H2⟩, ⟨%d3, H3⟩, ⟨%d4, H4⟩, ⟨%d5, H5⟩⟩
  iapply (sound_kernel9 c Set.univ _ _ _ _ _ _ _ _ _ _ _ _ _
    (iblk9 V c 0 t) (iblk9 V c 1 t) (iblk9 V c 2 t) (iblk9 V c 3 t) (iblk9 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Frame

end
-- ==== Proof.KI.R10.lean ====
/-
  Region 10 of the program (the row-wise dot product of two blocks of 4000 rows of 64 lanes), as proof data for the
  pipeline library, at any float instance and at any contents `V` of the core's buffers when the region is entered.

  At grid point `t` (of 25) the body is handed the block of rows `4000 t … 4000 t + 3999` of the left operand (window 0),
  the same block of rows of the right operand (window 1), and the matching block of 4000 rows of the one-column output
  (window 2). It loads both input blocks whole and stores ONE value into the whole output block: the payload `k10_pay1`
  of the two loads, which multiplies the blocks lane by lane and sums each row's 64 products, kept as a column. So after
  the body both input buffers still hold their blocks and the output buffer holds the canon of that one store, which
  covers the block.
-/
import proofs.«151172_j14164802142730_2_alg».proof.Proof.Gen.KernelIdeal.Launch
import proofs.«151172_j14164802142730_2_alg».proof.Proof.Gen.KernelIdeal.Skeleton
import proofs.«151172_j14164802142730_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- An input window's buffer holds its block at every point, whether the point fetches it or not: where it is not
    fetched the block index has not moved and the body left the buffer as it found it. One statement per input window. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: an input block whole (the same rectangle for both operands), the output block whole -/

abbrev r10_x : Rect S4000x64 := Rect.unit (s := S4000x64) ![0, 0] S4000x64.size inb_S4000x64_S4000x64_0_0
abbrev r10_o : Rect S4000x1 := Rect.unit (s := S4000x1) ![0, 0] S4000x1.size inb_S4000x1_S4000x1_0_0

/-- The output buffer after the body: its one store, of the payload of the two loads. -/
def out10_2 (x0 : Vec F S4000x64 .f32) (x1 : Vec F S4000x64 .f32) : Vec F S4000x1 .f32 :=
  View.canon [⟨r10_o, k10_pay1 (View.ld x0 r10_x) (View.ld x1 r10_x)⟩]

/-- The one store is of the whole block, so it covers it. -/
theorem cover10_2 (p0 : Vec F S4000x1 .f32) (y : S4000x1.Idx) :
    ∃ pc ∈ ([⟨r10_o, p0⟩] : List (View.Piece (Elt F) S4000x1 .f32)), y ∈ pc.1.set :=
  View.cover_of_tiled [⟨r10_o, p0⟩] S4000x1.size (by rfl) y

set_option maxHeartbeats 1000000 in
/-- The body on whole buffers, the inputs' at contents `x0 x1` and the output's at anything, runs to the end with the
    inputs' as they were and the output's at `out10_2` of them. -/
theorem sound_kernel10 (c : Dev nD) (E : Set ℕ) (i : grid10.Coords)
    (arg1 : Memref sig .tc .vmem S4000x64 .f32) (harg1 : arg1.IsWhole) (arg2 : Memref sig .tc .vmem S4000x64 .f32) (harg2 : arg2.IsWhole)
    (arg3 : Memref sig .tc .vmem S4000x1 .f32) (harg3 : arg3.IsWhole)
    (x0 : Vec F S4000x64 .f32) (x1 : Vec F S4000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out10_2 x0 x1)) -∗ K ⟨⟩))
      ⊢ wp frame (wpE (defs₀ (F := F)) Variants.none c none) E (cc10__dot_reduce_kernel i arg1 harg1 arg2 harg2 arg3 harg3) K := by
  simp only [cc10__dot_reduce_kernel_eq_skeleton]; unfold cc10__dot_reduce_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-- The proof data of pipeline 10 on core `c`: the arrays as the region finds them; after the body each input's buffer at
    its block and the output's at `out10_2` of the two input blocks; the class invariant; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) :
    (dat10 V c).after 2 t = out10_2 (iblk10 V c 0 t) (iblk10 V c 1 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ _ _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

end Cert.KernelIdeal.Frame

end
-- ==== Proof.KI.R11.lean ====
/-
  Region 11 of the program (the row-wise dot product of two blocks of 4000 rows of 64 lanes), as proof data for the
  pipeline library, at any float instance and at any contents `V` of the core's buffers when the region is entered.

  At grid point `t` (of 25) the body is handed the block of rows `4000 t … 4000 t + 3999` of the left operand (window 0),
  the same block of rows of the right operand (window 1), and the matching block of 4000 rows of the one-column output
  (window 2). It loads both input blocks whole and stores ONE value into the whole output block: the payload `k11_pay1`
  of the two loads, which multiplies the blocks lane by lane and sums each row's 64 products, kept as a column. So after
  the body both input buffers still hold their blocks and the output buffer holds the canon of that one store, which
  covers the block.
-/
import proofs.«151172_j14164802142730_2_alg».proof.Proof.Gen.KernelIdeal.Launch
import proofs.«151172_j14164802142730_2_alg».proof.Proof.Gen.KernelIdeal.Skeleton
import proofs.«151172_j14164802142730_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window's buffer holds its block at every point, whether the point fetches it or not: where it is not
    fetched the block index has not moved and the body left the buffer as it found it. One statement per input window. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: an input block whole (the same rectangle for both operands), the output block whole -/

abbrev r11_x : Rect S4000x64 := Rect.unit (s := S4000x64) ![0, 0] S4000x64.size inb_S4000x64_S4000x64_0_0
abbrev r11_o : Rect S4000x1 := Rect.unit (s := S4000x1) ![0, 0] S4000x1.size inb_S4000x1_S4000x1_0_0

/-- The output buffer after the body: its one store, of the payload of the two loads. -/
def out11_2 (x0 : Vec F S4000x64 .f32) (x1 : Vec F S4000x64 .f32) : Vec F S4000x1 .f32 :=
  View.canon [⟨r11_o, k11_pay1 (View.ld x0 r11_x) (View.ld x1 r11_x)⟩]

/-- The one store is of the whole block, so it covers it. -/
theorem cover11_2 (p0 : Vec F S4000x1 .f32) (y : S4000x1.Idx) :
    ∃ pc ∈ ([⟨r11_o, p0⟩] : List (View.Piece (Elt F) S4000x1 .f32)), y ∈ pc.1.set :=
  View.cover_of_tiled [⟨r11_o, p0⟩] S4000x1.size (by rfl) y

set_option maxHeartbeats 1000000 in
/-- The body on whole buffers, the inputs' at contents `x0 x1` and the output's at anything, runs to the end with the
    inputs' as they were and the output's at `out11_2` of them. -/
theorem sound_kernel11 (c : Dev nD) (E : Set ℕ) (i : grid11.Coords)
    (arg1 : Memref sig .tc .vmem S4000x64 .f32) (harg1 : arg1.IsWhole) (arg2 : Memref sig .tc .vmem S4000x64 .f32) (harg2 : arg2.IsWhole)
    (arg3 : Memref sig .tc .vmem S4000x1 .f32) (harg3 : arg3.IsWhole)
    (x0 : Vec F S4000x64 .f32) (x1 : Vec F S4000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out11_2 x0 x1)) -∗ K ⟨⟩))
      ⊢ wp frame (wpE (defs₀ (F := F)) Variants.none c none) E (cc11__dot_reduce_kernel i arg1 harg1 arg2 harg2 arg3 harg3) K := by
  simp only [cc11__dot_reduce_kernel_eq_skeleton]; unfold cc11__dot_reduce_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover11_2 _)

/-- The proof data of pipeline 11 on core `c`: the arrays as the region finds them; after the body each input's buffer at
    its block and the output's at `out11_2` of the two input blocks; the class invariant; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) :
    (dat11 V c).after 2 t = out11_2 (iblk11 V c 0 t) (iblk11 V c 1 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1]
  rw [show (dat11 V c).Φ t.succ = (dat11 V c).Φ t.castSucc from rfl,
    show (dat11 V c).owesAt () t.succ = (dat11 V c).owesAt () t.castSucc from rfl,
    after11_0, after11_1, after11_2]
  iintro ⟨HΦ, Ho, ⟨%d0, H0⟩, ⟨%d1, H1⟩, ⟨%d2, H2⟩⟩
  iapply (sound_kernel11 c Set.univ _ _ _ _ _ _ _ (iblk11 V c 0 t) (iblk11 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Frame

end
-- ==== Proof.KI.R12.lean ====
/-
  Region 12 of the program (the row-wise dot product of two blocks of 4000 rows of 64 lanes), as proof data for the
  pipeline library, at any float instance and at any contents `V` of the core's buffers when the region is entered.

  At grid point `t` (of 25) the body is handed the block of rows `4000 t … 4000 t + 3999` of the left operand (window 0),
  the same block of rows of the right operand (window 1), and the matching block of 4000 rows of the one-column output
  (window 2). It loads both input blocks whole and stores ONE value into the whole output block: the payload `k12_pay1`
  of the two loads, which multiplies the blocks lane by lane and sums each row's 64 products, kept as a column. So after
  the body both input buffers still hold their blocks and the output buffer holds the canon of that one store, which
  covers the block.
-/
import proofs.«151172_j14164802142730_2_alg».proof.Proof.Gen.KernelIdeal.Launch
import proofs.«151172_j14164802142730_2_alg».proof.Proof.Gen.KernelIdeal.Skeleton
import proofs.«151172_j14164802142730_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, cut out of its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's buffer holds its block at every point, whether the point fetches it or not: where it is not
    fetched the block index has not moved and the body left the buffer as it found it. One statement per input window. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: an input block whole (the same rectangle for both operands), the output block whole -/

abbrev r12_x : Rect S4000x64 := Rect.unit (s := S4000x64) ![0, 0] S4000x64.size inb_S4000x64_S4000x64_0_0
abbrev r12_o : Rect S4000x1 := Rect.unit (s := S4000x1) ![0, 0] S4000x1.size inb_S4000x1_S4000x1_0_0

/-- The output buffer after the body: its one store, of the payload of the two loads. -/
def out12_2 (x0 : Vec F S4000x64 .f32) (x1 : Vec F S4000x64 .f32) : Vec F S4000x1 .f32 :=
  View.canon [⟨r12_o, k12_pay1 (View.ld x0 r12_x) (View.ld x1 r12_x)⟩]

/-- The one store is of the whole block, so it covers it. -/
theorem cover12_2 (p0 : Vec F S4000x1 .f32) (y : S4000x1.Idx) :
    ∃ pc ∈ ([⟨r12_o, p0⟩] : List (View.Piece (Elt F) S4000x1 .f32)), y ∈ pc.1.set :=
  View.cover_of_tiled [⟨r12_o, p0⟩] S4000x1.size (by rfl) y

set_option maxHeartbeats 1000000 in
/-- The body on whole buffers, the inputs' at contents `x0 x1` and the output's at anything, runs to the end with the
    inputs' as they were and the output's at `out12_2` of them. -/
theorem sound_kernel12 (c : Dev nD) (E : Set ℕ) (i : grid12.Coords)
    (arg1 : Memref sig .tc .vmem S4000x64 .f32) (harg1 : arg1.IsWhole) (arg2 : Memref sig .tc .vmem S4000x64 .f32) (harg2 : arg2.IsWhole)
    (arg3 : Memref sig .tc .vmem S4000x1 .f32) (harg3 : arg3.IsWhole)
    (x0 : Vec F S4000x64 .f32) (x1 : Vec F S4000x64 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out12_2 x0 x1)) -∗ K ⟨⟩))
      ⊢ wp frame (wpE (defs₀ (F := F)) Variants.none c none) E (cc12__dot_reduce_kernel i arg1 harg1 arg2 harg2 arg3 harg3) K := by
  simp only [cc12__dot_reduce_kernel_eq_skeleton]; unfold cc12__dot_reduce_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover12_2 _)

/-- The proof data of pipeline 12 on core `c`: the arrays as the region finds them; after the body each input's buffer at
    its block and the output's at `out12_2` of the two input blocks; the class invariant; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) :
    (dat12 V c).after 2 t = out12_2 (iblk12 V c 0 t) (iblk12 V c 1 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).Φ t.succ = (dat12 V c).Φ t.castSucc from rfl,
    show (dat12 V c).owesAt () t.succ = (dat12 V c).owesAt () t.castSucc from rfl,
    after12_0, after12_1, after12_2]
  iintro ⟨HΦ, Ho, ⟨%d0, H0⟩, ⟨%d1, H1⟩, ⟨%d2, H2⟩⟩
  iapply (sound_kernel12 c Set.univ _ _ _ _ _ _ _ (iblk12 V c 0 t) (iblk12 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Frame

end
-- ==== Proof.KI.Folds.lean ====
/-
  What core c's buffers hold at each of the 35 boundaries between @main's 34 items, as a fold from the launch memory: a host
  stretch takes the contents to the stretch's fold over them; a kernel region leaves its arrays at what its write-backs
  leave (the inputs as entered, the output at the fold of its points' blocks) and every other buffer as entered. With it: which
  references each host stretch writes, and the family of the thirteen regions' proof data, each at its region's entry contents.
-/
import proofs.«151172_j14164802142730_2_alg».proof.Proof.KI.R0
import proofs.«151172_j14164802142730_2_alg».proof.Proof.KI.R1
import proofs.«151172_j14164802142730_2_alg».proof.Proof.KI.R2
import proofs.«151172_j14164802142730_2_alg».proof.Proof.KI.R3
import proofs.«151172_j14164802142730_2_alg».proof.Proof.KI.R4
import proofs.«151172_j14164802142730_2_alg».proof.Proof.KI.R5
import proofs.«151172_j14164802142730_2_alg».proof.Proof.KI.R6
import proofs.«151172_j14164802142730_2_alg».proof.Proof.KI.R7
import proofs.«151172_j14164802142730_2_alg».proof.Proof.KI.R8
import proofs.«151172_j14164802142730_2_alg».proof.Proof.KI.R9
import proofs.«151172_j14164802142730_2_alg».proof.Proof.KI.R10
import proofs.«151172_j14164802142730_2_alg».proof.Proof.KI.R11
import proofs.«151172_j14164802142730_2_alg».proof.Proof.KI.R12

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each host stretch writes, and that none allocates -/

theorem hostOps0_fresh : (hostOps0 : List (HloOp τ sig (Elt F))).Forall fun op => op.fresh = ∅ := by
  simp only [List.Forall]; repeat' constructor
abbrev hostOps0_W : List (Ref sig .tc) := [main_c, main_v0, main_v1, main_c_0, main_v2, main_v3, main_v4, main_v5, main_v6, main_c_1, main_v7, main_v8, main_c_2, main_v9, main_v10, main_v11, main_v12, main_v13]
theorem hostOps0_writes : (hostOps0 : List (HloOp τ sig (Elt F))).Forall fun op => op.writes ⊆ ((hostOps0_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps2_fresh : (hostOps2 : List (HloOp τ sig (Elt F))).Forall fun op => op.fresh = ∅ := by
  simp only [List.Forall]; repeat' constructor
abbrev hostOps2_W : List (Ref sig .tc) := [main_v16, main_v17, main_v18, main_v19, main_c_3, main_v20, main_v21, main_c_4, main_v22, main_v23, main_v24, main_v25, main_v26, main_cst, main_v27, main_v28, main_v29, main_cst_5, main_v30, main_cst_6, main_v31, main_v32, main_v33, main_v34, main_cst_7, main_v35, main_v36, main_v37, main_v38, main_v39, main_v40, main_v41, main_v42, main_c_8, main_v43, main_v44, main_c_9, main_v45, main_v46, main_v47, main_v48, main_v49, main_cst_10, main_v50, main_v51, main_v52, main_cst_11, main_v53, main_cst_12, main_v54, main_v55, main_v56, main_v57, main_cst_13, main_v58, main_v59, main_v60, main_v61, main_v62, main_v63, main_v64, main_v65, main_c_14, main_v66, main_v67, main_c_15, main_v68, main_v69, main_v70, main_v71, main_v72, main_cst_16, main_v73, main_v74, main_v75, main_cst_17, main_v76, main_cst_18, main_v77, main_v78, main_v79, main_v80, main_cst_19, main_v81, main_v82, main_v83, main_v84, main_v85, main_v86, main_v87, main_v88, main_v89, main_v90]
theorem hostOps2_writes : (hostOps2 : List (HloOp τ sig (Elt F))).Forall fun op => op.writes ⊆ ((hostOps2_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps3_fresh : (hostOps3 : List (HloOp τ sig (Elt F))).Forall fun op => op.fresh = ∅ := by
  simp only [List.Forall]; repeat' constructor
abbrev hostOps3_W : List (Ref sig .tc) := [main_v92, main_v93, main_v94, main_v95, main_v96, main_v97, main_v98, main_v99, main_v100, main_v101, main_v102, main_v103]
theorem hostOps3_writes : (hostOps3 : List (HloOp τ sig (Elt F))).Forall fun op => op.writes ⊆ ((hostOps3_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps4_fresh : (hostOps4 : List (HloOp τ sig (Elt F))).Forall fun op => op.fresh = ∅ := by
  simp only [List.Forall]; repeat' constructor
abbrev hostOps4_W : List (Ref sig .tc) := [main_cst_20, main_v105, main_cst_21, main_v106, main_v107, main_c_22]
theorem hostOps4_writes : (hostOps4 : List (HloOp τ sig (Elt F))).Forall fun op => op.writes ⊆ ((hostOps4_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps4_1_fresh : (hostOps4_1 : List (HloOp τ sig (Elt F))).Forall fun op => op.fresh = ∅ := by
  simp only [List.Forall]; repeat' constructor
abbrev hostOps4_1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v108]
theorem hostOps4_1_writes : (hostOps4_1 : List (HloOp τ sig (Elt F))).Forall fun op => op.writes ⊆ ((hostOps4_1_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps4_2_fresh : (hostOps4_2 : List (HloOp τ sig (Elt F))).Forall fun op => op.fresh = ∅ := by
  simp only [List.Forall]; repeat' constructor
abbrev hostOps4_2_W : List (Ref sig .tc) := [main_cst_23, main_v109, main_cst_24, main_v110, main_v111, main_c_25]
theorem hostOps4_2_writes : (hostOps4_2 : List (HloOp τ sig (Elt F))).Forall fun op => op.writes ⊆ ((hostOps4_2_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps4_3_fresh : (hostOps4_3 : List (HloOp τ sig (Elt F))).Forall fun op => op.fresh = ∅ := by
  simp only [List.Forall]; repeat' constructor
abbrev hostOps4_3_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v112]
theorem hostOps4_3_writes : (hostOps4_3 : List (HloOp τ sig (Elt F))).Forall fun op => op.writes ⊆ ((hostOps4_3_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps4_4_fresh : (hostOps4_4 : List (HloOp τ sig (Elt F))).Forall fun op => op.fresh = ∅ := by
  simp only [List.Forall]; repeat' constructor
abbrev hostOps4_4_W : List (Ref sig .tc) := [main_v113, main_v114, main_v115, main_v116]
theorem hostOps4_4_writes : (hostOps4_4 : List (HloOp τ sig (Elt F))).Forall fun op => op.writes ⊆ ((hostOps4_4_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps5_fresh : (hostOps5 : List (HloOp τ sig (Elt F))).Forall fun op => op.fresh = ∅ := by
  simp only [List.Forall]; repeat' constructor
abbrev hostOps5_W : List (Ref sig .tc) := [main_v118, main_v119, main_v120, main_v121]
theorem hostOps5_writes : (hostOps5 : List (HloOp τ sig (Elt F))).Forall fun op => op.writes ⊆ ((hostOps5_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps6_fresh : (hostOps6 : List (HloOp τ sig (Elt F))).Forall fun op => op.fresh = ∅ := by
  simp only [List.Forall]; repeat' constructor
abbrev hostOps6_W : List (Ref sig .tc) := [main_v123, main_v124, main_v125, main_v126, main_c_26, main_v127, main_v128, main_c_27, main_v129, main_v130, main_v131, main_v132, main_v133, main_cst_28, main_v134, main_v135, main_v136, main_cst_29, main_v137, main_cst_30, main_v138, main_v139, main_v140, main_v141, main_cst_31, main_v142, main_v143, main_v144, main_v145, main_v146, main_v147, main_v148, main_v149, main_c_32, main_v150, main_v151, main_c_33, main_v152, main_v153, main_v154, main_v155, main_v156, main_cst_34, main_v157, main_v158, main_v159, main_cst_35, main_v160, main_cst_36, main_v161, main_v162, main_v163, main_v164, main_cst_37, main_v165, main_v166, main_v167, main_v168, main_v169, main_v170, main_v171, main_v172, main_c_38, main_v173, main_v174, main_c_39, main_v175, main_v176, main_v177, main_v178, main_v179, main_cst_40, main_v180, main_v181, main_v182, main_cst_41, main_v183, main_cst_42, main_v184, main_v185, main_v186, main_v187, main_cst_43, main_v188, main_v189, main_v190, main_v191, main_v192, main_v193, main_v194, main_v195, main_v196, main_v197]
theorem hostOps6_writes : (hostOps6 : List (HloOp τ sig (Elt F))).Forall fun op => op.writes ⊆ ((hostOps6_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps7_fresh : (hostOps7 : List (HloOp τ sig (Elt F))).Forall fun op => op.fresh = ∅ := by
  simp only [List.Forall]; repeat' constructor
abbrev hostOps7_W : List (Ref sig .tc) := [main_v199, main_v200, main_v201, main_v202, main_v203, main_v204, main_v205, main_v206, main_v207, main_v208, main_v209, main_v210]
theorem hostOps7_writes : (hostOps7 : List (HloOp τ sig (Elt F))).Forall fun op => op.writes ⊆ ((hostOps7_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps8_fresh : (hostOps8 : List (HloOp τ sig (Elt F))).Forall fun op => op.fresh = ∅ := by
  simp only [List.Forall]; repeat' constructor
abbrev hostOps8_W : List (Ref sig .tc) := [main_cst_44, main_v212, main_cst_45, main_v213, main_v214, main_c_46]
theorem hostOps8_writes : (hostOps8 : List (HloOp τ sig (Elt F))).Forall fun op => op.writes ⊆ ((hostOps8_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps8_1_fresh : (hostOps8_1 : List (HloOp τ sig (Elt F))).Forall fun op => op.fresh = ∅ := by
  simp only [List.Forall]; repeat' constructor
abbrev hostOps8_1_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v215]
theorem hostOps8_1_writes : (hostOps8_1 : List (HloOp τ sig (Elt F))).Forall fun op => op.writes ⊆ ((hostOps8_1_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps8_2_fresh : (hostOps8_2 : List (HloOp τ sig (Elt F))).Forall fun op => op.fresh = ∅ := by
  simp only [List.Forall]; repeat' constructor
abbrev hostOps8_2_W : List (Ref sig .tc) := [main_cst_47, main_v216, main_cst_48, main_v217, main_v218, main_c_49]
theorem hostOps8_2_writes : (hostOps8_2 : List (HloOp τ sig (Elt F))).Forall fun op => op.writes ⊆ ((hostOps8_2_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps8_3_fresh : (hostOps8_3 : List (HloOp τ sig (Elt F))).Forall fun op => op.fresh = ∅ := by
  simp only [List.Forall]; repeat' constructor
abbrev hostOps8_3_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v219]
theorem hostOps8_3_writes : (hostOps8_3 : List (HloOp τ sig (Elt F))).Forall fun op => op.writes ⊆ ((hostOps8_3_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps8_4_fresh : (hostOps8_4 : List (HloOp τ sig (Elt F))).Forall fun op => op.fresh = ∅ := by
  simp only [List.Forall]; repeat' constructor
abbrev hostOps8_4_W : List (Ref sig .tc) := [main_v220, main_v221, main_v222, main_v223]
theorem hostOps8_4_writes : (hostOps8_4 : List (HloOp τ sig (Elt F))).Forall fun op => op.writes ⊆ ((hostOps8_4_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps9_fresh : (hostOps9 : List (HloOp τ sig (Elt F))).Forall fun op => op.fresh = ∅ := by
  simp only [List.Forall]; repeat' constructor
abbrev hostOps9_W : List (Ref sig .tc) := [main_v225, main_v226, main_v227, main_v228]
theorem hostOps9_writes : (hostOps9 : List (HloOp τ sig (Elt F))).Forall fun op => op.writes ⊆ ((hostOps9_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps10_fresh : (hostOps10 : List (HloOp τ sig (Elt F))).Forall fun op => op.fresh = ∅ := by
  simp only [List.Forall]; repeat' constructor
abbrev hostOps10_W : List (Ref sig .tc) := [main_v230, main_v231, main_c_50, main_v232, main_v233, main_c_51, main_v234, main_v235, main_v236, main_v237, main_v238, main_v239, main_v240, main_c_52, main_v241, main_v242, main_c_53, main_v243, main_v244, main_v245, main_v246, main_v247]
theorem hostOps10_writes : (hostOps10 : List (HloOp τ sig (Elt F))).Forall fun op => op.writes ⊆ ((hostOps10_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps11_fresh : (hostOps11 : List (HloOp τ sig (Elt F))).Forall fun op => op.fresh = ∅ := by
  simp only [List.Forall]; repeat' constructor
abbrev hostOps11_W : List (Ref sig .tc) := [main_v249, main_v250, main_v251, main_c_54, main_v252, main_v253, main_c_55, main_v254, main_v255, main_v256, main_v257, main_v258, main_v259, main_v260, main_c_56, main_v261, main_v262, main_c_57, main_v263, main_v264, main_v265, main_v266, main_v267, main_v268, main_v269, main_c_58, main_v270, main_v271, main_c_59, main_v272, main_v273, main_v274, main_v275, main_v276]
theorem hostOps11_writes : (hostOps11 : List (HloOp τ sig (Elt F))).Forall fun op => op.writes ⊆ ((hostOps11_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps12_fresh : (hostOps12 : List (HloOp τ sig (Elt F))).Forall fun op => op.fresh = ∅ := by
  simp only [List.Forall]; repeat' constructor
abbrev hostOps12_W : List (Ref sig .tc) := [main_v278, main_v279, main_v280, main_c_60, main_v281, main_v282, main_c_61, main_v283, main_v284, main_v285, main_v286, main_v287, main_v288, main_v289, main_c_62, main_v290, main_v291, main_c_63, main_v292, main_v293, main_v294, main_v295, main_v296, main_v297, main_v298, main_c_64, main_v299, main_v300, main_c_65, main_v301, main_v302, main_v303, main_v304, main_v305]
theorem hostOps12_writes : (hostOps12 : List (HloOp τ sig (Elt F))).Forall fun op => op.writes ⊆ ((hostOps12_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

theorem hostOps13_fresh : (hostOps13 : List (HloOp τ sig (Elt F))).Forall fun op => op.fresh = ∅ := by
  simp only [List.Forall]; repeat' constructor
abbrev hostOps13_W : List (Ref sig .tc) := [main_v307, main_v308, main_v309, main_c_66, main_v310, main_v311, main_c_67, main_v312, main_v313, main_v314, main_v315, main_v316, main_v317, main_v318, main_v319, main_v320, main_v321, main_v322, main_v323]
theorem hostOps13_writes : (hostOps13 : List (HloOp τ sig (Elt F))).Forall fun op => op.writes ⊆ ((hostOps13_W).map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩

/-! ## The fold -/

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After item 0, the host stretch hostOps0. -/
def W1 (c : Dev nD) : Valuation τ sig (Elt F) := StableHlo.after hostOps0 (W0 m ρ c)
theorem W1_eq (c : Dev nD) : W1 m ρ c = StableHlo.after hostOps0 (W0 m ρ c) := rfl
abbrev V1 : (c : Dev nD) → (b : Ref sig .tc) → Buf (Elt F) ((c : Thread nD τ).loc b) := fun c b => W1 m ρ c b
theorem W1_keep (c : Dev nD) (r : Ref sig .tc) (h : r ∉ hostOps0_W) : W1 m ρ c (Proc.devRef .tc r) = W0 m ρ c (Proc.devRef .tc r) := by
  rw [W1_eq]; exact StableHlo.after_of_writes_sub hostOps0 _ hostOps0_writes h
/-- After item 1, region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After item 2, region 1: its arrays at what the pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After item 3, the host stretch hostOps2. -/
def W4 (c : Dev nD) : Valuation τ sig (Elt F) := StableHlo.after hostOps2 (W3 m ρ c)
theorem W4_eq (c : Dev nD) : W4 m ρ c = StableHlo.after hostOps2 (W3 m ρ c) := rfl
abbrev V4 : (c : Dev nD) → (b : Ref sig .tc) → Buf (Elt F) ((c : Thread nD τ).loc b) := fun c b => W4 m ρ c b
theorem W4_keep (c : Dev nD) (r : Ref sig .tc) (h : r ∉ hostOps2_W) : W4 m ρ c (Proc.devRef .tc r) = W3 m ρ c (Proc.devRef .tc r) := by
  rw [W4_eq]; exact StableHlo.after_of_writes_sub hostOps2 _ hostOps2_writes h
/-- After item 4, region 2: its arrays at what the pipeline leaves, every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After item 5, the host stretch hostOps3. -/
def W6 (c : Dev nD) : Valuation τ sig (Elt F) := StableHlo.after hostOps3 (W5 m ρ c)
theorem W6_eq (c : Dev nD) : W6 m ρ c = StableHlo.after hostOps3 (W5 m ρ c) := rfl
abbrev V6 : (c : Dev nD) → (b : Ref sig .tc) → Buf (Elt F) ((c : Thread nD τ).loc b) := fun c b => W6 m ρ c b
theorem W6_keep (c : Dev nD) (r : Ref sig .tc) (h : r ∉ hostOps3_W) : W6 m ρ c (Proc.devRef .tc r) = W5 m ρ c (Proc.devRef .tc r) := by
  rw [W6_eq]; exact StableHlo.after_of_writes_sub hostOps3 _ hostOps3_writes h
/-- After item 6, region 3: its arrays at what the pipeline leaves, every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- After item 7, the host stretch hostOps4. -/
def W8 (c : Dev nD) : Valuation τ sig (Elt F) := StableHlo.after hostOps4 (W7 m ρ c)
theorem W8_eq (c : Dev nD) : W8 m ρ c = StableHlo.after hostOps4 (W7 m ρ c) := rfl
abbrev V8 : (c : Dev nD) → (b : Ref sig .tc) → Buf (Elt F) ((c : Thread nD τ).loc b) := fun c b => W8 m ρ c b
theorem W8_keep (c : Dev nD) (r : Ref sig .tc) (h : r ∉ hostOps4_W) : W8 m ρ c (Proc.devRef .tc r) = W7 m ρ c (Proc.devRef .tc r) := by
  rw [W8_eq]; exact StableHlo.after_of_writes_sub hostOps4 _ hostOps4_writes h
/-- After item 8, the host stretch hostOps4_1. -/
def W9 (c : Dev nD) : Valuation τ sig (Elt F) := StableHlo.after hostOps4_1 (W8 m ρ c)
theorem W9_eq (c : Dev nD) : W9 m ρ c = StableHlo.after hostOps4_1 (W8 m ρ c) := rfl
abbrev V9 : (c : Dev nD) → (b : Ref sig .tc) → Buf (Elt F) ((c : Thread nD τ).loc b) := fun c b => W9 m ρ c b
theorem W9_keep (c : Dev nD) (r : Ref sig .tc) (h : r ∉ hostOps4_1_W) : W9 m ρ c (Proc.devRef .tc r) = W8 m ρ c (Proc.devRef .tc r) := by
  rw [W9_eq]; exact StableHlo.after_of_writes_sub hostOps4_1 _ hostOps4_1_writes h
/-- After item 9, the host stretch hostOps4_2. -/
def W10 (c : Dev nD) : Valuation τ sig (Elt F) := StableHlo.after hostOps4_2 (W9 m ρ c)
theorem W10_eq (c : Dev nD) : W10 m ρ c = StableHlo.after hostOps4_2 (W9 m ρ c) := rfl
abbrev V10 : (c : Dev nD) → (b : Ref sig .tc) → Buf (Elt F) ((c : Thread nD τ).loc b) := fun c b => W10 m ρ c b
theorem W10_keep (c : Dev nD) (r : Ref sig .tc) (h : r ∉ hostOps4_2_W) : W10 m ρ c (Proc.devRef .tc r) = W9 m ρ c (Proc.devRef .tc r) := by
  rw [W10_eq]; exact StableHlo.after_of_writes_sub hostOps4_2 _ hostOps4_2_writes h
/-- After item 10, the host stretch hostOps4_3. -/
def W11 (c : Dev nD) : Valuation τ sig (Elt F) := StableHlo.after hostOps4_3 (W10 m ρ c)
theorem W11_eq (c : Dev nD) : W11 m ρ c = StableHlo.after hostOps4_3 (W10 m ρ c) := rfl
abbrev V11 : (c : Dev nD) → (b : Ref sig .tc) → Buf (Elt F) ((c : Thread nD τ).loc b) := fun c b => W11 m ρ c b
theorem W11_keep (c : Dev nD) (r : Ref sig .tc) (h : r ∉ hostOps4_3_W) : W11 m ρ c (Proc.devRef .tc r) = W10 m ρ c (Proc.devRef .tc r) := by
  rw [W11_eq]; exact StableHlo.after_of_writes_sub hostOps4_3 _ hostOps4_3_writes h
/-- After item 11, the host stretch hostOps4_4. -/
def W12 (c : Dev nD) : Valuation τ sig (Elt F) := StableHlo.after hostOps4_4 (W11 m ρ c)
theorem W12_eq (c : Dev nD) : W12 m ρ c = StableHlo.after hostOps4_4 (W11 m ρ c) := rfl
abbrev V12 : (c : Dev nD) → (b : Ref sig .tc) → Buf (Elt F) ((c : Thread nD τ).loc b) := fun c b => W12 m ρ c b
theorem W12_keep (c : Dev nD) (r : Ref sig .tc) (h : r ∉ hostOps4_4_W) : W12 m ρ c (Proc.devRef .tc r) = W11 m ρ c (Proc.devRef .tc r) := by
  rw [W12_eq]; exact StableHlo.after_of_writes_sub hostOps4_4 _ hostOps4_4_writes h
/-- After item 12, region 4: its arrays at what the pipeline leaves, every other buffer as entered. -/
def W13 (c : Dev nD) : Valuation τ sig (Elt F) :=
  Pipeline.withArrays spec4 c (W12 m ρ c) fun w => (dat4 (V12 m ρ) c).arrAt w cfg4.N
theorem W13_arr (c : Dev nD) (w : Fin cfg4.W) :
    W13 m ρ c (Proc.devRef .tc (Pipeline.arrRef spec4 w)) = (dat4 (V12 m ρ) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m ρ c (Proc.devRef .tc b) = W12 m ρ c (Proc.devRef .tc b) := by
  unfold W13; exact Pipeline.withArrays_of_ne spec4 c _ _ b hb
abbrev V13 : (c : Dev nD) → (b : Ref sig .tc) → Buf (Elt F) ((c : Thread nD τ).loc b) := fun c b => W13 m ρ c b
theorem hF4 (c : Dev nD) (w : Fin cfg4.W) : (dat4 (V12 m ρ) c).arrAt w cfg4.N = V13 m ρ c (Pipeline.arrRef spec4 w) :=
  (W13_arr m ρ c w).symm
theorem hrest4 (c : Dev nD) : ∀ b, b ∉ Finset.univ.image (Pipeline.arrRef spec4) → V13 m ρ c b = V12 m ρ c b :=
  fun b hb => W13_of_ne m ρ c b fun w e => hb (Finset.mem_image.mpr ⟨w, Finset.mem_univ _, e⟩)
/-- After item 13, the host stretch hostOps5. -/
def W14 (c : Dev nD) : Valuation τ sig (Elt F) := StableHlo.after hostOps5 (W13 m ρ c)
theorem W14_eq (c : Dev nD) : W14 m ρ c = StableHlo.after hostOps5 (W13 m ρ c) := rfl
abbrev V14 : (c : Dev nD) → (b : Ref sig .tc) → Buf (Elt F) ((c : Thread nD τ).loc b) := fun c b => W14 m ρ c b
theorem W14_keep (c : Dev nD) (r : Ref sig .tc) (h : r ∉ hostOps5_W) : W14 m ρ c (Proc.devRef .tc r) = W13 m ρ c (Proc.devRef .tc r) := by
  rw [W14_eq]; exact StableHlo.after_of_writes_sub hostOps5 _ hostOps5_writes h
/-- After item 14, region 5: its arrays at what the pipeline leaves, every other buffer as entered. -/
def W15 (c : Dev nD) : Valuation τ sig (Elt F) :=
  Pipeline.withArrays spec5 c (W14 m ρ c) fun w => (dat5 (V14 m ρ) c).arrAt w cfg5.N
theorem W15_arr (c : Dev nD) (w : Fin cfg5.W) :
    W15 m ρ c (Proc.devRef .tc (Pipeline.arrRef spec5 w)) = (dat5 (V14 m ρ) c).arrAt w cfg5.N := by
  unfold W15; exact Pipeline.withArrays_arr spec5 launch5.win.arr_inj c _ _ w
theorem W15_of_ne (c : Dev nD) (b : Ref sig .tc) (hb : ∀ w, Pipeline.arrRef spec5 w ≠ b) :
    W15 m ρ c (Proc.devRef .tc b) = W14 m ρ c (Proc.devRef .tc b) := by
  unfold W15; exact Pipeline.withArrays_of_ne spec5 c _ _ b hb
abbrev V15 : (c : Dev nD) → (b : Ref sig .tc) → Buf (Elt F) ((c : Thread nD τ).loc b) := fun c b => W15 m ρ c b
theorem hF5 (c : Dev nD) (w : Fin cfg5.W) : (dat5 (V14 m ρ) c).arrAt w cfg5.N = V15 m ρ c (Pipeline.arrRef spec5 w) :=
  (W15_arr m ρ c w).symm
theorem hrest5 (c : Dev nD) : ∀ b, b ∉ Finset.univ.image (Pipeline.arrRef spec5) → V15 m ρ c b = V14 m ρ c b :=
  fun b hb => W15_of_ne m ρ c b fun w e => hb (Finset.mem_image.mpr ⟨w, Finset.mem_univ _, e⟩)
/-- After item 15, the host stretch hostOps6. -/
def W16 (c : Dev nD) : Valuation τ sig (Elt F) := StableHlo.after hostOps6 (W15 m ρ c)
theorem W16_eq (c : Dev nD) : W16 m ρ c = StableHlo.after hostOps6 (W15 m ρ c) := rfl
abbrev V16 : (c : Dev nD) → (b : Ref sig .tc) → Buf (Elt F) ((c : Thread nD τ).loc b) := fun c b => W16 m ρ c b
theorem W16_keep (c : Dev nD) (r : Ref sig .tc) (h : r ∉ hostOps6_W) : W16 m ρ c (Proc.devRef .tc r) = W15 m ρ c (Proc.devRef .tc r) := by
  rw [W16_eq]; exact StableHlo.after_of_writes_sub hostOps6 _ hostOps6_writes h
/-- After item 16, region 6: its arrays at what the pipeline leaves, every other buffer as entered. -/
def W17 (c : Dev nD) : Valuation τ sig (Elt F) :=
  Pipeline.withArrays spec6 c (W16 m ρ c) fun w => (dat6 (V16 m ρ) c).arrAt w cfg6.N
theorem W17_arr (c : Dev nD) (w : Fin cfg6.W) :
    W17 m ρ c (Proc.devRef .tc (Pipeline.arrRef spec6 w)) = (dat6 (V16 m ρ) c).arrAt w cfg6.N := by
  unfold W17; exact Pipeline.withArrays_arr spec6 launch6.win.arr_inj c _ _ w
theorem W17_of_ne (c : Dev nD) (b : Ref sig .tc) (hb : ∀ w, Pipeline.arrRef spec6 w ≠ b) :
    W17 m ρ c (Proc.devRef .tc b) = W16 m ρ c (Proc.devRef .tc b) := by
  unfold W17; exact Pipeline.withArrays_of_ne spec6 c _ _ b hb
abbrev V17 : (c : Dev nD) → (b : Ref sig .tc) → Buf (Elt F) ((c : Thread nD τ).loc b) := fun c b => W17 m ρ c b
theorem hF6 (c : Dev nD) (w : Fin cfg6.W) : (dat6 (V16 m ρ) c).arrAt w cfg6.N = V17 m ρ c (Pipeline.arrRef spec6 w) :=
  (W17_arr m ρ c w).symm
theorem hrest6 (c : Dev nD) : ∀ b, b ∉ Finset.univ.image (Pipeline.arrRef spec6) → V17 m ρ c b = V16 m ρ c b :=
  fun b hb => W17_of_ne m ρ c b fun w e => hb (Finset.mem_image.mpr ⟨w, Finset.mem_univ _, e⟩)
/-- After item 17, the host stretch hostOps7. -/
def W18 (c : Dev nD) : Valuation τ sig (Elt F) := StableHlo.after hostOps7 (W17 m ρ c)
theorem W18_eq (c : Dev nD) : W18 m ρ c = StableHlo.after hostOps7 (W17 m ρ c) := rfl
abbrev V18 : (c : Dev nD) → (b : Ref sig .tc) → Buf (Elt F) ((c : Thread nD τ).loc b) := fun c b => W18 m ρ c b
theorem W18_keep (c : Dev nD) (r : Ref sig .tc) (h : r ∉ hostOps7_W) : W18 m ρ c (Proc.devRef .tc r) = W17 m ρ c (Proc.devRef .tc r) := by
  rw [W18_eq]; exact StableHlo.after_of_writes_sub hostOps7 _ hostOps7_writes h
/-- After item 18, region 7: its arrays at what the pipeline leaves, every other buffer as entered. -/
def W19 (c : Dev nD) : Valuation τ sig (Elt F) :=
  Pipeline.withArrays spec7 c (W18 m ρ c) fun w => (dat7 (V18 m ρ) c).arrAt w cfg7.N
theorem W19_arr (c : Dev nD) (w : Fin cfg7.W) :
    W19 m ρ c (Proc.devRef .tc (Pipeline.arrRef spec7 w)) = (dat7 (V18 m ρ) c).arrAt w cfg7.N := by
  unfold W19; exact Pipeline.withArrays_arr spec7 launch7.win.arr_inj c _ _ w
theorem W19_of_ne (c : Dev nD) (b : Ref sig .tc) (hb : ∀ w, Pipeline.arrRef spec7 w ≠ b) :
    W19 m ρ c (Proc.devRef .tc b) = W18 m ρ c (Proc.devRef .tc b) := by
  unfold W19; exact Pipeline.withArrays_of_ne spec7 c _ _ b hb
abbrev V19 : (c : Dev nD) → (b : Ref sig .tc) → Buf (Elt F) ((c : Thread nD τ).loc b) := fun c b => W19 m ρ c b
theorem hF7 (c : Dev nD) (w : Fin cfg7.W) : (dat7 (V18 m ρ) c).arrAt w cfg7.N = V19 m ρ c (Pipeline.arrRef spec7 w) :=
  (W19_arr m ρ c w).symm
theorem hrest7 (c : Dev nD) : ∀ b, b ∉ Finset.univ.image (Pipeline.arrRef spec7) → V19 m ρ c b = V18 m ρ c b :=
  fun b hb => W19_of_ne m ρ c b fun w e => hb (Finset.mem_image.mpr ⟨w, Finset.mem_univ _, e⟩)
/-- After item 19, the host stretch hostOps8. -/
def W20 (c : Dev nD) : Valuation τ sig (Elt F) := StableHlo.after hostOps8 (W19 m ρ c)
theorem W20_eq (c : Dev nD) : W20 m ρ c = StableHlo.after hostOps8 (W19 m ρ c) := rfl
abbrev V20 : (c : Dev nD) → (b : Ref sig .tc) → Buf (Elt F) ((c : Thread nD τ).loc b) := fun c b => W20 m ρ c b
theorem W20_keep (c : Dev nD) (r : Ref sig .tc) (h : r ∉ hostOps8_W) : W20 m ρ c (Proc.devRef .tc r) = W19 m ρ c (Proc.devRef .tc r) := by
  rw [W20_eq]; exact StableHlo.after_of_writes_sub hostOps8 _ hostOps8_writes h
/-- After item 20, the host stretch hostOps8_1. -/
def W21 (c : Dev nD) : Valuation τ sig (Elt F) := StableHlo.after hostOps8_1 (W20 m ρ c)
theorem W21_eq (c : Dev nD) : W21 m ρ c = StableHlo.after hostOps8_1 (W20 m ρ c) := rfl
abbrev V21 : (c : Dev nD) → (b : Ref sig .tc) → Buf (Elt F) ((c : Thread nD τ).loc b) := fun c b => W21 m ρ c b
theorem W21_keep (c : Dev nD) (r : Ref sig .tc) (h : r ∉ hostOps8_1_W) : W21 m ρ c (Proc.devRef .tc r) = W20 m ρ c (Proc.devRef .tc r) := by
  rw [W21_eq]; exact StableHlo.after_of_writes_sub hostOps8_1 _ hostOps8_1_writes h
/-- After item 21, the host stretch hostOps8_2. -/
def W22 (c : Dev nD) : Valuation τ sig (Elt F) := StableHlo.after hostOps8_2 (W21 m ρ c)
theorem W22_eq (c : Dev nD) : W22 m ρ c = StableHlo.after hostOps8_2 (W21 m ρ c) := rfl
abbrev V22 : (c : Dev nD) → (b : Ref sig .tc) → Buf (Elt F) ((c : Thread nD τ).loc b) := fun c b => W22 m ρ c b
theorem W22_keep (c : Dev nD) (r : Ref sig .tc) (h : r ∉ hostOps8_2_W) : W22 m ρ c (Proc.devRef .tc r) = W21 m ρ c (Proc.devRef .tc r) := by
  rw [W22_eq]; exact StableHlo.after_of_writes_sub hostOps8_2 _ hostOps8_2_writes h
/-- After item 22, the host stretch hostOps8_3. -/
def W23 (c : Dev nD) : Valuation τ sig (Elt F) := StableHlo.after hostOps8_3 (W22 m ρ c)
theorem W23_eq (c : Dev nD) : W23 m ρ c = StableHlo.after hostOps8_3 (W22 m ρ c) := rfl
abbrev V23 : (c : Dev nD) → (b : Ref sig .tc) → Buf (Elt F) ((c : Thread nD τ).loc b) := fun c b => W23 m ρ c b
theorem W23_keep (c : Dev nD) (r : Ref sig .tc) (h : r ∉ hostOps8_3_W) : W23 m ρ c (Proc.devRef .tc r) = W22 m ρ c (Proc.devRef .tc r) := by
  rw [W23_eq]; exact StableHlo.after_of_writes_sub hostOps8_3 _ hostOps8_3_writes h
/-- After item 23, the host stretch hostOps8_4. -/
def W24 (c : Dev nD) : Valuation τ sig (Elt F) := StableHlo.after hostOps8_4 (W23 m ρ c)
theorem W24_eq (c : Dev nD) : W24 m ρ c = StableHlo.after hostOps8_4 (W23 m ρ c) := rfl
abbrev V24 : (c : Dev nD) → (b : Ref sig .tc) → Buf (Elt F) ((c : Thread nD τ).loc b) := fun c b => W24 m ρ c b
theorem W24_keep (c : Dev nD) (r : Ref sig .tc) (h : r ∉ hostOps8_4_W) : W24 m ρ c (Proc.devRef .tc r) = W23 m ρ c (Proc.devRef .tc r) := by
  rw [W24_eq]; exact StableHlo.after_of_writes_sub hostOps8_4 _ hostOps8_4_writes h
/-- After item 24, region 8: its arrays at what the pipeline leaves, every other buffer as entered. -/
def W25 (c : Dev nD) : Valuation τ sig (Elt F) :=
  Pipeline.withArrays spec8 c (W24 m ρ c) fun w => (dat8 (V24 m ρ) c).arrAt w cfg8.N
theorem W25_arr (c : Dev nD) (w : Fin cfg8.W) :
    W25 m ρ c (Proc.devRef .tc (Pipeline.arrRef spec8 w)) = (dat8 (V24 m ρ) c).arrAt w cfg8.N := by
  unfold W25; exact Pipeline.withArrays_arr spec8 launch8.win.arr_inj c _ _ w
theorem W25_of_ne (c : Dev nD) (b : Ref sig .tc) (hb : ∀ w, Pipeline.arrRef spec8 w ≠ b) :
    W25 m ρ c (Proc.devRef .tc b) = W24 m ρ c (Proc.devRef .tc b) := by
  unfold W25; exact Pipeline.withArrays_of_ne spec8 c _ _ b hb
abbrev V25 : (c : Dev nD) → (b : Ref sig .tc) → Buf (Elt F) ((c : Thread nD τ).loc b) := fun c b => W25 m ρ c b
theorem hF8 (c : Dev nD) (w : Fin cfg8.W) : (dat8 (V24 m ρ) c).arrAt w cfg8.N = V25 m ρ c (Pipeline.arrRef spec8 w) :=
  (W25_arr m ρ c w).symm
theorem hrest8 (c : Dev nD) : ∀ b, b ∉ Finset.univ.image (Pipeline.arrRef spec8) → V25 m ρ c b = V24 m ρ c b :=
  fun b hb => W25_of_ne m ρ c b fun w e => hb (Finset.mem_image.mpr ⟨w, Finset.mem_univ _, e⟩)
/-- After item 25, the host stretch hostOps9. -/
def W26 (c : Dev nD) : Valuation τ sig (Elt F) := StableHlo.after hostOps9 (W25 m ρ c)
theorem W26_eq (c : Dev nD) : W26 m ρ c = StableHlo.after hostOps9 (W25 m ρ c) := rfl
abbrev V26 : (c : Dev nD) → (b : Ref sig .tc) → Buf (Elt F) ((c : Thread nD τ).loc b) := fun c b => W26 m ρ c b
theorem W26_keep (c : Dev nD) (r : Ref sig .tc) (h : r ∉ hostOps9_W) : W26 m ρ c (Proc.devRef .tc r) = W25 m ρ c (Proc.devRef .tc r) := by
  rw [W26_eq]; exact StableHlo.after_of_writes_sub hostOps9 _ hostOps9_writes h
/-- After item 26, region 9: its arrays at what the pipeline leaves, every other buffer as entered. -/
def W27 (c : Dev nD) : Valuation τ sig (Elt F) :=
  Pipeline.withArrays spec9 c (W26 m ρ c) fun w => (dat9 (V26 m ρ) c).arrAt w cfg9.N
theorem W27_arr (c : Dev nD) (w : Fin cfg9.W) :
    W27 m ρ c (Proc.devRef .tc (Pipeline.arrRef spec9 w)) = (dat9 (V26 m ρ) c).arrAt w cfg9.N := by
  unfold W27; exact Pipeline.withArrays_arr spec9 launch9.win.arr_inj c _ _ w
theorem W27_of_ne (c : Dev nD) (b : Ref sig .tc) (hb : ∀ w, Pipeline.arrRef spec9 w ≠ b) :
    W27 m ρ c (Proc.devRef .tc b) = W26 m ρ c (Proc.devRef .tc b) := by
  unfold W27; exact Pipeline.withArrays_of_ne spec9 c _ _ b hb
abbrev V27 : (c : Dev nD) → (b : Ref sig .tc) → Buf (Elt F) ((c : Thread nD τ).loc b) := fun c b => W27 m ρ c b
theorem hF9 (c : Dev nD) (w : Fin cfg9.W) : (dat9 (V26 m ρ) c).arrAt w cfg9.N = V27 m ρ c (Pipeline.arrRef spec9 w) :=
  (W27_arr m ρ c w).symm
theorem hrest9 (c : Dev nD) : ∀ b, b ∉ Finset.univ.image (Pipeline.arrRef spec9) → V27 m ρ c b = V26 m ρ c b :=
  fun b hb => W27_of_ne m ρ c b fun w e => hb (Finset.mem_image.mpr ⟨w, Finset.mem_univ _, e⟩)
/-- After item 27, the host stretch hostOps10. -/
def W28 (c : Dev nD) : Valuation τ sig (Elt F) := StableHlo.after hostOps10 (W27 m ρ c)
theorem W28_eq (c : Dev nD) : W28 m ρ c = StableHlo.after hostOps10 (W27 m ρ c) := rfl
abbrev V28 : (c : Dev nD) → (b : Ref sig .tc) → Buf (Elt F) ((c : Thread nD τ).loc b) := fun c b => W28 m ρ c b
theorem W28_keep (c : Dev nD) (r : Ref sig .tc) (h : r ∉ hostOps10_W) : W28 m ρ c (Proc.devRef .tc r) = W27 m ρ c (Proc.devRef .tc r) := by
  rw [W28_eq]; exact StableHlo.after_of_writes_sub hostOps10 _ hostOps10_writes h
/-- After item 28, region 10: its arrays at what the pipeline leaves, every other buffer as entered. -/
def W29 (c : Dev nD) : Valuation τ sig (Elt F) :=
  Pipeline.withArrays spec10 c (W28 m ρ c) fun w => (dat10 (V28 m ρ) c).arrAt w cfg10.N
theorem W29_arr (c : Dev nD) (w : Fin cfg10.W) :
    W29 m ρ c (Proc.devRef .tc (Pipeline.arrRef spec10 w)) = (dat10 (V28 m ρ) c).arrAt w cfg10.N := by
  unfold W29; exact Pipeline.withArrays_arr spec10 launch10.win.arr_inj c _ _ w
theorem W29_of_ne (c : Dev nD) (b : Ref sig .tc) (hb : ∀ w, Pipeline.arrRef spec10 w ≠ b) :
    W29 m ρ c (Proc.devRef .tc b) = W28 m ρ c (Proc.devRef .tc b) := by
  unfold W29; exact Pipeline.withArrays_of_ne spec10 c _ _ b hb
abbrev V29 : (c : Dev nD) → (b : Ref sig .tc) → Buf (Elt F) ((c : Thread nD τ).loc b) := fun c b => W29 m ρ c b
theorem hF10 (c : Dev nD) (w : Fin cfg10.W) : (dat10 (V28 m ρ) c).arrAt w cfg10.N = V29 m ρ c (Pipeline.arrRef spec10 w) :=
  (W29_arr m ρ c w).symm
theorem hrest10 (c : Dev nD) : ∀ b, b ∉ Finset.univ.image (Pipeline.arrRef spec10) → V29 m ρ c b = V28 m ρ c b :=
  fun b hb => W29_of_ne m ρ c b fun w e => hb (Finset.mem_image.mpr ⟨w, Finset.mem_univ _, e⟩)
/-- After item 29, the host stretch hostOps11. -/
def W30 (c : Dev nD) : Valuation τ sig (Elt F) := StableHlo.after hostOps11 (W29 m ρ c)
theorem W30_eq (c : Dev nD) : W30 m ρ c = StableHlo.after hostOps11 (W29 m ρ c) := rfl
abbrev V30 : (c : Dev nD) → (b : Ref sig .tc) → Buf (Elt F) ((c : Thread nD τ).loc b) := fun c b => W30 m ρ c b
theorem W30_keep (c : Dev nD) (r : Ref sig .tc) (h : r ∉ hostOps11_W) : W30 m ρ c (Proc.devRef .tc r) = W29 m ρ c (Proc.devRef .tc r) := by
  rw [W30_eq]; exact StableHlo.after_of_writes_sub hostOps11 _ hostOps11_writes h
/-- After item 30, region 11: its arrays at what the pipeline leaves, every other buffer as entered. -/
def W31 (c : Dev nD) : Valuation τ sig (Elt F) :=
  Pipeline.withArrays spec11 c (W30 m ρ c) fun w => (dat11 (V30 m ρ) c).arrAt w cfg11.N
theorem W31_arr (c : Dev nD) (w : Fin cfg11.W) :
    W31 m ρ c (Proc.devRef .tc (Pipeline.arrRef spec11 w)) = (dat11 (V30 m ρ) c).arrAt w cfg11.N := by
  unfold W31; exact Pipeline.withArrays_arr spec11 launch11.win.arr_inj c _ _ w
theorem W31_of_ne (c : Dev nD) (b : Ref sig .tc) (hb : ∀ w, Pipeline.arrRef spec11 w ≠ b) :
    W31 m ρ c (Proc.devRef .tc b) = W30 m ρ c (Proc.devRef .tc b) := by
  unfold W31; exact Pipeline.withArrays_of_ne spec11 c _ _ b hb
abbrev V31 : (c : Dev nD) → (b : Ref sig .tc) → Buf (Elt F) ((c : Thread nD τ).loc b) := fun c b => W31 m ρ c b
theorem hF11 (c : Dev nD) (w : Fin cfg11.W) : (dat11 (V30 m ρ) c).arrAt w cfg11.N = V31 m ρ c (Pipeline.arrRef spec11 w) :=
  (W31_arr m ρ c w).symm
theorem hrest11 (c : Dev nD) : ∀ b, b ∉ Finset.univ.image (Pipeline.arrRef spec11) → V31 m ρ c b = V30 m ρ c b :=
  fun b hb => W31_of_ne m ρ c b fun w e => hb (Finset.mem_image.mpr ⟨w, Finset.mem_univ _, e⟩)
/-- After item 31, the host stretch hostOps12. -/
def W32 (c : Dev nD) : Valuation τ sig (Elt F) := StableHlo.after hostOps12 (W31 m ρ c)
theorem W32_eq (c : Dev nD) : W32 m ρ c = StableHlo.after hostOps12 (W31 m ρ c) := rfl
abbrev V32 : (c : Dev nD) → (b : Ref sig .tc) → Buf (Elt F) ((c : Thread nD τ).loc b) := fun c b => W32 m ρ c b
theorem W32_keep (c : Dev nD) (r : Ref sig .tc) (h : r ∉ hostOps12_W) : W32 m ρ c (Proc.devRef .tc r) = W31 m ρ c (Proc.devRef .tc r) := by
  rw [W32_eq]; exact StableHlo.after_of_writes_sub hostOps12 _ hostOps12_writes h
/-- After item 32, region 12: its arrays at what the pipeline leaves, every other buffer as entered. -/
def W33 (c : Dev nD) : Valuation τ sig (Elt F) :=
  Pipeline.withArrays spec12 c (W32 m ρ c) fun w => (dat12 (V32 m ρ) c).arrAt w cfg12.N
theorem W33_arr (c : Dev nD) (w : Fin cfg12.W) :
    W33 m ρ c (Proc.devRef .tc (Pipeline.arrRef spec12 w)) = (dat12 (V32 m ρ) c).arrAt w cfg12.N := by
  unfold W33; exact Pipeline.withArrays_arr spec12 launch12.win.arr_inj c _ _ w
theorem W33_of_ne (c : Dev nD) (b : Ref sig .tc) (hb : ∀ w, Pipeline.arrRef spec12 w ≠ b) :
    W33 m ρ c (Proc.devRef .tc b) = W32 m ρ c (Proc.devRef .tc b) := by
  unfold W33; exact Pipeline.withArrays_of_ne spec12 c _ _ b hb
abbrev V33 : (c : Dev nD) → (b : Ref sig .tc) → Buf (Elt F) ((c : Thread nD τ).loc b) := fun c b => W33 m ρ c b
theorem hF12 (c : Dev nD) (w : Fin cfg12.W) : (dat12 (V32 m ρ) c).arrAt w cfg12.N = V33 m ρ c (Pipeline.arrRef spec12 w) :=
  (W33_arr m ρ c w).symm
theorem hrest12 (c : Dev nD) : ∀ b, b ∉ Finset.univ.image (Pipeline.arrRef spec12) → V33 m ρ c b = V32 m ρ c b :=
  fun b hb => W33_of_ne m ρ c b fun w e => hb (Finset.mem_image.mpr ⟨w, Finset.mem_univ _, e⟩)
/-- After item 33, the host stretch hostOps13. -/
def W34 (c : Dev nD) : Valuation τ sig (Elt F) := StableHlo.after hostOps13 (W33 m ρ c)
theorem W34_eq (c : Dev nD) : W34 m ρ c = StableHlo.after hostOps13 (W33 m ρ c) := rfl
abbrev V34 : (c : Dev nD) → (b : Ref sig .tc) → Buf (Elt F) ((c : Thread nD τ).loc b) := fun c b => W34 m ρ c b
theorem W34_keep (c : Dev nD) (r : Ref sig .tc) (h : r ∉ hostOps13_W) : W34 m ρ c (Proc.devRef .tc r) = W33 m ρ c (Proc.devRef .tc r) := by
  rw [W34_eq]; exact StableHlo.after_of_writes_sub hostOps13 _ hostOps13_writes h

/-! ## The proof data family and what rides beside the buffers -/

/-- No pipeline has a prefetched table. -/
abbrev adm : (p : Fin 13) → (pcfgs (F := F) p).Adm := fun p => (cfgs p).toPCfg_adm
/-- Every pipeline's proof data, each at its region's entry contents. -/
def pdats : (p : Fin 13) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
  | ⟨4, _⟩ => fun c => dat4 (V12 m ρ) c
  | ⟨5, _⟩ => fun c => dat5 (V14 m ρ) c
  | ⟨6, _⟩ => fun c => dat6 (V16 m ρ) c
  | ⟨7, _⟩ => fun c => dat7 (V18 m ρ) c
  | ⟨8, _⟩ => fun c => dat8 (V24 m ρ) c
  | ⟨9, _⟩ => fun c => dat9 (V26 m ρ) c
  | ⟨10, _⟩ => fun c => dat10 (V28 m ρ) c
  | ⟨11, _⟩ => fun c => dat11 (V30 m ρ) c
  | ⟨12, _⟩ => fun c => dat12 (V32 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator register at some state. -/
abbrev Tₙ (c : Dev nD) : sProp 𝕄 := iprop(StableHlo.held (c : Thread nD τ) (Pipeline.ucRefs τ sig) (W34 m ρ c) ∗ ∃ r, prngReg c r)

end Cert.KernelIdeal.Frame

end
-- ==== Proof.KI.Reg0.lean ====
/-
  Region 0 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.KI.Folds

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.Reg1.lean ====
/-
  Region 1 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.KI.Folds

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.Reg2.lean ====
/-
  Region 2 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.KI.Folds

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.Reg3.lean ====
/-
  Region 3 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.KI.Folds

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.Reg4.lean ====
/-
  Region 4 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.KI.Folds

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m ρ) c).loose
  hwaits := Pipeline.hwaits_of_owed_zero _ _ _ _ L lv 4 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec4 c (V12 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V12 m ρ c) (V13 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.Reg5.lean ====
/-
  Region 5 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.KI.Folds

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V14 m ρ) c).loose
  hwaits := Pipeline.hwaits_of_owed_zero _ _ _ _ L lv 5 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec5 c (V14 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V14 m ρ c) (V15 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.Reg6.lean ====
/-
  Region 6 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.KI.Folds

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V16 m ρ) c).loose
  hwaits := Pipeline.hwaits_of_owed_zero _ _ _ _ L lv 6 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec6 c (V16 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V16 m ρ c) (V17 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.Reg7.lean ====
/-
  Region 7 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.KI.Folds

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V18 m ρ) c).loose
  hwaits := Pipeline.hwaits_of_owed_zero _ _ _ _ L lv 7 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := UR sig nD τ) (Lvl := ℕ) spec7 c (V18 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (V18 m ρ c) (V19 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.Reg8.lean ====
/-
  Region 8 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.KI.Folds

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V24 m ρ) c).loose
  hwaits := Pipeline.hwaits_of_owed_zero _ _ _ _ L lv 8 fun _ _ => rfl
  pre c := iprop(StableHlo.held (c : Thread nD τ) (Pipeline.ucRefs τ sig) (W24 m ρ c) ∗ R c)
  post c := iprop(StableHlo.held (c : Thread nD τ) (Pipeline.ucRefs τ sig) (W25 m ρ c) ∗ R c)
  X c := iprop(∃ r, prngReg c r)
  Y c := iprop(∃ r, prngReg c r)
  Z c := Pipeline.unscopedRest (Ix := Unit) (Name := ℕ) (U := UR sig nD τ) (Lvl := ℕ) spec8 c (V24 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V24 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (V24 m ρ c) (V25 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.Reg9.lean ====
/-
  Region 9 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.KI.Folds

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V26 m ρ) c).loose
  hwaits := Pipeline.hwaits_of_owed_zero _ _ _ _ L lv 9 fun _ _ => rfl
  pre c := iprop(StableHlo.held (c : Thread nD τ) (Pipeline.ucRefs τ sig) (W26 m ρ c) ∗ R c)
  post c := iprop(StableHlo.held (c : Thread nD τ) (Pipeline.ucRefs τ sig) (W27 m ρ c) ∗ R c)
  X c := iprop(∃ r, prngReg c r)
  Y c := iprop(∃ r, prngReg c r)
  Z c := Pipeline.unscopedRest (Ix := Unit) (Name := ℕ) (U := UR sig nD τ) (Lvl := ℕ) spec9 c (V26 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V26 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (V26 m ρ c) (V27 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.Reg10.lean ====
/-
  Region 10 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.KI.Folds

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V28 m ρ) c).loose
  hwaits := Pipeline.hwaits_of_owed_zero _ _ _ _ L lv 10 fun _ _ => rfl
  pre c := iprop(StableHlo.held (c : Thread nD τ) (Pipeline.ucRefs τ sig) (W28 m ρ c) ∗ R c)
  post c := iprop(StableHlo.held (c : Thread nD τ) (Pipeline.ucRefs τ sig) (W29 m ρ c) ∗ R c)
  X c := iprop(∃ r, prngReg c r)
  Y c := iprop(∃ r, prngReg c r)
  Z c := Pipeline.unscopedRest (Ix := Unit) (Name := ℕ) (U := UR sig nD τ) (Lvl := ℕ) spec10 c (V28 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V28 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (V28 m ρ c) (V29 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.Reg11.lean ====
/-
  Region 11 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.KI.Folds

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V30 m ρ) c).loose
  hwaits := Pipeline.hwaits_of_owed_zero _ _ _ _ L lv 11 fun _ _ => rfl
  pre c := iprop(StableHlo.held (c : Thread nD τ) (Pipeline.ucRefs τ sig) (W30 m ρ c) ∗ R c)
  post c := iprop(StableHlo.held (c : Thread nD τ) (Pipeline.ucRefs τ sig) (W31 m ρ c) ∗ R c)
  X c := iprop(∃ r, prngReg c r)
  Y c := iprop(∃ r, prngReg c r)
  Z c := Pipeline.unscopedRest (Ix := Unit) (Name := ℕ) (U := UR sig nD τ) (Lvl := ℕ) spec11 c (V30 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V30 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (V30 m ρ c) (V31 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.Reg12.lean ====
/-
  Region 12 as a segment of @main over the thread state "every unscoped buffer of the core at
  the boundary's contents, the generator register at some state, nothing owed": entered from the contents at the boundary
  before it, left at the contents at the boundary after it. At entry the region's arrays are split out of the unscoped buffers at the proof
  data's entry contents and the rest bypasses the region; the generator register goes into the class invariant and comes
  back out of it; at exit the arrays, now at what the write-backs leave, are put back among the unscoped buffers.
-/
import proofs.«151172_j14164802142730_2_alg».proof.Proof.KI.Folds

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V32 m ρ) c).loose
  hwaits := Pipeline.hwaits_of_owed_zero _ _ _ _ L lv 12 fun _ _ => rfl
  pre c := iprop(StableHlo.held (c : Thread nD τ) (Pipeline.ucRefs τ sig) (W32 m ρ c) ∗ R c)
  post c := iprop(StableHlo.held (c : Thread nD τ) (Pipeline.ucRefs τ sig) (W33 m ρ c) ∗ R c)
  X c := iprop(∃ r, prngReg c r)
  Y c := iprop(∃ r, prngReg c r)
  Z c := Pipeline.unscopedRest (Ix := Unit) (Name := ℕ) (U := UR sig nD τ) (Lvl := ℕ) spec12 c (V32 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V32 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (V32 m ρ c) (V33 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frame

end
-- ==== Proof.KI.Run.lean ====
/-
  The run of the kernel program, at any float instance: @main is the chain of its 34 items (21 stretches of host operations,
  13 kernel regions); each is a segment over the thread state "every unscoped buffer of the core at the boundary's contents,
  the generator register at some state, nothing owed", and consecutive segments agree on the boundary between them. So every
  weakly fair execution from a memory with zero counters terminates without a fault, and at the end every unscoped buffer of
  every core holds the last boundary's contents `W34`.
-/
import proofs.«151172_j14164802142730_2_alg».proof.Proof.KI.Reg0
import proofs.«151172_j14164802142730_2_alg».proof.Proof.KI.Reg1
import proofs.«151172_j14164802142730_2_alg».proof.Proof.KI.Reg2
import proofs.«151172_j14164802142730_2_alg».proof.Proof.KI.Reg3
import proofs.«151172_j14164802142730_2_alg».proof.Proof.KI.Reg4
import proofs.«151172_j14164802142730_2_alg».proof.Proof.KI.Reg5
import proofs.«151172_j14164802142730_2_alg».proof.Proof.KI.Reg6
import proofs.«151172_j14164802142730_2_alg».proof.Proof.KI.Reg7
import proofs.«151172_j14164802142730_2_alg».proof.Proof.KI.Reg8
import proofs.«151172_j14164802142730_2_alg».proof.Proof.KI.Reg9
import proofs.«151172_j14164802142730_2_alg».proof.Proof.KI.Reg10
import proofs.«151172_j14164802142730_2_alg».proof.Proof.KI.Reg11
import proofs.«151172_j14164802142730_2_alg».proof.Proof.KI.Reg12

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 34 segments in order. -/
abbrev segs : List (Pipeline.Seg (pcfgs (F := F)) adm (pdats m ρ) () defs₀ 𝒱₀ L lv) :=
  [
    .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .host (hseg hostOps4 hostOps4_sub hostOps4_fresh (W7 m ρ)),
    .host (hseg hostOps4_1 hostOps4_1_sub hostOps4_1_fresh (W8 m ρ)),
    .host (hseg hostOps4_2 hostOps4_2_sub hostOps4_2_fresh (W9 m ρ)),
    .host (hseg hostOps4_3 hostOps4_3_sub hostOps4_3_fresh (W10 m ρ)),
    .host (hseg hostOps4_4 hostOps4_4_sub hostOps4_4_fresh (W11 m ρ)),
    .region (reg4 m ρ),
    .host (hseg hostOps5 hostOps5_sub hostOps5_fresh (W13 m ρ)),
    .region (reg5 m ρ),
    .host (hseg hostOps6 hostOps6_sub hostOps6_fresh (W15 m ρ)),
    .region (reg6 m ρ),
    .host (hseg hostOps7 hostOps7_sub hostOps7_fresh (W17 m ρ)),
    .region (reg7 m ρ),
    .host (hseg hostOps8 hostOps8_sub hostOps8_fresh (W19 m ρ)),
    .host (hseg hostOps8_1 hostOps8_1_sub hostOps8_1_fresh (W20 m ρ)),
    .host (hseg hostOps8_2 hostOps8_2_sub hostOps8_2_fresh (W21 m ρ)),
    .host (hseg hostOps8_3 hostOps8_3_sub hostOps8_3_fresh (W22 m ρ)),
    .host (hseg hostOps8_4 hostOps8_4_sub hostOps8_4_fresh (W23 m ρ)),
    .region (reg8 m ρ),
    .host (hseg hostOps9 hostOps9_sub hostOps9_fresh (W25 m ρ)),
    .region (reg9 m ρ),
    .host (hseg hostOps10 hostOps10_sub hostOps10_fresh (W27 m ρ)),
    .region (reg10 m ρ),
    .host (hseg hostOps11 hostOps11_sub hostOps11_fresh (W29 m ρ)),
    .region (reg11 m ρ),
    .host (hseg hostOps12 hostOps12_sub hostOps12_fresh (W31 m ρ)),
    .region (reg12 m ρ),
    .host (hseg hostOps13 hostOps13_sub hostOps13_fresh (W33 m ρ)) ]

/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final state has each unscoped buffer of each core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W34 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W34 m ρ c) ∗ R c)
          ⊢ iprop(Tₙ m ρ c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m ρ c b)
    (hfin := fun c s' => by
      iintro ⟨⟨Hh, -⟩, HSI⟩
      unfold StableHlo.held
      imodintro
      iapply (pointsTo_read_all (Pipeline.ucRefs τ sig) (fun b => (((c : Thread nD τ)).1, b)) (W34 m ρ c) s')
      isplitl [Hh] <;> iassumption)
    (hQ := fun s h c => h c)

end Cert.KernelIdeal.Frame

end
-- ==== Proof.KI.Args.lean ====
/-
  No item of @main changes an argument array: no host stretch writes one, and a kernel region either does not touch it or
  reads it through an input window, whose array the pipeline leaves as it was entered. So at the last boundary each argument
  array still holds its launch contents.
-/
import proofs.«151172_j14164802142730_2_alg».proof.Proof.KI.Folds

set_option maxRecDepth 16384

noncomputable section

namespace Cert.KernelIdeal.Frame

open Cert.KernelIdeal Cert.KernelIdeal.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

theorem W34_main_arg0 (c : Dev nD) : W34 m ρ c (Proc.devRef .tc main_arg0) = m ((c : Thread nD τ).loc main_arg0) :=
  calc W34 m ρ c (Proc.devRef .tc main_arg0)
    _ = W33 m ρ c (Proc.devRef .tc main_arg0) := W34_keep m ρ c main_arg0 (by decide)
    _ = W32 m ρ c (Proc.devRef .tc main_arg0) := W33_of_ne m ρ c main_arg0 (by decide)
    _ = W31 m ρ c (Proc.devRef .tc main_arg0) := W32_keep m ρ c main_arg0 (by decide)
    _ = W30 m ρ c (Proc.devRef .tc main_arg0) := W31_of_ne m ρ c main_arg0 (by decide)
    _ = W29 m ρ c (Proc.devRef .tc main_arg0) := W30_keep m ρ c main_arg0 (by decide)
    _ = W28 m ρ c (Proc.devRef .tc main_arg0) := W29_of_ne m ρ c main_arg0 (by decide)
    _ = W27 m ρ c (Proc.devRef .tc main_arg0) := W28_keep m ρ c main_arg0 (by decide)
    _ = W26 m ρ c (Proc.devRef .tc main_arg0) := W27_of_ne m ρ c main_arg0 (by decide)
    _ = W25 m ρ c (Proc.devRef .tc main_arg0) := W26_keep m ρ c main_arg0 (by decide)
    _ = W24 m ρ c (Proc.devRef .tc main_arg0) := W25_of_ne m ρ c main_arg0 (by decide)
    _ = W23 m ρ c (Proc.devRef .tc main_arg0) := W24_keep m ρ c main_arg0 (by decide)
    _ = W22 m ρ c (Proc.devRef .tc main_arg0) := W23_keep m ρ c main_arg0 (by decide)
    _ = W21 m ρ c (Proc.devRef .tc main_arg0) := W22_keep m ρ c main_arg0 (by decide)
    _ = W20 m ρ c (Proc.devRef .tc main_arg0) := W21_keep m ρ c main_arg0 (by decide)
    _ = W19 m ρ c (Proc.devRef .tc main_arg0) := W20_keep m ρ c main_arg0 (by decide)
    _ = W18 m ρ c (Proc.devRef .tc main_arg0) := W19_of_ne m ρ c main_arg0 (by decide)
    _ = W17 m ρ c (Proc.devRef .tc main_arg0) := W18_keep m ρ c main_arg0 (by decide)
    _ = W16 m ρ c (Proc.devRef .tc main_arg0) := W17_of_ne m ρ c main_arg0 (by decide)
    _ = W15 m ρ c (Proc.devRef .tc main_arg0) := W16_keep m ρ c main_arg0 (by decide)
    _ = W14 m ρ c (Proc.devRef .tc main_arg0) := W15_of_ne m ρ c main_arg0 (by decide)
    _ = W13 m ρ c (Proc.devRef .tc main_arg0) := W14_keep m ρ c main_arg0 (by decide)
    _ = W12 m ρ c (Proc.devRef .tc main_arg0) := W13_of_ne m ρ c main_arg0 (by decide)
    _ = W11 m ρ c (Proc.devRef .tc main_arg0) := W12_keep m ρ c main_arg0 (by decide)
    _ = W10 m ρ c (Proc.devRef .tc main_arg0) := W11_keep m ρ c main_arg0 (by decide)
    _ = W9 m ρ c (Proc.devRef .tc main_arg0) := W10_keep m ρ c main_arg0 (by decide)
    _ = W8 m ρ c (Proc.devRef .tc main_arg0) := W9_keep m ρ c main_arg0 (by decide)
    _ = W7 m ρ c (Proc.devRef .tc main_arg0) := W8_keep m ρ c main_arg0 (by decide)
    _ = W6 m ρ c (Proc.devRef .tc main_arg0) := W7_of_ne m ρ c main_arg0 (by decide)
    _ = W5 m ρ c (Proc.devRef .tc main_arg0) := W6_keep m ρ c main_arg0 (by decide)
    _ = W4 m ρ c (Proc.devRef .tc main_arg0) := W5_of_ne m ρ c main_arg0 (by decide)
    _ = W3 m ρ c (Proc.devRef .tc main_arg0) := W4_keep m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_keep m ρ c main_arg0 (by decide)
    _ = m ((c : Thread nD τ).loc main_arg0) := rfl

theorem W34_main_arg1 (c : Dev nD) : W34 m ρ c (Proc.devRef .tc main_arg1) = m ((c : Thread nD τ).loc main_arg1) :=
  calc W34 m ρ c (Proc.devRef .tc main_arg1)
    _ = W33 m ρ c (Proc.devRef .tc main_arg1) := W34_keep m ρ c main_arg1 (by decide)
    _ = W32 m ρ c (Proc.devRef .tc main_arg1) := W33_of_ne m ρ c main_arg1 (by decide)
    _ = W31 m ρ c (Proc.devRef .tc main_arg1) := W32_keep m ρ c main_arg1 (by decide)
    _ = W30 m ρ c (Proc.devRef .tc main_arg1) := W31_of_ne m ρ c main_arg1 (by decide)
    _ = W29 m ρ c (Proc.devRef .tc main_arg1) := W30_keep m ρ c main_arg1 (by decide)
    _ = W28 m ρ c (Proc.devRef .tc main_arg1) := W29_of_ne m ρ c main_arg1 (by decide)
    _ = W27 m ρ c (Proc.devRef .tc main_arg1) := W28_keep m ρ c main_arg1 (by decide)
    _ = W26 m ρ c (Proc.devRef .tc main_arg1) := W27_of_ne m ρ c main_arg1 (by decide)
    _ = W25 m ρ c (Proc.devRef .tc main_arg1) := W26_keep m ρ c main_arg1 (by decide)
    _ = W24 m ρ c (Proc.devRef .tc main_arg1) := W25_of_ne m ρ c main_arg1 (by decide)
    _ = W23 m ρ c (Proc.devRef .tc main_arg1) := W24_keep m ρ c main_arg1 (by decide)
    _ = W22 m ρ c (Proc.devRef .tc main_arg1) := W23_keep m ρ c main_arg1 (by decide)
    _ = W21 m ρ c (Proc.devRef .tc main_arg1) := W22_keep m ρ c main_arg1 (by decide)
    _ = W20 m ρ c (Proc.devRef .tc main_arg1) := W21_keep m ρ c main_arg1 (by decide)
    _ = W19 m ρ c (Proc.devRef .tc main_arg1) := W20_keep m ρ c main_arg1 (by decide)
    _ = W18 m ρ c (Proc.devRef .tc main_arg1) := W19_of_ne m ρ c main_arg1 (by decide)
    _ = W17 m ρ c (Proc.devRef .tc main_arg1) := W18_keep m ρ c main_arg1 (by decide)
    _ = W16 m ρ c (Proc.devRef .tc main_arg1) := W17_of_ne m ρ c main_arg1 (by decide)
    _ = W15 m ρ c (Proc.devRef .tc main_arg1) := W16_keep m ρ c main_arg1 (by decide)
    _ = W14 m ρ c (Proc.devRef .tc main_arg1) := W15_of_ne m ρ c main_arg1 (by decide)
    _ = W13 m ρ c (Proc.devRef .tc main_arg1) := W14_keep m ρ c main_arg1 (by decide)
    _ = W12 m ρ c (Proc.devRef .tc main_arg1) := W13_of_ne m ρ c main_arg1 (by decide)
    _ = W11 m ρ c (Proc.devRef .tc main_arg1) := W12_keep m ρ c main_arg1 (by decide)
    _ = W10 m ρ c (Proc.devRef .tc main_arg1) := W11_keep m ρ c main_arg1 (by decide)
    _ = W9 m ρ c (Proc.devRef .tc main_arg1) := W10_keep m ρ c main_arg1 (by decide)
    _ = W8 m ρ c (Proc.devRef .tc main_arg1) := W9_keep m ρ c main_arg1 (by decide)
    _ = W7 m ρ c (Proc.devRef .tc main_arg1) := W8_keep m ρ c main_arg1 (by decide)
    _ = W6 m ρ c (Proc.devRef .tc main_arg1) := W7_of_ne m ρ c main_arg1 (by decide)
    _ = W5 m ρ c (Proc.devRef .tc main_arg1) := W6_keep m ρ c main_arg1 (by decide)
    _ = W4 m ρ c (Proc.devRef .tc main_arg1) := W5_of_ne m ρ c main_arg1 (by decide)
    _ = W3 m ρ c (Proc.devRef .tc main_arg1) := W4_keep m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_keep m ρ c main_arg1 (by decide)
    _ = m ((c : Thread nD τ).loc main_arg1) := rfl

theorem W34_main_arg2 (c : Dev nD) : W34 m ρ c (Proc.devRef .tc main_arg2) = m ((c : Thread nD τ).loc main_arg2) :=
  calc W34 m ρ c (Proc.devRef .tc main_arg2)
    _ = W33 m ρ c (Proc.devRef .tc main_arg2) := W34_keep m ρ c main_arg2 (by decide)
    _ = W32 m ρ c (Proc.devRef .tc main_arg2) := W33_of_ne m ρ c main_arg2 (by decide)
    _ = W31 m ρ c (Proc.devRef .tc main_arg2) := W32_keep m ρ c main_arg2 (by decide)
    _ = W30 m ρ c (Proc.devRef .tc main_arg2) := W31_of_ne m ρ c main_arg2 (by decide)
    _ = W29 m ρ c (Proc.devRef .tc main_arg2) := W30_keep m ρ c main_arg2 (by decide)
    _ = W28 m ρ c (Proc.devRef .tc main_arg2) := W29_of_ne m ρ c main_arg2 (by decide)
    _ = W27 m ρ c (Proc.devRef .tc main_arg2) := W28_keep m ρ c main_arg2 (by decide)
    _ = W26 m ρ c (Proc.devRef .tc main_arg2) := W27_of_ne m ρ c main_arg2 (by decide)
    _ = W25 m ρ c (Proc.devRef .tc main_arg2) := W26_keep m ρ c main_arg2 (by decide)
    _ = W24 m ρ c (Proc.devRef .tc main_arg2) := W25_of_ne m ρ c main_arg2 (by decide)
    _ = W23 m ρ c (Proc.devRef .tc main_arg2) := W24_keep m ρ c main_arg2 (by decide)
    _ = W22 m ρ c (Proc.devRef .tc main_arg2) := W23_keep m ρ c main_arg2 (by decide)
    _ = W21 m ρ c (Proc.devRef .tc main_arg2) := W22_keep m ρ c main_arg2 (by decide)
    _ = W20 m ρ c (Proc.devRef .tc main_arg2) := W21_keep m ρ c main_arg2 (by decide)
    _ = W19 m ρ c (Proc.devRef .tc main_arg2) := W20_keep m ρ c main_arg2 (by decide)
    _ = W18 m ρ c (Proc.devRef .tc main_arg2) := W19_of_ne m ρ c main_arg2 (by decide)
    _ = W17 m ρ c (Proc.devRef .tc main_arg2) := W18_keep m ρ c main_arg2 (by decide)
    _ = W16 m ρ c (Proc.devRef .tc main_arg2) := W17_of_ne m ρ c main_arg2 (by decide)
    _ = W15 m ρ c (Proc.devRef .tc main_arg2) := W16_keep m ρ c main_arg2 (by decide)
    _ = W14 m ρ c (Proc.devRef .tc main_arg2) := W15_of_ne m ρ c main_arg2 (by decide)
    _ = W13 m ρ c (Proc.devRef .tc main_arg2) := W14_keep m ρ c main_arg2 (by decide)
    _ = W12 m ρ c (Proc.devRef .tc main_arg2) := W13_of_ne m ρ c main_arg2 (by decide)
    _ = W11 m ρ c (Proc.devRef .tc main_arg2) := W12_keep m ρ c main_arg2 (by decide)
    _ = W10 m ρ c (Proc.devRef .tc main_arg2) := W11_keep m ρ c main_arg2 (by decide)
    _ = W9 m ρ c (Proc.devRef .tc main_arg2) := W10_keep m ρ c main_arg2 (by decide)
    _ = W8 m ρ c (Proc.devRef .tc main_arg2) := W9_keep m ρ c main_arg2 (by decide)
    _ = W7 m ρ c (Proc.devRef .tc main_arg2) := W8_keep m ρ c main_arg2 (by decide)
    _ = W6 m ρ c (Proc.devRef .tc main_arg2) := W7_of_ne m ρ c main_arg2 (by decide)
    _ = W5 m ρ c (Proc.devRef .tc main_arg2) := W6_keep m ρ c main_arg2 (by decide)
    _ = W4 m ρ c (Proc.devRef .tc main_arg2) := W5_of_ne m ρ c main_arg2 (by decide)
    _ = W3 m ρ c (Proc.devRef .tc main_arg2) := W4_keep m ρ c main_arg2 (by decide)
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_keep m ρ c main_arg2 (by decide)
    _ = m ((c : Thread nD τ).loc main_arg2) := rfl

theorem W34_main_arg3 (c : Dev nD) : W34 m ρ c (Proc.devRef .tc main_arg3) = m ((c : Thread nD τ).loc main_arg3) :=
  calc W34 m ρ c (Proc.devRef .tc main_arg3)
    _ = W33 m ρ c (Proc.devRef .tc main_arg3) := W34_keep m ρ c main_arg3 (by decide)
    _ = W32 m ρ c (Proc.devRef .tc main_arg3) := W33_of_ne m ρ c main_arg3 (by decide)
    _ = W31 m ρ c (Proc.devRef .tc main_arg3) := W32_keep m ρ c main_arg3 (by decide)
    _ = W30 m ρ c (Proc.devRef .tc main_arg3) := W31_of_ne m ρ c main_arg3 (by decide)
    _ = W29 m ρ c (Proc.devRef .tc main_arg3) := W30_keep m ρ c main_arg3 (by decide)
    _ = W28 m ρ c (Proc.devRef .tc main_arg3) := W29_of_ne m ρ c main_arg3 (by decide)
    _ = W27 m ρ c (Proc.devRef .tc main_arg3) := W28_keep m ρ c main_arg3 (by decide)
    _ = W26 m ρ c (Proc.devRef .tc main_arg3) := W27_of_ne m ρ c main_arg3 (by decide)
    _ = W25 m ρ c (Proc.devRef .tc main_arg3) := W26_keep m ρ c main_arg3 (by decide)
    _ = W24 m ρ c (Proc.devRef .tc main_arg3) := W25_of_ne m ρ c main_arg3 (by decide)
    _ = W23 m ρ c (Proc.devRef .tc main_arg3) := W24_keep m ρ c main_arg3 (by decide)
    _ = W22 m ρ c (Proc.devRef .tc main_arg3) := W23_keep m ρ c main_arg3 (by decide)
    _ = W21 m ρ c (Proc.devRef .tc main_arg3) := W22_keep m ρ c main_arg3 (by decide)
    _ = W20 m ρ c (Proc.devRef .tc main_arg3) := W21_keep m ρ c main_arg3 (by decide)
    _ = W19 m ρ c (Proc.devRef .tc main_arg3) := W20_keep m ρ c main_arg3 (by decide)
    _ = W18 m ρ c (Proc.devRef .tc main_arg3) := W19_of_ne m ρ c main_arg3 (by decide)
    _ = W17 m ρ c (Proc.devRef .tc main_arg3) := W18_keep m ρ c main_arg3 (by decide)
    _ = W16 m ρ c (Proc.devRef .tc main_arg3) := W17_of_ne m ρ c main_arg3 (by decide)
    _ = W15 m ρ c (Proc.devRef .tc main_arg3) := W16_keep m ρ c main_arg3 (by decide)
    _ = W14 m ρ c (Proc.devRef .tc main_arg3) := W15_of_ne m ρ c main_arg3 (by decide)
    _ = W13 m ρ c (Proc.devRef .tc main_arg3) := W14_keep m ρ c main_arg3 (by decide)
    _ = W12 m ρ c (Proc.devRef .tc main_arg3) := W13_of_ne m ρ c main_arg3 (by decide)
    _ = W11 m ρ c (Proc.devRef .tc main_arg3) := W12_keep m ρ c main_arg3 (by decide)
    _ = W10 m ρ c (Proc.devRef .tc main_arg3) := W11_keep m ρ c main_arg3 (by decide)
    _ = W9 m ρ c (Proc.devRef .tc main_arg3) := W10_keep m ρ c main_arg3 (by decide)
    _ = W8 m ρ c (Proc.devRef .tc main_arg3) := W9_keep m ρ c main_arg3 (by decide)
    _ = W7 m ρ c (Proc.devRef .tc main_arg3) := W8_keep m ρ c main_arg3 (by decide)
    _ = W6 m ρ c (Proc.devRef .tc main_arg3) := W7_of_ne m ρ c main_arg3 (by decide)
    _ = W5 m ρ c (Proc.devRef .tc main_arg3) := W6_keep m ρ c main_arg3 (by decide)
    _ = W4 m ρ c (Proc.devRef .tc main_arg3) := W5_of_ne m ρ c main_arg3 (by decide)
    _ = W3 m ρ c (Proc.devRef .tc main_arg3) := W4_keep m ρ c main_arg3 (by decide)
    _ = W2 m ρ c (Proc.devRef .tc main_arg3) := W3_of_ne m ρ c main_arg3 (by decide)
    _ = W1 m ρ c (Proc.devRef .tc main_arg3) := (W2_arr m ρ c 2).trans (((dat0 (V1 m ρ) c).arrAt_in 2 rfl _).trans (A_eq0 (V1 m ρ) c 2))
    _ = W0 m ρ c (Proc.devRef .tc main_arg3) := W1_keep m ρ c main_arg3 (by decide)
    _ = m ((c : Thread nD τ).loc main_arg3) := rfl

theorem W34_main_arg4 (c : Dev nD) : W34 m ρ c (Proc.devRef .tc main_arg4) = m ((c : Thread nD τ).loc main_arg4) :=
  calc W34 m ρ c (Proc.devRef .tc main_arg4)
    _ = W33 m ρ c (Proc.devRef .tc main_arg4) := W34_keep m ρ c main_arg4 (by decide)
    _ = W32 m ρ c (Proc.devRef .tc main_arg4) := W33_of_ne m ρ c main_arg4 (by decide)
    _ = W31 m ρ c (Proc.devRef .tc main_arg4) := W32_keep m ρ c main_arg4 (by decide)
    _ = W30 m ρ c (Proc.devRef .tc main_arg4) := W31_of_ne m ρ c main_arg4 (by decide)
    _ = W29 m ρ c (Proc.devRef .tc main_arg4) := W30_keep m ρ c main_arg4 (by decide)
    _ = W28 m ρ c (Proc.devRef .tc main_arg4) := W29_of_ne m ρ c main_arg4 (by decide)
    _ = W27 m ρ c (Proc.devRef .tc main_arg4) := W28_keep m ρ c main_arg4 (by decide)
    _ = W26 m ρ c (Proc.devRef .tc main_arg4) := W27_of_ne m ρ c main_arg4 (by decide)
    _ = W25 m ρ c (Proc.devRef .tc main_arg4) := W26_keep m ρ c main_arg4 (by decide)
    _ = W24 m ρ c (Proc.devRef .tc main_arg4) := W25_of_ne m ρ c main_arg4 (by decide)
    _ = W23 m ρ c (Proc.devRef .tc main_arg4) := W24_keep m ρ c main_arg4 (by decide)
    _ = W22 m ρ c (Proc.devRef .tc main_arg4) := W23_keep m ρ c main_arg4 (by decide)
    _ = W21 m ρ c (Proc.devRef .tc main_arg4) := W22_keep m ρ c main_arg4 (by decide)
    _ = W20 m ρ c (Proc.devRef .tc main_arg4) := W21_keep m ρ c main_arg4 (by decide)
    _ = W19 m ρ c (Proc.devRef .tc main_arg4) := W20_keep m ρ c main_arg4 (by decide)
    _ = W18 m ρ c (Proc.devRef .tc main_arg4) := W19_of_ne m ρ c main_arg4 (by decide)
    _ = W17 m ρ c (Proc.devRef .tc main_arg4) := W18_keep m ρ c main_arg4 (by decide)
    _ = W16 m ρ c (Proc.devRef .tc main_arg4) := W17_of_ne m ρ c main_arg4 (by decide)
    _ = W15 m ρ c (Proc.devRef .tc main_arg4) := W16_keep m ρ c main_arg4 (by decide)
    _ = W14 m ρ c (Proc.devRef .tc main_arg4) := W15_of_ne m ρ c main_arg4 (by decide)
    _ = W13 m ρ c (Proc.devRef .tc main_arg4) := W14_keep m ρ c main_arg4 (by decide)
    _ = W12 m ρ c (Proc.devRef .tc main_arg4) := W13_of_ne m ρ c main_arg4 (by decide)
    _ = W11 m ρ c (Proc.devRef .tc main_arg4) := W12_keep m ρ c main_arg4 (by decide)
    _ = W10 m ρ c (Proc.devRef .tc main_arg4) := W11_keep m ρ c main_arg4 (by decide)
    _ = W9 m ρ c (Proc.devRef .tc main_arg4) := W10_keep m ρ c main_arg4 (by decide)
    _ = W8 m ρ c (Proc.devRef .tc main_arg4) := W9_keep m ρ c main_arg4 (by decide)
    _ = W7 m ρ c (Proc.devRef .tc main_arg4) := W8_keep m ρ c main_arg4 (by decide)
    _ = W6 m ρ c (Proc.devRef .tc main_arg4) := W7_of_ne m ρ c main_arg4 (by decide)
    _ = W5 m ρ c (Proc.devRef .tc main_arg4) := W6_keep m ρ c main_arg4 (by decide)
    _ = W4 m ρ c (Proc.devRef .tc main_arg4) := W5_of_ne m ρ c main_arg4 (by decide)
    _ = W3 m ρ c (Proc.devRef .tc main_arg4) := W4_keep m ρ c main_arg4 (by decide)
    _ = W2 m ρ c (Proc.devRef .tc main_arg4) := (W3_arr m ρ c 1).trans (((dat1 (V2 m ρ) c).arrAt_in 1 rfl _).trans (A_eq1 (V2 m ρ) c 1))
    _ = W1 m ρ c (Proc.devRef .tc main_arg4) := W2_of_ne m ρ c main_arg4 (by decide)
    _ = W0 m ρ c (Proc.devRef .tc main_arg4) := W1_keep m ρ c main_arg4 (by decide)
    _ = m ((c : Thread nD τ).loc main_arg4) := rfl

theorem W34_main_arg5 (c : Dev nD) : W34 m ρ c (Proc.devRef .tc main_arg5) = m ((c : Thread nD τ).loc main_arg5) :=
  calc W34 m ρ c (Proc.devRef .tc main_arg5)
    _ = W33 m ρ c (Proc.devRef .tc main_arg5) := W34_keep m ρ c main_arg5 (by decide)
    _ = W32 m ρ c (Proc.devRef .tc main_arg5) := W33_of_ne m ρ c main_arg5 (by decide)
    _ = W31 m ρ c (Proc.devRef .tc main_arg5) := W32_keep m ρ c main_arg5 (by decide)
    _ = W30 m ρ c (Proc.devRef .tc main_arg5) := W31_of_ne m ρ c main_arg5 (by decide)
    _ = W29 m ρ c (Proc.devRef .tc main_arg5) := W30_keep m ρ c main_arg5 (by decide)
    _ = W28 m ρ c (Proc.devRef .tc main_arg5) := W29_of_ne m ρ c main_arg5 (by decide)
    _ = W27 m ρ c (Proc.devRef .tc main_arg5) := W28_keep m ρ c main_arg5 (by decide)
    _ = W26 m ρ c (Proc.devRef .tc main_arg5) := W27_of_ne m ρ c main_arg5 (by decide)
    _ = W25 m ρ c (Proc.devRef .tc main_arg5) := W26_keep m ρ c main_arg5 (by decide)
    _ = W24 m ρ c (Proc.devRef .tc main_arg5) := W25_of_ne m ρ c main_arg5 (by decide)
    _ = W23 m ρ c (Proc.devRef .tc main_arg5) := W24_keep m ρ c main_arg5 (by decide)
    _ = W22 m ρ c (Proc.devRef .tc main_arg5) := W23_keep m ρ c main_arg5 (by decide)
    _ = W21 m ρ c (Proc.devRef .tc main_arg5) := W22_keep m ρ c main_arg5 (by decide)
    _ = W20 m ρ c (Proc.devRef .tc main_arg5) := W21_keep m ρ c main_arg5 (by decide)
    _ = W19 m ρ c (Proc.devRef .tc main_arg5) := W20_keep m ρ c main_arg5 (by decide)
    _ = W18 m ρ c (Proc.devRef .tc main_arg5) := W19_of_ne m ρ c main_arg5 (by decide)
    _ = W17 m ρ c (Proc.devRef .tc main_arg5) := W18_keep m ρ c main_arg5 (by decide)
    _ = W16 m ρ c (Proc.devRef .tc main_arg5) := W17_of_ne m ρ c main_arg5 (by decide)
    _ = W15 m ρ c (Proc.devRef .tc main_arg5) := W16_keep m ρ c main_arg5 (by decide)
    _ = W14 m ρ c (Proc.devRef .tc main_arg5) := W15_of_ne m ρ c main_arg5 (by decide)
    _ = W13 m ρ c (Proc.devRef .tc main_arg5) := W14_keep m ρ c main_arg5 (by decide)
    _ = W12 m ρ c (Proc.devRef .tc main_arg5) := W13_of_ne m ρ c main_arg5 (by decide)
    _ = W11 m ρ c (Proc.devRef .tc main_arg5) := W12_keep m ρ c main_arg5 (by decide)
    _ = W10 m ρ c (Proc.devRef .tc main_arg5) := W11_keep m ρ c main_arg5 (by decide)
    _ = W9 m ρ c (Proc.devRef .tc main_arg5) := W10_keep m ρ c main_arg5 (by decide)
    _ = W8 m ρ c (Proc.devRef .tc main_arg5) := W9_keep m ρ c main_arg5 (by decide)
    _ = W7 m ρ c (Proc.devRef .tc main_arg5) := W8_keep m ρ c main_arg5 (by decide)
    _ = W6 m ρ c (Proc.devRef .tc main_arg5) := W7_of_ne m ρ c main_arg5 (by decide)
    _ = W5 m ρ c (Proc.devRef .tc main_arg5) := W6_keep m ρ c main_arg5 (by decide)
    _ = W4 m ρ c (Proc.devRef .tc main_arg5) := W5_of_ne m ρ c main_arg5 (by decide)
    _ = W3 m ρ c (Proc.devRef .tc main_arg5) := W4_keep m ρ c main_arg5 (by decide)
    _ = W2 m ρ c (Proc.devRef .tc main_arg5) := (W3_arr m ρ c 2).trans (((dat1 (V2 m ρ) c).arrAt_in 2 rfl _).trans (A_eq1 (V2 m ρ) c 2))
    _ = W1 m ρ c (Proc.devRef .tc main_arg5) := W2_of_ne m ρ c main_arg5 (by decide)
    _ = W0 m ρ c (Proc.devRef .tc main_arg5) := W1_keep m ρ c main_arg5 (by decide)
    _ = m ((c : Thread nD τ).loc main_arg5) := rfl

theorem W34_main_arg6 (c : Dev nD) : W34 m ρ c (Proc.devRef .tc main_arg6) = m ((c : Thread nD τ).loc main_arg6) :=
  calc W34 m ρ c (Proc.devRef .tc main_arg6)
    _ = W33 m ρ c (Proc.devRef .tc main_arg6) := W34_keep m ρ c main_arg6 (by decide)
    _ = W32 m ρ c (Proc.devRef .tc main_arg6) := W33_of_ne m ρ c main_arg6 (by decide)
    _ = W31 m ρ c (Proc.devRef .tc main_arg6) := W32_keep m ρ c main_arg6 (by decide)
    _ = W30 m ρ c (Proc.devRef .tc main_arg6) := W31_of_ne m ρ c main_arg6 (by decide)
    _ = W29 m ρ c (Proc.devRef .tc main_arg6) := W30_keep m ρ c main_arg6 (by decide)
    _ = W28 m ρ c (Proc.devRef .tc main_arg6) := W29_of_ne m ρ c main_arg6 (by decide)
    _ = W27 m ρ c (Proc.devRef .tc main_arg6) := W28_keep m ρ c main_arg6 (by decide)
    _ = W26 m ρ c (Proc.devRef .tc main_arg6) := W27_of_ne m ρ c main_arg6 (by decide)
    _ = W25 m ρ c (Proc.devRef .tc main_arg6) := W26_keep m ρ c main_arg6 (by decide)
    _ = W24 m ρ c (Proc.devRef .tc main_arg6) := W25_of_ne m ρ c main_arg6 (by decide)
    _ = W23 m ρ c (Proc.devRef .tc main_arg6) := W24_keep m ρ c main_arg6 (by decide)
    _ = W22 m ρ c (Proc.devRef .tc main_arg6) := W23_keep m ρ c main_arg6 (by decide)
    _ = W21 m ρ c (Proc.devRef .tc main_arg6) := W22_keep m ρ c main_arg6 (by decide)
    _ = W20 m ρ c (Proc.devRef .tc main_arg6) := W21_keep m ρ c main_arg6 (by decide)
    _ = W19 m ρ c (Proc.devRef .tc main_arg6) := W20_keep m ρ c main_arg6 (by decide)
    _ = W18 m ρ c (Proc.devRef .tc main_arg6) := W19_of_ne m ρ c main_arg6 (by decide)
    _ = W17 m ρ c (Proc.devRef .tc main_arg6) := W18_keep m ρ c main_arg6 (by decide)
    _ = W16 m ρ c (Proc.devRef .tc main_arg6) := W17_of_ne m ρ c main_arg6 (by decide)
    _ = W15 m ρ c (Proc.devRef .tc main_arg6) := W16_keep m ρ c main_arg6 (by decide)
    _ = W14 m ρ c (Proc.devRef .tc main_arg6) := W15_of_ne m ρ c main_arg6 (by decide)
    _ = W13 m ρ c (Proc.devRef .tc main_arg6) := W14_keep m ρ c main_arg6 (by decide)
    _ = W12 m ρ c (Proc.devRef .tc main_arg6) := W13_of_ne m ρ c main_arg6 (by decide)
    _ = W11 m ρ c (Proc.devRef .tc main_arg6) := W12_keep m ρ c main_arg6 (by decide)
    _ = W10 m ρ c (Proc.devRef .tc main_arg6) := W11_keep m ρ c main_arg6 (by decide)
    _ = W9 m ρ c (Proc.devRef .tc main_arg6) := W10_keep m ρ c main_arg6 (by decide)
    _ = W8 m ρ c (Proc.devRef .tc main_arg6) := W9_keep m ρ c main_arg6 (by decide)
    _ = W7 m ρ c (Proc.devRef .tc main_arg6) := W8_keep m ρ c main_arg6 (by decide)
    _ = W6 m ρ c (Proc.devRef .tc main_arg6) := W7_of_ne m ρ c main_arg6 (by decide)
    _ = W5 m ρ c (Proc.devRef .tc main_arg6) := W6_keep m ρ c main_arg6 (by decide)
    _ = W4 m ρ c (Proc.devRef .tc main_arg6) := W5_of_ne m ρ c main_arg6 (by decide)
    _ = W3 m ρ c (Proc.devRef .tc main_arg6) := W4_keep m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_keep m ρ c main_arg6 (by decide)
    _ = m ((c : Thread nD τ).loc main_arg6) := rfl

theorem W34_main_arg7 (c : Dev nD) : W34 m ρ c (Proc.devRef .tc main_arg7) = m ((c : Thread nD τ).loc main_arg7) :=
  calc W34 m ρ c (Proc.devRef .tc main_arg7)
    _ = W33 m ρ c (Proc.devRef .tc main_arg7) := W34_keep m ρ c main_arg7 (by decide)
    _ = W32 m ρ c (Proc.devRef .tc main_arg7) := W33_of_ne m ρ c main_arg7 (by decide)
    _ = W31 m ρ c (Proc.devRef .tc main_arg7) := W32_keep m ρ c main_arg7 (by decide)
    _ = W30 m ρ c (Proc.devRef .tc main_arg7) := W31_of_ne m ρ c main_arg7 (by decide)
    _ = W29 m ρ c (Proc.devRef .tc main_arg7) := W30_keep m ρ c main_arg7 (by decide)
    _ = W28 m ρ c (Proc.devRef .tc main_arg7) := W29_of_ne m ρ c main_arg7 (by decide)
    _ = W27 m ρ c (Proc.devRef .tc main_arg7) := W28_keep m ρ c main_arg7 (by decide)
    _ = W26 m ρ c (Proc.devRef .tc main_arg7) := W27_of_ne m ρ c main_arg7 (by decide)
    _ = W25 m ρ c (Proc.devRef .tc main_arg7) := W26_keep m ρ c main_arg7 (by decide)
    _ = W24 m ρ c (Proc.devRef .tc main_arg7) := W25_of_ne m ρ c main_arg7 (by decide)
    _ = W23 m ρ c (Proc.devRef .tc main_arg7) := W24_keep m ρ c main_arg7 (by decide)
    _ = W22 m ρ c (Proc.devRef .tc main_arg7) := W23_keep m ρ c main_arg7 (by decide)
    _ = W21 m ρ c (Proc.devRef .tc main_arg7) := W22_keep m ρ c main_arg7 (by decide)
    _ = W20 m ρ c (Proc.devRef .tc main_arg7) := W21_keep m ρ c main_arg7 (by decide)
    _ = W19 m ρ c (Proc.devRef .tc main_arg7) := W20_keep m ρ c main_arg7 (by decide)
    _ = W18 m ρ c (Proc.devRef .tc main_arg7) := W19_of_ne m ρ c main_arg7 (by decide)
    _ = W17 m ρ c (Proc.devRef .tc main_arg7) := W18_keep m ρ c main_arg7 (by decide)
    _ = W16 m ρ c (Proc.devRef .tc main_arg7) := W17_of_ne m ρ c main_arg7 (by decide)
    _ = W15 m ρ c (Proc.devRef .tc main_arg7) := W16_keep m ρ c main_arg7 (by decide)
    _ = W14 m ρ c (Proc.devRef .tc main_arg7) := W15_of_ne m ρ c main_arg7 (by decide)
    _ = W13 m ρ c (Proc.devRef .tc main_arg7) := W14_keep m ρ c main_arg7 (by decide)
    _ = W12 m ρ c (Proc.devRef .tc main_arg7) := W13_of_ne m ρ c main_arg7 (by decide)
    _ = W11 m ρ c (Proc.devRef .tc main_arg7) := W12_keep m ρ c main_arg7 (by decide)
    _ = W10 m ρ c (Proc.devRef .tc main_arg7) := W11_keep m ρ c main_arg7 (by decide)
    _ = W9 m ρ c (Proc.devRef .tc main_arg7) := W10_keep m ρ c main_arg7 (by decide)
    _ = W8 m ρ c (Proc.devRef .tc main_arg7) := W9_keep m ρ c main_arg7 (by decide)
    _ = W7 m ρ c (Proc.devRef .tc main_arg7) := W8_keep m ρ c main_arg7 (by decide)
    _ = W6 m ρ c (Proc.devRef .tc main_arg7) := W7_of_ne m ρ c main_arg7 (by decide)
    _ = W5 m ρ c (Proc.devRef .tc main_arg7) := W6_keep m ρ c main_arg7 (by decide)
    _ = W4 m ρ c (Proc.devRef .tc main_arg7) := W5_of_ne m ρ c main_arg7 (by decide)
    _ = W3 m ρ c (Proc.devRef .tc main_arg7) := W4_keep m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := W1_keep m ρ c main_arg7 (by decide)
    _ = m ((c : Thread nD τ).loc main_arg7) := rfl

theorem W34_main_arg8 (c : Dev nD) : W34 m ρ c (Proc.devRef .tc main_arg8) = m ((c : Thread nD τ).loc main_arg8) :=
  calc W34 m ρ c (Proc.devRef .tc main_arg8)
    _ = W33 m ρ c (Proc.devRef .tc main_arg8) := W34_keep m ρ c main_arg8 (by decide)
    _ = W32 m ρ c (Proc.devRef .tc main_arg8) := W33_of_ne m ρ c main_arg8 (by decide)
    _ = W31 m ρ c (Proc.devRef .tc main_arg8) := W32_keep m ρ c main_arg8 (by decide)
    _ = W30 m ρ c (Proc.devRef .tc main_arg8) := W31_of_ne m ρ c main_arg8 (by decide)
    _ = W29 m ρ c (Proc.devRef .tc main_arg8) := W30_keep m ρ c main_arg8 (by decide)
    _ = W28 m ρ c (Proc.devRef .tc main_arg8) := W29_of_ne m ρ c main_arg8 (by decide)
    _ = W27 m ρ c (Proc.devRef .tc main_arg8) := W28_keep m ρ c main_arg8 (by decide)
    _ = W26 m ρ c (Proc.devRef .tc main_arg8) := W27_of_ne m ρ c main_arg8 (by decide)
    _ = W25 m ρ c (Proc.devRef .tc main_arg8) := W26_keep m ρ c main_arg8 (by decide)
    _ = W24 m ρ c (Proc.devRef .tc main_arg8) := W25_of_ne m ρ c main_arg8 (by decide)
    _ = W23 m ρ c (Proc.devRef .tc main_arg8) := W24_keep m ρ c main_arg8 (by decide)
    _ = W22 m ρ c (Proc.devRef .tc main_arg8) := W23_keep m ρ c main_arg8 (by decide)
    _ = W21 m ρ c (Proc.devRef .tc main_arg8) := W22_keep m ρ c main_arg8 (by decide)
    _ = W20 m ρ c (Proc.devRef .tc main_arg8) := W21_keep m ρ c main_arg8 (by decide)
    _ = W19 m ρ c (Proc.devRef .tc main_arg8) := W20_keep m ρ c main_arg8 (by decide)
    _ = W18 m ρ c (Proc.devRef .tc main_arg8) := W19_of_ne m ρ c main_arg8 (by decide)
    _ = W17 m ρ c (Proc.devRef .tc main_arg8) := W18_keep m ρ c main_arg8 (by decide)
    _ = W16 m ρ c (Proc.devRef .tc main_arg8) := W17_of_ne m ρ c main_arg8 (by decide)
    _ = W15 m ρ c (Proc.devRef .tc main_arg8) := W16_keep m ρ c main_arg8 (by decide)
    _ = W14 m ρ c (Proc.devRef .tc main_arg8) := W15_of_ne m ρ c main_arg8 (by decide)
    _ = W13 m ρ c (Proc.devRef .tc main_arg8) := W14_keep m ρ c main_arg8 (by decide)
    _ = W12 m ρ c (Proc.devRef .tc main_arg8) := W13_of_ne m ρ c main_arg8 (by decide)
    _ = W11 m ρ c (Proc.devRef .tc main_arg8) := W12_keep m ρ c main_arg8 (by decide)
    _ = W10 m ρ c (Proc.devRef .tc main_arg8) := W11_keep m ρ c main_arg8 (by decide)
    _ = W9 m ρ c (Proc.devRef .tc main_arg8) := W10_keep m ρ c main_arg8 (by decide)
    _ = W8 m ρ c (Proc.devRef .tc main_arg8) := W9_keep m ρ c main_arg8 (by decide)
    _ = W7 m ρ c (Proc.devRef .tc main_arg8) := W8_keep m ρ c main_arg8 (by decide)
    _ = W6 m ρ c (Proc.devRef .tc main_arg8) := W7_of_ne m ρ c main_arg8 (by decide)
    _ = W5 m ρ c (Proc.devRef .tc main_arg8) := W6_keep m ρ c main_arg8 (by decide)
    _ = W4 m ρ c (Proc.devRef .tc main_arg8) := W5_of_ne m ρ c main_arg8 (by decide)
    _ = W3 m ρ c (Proc.devRef .tc main_arg8) := W4_keep m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := W1_keep m ρ c main_arg8 (by decide)
    _ = m ((c : Thread nD τ).loc main_arg8) := rfl

theorem W34_main_arg9 (c : Dev nD) : W34 m ρ c (Proc.devRef .tc main_arg9) = m ((c : Thread nD τ).loc main_arg9) :=
  calc W34 m ρ c (Proc.devRef .tc main_arg9)
    _ = W33 m ρ c (Proc.devRef .tc main_arg9) := W34_keep m ρ c main_arg9 (by decide)
    _ = W32 m ρ c (Proc.devRef .tc main_arg9) := W33_of_ne m ρ c main_arg9 (by decide)
    _ = W31 m ρ c (Proc.devRef .tc main_arg9) := W32_keep m ρ c main_arg9 (by decide)
    _ = W30 m ρ c (Proc.devRef .tc main_arg9) := W31_of_ne m ρ c main_arg9 (by decide)
    _ = W29 m ρ c (Proc.devRef .tc main_arg9) := W30_keep m ρ c main_arg9 (by decide)
    _ = W28 m ρ c (Proc.devRef .tc main_arg9) := W29_of_ne m ρ c main_arg9 (by decide)
    _ = W27 m ρ c (Proc.devRef .tc main_arg9) := W28_keep m ρ c main_arg9 (by decide)
    _ = W26 m ρ c (Proc.devRef .tc main_arg9) := W27_of_ne m ρ c main_arg9 (by decide)
    _ = W25 m ρ c (Proc.devRef .tc main_arg9) := W26_keep m ρ c main_arg9 (by decide)
    _ = W24 m ρ c (Proc.devRef .tc main_arg9) := W25_of_ne m ρ c main_arg9 (by decide)
    _ = W23 m ρ c (Proc.devRef .tc main_arg9) := W24_keep m ρ c main_arg9 (by decide)
    _ = W22 m ρ c (Proc.devRef .tc main_arg9) := W23_keep m ρ c main_arg9 (by decide)
    _ = W21 m ρ c (Proc.devRef .tc main_arg9) := W22_keep m ρ c main_arg9 (by decide)
    _ = W20 m ρ c (Proc.devRef .tc main_arg9) := W21_keep m ρ c main_arg9 (by decide)
    _ = W19 m ρ c (Proc.devRef .tc main_arg9) := W20_keep m ρ c main_arg9 (by decide)
    _ = W18 m ρ c (Proc.devRef .tc main_arg9) := W19_of_ne m ρ c main_arg9 (by decide)
    _ = W17 m ρ c (Proc.devRef .tc main_arg9) := W18_keep m ρ c main_arg9 (by decide)
    _ = W16 m ρ c (Proc.devRef .tc main_arg9) := W17_of_ne m ρ c main_arg9 (by decide)
    _ = W15 m ρ c (Proc.devRef .tc main_arg9) := W16_keep m ρ c main_arg9 (by decide)
    _ = W14 m ρ c (Proc.devRef .tc main_arg9) := W15_of_ne m ρ c main_arg9 (by decide)
    _ = W13 m ρ c (Proc.devRef .tc main_arg9) := W14_keep m ρ c main_arg9 (by decide)
    _ = W12 m ρ c (Proc.devRef .tc main_arg9) := W13_of_ne m ρ c main_arg9 (by decide)
    _ = W11 m ρ c (Proc.devRef .tc main_arg9) := W12_keep m ρ c main_arg9 (by decide)
    _ = W10 m ρ c (Proc.devRef .tc main_arg9) := W11_keep m ρ c main_arg9 (by decide)
    _ = W9 m ρ c (Proc.devRef .tc main_arg9) := W10_keep m ρ c main_arg9 (by decide)
    _ = W8 m ρ c (Proc.devRef .tc main_arg9) := W9_keep m ρ c main_arg9 (by decide)
    _ = W7 m ρ c (Proc.devRef .tc main_arg9) := W8_keep m ρ c main_arg9 (by decide)
    _ = W6 m ρ c (Proc.devRef .tc main_arg9) := W7_of_ne m ρ c main_arg9 (by decide)
    _ = W5 m ρ c (Proc.devRef .tc main_arg9) := W6_keep m ρ c main_arg9 (by decide)
    _ = W4 m ρ c (Proc.devRef .tc main_arg9) := W5_of_ne m ρ c main_arg9 (by decide)
    _ = W3 m ρ c (Proc.devRef .tc main_arg9) := W4_keep m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := W1_keep m ρ c main_arg9 (by decide)
    _ = m ((c : Thread nD τ).loc main_arg9) := rfl

theorem W34_main_arg10 (c : Dev nD) : W34 m ρ c (Proc.devRef .tc main_arg10) = m ((c : Thread nD τ).loc main_arg10) :=
  calc W34 m ρ c (Proc.devRef .tc main_arg10)
    _ = W33 m ρ c (Proc.devRef .tc main_arg10) := W34_keep m ρ c main_arg10 (by decide)
    _ = W32 m ρ c (Proc.devRef .tc main_arg10) := W33_of_ne m ρ c main_arg10 (by decide)
    _ = W31 m ρ c (Proc.devRef .tc main_arg10) := W32_keep m ρ c main_arg10 (by decide)
    _ = W30 m ρ c (Proc.devRef .tc main_arg10) := W31_of_ne m ρ c main_arg10 (by decide)
    _ = W29 m ρ c (Proc.devRef .tc main_arg10) := W30_keep m ρ c main_arg10 (by decide)
    _ = W28 m ρ c (Proc.devRef .tc main_arg10) := W29_of_ne m ρ c main_arg10 (by decide)
    _ = W27 m ρ c (Proc.devRef .tc main_arg10) := W28_keep m ρ c main_arg10 (by decide)
    _ = W26 m ρ c (Proc.devRef .tc main_arg10) := W27_of_ne m ρ c main_arg10 (by decide)
    _ = W25 m ρ c (Proc.devRef .tc main_arg10) := W26_keep m ρ c main_arg10 (by decide)
    _ = W24 m ρ c (Proc.devRef .tc main_arg10) := W25_of_ne m ρ c main_arg10 (by decide)
    _ = W23 m ρ c (Proc.devRef .tc main_arg10) := W24_keep m ρ c main_arg10 (by decide)
    _ = W22 m ρ c (Proc.devRef .tc main_arg10) := W23_keep m ρ c main_arg10 (by decide)
    _ = W21 m ρ c (Proc.devRef .tc main_arg10) := W22_keep m ρ c main_arg10 (by decide)
    _ = W20 m ρ c (Proc.devRef .tc main_arg10) := W21_keep m ρ c main_arg10 (by decide)
    _ = W19 m ρ c (Proc.devRef .tc main_arg10) := W20_keep m ρ c main_arg10 (by decide)
    _ = W18 m ρ c (Proc.devRef .tc main_arg10) := W19_of_ne m ρ c main_arg10 (by decide)
    _ = W17 m ρ c (Proc.devRef .tc main_arg10) := W18_keep m ρ c main_arg10 (by decide)
    _ = W16 m ρ c (Proc.devRef .tc main_arg10) := W17_of_ne m ρ c main_arg10 (by decide)
    _ = W15 m ρ c (Proc.devRef .tc main_arg10) := W16_keep m ρ c main_arg10 (by decide)
    _ = W14 m ρ c (Proc.devRef .tc main_arg10) := W15_of_ne m ρ c main_arg10 (by decide)
    _ = W13 m ρ c (Proc.devRef .tc main_arg10) := W14_keep m ρ c main_arg10 (by decide)
    _ = W12 m ρ c (Proc.devRef .tc main_arg10) := W13_of_ne m ρ c main_arg10 (by decide)
    _ = W11 m ρ c (Proc.devRef .tc main_arg10) := W12_keep m ρ c main_arg10 (by decide)
    _ = W10 m ρ c (Proc.devRef .tc main_arg10) := W11_keep m ρ c main_arg10 (by decide)
    _ = W9 m ρ c (Proc.devRef .tc main_arg10) := W10_keep m ρ c main_arg10 (by decide)
    _ = W8 m ρ c (Proc.devRef .tc main_arg10) := W9_keep m ρ c main_arg10 (by decide)
    _ = W7 m ρ c (Proc.devRef .tc main_arg10) := W8_keep m ρ c main_arg10 (by decide)
    _ = W6 m ρ c (Proc.devRef .tc main_arg10) := W7_of_ne m ρ c main_arg10 (by decide)
    _ = W5 m ρ c (Proc.devRef .tc main_arg10) := W6_keep m ρ c main_arg10 (by decide)
    _ = W4 m ρ c (Proc.devRef .tc main_arg10) := W5_of_ne m ρ c main_arg10 (by decide)
    _ = W3 m ρ c (Proc.devRef .tc main_arg10) := W4_keep m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_keep m ρ c main_arg10 (by decide)
    _ = m ((c : Thread nD τ).loc main_arg10) := rfl

theorem W34_main_arg11 (c : Dev nD) : W34 m ρ c (Proc.devRef .tc main_arg11) = m ((c : Thread nD τ).loc main_arg11) :=
  calc W34 m ρ c (Proc.devRef .tc main_arg11)
    _ = W33 m ρ c (Proc.devRef .tc main_arg11) := W34_keep m ρ c main_arg11 (by decide)
    _ = W32 m ρ c (Proc.devRef .tc main_arg11) := W33_of_ne m ρ c main_arg11 (by decide)
    _ = W31 m ρ c (Proc.devRef .tc main_arg11) := W32_keep m ρ c main_arg11 (by decide)
    _ = W30 m ρ c (Proc.devRef .tc main_arg11) := W31_of_ne m ρ c main_arg11 (by decide)
    _ = W29 m ρ c (Proc.devRef .tc main_arg11) := W30_keep m ρ c main_arg11 (by decide)
    _ = W28 m ρ c (Proc.devRef .tc main_arg11) := W29_of_ne m ρ c main_arg11 (by decide)
    _ = W27 m ρ c (Proc.devRef .tc main_arg11) := W28_keep m ρ c main_arg11 (by decide)
    _ = W26 m ρ c (Proc.devRef .tc main_arg11) := W27_of_ne m ρ c main_arg11 (by decide)
    _ = W25 m ρ c (Proc.devRef .tc main_arg11) := W26_keep m ρ c main_arg11 (by decide)
    _ = W24 m ρ c (Proc.devRef .tc main_arg11) := W25_of_ne m ρ c main_arg11 (by decide)
    _ = W23 m ρ c (Proc.devRef .tc main_arg11) := W24_keep m ρ c main_arg11 (by decide)
    _ = W22 m ρ c (Proc.devRef .tc main_arg11) := W23_keep m ρ c main_arg11 (by decide)
    _ = W21 m ρ c (Proc.devRef .tc main_arg11) := W22_keep m ρ c main_arg11 (by decide)
    _ = W20 m ρ c (Proc.devRef .tc main_arg11) := W21_keep m ρ c main_arg11 (by decide)
    _ = W19 m ρ c (Proc.devRef .tc main_arg11) := W20_keep m ρ c main_arg11 (by decide)
    _ = W18 m ρ c (Proc.devRef .tc main_arg11) := W19_of_ne m ρ c main_arg11 (by decide)
    _ = W17 m ρ c (Proc.devRef .tc main_arg11) := W18_keep m ρ c main_arg11 (by decide)
    _ = W16 m ρ c (Proc.devRef .tc main_arg11) := W17_of_ne m ρ c main_arg11 (by decide)
    _ = W15 m ρ c (Proc.devRef .tc main_arg11) := W16_keep m ρ c main_arg11 (by decide)
    _ = W14 m ρ c (Proc.devRef .tc main_arg11) := W15_of_ne m ρ c main_arg11 (by decide)
    _ = W13 m ρ c (Proc.devRef .tc main_arg11) := W14_keep m ρ c main_arg11 (by decide)
    _ = W12 m ρ c (Proc.devRef .tc main_arg11) := W13_of_ne m ρ c main_arg11 (by decide)
    _ = W11 m ρ c (Proc.devRef .tc main_arg11) := W12_keep m ρ c main_arg11 (by decide)
    _ = W10 m ρ c (Proc.devRef .tc main_arg11) := W11_keep m ρ c main_arg11 (by decide)
    _ = W9 m ρ c (Proc.devRef .tc main_arg11) := W10_keep m ρ c main_arg11 (by decide)
    _ = W8 m ρ c (Proc.devRef .tc main_arg11) := W9_keep m ρ c main_arg11 (by decide)
    _ = W7 m ρ c (Proc.devRef .tc main_arg11) := W8_keep m ρ c main_arg11 (by decide)
    _ = W6 m ρ c (Proc.devRef .tc main_arg11) := W7_of_ne m ρ c main_arg11 (by decide)
    _ = W5 m ρ c (Proc.devRef .tc main_arg11) := W6_keep m ρ c main_arg11 (by decide)
    _ = W4 m ρ c (Proc.devRef .tc main_arg11) := W5_of_ne m ρ c main_arg11 (by decide)
    _ = W3 m ρ c (Proc.devRef .tc main_arg11) := W4_keep m ρ c main_arg11 (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := W1_keep m ρ c main_arg11 (by decide)
    _ = m ((c : Thread nD τ).loc main_arg11) := rfl

theorem W34_main_arg12 (c : Dev nD) : W34 m ρ c (Proc.devRef .tc main_arg12) = m ((c : Thread nD τ).loc main_arg12) :=
  calc W34 m ρ c (Proc.devRef .tc main_arg12)
    _ = W33 m ρ c (Proc.devRef .tc main_arg12) := W34_keep m ρ c main_arg12 (by decide)
    _ = W32 m ρ c (Proc.devRef .tc main_arg12) := W33_of_ne m ρ c main_arg12 (by decide)
    _ = W31 m ρ c (Proc.devRef .tc main_arg12) := W32_keep m ρ c main_arg12 (by decide)
    _ = W30 m ρ c (Proc.devRef .tc main_arg12) := W31_of_ne m ρ c main_arg12 (by decide)
    _ = W29 m ρ c (Proc.devRef .tc main_arg12) := W30_keep m ρ c main_arg12 (by decide)
    _ = W28 m ρ c (Proc.devRef .tc main_arg12) := W29_of_ne m ρ c main_arg12 (by decide)
    _ = W27 m ρ c (Proc.devRef .tc main_arg12) := W28_keep m ρ c main_arg12 (by decide)
    _ = W26 m ρ c (Proc.devRef .tc main_arg12) := W27_of_ne m ρ c main_arg12 (by decide)
    _ = W25 m ρ c (Proc.devRef .tc main_arg12) := W26_keep m ρ c main_arg12 (by decide)
    _ = W24 m ρ c (Proc.devRef .tc main_arg12) := W25_of_ne m ρ c main_arg12 (by decide)
    _ = W23 m ρ c (Proc.devRef .tc main_arg12) := W24_keep m ρ c main_arg12 (by decide)
    _ = W22 m ρ c (Proc.devRef .tc main_arg12) := W23_keep m ρ c main_arg12 (by decide)
    _ = W21 m ρ c (Proc.devRef .tc main_arg12) := W22_keep m ρ c main_arg12 (by decide)
    _ = W20 m ρ c (Proc.devRef .tc main_arg12) := W21_keep m ρ c main_arg12 (by decide)
    _ = W19 m ρ c (Proc.devRef .tc main_arg12) := W20_keep m ρ c main_arg12 (by decide)
    _ = W18 m ρ c (Proc.devRef .tc main_arg12) := W19_of_ne m ρ c main_arg12 (by decide)
    _ = W17 m ρ c (Proc.devRef .tc main_arg12) := W18_keep m ρ c main_arg12 (by decide)
    _ = W16 m ρ c (Proc.devRef .tc main_arg12) := W17_of_ne m ρ c main_arg12 (by decide)
    _ = W15 m ρ c (Proc.devRef .tc main_arg12) := W16_keep m ρ c main_arg12 (by decide)
    _ = W14 m ρ c (Proc.devRef .tc main_arg12) := W15_of_ne m ρ c main_arg12 (by decide)
    _ = W13 m ρ c (Proc.devRef .tc main_arg12) := W14_keep m ρ c main_arg12 (by decide)
    _ = W12 m ρ c (Proc.devRef .tc main_arg12) := W13_of_ne m ρ c main_arg12 (by decide)
    _ = W11 m ρ c (Proc.devRef .tc main_arg12) := W12_keep m ρ c main_arg12 (by decide)
    _ = W10 m ρ c (Proc.devRef .tc main_arg12) := W11_keep m ρ c main_arg12 (by decide)
    _ = W9 m ρ c (Proc.devRef .tc main_arg12) := W10_keep m ρ c main_arg12 (by decide)
    _ = W8 m ρ c (Proc.devRef .tc main_arg12) := W9_keep m ρ c main_arg12 (by decide)
    _ = W7 m ρ c (Proc.devRef .tc main_arg12) := W8_keep m ρ c main_arg12 (by decide)
    _ = W6 m ρ c (Proc.devRef .tc main_arg12) := W7_of_ne m ρ c main_arg12 (by decide)
    _ = W5 m ρ c (Proc.devRef .tc main_arg12) := W6_keep m ρ c main_arg12 (by decide)
    _ = W4 m ρ c (Proc.devRef .tc main_arg12) := W5_of_ne m ρ c main_arg12 (by decide)
    _ = W3 m ρ c (Proc.devRef .tc main_arg12) := W4_keep m ρ c main_arg12 (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := W1_keep m ρ c main_arg12 (by decide)
    _ = m ((c : Thread nD τ).loc main_arg12) := rfl

theorem W34_main_arg13 (c : Dev nD) : W34 m ρ c (Proc.devRef .tc main_arg13) = m ((c : Thread nD τ).loc main_arg13) :=
  calc W34 m ρ c (Proc.devRef .tc main_arg13)
    _ = W33 m ρ c (Proc.devRef .tc main_arg13) := W34_keep m ρ c main_arg13 (by decide)
    _ = W32 m ρ c (Proc.devRef .tc main_arg13) := W33_of_ne m ρ c main_arg13 (by decide)
    _ = W31 m ρ c (Proc.devRef .tc main_arg13) := W32_keep m ρ c main_arg13 (by decide)
    _ = W30 m ρ c (Proc.devRef .tc main_arg13) := W31_of_ne m ρ c main_arg13 (by decide)
    _ = W29 m ρ c (Proc.devRef .tc main_arg13) := W30_keep m ρ c main_arg13 (by decide)
    _ = W28 m ρ c (Proc.devRef .tc main_arg13) := W29_of_ne m ρ c main_arg13 (by decide)
    _ = W27 m ρ c (Proc.devRef .tc main_arg13) := W28_keep m ρ c main_arg13 (by decide)
    _ = W26 m ρ c (Proc.devRef .tc main_arg13) := W27_of_ne m ρ c main_arg13 (by decide)
    _ = W25 m ρ c (Proc.devRef .tc main_arg13) := W26_keep m ρ c main_arg13 (by decide)
    _ = W24 m ρ c (Proc.devRef .tc main_arg13) := W25_of_ne m ρ c main_arg13 (by decide)
    _ = W23 m ρ c (Proc.devRef .tc main_arg13) := W24_keep m ρ c main_arg13 (by decide)
    _ = W22 m ρ c (Proc.devRef .tc main_arg13) := W23_keep m ρ c main_arg13 (by decide)
    _ = W21 m ρ c (Proc.devRef .tc main_arg13) := W22_keep m ρ c main_arg13 (by decide)
    _ = W20 m ρ c (Proc.devRef .tc main_arg13) := W21_keep m ρ c main_arg13 (by decide)
    _ = W19 m ρ c (Proc.devRef .tc main_arg13) := W20_keep m ρ c main_arg13 (by decide)
    _ = W18 m ρ c (Proc.devRef .tc main_arg13) := W19_of_ne m ρ c main_arg13 (by decide)
    _ = W17 m ρ c (Proc.devRef .tc main_arg13) := W18_keep m ρ c main_arg13 (by decide)
    _ = W16 m ρ c (Proc.devRef .tc main_arg13) := W17_of_ne m ρ c main_arg13 (by decide)
    _ = W15 m ρ c (Proc.devRef .tc main_arg13) := W16_keep m ρ c main_arg13 (by decide)
    _ = W14 m ρ c (Proc.devRef .tc main_arg13) := W15_of_ne m ρ c main_arg13 (by decide)
    _ = W13 m ρ c (Proc.devRef .tc main_arg13) := W14_keep m ρ c main_arg13 (by decide)
    _ = W12 m ρ c (Proc.devRef .tc main_arg13) := W13_of_ne m ρ c main_arg13 (by decide)
    _ = W11 m ρ c (Proc.devRef .tc main_arg13) := W12_keep m ρ c main_arg13 (by decide)
    _ = W10 m ρ c (Proc.devRef .tc main_arg13) := W11_keep m ρ c main_arg13 (by decide)
    _ = W9 m ρ c (Proc.devRef .tc main_arg13) := W10_keep m ρ c main_arg13 (by decide)
    _ = W8 m ρ c (Proc.devRef .tc main_arg13) := W9_keep m ρ c main_arg13 (by decide)
    _ = W7 m ρ c (Proc.devRef .tc main_arg13) := W8_keep m ρ c main_arg13 (by decide)
    _ = W6 m ρ c (Proc.devRef .tc main_arg13) := W7_of_ne m ρ c main_arg13 (by decide)
    _ = W5 m ρ c (Proc.devRef .tc main_arg13) := W6_keep m ρ c main_arg13 (by decide)
    _ = W4 m ρ c (Proc.devRef .tc main_arg13) := W5_of_ne m ρ c main_arg13 (by decide)
    _ = W3 m ρ c (Proc.devRef .tc main_arg13) := W4_keep m ρ c main_arg13 (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := W1_keep m ρ c main_arg13 (by decide)
    _ = m ((c : Thread nD τ).loc main_arg13) := rfl

theorem W34_main_arg14 (c : Dev nD) : W34 m ρ c (Proc.devRef .tc main_arg14) = m ((c : Thread nD τ).loc main_arg14) :=
  calc W34 m ρ c (Proc.devRef .tc main_arg14)
    _ = W33 m ρ c (Proc.devRef .tc main_arg14) := W34_keep m ρ c main_arg14 (by decide)
    _ = W32 m ρ c (Proc.devRef .tc main_arg14) := W33_of_ne m ρ c main_arg14 (by decide)
    _ = W31 m ρ c (Proc.devRef .tc main_arg14) := W32_keep m ρ c main_arg14 (by decide)
    _ = W30 m ρ c (Proc.devRef .tc main_arg14) := W31_of_ne m ρ c main_arg14 (by decide)
    _ = W29 m ρ c (Proc.devRef .tc main_arg14) := W30_keep m ρ c main_arg14 (by decide)
    _ = W28 m ρ c (Proc.devRef .tc main_arg14) := W29_of_ne m ρ c main_arg14 (by decide)
    _ = W27 m ρ c (Proc.devRef .tc main_arg14) := W28_keep m ρ c main_arg14 (by decide)
    _ = W26 m ρ c (Proc.devRef .tc main_arg14) := W27_of_ne m ρ c main_arg14 (by decide)
    _ = W25 m ρ c (Proc.devRef .tc main_arg14) := W26_keep m ρ c main_arg14 (by decide)
    _ = W24 m ρ c (Proc.devRef .tc main_arg14) := W25_of_ne m ρ c main_arg14 (by decide)
    _ = W23 m ρ c (Proc.devRef .tc main_arg14) := W24_keep m ρ c main_arg14 (by decide)
    _ = W22 m ρ c (Proc.devRef .tc main_arg14) := W23_keep m ρ c main_arg14 (by decide)
    _ = W21 m ρ c (Proc.devRef .tc main_arg14) := W22_keep m ρ c main_arg14 (by decide)
    _ = W20 m ρ c (Proc.devRef .tc main_arg14) := W21_keep m ρ c main_arg14 (by decide)
    _ = W19 m ρ c (Proc.devRef .tc main_arg14) := W20_keep m ρ c main_arg14 (by decide)
    _ = W18 m ρ c (Proc.devRef .tc main_arg14) := W19_of_ne m ρ c main_arg14 (by decide)
    _ = W17 m ρ c (Proc.devRef .tc main_arg14) := W18_keep m ρ c main_arg14 (by decide)
    _ = W16 m ρ c (Proc.devRef .tc main_arg14) := W17_of_ne m ρ c main_arg14 (by decide)
    _ = W15 m ρ c (Proc.devRef .tc main_arg14) := W16_keep m ρ c main_arg14 (by decide)
    _ = W14 m ρ c (Proc.devRef .tc main_arg14) := W15_of_ne m ρ c main_arg14 (by decide)
    _ = W13 m ρ c (Proc.devRef .tc main_arg14) := W14_keep m ρ c main_arg14 (by decide)
    _ = W12 m ρ c (Proc.devRef .tc main_arg14) := W13_of_ne m ρ c main_arg14 (by decide)
    _ = W11 m ρ c (Proc.devRef .tc main_arg14) := W12_keep m ρ c main_arg14 (by decide)
    _ = W10 m ρ c (Proc.devRef .tc main_arg14) := W11_keep m ρ c main_arg14 (by decide)
    _ = W9 m ρ c (Proc.devRef .tc main_arg14) := W10_keep m ρ c main_arg14 (by decide)
    _ = W8 m ρ c (Proc.devRef .tc main_arg14) := W9_keep m ρ c main_arg14 (by decide)
    _ = W7 m ρ c (Proc.devRef .tc main_arg14) := W8_keep m ρ c main_arg14 (by decide)
    _ = W6 m ρ c (Proc.devRef .tc main_arg14) := W7_of_ne m ρ c main_arg14 (by decide)
    _ = W5 m ρ c (Proc.devRef .tc main_arg14) := W6_keep m ρ c main_arg14 (by decide)
    _ = W4 m ρ c (Proc.devRef .tc main_arg14) := W5_of_ne m ρ c main_arg14 (by decide)
    _ = W3 m ρ c (Proc.devRef .tc main_arg14) := W4_keep m ρ c main_arg14 (by decide)
    _ = W2 m ρ c (Proc.devRef .tc main_arg14) := W3_of_ne m ρ c main_arg14 (by decide)
    _ = W1 m ρ c (Proc.devRef .tc main_arg14) := W2_of_ne m ρ c main_arg14 (by decide)
    _ = W0 m ρ c (Proc.devRef .tc main_arg14) := W1_keep m ρ c main_arg14 (by decide)
    _ = m ((c : Thread nD τ).loc main_arg14) := rfl

theorem W34_main_arg15 (c : Dev nD) : W34 m ρ c (Proc.devRef .tc main_arg15) = m ((c : Thread nD τ).loc main_arg15) :=
  calc W34 m ρ c (Proc.devRef .tc main_arg15)
    _ = W33 m ρ c (Proc.devRef .tc main_arg15) := W34_keep m ρ c main_arg15 (by decide)
    _ = W32 m ρ c (Proc.devRef .tc main_arg15) := W33_of_ne m ρ c main_arg15 (by decide)
    _ = W31 m ρ c (Proc.devRef .tc main_arg15) := W32_keep m ρ c main_arg15 (by decide)
    _ = W30 m ρ c (Proc.devRef .tc main_arg15) := W31_of_ne m ρ c main_arg15 (by decide)
    _ = W29 m ρ c (Proc.devRef .tc main_arg15) := W30_keep m ρ c main_arg15 (by decide)
    _ = W28 m ρ c (Proc.devRef .tc main_arg15) := W29_of_ne m ρ c main_arg15 (by decide)
    _ = W27 m ρ c (Proc.devRef .tc main_arg15) := W28_keep m ρ c main_arg15 (by decide)
    _ = W26 m ρ c (Proc.devRef .tc main_arg15) := W27_of_ne m ρ c main_arg15 (by decide)
    _ = W25 m ρ c (Proc.devRef .tc main_arg15) := W26_keep m ρ c main_arg15 (by decide)
    _ = W24 m ρ c (Proc.devRef .tc main_arg15) := W25_of_ne m ρ c main_arg15 (by decide)
    _ = W23 m ρ c (Proc.devRef .tc main_arg15) := W24_keep m ρ c main_arg15 (by decide)
    _ = W22 m ρ c (Proc.devRef .tc main_arg15) := W23_keep m ρ c main_arg15 (by decide)
    _ = W21 m ρ c (Proc.devRef .tc main_arg15) := W22_keep m ρ c main_arg15 (by decide)
    _ = W20 m ρ c (Proc.devRef .tc main_arg15) := W21_keep m ρ c main_arg15 (by decide)
    _ = W19 m ρ c (Proc.devRef .tc main_arg15) := W20_keep m ρ c main_arg15 (by decide)
    _ = W18 m ρ c (Proc.devRef .tc main_arg15) := W19_of_ne m ρ c main_arg15 (by decide)
    _ = W17 m ρ c (Proc.devRef .tc main_arg15) := W18_keep m ρ c main_arg15 (by decide)
    _ = W16 m ρ c (Proc.devRef .tc main_arg15) := W17_of_ne m ρ c main_arg15 (by decide)
    _ = W15 m ρ c (Proc.devRef .tc main_arg15) := W16_keep m ρ c main_arg15 (by decide)
    _ = W14 m ρ c (Proc.devRef .tc main_arg15) := W15_of_ne m ρ c main_arg15 (by decide)
    _ = W13 m ρ c (Proc.devRef .tc main_arg15) := W14_keep m ρ c main_arg15 (by decide)
    _ = W12 m ρ c (Proc.devRef .tc main_arg15) := W13_of_ne m ρ c main_arg15 (by decide)
    _ = W11 m ρ c (Proc.devRef .tc main_arg15) := W12_keep m ρ c main_arg15 (by decide)
    _ = W10 m ρ c (Proc.devRef .tc main_arg15) := W11_keep m ρ c main_arg15 (by decide)
    _ = W9 m ρ c (Proc.devRef .tc main_arg15) := W10_keep m ρ c main_arg15 (by decide)
    _ = W8 m ρ c (Proc.devRef .tc main_arg15) := W9_keep m ρ c main_arg15 (by decide)
    _ = W7 m ρ c (Proc.devRef .tc main_arg15) := W8_keep m ρ c main_arg15 (by decide)
    _ = W6 m ρ c (Proc.devRef .tc main_arg15) := W7_of_ne m ρ c main_arg15 (by decide)
    _ = W5 m ρ c (Proc.devRef .tc main_arg15) := W6_keep m ρ c main_arg15 (by decide)
    _ = W4 m ρ c (Proc.devRef .tc main_arg15) := W5_of_ne m ρ c main_arg15 (by decide)
    _ = W3 m ρ c (Proc.devRef .tc main_arg15) := W4_keep m ρ c main_arg15 (by decide)
    _ = W2 m ρ c (Proc.devRef .tc main_arg15) := W3_of_ne m ρ c main_arg15 (by decide)
    _ = W1 m ρ c (Proc.devRef .tc main_arg15) := W2_of_ne m ρ c main_arg15 (by decide)
    _ = W0 m ρ c (Proc.devRef .tc main_arg15) := W1_keep m ρ c main_arg15 (by decide)
    _ = m ((c : Thread nD τ).loc main_arg15) := rfl

theorem W34_main_arg16 (c : Dev nD) : W34 m ρ c (Proc.devRef .tc main_arg16) = m ((c : Thread nD τ).loc main_arg16) :=
  calc W34 m ρ c (Proc.devRef .tc main_arg16)
    _ = W33 m ρ c (Proc.devRef .tc main_arg16) := W34_keep m ρ c main_arg16 (by decide)
    _ = W32 m ρ c (Proc.devRef .tc main_arg16) := W33_of_ne m ρ c main_arg16 (by decide)
    _ = W31 m ρ c (Proc.devRef .tc main_arg16) := W32_keep m ρ c main_arg16 (by decide)
    _ = W30 m ρ c (Proc.devRef .tc main_arg16) := W31_of_ne m ρ c main_arg16 (by decide)
    _ = W29 m ρ c (Proc.devRef .tc main_arg16) := W30_keep m ρ c main_arg16 (by decide)
    _ = W28 m ρ c (Proc.devRef .tc main_arg16) := W29_of_ne m ρ c main_arg16 (by decide)
    _ = W27 m ρ c (Proc.devRef .tc main_arg16) := W28_keep m ρ c main_arg16 (by decide)
    _ = W26 m ρ c (Proc.devRef .tc main_arg16) := W27_of_ne m ρ c main_arg16 (by decide)
    _ = W25 m ρ c (Proc.devRef .tc main_arg16) := W26_keep m ρ c main_arg16 (by decide)
    _ = W24 m ρ c (Proc.devRef .tc main_arg16) := W25_of_ne m ρ c main_arg16 (by decide)
    _ = W23 m ρ c (Proc.devRef .tc main_arg16) := W24_keep m ρ c main_arg16 (by decide)
    _ = W22 m ρ c (Proc.devRef .tc main_arg16) := W23_keep m ρ c main_arg16 (by decide)
    _ = W21 m ρ c (Proc.devRef .tc main_arg16) := W22_keep m ρ c main_arg16 (by decide)
    _ = W20 m ρ c (Proc.devRef .tc main_arg16) := W21_keep m ρ c main_arg16 (by decide)
    _ = W19 m ρ c (Proc.devRef .tc main_arg16) := W20_keep m ρ c main_arg16 (by decide)
    _ = W18 m ρ c (Proc.devRef .tc main_arg16) := W19_of_ne m ρ c main_arg16 (by decide)
    _ = W17 m ρ c (Proc.devRef .tc main_arg16) := W18_keep m ρ c main_arg16 (by decide)
    _ = W16 m ρ c (Proc.devRef .tc main_arg16) := W17_of_ne m ρ c main_arg16 (by decide)
    _ = W15 m ρ c (Proc.devRef .tc main_arg16) := W16_keep m ρ c main_arg16 (by decide)
    _ = W14 m ρ c (Proc.devRef .tc main_arg16) := W15_of_ne m ρ c main_arg16 (by decide)
    _ = W13 m ρ c (Proc.devRef .tc main_arg16) := W14_keep m ρ c main_arg16 (by decide)
    _ = W12 m ρ c (Proc.devRef .tc main_arg16) := W13_of_ne m ρ c main_arg16 (by decide)
    _ = W11 m ρ c (Proc.devRef .tc main_arg16) := W12_keep m ρ c main_arg16 (by decide)
    _ = W10 m ρ c (Proc.devRef .tc main_arg16) := W11_keep m ρ c main_arg16 (by decide)
    _ = W9 m ρ c (Proc.devRef .tc main_arg16) := W10_keep m ρ c main_arg16 (by decide)
    _ = W8 m ρ c (Proc.devRef .tc main_arg16) := W9_keep m ρ c main_arg16 (by decide)
    _ = W7 m ρ c (Proc.devRef .tc main_arg16) := W8_keep m ρ c main_arg16 (by decide)
    _ = W6 m ρ c (Proc.devRef .tc main_arg16) := W7_of_ne m ρ c main_arg16 (by decide)
    _ = W5 m ρ c (Proc.devRef .tc main_arg16) := W6_keep m ρ c main_arg16 (by decide)
    _ = W4 m ρ c (Proc.devRef .tc main_arg16) := W5_of_ne m ρ c main_arg16 (by decide)
    _ = W3 m ρ c (Proc.devRef .tc main_arg16) := W4_keep m ρ c main_arg16 (by decide)
    _ = W2 m ρ c (Proc.devRef .tc main_arg16) := W3_of_ne m ρ c main_arg16 (by decide)
    _ = W1 m ρ c (Proc.devRef .tc main_arg16) := W2_of_ne m ρ c main_arg16 (by decide)
    _ = W0 m ρ c (Proc.devRef .tc main_arg16) := W1_keep m ρ c main_arg16 (by decide)
    _ = m ((c : Thread nD τ).loc main_arg16) := rfl

theorem W34_main_arg17 (c : Dev nD) : W34 m ρ c (Proc.devRef .tc main_arg17) = m ((c : Thread nD τ).loc main_arg17) :=
  calc W34 m ρ c (Proc.devRef .tc main_arg17)
    _ = W33 m ρ c (Proc.devRef .tc main_arg17) := W34_keep m ρ c main_arg17 (by decide)
    _ = W32 m ρ c (Proc.devRef .tc main_arg17) := W33_of_ne m ρ c main_arg17 (by decide)
    _ = W31 m ρ c (Proc.devRef .tc main_arg17) := W32_keep m ρ c main_arg17 (by decide)
    _ = W30 m ρ c (Proc.devRef .tc main_arg17) := W31_of_ne m ρ c main_arg17 (by decide)
    _ = W29 m ρ c (Proc.devRef .tc main_arg17) := W30_keep m ρ c main_arg17 (by decide)
    _ = W28 m ρ c (Proc.devRef .tc main_arg17) := W29_of_ne m ρ c main_arg17 (by decide)
    _ = W27 m ρ c (Proc.devRef .tc main_arg17) := W28_keep m ρ c main_arg17 (by decide)
    _ = W26 m ρ c (Proc.devRef .tc main_arg17) := W27_of_ne m ρ c main_arg17 (by decide)
    _ = W25 m ρ c (Proc.devRef .tc main_arg17) := W26_keep m ρ c main_arg17 (by decide)
    _ = W24 m ρ c (Proc.devRef .tc main_arg17) := W25_of_ne m ρ c main_arg17 (by decide)
    _ = W23 m ρ c (Proc.devRef .tc main_arg17) := W24_keep m ρ c main_arg17 (by decide)
    _ = W22 m ρ c (Proc.devRef .tc main_arg17) := W23_keep m ρ c main_arg17 (by decide)
    _ = W21 m ρ c (Proc.devRef .tc main_arg17) := W22_keep m ρ c main_arg17 (by decide)
    _ = W20 m ρ c (Proc.devRef .tc main_arg17) := W21_keep m ρ c main_arg17 (by decide)
    _ = W19 m ρ c (Proc.devRef .tc main_arg17) := W20_keep m ρ c main_arg17 (by decide)
    _ = W18 m ρ c (Proc.devRef .tc main_arg17) := W19_of_ne m ρ c main_arg17 (by decide)
    _ = W17 m ρ c (Proc.devRef .tc main_arg17) := W18_keep m ρ c main_arg17 (by decide)
    _ = W16 m ρ c (Proc.devRef .tc main_arg17) := W17_of_ne m ρ c main_arg17 (by decide)
    _ = W15 m ρ c (Proc.devRef .tc main_arg17) := W16_keep m ρ c main_arg17 (by decide)
    _ = W14 m ρ c (Proc.devRef .tc main_arg17) := W15_of_ne m ρ c main_arg17 (by decide)
    _ = W13 m ρ c (Proc.devRef .tc main_arg17) := W14_keep m ρ c main_arg17 (by decide)
    _ = W12 m ρ c (Proc.devRef .tc main_arg17) := W13_of_ne m ρ c main_arg17 (by decide)
    _ = W11 m ρ c (Proc.devRef .tc main_arg17) := W12_keep m ρ c main_arg17 (by decide)
    _ = W10 m ρ c (Proc.devRef .tc main_arg17) := W11_keep m ρ c main_arg17 (by decide)
    _ = W9 m ρ c (Proc.devRef .tc main_arg17) := W10_keep m ρ c main_arg17 (by decide)
    _ = W8 m ρ c (Proc.devRef .tc main_arg17) := W9_keep m ρ c main_arg17 (by decide)
    _ = W7 m ρ c (Proc.devRef .tc main_arg17) := W8_keep m ρ c main_arg17 (by decide)
    _ = W6 m ρ c (Proc.devRef .tc main_arg17) := W7_of_ne m ρ c main_arg17 (by decide)
    _ = W5 m ρ c (Proc.devRef .tc main_arg17) := W6_keep m ρ c main_arg17 (by decide)
    _ = W4 m ρ c (Proc.devRef .tc main_arg17) := W5_of_ne m ρ c main_arg17 (by decide)
    _ = W3 m ρ c (Proc.devRef .tc main_arg17) := W4_keep m ρ c main_arg17 (by decide)
    _ = W2 m ρ c (Proc.devRef .tc main_arg17) := W3_of_ne m ρ c main_arg17 (by decide)
    _ = W1 m ρ c (Proc.devRef .tc main_arg17) := W2_of_ne m ρ c main_arg17 (by decide)
    _ = W0 m ρ c (Proc.devRef .tc main_arg17) := W1_keep m ρ c main_arg17 (by decide)
    _ = m ((c : Thread nD τ).loc main_arg17) := rfl

theorem W34_main_arg18 (c : Dev nD) : W34 m ρ c (Proc.devRef .tc main_arg18) = m ((c : Thread nD τ).loc main_arg18) :=
  calc W34 m ρ c (Proc.devRef .tc main_arg18)
    _ = W33 m ρ c (Proc.devRef .tc main_arg18) := W34_keep m ρ c main_arg18 (by decide)
    _ = W32 m ρ c (Proc.devRef .tc main_arg18) := W33_of_ne m ρ c main_arg18 (by decide)
    _ = W31 m ρ c (Proc.devRef .tc main_arg18) := W32_keep m ρ c main_arg18 (by decide)
    _ = W30 m ρ c (Proc.devRef .tc main_arg18) := W31_of_ne m ρ c main_arg18 (by decide)
    _ = W29 m ρ c (Proc.devRef .tc main_arg18) := W30_keep m ρ c main_arg18 (by decide)
    _ = W28 m ρ c (Proc.devRef .tc main_arg18) := W29_of_ne m ρ c main_arg18 (by decide)
    _ = W27 m ρ c (Proc.devRef .tc main_arg18) := W28_keep m ρ c main_arg18 (by decide)
    _ = W26 m ρ c (Proc.devRef .tc main_arg18) := W27_of_ne m ρ c main_arg18 (by decide)
    _ = W25 m ρ c (Proc.devRef .tc main_arg18) := W26_keep m ρ c main_arg18 (by decide)
    _ = W24 m ρ c (Proc.devRef .tc main_arg18) := W25_of_ne m ρ c main_arg18 (by decide)
    _ = W23 m ρ c (Proc.devRef .tc main_arg18) := W24_keep m ρ c main_arg18 (by decide)
    _ = W22 m ρ c (Proc.devRef .tc main_arg18) := W23_keep m ρ c main_arg18 (by decide)
    _ = W21 m ρ c (Proc.devRef .tc main_arg18) := W22_keep m ρ c main_arg18 (by decide)
    _ = W20 m ρ c (Proc.devRef .tc main_arg18) := W21_keep m ρ c main_arg18 (by decide)
    _ = W19 m ρ c (Proc.devRef .tc main_arg18) := W20_keep m ρ c main_arg18 (by decide)
    _ = W18 m ρ c (Proc.devRef .tc main_arg18) := W19_of_ne m ρ c main_arg18 (by decide)
    _ = W17 m ρ c (Proc.devRef .tc main_arg18) := W18_keep m ρ c main_arg18 (by decide)
    _ = W16 m ρ c (Proc.devRef .tc main_arg18) := W17_of_ne m ρ c main_arg18 (by decide)
    _ = W15 m ρ c (Proc.devRef .tc main_arg18) := W16_keep m ρ c main_arg18 (by decide)
    _ = W14 m ρ c (Proc.devRef .tc main_arg18) := W15_of_ne m ρ c main_arg18 (by decide)
    _ = W13 m ρ c (Proc.devRef .tc main_arg18) := W14_keep m ρ c main_arg18 (by decide)
    _ = W12 m ρ c (Proc.devRef .tc main_arg18) := W13_of_ne m ρ c main_arg18 (by decide)
    _ = W11 m ρ c (Proc.devRef .tc main_arg18) := W12_keep m ρ c main_arg18 (by decide)
    _ = W10 m ρ c (Proc.devRef .tc main_arg18) := W11_keep m ρ c main_arg18 (by decide)
    _ = W9 m ρ c (Proc.devRef .tc main_arg18) := W10_keep m ρ c main_arg18 (by decide)
    _ = W8 m ρ c (Proc.devRef .tc main_arg18) := W9_keep m ρ c main_arg18 (by decide)
    _ = W7 m ρ c (Proc.devRef .tc main_arg18) := W8_keep m ρ c main_arg18 (by decide)
    _ = W6 m ρ c (Proc.devRef .tc main_arg18) := W7_of_ne m ρ c main_arg18 (by decide)
    _ = W5 m ρ c (Proc.devRef .tc main_arg18) := W6_keep m ρ c main_arg18 (by decide)
    _ = W4 m ρ c (Proc.devRef .tc main_arg18) := W5_of_ne m ρ c main_arg18 (by decide)
    _ = W3 m ρ c (Proc.devRef .tc main_arg18) := W4_keep m ρ c main_arg18 (by decide)
    _ = W2 m ρ c (Proc.devRef .tc main_arg18) := W3_of_ne m ρ c main_arg18 (by decide)
    _ = W1 m ρ c (Proc.devRef .tc main_arg18) := W2_of_ne m ρ c main_arg18 (by decide)
    _ = W0 m ρ c (Proc.devRef .tc main_arg18) := W1_keep m ρ c main_arg18 (by decide)
    _ = m ((c : Thread nD τ).loc main_arg18) := rfl

theorem W34_main_arg19 (c : Dev nD) : W34 m ρ c (Proc.devRef .tc main_arg19) = m ((c : Thread nD τ).loc main_arg19) :=
  calc W34 m ρ c (Proc.devRef .tc main_arg19)
    _ = W33 m ρ c (Proc.devRef .tc main_arg19) := W34_keep m ρ c main_arg19 (by decide)
    _ = W32 m ρ c (Proc.devRef .tc main_arg19) := W33_of_ne m ρ c main_arg19 (by decide)
    _ = W31 m ρ c (Proc.devRef .tc main_arg19) := W32_keep m ρ c main_arg19 (by decide)
    _ = W30 m ρ c (Proc.devRef .tc main_arg19) := W31_of_ne m ρ c main_arg19 (by decide)
    _ = W29 m ρ c (Proc.devRef .tc main_arg19) := W30_keep m ρ c main_arg19 (by decide)
    _ = W28 m ρ c (Proc.devRef .tc main_arg19) := W29_of_ne m ρ c main_arg19 (by decide)
    _ = W27 m ρ c (Proc.devRef .tc main_arg19) := W28_keep m ρ c main_arg19 (by decide)
    _ = W26 m ρ c (Proc.devRef .tc main_arg19) := W27_of_ne m ρ c main_arg19 (by decide)
    _ = W25 m ρ c (Proc.devRef .tc main_arg19) := W26_keep m ρ c main_arg19 (by decide)
    _ = W24 m ρ c (Proc.devRef .tc main_arg19) := W25_of_ne m ρ c main_arg19 (by decide)
    _ = W23 m ρ c (Proc.devRef .tc main_arg19) := W24_keep m ρ c main_arg19 (by decide)
    _ = W22 m ρ c (Proc.devRef .tc main_arg19) := W23_keep m ρ c main_arg19 (by decide)
    _ = W21 m ρ c (Proc.devRef .tc main_arg19) := W22_keep m ρ c main_arg19 (by decide)
    _ = W20 m ρ c (Proc.devRef .tc main_arg19) := W21_keep m ρ c main_arg19 (by decide)
    _ = W19 m ρ c (Proc.devRef .tc main_arg19) := W20_keep m ρ c main_arg19 (by decide)
    _ = W18 m ρ c (Proc.devRef .tc main_arg19) := W19_of_ne m ρ c main_arg19 (by decide)
    _ = W17 m ρ c (Proc.devRef .tc main_arg19) := W18_keep m ρ c main_arg19 (by decide)
    _ = W16 m ρ c (Proc.devRef .tc main_arg19) := W17_of_ne m ρ c main_arg19 (by decide)
    _ = W15 m ρ c (Proc.devRef .tc main_arg19) := W16_keep m ρ c main_arg19 (by decide)
    _ = W14 m ρ c (Proc.devRef .tc main_arg19) := W15_of_ne m ρ c main_arg19 (by decide)
    _ = W13 m ρ c (Proc.devRef .tc main_arg19) := W14_keep m ρ c main_arg19 (by decide)
    _ = W12 m ρ c (Proc.devRef .tc main_arg19) := W13_of_ne m ρ c main_arg19 (by decide)
    _ = W11 m ρ c (Proc.devRef .tc main_arg19) := W12_keep m ρ c main_arg19 (by decide)
    _ = W10 m ρ c (Proc.devRef .tc main_arg19) := W11_keep m ρ c main_arg19 (by decide)
    _ = W9 m ρ c (Proc.devRef .tc main_arg19) := W10_keep m ρ c main_arg19 (by decide)
    _ = W8 m ρ c (Proc.devRef .tc main_arg19) := W9_keep m ρ c main_arg19 (by decide)
    _ = W7 m ρ c (Proc.devRef .tc main_arg19) := W8_keep m ρ c main_arg19 (by decide)
    _ = W6 m ρ c (Proc.devRef .tc main_arg19) := W7_of_ne m ρ c main_arg19 (by decide)
    _ = W5 m ρ c (Proc.devRef .tc main_arg19) := W6_keep m ρ c main_arg19 (by decide)
    _ = W4 m ρ c (Proc.devRef .tc main_arg19) := W5_of_ne m ρ c main_arg19 (by decide)
    _ = W3 m ρ c (Proc.devRef .tc main_arg19) := W4_keep m ρ c main_arg19 (by decide)
    _ = W2 m ρ c (Proc.devRef .tc main_arg19) := W3_of_ne m ρ c main_arg19 (by decide)
    _ = W1 m ρ c (Proc.devRef .tc main_arg19) := W2_of_ne m ρ c main_arg19 (by decide)
    _ = W0 m ρ c (Proc.devRef .tc main_arg19) := W1_keep m ρ c main_arg19 (by decide)
    _ = m ((c : Thread nD τ).loc main_arg19) := rfl

theorem W34_main_arg20 (c : Dev nD) : W34 m ρ c (Proc.devRef .tc main_arg20) = m ((c : Thread nD τ).loc main_arg20) :=
  calc W34 m ρ c (Proc.devRef .tc main_arg20)
    _ = W33 m ρ c (Proc.devRef .tc main_arg20) := W34_keep m ρ c main_arg20 (by decide)
    _ = W32 m ρ c (Proc.devRef .tc main_arg20) := W33_of_ne m ρ c main_arg20 (by decide)
    _ = W31 m ρ c (Proc.devRef .tc main_arg20) := W32_keep m ρ c main_arg20 (by decide)
    _ = W30 m ρ c (Proc.devRef .tc main_arg20) := W31_of_ne m ρ c main_arg20 (by decide)
    _ = W29 m ρ c (Proc.devRef .tc main_arg20) := W30_keep m ρ c main_arg20 (by decide)
    _ = W28 m ρ c (Proc.devRef .tc main_arg20) := W29_of_ne m ρ c main_arg20 (by decide)
    _ = W27 m ρ c (Proc.devRef .tc main_arg20) := W28_keep m ρ c main_arg20 (by decide)
    _ = W26 m ρ c (Proc.devRef .tc main_arg20) := W27_of_ne m ρ c main_arg20 (by decide)
    _ = W25 m ρ c (Proc.devRef .tc main_arg20) := W26_keep m ρ c main_arg20 (by decide)
    _ = W24 m ρ c (Proc.devRef .tc main_arg20) := W25_of_ne m ρ c main_arg20 (by decide)
    _ = W23 m ρ c (Proc.devRef .tc main_arg20) := W24_keep m ρ c main_arg20 (by decide)
    _ = W22 m ρ c (Proc.devRef .tc main_arg20) := W23_keep m ρ c main_arg20 (by decide)
    _ = W21 m ρ c (Proc.devRef .tc main_arg20) := W22_keep m ρ c main_arg20 (by decide)
    _ = W20 m ρ c (Proc.devRef .tc main_arg20) := W21_keep m ρ c main_arg20 (by decide)
    _ = W19 m ρ c (Proc.devRef .tc main_arg20) := W20_keep m ρ c main_arg20 (by decide)
    _ = W18 m ρ c (Proc.devRef .tc main_arg20) := W19_of_ne m ρ c main_arg20 (by decide)
    _ = W17 m ρ c (Proc.devRef .tc main_arg20) := W18_keep m ρ c main_arg20 (by decide)
    _ = W16 m ρ c (Proc.devRef .tc main_arg20) := W17_of_ne m ρ c main_arg20 (by decide)
    _ = W15 m ρ c (Proc.devRef .tc main_arg20) := W16_keep m ρ c main_arg20 (by decide)
    _ = W14 m ρ c (Proc.devRef .tc main_arg20) := W15_of_ne m ρ c main_arg20 (by decide)
    _ = W13 m ρ c (Proc.devRef .tc main_arg20) := W14_keep m ρ c main_arg20 (by decide)
    _ = W12 m ρ c (Proc.devRef .tc main_arg20) := W13_of_ne m ρ c main_arg20 (by decide)
    _ = W11 m ρ c (Proc.devRef .tc main_arg20) := W12_keep m ρ c main_arg20 (by decide)
    _ = W10 m ρ c (Proc.devRef .tc main_arg20) := W11_keep m ρ c main_arg20 (by decide)
    _ = W9 m ρ c (Proc.devRef .tc main_arg20) := W10_keep m ρ c main_arg20 (by decide)
    _ = W8 m ρ c (Proc.devRef .tc main_arg20) := W9_keep m ρ c main_arg20 (by decide)
    _ = W7 m ρ c (Proc.devRef .tc main_arg20) := W8_keep m ρ c main_arg20 (by decide)
    _ = W6 m ρ c (Proc.devRef .tc main_arg20) := W7_of_ne m ρ c main_arg20 (by decide)
    _ = W5 m ρ c (Proc.devRef .tc main_arg20) := W6_keep m ρ c main_arg20 (by decide)
    _ = W4 m ρ c (Proc.devRef .tc main_arg20) := W5_of_ne m ρ c main_arg20 (by decide)
    _ = W3 m ρ c (Proc.devRef .tc main_arg20) := W4_keep m ρ c main_arg20 (by decide)
    _ = W2 m ρ c (Proc.devRef .tc main_arg20) := W3_of_ne m ρ c main_arg20 (by decide)
    _ = W1 m ρ c (Proc.devRef .tc main_arg20) := W2_of_ne m ρ c main_arg20 (by decide)
    _ = W0 m ρ c (Proc.devRef .tc main_arg20) := W1_keep m ρ c main_arg20 (by decide)
    _ = m ((c : Thread nD τ).loc main_arg20) := rfl

end Cert.KernelIdeal.Frame

end
-- ==== Proof.Ref.Ops0.lean ====
/- Window 0 of the reference program, as the list of its 60 operations in order; an operation of a
   module-local function stands at its call, over that call's buffers. -/
import proofs.«151172_j14164802142730_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ nullary main_c (constantI S_ 32 0#32),
    unary main_c main_v0 (broadcastInDim S200000 ![] bcast_S_S200000 : (⟨S_, .i32⟩ : BufTy).Contents (Elt F) → (⟨S200000, .i32⟩ : BufTy).Contents (Elt F)),
    binary main_arg13 main_v0 main_v1 (cmpi .slt : (⟨S200000, .i32⟩ : BufTy).Contents (Elt F) → (⟨S200000, .i32⟩ : BufTy).Contents (Elt F) → (⟨S200000, .i1⟩ : BufTy).Contents (Elt F)),
    nullary main_c_0 (constantI S_ 32 5000#32),
    unary main_c_0 main_v2 (broadcastInDim S200000 ![] bcast_S_S200000 : (⟨S_, .i32⟩ : BufTy).Contents (Elt F) → (⟨S200000, .i32⟩ : BufTy).Contents (Elt F)),
    binary main_arg13 main_v2 main_v3 (addi : (⟨S200000, .i32⟩ : BufTy).Contents (Elt F) → (⟨S200000, .i32⟩ : BufTy).Contents (Elt F) → (⟨S200000, .i32⟩ : BufTy).Contents (Elt F)),
    ternary main_v1 main_v3 main_arg13 main_v4 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v4 main_v5 (broadcastInDim S200000x1 ![0] bcast_S200000_S200000x1_0 : (⟨S200000, .i32⟩ : BufTy).Contents (Elt F) → (⟨S200000x1, .i32⟩ : BufTy).Contents (Elt F)),
    binary main_arg0 main_v5 main_v6 ((fun x i => Host.gather gather_S5000x64_S200000x1_S200000x64_1_0_n_n_0_1_164 x i) : (⟨S5000x64, .f32⟩ : BufTy).Contents (Elt F) → (⟨S200000x1, .i32⟩ : BufTy).Contents (Elt F) → (⟨S200000x64, .f32⟩ : BufTy).Contents (Elt F)),
    nullary main_c_1 (constantI S_ 32 0#32),
    unary main_c_1 main_v7 (broadcastInDim S200000 ![] bcast_S_S200000 : (⟨S_, .i32⟩ : BufTy).Contents (Elt F) → (⟨S200000, .i32⟩ : BufTy).Contents (Elt F)),
    binary main_arg14 main_v7 main_v8 (cmpi .slt : (⟨S200000, .i32⟩ : BufTy).Contents (Elt F) → (⟨S200000, .i32⟩ : BufTy).Contents (Elt F) → (⟨S200000, .i1⟩ : BufTy).Contents (Elt F)),
    nullary main_c_2 (constantI S_ 32 5000#32),
    unary main_c_2 main_v9 (broadcastInDim S200000 ![] bcast_S_S200000 : (⟨S_, .i32⟩ : BufTy).Contents (Elt F) → (⟨S200000, .i32⟩ : BufTy).Contents (Elt F)),
    binary main_arg14 main_v9 main_v10 (addi : (⟨S200000, .i32⟩ : BufTy).Contents (Elt F) → (⟨S200000, .i32⟩ : BufTy).Contents (Elt F) → (⟨S200000, .i32⟩ : BufTy).Contents (Elt F)),
    ternary main_v8 main_v10 main_arg14 main_v11 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v11 main_v12 (broadcastInDim S200000x1 ![0] bcast_S200000_S200000x1_0 : (⟨S200000, .i32⟩ : BufTy).Contents (Elt F) → (⟨S200000x1, .i32⟩ : BufTy).Contents (Elt F)),
    binary main_arg1 main_v12 main_v13 ((fun x i => Host.gather gather_S5000x64_S200000x1_S200000x64_1_0_n_n_0_1_164 x i) : (⟨S5000x64, .f32⟩ : BufTy).Contents (Elt F) → (⟨S200000x1, .i32⟩ : BufTy).Contents (Elt F) → (⟨S200000x64, .f32⟩ : BufTy).Contents (Elt F)),
    unary main_arg2 main_v14 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v14 main_v15 rfl shapeCasts_S1x64x64_S64x64,
    binary main_v6 main_v15 main_v16 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg3 main_v17 ((extractStridedSlice S1x64 ![0, 0] · slices_S2x64_S1x64_0_0) : (⟨S2x64, .f32⟩ : BufTy).Contents (Elt F) → (⟨S1x64, .f32⟩ : BufTy).Contents (Elt F)),
    reshape main_v17 main_v18 rfl shapeCasts_S1x64_S64,
    unary main_v18 main_v19 (broadcastInDim S1x64 ![1] bcast_S64_S1x64_1 : (⟨S64, .f32⟩ : BufTy).Contents (Elt F) → (⟨S1x64, .f32⟩ : BufTy).Contents (Elt F)),
    unary main_v19 main_v20 (broadcastInDim S200000x64 ![0, 1] bcast_S1x64_S200000x64_0_1 : (⟨S1x64, .f32⟩ : BufTy).Contents (Elt F) → (⟨S200000x64, .f32⟩ : BufTy).Contents (Elt F)),
    binary main_v16 main_v20 main_v21 (addf : (⟨S200000x64, .f32⟩ : BufTy).Contents (Elt F) → (⟨S200000x64, .f32⟩ : BufTy).Contents (Elt F) → (⟨S200000x64, .f32⟩ : BufTy).Contents (Elt F)),
    nullary main_cst (constant S_ .f32 0x00000000#32),
    unary main_cst main_v22 (broadcastInDim S200000x64 ![] bcast_S_S200000x64 : (⟨S_, .f32⟩ : BufTy).Contents (Elt F) → (⟨S200000x64, .f32⟩ : BufTy).Contents (Elt F)),
    binary main_v21 main_v22 main_v23 (cmpf .oge : (⟨S200000x64, .f32⟩ : BufTy).Contents (Elt F) → (⟨S200000x64, .f32⟩ : BufTy).Contents (Elt F) → (⟨S200000x64, .i1⟩ : BufTy).Contents (Elt F)),
    nullary main_cst_3 (constant S_ .f32 0x3C23D70A#32),
    unary main_cst_3 main_v24 (broadcastInDim S200000x64 ![] bcast_S_S200000x64 : (⟨S_, .f32⟩ : BufTy).Contents (Elt F) → (⟨S200000x64, .f32⟩ : BufTy).Contents (Elt F)),
    binary main_v24 main_v21 main_v25 (mulf : (⟨S200000x64, .f32⟩ : BufTy).Contents (Elt F) → (⟨S200000x64, .f32⟩ : BufTy).Contents (Elt F) → (⟨S200000x64, .f32⟩ : BufTy).Contents (Elt F)),
    TRef.ternary (.of main_v23 : TRef sig ⟨S200000x64, .i1⟩) (.of main_v21 : TRef sig ⟨S200000x64, .f32⟩) (.of main_v25 : TRef sig ⟨S200000x64, .f32⟩) main_call0.v0 select,
    unary main_arg2 main_v27 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v27 main_v28 rfl shapeCasts_S1x64x64_S64x64,
    binary main_v26 main_v28 main_v29 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg3 main_v30 ((extractStridedSlice S1x64 ![1, 0] · slices_S2x64_S1x64_1_0) : (⟨S2x64, .f32⟩ : BufTy).Contents (Elt F) → (⟨S1x64, .f32⟩ : BufTy).Contents (Elt F)),
    reshape main_v30 main_v31 rfl shapeCasts_S1x64_S64,
    unary main_v31 main_v32 (broadcastInDim S1x64 ![1] bcast_S64_S1x64_1 : (⟨S64, .f32⟩ : BufTy).Contents (Elt F) → (⟨S1x64, .f32⟩ : BufTy).Contents (Elt F)),
    unary main_v32 main_v33 (broadcastInDim S200000x64 ![0, 1] bcast_S1x64_S200000x64_0_1 : (⟨S1x64, .f32⟩ : BufTy).Contents (Elt F) → (⟨S200000x64, .f32⟩ : BufTy).Contents (Elt F)),
    binary main_v29 main_v33 main_v34 (addf : (⟨S200000x64, .f32⟩ : BufTy).Contents (Elt F) → (⟨S200000x64, .f32⟩ : BufTy).Contents (Elt F) → (⟨S200000x64, .f32⟩ : BufTy).Contents (Elt F)),
    nullary main_cst_4 (constant S_ .f32 0x00000000#32),
    unary main_cst_4 main_v35 (broadcastInDim S200000x64 ![] bcast_S_S200000x64 : (⟨S_, .f32⟩ : BufTy).Contents (Elt F) → (⟨S200000x64, .f32⟩ : BufTy).Contents (Elt F)),
    binary main_v34 main_v35 main_v36 (cmpf .oge : (⟨S200000x64, .f32⟩ : BufTy).Contents (Elt F) → (⟨S200000x64, .f32⟩ : BufTy).Contents (Elt F) → (⟨S200000x64, .i1⟩ : BufTy).Contents (Elt F)),
    nullary main_cst_5 (constant S_ .f32 0x3C23D70A#32),
    unary main_cst_5 main_v37 (broadcastInDim S200000x64 ![] bcast_S_S200000x64 : (⟨S_, .f32⟩ : BufTy).Contents (Elt F) → (⟨S200000x64, .f32⟩ : BufTy).Contents (Elt F)),
    binary main_v37 main_v34 main_v38 (mulf : (⟨S200000x64, .f32⟩ : BufTy).Contents (Elt F) → (⟨S200000x64, .f32⟩ : BufTy).Contents (Elt F) → (⟨S200000x64, .f32⟩ : BufTy).Contents (Elt F)),
    TRef.ternary (.of main_v36 : TRef sig ⟨S200000x64, .i1⟩) (.of main_v34 : TRef sig ⟨S200000x64, .f32⟩) (.of main_v38 : TRef sig ⟨S200000x64, .f32⟩) main_call1.v0 select,
    unary main_arg4 main_v40 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v40 main_v41 rfl shapeCasts_S1x64x64_S64x64,
    binary main_v13 main_v41 main_v42 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg5 main_v43 ((extractStridedSlice S1x64 ![0, 0] · slices_S2x64_S1x64_0_0) : (⟨S2x64, .f32⟩ : BufTy).Contents (Elt F) → (⟨S1x64, .f32⟩ : BufTy).Contents (Elt F)),
    reshape main_v43 main_v44 rfl shapeCasts_S1x64_S64,
    unary main_v44 main_v45 (broadcastInDim S1x64 ![1] bcast_S64_S1x64_1 : (⟨S64, .f32⟩ : BufTy).Contents (Elt F) → (⟨S1x64, .f32⟩ : BufTy).Contents (Elt F)),
    unary main_v45 main_v46 (broadcastInDim S200000x64 ![0, 1] bcast_S1x64_S200000x64_0_1 : (⟨S1x64, .f32⟩ : BufTy).Contents (Elt F) → (⟨S200000x64, .f32⟩ : BufTy).Contents (Elt F)),
    binary main_v42 main_v46 main_v47 (addf : (⟨S200000x64, .f32⟩ : BufTy).Contents (Elt F) → (⟨S200000x64, .f32⟩ : BufTy).Contents (Elt F) → (⟨S200000x64, .f32⟩ : BufTy).Contents (Elt F)),
    nullary main_cst_6 (constant S_ .f32 0x00000000#32),
    unary main_cst_6 main_v48 (broadcastInDim S200000x64 ![] bcast_S_S200000x64 : (⟨S_, .f32⟩ : BufTy).Contents (Elt F) → (⟨S200000x64, .f32⟩ : BufTy).Contents (Elt F)),
    binary main_v47 main_v48 main_v49 (cmpf .oge : (⟨S200000x64, .f32⟩ : BufTy).Contents (Elt F) → (⟨S200000x64, .f32⟩ : BufTy).Contents (Elt F) → (⟨S200000x64, .i1⟩ : BufTy).Contents (Elt F)),
    nullary main_cst_7 (constant S_ .f32 0x3C23D70A#32) ]

end Cert.ReferenceIdeal.Hand

end
-- ==== Proof.Ref.Win0.lean ====
/-
  Window 0 of the reference program is the straight line of its operations `ops0`: with the functions the window calls
  (if any) opened at their calls and the call records at their fields, both sides are one chain of `hlo` steps once
  sequencing is reassociated. Every operation of the line touches TensorCore references only and determines its results.
-/
import proofs.«151172_j14164802142730_2_alg».proof.Proof.Ref.Ops0

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
/-- The window is `seq` of its list: unfolding the window, the bodies of the functions it calls and `seq`, and
    reassociating the binds (`bind_assoc`, `pure_bind`), leaves the same chain of steps on both sides (where the window
    ends in an operation of its own, up to the unit return `seq` appends, which is a computation). -/
theorem main_part0_eq (c : Dev nD) : main_part0 (F := F) c = seq ops0 := by
  simp only [main_part0, fn_where.body, seq, bind_assoc, pure_bind]
  rfl

/-- Each operation of the window touches TensorCore references only. -/
theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

set_option maxRecDepth 4096 in
/-- No operation of the window leaves a result undetermined. -/
theorem ops0_fresh : ∀ op ∈ (ops0 : List (HloOp τ sig (Elt F))), op.fresh = ∅ := by
  intro _ h
  repeat (cases h with | head => rfl | tail _ h => ?_)
  exact nomatch h

end Cert.ReferenceIdeal.Hand

end
-- ==== Proof.Ref.Ops1.lean ====
/- Window 1 of the reference program, as the list of its 60 operations in order; an operation of a
   module-local function stands at its call, over that call's buffers. -/
import proofs.«151172_j14164802142730_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops1 : List (HloOp τ sig (Elt F)) :=
  [ unary main_cst_7 main_v50 (broadcastInDim S200000x64 ![] bcast_S_S200000x64 : (⟨S_, .f32⟩ : BufTy).Contents (Elt F) → (⟨S200000x64, .f32⟩ : BufTy).Contents (Elt F)),
    binary main_v50 main_v47 main_v51 (mulf : (⟨S200000x64, .f32⟩ : BufTy).Contents (Elt F) → (⟨S200000x64, .f32⟩ : BufTy).Contents (Elt F) → (⟨S200000x64, .f32⟩ : BufTy).Contents (Elt F)),
    TRef.ternary (.of main_v49 : TRef sig ⟨S200000x64, .i1⟩) (.of main_v47 : TRef sig ⟨S200000x64, .f32⟩) (.of main_v51 : TRef sig ⟨S200000x64, .f32⟩) main_call2.v0 select,
    unary main_arg4 main_v53 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v53 main_v54 rfl shapeCasts_S1x64x64_S64x64,
    binary main_v52 main_v54 main_v55 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg5 main_v56 ((extractStridedSlice S1x64 ![1, 0] · slices_S2x64_S1x64_1_0) : (⟨S2x64, .f32⟩ : BufTy).Contents (Elt F) → (⟨S1x64, .f32⟩ : BufTy).Contents (Elt F)),
    reshape main_v56 main_v57 rfl shapeCasts_S1x64_S64,
    unary main_v57 main_v58 (broadcastInDim S1x64 ![1] bcast_S64_S1x64_1 : (⟨S64, .f32⟩ : BufTy).Contents (Elt F) → (⟨S1x64, .f32⟩ : BufTy).Contents (Elt F)),
    unary main_v58 main_v59 (broadcastInDim S200000x64 ![0, 1] bcast_S1x64_S200000x64_0_1 : (⟨S1x64, .f32⟩ : BufTy).Contents (Elt F) → (⟨S200000x64, .f32⟩ : BufTy).Contents (Elt F)),
    binary main_v55 main_v59 main_v60 (addf : (⟨S200000x64, .f32⟩ : BufTy).Contents (Elt F) → (⟨S200000x64, .f32⟩ : BufTy).Contents (Elt F) → (⟨S200000x64, .f32⟩ : BufTy).Contents (Elt F)),
    nullary main_cst_8 (constant S_ .f32 0x00000000#32),
    unary main_cst_8 main_v61 (broadcastInDim S200000x64 ![] bcast_S_S200000x64 : (⟨S_, .f32⟩ : BufTy).Contents (Elt F) → (⟨S200000x64, .f32⟩ : BufTy).Contents (Elt F)),
    binary main_v60 main_v61 main_v62 (cmpf .oge : (⟨S200000x64, .f32⟩ : BufTy).Contents (Elt F) → (⟨S200000x64, .f32⟩ : BufTy).Contents (Elt F) → (⟨S200000x64, .i1⟩ : BufTy).Contents (Elt F)),
    nullary main_cst_9 (constant S_ .f32 0x3C23D70A#32),
    unary main_cst_9 main_v63 (broadcastInDim S200000x64 ![] bcast_S_S200000x64 : (⟨S_, .f32⟩ : BufTy).Contents (Elt F) → (⟨S200000x64, .f32⟩ : BufTy).Contents (Elt F)),
    binary main_v63 main_v60 main_v64 (mulf : (⟨S200000x64, .f32⟩ : BufTy).Contents (Elt F) → (⟨S200000x64, .f32⟩ : BufTy).Contents (Elt F) → (⟨S200000x64, .f32⟩ : BufTy).Contents (Elt F)),
    TRef.ternary (.of main_v62 : TRef sig ⟨S200000x64, .i1⟩) (.of main_v60 : TRef sig ⟨S200000x64, .f32⟩) (.of main_v64 : TRef sig ⟨S200000x64, .f32⟩) main_call3.v0 select,
    unary main_arg6 main_v66 ((extractStridedSlice S1x1x64x64 ![0, 0, 0, 0] · slices_S2x3x64x64_S1x1x64x64_0_0_0_0) : (⟨S2x3x64x64, .f32⟩ : BufTy).Contents (Elt F) → (⟨S1x1x64x64, .f32⟩ : BufTy).Contents (Elt F)),
    reshape main_v66 main_v67 rfl shapeCasts_S1x1x64x64_S64x64,
    unary main_arg7 main_v68 ((extractStridedSlice S1x1x64x64 ![0, 0, 0, 0] · slices_S2x3x64x64_S1x1x64x64_0_0_0_0) : (⟨S2x3x64x64, .f32⟩ : BufTy).Contents (Elt F) → (⟨S1x1x64x64, .f32⟩ : BufTy).Contents (Elt F)),
    reshape main_v68 main_v69 rfl shapeCasts_S1x1x64x64_S64x64,
    unary main_arg8 main_v70 ((extractStridedSlice S1x1x64 ![0, 0, 0] · slices_S2x3x64_S1x1x64_0_0_0) : (⟨S2x3x64, .f32⟩ : BufTy).Contents (Elt F) → (⟨S1x1x64, .f32⟩ : BufTy).Contents (Elt F)),
    reshape main_v70 main_v71 rfl shapeCasts_S1x1x64_S64,
    unary main_arg15 main_v72 ((extractStridedSlice S1x1000000 ![0, 0] · slices_S2x1000000_S1x1000000_0_0) : (⟨S2x1000000, .i32⟩ : BufTy).Contents (Elt F) → (⟨S1x1000000, .i32⟩ : BufTy).Contents (Elt F)),
    reshape main_v72 main_v73 rfl shapeCasts_S1x1000000_S1000000,
    unary main_arg15 main_v74 ((extractStridedSlice S1x1000000 ![1, 0] · slices_S2x1000000_S1x1000000_1_0) : (⟨S2x1000000, .i32⟩ : BufTy).Contents (Elt F) → (⟨S1x1000000, .i32⟩ : BufTy).Contents (Elt F)),
    reshape main_v74 main_v75 rfl shapeCasts_S1x1000000_S1000000,
    nullary main_c_10 (constantI S_ 32 0#32),
    unary main_c_10 main_v76 (broadcastInDim S1000000 ![] bcast_S_S1000000 : (⟨S_, .i32⟩ : BufTy).Contents (Elt F) → (⟨S1000000, .i32⟩ : BufTy).Contents (Elt F)),
    binary main_v73 main_v76 main_v77 (cmpi .slt : (⟨S1000000, .i32⟩ : BufTy).Contents (Elt F) → (⟨S1000000, .i32⟩ : BufTy).Contents (Elt F) → (⟨S1000000, .i1⟩ : BufTy).Contents (Elt F)),
    nullary main_c_11 (constantI S_ 32 200000#32),
    unary main_c_11 main_v78 (broadcastInDim S1000000 ![] bcast_S_S1000000 : (⟨S_, .i32⟩ : BufTy).Contents (Elt F) → (⟨S1000000, .i32⟩ : BufTy).Contents (Elt F)),
    binary main_v73 main_v78 main_v79 (addi : (⟨S1000000, .i32⟩ : BufTy).Contents (Elt F) → (⟨S1000000, .i32⟩ : BufTy).Contents (Elt F) → (⟨S1000000, .i32⟩ : BufTy).Contents (Elt F)),
    ternary main_v77 main_v79 main_v73 main_v80 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v80 main_v81 (broadcastInDim S1000000x1 ![0] bcast_S1000000_S1000000x1_0 : (⟨S1000000, .i32⟩ : BufTy).Contents (Elt F) → (⟨S1000000x1, .i32⟩ : BufTy).Contents (Elt F)),
    binary main_v39 main_v81 main_v82 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    nullary main_cst_12 (constant S_ .f32 0x00000000#32),
    unary main_cst_12 main_v83 (broadcastInDim S200000x64 ![] bcast_S_S200000x64 : (⟨S_, .f32⟩ : BufTy).Contents (Elt F) → (⟨S200000x64, .f32⟩ : BufTy).Contents (Elt F)),
    unary main_v75 main_v84 (broadcastInDim S1000000x1 ![0] bcast_S1000000_S1000000x1_0 : (⟨S1000000, .i32⟩ : BufTy).Contents (Elt F) → (⟨S1000000x1, .i32⟩ : BufTy).Contents (Elt F)),
    ternary main_v83 main_v84 main_v82 main_v85 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    nullary main_cst_13 (constant S_ .f32 0x3F800000#32),
    unary main_cst_13 main_v86 (broadcastInDim S1000000 ![] bcast_S_S1000000 : (⟨S_, .f32⟩ : BufTy).Contents (Elt F) → (⟨S1000000, .f32⟩ : BufTy).Contents (Elt F)),
    nullary main_cst_14 (constant S_ .f32 0x00000000#32),
    unary main_cst_14 main_v87 (broadcastInDim S200000 ![] bcast_S_S200000 : (⟨S_, .f32⟩ : BufTy).Contents (Elt F) → (⟨S200000, .f32⟩ : BufTy).Contents (Elt F)),
    unary main_v75 main_v88 (broadcastInDim S1000000x1 ![0] bcast_S1000000_S1000000x1_0 : (⟨S1000000, .i32⟩ : BufTy).Contents (Elt F) → (⟨S1000000x1, .i32⟩ : BufTy).Contents (Elt F)),
    ternary main_v87 main_v88 main_v86 main_v89 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)),
    unary main_v89 main_v90 (broadcastInDim S200000x1 ![0] bcast_S200000_S200000x1_0 : (⟨S200000, .f32⟩ : BufTy).Contents (Elt F) → (⟨S200000x1, .f32⟩ : BufTy).Contents (Elt F)),
    nullary main_cst_15 (constant S_ .f32 0x3F800000#32),
    unary main_cst_15 main_v91 (broadcastInDim S200000x1 ![] bcast_S_S200000x1 : (⟨S_, .f32⟩ : BufTy).Contents (Elt F) → (⟨S200000x1, .f32⟩ : BufTy).Contents (Elt F)),
    binary main_v90 main_v91 main_v92 (maximumf : (⟨S200000x1, .f32⟩ : BufTy).Contents (Elt F) → (⟨S200000x1, .f32⟩ : BufTy).Contents (Elt F) → (⟨S200000x1, .f32⟩ : BufTy).Contents (Elt F)),
    unary main_v92 main_v93 (broadcastInDim S200000x64 ![0, 1] bcast_S200000x1_S200000x64_0_1 : (⟨S200000x1, .f32⟩ : BufTy).Contents (Elt F) → (⟨S200000x64, .f32⟩ : BufTy).Contents (Elt F)),
    binary main_v85 main_v93 main_v94 (Host.divf : (⟨S200000x64, .f32⟩ : BufTy).Contents (Elt F) → (⟨S200000x64, .f32⟩ : BufTy).Contents (Elt F) → (⟨S200000x64, .f32⟩ : BufTy).Contents (Elt F)),
    binary main_v65 main_v67 main_v95 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v94 main_v69 main_v96 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v95 main_v96 main_v97 (addf : (⟨S200000x64, .f32⟩ : BufTy).Contents (Elt F) → (⟨S200000x64, .f32⟩ : BufTy).Contents (Elt F) → (⟨S200000x64, .f32⟩ : BufTy).Contents (Elt F)),
    unary main_v71 main_v98 (broadcastInDim S1x64 ![1] bcast_S64_S1x64_1 : (⟨S64, .f32⟩ : BufTy).Contents (Elt F) → (⟨S1x64, .f32⟩ : BufTy).Contents (Elt F)),
    unary main_v98 main_v99 (broadcastInDim S200000x64 ![0, 1] bcast_S1x64_S200000x64_0_1 : (⟨S1x64, .f32⟩ : BufTy).Contents (Elt F) → (⟨S200000x64, .f32⟩ : BufTy).Contents (Elt F)),
    binary main_v97 main_v99 main_v100 (addf : (⟨S200000x64, .f32⟩ : BufTy).Contents (Elt F) → (⟨S200000x64, .f32⟩ : BufTy).Contents (Elt F) → (⟨S200000x64, .f32⟩ : BufTy).Contents (Elt F)),
    unary main_arg6 main_v101 ((extractStridedSlice S1x1x64x64 ![0, 1, 0, 0] · slices_S2x3x64x64_S1x1x64x64_0_1_0_0) : (⟨S2x3x64x64, .f32⟩ : BufTy).Contents (Elt F) → (⟨S1x1x64x64, .f32⟩ : BufTy).Contents (Elt F)) ]

end Cert.ReferenceIdeal.Hand

end
-- ==== Proof.Ref.Win1.lean ====
/-
  Window 1 of the reference program is the straight line of its operations `ops1`: with the functions the window calls
  (if any) opened at their calls and the call records at their fields, both sides are one chain of `hlo` steps once
  sequencing is reassociated. Every operation of the line touches TensorCore references only and determines its results.
-/
import proofs.«151172_j14164802142730_2_alg».proof.Proof.Ref.Ops1

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
/-- The window is `seq` of its list: unfolding the window, the bodies of the functions it calls and `seq`, and
    reassociating the binds (`bind_assoc`, `pure_bind`), leaves the same chain of steps on both sides (where the window
    ends in an operation of its own, up to the unit return `seq` appends, which is a computation). -/
theorem main_part1_eq (c : Dev nD) : main_part1 (F := F) c = seq ops1 := by
  simp only [main_part1, fn_where.body, seq, bind_assoc, pure_bind]
  rfl

/-- Each operation of the window touches TensorCore references only. -/
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

set_option maxRecDepth 4096 in
/-- No operation of the window leaves a result undetermined. -/
theorem ops1_fresh : ∀ op ∈ (ops1 : List (HloOp τ sig (Elt F))), op.fresh = ∅ := by
  intro _ h
  repeat (cases h with | head => rfl | tail _ h => ?_)
  exact nomatch h

end Cert.ReferenceIdeal.Hand

end
-- ==== Proof.Ref.Ops2.lean ====
/- Window 2 of the reference program, as the list of its 60 operations in order; an operation of a
   module-local function stands at its call, over that call's buffers. -/
import proofs.«151172_j14164802142730_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops2 : List (HloOp τ sig (Elt F)) :=
  [ reshape main_v101 main_v102 rfl shapeCasts_S1x1x64x64_S64x64,
    unary main_arg7 main_v103 ((extractStridedSlice S1x1x64x64 ![0, 1, 0, 0] · slices_S2x3x64x64_S1x1x64x64_0_1_0_0) : (⟨S2x3x64x64, .f32⟩ : BufTy).Contents (Elt F) → (⟨S1x1x64x64, .f32⟩ : BufTy).Contents (Elt F)),
    reshape main_v103 main_v104 rfl shapeCasts_S1x1x64x64_S64x64,
    unary main_arg8 main_v105 ((extractStridedSlice S1x1x64 ![0, 1, 0] · slices_S2x3x64_S1x1x64_0_1_0) : (⟨S2x3x64, .f32⟩ : BufTy).Contents (Elt F) → (⟨S1x1x64, .f32⟩ : BufTy).Contents (Elt F)),
    reshape main_v105 main_v106 rfl shapeCasts_S1x1x64_S64,
    unary main_arg16 main_v107 ((extractStridedSlice S1x1000000 ![0, 0] · slices_S2x1000000_S1x1000000_0_0) : (⟨S2x1000000, .i32⟩ : BufTy).Contents (Elt F) → (⟨S1x1000000, .i32⟩ : BufTy).Contents (Elt F)),
    reshape main_v107 main_v108 rfl shapeCasts_S1x1000000_S1000000,
    unary main_arg16 main_v109 ((extractStridedSlice S1x1000000 ![1, 0] · slices_S2x1000000_S1x1000000_1_0) : (⟨S2x1000000, .i32⟩ : BufTy).Contents (Elt F) → (⟨S1x1000000, .i32⟩ : BufTy).Contents (Elt F)),
    reshape main_v109 main_v110 rfl shapeCasts_S1x1000000_S1000000,
    nullary main_c_16 (constantI S_ 32 0#32),
    unary main_c_16 main_v111 (broadcastInDim S1000000 ![] bcast_S_S1000000 : (⟨S_, .i32⟩ : BufTy).Contents (Elt F) → (⟨S1000000, .i32⟩ : BufTy).Contents (Elt F)),
    binary main_v108 main_v111 main_v112 (cmpi .slt : (⟨S1000000, .i32⟩ : BufTy).Contents (Elt F) → (⟨S1000000, .i32⟩ : BufTy).Contents (Elt F) → (⟨S1000000, .i1⟩ : BufTy).Contents (Elt F)),
    nullary main_c_17 (constantI S_ 32 200000#32),
    unary main_c_17 main_v113 (broadcastInDim S1000000 ![] bcast_S_S1000000 : (⟨S_, .i32⟩ : BufTy).Contents (Elt F) → (⟨S1000000, .i32⟩ : BufTy).Contents (Elt F)),
    binary main_v108 main_v113 main_v114 (addi : (⟨S1000000, .i32⟩ : BufTy).Contents (Elt F) → (⟨S1000000, .i32⟩ : BufTy).Contents (Elt F) → (⟨S1000000, .i32⟩ : BufTy).Contents (Elt F)),
    ternary main_v112 main_v114 main_v108 main_v115 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v115 main_v116 (broadcastInDim S1000000x1 ![0] bcast_S1000000_S1000000x1_0 : (⟨S1000000, .i32⟩ : BufTy).Contents (Elt F) → (⟨S1000000x1, .i32⟩ : BufTy).Contents (Elt F)),
    binary main_v65 main_v116 main_v117 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    nullary main_cst_18 (constant S_ .f32 0x00000000#32),
    unary main_cst_18 main_v118 (broadcastInDim S200000x64 ![] bcast_S_S200000x64 : (⟨S_, .f32⟩ : BufTy).Contents (Elt F) → (⟨S200000x64, .f32⟩ : BufTy).Contents (Elt F)),
    unary main_v110 main_v119 (broadcastInDim S1000000x1 ![0] bcast_S1000000_S1000000x1_0 : (⟨S1000000, .i32⟩ : BufTy).Contents (Elt F) → (⟨S1000000x1, .i32⟩ : BufTy).Contents (Elt F)),
    ternary main_v118 main_v119 main_v117 main_v120 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    nullary main_cst_19 (constant S_ .f32 0x3F800000#32),
    unary main_cst_19 main_v121 (broadcastInDim S1000000 ![] bcast_S_S1000000 : (⟨S_, .f32⟩ : BufTy).Contents (Elt F) → (⟨S1000000, .f32⟩ : BufTy).Contents (Elt F)),
    nullary main_cst_20 (constant S_ .f32 0x00000000#32),
    unary main_cst_20 main_v122 (broadcastInDim S200000 ![] bcast_S_S200000 : (⟨S_, .f32⟩ : BufTy).Contents (Elt F) → (⟨S200000, .f32⟩ : BufTy).Contents (Elt F)),
    unary main_v110 main_v123 (broadcastInDim S1000000x1 ![0] bcast_S1000000_S1000000x1_0 : (⟨S1000000, .i32⟩ : BufTy).Contents (Elt F) → (⟨S1000000x1, .i32⟩ : BufTy).Contents (Elt F)),
    ternary main_v122 main_v123 main_v121 main_v124 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)),
    unary main_v124 main_v125 (broadcastInDim S200000x1 ![0] bcast_S200000_S200000x1_0 : (⟨S200000, .f32⟩ : BufTy).Contents (Elt F) → (⟨S200000x1, .f32⟩ : BufTy).Contents (Elt F)),
    nullary main_cst_21 (constant S_ .f32 0x3F800000#32),
    unary main_cst_21 main_v126 (broadcastInDim S200000x1 ![] bcast_S_S200000x1 : (⟨S_, .f32⟩ : BufTy).Contents (Elt F) → (⟨S200000x1, .f32⟩ : BufTy).Contents (Elt F)),
    binary main_v125 main_v126 main_v127 (maximumf : (⟨S200000x1, .f32⟩ : BufTy).Contents (Elt F) → (⟨S200000x1, .f32⟩ : BufTy).Contents (Elt F) → (⟨S200000x1, .f32⟩ : BufTy).Contents (Elt F)),
    unary main_v127 main_v128 (broadcastInDim S200000x64 ![0, 1] bcast_S200000x1_S200000x64_0_1 : (⟨S200000x1, .f32⟩ : BufTy).Contents (Elt F) → (⟨S200000x64, .f32⟩ : BufTy).Contents (Elt F)),
    binary main_v120 main_v128 main_v129 (Host.divf : (⟨S200000x64, .f32⟩ : BufTy).Contents (Elt F) → (⟨S200000x64, .f32⟩ : BufTy).Contents (Elt F) → (⟨S200000x64, .f32⟩ : BufTy).Contents (Elt F)),
    binary main_v39 main_v102 main_v130 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v129 main_v104 main_v131 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v130 main_v131 main_v132 (addf : (⟨S200000x64, .f32⟩ : BufTy).Contents (Elt F) → (⟨S200000x64, .f32⟩ : BufTy).Contents (Elt F) → (⟨S200000x64, .f32⟩ : BufTy).Contents (Elt F)),
    unary main_v106 main_v133 (broadcastInDim S1x64 ![1] bcast_S64_S1x64_1 : (⟨S64, .f32⟩ : BufTy).Contents (Elt F) → (⟨S1x64, .f32⟩ : BufTy).Contents (Elt F)),
    unary main_v133 main_v134 (broadcastInDim S200000x64 ![0, 1] bcast_S1x64_S200000x64_0_1 : (⟨S1x64, .f32⟩ : BufTy).Contents (Elt F) → (⟨S200000x64, .f32⟩ : BufTy).Contents (Elt F)),
    binary main_v132 main_v134 main_v135 (addf : (⟨S200000x64, .f32⟩ : BufTy).Contents (Elt F) → (⟨S200000x64, .f32⟩ : BufTy).Contents (Elt F) → (⟨S200000x64, .f32⟩ : BufTy).Contents (Elt F)),
    unary main_arg6 main_v136 ((extractStridedSlice S1x1x64x64 ![0, 2, 0, 0] · slices_S2x3x64x64_S1x1x64x64_0_2_0_0) : (⟨S2x3x64x64, .f32⟩ : BufTy).Contents (Elt F) → (⟨S1x1x64x64, .f32⟩ : BufTy).Contents (Elt F)),
    reshape main_v136 main_v137 rfl shapeCasts_S1x1x64x64_S64x64,
    unary main_arg7 main_v138 ((extractStridedSlice S1x1x64x64 ![0, 2, 0, 0] · slices_S2x3x64x64_S1x1x64x64_0_2_0_0) : (⟨S2x3x64x64, .f32⟩ : BufTy).Contents (Elt F) → (⟨S1x1x64x64, .f32⟩ : BufTy).Contents (Elt F)),
    reshape main_v138 main_v139 rfl shapeCasts_S1x1x64x64_S64x64,
    unary main_arg8 main_v140 ((extractStridedSlice S1x1x64 ![0, 2, 0] · slices_S2x3x64_S1x1x64_0_2_0) : (⟨S2x3x64, .f32⟩ : BufTy).Contents (Elt F) → (⟨S1x1x64, .f32⟩ : BufTy).Contents (Elt F)),
    reshape main_v140 main_v141 rfl shapeCasts_S1x1x64_S64,
    unary main_arg17 main_v142 ((extractStridedSlice S1x1000000 ![0, 0] · slices_S2x1000000_S1x1000000_0_0) : (⟨S2x1000000, .i32⟩ : BufTy).Contents (Elt F) → (⟨S1x1000000, .i32⟩ : BufTy).Contents (Elt F)),
    reshape main_v142 main_v143 rfl shapeCasts_S1x1000000_S1000000,
    unary main_arg17 main_v144 ((extractStridedSlice S1x1000000 ![1, 0] · slices_S2x1000000_S1x1000000_1_0) : (⟨S2x1000000, .i32⟩ : BufTy).Contents (Elt F) → (⟨S1x1000000, .i32⟩ : BufTy).Contents (Elt F)),
    reshape main_v144 main_v145 rfl shapeCasts_S1x1000000_S1000000,
    nullary main_c_22 (constantI S_ 32 0#32),
    unary main_c_22 main_v146 (broadcastInDim S1000000 ![] bcast_S_S1000000 : (⟨S_, .i32⟩ : BufTy).Contents (Elt F) → (⟨S1000000, .i32⟩ : BufTy).Contents (Elt F)),
    binary main_v143 main_v146 main_v147 (cmpi .slt : (⟨S1000000, .i32⟩ : BufTy).Contents (Elt F) → (⟨S1000000, .i32⟩ : BufTy).Contents (Elt F) → (⟨S1000000, .i1⟩ : BufTy).Contents (Elt F)),
    nullary main_c_23 (constantI S_ 32 200000#32),
    unary main_c_23 main_v148 (broadcastInDim S1000000 ![] bcast_S_S1000000 : (⟨S_, .i32⟩ : BufTy).Contents (Elt F) → (⟨S1000000, .i32⟩ : BufTy).Contents (Elt F)),
    binary main_v143 main_v148 main_v149 (addi : (⟨S1000000, .i32⟩ : BufTy).Contents (Elt F) → (⟨S1000000, .i32⟩ : BufTy).Contents (Elt F) → (⟨S1000000, .i32⟩ : BufTy).Contents (Elt F)),
    ternary main_v147 main_v149 main_v143 main_v150 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v150 main_v151 (broadcastInDim S1000000x1 ![0] bcast_S1000000_S1000000x1_0 : (⟨S1000000, .i32⟩ : BufTy).Contents (Elt F) → (⟨S1000000x1, .i32⟩ : BufTy).Contents (Elt F)),
    binary main_v39 main_v151 main_v152 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    nullary main_cst_24 (constant S_ .f32 0x00000000#32) ]

end Cert.ReferenceIdeal.Hand

end
-- ==== Proof.Ref.Win2.lean ====
/-
  Window 2 of the reference program is the straight line of its operations `ops2`: with the functions the window calls
  (if any) opened at their calls and the call records at their fields, both sides are one chain of `hlo` steps once
  sequencing is reassociated. Every operation of the line touches TensorCore references only and determines its results.
-/
import proofs.«151172_j14164802142730_2_alg».proof.Proof.Ref.Ops2

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
/-- The window is `seq` of its list: unfolding the window, the bodies of the functions it calls and `seq`, and
    reassociating the binds (`bind_assoc`, `pure_bind`), leaves the same chain of steps on both sides (where the window
    ends in an operation of its own, up to the unit return `seq` appends, which is a computation). -/
theorem main_part2_eq (c : Dev nD) : main_part2 (F := F) c = seq ops2 := by
  simp only [main_part2, seq, bind_assoc, pure_bind]
  rfl

/-- Each operation of the window touches TensorCore references only. -/
theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

set_option maxRecDepth 4096 in
/-- No operation of the window leaves a result undetermined. -/
theorem ops2_fresh : ∀ op ∈ (ops2 : List (HloOp τ sig (Elt F))), op.fresh = ∅ := by
  intro _ h
  repeat (cases h with | head => rfl | tail _ h => ?_)
  exact nomatch h

end Cert.ReferenceIdeal.Hand

end
-- ==== Proof.Ref.Ops3.lean ====
/- Window 3 of the reference program, as the list of its 102 operations in order; an operation of a
   module-local function stands at its call, over that call's buffers. -/
import proofs.«151172_j14164802142730_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops3 : List (HloOp τ sig (Elt F)) :=
  [ unary main_cst_24 main_v153 (broadcastInDim S200000x64 ![] bcast_S_S200000x64 : (⟨S_, .f32⟩ : BufTy).Contents (Elt F) → (⟨S200000x64, .f32⟩ : BufTy).Contents (Elt F)),
    unary main_v145 main_v154 (broadcastInDim S1000000x1 ![0] bcast_S1000000_S1000000x1_0 : (⟨S1000000, .i32⟩ : BufTy).Contents (Elt F) → (⟨S1000000x1, .i32⟩ : BufTy).Contents (Elt F)),
    ternary main_v153 main_v154 main_v152 main_v155 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    nullary main_cst_25 (constant S_ .f32 0x3F800000#32),
    unary main_cst_25 main_v156 (broadcastInDim S1000000 ![] bcast_S_S1000000 : (⟨S_, .f32⟩ : BufTy).Contents (Elt F) → (⟨S1000000, .f32⟩ : BufTy).Contents (Elt F)),
    nullary main_cst_26 (constant S_ .f32 0x00000000#32),
    unary main_cst_26 main_v157 (broadcastInDim S200000 ![] bcast_S_S200000 : (⟨S_, .f32⟩ : BufTy).Contents (Elt F) → (⟨S200000, .f32⟩ : BufTy).Contents (Elt F)),
    unary main_v145 main_v158 (broadcastInDim S1000000x1 ![0] bcast_S1000000_S1000000x1_0 : (⟨S1000000, .i32⟩ : BufTy).Contents (Elt F) → (⟨S1000000x1, .i32⟩ : BufTy).Contents (Elt F)),
    ternary main_v157 main_v158 main_v156 main_v159 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)),
    unary main_v159 main_v160 (broadcastInDim S200000x1 ![0] bcast_S200000_S200000x1_0 : (⟨S200000, .f32⟩ : BufTy).Contents (Elt F) → (⟨S200000x1, .f32⟩ : BufTy).Contents (Elt F)),
    nullary main_cst_27 (constant S_ .f32 0x3F800000#32),
    unary main_cst_27 main_v161 (broadcastInDim S200000x1 ![] bcast_S_S200000x1 : (⟨S_, .f32⟩ : BufTy).Contents (Elt F) → (⟨S200000x1, .f32⟩ : BufTy).Contents (Elt F)),
    binary main_v160 main_v161 main_v162 (maximumf : (⟨S200000x1, .f32⟩ : BufTy).Contents (Elt F) → (⟨S200000x1, .f32⟩ : BufTy).Contents (Elt F) → (⟨S200000x1, .f32⟩ : BufTy).Contents (Elt F)),
    unary main_v162 main_v163 (broadcastInDim S200000x64 ![0, 1] bcast_S200000x1_S200000x64_0_1 : (⟨S200000x1, .f32⟩ : BufTy).Contents (Elt F) → (⟨S200000x64, .f32⟩ : BufTy).Contents (Elt F)),
    binary main_v155 main_v163 main_v164 (Host.divf : (⟨S200000x64, .f32⟩ : BufTy).Contents (Elt F) → (⟨S200000x64, .f32⟩ : BufTy).Contents (Elt F) → (⟨S200000x64, .f32⟩ : BufTy).Contents (Elt F)),
    binary main_v39 main_v137 main_v165 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v164 main_v139 main_v166 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v165 main_v166 main_v167 (addf : (⟨S200000x64, .f32⟩ : BufTy).Contents (Elt F) → (⟨S200000x64, .f32⟩ : BufTy).Contents (Elt F) → (⟨S200000x64, .f32⟩ : BufTy).Contents (Elt F)),
    unary main_v141 main_v168 (broadcastInDim S1x64 ![1] bcast_S64_S1x64_1 : (⟨S64, .f32⟩ : BufTy).Contents (Elt F) → (⟨S1x64, .f32⟩ : BufTy).Contents (Elt F)),
    unary main_v168 main_v169 (broadcastInDim S200000x64 ![0, 1] bcast_S1x64_S200000x64_0_1 : (⟨S1x64, .f32⟩ : BufTy).Contents (Elt F) → (⟨S200000x64, .f32⟩ : BufTy).Contents (Elt F)),
    binary main_v167 main_v169 main_v170 (addf : (⟨S200000x64, .f32⟩ : BufTy).Contents (Elt F) → (⟨S200000x64, .f32⟩ : BufTy).Contents (Elt F) → (⟨S200000x64, .f32⟩ : BufTy).Contents (Elt F)),
    binary main_v135 main_v170 main_v171 (addf : (⟨S200000x64, .f32⟩ : BufTy).Contents (Elt F) → (⟨S200000x64, .f32⟩ : BufTy).Contents (Elt F) → (⟨S200000x64, .f32⟩ : BufTy).Contents (Elt F)),
    unary main_arg9 main_v172 ((extractStridedSlice S1x1x64 ![0, 0, 0] · slices_S2x2x64_S1x1x64_0_0_0) : (⟨S2x2x64, .f32⟩ : BufTy).Contents (Elt F) → (⟨S1x1x64, .f32⟩ : BufTy).Contents (Elt F)),
    reshape main_v172 main_v173 rfl shapeCasts_S1x1x64_S64,
    unary main_arg10 main_v174 ((extractStridedSlice S1x1x64 ![0, 0, 0] · slices_S2x2x64_S1x1x64_0_0_0) : (⟨S2x2x64, .f32⟩ : BufTy).Contents (Elt F) → (⟨S1x1x64, .f32⟩ : BufTy).Contents (Elt F)),
    reshape main_v174 main_v175 rfl shapeCasts_S1x1x64_S64,
    nullary main_cst_28 (constant S_ .f32 0x00000000#32),
    binary main_v171 main_cst_28 main_v176 ((fun x v => Host.reduceAdd x v reducesTo_S200000x64_S64_d0 h_S_) : (⟨S200000x64, .f32⟩ : BufTy).Contents (Elt F) → (⟨S_, .f32⟩ : BufTy).Contents (Elt F) → (⟨S64, .f32⟩ : BufTy).Contents (Elt F)),
    nullary main_cst_29 (constant S_ .f32 0x48435000#32),
    unary main_cst_29 main_v177 (broadcastInDim S64 ![] bcast_S_S64 : (⟨S_, .f32⟩ : BufTy).Contents (Elt F) → (⟨S64, .f32⟩ : BufTy).Contents (Elt F)),
    binary main_v176 main_v177 main_v178 (Host.divf : (⟨S64, .f32⟩ : BufTy).Contents (Elt F) → (⟨S64, .f32⟩ : BufTy).Contents (Elt F) → (⟨S64, .f32⟩ : BufTy).Contents (Elt F)),
    nullary main_c_30 (constantI S_ 32 0#32),
    TRef.nullary main_call4.cst (constant S_ .f32 0x00000000#32),
    TRef.binary (.of main_v171 : TRef sig ⟨S200000x64, .f32⟩) main_call4.cst main_call4.v0 (fun x v => Host.reduceAdd x v reducesTo_S200000x64_S64_d0 h_S_),
    TRef.unary main_call4.v0 main_call4.v1 (broadcastInDim S1x64 ![1] bcast_S64_S1x64_1),
    TRef.nullary main_call4.cst_0 (constant S_ .f32 0x48435000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S200000x64 ![0, 1] bcast_S1x64_S200000x64_0_1),
    TRef.binary (.of main_v171 : TRef sig ⟨S200000x64, .f32⟩) main_call4.v4 main_call4.v5 subf,
    TRef.binary main_call4.v5 main_call4.v5 main_call4.v6 mulf,
    TRef.unary (.of main_c_30 : TRef sig ⟨S_, .i32⟩) main_call4.v7 (sitofp .f32),
    TRef.nullary main_call4.cst_1 (constant S_ .f32 0x48435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S200000x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S64 ![] bcast_S_S64),
    TRef.ternary main_call4.v12 main_call4.v11 main_call4.call0.v1 main_call4.call0.v2 (fun p a b => select (broadcastInDim S64 ![] bcast_S_S64 p) a b),
    unary main_v178 main_v180 (broadcastInDim S1x64 ![1] bcast_S64_S1x64_1 : (⟨S64, .f32⟩ : BufTy).Contents (Elt F) → (⟨S1x64, .f32⟩ : BufTy).Contents (Elt F)),
    unary main_v180 main_v181 (broadcastInDim S200000x64 ![0, 1] bcast_S1x64_S200000x64_0_1 : (⟨S1x64, .f32⟩ : BufTy).Contents (Elt F) → (⟨S200000x64, .f32⟩ : BufTy).Contents (Elt F)),
    binary main_v171 main_v181 main_v182 (subf : (⟨S200000x64, .f32⟩ : BufTy).Contents (Elt F) → (⟨S200000x64, .f32⟩ : BufTy).Contents (Elt F) → (⟨S200000x64, .f32⟩ : BufTy).Contents (Elt F)),
    unary main_v173 main_v183 (broadcastInDim S1x64 ![1] bcast_S64_S1x64_1 : (⟨S64, .f32⟩ : BufTy).Contents (Elt F) → (⟨S1x64, .f32⟩ : BufTy).Contents (Elt F)),
    unary main_v183 main_v184 (broadcastInDim S200000x64 ![0, 1] bcast_S1x64_S200000x64_0_1 : (⟨S1x64, .f32⟩ : BufTy).Contents (Elt F) → (⟨S200000x64, .f32⟩ : BufTy).Contents (Elt F)),
    binary main_v184 main_v182 main_v185 (mulf : (⟨S200000x64, .f32⟩ : BufTy).Contents (Elt F) → (⟨S200000x64, .f32⟩ : BufTy).Contents (Elt F) → (⟨S200000x64, .f32⟩ : BufTy).Contents (Elt F)),
    nullary main_cst_31 (constant S_ .f32 0x3727C5AC#32),
    unary main_cst_31 main_v186 (broadcastInDim S64 ![] bcast_S_S64 : (⟨S_, .f32⟩ : BufTy).Contents (Elt F) → (⟨S64, .f32⟩ : BufTy).Contents (Elt F)),
    binary main_v179 main_v186 main_v187 (addf : (⟨S64, .f32⟩ : BufTy).Contents (Elt F) → (⟨S64, .f32⟩ : BufTy).Contents (Elt F) → (⟨S64, .f32⟩ : BufTy).Contents (Elt F)),
    unary main_v187 main_v188 (Host.sqrt : (⟨S64, .f32⟩ : BufTy).Contents (Elt F) → (⟨S64, .f32⟩ : BufTy).Contents (Elt F)),
    unary main_v188 main_v189 (broadcastInDim S1x64 ![1] bcast_S64_S1x64_1 : (⟨S64, .f32⟩ : BufTy).Contents (Elt F) → (⟨S1x64, .f32⟩ : BufTy).Contents (Elt F)),
    unary main_v189 main_v190 (broadcastInDim S200000x64 ![0, 1] bcast_S1x64_S200000x64_0_1 : (⟨S1x64, .f32⟩ : BufTy).Contents (Elt F) → (⟨S200000x64, .f32⟩ : BufTy).Contents (Elt F)),
    binary main_v185 main_v190 main_v191 (Host.divf : (⟨S200000x64, .f32⟩ : BufTy).Contents (Elt F) → (⟨S200000x64, .f32⟩ : BufTy).Contents (Elt F) → (⟨S200000x64, .f32⟩ : BufTy).Contents (Elt F)),
    unary main_v175 main_v192 (broadcastInDim S1x64 ![1] bcast_S64_S1x64_1 : (⟨S64, .f32⟩ : BufTy).Contents (Elt F) → (⟨S1x64, .f32⟩ : BufTy).Contents (Elt F)),
    unary main_v192 main_v193 (broadcastInDim S200000x64 ![0, 1] bcast_S1x64_S200000x64_0_1 : (⟨S1x64, .f32⟩ : BufTy).Contents (Elt F) → (⟨S200000x64, .f32⟩ : BufTy).Contents (Elt F)),
    binary main_v191 main_v193 main_v194 (addf : (⟨S200000x64, .f32⟩ : BufTy).Contents (Elt F) → (⟨S200000x64, .f32⟩ : BufTy).Contents (Elt F) → (⟨S200000x64, .f32⟩ : BufTy).Contents (Elt F)),
    unary main_arg9 main_v195 ((extractStridedSlice S1x1x64 ![0, 1, 0] · slices_S2x2x64_S1x1x64_0_1_0) : (⟨S2x2x64, .f32⟩ : BufTy).Contents (Elt F) → (⟨S1x1x64, .f32⟩ : BufTy).Contents (Elt F)),
    reshape main_v195 main_v196 rfl shapeCasts_S1x1x64_S64,
    unary main_arg10 main_v197 ((extractStridedSlice S1x1x64 ![0, 1, 0] · slices_S2x2x64_S1x1x64_0_1_0) : (⟨S2x2x64, .f32⟩ : BufTy).Contents (Elt F) → (⟨S1x1x64, .f32⟩ : BufTy).Contents (Elt F)),
    reshape main_v197 main_v198 rfl shapeCasts_S1x1x64_S64,
    nullary main_cst_32 (constant S_ .f32 0x00000000#32),
    binary main_v100 main_cst_32 main_v199 ((fun x v => Host.reduceAdd x v reducesTo_S200000x64_S64_d0 h_S_) : (⟨S200000x64, .f32⟩ : BufTy).Contents (Elt F) → (⟨S_, .f32⟩ : BufTy).Contents (Elt F) → (⟨S64, .f32⟩ : BufTy).Contents (Elt F)),
    nullary main_cst_33 (constant S_ .f32 0x48435000#32),
    unary main_cst_33 main_v200 (broadcastInDim S64 ![] bcast_S_S64 : (⟨S_, .f32⟩ : BufTy).Contents (Elt F) → (⟨S64, .f32⟩ : BufTy).Contents (Elt F)),
    binary main_v199 main_v200 main_v201 (Host.divf : (⟨S64, .f32⟩ : BufTy).Contents (Elt F) → (⟨S64, .f32⟩ : BufTy).Contents (Elt F) → (⟨S64, .f32⟩ : BufTy).Contents (Elt F)),
    nullary main_c_34 (constantI S_ 32 0#32),
    TRef.nullary main_call5.cst (constant S_ .f32 0x00000000#32),
    TRef.binary (.of main_v100 : TRef sig ⟨S200000x64, .f32⟩) main_call5.cst main_call5.v0 (fun x v => Host.reduceAdd x v reducesTo_S200000x64_S64_d0 h_S_),
    TRef.unary main_call5.v0 main_call5.v1 (broadcastInDim S1x64 ![1] bcast_S64_S1x64_1),
    TRef.nullary main_call5.cst_0 (constant S_ .f32 0x48435000#32),
    TRef.unary main_call5.cst_0 main_call5.v2 (broadcastInDim S1x64 ![] bcast_S_S1x64),
    TRef.binary main_call5.v1 main_call5.v2 main_call5.v3 Host.divf,
    TRef.unary main_call5.v3 main_call5.v4 (broadcastInDim S200000x64 ![0, 1] bcast_S1x64_S200000x64_0_1),
    TRef.binary (.of main_v100 : TRef sig ⟨S200000x64, .f32⟩) main_call5.v4 main_call5.v5 subf,
    TRef.binary main_call5.v5 main_call5.v5 main_call5.v6 mulf,
    TRef.unary (.of main_c_34 : TRef sig ⟨S_, .i32⟩) main_call5.v7 (sitofp .f32),
    TRef.nullary main_call5.cst_1 (constant S_ .f32 0x48435000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S200000x64_S64_d0 h_S_),
    TRef.unary main_call5.v8 main_call5.v10 (broadcastInDim S64 ![] bcast_S_S64),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S64 ![] bcast_S_S64),
    TRef.ternary main_call5.v12 main_call5.v11 main_call5.call0.v1 main_call5.call0.v2 (fun p a b => select (broadcastInDim S64 ![] bcast_S_S64 p) a b) ]

end Cert.ReferenceIdeal.Hand

end
-- ==== Proof.Ref.Win3.lean ====
/-
  Window 3 of the reference program is the straight line of its operations `ops3`: with the functions the window calls
  (if any) opened at their calls and the call records at their fields, both sides are one chain of `hlo` steps once
  sequencing is reassociated. Every operation of the line touches TensorCore references only and determines its results.
-/
import proofs.«151172_j14164802142730_2_alg».proof.Proof.Ref.Ops3

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
/-- The window is `seq` of its list: unfolding the window, the bodies of the functions it calls and `seq`, and
    reassociating the binds (`bind_assoc`, `pure_bind`), leaves the same chain of steps on both sides (where the window
    ends in an operation of its own, up to the unit return `seq` appends, which is a computation). -/
theorem main_part3_eq (c : Dev nD) : main_part3 (F := F) c = seq ops3 := by
  simp only [main_part3, fn_var.body, fn_where_0.body, seq, bind_assoc, pure_bind]

/-- Each operation of the window touches TensorCore references only. -/
theorem ops3_sub : (ops3 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

set_option maxRecDepth 4096 in
/-- No operation of the window leaves a result undetermined. -/
theorem ops3_fresh : ∀ op ∈ (ops3 : List (HloOp τ sig (Elt F))), op.fresh = ∅ := by
  intro _ h
  repeat (cases h with | head => rfl | tail _ h => ?_)
  exact nomatch h

end Cert.ReferenceIdeal.Hand

end
-- ==== Proof.Ref.Ops4.lean ====
/- Window 4 of the reference program, as the list of its 60 operations in order; an operation of a
   module-local function stands at its call, over that call's buffers. -/
import proofs.«151172_j14164802142730_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops4 : List (HloOp τ sig (Elt F)) :=
  [ unary main_v201 main_v203 (broadcastInDim S1x64 ![1] bcast_S64_S1x64_1 : (⟨S64, .f32⟩ : BufTy).Contents (Elt F) → (⟨S1x64, .f32⟩ : BufTy).Contents (Elt F)),
    unary main_v203 main_v204 (broadcastInDim S200000x64 ![0, 1] bcast_S1x64_S200000x64_0_1 : (⟨S1x64, .f32⟩ : BufTy).Contents (Elt F) → (⟨S200000x64, .f32⟩ : BufTy).Contents (Elt F)),
    binary main_v100 main_v204 main_v205 (subf : (⟨S200000x64, .f32⟩ : BufTy).Contents (Elt F) → (⟨S200000x64, .f32⟩ : BufTy).Contents (Elt F) → (⟨S200000x64, .f32⟩ : BufTy).Contents (Elt F)),
    unary main_v196 main_v206 (broadcastInDim S1x64 ![1] bcast_S64_S1x64_1 : (⟨S64, .f32⟩ : BufTy).Contents (Elt F) → (⟨S1x64, .f32⟩ : BufTy).Contents (Elt F)),
    unary main_v206 main_v207 (broadcastInDim S200000x64 ![0, 1] bcast_S1x64_S200000x64_0_1 : (⟨S1x64, .f32⟩ : BufTy).Contents (Elt F) → (⟨S200000x64, .f32⟩ : BufTy).Contents (Elt F)),
    binary main_v207 main_v205 main_v208 (mulf : (⟨S200000x64, .f32⟩ : BufTy).Contents (Elt F) → (⟨S200000x64, .f32⟩ : BufTy).Contents (Elt F) → (⟨S200000x64, .f32⟩ : BufTy).Contents (Elt F)),
    nullary main_cst_35 (constant S_ .f32 0x3727C5AC#32),
    unary main_cst_35 main_v209 (broadcastInDim S64 ![] bcast_S_S64 : (⟨S_, .f32⟩ : BufTy).Contents (Elt F) → (⟨S64, .f32⟩ : BufTy).Contents (Elt F)),
    binary main_v202 main_v209 main_v210 (addf : (⟨S64, .f32⟩ : BufTy).Contents (Elt F) → (⟨S64, .f32⟩ : BufTy).Contents (Elt F) → (⟨S64, .f32⟩ : BufTy).Contents (Elt F)),
    unary main_v210 main_v211 (Host.sqrt : (⟨S64, .f32⟩ : BufTy).Contents (Elt F) → (⟨S64, .f32⟩ : BufTy).Contents (Elt F)),
    unary main_v211 main_v212 (broadcastInDim S1x64 ![1] bcast_S64_S1x64_1 : (⟨S64, .f32⟩ : BufTy).Contents (Elt F) → (⟨S1x64, .f32⟩ : BufTy).Contents (Elt F)),
    unary main_v212 main_v213 (broadcastInDim S200000x64 ![0, 1] bcast_S1x64_S200000x64_0_1 : (⟨S1x64, .f32⟩ : BufTy).Contents (Elt F) → (⟨S200000x64, .f32⟩ : BufTy).Contents (Elt F)),
    binary main_v208 main_v213 main_v214 (Host.divf : (⟨S200000x64, .f32⟩ : BufTy).Contents (Elt F) → (⟨S200000x64, .f32⟩ : BufTy).Contents (Elt F) → (⟨S200000x64, .f32⟩ : BufTy).Contents (Elt F)),
    unary main_v198 main_v215 (broadcastInDim S1x64 ![1] bcast_S64_S1x64_1 : (⟨S64, .f32⟩ : BufTy).Contents (Elt F) → (⟨S1x64, .f32⟩ : BufTy).Contents (Elt F)),
    unary main_v215 main_v216 (broadcastInDim S200000x64 ![0, 1] bcast_S1x64_S200000x64_0_1 : (⟨S1x64, .f32⟩ : BufTy).Contents (Elt F) → (⟨S200000x64, .f32⟩ : BufTy).Contents (Elt F)),
    binary main_v214 main_v216 main_v217 (addf : (⟨S200000x64, .f32⟩ : BufTy).Contents (Elt F) → (⟨S200000x64, .f32⟩ : BufTy).Contents (Elt F) → (⟨S200000x64, .f32⟩ : BufTy).Contents (Elt F)),
    nullary main_cst_36 (constant S_ .f32 0x00000000#32),
    unary main_cst_36 main_v218 (broadcastInDim S200000x64 ![] bcast_S_S200000x64 : (⟨S_, .f32⟩ : BufTy).Contents (Elt F) → (⟨S200000x64, .f32⟩ : BufTy).Contents (Elt F)),
    binary main_v194 main_v218 main_v219 (cmpf .oge : (⟨S200000x64, .f32⟩ : BufTy).Contents (Elt F) → (⟨S200000x64, .f32⟩ : BufTy).Contents (Elt F) → (⟨S200000x64, .i1⟩ : BufTy).Contents (Elt F)),
    nullary main_cst_37 (constant S_ .f32 0x3C23D70A#32),
    unary main_cst_37 main_v220 (broadcastInDim S200000x64 ![] bcast_S_S200000x64 : (⟨S_, .f32⟩ : BufTy).Contents (Elt F) → (⟨S200000x64, .f32⟩ : BufTy).Contents (Elt F)),
    binary main_v220 main_v194 main_v221 (mulf : (⟨S200000x64, .f32⟩ : BufTy).Contents (Elt F) → (⟨S200000x64, .f32⟩ : BufTy).Contents (Elt F) → (⟨S200000x64, .f32⟩ : BufTy).Contents (Elt F)),
    TRef.ternary (.of main_v219 : TRef sig ⟨S200000x64, .i1⟩) (.of main_v194 : TRef sig ⟨S200000x64, .f32⟩) (.of main_v221 : TRef sig ⟨S200000x64, .f32⟩) main_call6.v0 select,
    nullary main_cst_38 (constant S_ .f32 0x00000000#32),
    unary main_cst_38 main_v223 (broadcastInDim S200000x64 ![] bcast_S_S200000x64 : (⟨S_, .f32⟩ : BufTy).Contents (Elt F) → (⟨S200000x64, .f32⟩ : BufTy).Contents (Elt F)),
    binary main_v217 main_v223 main_v224 (cmpf .oge : (⟨S200000x64, .f32⟩ : BufTy).Contents (Elt F) → (⟨S200000x64, .f32⟩ : BufTy).Contents (Elt F) → (⟨S200000x64, .i1⟩ : BufTy).Contents (Elt F)),
    nullary main_cst_39 (constant S_ .f32 0x3C23D70A#32),
    unary main_cst_39 main_v225 (broadcastInDim S200000x64 ![] bcast_S_S200000x64 : (⟨S_, .f32⟩ : BufTy).Contents (Elt F) → (⟨S200000x64, .f32⟩ : BufTy).Contents (Elt F)),
    binary main_v225 main_v217 main_v226 (mulf : (⟨S200000x64, .f32⟩ : BufTy).Contents (Elt F) → (⟨S200000x64, .f32⟩ : BufTy).Contents (Elt F) → (⟨S200000x64, .f32⟩ : BufTy).Contents (Elt F)),
    TRef.ternary (.of main_v224 : TRef sig ⟨S200000x64, .i1⟩) (.of main_v217 : TRef sig ⟨S200000x64, .f32⟩) (.of main_v226 : TRef sig ⟨S200000x64, .f32⟩) main_call7.v0 select,
    unary main_arg6 main_v228 ((extractStridedSlice S1x1x64x64 ![1, 0, 0, 0] · slices_S2x3x64x64_S1x1x64x64_1_0_0_0) : (⟨S2x3x64x64, .f32⟩ : BufTy).Contents (Elt F) → (⟨S1x1x64x64, .f32⟩ : BufTy).Contents (Elt F)),
    reshape main_v228 main_v229 rfl shapeCasts_S1x1x64x64_S64x64,
    unary main_arg7 main_v230 ((extractStridedSlice S1x1x64x64 ![1, 0, 0, 0] · slices_S2x3x64x64_S1x1x64x64_1_0_0_0) : (⟨S2x3x64x64, .f32⟩ : BufTy).Contents (Elt F) → (⟨S1x1x64x64, .f32⟩ : BufTy).Contents (Elt F)),
    reshape main_v230 main_v231 rfl shapeCasts_S1x1x64x64_S64x64,
    unary main_arg8 main_v232 ((extractStridedSlice S1x1x64 ![1, 0, 0] · slices_S2x3x64_S1x1x64_1_0_0) : (⟨S2x3x64, .f32⟩ : BufTy).Contents (Elt F) → (⟨S1x1x64, .f32⟩ : BufTy).Contents (Elt F)),
    reshape main_v232 main_v233 rfl shapeCasts_S1x1x64_S64,
    unary main_arg15 main_v234 ((extractStridedSlice S1x1000000 ![0, 0] · slices_S2x1000000_S1x1000000_0_0) : (⟨S2x1000000, .i32⟩ : BufTy).Contents (Elt F) → (⟨S1x1000000, .i32⟩ : BufTy).Contents (Elt F)),
    reshape main_v234 main_v235 rfl shapeCasts_S1x1000000_S1000000,
    unary main_arg15 main_v236 ((extractStridedSlice S1x1000000 ![1, 0] · slices_S2x1000000_S1x1000000_1_0) : (⟨S2x1000000, .i32⟩ : BufTy).Contents (Elt F) → (⟨S1x1000000, .i32⟩ : BufTy).Contents (Elt F)),
    reshape main_v236 main_v237 rfl shapeCasts_S1x1000000_S1000000,
    nullary main_c_40 (constantI S_ 32 0#32),
    unary main_c_40 main_v238 (broadcastInDim S1000000 ![] bcast_S_S1000000 : (⟨S_, .i32⟩ : BufTy).Contents (Elt F) → (⟨S1000000, .i32⟩ : BufTy).Contents (Elt F)),
    binary main_v235 main_v238 main_v239 (cmpi .slt : (⟨S1000000, .i32⟩ : BufTy).Contents (Elt F) → (⟨S1000000, .i32⟩ : BufTy).Contents (Elt F) → (⟨S1000000, .i1⟩ : BufTy).Contents (Elt F)),
    nullary main_c_41 (constantI S_ 32 200000#32),
    unary main_c_41 main_v240 (broadcastInDim S1000000 ![] bcast_S_S1000000 : (⟨S_, .i32⟩ : BufTy).Contents (Elt F) → (⟨S1000000, .i32⟩ : BufTy).Contents (Elt F)),
    binary main_v235 main_v240 main_v241 (addi : (⟨S1000000, .i32⟩ : BufTy).Contents (Elt F) → (⟨S1000000, .i32⟩ : BufTy).Contents (Elt F) → (⟨S1000000, .i32⟩ : BufTy).Contents (Elt F)),
    ternary main_v239 main_v241 main_v235 main_v242 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v242 main_v243 (broadcastInDim S1000000x1 ![0] bcast_S1000000_S1000000x1_0 : (⟨S1000000, .i32⟩ : BufTy).Contents (Elt F) → (⟨S1000000x1, .i32⟩ : BufTy).Contents (Elt F)),
    binary main_v222 main_v243 main_v244 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    nullary main_cst_42 (constant S_ .f32 0x00000000#32),
    unary main_cst_42 main_v245 (broadcastInDim S200000x64 ![] bcast_S_S200000x64 : (⟨S_, .f32⟩ : BufTy).Contents (Elt F) → (⟨S200000x64, .f32⟩ : BufTy).Contents (Elt F)),
    unary main_v237 main_v246 (broadcastInDim S1000000x1 ![0] bcast_S1000000_S1000000x1_0 : (⟨S1000000, .i32⟩ : BufTy).Contents (Elt F) → (⟨S1000000x1, .i32⟩ : BufTy).Contents (Elt F)),
    ternary main_v245 main_v246 main_v244 main_v247 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    nullary main_cst_43 (constant S_ .f32 0x3F800000#32),
    unary main_cst_43 main_v248 (broadcastInDim S1000000 ![] bcast_S_S1000000 : (⟨S_, .f32⟩ : BufTy).Contents (Elt F) → (⟨S1000000, .f32⟩ : BufTy).Contents (Elt F)),
    nullary main_cst_44 (constant S_ .f32 0x00000000#32),
    unary main_cst_44 main_v249 (broadcastInDim S200000 ![] bcast_S_S200000 : (⟨S_, .f32⟩ : BufTy).Contents (Elt F) → (⟨S200000, .f32⟩ : BufTy).Contents (Elt F)),
    unary main_v237 main_v250 (broadcastInDim S1000000x1 ![0] bcast_S1000000_S1000000x1_0 : (⟨S1000000, .i32⟩ : BufTy).Contents (Elt F) → (⟨S1000000x1, .i32⟩ : BufTy).Contents (Elt F)),
    ternary main_v249 main_v250 main_v248 main_v251 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)),
    unary main_v251 main_v252 (broadcastInDim S200000x1 ![0] bcast_S200000_S200000x1_0 : (⟨S200000, .f32⟩ : BufTy).Contents (Elt F) → (⟨S200000x1, .f32⟩ : BufTy).Contents (Elt F)) ]

end Cert.ReferenceIdeal.Hand

end
-- ==== Proof.Ref.Win4.lean ====
/-
  Window 4 of the reference program is the straight line of its operations `ops4`: with the functions the window calls
  (if any) opened at their calls and the call records at their fields, both sides are one chain of `hlo` steps once
  sequencing is reassociated. Every operation of the line touches TensorCore references only and determines its results.
-/
import proofs.«151172_j14164802142730_2_alg».proof.Proof.Ref.Ops4

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
/-- The window is `seq` of its list: unfolding the window, the bodies of the functions it calls and `seq`, and
    reassociating the binds (`bind_assoc`, `pure_bind`), leaves the same chain of steps on both sides (where the window
    ends in an operation of its own, up to the unit return `seq` appends, which is a computation). -/
theorem main_part4_eq (c : Dev nD) : main_part4 (F := F) c = seq ops4 := by
  simp only [main_part4, fn_where.body, seq, bind_assoc, pure_bind]
  rfl

/-- Each operation of the window touches TensorCore references only. -/
theorem ops4_sub : (ops4 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

set_option maxRecDepth 4096 in
/-- No operation of the window leaves a result undetermined. -/
theorem ops4_fresh : ∀ op ∈ (ops4 : List (HloOp τ sig (Elt F))), op.fresh = ∅ := by
  intro _ h
  repeat (cases h with | head => rfl | tail _ h => ?_)
  exact nomatch h

end Cert.ReferenceIdeal.Hand

end
-- ==== Proof.Ref.Ops5.lean ====
/- Window 5 of the reference program, as the list of its 60 operations in order; an operation of a
   module-local function stands at its call, over that call's buffers. -/
import proofs.«151172_j14164802142730_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops5 : List (HloOp τ sig (Elt F)) :=
  [ nullary main_cst_45 (constant S_ .f32 0x3F800000#32),
    unary main_cst_45 main_v253 (broadcastInDim S200000x1 ![] bcast_S_S200000x1 : (⟨S_, .f32⟩ : BufTy).Contents (Elt F) → (⟨S200000x1, .f32⟩ : BufTy).Contents (Elt F)),
    binary main_v252 main_v253 main_v254 (maximumf : (⟨S200000x1, .f32⟩ : BufTy).Contents (Elt F) → (⟨S200000x1, .f32⟩ : BufTy).Contents (Elt F) → (⟨S200000x1, .f32⟩ : BufTy).Contents (Elt F)),
    unary main_v254 main_v255 (broadcastInDim S200000x64 ![0, 1] bcast_S200000x1_S200000x64_0_1 : (⟨S200000x1, .f32⟩ : BufTy).Contents (Elt F) → (⟨S200000x64, .f32⟩ : BufTy).Contents (Elt F)),
    binary main_v247 main_v255 main_v256 (Host.divf : (⟨S200000x64, .f32⟩ : BufTy).Contents (Elt F) → (⟨S200000x64, .f32⟩ : BufTy).Contents (Elt F) → (⟨S200000x64, .f32⟩ : BufTy).Contents (Elt F)),
    binary main_v227 main_v229 main_v257 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v256 main_v231 main_v258 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v257 main_v258 main_v259 (addf : (⟨S200000x64, .f32⟩ : BufTy).Contents (Elt F) → (⟨S200000x64, .f32⟩ : BufTy).Contents (Elt F) → (⟨S200000x64, .f32⟩ : BufTy).Contents (Elt F)),
    unary main_v233 main_v260 (broadcastInDim S1x64 ![1] bcast_S64_S1x64_1 : (⟨S64, .f32⟩ : BufTy).Contents (Elt F) → (⟨S1x64, .f32⟩ : BufTy).Contents (Elt F)),
    unary main_v260 main_v261 (broadcastInDim S200000x64 ![0, 1] bcast_S1x64_S200000x64_0_1 : (⟨S1x64, .f32⟩ : BufTy).Contents (Elt F) → (⟨S200000x64, .f32⟩ : BufTy).Contents (Elt F)),
    binary main_v259 main_v261 main_v262 (addf : (⟨S200000x64, .f32⟩ : BufTy).Contents (Elt F) → (⟨S200000x64, .f32⟩ : BufTy).Contents (Elt F) → (⟨S200000x64, .f32⟩ : BufTy).Contents (Elt F)),
    unary main_arg6 main_v263 ((extractStridedSlice S1x1x64x64 ![1, 1, 0, 0] · slices_S2x3x64x64_S1x1x64x64_1_1_0_0) : (⟨S2x3x64x64, .f32⟩ : BufTy).Contents (Elt F) → (⟨S1x1x64x64, .f32⟩ : BufTy).Contents (Elt F)),
    reshape main_v263 main_v264 rfl shapeCasts_S1x1x64x64_S64x64,
    unary main_arg7 main_v265 ((extractStridedSlice S1x1x64x64 ![1, 1, 0, 0] · slices_S2x3x64x64_S1x1x64x64_1_1_0_0) : (⟨S2x3x64x64, .f32⟩ : BufTy).Contents (Elt F) → (⟨S1x1x64x64, .f32⟩ : BufTy).Contents (Elt F)),
    reshape main_v265 main_v266 rfl shapeCasts_S1x1x64x64_S64x64,
    unary main_arg8 main_v267 ((extractStridedSlice S1x1x64 ![1, 1, 0] · slices_S2x3x64_S1x1x64_1_1_0) : (⟨S2x3x64, .f32⟩ : BufTy).Contents (Elt F) → (⟨S1x1x64, .f32⟩ : BufTy).Contents (Elt F)),
    reshape main_v267 main_v268 rfl shapeCasts_S1x1x64_S64,
    unary main_arg16 main_v269 ((extractStridedSlice S1x1000000 ![0, 0] · slices_S2x1000000_S1x1000000_0_0) : (⟨S2x1000000, .i32⟩ : BufTy).Contents (Elt F) → (⟨S1x1000000, .i32⟩ : BufTy).Contents (Elt F)),
    reshape main_v269 main_v270 rfl shapeCasts_S1x1000000_S1000000,
    unary main_arg16 main_v271 ((extractStridedSlice S1x1000000 ![1, 0] · slices_S2x1000000_S1x1000000_1_0) : (⟨S2x1000000, .i32⟩ : BufTy).Contents (Elt F) → (⟨S1x1000000, .i32⟩ : BufTy).Contents (Elt F)),
    reshape main_v271 main_v272 rfl shapeCasts_S1x1000000_S1000000,
    nullary main_c_46 (constantI S_ 32 0#32),
    unary main_c_46 main_v273 (broadcastInDim S1000000 ![] bcast_S_S1000000 : (⟨S_, .i32⟩ : BufTy).Contents (Elt F) → (⟨S1000000, .i32⟩ : BufTy).Contents (Elt F)),
    binary main_v270 main_v273 main_v274 (cmpi .slt : (⟨S1000000, .i32⟩ : BufTy).Contents (Elt F) → (⟨S1000000, .i32⟩ : BufTy).Contents (Elt F) → (⟨S1000000, .i1⟩ : BufTy).Contents (Elt F)),
    nullary main_c_47 (constantI S_ 32 200000#32),
    unary main_c_47 main_v275 (broadcastInDim S1000000 ![] bcast_S_S1000000 : (⟨S_, .i32⟩ : BufTy).Contents (Elt F) → (⟨S1000000, .i32⟩ : BufTy).Contents (Elt F)),
    binary main_v270 main_v275 main_v276 (addi : (⟨S1000000, .i32⟩ : BufTy).Contents (Elt F) → (⟨S1000000, .i32⟩ : BufTy).Contents (Elt F) → (⟨S1000000, .i32⟩ : BufTy).Contents (Elt F)),
    ternary main_v274 main_v276 main_v270 main_v277 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v277 main_v278 (broadcastInDim S1000000x1 ![0] bcast_S1000000_S1000000x1_0 : (⟨S1000000, .i32⟩ : BufTy).Contents (Elt F) → (⟨S1000000x1, .i32⟩ : BufTy).Contents (Elt F)),
    binary main_v227 main_v278 main_v279 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    nullary main_cst_48 (constant S_ .f32 0x00000000#32),
    unary main_cst_48 main_v280 (broadcastInDim S200000x64 ![] bcast_S_S200000x64 : (⟨S_, .f32⟩ : BufTy).Contents (Elt F) → (⟨S200000x64, .f32⟩ : BufTy).Contents (Elt F)),
    unary main_v272 main_v281 (broadcastInDim S1000000x1 ![0] bcast_S1000000_S1000000x1_0 : (⟨S1000000, .i32⟩ : BufTy).Contents (Elt F) → (⟨S1000000x1, .i32⟩ : BufTy).Contents (Elt F)),
    ternary main_v280 main_v281 main_v279 main_v282 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    nullary main_cst_49 (constant S_ .f32 0x3F800000#32),
    unary main_cst_49 main_v283 (broadcastInDim S1000000 ![] bcast_S_S1000000 : (⟨S_, .f32⟩ : BufTy).Contents (Elt F) → (⟨S1000000, .f32⟩ : BufTy).Contents (Elt F)),
    nullary main_cst_50 (constant S_ .f32 0x00000000#32),
    unary main_cst_50 main_v284 (broadcastInDim S200000 ![] bcast_S_S200000 : (⟨S_, .f32⟩ : BufTy).Contents (Elt F) → (⟨S200000, .f32⟩ : BufTy).Contents (Elt F)),
    unary main_v272 main_v285 (broadcastInDim S1000000x1 ![0] bcast_S1000000_S1000000x1_0 : (⟨S1000000, .i32⟩ : BufTy).Contents (Elt F) → (⟨S1000000x1, .i32⟩ : BufTy).Contents (Elt F)),
    ternary main_v284 main_v285 main_v283 main_v286 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)),
    unary main_v286 main_v287 (broadcastInDim S200000x1 ![0] bcast_S200000_S200000x1_0 : (⟨S200000, .f32⟩ : BufTy).Contents (Elt F) → (⟨S200000x1, .f32⟩ : BufTy).Contents (Elt F)),
    nullary main_cst_51 (constant S_ .f32 0x3F800000#32),
    unary main_cst_51 main_v288 (broadcastInDim S200000x1 ![] bcast_S_S200000x1 : (⟨S_, .f32⟩ : BufTy).Contents (Elt F) → (⟨S200000x1, .f32⟩ : BufTy).Contents (Elt F)),
    binary main_v287 main_v288 main_v289 (maximumf : (⟨S200000x1, .f32⟩ : BufTy).Contents (Elt F) → (⟨S200000x1, .f32⟩ : BufTy).Contents (Elt F) → (⟨S200000x1, .f32⟩ : BufTy).Contents (Elt F)),
    unary main_v289 main_v290 (broadcastInDim S200000x64 ![0, 1] bcast_S200000x1_S200000x64_0_1 : (⟨S200000x1, .f32⟩ : BufTy).Contents (Elt F) → (⟨S200000x64, .f32⟩ : BufTy).Contents (Elt F)),
    binary main_v282 main_v290 main_v291 (Host.divf : (⟨S200000x64, .f32⟩ : BufTy).Contents (Elt F) → (⟨S200000x64, .f32⟩ : BufTy).Contents (Elt F) → (⟨S200000x64, .f32⟩ : BufTy).Contents (Elt F)),
    binary main_v222 main_v264 main_v292 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v291 main_v266 main_v293 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v292 main_v293 main_v294 (addf : (⟨S200000x64, .f32⟩ : BufTy).Contents (Elt F) → (⟨S200000x64, .f32⟩ : BufTy).Contents (Elt F) → (⟨S200000x64, .f32⟩ : BufTy).Contents (Elt F)),
    unary main_v268 main_v295 (broadcastInDim S1x64 ![1] bcast_S64_S1x64_1 : (⟨S64, .f32⟩ : BufTy).Contents (Elt F) → (⟨S1x64, .f32⟩ : BufTy).Contents (Elt F)),
    unary main_v295 main_v296 (broadcastInDim S200000x64 ![0, 1] bcast_S1x64_S200000x64_0_1 : (⟨S1x64, .f32⟩ : BufTy).Contents (Elt F) → (⟨S200000x64, .f32⟩ : BufTy).Contents (Elt F)),
    binary main_v294 main_v296 main_v297 (addf : (⟨S200000x64, .f32⟩ : BufTy).Contents (Elt F) → (⟨S200000x64, .f32⟩ : BufTy).Contents (Elt F) → (⟨S200000x64, .f32⟩ : BufTy).Contents (Elt F)),
    unary main_arg6 main_v298 ((extractStridedSlice S1x1x64x64 ![1, 2, 0, 0] · slices_S2x3x64x64_S1x1x64x64_1_2_0_0) : (⟨S2x3x64x64, .f32⟩ : BufTy).Contents (Elt F) → (⟨S1x1x64x64, .f32⟩ : BufTy).Contents (Elt F)),
    reshape main_v298 main_v299 rfl shapeCasts_S1x1x64x64_S64x64,
    unary main_arg7 main_v300 ((extractStridedSlice S1x1x64x64 ![1, 2, 0, 0] · slices_S2x3x64x64_S1x1x64x64_1_2_0_0) : (⟨S2x3x64x64, .f32⟩ : BufTy).Contents (Elt F) → (⟨S1x1x64x64, .f32⟩ : BufTy).Contents (Elt F)),
    reshape main_v300 main_v301 rfl shapeCasts_S1x1x64x64_S64x64,
    unary main_arg8 main_v302 ((extractStridedSlice S1x1x64 ![1, 2, 0] · slices_S2x3x64_S1x1x64_1_2_0) : (⟨S2x3x64, .f32⟩ : BufTy).Contents (Elt F) → (⟨S1x1x64, .f32⟩ : BufTy).Contents (Elt F)),
    reshape main_v302 main_v303 rfl shapeCasts_S1x1x64_S64,
    unary main_arg17 main_v304 ((extractStridedSlice S1x1000000 ![0, 0] · slices_S2x1000000_S1x1000000_0_0) : (⟨S2x1000000, .i32⟩ : BufTy).Contents (Elt F) → (⟨S1x1000000, .i32⟩ : BufTy).Contents (Elt F)),
    reshape main_v304 main_v305 rfl shapeCasts_S1x1000000_S1000000 ]

end Cert.ReferenceIdeal.Hand

end
-- ==== Proof.Ref.Win5.lean ====
/-
  Window 5 of the reference program is the straight line of its operations `ops5`: with the functions the window calls
  (if any) opened at their calls and the call records at their fields, both sides are one chain of `hlo` steps once
  sequencing is reassociated. Every operation of the line touches TensorCore references only and determines its results.
-/
import proofs.«151172_j14164802142730_2_alg».proof.Proof.Ref.Ops5

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
/-- The window is `seq` of its list: unfolding the window, the bodies of the functions it calls and `seq`, and
    reassociating the binds (`bind_assoc`, `pure_bind`), leaves the same chain of steps on both sides (where the window
    ends in an operation of its own, up to the unit return `seq` appends, which is a computation). -/
theorem main_part5_eq (c : Dev nD) : main_part5 (F := F) c = seq ops5 := by
  simp only [main_part5, seq, bind_assoc, pure_bind]
  rfl

/-- Each operation of the window touches TensorCore references only. -/
theorem ops5_sub : (ops5 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

set_option maxRecDepth 4096 in
/-- No operation of the window leaves a result undetermined. -/
theorem ops5_fresh : ∀ op ∈ (ops5 : List (HloOp τ sig (Elt F))), op.fresh = ∅ := by
  intro _ h
  repeat (cases h with | head => rfl | tail _ h => ?_)
  exact nomatch h

end Cert.ReferenceIdeal.Hand

end
-- ==== Proof.Ref.Ops6.lean ====
/- Window 6 of the reference program, as the list of its 81 operations in order; an operation of a
   module-local function stands at its call, over that call's buffers. -/
import proofs.«151172_j14164802142730_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops6 : List (HloOp τ sig (Elt F)) :=
  [ unary main_arg17 main_v306 ((extractStridedSlice S1x1000000 ![1, 0] · slices_S2x1000000_S1x1000000_1_0) : (⟨S2x1000000, .i32⟩ : BufTy).Contents (Elt F) → (⟨S1x1000000, .i32⟩ : BufTy).Contents (Elt F)),
    reshape main_v306 main_v307 rfl shapeCasts_S1x1000000_S1000000,
    nullary main_c_52 (constantI S_ 32 0#32),
    unary main_c_52 main_v308 (broadcastInDim S1000000 ![] bcast_S_S1000000 : (⟨S_, .i32⟩ : BufTy).Contents (Elt F) → (⟨S1000000, .i32⟩ : BufTy).Contents (Elt F)),
    binary main_v305 main_v308 main_v309 (cmpi .slt : (⟨S1000000, .i32⟩ : BufTy).Contents (Elt F) → (⟨S1000000, .i32⟩ : BufTy).Contents (Elt F) → (⟨S1000000, .i1⟩ : BufTy).Contents (Elt F)),
    nullary main_c_53 (constantI S_ 32 200000#32),
    unary main_c_53 main_v310 (broadcastInDim S1000000 ![] bcast_S_S1000000 : (⟨S_, .i32⟩ : BufTy).Contents (Elt F) → (⟨S1000000, .i32⟩ : BufTy).Contents (Elt F)),
    binary main_v305 main_v310 main_v311 (addi : (⟨S1000000, .i32⟩ : BufTy).Contents (Elt F) → (⟨S1000000, .i32⟩ : BufTy).Contents (Elt F) → (⟨S1000000, .i32⟩ : BufTy).Contents (Elt F)),
    ternary main_v309 main_v311 main_v305 main_v312 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v312 main_v313 (broadcastInDim S1000000x1 ![0] bcast_S1000000_S1000000x1_0 : (⟨S1000000, .i32⟩ : BufTy).Contents (Elt F) → (⟨S1000000x1, .i32⟩ : BufTy).Contents (Elt F)),
    binary main_v222 main_v313 main_v314 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    nullary main_cst_54 (constant S_ .f32 0x00000000#32),
    unary main_cst_54 main_v315 (broadcastInDim S200000x64 ![] bcast_S_S200000x64 : (⟨S_, .f32⟩ : BufTy).Contents (Elt F) → (⟨S200000x64, .f32⟩ : BufTy).Contents (Elt F)),
    unary main_v307 main_v316 (broadcastInDim S1000000x1 ![0] bcast_S1000000_S1000000x1_0 : (⟨S1000000, .i32⟩ : BufTy).Contents (Elt F) → (⟨S1000000x1, .i32⟩ : BufTy).Contents (Elt F)),
    ternary main_v315 main_v316 main_v314 main_v317 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    nullary main_cst_55 (constant S_ .f32 0x3F800000#32),
    unary main_cst_55 main_v318 (broadcastInDim S1000000 ![] bcast_S_S1000000 : (⟨S_, .f32⟩ : BufTy).Contents (Elt F) → (⟨S1000000, .f32⟩ : BufTy).Contents (Elt F)),
    nullary main_cst_56 (constant S_ .f32 0x00000000#32),
    unary main_cst_56 main_v319 (broadcastInDim S200000 ![] bcast_S_S200000 : (⟨S_, .f32⟩ : BufTy).Contents (Elt F) → (⟨S200000, .f32⟩ : BufTy).Contents (Elt F)),
    unary main_v307 main_v320 (broadcastInDim S1000000x1 ![0] bcast_S1000000_S1000000x1_0 : (⟨S1000000, .i32⟩ : BufTy).Contents (Elt F) → (⟨S1000000x1, .i32⟩ : BufTy).Contents (Elt F)),
    ternary main_v319 main_v320 main_v318 main_v321 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)),
    unary main_v321 main_v322 (broadcastInDim S200000x1 ![0] bcast_S200000_S200000x1_0 : (⟨S200000, .f32⟩ : BufTy).Contents (Elt F) → (⟨S200000x1, .f32⟩ : BufTy).Contents (Elt F)),
    nullary main_cst_57 (constant S_ .f32 0x3F800000#32),
    unary main_cst_57 main_v323 (broadcastInDim S200000x1 ![] bcast_S_S200000x1 : (⟨S_, .f32⟩ : BufTy).Contents (Elt F) → (⟨S200000x1, .f32⟩ : BufTy).Contents (Elt F)),
    binary main_v322 main_v323 main_v324 (maximumf : (⟨S200000x1, .f32⟩ : BufTy).Contents (Elt F) → (⟨S200000x1, .f32⟩ : BufTy).Contents (Elt F) → (⟨S200000x1, .f32⟩ : BufTy).Contents (Elt F)),
    unary main_v324 main_v325 (broadcastInDim S200000x64 ![0, 1] bcast_S200000x1_S200000x64_0_1 : (⟨S200000x1, .f32⟩ : BufTy).Contents (Elt F) → (⟨S200000x64, .f32⟩ : BufTy).Contents (Elt F)),
    binary main_v317 main_v325 main_v326 (Host.divf : (⟨S200000x64, .f32⟩ : BufTy).Contents (Elt F) → (⟨S200000x64, .f32⟩ : BufTy).Contents (Elt F) → (⟨S200000x64, .f32⟩ : BufTy).Contents (Elt F)),
    binary main_v222 main_v299 main_v327 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v326 main_v301 main_v328 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v327 main_v328 main_v329 (addf : (⟨S200000x64, .f32⟩ : BufTy).Contents (Elt F) → (⟨S200000x64, .f32⟩ : BufTy).Contents (Elt F) → (⟨S200000x64, .f32⟩ : BufTy).Contents (Elt F)),
    unary main_v303 main_v330 (broadcastInDim S1x64 ![1] bcast_S64_S1x64_1 : (⟨S64, .f32⟩ : BufTy).Contents (Elt F) → (⟨S1x64, .f32⟩ : BufTy).Contents (Elt F)),
    unary main_v330 main_v331 (broadcastInDim S200000x64 ![0, 1] bcast_S1x64_S200000x64_0_1 : (⟨S1x64, .f32⟩ : BufTy).Contents (Elt F) → (⟨S200000x64, .f32⟩ : BufTy).Contents (Elt F)),
    binary main_v329 main_v331 main_v332 (addf : (⟨S200000x64, .f32⟩ : BufTy).Contents (Elt F) → (⟨S200000x64, .f32⟩ : BufTy).Contents (Elt F) → (⟨S200000x64, .f32⟩ : BufTy).Contents (Elt F)),
    binary main_v297 main_v332 main_v333 (addf : (⟨S200000x64, .f32⟩ : BufTy).Contents (Elt F) → (⟨S200000x64, .f32⟩ : BufTy).Contents (Elt F) → (⟨S200000x64, .f32⟩ : BufTy).Contents (Elt F)),
    unary main_arg9 main_v334 ((extractStridedSlice S1x1x64 ![1, 0, 0] · slices_S2x2x64_S1x1x64_1_0_0) : (⟨S2x2x64, .f32⟩ : BufTy).Contents (Elt F) → (⟨S1x1x64, .f32⟩ : BufTy).Contents (Elt F)),
    reshape main_v334 main_v335 rfl shapeCasts_S1x1x64_S64,
    unary main_arg10 main_v336 ((extractStridedSlice S1x1x64 ![1, 0, 0] · slices_S2x2x64_S1x1x64_1_0_0) : (⟨S2x2x64, .f32⟩ : BufTy).Contents (Elt F) → (⟨S1x1x64, .f32⟩ : BufTy).Contents (Elt F)),
    reshape main_v336 main_v337 rfl shapeCasts_S1x1x64_S64,
    nullary main_cst_58 (constant S_ .f32 0x00000000#32),
    binary main_v333 main_cst_58 main_v338 ((fun x v => Host.reduceAdd x v reducesTo_S200000x64_S64_d0 h_S_) : (⟨S200000x64, .f32⟩ : BufTy).Contents (Elt F) → (⟨S_, .f32⟩ : BufTy).Contents (Elt F) → (⟨S64, .f32⟩ : BufTy).Contents (Elt F)),
    nullary main_cst_59 (constant S_ .f32 0x48435000#32),
    unary main_cst_59 main_v339 (broadcastInDim S64 ![] bcast_S_S64 : (⟨S_, .f32⟩ : BufTy).Contents (Elt F) → (⟨S64, .f32⟩ : BufTy).Contents (Elt F)),
    binary main_v338 main_v339 main_v340 (Host.divf : (⟨S64, .f32⟩ : BufTy).Contents (Elt F) → (⟨S64, .f32⟩ : BufTy).Contents (Elt F) → (⟨S64, .f32⟩ : BufTy).Contents (Elt F)),
    nullary main_c_60 (constantI S_ 32 0#32),
    TRef.nullary main_call8.cst (constant S_ .f32 0x00000000#32),
    TRef.binary (.of main_v333 : TRef sig ⟨S200000x64, .f32⟩) main_call8.cst main_call8.v0 (fun x v => Host.reduceAdd x v reducesTo_S200000x64_S64_d0 h_S_),
    TRef.unary main_call8.v0 main_call8.v1 (broadcastInDim S1x64 ![1] bcast_S64_S1x64_1),
    TRef.nullary main_call8.cst_0 (constant S_ .f32 0x48435000#32),
    TRef.unary main_call8.cst_0 main_call8.v2 (broadcastInDim S1x64 ![] bcast_S_S1x64),
    TRef.binary main_call8.v1 main_call8.v2 main_call8.v3 Host.divf,
    TRef.unary main_call8.v3 main_call8.v4 (broadcastInDim S200000x64 ![0, 1] bcast_S1x64_S200000x64_0_1),
    TRef.binary (.of main_v333 : TRef sig ⟨S200000x64, .f32⟩) main_call8.v4 main_call8.v5 subf,
    TRef.binary main_call8.v5 main_call8.v5 main_call8.v6 mulf,
    TRef.unary (.of main_c_60 : TRef sig ⟨S_, .i32⟩) main_call8.v7 (sitofp .f32),
    TRef.nullary main_call8.cst_1 (constant S_ .f32 0x48435000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S200000x64_S64_d0 h_S_),
    TRef.unary main_call8.v8 main_call8.v10 (broadcastInDim S64 ![] bcast_S_S64),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S64 ![] bcast_S_S64),
    TRef.ternary main_call8.v12 main_call8.v11 main_call8.call0.v1 main_call8.call0.v2 (fun p a b => select (broadcastInDim S64 ![] bcast_S_S64 p) a b),
    unary main_v340 main_v342 (broadcastInDim S1x64 ![1] bcast_S64_S1x64_1 : (⟨S64, .f32⟩ : BufTy).Contents (Elt F) → (⟨S1x64, .f32⟩ : BufTy).Contents (Elt F)),
    unary main_v342 main_v343 (broadcastInDim S200000x64 ![0, 1] bcast_S1x64_S200000x64_0_1 : (⟨S1x64, .f32⟩ : BufTy).Contents (Elt F) → (⟨S200000x64, .f32⟩ : BufTy).Contents (Elt F)),
    binary main_v333 main_v343 main_v344 (subf : (⟨S200000x64, .f32⟩ : BufTy).Contents (Elt F) → (⟨S200000x64, .f32⟩ : BufTy).Contents (Elt F) → (⟨S200000x64, .f32⟩ : BufTy).Contents (Elt F)),
    unary main_v335 main_v345 (broadcastInDim S1x64 ![1] bcast_S64_S1x64_1 : (⟨S64, .f32⟩ : BufTy).Contents (Elt F) → (⟨S1x64, .f32⟩ : BufTy).Contents (Elt F)),
    unary main_v345 main_v346 (broadcastInDim S200000x64 ![0, 1] bcast_S1x64_S200000x64_0_1 : (⟨S1x64, .f32⟩ : BufTy).Contents (Elt F) → (⟨S200000x64, .f32⟩ : BufTy).Contents (Elt F)),
    binary main_v346 main_v344 main_v347 (mulf : (⟨S200000x64, .f32⟩ : BufTy).Contents (Elt F) → (⟨S200000x64, .f32⟩ : BufTy).Contents (Elt F) → (⟨S200000x64, .f32⟩ : BufTy).Contents (Elt F)),
    nullary main_cst_61 (constant S_ .f32 0x3727C5AC#32),
    unary main_cst_61 main_v348 (broadcastInDim S64 ![] bcast_S_S64 : (⟨S_, .f32⟩ : BufTy).Contents (Elt F) → (⟨S64, .f32⟩ : BufTy).Contents (Elt F)),
    binary main_v341 main_v348 main_v349 (addf : (⟨S64, .f32⟩ : BufTy).Contents (Elt F) → (⟨S64, .f32⟩ : BufTy).Contents (Elt F) → (⟨S64, .f32⟩ : BufTy).Contents (Elt F)),
    unary main_v349 main_v350 (Host.sqrt : (⟨S64, .f32⟩ : BufTy).Contents (Elt F) → (⟨S64, .f32⟩ : BufTy).Contents (Elt F)),
    unary main_v350 main_v351 (broadcastInDim S1x64 ![1] bcast_S64_S1x64_1 : (⟨S64, .f32⟩ : BufTy).Contents (Elt F) → (⟨S1x64, .f32⟩ : BufTy).Contents (Elt F)),
    unary main_v351 main_v352 (broadcastInDim S200000x64 ![0, 1] bcast_S1x64_S200000x64_0_1 : (⟨S1x64, .f32⟩ : BufTy).Contents (Elt F) → (⟨S200000x64, .f32⟩ : BufTy).Contents (Elt F)),
    binary main_v347 main_v352 main_v353 (Host.divf : (⟨S200000x64, .f32⟩ : BufTy).Contents (Elt F) → (⟨S200000x64, .f32⟩ : BufTy).Contents (Elt F) → (⟨S200000x64, .f32⟩ : BufTy).Contents (Elt F)),
    unary main_v337 main_v354 (broadcastInDim S1x64 ![1] bcast_S64_S1x64_1 : (⟨S64, .f32⟩ : BufTy).Contents (Elt F) → (⟨S1x64, .f32⟩ : BufTy).Contents (Elt F)),
    unary main_v354 main_v355 (broadcastInDim S200000x64 ![0, 1] bcast_S1x64_S200000x64_0_1 : (⟨S1x64, .f32⟩ : BufTy).Contents (Elt F) → (⟨S200000x64, .f32⟩ : BufTy).Contents (Elt F)) ]

end Cert.ReferenceIdeal.Hand

end
-- ==== Proof.Ref.Win6.lean ====
/-
  Window 6 of the reference program is the straight line of its operations `ops6`: with the functions the window calls
  (if any) opened at their calls and the call records at their fields, both sides are one chain of `hlo` steps once
  sequencing is reassociated. Every operation of the line touches TensorCore references only and determines its results.
-/
import proofs.«151172_j14164802142730_2_alg».proof.Proof.Ref.Ops6

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
/-- The window is `seq` of its list: unfolding the window, the bodies of the functions it calls and `seq`, and
    reassociating the binds (`bind_assoc`, `pure_bind`), leaves the same chain of steps on both sides (where the window
    ends in an operation of its own, up to the unit return `seq` appends, which is a computation). -/
theorem main_part6_eq (c : Dev nD) : main_part6 (F := F) c = seq ops6 := by
  simp only [main_part6, fn_var.body, fn_where_0.body, seq, bind_assoc, pure_bind]
  rfl

/-- Each operation of the window touches TensorCore references only. -/
theorem ops6_sub : (ops6 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

set_option maxRecDepth 4096 in
/-- No operation of the window leaves a result undetermined. -/
theorem ops6_fresh : ∀ op ∈ (ops6 : List (HloOp τ sig (Elt F))), op.fresh = ∅ := by
  intro _ h
  repeat (cases h with | head => rfl | tail _ h => ?_)
  exact nomatch h

end Cert.ReferenceIdeal.Hand

end
-- ==== Proof.Ref.Ops7.lean ====
/- Window 7 of the reference program, as the list of its 81 operations in order; an operation of a
   module-local function stands at its call, over that call's buffers. -/
import proofs.«151172_j14164802142730_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops7 : List (HloOp τ sig (Elt F)) :=
  [ binary main_v353 main_v355 main_v356 (addf : (⟨S200000x64, .f32⟩ : BufTy).Contents (Elt F) → (⟨S200000x64, .f32⟩ : BufTy).Contents (Elt F) → (⟨S200000x64, .f32⟩ : BufTy).Contents (Elt F)),
    unary main_arg9 main_v357 ((extractStridedSlice S1x1x64 ![1, 1, 0] · slices_S2x2x64_S1x1x64_1_1_0) : (⟨S2x2x64, .f32⟩ : BufTy).Contents (Elt F) → (⟨S1x1x64, .f32⟩ : BufTy).Contents (Elt F)),
    reshape main_v357 main_v358 rfl shapeCasts_S1x1x64_S64,
    unary main_arg10 main_v359 ((extractStridedSlice S1x1x64 ![1, 1, 0] · slices_S2x2x64_S1x1x64_1_1_0) : (⟨S2x2x64, .f32⟩ : BufTy).Contents (Elt F) → (⟨S1x1x64, .f32⟩ : BufTy).Contents (Elt F)),
    reshape main_v359 main_v360 rfl shapeCasts_S1x1x64_S64,
    nullary main_cst_62 (constant S_ .f32 0x00000000#32),
    binary main_v262 main_cst_62 main_v361 ((fun x v => Host.reduceAdd x v reducesTo_S200000x64_S64_d0 h_S_) : (⟨S200000x64, .f32⟩ : BufTy).Contents (Elt F) → (⟨S_, .f32⟩ : BufTy).Contents (Elt F) → (⟨S64, .f32⟩ : BufTy).Contents (Elt F)),
    nullary main_cst_63 (constant S_ .f32 0x48435000#32),
    unary main_cst_63 main_v362 (broadcastInDim S64 ![] bcast_S_S64 : (⟨S_, .f32⟩ : BufTy).Contents (Elt F) → (⟨S64, .f32⟩ : BufTy).Contents (Elt F)),
    binary main_v361 main_v362 main_v363 (Host.divf : (⟨S64, .f32⟩ : BufTy).Contents (Elt F) → (⟨S64, .f32⟩ : BufTy).Contents (Elt F) → (⟨S64, .f32⟩ : BufTy).Contents (Elt F)),
    nullary main_c_64 (constantI S_ 32 0#32),
    TRef.nullary main_call9.cst (constant S_ .f32 0x00000000#32),
    TRef.binary (.of main_v262 : TRef sig ⟨S200000x64, .f32⟩) main_call9.cst main_call9.v0 (fun x v => Host.reduceAdd x v reducesTo_S200000x64_S64_d0 h_S_),
    TRef.unary main_call9.v0 main_call9.v1 (broadcastInDim S1x64 ![1] bcast_S64_S1x64_1),
    TRef.nullary main_call9.cst_0 (constant S_ .f32 0x48435000#32),
    TRef.unary main_call9.cst_0 main_call9.v2 (broadcastInDim S1x64 ![] bcast_S_S1x64),
    TRef.binary main_call9.v1 main_call9.v2 main_call9.v3 Host.divf,
    TRef.unary main_call9.v3 main_call9.v4 (broadcastInDim S200000x64 ![0, 1] bcast_S1x64_S200000x64_0_1),
    TRef.binary (.of main_v262 : TRef sig ⟨S200000x64, .f32⟩) main_call9.v4 main_call9.v5 subf,
    TRef.binary main_call9.v5 main_call9.v5 main_call9.v6 mulf,
    TRef.unary (.of main_c_64 : TRef sig ⟨S_, .i32⟩) main_call9.v7 (sitofp .f32),
    TRef.nullary main_call9.cst_1 (constant S_ .f32 0x48435000#32),
    TRef.binary main_call9.cst_1 main_call9.v7 main_call9.v8 subf,
    TRef.nullary main_call9.cst_2 (constant S_ .f32 0x00000000#32),
    TRef.binary main_call9.v6 main_call9.cst_2 main_call9.v9 (fun x v => Host.reduceAdd x v reducesTo_S200000x64_S64_d0 h_S_),
    TRef.unary main_call9.v8 main_call9.v10 (broadcastInDim S64 ![] bcast_S_S64),
    TRef.binary main_call9.v9 main_call9.v10 main_call9.v11 Host.divf,
    TRef.nullary main_call9.cst_3 (constant S_ .f32 0x00000000#32),
    TRef.binary main_call9.v8 main_call9.cst_3 main_call9.v12 (cmpf .ogt),
    TRef.nullary main_call9.cst_4 (constant S_ .f32 0x7FC00000#32),
    TRef.unary main_call9.cst_4 main_call9.call0.v0 id,
    TRef.unary main_call9.call0.v0 main_call9.call0.v1 (broadcastInDim S64 ![] bcast_S_S64),
    TRef.ternary main_call9.v12 main_call9.v11 main_call9.call0.v1 main_call9.call0.v2 (fun p a b => select (broadcastInDim S64 ![] bcast_S_S64 p) a b),
    unary main_v363 main_v365 (broadcastInDim S1x64 ![1] bcast_S64_S1x64_1 : (⟨S64, .f32⟩ : BufTy).Contents (Elt F) → (⟨S1x64, .f32⟩ : BufTy).Contents (Elt F)),
    unary main_v365 main_v366 (broadcastInDim S200000x64 ![0, 1] bcast_S1x64_S200000x64_0_1 : (⟨S1x64, .f32⟩ : BufTy).Contents (Elt F) → (⟨S200000x64, .f32⟩ : BufTy).Contents (Elt F)),
    binary main_v262 main_v366 main_v367 (subf : (⟨S200000x64, .f32⟩ : BufTy).Contents (Elt F) → (⟨S200000x64, .f32⟩ : BufTy).Contents (Elt F) → (⟨S200000x64, .f32⟩ : BufTy).Contents (Elt F)),
    unary main_v358 main_v368 (broadcastInDim S1x64 ![1] bcast_S64_S1x64_1 : (⟨S64, .f32⟩ : BufTy).Contents (Elt F) → (⟨S1x64, .f32⟩ : BufTy).Contents (Elt F)),
    unary main_v368 main_v369 (broadcastInDim S200000x64 ![0, 1] bcast_S1x64_S200000x64_0_1 : (⟨S1x64, .f32⟩ : BufTy).Contents (Elt F) → (⟨S200000x64, .f32⟩ : BufTy).Contents (Elt F)),
    binary main_v369 main_v367 main_v370 (mulf : (⟨S200000x64, .f32⟩ : BufTy).Contents (Elt F) → (⟨S200000x64, .f32⟩ : BufTy).Contents (Elt F) → (⟨S200000x64, .f32⟩ : BufTy).Contents (Elt F)),
    nullary main_cst_65 (constant S_ .f32 0x3727C5AC#32),
    unary main_cst_65 main_v371 (broadcastInDim S64 ![] bcast_S_S64 : (⟨S_, .f32⟩ : BufTy).Contents (Elt F) → (⟨S64, .f32⟩ : BufTy).Contents (Elt F)),
    binary main_v364 main_v371 main_v372 (addf : (⟨S64, .f32⟩ : BufTy).Contents (Elt F) → (⟨S64, .f32⟩ : BufTy).Contents (Elt F) → (⟨S64, .f32⟩ : BufTy).Contents (Elt F)),
    unary main_v372 main_v373 (Host.sqrt : (⟨S64, .f32⟩ : BufTy).Contents (Elt F) → (⟨S64, .f32⟩ : BufTy).Contents (Elt F)),
    unary main_v373 main_v374 (broadcastInDim S1x64 ![1] bcast_S64_S1x64_1 : (⟨S64, .f32⟩ : BufTy).Contents (Elt F) → (⟨S1x64, .f32⟩ : BufTy).Contents (Elt F)),
    unary main_v374 main_v375 (broadcastInDim S200000x64 ![0, 1] bcast_S1x64_S200000x64_0_1 : (⟨S1x64, .f32⟩ : BufTy).Contents (Elt F) → (⟨S200000x64, .f32⟩ : BufTy).Contents (Elt F)),
    binary main_v370 main_v375 main_v376 (Host.divf : (⟨S200000x64, .f32⟩ : BufTy).Contents (Elt F) → (⟨S200000x64, .f32⟩ : BufTy).Contents (Elt F) → (⟨S200000x64, .f32⟩ : BufTy).Contents (Elt F)),
    unary main_v360 main_v377 (broadcastInDim S1x64 ![1] bcast_S64_S1x64_1 : (⟨S64, .f32⟩ : BufTy).Contents (Elt F) → (⟨S1x64, .f32⟩ : BufTy).Contents (Elt F)),
    unary main_v377 main_v378 (broadcastInDim S200000x64 ![0, 1] bcast_S1x64_S200000x64_0_1 : (⟨S1x64, .f32⟩ : BufTy).Contents (Elt F) → (⟨S200000x64, .f32⟩ : BufTy).Contents (Elt F)),
    binary main_v376 main_v378 main_v379 (addf : (⟨S200000x64, .f32⟩ : BufTy).Contents (Elt F) → (⟨S200000x64, .f32⟩ : BufTy).Contents (Elt F) → (⟨S200000x64, .f32⟩ : BufTy).Contents (Elt F)),
    unary main_arg18 main_v380 ((extractStridedSlice S1x100000 ![0, 0] · slices_S2x100000_S1x100000_0_0) : (⟨S2x100000, .i32⟩ : BufTy).Contents (Elt F) → (⟨S1x100000, .i32⟩ : BufTy).Contents (Elt F)),
    reshape main_v380 main_v381 rfl shapeCasts_S1x100000_S100000,
    nullary main_c_66 (constantI S_ 32 0#32),
    unary main_c_66 main_v382 (broadcastInDim S100000 ![] bcast_S_S100000 : (⟨S_, .i32⟩ : BufTy).Contents (Elt F) → (⟨S100000, .i32⟩ : BufTy).Contents (Elt F)),
    binary main_v381 main_v382 main_v383 (cmpi .slt : (⟨S100000, .i32⟩ : BufTy).Contents (Elt F) → (⟨S100000, .i32⟩ : BufTy).Contents (Elt F) → (⟨S100000, .i1⟩ : BufTy).Contents (Elt F)),
    nullary main_c_67 (constantI S_ 32 200000#32),
    unary main_c_67 main_v384 (broadcastInDim S100000 ![] bcast_S_S100000 : (⟨S_, .i32⟩ : BufTy).Contents (Elt F) → (⟨S100000, .i32⟩ : BufTy).Contents (Elt F)),
    binary main_v381 main_v384 main_v385 (addi : (⟨S100000, .i32⟩ : BufTy).Contents (Elt F) → (⟨S100000, .i32⟩ : BufTy).Contents (Elt F) → (⟨S100000, .i32⟩ : BufTy).Contents (Elt F)),
    ternary main_v383 main_v385 main_v381 main_v386 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v386 main_v387 (broadcastInDim S100000x1 ![0] bcast_S100000_S100000x1_0 : (⟨S100000, .i32⟩ : BufTy).Contents (Elt F) → (⟨S100000x1, .i32⟩ : BufTy).Contents (Elt F)),
    binary main_v356 main_v387 main_v388 ((fun x i => Host.gather gather_S200000x64_S100000x1_S100000x64_1_0_n_n_0_1_164 x i) : (⟨S200000x64, .f32⟩ : BufTy).Contents (Elt F) → (⟨S100000x1, .i32⟩ : BufTy).Contents (Elt F) → (⟨S100000x64, .f32⟩ : BufTy).Contents (Elt F)),
    unary main_arg18 main_v389 ((extractStridedSlice S1x100000 ![1, 0] · slices_S2x100000_S1x100000_1_0) : (⟨S2x100000, .i32⟩ : BufTy).Contents (Elt F) → (⟨S1x100000, .i32⟩ : BufTy).Contents (Elt F)),
    reshape main_v389 main_v390 rfl shapeCasts_S1x100000_S100000,
    nullary main_c_68 (constantI S_ 32 0#32),
    unary main_c_68 main_v391 (broadcastInDim S100000 ![] bcast_S_S100000 : (⟨S_, .i32⟩ : BufTy).Contents (Elt F) → (⟨S100000, .i32⟩ : BufTy).Contents (Elt F)),
    binary main_v390 main_v391 main_v392 (cmpi .slt : (⟨S100000, .i32⟩ : BufTy).Contents (Elt F) → (⟨S100000, .i32⟩ : BufTy).Contents (Elt F) → (⟨S100000, .i1⟩ : BufTy).Contents (Elt F)),
    nullary main_c_69 (constantI S_ 32 200000#32),
    unary main_c_69 main_v393 (broadcastInDim S100000 ![] bcast_S_S100000 : (⟨S_, .i32⟩ : BufTy).Contents (Elt F) → (⟨S100000, .i32⟩ : BufTy).Contents (Elt F)),
    binary main_v390 main_v393 main_v394 (addi : (⟨S100000, .i32⟩ : BufTy).Contents (Elt F) → (⟨S100000, .i32⟩ : BufTy).Contents (Elt F) → (⟨S100000, .i32⟩ : BufTy).Contents (Elt F)),
    ternary main_v392 main_v394 main_v390 main_v395 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v395 main_v396 (broadcastInDim S100000x1 ![0] bcast_S100000_S100000x1_0 : (⟨S100000, .i32⟩ : BufTy).Contents (Elt F) → (⟨S100000x1, .i32⟩ : BufTy).Contents (Elt F)),
    binary main_v379 main_v396 main_v397 ((fun x i => Host.gather gather_S200000x64_S100000x1_S100000x64_1_0_n_n_0_1_164 x i) : (⟨S200000x64, .f32⟩ : BufTy).Contents (Elt F) → (⟨S100000x1, .i32⟩ : BufTy).Contents (Elt F) → (⟨S100000x64, .f32⟩ : BufTy).Contents (Elt F)),
    binary main_v388 main_v397 main_v398 (mulf : (⟨S100000x64, .f32⟩ : BufTy).Contents (Elt F) → (⟨S100000x64, .f32⟩ : BufTy).Contents (Elt F) → (⟨S100000x64, .f32⟩ : BufTy).Contents (Elt F)),
    nullary main_cst_70 (constant S_ .f32 0x00000000#32),
    binary main_v398 main_cst_70 main_v399 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_arg18 main_v400 ((extractStridedSlice S1x100000 ![1, 0] · slices_S2x100000_S1x100000_1_0) : (⟨S2x100000, .i32⟩ : BufTy).Contents (Elt F) → (⟨S1x100000, .i32⟩ : BufTy).Contents (Elt F)),
    reshape main_v400 main_v401 rfl shapeCasts_S1x100000_S100000,
    nullary main_c_71 (constantI S_ 32 0#32),
    unary main_c_71 main_v402 (broadcastInDim S100000 ![] bcast_S_S100000 : (⟨S_, .i32⟩ : BufTy).Contents (Elt F) → (⟨S100000, .i32⟩ : BufTy).Contents (Elt F)),
    binary main_v401 main_v402 main_v403 (cmpi .slt : (⟨S100000, .i32⟩ : BufTy).Contents (Elt F) → (⟨S100000, .i32⟩ : BufTy).Contents (Elt F) → (⟨S100000, .i1⟩ : BufTy).Contents (Elt F)),
    nullary main_c_72 (constantI S_ 32 200000#32),
    unary main_c_72 main_v404 (broadcastInDim S100000 ![] bcast_S_S100000 : (⟨S_, .i32⟩ : BufTy).Contents (Elt F) → (⟨S100000, .i32⟩ : BufTy).Contents (Elt F)) ]

end Cert.ReferenceIdeal.Hand

end
-- ==== Proof.Ref.Win7.lean ====
/-
  Window 7 of the reference program is the straight line of its operations `ops7`: with the functions the window calls
  (if any) opened at their calls and the call records at their fields, both sides are one chain of `hlo` steps once
  sequencing is reassociated. Every operation of the line touches TensorCore references only and determines its results.
-/
import proofs.«151172_j14164802142730_2_alg».proof.Proof.Ref.Ops7

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
/-- The window is `seq` of its list: unfolding the window, the bodies of the functions it calls and `seq`, and
    reassociating the binds (`bind_assoc`, `pure_bind`), leaves the same chain of steps on both sides (where the window
    ends in an operation of its own, up to the unit return `seq` appends, which is a computation). -/
theorem main_part7_eq (c : Dev nD) : main_part7 (F := F) c = seq ops7 := by
  simp only [main_part7, fn_var.body, fn_where_0.body, seq, bind_assoc, pure_bind]
  rfl

/-- Each operation of the window touches TensorCore references only. -/
theorem ops7_sub : (ops7 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

set_option maxRecDepth 4096 in
/-- No operation of the window leaves a result undetermined. -/
theorem ops7_fresh : ∀ op ∈ (ops7 : List (HloOp τ sig (Elt F))), op.fresh = ∅ := by
  intro _ h
  repeat (cases h with | head => rfl | tail _ h => ?_)
  exact nomatch h

end Cert.ReferenceIdeal.Hand

end
-- ==== Proof.Ref.Ops8.lean ====
/- Window 8 of the reference program, as the list of its 60 operations in order; an operation of a
   module-local function stands at its call, over that call's buffers. -/
import proofs.«151172_j14164802142730_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops8 : List (HloOp τ sig (Elt F)) :=
  [ binary main_v401 main_v404 main_v405 (addi : (⟨S100000, .i32⟩ : BufTy).Contents (Elt F) → (⟨S100000, .i32⟩ : BufTy).Contents (Elt F) → (⟨S100000, .i32⟩ : BufTy).Contents (Elt F)),
    ternary main_v403 main_v405 main_v401 main_v406 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v406 main_v407 (broadcastInDim S100000x1 ![0] bcast_S100000_S100000x1_0 : (⟨S100000, .i32⟩ : BufTy).Contents (Elt F) → (⟨S100000x1, .i32⟩ : BufTy).Contents (Elt F)),
    binary main_arg12 main_v407 main_v408 ((fun x i => Host.gather gather_S200000_S100000x1_S100000_n_0_n_n_0_1_1 x i) : (⟨S200000, .f32⟩ : BufTy).Contents (Elt F) → (⟨S100000x1, .i32⟩ : BufTy).Contents (Elt F) → (⟨S100000, .f32⟩ : BufTy).Contents (Elt F)),
    unary main_arg19 main_v409 ((extractStridedSlice S1x100000 ![0, 0] · slices_S2x100000_S1x100000_0_0) : (⟨S2x100000, .i32⟩ : BufTy).Contents (Elt F) → (⟨S1x100000, .i32⟩ : BufTy).Contents (Elt F)),
    reshape main_v409 main_v410 rfl shapeCasts_S1x100000_S100000,
    nullary main_c_73 (constantI S_ 32 0#32),
    unary main_c_73 main_v411 (broadcastInDim S100000 ![] bcast_S_S100000 : (⟨S_, .i32⟩ : BufTy).Contents (Elt F) → (⟨S100000, .i32⟩ : BufTy).Contents (Elt F)),
    binary main_v410 main_v411 main_v412 (cmpi .slt : (⟨S100000, .i32⟩ : BufTy).Contents (Elt F) → (⟨S100000, .i32⟩ : BufTy).Contents (Elt F) → (⟨S100000, .i1⟩ : BufTy).Contents (Elt F)),
    nullary main_c_74 (constantI S_ 32 200000#32),
    unary main_c_74 main_v413 (broadcastInDim S100000 ![] bcast_S_S100000 : (⟨S_, .i32⟩ : BufTy).Contents (Elt F) → (⟨S100000, .i32⟩ : BufTy).Contents (Elt F)),
    binary main_v410 main_v413 main_v414 (addi : (⟨S100000, .i32⟩ : BufTy).Contents (Elt F) → (⟨S100000, .i32⟩ : BufTy).Contents (Elt F) → (⟨S100000, .i32⟩ : BufTy).Contents (Elt F)),
    ternary main_v412 main_v414 main_v410 main_v415 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v415 main_v416 (broadcastInDim S100000x1 ![0] bcast_S100000_S100000x1_0 : (⟨S100000, .i32⟩ : BufTy).Contents (Elt F) → (⟨S100000x1, .i32⟩ : BufTy).Contents (Elt F)),
    binary main_v379 main_v416 main_v417 ((fun x i => Host.gather gather_S200000x64_S100000x1_S100000x64_1_0_n_n_0_1_164 x i) : (⟨S200000x64, .f32⟩ : BufTy).Contents (Elt F) → (⟨S100000x1, .i32⟩ : BufTy).Contents (Elt F) → (⟨S100000x64, .f32⟩ : BufTy).Contents (Elt F)),
    unary main_arg19 main_v418 ((extractStridedSlice S1x100000 ![1, 0] · slices_S2x100000_S1x100000_1_0) : (⟨S2x100000, .i32⟩ : BufTy).Contents (Elt F) → (⟨S1x100000, .i32⟩ : BufTy).Contents (Elt F)),
    reshape main_v418 main_v419 rfl shapeCasts_S1x100000_S100000,
    nullary main_c_75 (constantI S_ 32 0#32),
    unary main_c_75 main_v420 (broadcastInDim S100000 ![] bcast_S_S100000 : (⟨S_, .i32⟩ : BufTy).Contents (Elt F) → (⟨S100000, .i32⟩ : BufTy).Contents (Elt F)),
    binary main_v419 main_v420 main_v421 (cmpi .slt : (⟨S100000, .i32⟩ : BufTy).Contents (Elt F) → (⟨S100000, .i32⟩ : BufTy).Contents (Elt F) → (⟨S100000, .i1⟩ : BufTy).Contents (Elt F)),
    nullary main_c_76 (constantI S_ 32 200000#32),
    unary main_c_76 main_v422 (broadcastInDim S100000 ![] bcast_S_S100000 : (⟨S_, .i32⟩ : BufTy).Contents (Elt F) → (⟨S100000, .i32⟩ : BufTy).Contents (Elt F)),
    binary main_v419 main_v422 main_v423 (addi : (⟨S100000, .i32⟩ : BufTy).Contents (Elt F) → (⟨S100000, .i32⟩ : BufTy).Contents (Elt F) → (⟨S100000, .i32⟩ : BufTy).Contents (Elt F)),
    ternary main_v421 main_v423 main_v419 main_v424 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v424 main_v425 (broadcastInDim S100000x1 ![0] bcast_S100000_S100000x1_0 : (⟨S100000, .i32⟩ : BufTy).Contents (Elt F) → (⟨S100000x1, .i32⟩ : BufTy).Contents (Elt F)),
    binary main_v356 main_v425 main_v426 ((fun x i => Host.gather gather_S200000x64_S100000x1_S100000x64_1_0_n_n_0_1_164 x i) : (⟨S200000x64, .f32⟩ : BufTy).Contents (Elt F) → (⟨S100000x1, .i32⟩ : BufTy).Contents (Elt F) → (⟨S100000x64, .f32⟩ : BufTy).Contents (Elt F)),
    binary main_v417 main_v426 main_v427 (mulf : (⟨S100000x64, .f32⟩ : BufTy).Contents (Elt F) → (⟨S100000x64, .f32⟩ : BufTy).Contents (Elt F) → (⟨S100000x64, .f32⟩ : BufTy).Contents (Elt F)),
    nullary main_cst_77 (constant S_ .f32 0x00000000#32),
    binary main_v427 main_cst_77 main_v428 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_arg19 main_v429 ((extractStridedSlice S1x100000 ![1, 0] · slices_S2x100000_S1x100000_1_0) : (⟨S2x100000, .i32⟩ : BufTy).Contents (Elt F) → (⟨S1x100000, .i32⟩ : BufTy).Contents (Elt F)),
    reshape main_v429 main_v430 rfl shapeCasts_S1x100000_S100000,
    nullary main_c_78 (constantI S_ 32 0#32),
    unary main_c_78 main_v431 (broadcastInDim S100000 ![] bcast_S_S100000 : (⟨S_, .i32⟩ : BufTy).Contents (Elt F) → (⟨S100000, .i32⟩ : BufTy).Contents (Elt F)),
    binary main_v430 main_v431 main_v432 (cmpi .slt : (⟨S100000, .i32⟩ : BufTy).Contents (Elt F) → (⟨S100000, .i32⟩ : BufTy).Contents (Elt F) → (⟨S100000, .i1⟩ : BufTy).Contents (Elt F)),
    nullary main_c_79 (constantI S_ 32 200000#32),
    unary main_c_79 main_v433 (broadcastInDim S100000 ![] bcast_S_S100000 : (⟨S_, .i32⟩ : BufTy).Contents (Elt F) → (⟨S100000, .i32⟩ : BufTy).Contents (Elt F)),
    binary main_v430 main_v433 main_v434 (addi : (⟨S100000, .i32⟩ : BufTy).Contents (Elt F) → (⟨S100000, .i32⟩ : BufTy).Contents (Elt F) → (⟨S100000, .i32⟩ : BufTy).Contents (Elt F)),
    ternary main_v432 main_v434 main_v430 main_v435 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v435 main_v436 (broadcastInDim S100000x1 ![0] bcast_S100000_S100000x1_0 : (⟨S100000, .i32⟩ : BufTy).Contents (Elt F) → (⟨S100000x1, .i32⟩ : BufTy).Contents (Elt F)),
    binary main_arg11 main_v436 main_v437 ((fun x i => Host.gather gather_S200000_S100000x1_S100000_n_0_n_n_0_1_1 x i) : (⟨S200000, .f32⟩ : BufTy).Contents (Elt F) → (⟨S100000x1, .i32⟩ : BufTy).Contents (Elt F) → (⟨S100000, .f32⟩ : BufTy).Contents (Elt F)),
    unary main_arg20 main_v438 ((extractStridedSlice S1x100000 ![0, 0] · slices_S2x100000_S1x100000_0_0) : (⟨S2x100000, .i32⟩ : BufTy).Contents (Elt F) → (⟨S1x100000, .i32⟩ : BufTy).Contents (Elt F)),
    reshape main_v438 main_v439 rfl shapeCasts_S1x100000_S100000,
    nullary main_c_80 (constantI S_ 32 0#32),
    unary main_c_80 main_v440 (broadcastInDim S100000 ![] bcast_S_S100000 : (⟨S_, .i32⟩ : BufTy).Contents (Elt F) → (⟨S100000, .i32⟩ : BufTy).Contents (Elt F)),
    binary main_v439 main_v440 main_v441 (cmpi .slt : (⟨S100000, .i32⟩ : BufTy).Contents (Elt F) → (⟨S100000, .i32⟩ : BufTy).Contents (Elt F) → (⟨S100000, .i1⟩ : BufTy).Contents (Elt F)),
    nullary main_c_81 (constantI S_ 32 200000#32),
    unary main_c_81 main_v442 (broadcastInDim S100000 ![] bcast_S_S100000 : (⟨S_, .i32⟩ : BufTy).Contents (Elt F) → (⟨S100000, .i32⟩ : BufTy).Contents (Elt F)),
    binary main_v439 main_v442 main_v443 (addi : (⟨S100000, .i32⟩ : BufTy).Contents (Elt F) → (⟨S100000, .i32⟩ : BufTy).Contents (Elt F) → (⟨S100000, .i32⟩ : BufTy).Contents (Elt F)),
    ternary main_v441 main_v443 main_v439 main_v444 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v444 main_v445 (broadcastInDim S100000x1 ![0] bcast_S100000_S100000x1_0 : (⟨S100000, .i32⟩ : BufTy).Contents (Elt F) → (⟨S100000x1, .i32⟩ : BufTy).Contents (Elt F)),
    binary main_v356 main_v445 main_v446 ((fun x i => Host.gather gather_S200000x64_S100000x1_S100000x64_1_0_n_n_0_1_164 x i) : (⟨S200000x64, .f32⟩ : BufTy).Contents (Elt F) → (⟨S100000x1, .i32⟩ : BufTy).Contents (Elt F) → (⟨S100000x64, .f32⟩ : BufTy).Contents (Elt F)),
    unary main_arg20 main_v447 ((extractStridedSlice S1x100000 ![1, 0] · slices_S2x100000_S1x100000_1_0) : (⟨S2x100000, .i32⟩ : BufTy).Contents (Elt F) → (⟨S1x100000, .i32⟩ : BufTy).Contents (Elt F)),
    reshape main_v447 main_v448 rfl shapeCasts_S1x100000_S100000,
    nullary main_c_82 (constantI S_ 32 0#32),
    unary main_c_82 main_v449 (broadcastInDim S100000 ![] bcast_S_S100000 : (⟨S_, .i32⟩ : BufTy).Contents (Elt F) → (⟨S100000, .i32⟩ : BufTy).Contents (Elt F)),
    binary main_v448 main_v449 main_v450 (cmpi .slt : (⟨S100000, .i32⟩ : BufTy).Contents (Elt F) → (⟨S100000, .i32⟩ : BufTy).Contents (Elt F) → (⟨S100000, .i1⟩ : BufTy).Contents (Elt F)),
    nullary main_c_83 (constantI S_ 32 200000#32),
    unary main_c_83 main_v451 (broadcastInDim S100000 ![] bcast_S_S100000 : (⟨S_, .i32⟩ : BufTy).Contents (Elt F) → (⟨S100000, .i32⟩ : BufTy).Contents (Elt F)),
    binary main_v448 main_v451 main_v452 (addi : (⟨S100000, .i32⟩ : BufTy).Contents (Elt F) → (⟨S100000, .i32⟩ : BufTy).Contents (Elt F) → (⟨S100000, .i32⟩ : BufTy).Contents (Elt F)),
    ternary main_v450 main_v452 main_v448 main_v453 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)) ]

end Cert.ReferenceIdeal.Hand

end
-- ==== Proof.Ref.Win8.lean ====
/-
  Window 8 of the reference program is the straight line of its operations `ops8`: with the functions the window calls
  (if any) opened at their calls and the call records at their fields, both sides are one chain of `hlo` steps once
  sequencing is reassociated. Every operation of the line touches TensorCore references only and determines its results.
-/
import proofs.«151172_j14164802142730_2_alg».proof.Proof.Ref.Ops8

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
/-- The window is `seq` of its list: unfolding the window, the bodies of the functions it calls and `seq`, and
    reassociating the binds (`bind_assoc`, `pure_bind`), leaves the same chain of steps on both sides (where the window
    ends in an operation of its own, up to the unit return `seq` appends, which is a computation). -/
theorem main_part8_eq (c : Dev nD) : main_part8 (F := F) c = seq ops8 := by
  simp only [main_part8, seq, bind_assoc, pure_bind]
  rfl

/-- Each operation of the window touches TensorCore references only. -/
theorem ops8_sub : (ops8 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

set_option maxRecDepth 4096 in
/-- No operation of the window leaves a result undetermined. -/
theorem ops8_fresh : ∀ op ∈ (ops8 : List (HloOp τ sig (Elt F))), op.fresh = ∅ := by
  intro _ h
  repeat (cases h with | head => rfl | tail _ h => ?_)
  exact nomatch h

end Cert.ReferenceIdeal.Hand

end
-- ==== Proof.Ref.Ops9.lean ====
/- Window 9 of the reference program, as the list of its 23 operations in order; an operation of a
   module-local function stands at its call, over that call's buffers. -/
import proofs.«151172_j14164802142730_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev ops9 : List (HloOp τ sig (Elt F)) :=
  [ unary main_v453 main_v454 (broadcastInDim S100000x1 ![0] bcast_S100000_S100000x1_0 : (⟨S100000, .i32⟩ : BufTy).Contents (Elt F) → (⟨S100000x1, .i32⟩ : BufTy).Contents (Elt F)),
    binary main_v356 main_v454 main_v455 ((fun x i => Host.gather gather_S200000x64_S100000x1_S100000x64_1_0_n_n_0_1_164 x i) : (⟨S200000x64, .f32⟩ : BufTy).Contents (Elt F) → (⟨S100000x1, .i32⟩ : BufTy).Contents (Elt F) → (⟨S100000x64, .f32⟩ : BufTy).Contents (Elt F)),
    binary main_v446 main_v455 main_v456 (mulf : (⟨S100000x64, .f32⟩ : BufTy).Contents (Elt F) → (⟨S100000x64, .f32⟩ : BufTy).Contents (Elt F) → (⟨S100000x64, .f32⟩ : BufTy).Contents (Elt F)),
    nullary main_cst_84 (constant S_ .f32 0x00000000#32),
    binary main_v456 main_cst_84 main_v457 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_arg20 main_v458 ((extractStridedSlice S1x100000 ![1, 0] · slices_S2x100000_S1x100000_1_0) : (⟨S2x100000, .i32⟩ : BufTy).Contents (Elt F) → (⟨S1x100000, .i32⟩ : BufTy).Contents (Elt F)),
    reshape main_v458 main_v459 rfl shapeCasts_S1x100000_S100000,
    nullary main_c_85 (constantI S_ 32 0#32),
    unary main_c_85 main_v460 (broadcastInDim S100000 ![] bcast_S_S100000 : (⟨S_, .i32⟩ : BufTy).Contents (Elt F) → (⟨S100000, .i32⟩ : BufTy).Contents (Elt F)),
    binary main_v459 main_v460 main_v461 (cmpi .slt : (⟨S100000, .i32⟩ : BufTy).Contents (Elt F) → (⟨S100000, .i32⟩ : BufTy).Contents (Elt F) → (⟨S100000, .i1⟩ : BufTy).Contents (Elt F)),
    nullary main_c_86 (constantI S_ 32 200000#32),
    unary main_c_86 main_v462 (broadcastInDim S100000 ![] bcast_S_S100000 : (⟨S_, .i32⟩ : BufTy).Contents (Elt F) → (⟨S100000, .i32⟩ : BufTy).Contents (Elt F)),
    binary main_v459 main_v462 main_v463 (addi : (⟨S100000, .i32⟩ : BufTy).Contents (Elt F) → (⟨S100000, .i32⟩ : BufTy).Contents (Elt F) → (⟨S100000, .i32⟩ : BufTy).Contents (Elt F)),
    ternary main_v461 main_v463 main_v459 main_v464 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v464 main_v465 (broadcastInDim S100000x1 ![0] bcast_S100000_S100000x1_0 : (⟨S100000, .i32⟩ : BufTy).Contents (Elt F) → (⟨S100000x1, .i32⟩ : BufTy).Contents (Elt F)),
    binary main_arg11 main_v465 main_v466 ((fun x i => Host.gather gather_S200000_S100000x1_S100000_n_0_n_n_0_1_1 x i) : (⟨S200000, .f32⟩ : BufTy).Contents (Elt F) → (⟨S100000x1, .i32⟩ : BufTy).Contents (Elt F) → (⟨S100000, .f32⟩ : BufTy).Contents (Elt F)),
    unary main_v399 main_v467 (broadcastInDim S1x100000 ![1] bcast_S100000_S1x100000_1 : (⟨S100000, .f32⟩ : BufTy).Contents (Elt F) → (⟨S1x100000, .f32⟩ : BufTy).Contents (Elt F)),
    unary main_v428 main_v468 (broadcastInDim S1x100000 ![1] bcast_S100000_S1x100000_1 : (⟨S100000, .f32⟩ : BufTy).Contents (Elt F) → (⟨S1x100000, .f32⟩ : BufTy).Contents (Elt F)),
    unary main_v457 main_v469 (broadcastInDim S1x100000 ![1] bcast_S100000_S1x100000_1 : (⟨S100000, .f32⟩ : BufTy).Contents (Elt F) → (⟨S1x100000, .f32⟩ : BufTy).Contents (Elt F)),
    unary main_v408 main_v470 (broadcastInDim S1x100000 ![1] bcast_S100000_S1x100000_1 : (⟨S100000, .f32⟩ : BufTy).Contents (Elt F) → (⟨S1x100000, .f32⟩ : BufTy).Contents (Elt F)),
    unary main_v437 main_v471 (broadcastInDim S1x100000 ![1] bcast_S100000_S1x100000_1 : (⟨S100000, .f32⟩ : BufTy).Contents (Elt F) → (⟨S1x100000, .f32⟩ : BufTy).Contents (Elt F)),
    unary main_v466 main_v472 (broadcastInDim S1x100000 ![1] bcast_S100000_S1x100000_1 : (⟨S100000, .f32⟩ : BufTy).Contents (Elt F) → (⟨S1x100000, .f32⟩ : BufTy).Contents (Elt F)),
    nary ![main_v467, main_v468, main_v469, main_v470, main_v471, main_v472] main_v473 (fun u => concatenate S6x100000 0 [⟨S1x100000, u 0⟩, ⟨S1x100000, u 1⟩, ⟨S1x100000, u 2⟩, ⟨S1x100000, u 3⟩, ⟨S1x100000, u 4⟩, ⟨S1x100000, u 5⟩] concatenates_S1x100000_S1x100000_S1x100000_S1x100000_S1x100000_S1x100000_S6x100000_d0) ]

end Cert.ReferenceIdeal.Hand

end
-- ==== Proof.Ref.Win9.lean ====
/-
  Window 9 of the reference program is the straight line of its operations `ops9`: with the functions the window calls
  (if any) opened at their calls and the call records at their fields, both sides are one chain of `hlo` steps once
  sequencing is reassociated. Every operation of the line touches TensorCore references only and determines its results.
-/
import proofs.«151172_j14164802142730_2_alg».proof.Proof.Ref.Ops9

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
/-- The window is `seq` of its list: unfolding the window, the bodies of the functions it calls and `seq`, and
    reassociating the binds (`bind_assoc`, `pure_bind`), leaves the same chain of steps on both sides (where the window
    ends in an operation of its own, up to the unit return `seq` appends, which is a computation). -/
theorem main_part9_eq (c : Dev nD) : main_part9 (F := F) c = seq ops9 := by
  simp only [main_part9, seq, bind_assoc, pure_bind]

/-- Each operation of the window touches TensorCore references only. -/
theorem ops9_sub : (ops9 : List (HloOp τ sig (Elt F))).Forall fun op => op.bufs ⊆ tcRefs τ sig := by
  simp only [List.Forall, nullary_bufs_sub, unary_bufs_sub, binary_bufs_sub, ternary_bufs_sub, reshape_bufs_sub,
    nary_bufs_sub, and_self]

set_option maxRecDepth 4096 in
/-- No operation of the window leaves a result undetermined. -/
theorem ops9_fresh : ∀ op ∈ (ops9 : List (HloOp τ sig (Elt F))), op.fresh = ∅ := by
  intro _ h
  repeat (cases h with | head => rfl | tail _ h => ?_)
  exact nomatch h

end Cert.ReferenceIdeal.Hand

end
-- ==== Proof.Ref.Run.lean ====
/-
  The reference program's run, at any float instance. The program is ten windows run in order, each the straight
  line of its operations (`main_partJ_eq`), so the whole is `seq` of the concatenation `ops` (`seq_append`). Every
  operation touches TensorCore references only and determines its results, and the signature scopes no TensorCore
  buffer and no semaphore; so from any memory with zero counters every weakly fair execution terminates with each
  TensorCore buffer at the fold `after ops` of the operations' results over the launch contents (`run_seq`).
-/
import proofs.«151172_j14164802142730_2_alg».proof.Proof.Ref.Win0
import proofs.«151172_j14164802142730_2_alg».proof.Proof.Ref.Win1
import proofs.«151172_j14164802142730_2_alg».proof.Proof.Ref.Win2
import proofs.«151172_j14164802142730_2_alg».proof.Proof.Ref.Win3
import proofs.«151172_j14164802142730_2_alg».proof.Proof.Ref.Win4
import proofs.«151172_j14164802142730_2_alg».proof.Proof.Ref.Win5
import proofs.«151172_j14164802142730_2_alg».proof.Proof.Ref.Win6
import proofs.«151172_j14164802142730_2_alg».proof.Proof.Ref.Win7
import proofs.«151172_j14164802142730_2_alg».proof.Proof.Ref.Win8
import proofs.«151172_j14164802142730_2_alg».proof.Proof.Ref.Win9
import Mathlib.Data.List.Basic

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's operations in order: the ten windows' lists, one after the other. -/
abbrev ops : List (HloOp τ sig (Elt F)) :=
  ops0 ++ ops1 ++ ops2 ++ ops3 ++ ops4 ++ ops5 ++ ops6 ++ ops7 ++ ops8 ++ ops9

/-- The program is `seq` of that list: it runs its windows in order, each window is `seq` of its own list, and
    lists run one after the other are their concatenation run as one. -/
theorem main_eq (c : Dev nD) : main (F := F) c = seq ops := by
  simp only [main, ops, seq_append, bind_assoc, main_part0_eq, main_part1_eq, main_part2_eq, main_part3_eq, main_part4_eq, main_part5_eq, main_part6_eq, main_part7_eq, main_part8_eq, main_part9_eq]

/-- Every operation of the program touches TensorCore references only: window by window. -/
theorem ops_sub : (ops : List (HloOp τ sig (Elt F))).Forall fun op => op.bufs ⊆ tcRefs τ sig := by
  simp only [ops, List.forall_append]
  exact ⟨⟨⟨⟨⟨⟨⟨⟨⟨ops0_sub, ops1_sub⟩, ops2_sub⟩, ops3_sub⟩, ops4_sub⟩, ops5_sub⟩, ops6_sub⟩, ops7_sub⟩, ops8_sub⟩, ops9_sub⟩

/-- No operation of the program leaves a result undetermined: window by window. -/
theorem ops_fresh : ∀ op ∈ (ops : List (HloOp τ sig (Elt F))), op.fresh = ∅ := by
  intro op h
  simp only [ops, List.mem_append] at h
  rcases h with (((((((((h | h) | h) | h) | h) | h) | h) | h) | h) | h)
  exacts [ops0_fresh op h, ops1_fresh op h, ops2_fresh op h, ops3_fresh op h, ops4_fresh op h, ops5_fresh op h,
    ops6_fresh op h, ops7_fresh op h, ops8_fresh op h, ops9_fresh op h]

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- At the compiled mesh, for any float values, from any memory with zero counters: every weakly fair execution of the
    program on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Hand

end
-- ==== Proof.Ref.Chunks.lean ====
/- The reference program's 563 statements cut into 34 stretches at the statement counts given: per stretch the
   list of its operations in order (a called function's operations at the call, over that call's buffers), the
   references those operations write, in order, and that the operations touch TensorCore references only and
   write inside that list. -/
import proofs.«151172_j14164802142730_2_alg».proof.Proof.Gen.ReferenceIdeal
import Idealize.ShloMosaic.Lib.StableHlo.Run

set_option maxRecDepth 4096

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Statements 1 … 18: 18 operations. -/
abbrev C0 : List (HloOp τ sig (Elt F)) :=
  [ nullary main_c (constantI S_ 32 0#32),
    unary main_c main_v0 (broadcastInDim S200000 ![] bcast_S_S200000 : (⟨S_, .i32⟩ : BufTy).Contents (Elt F) → (⟨S200000, .i32⟩ : BufTy).Contents (Elt F)),
    binary main_arg13 main_v0 main_v1 (cmpi .slt : (⟨S200000, .i32⟩ : BufTy).Contents (Elt F) → (⟨S200000, .i32⟩ : BufTy).Contents (Elt F) → (⟨S200000, .i1⟩ : BufTy).Contents (Elt F)),
    nullary main_c_0 (constantI S_ 32 5000#32),
    unary main_c_0 main_v2 (broadcastInDim S200000 ![] bcast_S_S200000 : (⟨S_, .i32⟩ : BufTy).Contents (Elt F) → (⟨S200000, .i32⟩ : BufTy).Contents (Elt F)),
    binary main_arg13 main_v2 main_v3 (addi : (⟨S200000, .i32⟩ : BufTy).Contents (Elt F) → (⟨S200000, .i32⟩ : BufTy).Contents (Elt F) → (⟨S200000, .i32⟩ : BufTy).Contents (Elt F)),
    ternary main_v1 main_v3 main_arg13 main_v4 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v4 main_v5 (broadcastInDim S200000x1 ![0] bcast_S200000_S200000x1_0 : (⟨S200000, .i32⟩ : BufTy).Contents (Elt F) → (⟨S200000x1, .i32⟩ : BufTy).Contents (Elt F)),
    binary main_arg0 main_v5 main_v6 ((fun x i => Host.gather gather_S5000x64_S200000x1_S200000x64_1_0_n_n_0_1_164 x i) : (⟨S5000x64, .f32⟩ : BufTy).Contents (Elt F) → (⟨S200000x1, .i32⟩ : BufTy).Contents (Elt F) → (⟨S200000x64, .f32⟩ : BufTy).Contents (Elt F)),
    nullary main_c_1 (constantI S_ 32 0#32),
    unary main_c_1 main_v7 (broadcastInDim S200000 ![] bcast_S_S200000 : (⟨S_, .i32⟩ : BufTy).Contents (Elt F) → (⟨S200000, .i32⟩ : BufTy).Contents (Elt F)),
    binary main_arg14 main_v7 main_v8 (cmpi .slt : (⟨S200000, .i32⟩ : BufTy).Contents (Elt F) → (⟨S200000, .i32⟩ : BufTy).Contents (Elt F) → (⟨S200000, .i1⟩ : BufTy).Contents (Elt F)),
    nullary main_c_2 (constantI S_ 32 5000#32),
    unary main_c_2 main_v9 (broadcastInDim S200000 ![] bcast_S_S200000 : (⟨S_, .i32⟩ : BufTy).Contents (Elt F) → (⟨S200000, .i32⟩ : BufTy).Contents (Elt F)),
    binary main_arg14 main_v9 main_v10 (addi : (⟨S200000, .i32⟩ : BufTy).Contents (Elt F) → (⟨S200000, .i32⟩ : BufTy).Contents (Elt F) → (⟨S200000, .i32⟩ : BufTy).Contents (Elt F)),
    ternary main_v8 main_v10 main_arg14 main_v11 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v11 main_v12 (broadcastInDim S200000x1 ![0] bcast_S200000_S200000x1_0 : (⟨S200000, .i32⟩ : BufTy).Contents (Elt F) → (⟨S200000x1, .i32⟩ : BufTy).Contents (Elt F)),
    binary main_arg1 main_v12 main_v13 ((fun x i => Host.gather gather_S5000x64_S200000x1_S200000x64_1_0_n_n_0_1_164 x i) : (⟨S5000x64, .f32⟩ : BufTy).Contents (Elt F) → (⟨S200000x1, .i32⟩ : BufTy).Contents (Elt F) → (⟨S200000x64, .f32⟩ : BufTy).Contents (Elt F)) ]
abbrev C0_W : List (Ref sig .tc) :=
  [main_c, main_v0, main_v1, main_c_0, main_v2, main_v3, main_v4, main_v5, main_v6, main_c_1, main_v7, main_v8, main_c_2, main_v9, main_v10, main_v11, main_v12, main_v13]
theorem C0_sub : (C0 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C0_writes : (C0 : List (HloOp τ sig (Elt F))).Forall fun op => op.writes ⊆ ((C0_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 19 … 48: 30 operations. -/
abbrev C1 : List (HloOp τ sig (Elt F)) :=
  [ unary main_arg2 main_v14 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v14 main_v15 rfl shapeCasts_S1x64x64_S64x64,
    binary main_v6 main_v15 main_v16 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg3 main_v17 ((extractStridedSlice S1x64 ![0, 0] · slices_S2x64_S1x64_0_0) : (⟨S2x64, .f32⟩ : BufTy).Contents (Elt F) → (⟨S1x64, .f32⟩ : BufTy).Contents (Elt F)),
    reshape main_v17 main_v18 rfl shapeCasts_S1x64_S64,
    unary main_v18 main_v19 (broadcastInDim S1x64 ![1] bcast_S64_S1x64_1 : (⟨S64, .f32⟩ : BufTy).Contents (Elt F) → (⟨S1x64, .f32⟩ : BufTy).Contents (Elt F)),
    unary main_v19 main_v20 (broadcastInDim S200000x64 ![0, 1] bcast_S1x64_S200000x64_0_1 : (⟨S1x64, .f32⟩ : BufTy).Contents (Elt F) → (⟨S200000x64, .f32⟩ : BufTy).Contents (Elt F)),
    binary main_v16 main_v20 main_v21 (addf : (⟨S200000x64, .f32⟩ : BufTy).Contents (Elt F) → (⟨S200000x64, .f32⟩ : BufTy).Contents (Elt F) → (⟨S200000x64, .f32⟩ : BufTy).Contents (Elt F)),
    nullary main_cst (constant S_ .f32 0x00000000#32),
    unary main_cst main_v22 (broadcastInDim S200000x64 ![] bcast_S_S200000x64 : (⟨S_, .f32⟩ : BufTy).Contents (Elt F) → (⟨S200000x64, .f32⟩ : BufTy).Contents (Elt F)),
    binary main_v21 main_v22 main_v23 (cmpf .oge : (⟨S200000x64, .f32⟩ : BufTy).Contents (Elt F) → (⟨S200000x64, .f32⟩ : BufTy).Contents (Elt F) → (⟨S200000x64, .i1⟩ : BufTy).Contents (Elt F)),
    nullary main_cst_3 (constant S_ .f32 0x3C23D70A#32),
    unary main_cst_3 main_v24 (broadcastInDim S200000x64 ![] bcast_S_S200000x64 : (⟨S_, .f32⟩ : BufTy).Contents (Elt F) → (⟨S200000x64, .f32⟩ : BufTy).Contents (Elt F)),
    binary main_v24 main_v21 main_v25 (mulf : (⟨S200000x64, .f32⟩ : BufTy).Contents (Elt F) → (⟨S200000x64, .f32⟩ : BufTy).Contents (Elt F) → (⟨S200000x64, .f32⟩ : BufTy).Contents (Elt F)),
    TRef.ternary (.of main_v23 : TRef sig ⟨S200000x64, .i1⟩) (.of main_v21 : TRef sig ⟨S200000x64, .f32⟩) (.of main_v25 : TRef sig ⟨S200000x64, .f32⟩) main_call0.v0 select,
    unary main_arg2 main_v27 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v27 main_v28 rfl shapeCasts_S1x64x64_S64x64,
    binary main_v26 main_v28 main_v29 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg3 main_v30 ((extractStridedSlice S1x64 ![1, 0] · slices_S2x64_S1x64_1_0) : (⟨S2x64, .f32⟩ : BufTy).Contents (Elt F) → (⟨S1x64, .f32⟩ : BufTy).Contents (Elt F)),
    reshape main_v30 main_v31 rfl shapeCasts_S1x64_S64,
    unary main_v31 main_v32 (broadcastInDim S1x64 ![1] bcast_S64_S1x64_1 : (⟨S64, .f32⟩ : BufTy).Contents (Elt F) → (⟨S1x64, .f32⟩ : BufTy).Contents (Elt F)),
    unary main_v32 main_v33 (broadcastInDim S200000x64 ![0, 1] bcast_S1x64_S200000x64_0_1 : (⟨S1x64, .f32⟩ : BufTy).Contents (Elt F) → (⟨S200000x64, .f32⟩ : BufTy).Contents (Elt F)),
    binary main_v29 main_v33 main_v34 (addf : (⟨S200000x64, .f32⟩ : BufTy).Contents (Elt F) → (⟨S200000x64, .f32⟩ : BufTy).Contents (Elt F) → (⟨S200000x64, .f32⟩ : BufTy).Contents (Elt F)),
    nullary main_cst_4 (constant S_ .f32 0x00000000#32),
    unary main_cst_4 main_v35 (broadcastInDim S200000x64 ![] bcast_S_S200000x64 : (⟨S_, .f32⟩ : BufTy).Contents (Elt F) → (⟨S200000x64, .f32⟩ : BufTy).Contents (Elt F)),
    binary main_v34 main_v35 main_v36 (cmpf .oge : (⟨S200000x64, .f32⟩ : BufTy).Contents (Elt F) → (⟨S200000x64, .f32⟩ : BufTy).Contents (Elt F) → (⟨S200000x64, .i1⟩ : BufTy).Contents (Elt F)),
    nullary main_cst_5 (constant S_ .f32 0x3C23D70A#32),
    unary main_cst_5 main_v37 (broadcastInDim S200000x64 ![] bcast_S_S200000x64 : (⟨S_, .f32⟩ : BufTy).Contents (Elt F) → (⟨S200000x64, .f32⟩ : BufTy).Contents (Elt F)),
    binary main_v37 main_v34 main_v38 (mulf : (⟨S200000x64, .f32⟩ : BufTy).Contents (Elt F) → (⟨S200000x64, .f32⟩ : BufTy).Contents (Elt F) → (⟨S200000x64, .f32⟩ : BufTy).Contents (Elt F)),
    TRef.ternary (.of main_v36 : TRef sig ⟨S200000x64, .i1⟩) (.of main_v34 : TRef sig ⟨S200000x64, .f32⟩) (.of main_v38 : TRef sig ⟨S200000x64, .f32⟩) main_call1.v0 select ]
abbrev C1_W : List (Ref sig .tc) :=
  [main_v14, main_v15, main_v16, main_v17, main_v18, main_v19, main_v20, main_v21, main_cst, main_v22, main_v23, main_cst_3, main_v24, main_v25, main_v26, main_v27, main_v28, main_v29, main_v30, main_v31, main_v32, main_v33, main_v34, main_cst_4, main_v35, main_v36, main_cst_5, main_v37, main_v38, main_v39]
theorem C1_sub : (C1 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C1_writes : (C1 : List (HloOp τ sig (Elt F))).Forall fun op => op.writes ⊆ ((C1_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 49 … 78: 30 operations. -/
abbrev C2 : List (HloOp τ sig (Elt F)) :=
  [ unary main_arg4 main_v40 ((extractStridedSlice S1x64x64 ![0, 0, 0] · slices_S2x64x64_S1x64x64_0_0_0) : (⟨S2x64x64, .f32⟩ : BufTy).Contents (Elt F) → (⟨S1x64x64, .f32⟩ : BufTy).Contents (Elt F)),
    reshape main_v40 main_v41 rfl shapeCasts_S1x64x64_S64x64,
    binary main_v13 main_v41 main_v42 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg5 main_v43 ((extractStridedSlice S1x64 ![0, 0] · slices_S2x64_S1x64_0_0) : (⟨S2x64, .f32⟩ : BufTy).Contents (Elt F) → (⟨S1x64, .f32⟩ : BufTy).Contents (Elt F)),
    reshape main_v43 main_v44 rfl shapeCasts_S1x64_S64,
    unary main_v44 main_v45 (broadcastInDim S1x64 ![1] bcast_S64_S1x64_1 : (⟨S64, .f32⟩ : BufTy).Contents (Elt F) → (⟨S1x64, .f32⟩ : BufTy).Contents (Elt F)),
    unary main_v45 main_v46 (broadcastInDim S200000x64 ![0, 1] bcast_S1x64_S200000x64_0_1 : (⟨S1x64, .f32⟩ : BufTy).Contents (Elt F) → (⟨S200000x64, .f32⟩ : BufTy).Contents (Elt F)),
    binary main_v42 main_v46 main_v47 (addf : (⟨S200000x64, .f32⟩ : BufTy).Contents (Elt F) → (⟨S200000x64, .f32⟩ : BufTy).Contents (Elt F) → (⟨S200000x64, .f32⟩ : BufTy).Contents (Elt F)),
    nullary main_cst_6 (constant S_ .f32 0x00000000#32),
    unary main_cst_6 main_v48 (broadcastInDim S200000x64 ![] bcast_S_S200000x64 : (⟨S_, .f32⟩ : BufTy).Contents (Elt F) → (⟨S200000x64, .f32⟩ : BufTy).Contents (Elt F)),
    binary main_v47 main_v48 main_v49 (cmpf .oge : (⟨S200000x64, .f32⟩ : BufTy).Contents (Elt F) → (⟨S200000x64, .f32⟩ : BufTy).Contents (Elt F) → (⟨S200000x64, .i1⟩ : BufTy).Contents (Elt F)),
    nullary main_cst_7 (constant S_ .f32 0x3C23D70A#32),
    unary main_cst_7 main_v50 (broadcastInDim S200000x64 ![] bcast_S_S200000x64 : (⟨S_, .f32⟩ : BufTy).Contents (Elt F) → (⟨S200000x64, .f32⟩ : BufTy).Contents (Elt F)),
    binary main_v50 main_v47 main_v51 (mulf : (⟨S200000x64, .f32⟩ : BufTy).Contents (Elt F) → (⟨S200000x64, .f32⟩ : BufTy).Contents (Elt F) → (⟨S200000x64, .f32⟩ : BufTy).Contents (Elt F)),
    TRef.ternary (.of main_v49 : TRef sig ⟨S200000x64, .i1⟩) (.of main_v47 : TRef sig ⟨S200000x64, .f32⟩) (.of main_v51 : TRef sig ⟨S200000x64, .f32⟩) main_call2.v0 select,
    unary main_arg4 main_v53 ((extractStridedSlice S1x64x64 ![1, 0, 0] · slices_S2x64x64_S1x64x64_1_0_0) : (⟨S2x64x64, .f32⟩ : BufTy).Contents (Elt F) → (⟨S1x64x64, .f32⟩ : BufTy).Contents (Elt F)),
    reshape main_v53 main_v54 rfl shapeCasts_S1x64x64_S64x64,
    binary main_v52 main_v54 main_v55 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    unary main_arg5 main_v56 ((extractStridedSlice S1x64 ![1, 0] · slices_S2x64_S1x64_1_0) : (⟨S2x64, .f32⟩ : BufTy).Contents (Elt F) → (⟨S1x64, .f32⟩ : BufTy).Contents (Elt F)),
    reshape main_v56 main_v57 rfl shapeCasts_S1x64_S64,
    unary main_v57 main_v58 (broadcastInDim S1x64 ![1] bcast_S64_S1x64_1 : (⟨S64, .f32⟩ : BufTy).Contents (Elt F) → (⟨S1x64, .f32⟩ : BufTy).Contents (Elt F)),
    unary main_v58 main_v59 (broadcastInDim S200000x64 ![0, 1] bcast_S1x64_S200000x64_0_1 : (⟨S1x64, .f32⟩ : BufTy).Contents (Elt F) → (⟨S200000x64, .f32⟩ : BufTy).Contents (Elt F)),
    binary main_v55 main_v59 main_v60 (addf : (⟨S200000x64, .f32⟩ : BufTy).Contents (Elt F) → (⟨S200000x64, .f32⟩ : BufTy).Contents (Elt F) → (⟨S200000x64, .f32⟩ : BufTy).Contents (Elt F)),
    nullary main_cst_8 (constant S_ .f32 0x00000000#32),
    unary main_cst_8 main_v61 (broadcastInDim S200000x64 ![] bcast_S_S200000x64 : (⟨S_, .f32⟩ : BufTy).Contents (Elt F) → (⟨S200000x64, .f32⟩ : BufTy).Contents (Elt F)),
    binary main_v60 main_v61 main_v62 (cmpf .oge : (⟨S200000x64, .f32⟩ : BufTy).Contents (Elt F) → (⟨S200000x64, .f32⟩ : BufTy).Contents (Elt F) → (⟨S200000x64, .i1⟩ : BufTy).Contents (Elt F)),
    nullary main_cst_9 (constant S_ .f32 0x3C23D70A#32),
    unary main_cst_9 main_v63 (broadcastInDim S200000x64 ![] bcast_S_S200000x64 : (⟨S_, .f32⟩ : BufTy).Contents (Elt F) → (⟨S200000x64, .f32⟩ : BufTy).Contents (Elt F)),
    binary main_v63 main_v60 main_v64 (mulf : (⟨S200000x64, .f32⟩ : BufTy).Contents (Elt F) → (⟨S200000x64, .f32⟩ : BufTy).Contents (Elt F) → (⟨S200000x64, .f32⟩ : BufTy).Contents (Elt F)),
    TRef.ternary (.of main_v62 : TRef sig ⟨S200000x64, .i1⟩) (.of main_v60 : TRef sig ⟨S200000x64, .f32⟩) (.of main_v64 : TRef sig ⟨S200000x64, .f32⟩) main_call3.v0 select ]
abbrev C2_W : List (Ref sig .tc) :=
  [main_v40, main_v41, main_v42, main_v43, main_v44, main_v45, main_v46, main_v47, main_cst_6, main_v48, main_v49, main_cst_7, main_v50, main_v51, main_v52, main_v53, main_v54, main_v55, main_v56, main_v57, main_v58, main_v59, main_v60, main_cst_8, main_v61, main_v62, main_cst_9, main_v63, main_v64, main_v65]
theorem C2_sub : (C2 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C2_writes : (C2 : List (HloOp τ sig (Elt F))).Forall fun op => op.writes ⊆ ((C2_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 79 … 113: 35 operations. -/
abbrev C3 : List (HloOp τ sig (Elt F)) :=
  [ unary main_arg6 main_v66 ((extractStridedSlice S1x1x64x64 ![0, 0, 0, 0] · slices_S2x3x64x64_S1x1x64x64_0_0_0_0) : (⟨S2x3x64x64, .f32⟩ : BufTy).Contents (Elt F) → (⟨S1x1x64x64, .f32⟩ : BufTy).Contents (Elt F)),
    reshape main_v66 main_v67 rfl shapeCasts_S1x1x64x64_S64x64,
    unary main_arg7 main_v68 ((extractStridedSlice S1x1x64x64 ![0, 0, 0, 0] · slices_S2x3x64x64_S1x1x64x64_0_0_0_0) : (⟨S2x3x64x64, .f32⟩ : BufTy).Contents (Elt F) → (⟨S1x1x64x64, .f32⟩ : BufTy).Contents (Elt F)),
    reshape main_v68 main_v69 rfl shapeCasts_S1x1x64x64_S64x64,
    unary main_arg8 main_v70 ((extractStridedSlice S1x1x64 ![0, 0, 0] · slices_S2x3x64_S1x1x64_0_0_0) : (⟨S2x3x64, .f32⟩ : BufTy).Contents (Elt F) → (⟨S1x1x64, .f32⟩ : BufTy).Contents (Elt F)),
    reshape main_v70 main_v71 rfl shapeCasts_S1x1x64_S64,
    unary main_arg15 main_v72 ((extractStridedSlice S1x1000000 ![0, 0] · slices_S2x1000000_S1x1000000_0_0) : (⟨S2x1000000, .i32⟩ : BufTy).Contents (Elt F) → (⟨S1x1000000, .i32⟩ : BufTy).Contents (Elt F)),
    reshape main_v72 main_v73 rfl shapeCasts_S1x1000000_S1000000,
    unary main_arg15 main_v74 ((extractStridedSlice S1x1000000 ![1, 0] · slices_S2x1000000_S1x1000000_1_0) : (⟨S2x1000000, .i32⟩ : BufTy).Contents (Elt F) → (⟨S1x1000000, .i32⟩ : BufTy).Contents (Elt F)),
    reshape main_v74 main_v75 rfl shapeCasts_S1x1000000_S1000000,
    nullary main_c_10 (constantI S_ 32 0#32),
    unary main_c_10 main_v76 (broadcastInDim S1000000 ![] bcast_S_S1000000 : (⟨S_, .i32⟩ : BufTy).Contents (Elt F) → (⟨S1000000, .i32⟩ : BufTy).Contents (Elt F)),
    binary main_v73 main_v76 main_v77 (cmpi .slt : (⟨S1000000, .i32⟩ : BufTy).Contents (Elt F) → (⟨S1000000, .i32⟩ : BufTy).Contents (Elt F) → (⟨S1000000, .i1⟩ : BufTy).Contents (Elt F)),
    nullary main_c_11 (constantI S_ 32 200000#32),
    unary main_c_11 main_v78 (broadcastInDim S1000000 ![] bcast_S_S1000000 : (⟨S_, .i32⟩ : BufTy).Contents (Elt F) → (⟨S1000000, .i32⟩ : BufTy).Contents (Elt F)),
    binary main_v73 main_v78 main_v79 (addi : (⟨S1000000, .i32⟩ : BufTy).Contents (Elt F) → (⟨S1000000, .i32⟩ : BufTy).Contents (Elt F) → (⟨S1000000, .i32⟩ : BufTy).Contents (Elt F)),
    ternary main_v77 main_v79 main_v73 main_v80 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v80 main_v81 (broadcastInDim S1000000x1 ![0] bcast_S1000000_S1000000x1_0 : (⟨S1000000, .i32⟩ : BufTy).Contents (Elt F) → (⟨S1000000x1, .i32⟩ : BufTy).Contents (Elt F)),
    binary main_v39 main_v81 main_v82 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    nullary main_cst_12 (constant S_ .f32 0x00000000#32),
    unary main_cst_12 main_v83 (broadcastInDim S200000x64 ![] bcast_S_S200000x64 : (⟨S_, .f32⟩ : BufTy).Contents (Elt F) → (⟨S200000x64, .f32⟩ : BufTy).Contents (Elt F)),
    unary main_v75 main_v84 (broadcastInDim S1000000x1 ![0] bcast_S1000000_S1000000x1_0 : (⟨S1000000, .i32⟩ : BufTy).Contents (Elt F) → (⟨S1000000x1, .i32⟩ : BufTy).Contents (Elt F)),
    ternary main_v83 main_v84 main_v82 main_v85 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    nullary main_cst_13 (constant S_ .f32 0x3F800000#32),
    unary main_cst_13 main_v86 (broadcastInDim S1000000 ![] bcast_S_S1000000 : (⟨S_, .f32⟩ : BufTy).Contents (Elt F) → (⟨S1000000, .f32⟩ : BufTy).Contents (Elt F)),
    nullary main_cst_14 (constant S_ .f32 0x00000000#32),
    unary main_cst_14 main_v87 (broadcastInDim S200000 ![] bcast_S_S200000 : (⟨S_, .f32⟩ : BufTy).Contents (Elt F) → (⟨S200000, .f32⟩ : BufTy).Contents (Elt F)),
    unary main_v75 main_v88 (broadcastInDim S1000000x1 ![0] bcast_S1000000_S1000000x1_0 : (⟨S1000000, .i32⟩ : BufTy).Contents (Elt F) → (⟨S1000000x1, .i32⟩ : BufTy).Contents (Elt F)),
    ternary main_v87 main_v88 main_v86 main_v89 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)),
    unary main_v89 main_v90 (broadcastInDim S200000x1 ![0] bcast_S200000_S200000x1_0 : (⟨S200000, .f32⟩ : BufTy).Contents (Elt F) → (⟨S200000x1, .f32⟩ : BufTy).Contents (Elt F)),
    nullary main_cst_15 (constant S_ .f32 0x3F800000#32),
    unary main_cst_15 main_v91 (broadcastInDim S200000x1 ![] bcast_S_S200000x1 : (⟨S_, .f32⟩ : BufTy).Contents (Elt F) → (⟨S200000x1, .f32⟩ : BufTy).Contents (Elt F)),
    binary main_v90 main_v91 main_v92 (maximumf : (⟨S200000x1, .f32⟩ : BufTy).Contents (Elt F) → (⟨S200000x1, .f32⟩ : BufTy).Contents (Elt F) → (⟨S200000x1, .f32⟩ : BufTy).Contents (Elt F)),
    unary main_v92 main_v93 (broadcastInDim S200000x64 ![0, 1] bcast_S200000x1_S200000x64_0_1 : (⟨S200000x1, .f32⟩ : BufTy).Contents (Elt F) → (⟨S200000x64, .f32⟩ : BufTy).Contents (Elt F)),
    binary main_v85 main_v93 main_v94 (Host.divf : (⟨S200000x64, .f32⟩ : BufTy).Contents (Elt F) → (⟨S200000x64, .f32⟩ : BufTy).Contents (Elt F) → (⟨S200000x64, .f32⟩ : BufTy).Contents (Elt F)) ]
abbrev C3_W : List (Ref sig .tc) :=
  [main_v66, main_v67, main_v68, main_v69, main_v70, main_v71, main_v72, main_v73, main_v74, main_v75, main_c_10, main_v76, main_v77, main_c_11, main_v78, main_v79, main_v80, main_v81, main_v82, main_cst_12, main_v83, main_v84, main_v85, main_cst_13, main_v86, main_cst_14, main_v87, main_v88, main_v89, main_v90, main_cst_15, main_v91, main_v92, main_v93, main_v94]
theorem C3_sub : (C3 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C3_writes : (C3 : List (HloOp τ sig (Elt F))).Forall fun op => op.writes ⊆ ((C3_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 114 … 119: 6 operations. -/
abbrev C4 : List (HloOp τ sig (Elt F)) :=
  [ binary main_v65 main_v67 main_v95 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v94 main_v69 main_v96 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v95 main_v96 main_v97 (addf : (⟨S200000x64, .f32⟩ : BufTy).Contents (Elt F) → (⟨S200000x64, .f32⟩ : BufTy).Contents (Elt F) → (⟨S200000x64, .f32⟩ : BufTy).Contents (Elt F)),
    unary main_v71 main_v98 (broadcastInDim S1x64 ![1] bcast_S64_S1x64_1 : (⟨S64, .f32⟩ : BufTy).Contents (Elt F) → (⟨S1x64, .f32⟩ : BufTy).Contents (Elt F)),
    unary main_v98 main_v99 (broadcastInDim S200000x64 ![0, 1] bcast_S1x64_S200000x64_0_1 : (⟨S1x64, .f32⟩ : BufTy).Contents (Elt F) → (⟨S200000x64, .f32⟩ : BufTy).Contents (Elt F)),
    binary main_v97 main_v99 main_v100 (addf : (⟨S200000x64, .f32⟩ : BufTy).Contents (Elt F) → (⟨S200000x64, .f32⟩ : BufTy).Contents (Elt F) → (⟨S200000x64, .f32⟩ : BufTy).Contents (Elt F)) ]
abbrev C4_W : List (Ref sig .tc) :=
  [main_v95, main_v96, main_v97, main_v98, main_v99, main_v100]
theorem C4_sub : (C4 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C4_writes : (C4 : List (HloOp τ sig (Elt F))).Forall fun op => op.writes ⊆ ((C4_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 120 … 154: 35 operations. -/
abbrev C5 : List (HloOp τ sig (Elt F)) :=
  [ unary main_arg6 main_v101 ((extractStridedSlice S1x1x64x64 ![0, 1, 0, 0] · slices_S2x3x64x64_S1x1x64x64_0_1_0_0) : (⟨S2x3x64x64, .f32⟩ : BufTy).Contents (Elt F) → (⟨S1x1x64x64, .f32⟩ : BufTy).Contents (Elt F)),
    reshape main_v101 main_v102 rfl shapeCasts_S1x1x64x64_S64x64,
    unary main_arg7 main_v103 ((extractStridedSlice S1x1x64x64 ![0, 1, 0, 0] · slices_S2x3x64x64_S1x1x64x64_0_1_0_0) : (⟨S2x3x64x64, .f32⟩ : BufTy).Contents (Elt F) → (⟨S1x1x64x64, .f32⟩ : BufTy).Contents (Elt F)),
    reshape main_v103 main_v104 rfl shapeCasts_S1x1x64x64_S64x64,
    unary main_arg8 main_v105 ((extractStridedSlice S1x1x64 ![0, 1, 0] · slices_S2x3x64_S1x1x64_0_1_0) : (⟨S2x3x64, .f32⟩ : BufTy).Contents (Elt F) → (⟨S1x1x64, .f32⟩ : BufTy).Contents (Elt F)),
    reshape main_v105 main_v106 rfl shapeCasts_S1x1x64_S64,
    unary main_arg16 main_v107 ((extractStridedSlice S1x1000000 ![0, 0] · slices_S2x1000000_S1x1000000_0_0) : (⟨S2x1000000, .i32⟩ : BufTy).Contents (Elt F) → (⟨S1x1000000, .i32⟩ : BufTy).Contents (Elt F)),
    reshape main_v107 main_v108 rfl shapeCasts_S1x1000000_S1000000,
    unary main_arg16 main_v109 ((extractStridedSlice S1x1000000 ![1, 0] · slices_S2x1000000_S1x1000000_1_0) : (⟨S2x1000000, .i32⟩ : BufTy).Contents (Elt F) → (⟨S1x1000000, .i32⟩ : BufTy).Contents (Elt F)),
    reshape main_v109 main_v110 rfl shapeCasts_S1x1000000_S1000000,
    nullary main_c_16 (constantI S_ 32 0#32),
    unary main_c_16 main_v111 (broadcastInDim S1000000 ![] bcast_S_S1000000 : (⟨S_, .i32⟩ : BufTy).Contents (Elt F) → (⟨S1000000, .i32⟩ : BufTy).Contents (Elt F)),
    binary main_v108 main_v111 main_v112 (cmpi .slt : (⟨S1000000, .i32⟩ : BufTy).Contents (Elt F) → (⟨S1000000, .i32⟩ : BufTy).Contents (Elt F) → (⟨S1000000, .i1⟩ : BufTy).Contents (Elt F)),
    nullary main_c_17 (constantI S_ 32 200000#32),
    unary main_c_17 main_v113 (broadcastInDim S1000000 ![] bcast_S_S1000000 : (⟨S_, .i32⟩ : BufTy).Contents (Elt F) → (⟨S1000000, .i32⟩ : BufTy).Contents (Elt F)),
    binary main_v108 main_v113 main_v114 (addi : (⟨S1000000, .i32⟩ : BufTy).Contents (Elt F) → (⟨S1000000, .i32⟩ : BufTy).Contents (Elt F) → (⟨S1000000, .i32⟩ : BufTy).Contents (Elt F)),
    ternary main_v112 main_v114 main_v108 main_v115 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v115 main_v116 (broadcastInDim S1000000x1 ![0] bcast_S1000000_S1000000x1_0 : (⟨S1000000, .i32⟩ : BufTy).Contents (Elt F) → (⟨S1000000x1, .i32⟩ : BufTy).Contents (Elt F)),
    binary main_v65 main_v116 main_v117 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    nullary main_cst_18 (constant S_ .f32 0x00000000#32),
    unary main_cst_18 main_v118 (broadcastInDim S200000x64 ![] bcast_S_S200000x64 : (⟨S_, .f32⟩ : BufTy).Contents (Elt F) → (⟨S200000x64, .f32⟩ : BufTy).Contents (Elt F)),
    unary main_v110 main_v119 (broadcastInDim S1000000x1 ![0] bcast_S1000000_S1000000x1_0 : (⟨S1000000, .i32⟩ : BufTy).Contents (Elt F) → (⟨S1000000x1, .i32⟩ : BufTy).Contents (Elt F)),
    ternary main_v118 main_v119 main_v117 main_v120 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    nullary main_cst_19 (constant S_ .f32 0x3F800000#32),
    unary main_cst_19 main_v121 (broadcastInDim S1000000 ![] bcast_S_S1000000 : (⟨S_, .f32⟩ : BufTy).Contents (Elt F) → (⟨S1000000, .f32⟩ : BufTy).Contents (Elt F)),
    nullary main_cst_20 (constant S_ .f32 0x00000000#32),
    unary main_cst_20 main_v122 (broadcastInDim S200000 ![] bcast_S_S200000 : (⟨S_, .f32⟩ : BufTy).Contents (Elt F) → (⟨S200000, .f32⟩ : BufTy).Contents (Elt F)),
    unary main_v110 main_v123 (broadcastInDim S1000000x1 ![0] bcast_S1000000_S1000000x1_0 : (⟨S1000000, .i32⟩ : BufTy).Contents (Elt F) → (⟨S1000000x1, .i32⟩ : BufTy).Contents (Elt F)),
    ternary main_v122 main_v123 main_v121 main_v124 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)),
    unary main_v124 main_v125 (broadcastInDim S200000x1 ![0] bcast_S200000_S200000x1_0 : (⟨S200000, .f32⟩ : BufTy).Contents (Elt F) → (⟨S200000x1, .f32⟩ : BufTy).Contents (Elt F)),
    nullary main_cst_21 (constant S_ .f32 0x3F800000#32),
    unary main_cst_21 main_v126 (broadcastInDim S200000x1 ![] bcast_S_S200000x1 : (⟨S_, .f32⟩ : BufTy).Contents (Elt F) → (⟨S200000x1, .f32⟩ : BufTy).Contents (Elt F)),
    binary main_v125 main_v126 main_v127 (maximumf : (⟨S200000x1, .f32⟩ : BufTy).Contents (Elt F) → (⟨S200000x1, .f32⟩ : BufTy).Contents (Elt F) → (⟨S200000x1, .f32⟩ : BufTy).Contents (Elt F)),
    unary main_v127 main_v128 (broadcastInDim S200000x64 ![0, 1] bcast_S200000x1_S200000x64_0_1 : (⟨S200000x1, .f32⟩ : BufTy).Contents (Elt F) → (⟨S200000x64, .f32⟩ : BufTy).Contents (Elt F)),
    binary main_v120 main_v128 main_v129 (Host.divf : (⟨S200000x64, .f32⟩ : BufTy).Contents (Elt F) → (⟨S200000x64, .f32⟩ : BufTy).Contents (Elt F) → (⟨S200000x64, .f32⟩ : BufTy).Contents (Elt F)) ]
abbrev C5_W : List (Ref sig .tc) :=
  [main_v101, main_v102, main_v103, main_v104, main_v105, main_v106, main_v107, main_v108, main_v109, main_v110, main_c_16, main_v111, main_v112, main_c_17, main_v113, main_v114, main_v115, main_v116, main_v117, main_cst_18, main_v118, main_v119, main_v120, main_cst_19, main_v121, main_cst_20, main_v122, main_v123, main_v124, main_v125, main_cst_21, main_v126, main_v127, main_v128, main_v129]
theorem C5_sub : (C5 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C5_writes : (C5 : List (HloOp τ sig (Elt F))).Forall fun op => op.writes ⊆ ((C5_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 155 … 160: 6 operations. -/
abbrev C6 : List (HloOp τ sig (Elt F)) :=
  [ binary main_v39 main_v102 main_v130 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v129 main_v104 main_v131 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v130 main_v131 main_v132 (addf : (⟨S200000x64, .f32⟩ : BufTy).Contents (Elt F) → (⟨S200000x64, .f32⟩ : BufTy).Contents (Elt F) → (⟨S200000x64, .f32⟩ : BufTy).Contents (Elt F)),
    unary main_v106 main_v133 (broadcastInDim S1x64 ![1] bcast_S64_S1x64_1 : (⟨S64, .f32⟩ : BufTy).Contents (Elt F) → (⟨S1x64, .f32⟩ : BufTy).Contents (Elt F)),
    unary main_v133 main_v134 (broadcastInDim S200000x64 ![0, 1] bcast_S1x64_S200000x64_0_1 : (⟨S1x64, .f32⟩ : BufTy).Contents (Elt F) → (⟨S200000x64, .f32⟩ : BufTy).Contents (Elt F)),
    binary main_v132 main_v134 main_v135 (addf : (⟨S200000x64, .f32⟩ : BufTy).Contents (Elt F) → (⟨S200000x64, .f32⟩ : BufTy).Contents (Elt F) → (⟨S200000x64, .f32⟩ : BufTy).Contents (Elt F)) ]
abbrev C6_W : List (Ref sig .tc) :=
  [main_v130, main_v131, main_v132, main_v133, main_v134, main_v135]
theorem C6_sub : (C6 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C6_writes : (C6 : List (HloOp τ sig (Elt F))).Forall fun op => op.writes ⊆ ((C6_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 161 … 195: 35 operations. -/
abbrev C7 : List (HloOp τ sig (Elt F)) :=
  [ unary main_arg6 main_v136 ((extractStridedSlice S1x1x64x64 ![0, 2, 0, 0] · slices_S2x3x64x64_S1x1x64x64_0_2_0_0) : (⟨S2x3x64x64, .f32⟩ : BufTy).Contents (Elt F) → (⟨S1x1x64x64, .f32⟩ : BufTy).Contents (Elt F)),
    reshape main_v136 main_v137 rfl shapeCasts_S1x1x64x64_S64x64,
    unary main_arg7 main_v138 ((extractStridedSlice S1x1x64x64 ![0, 2, 0, 0] · slices_S2x3x64x64_S1x1x64x64_0_2_0_0) : (⟨S2x3x64x64, .f32⟩ : BufTy).Contents (Elt F) → (⟨S1x1x64x64, .f32⟩ : BufTy).Contents (Elt F)),
    reshape main_v138 main_v139 rfl shapeCasts_S1x1x64x64_S64x64,
    unary main_arg8 main_v140 ((extractStridedSlice S1x1x64 ![0, 2, 0] · slices_S2x3x64_S1x1x64_0_2_0) : (⟨S2x3x64, .f32⟩ : BufTy).Contents (Elt F) → (⟨S1x1x64, .f32⟩ : BufTy).Contents (Elt F)),
    reshape main_v140 main_v141 rfl shapeCasts_S1x1x64_S64,
    unary main_arg17 main_v142 ((extractStridedSlice S1x1000000 ![0, 0] · slices_S2x1000000_S1x1000000_0_0) : (⟨S2x1000000, .i32⟩ : BufTy).Contents (Elt F) → (⟨S1x1000000, .i32⟩ : BufTy).Contents (Elt F)),
    reshape main_v142 main_v143 rfl shapeCasts_S1x1000000_S1000000,
    unary main_arg17 main_v144 ((extractStridedSlice S1x1000000 ![1, 0] · slices_S2x1000000_S1x1000000_1_0) : (⟨S2x1000000, .i32⟩ : BufTy).Contents (Elt F) → (⟨S1x1000000, .i32⟩ : BufTy).Contents (Elt F)),
    reshape main_v144 main_v145 rfl shapeCasts_S1x1000000_S1000000,
    nullary main_c_22 (constantI S_ 32 0#32),
    unary main_c_22 main_v146 (broadcastInDim S1000000 ![] bcast_S_S1000000 : (⟨S_, .i32⟩ : BufTy).Contents (Elt F) → (⟨S1000000, .i32⟩ : BufTy).Contents (Elt F)),
    binary main_v143 main_v146 main_v147 (cmpi .slt : (⟨S1000000, .i32⟩ : BufTy).Contents (Elt F) → (⟨S1000000, .i32⟩ : BufTy).Contents (Elt F) → (⟨S1000000, .i1⟩ : BufTy).Contents (Elt F)),
    nullary main_c_23 (constantI S_ 32 200000#32),
    unary main_c_23 main_v148 (broadcastInDim S1000000 ![] bcast_S_S1000000 : (⟨S_, .i32⟩ : BufTy).Contents (Elt F) → (⟨S1000000, .i32⟩ : BufTy).Contents (Elt F)),
    binary main_v143 main_v148 main_v149 (addi : (⟨S1000000, .i32⟩ : BufTy).Contents (Elt F) → (⟨S1000000, .i32⟩ : BufTy).Contents (Elt F) → (⟨S1000000, .i32⟩ : BufTy).Contents (Elt F)),
    ternary main_v147 main_v149 main_v143 main_v150 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v150 main_v151 (broadcastInDim S1000000x1 ![0] bcast_S1000000_S1000000x1_0 : (⟨S1000000, .i32⟩ : BufTy).Contents (Elt F) → (⟨S1000000x1, .i32⟩ : BufTy).Contents (Elt F)),
    binary main_v39 main_v151 main_v152 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    nullary main_cst_24 (constant S_ .f32 0x00000000#32),
    unary main_cst_24 main_v153 (broadcastInDim S200000x64 ![] bcast_S_S200000x64 : (⟨S_, .f32⟩ : BufTy).Contents (Elt F) → (⟨S200000x64, .f32⟩ : BufTy).Contents (Elt F)),
    unary main_v145 main_v154 (broadcastInDim S1000000x1 ![0] bcast_S1000000_S1000000x1_0 : (⟨S1000000, .i32⟩ : BufTy).Contents (Elt F) → (⟨S1000000x1, .i32⟩ : BufTy).Contents (Elt F)),
    ternary main_v153 main_v154 main_v152 main_v155 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    nullary main_cst_25 (constant S_ .f32 0x3F800000#32),
    unary main_cst_25 main_v156 (broadcastInDim S1000000 ![] bcast_S_S1000000 : (⟨S_, .f32⟩ : BufTy).Contents (Elt F) → (⟨S1000000, .f32⟩ : BufTy).Contents (Elt F)),
    nullary main_cst_26 (constant S_ .f32 0x00000000#32),
    unary main_cst_26 main_v157 (broadcastInDim S200000 ![] bcast_S_S200000 : (⟨S_, .f32⟩ : BufTy).Contents (Elt F) → (⟨S200000, .f32⟩ : BufTy).Contents (Elt F)),
    unary main_v145 main_v158 (broadcastInDim S1000000x1 ![0] bcast_S1000000_S1000000x1_0 : (⟨S1000000, .i32⟩ : BufTy).Contents (Elt F) → (⟨S1000000x1, .i32⟩ : BufTy).Contents (Elt F)),
    ternary main_v157 main_v158 main_v156 main_v159 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)),
    unary main_v159 main_v160 (broadcastInDim S200000x1 ![0] bcast_S200000_S200000x1_0 : (⟨S200000, .f32⟩ : BufTy).Contents (Elt F) → (⟨S200000x1, .f32⟩ : BufTy).Contents (Elt F)),
    nullary main_cst_27 (constant S_ .f32 0x3F800000#32),
    unary main_cst_27 main_v161 (broadcastInDim S200000x1 ![] bcast_S_S200000x1 : (⟨S_, .f32⟩ : BufTy).Contents (Elt F) → (⟨S200000x1, .f32⟩ : BufTy).Contents (Elt F)),
    binary main_v160 main_v161 main_v162 (maximumf : (⟨S200000x1, .f32⟩ : BufTy).Contents (Elt F) → (⟨S200000x1, .f32⟩ : BufTy).Contents (Elt F) → (⟨S200000x1, .f32⟩ : BufTy).Contents (Elt F)),
    unary main_v162 main_v163 (broadcastInDim S200000x64 ![0, 1] bcast_S200000x1_S200000x64_0_1 : (⟨S200000x1, .f32⟩ : BufTy).Contents (Elt F) → (⟨S200000x64, .f32⟩ : BufTy).Contents (Elt F)),
    binary main_v155 main_v163 main_v164 (Host.divf : (⟨S200000x64, .f32⟩ : BufTy).Contents (Elt F) → (⟨S200000x64, .f32⟩ : BufTy).Contents (Elt F) → (⟨S200000x64, .f32⟩ : BufTy).Contents (Elt F)) ]
abbrev C7_W : List (Ref sig .tc) :=
  [main_v136, main_v137, main_v138, main_v139, main_v140, main_v141, main_v142, main_v143, main_v144, main_v145, main_c_22, main_v146, main_v147, main_c_23, main_v148, main_v149, main_v150, main_v151, main_v152, main_cst_24, main_v153, main_v154, main_v155, main_cst_25, main_v156, main_cst_26, main_v157, main_v158, main_v159, main_v160, main_cst_27, main_v161, main_v162, main_v163, main_v164]
theorem C7_sub : (C7 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C7_writes : (C7 : List (HloOp τ sig (Elt F))).Forall fun op => op.writes ⊆ ((C7_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 196 … 202: 7 operations. -/
abbrev C8 : List (HloOp τ sig (Elt F)) :=
  [ binary main_v39 main_v137 main_v165 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v164 main_v139 main_v166 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v165 main_v166 main_v167 (addf : (⟨S200000x64, .f32⟩ : BufTy).Contents (Elt F) → (⟨S200000x64, .f32⟩ : BufTy).Contents (Elt F) → (⟨S200000x64, .f32⟩ : BufTy).Contents (Elt F)),
    unary main_v141 main_v168 (broadcastInDim S1x64 ![1] bcast_S64_S1x64_1 : (⟨S64, .f32⟩ : BufTy).Contents (Elt F) → (⟨S1x64, .f32⟩ : BufTy).Contents (Elt F)),
    unary main_v168 main_v169 (broadcastInDim S200000x64 ![0, 1] bcast_S1x64_S200000x64_0_1 : (⟨S1x64, .f32⟩ : BufTy).Contents (Elt F) → (⟨S200000x64, .f32⟩ : BufTy).Contents (Elt F)),
    binary main_v167 main_v169 main_v170 (addf : (⟨S200000x64, .f32⟩ : BufTy).Contents (Elt F) → (⟨S200000x64, .f32⟩ : BufTy).Contents (Elt F) → (⟨S200000x64, .f32⟩ : BufTy).Contents (Elt F)),
    binary main_v135 main_v170 main_v171 (addf : (⟨S200000x64, .f32⟩ : BufTy).Contents (Elt F) → (⟨S200000x64, .f32⟩ : BufTy).Contents (Elt F) → (⟨S200000x64, .f32⟩ : BufTy).Contents (Elt F)) ]
abbrev C8_W : List (Ref sig .tc) :=
  [main_v165, main_v166, main_v167, main_v168, main_v169, main_v170, main_v171]
theorem C8_sub : (C8 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C8_writes : (C8 : List (HloOp τ sig (Elt F))).Forall fun op => op.writes ⊆ ((C8_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 203 … 213: 32 operations. -/
abbrev C9 : List (HloOp τ sig (Elt F)) :=
  [ unary main_arg9 main_v172 ((extractStridedSlice S1x1x64 ![0, 0, 0] · slices_S2x2x64_S1x1x64_0_0_0) : (⟨S2x2x64, .f32⟩ : BufTy).Contents (Elt F) → (⟨S1x1x64, .f32⟩ : BufTy).Contents (Elt F)),
    reshape main_v172 main_v173 rfl shapeCasts_S1x1x64_S64,
    unary main_arg10 main_v174 ((extractStridedSlice S1x1x64 ![0, 0, 0] · slices_S2x2x64_S1x1x64_0_0_0) : (⟨S2x2x64, .f32⟩ : BufTy).Contents (Elt F) → (⟨S1x1x64, .f32⟩ : BufTy).Contents (Elt F)),
    reshape main_v174 main_v175 rfl shapeCasts_S1x1x64_S64,
    nullary main_cst_28 (constant S_ .f32 0x00000000#32),
    binary main_v171 main_cst_28 main_v176 ((fun x v => Host.reduceAdd x v reducesTo_S200000x64_S64_d0 h_S_) : (⟨S200000x64, .f32⟩ : BufTy).Contents (Elt F) → (⟨S_, .f32⟩ : BufTy).Contents (Elt F) → (⟨S64, .f32⟩ : BufTy).Contents (Elt F)),
    nullary main_cst_29 (constant S_ .f32 0x48435000#32),
    unary main_cst_29 main_v177 (broadcastInDim S64 ![] bcast_S_S64 : (⟨S_, .f32⟩ : BufTy).Contents (Elt F) → (⟨S64, .f32⟩ : BufTy).Contents (Elt F)),
    binary main_v176 main_v177 main_v178 (Host.divf : (⟨S64, .f32⟩ : BufTy).Contents (Elt F) → (⟨S64, .f32⟩ : BufTy).Contents (Elt F) → (⟨S64, .f32⟩ : BufTy).Contents (Elt F)),
    nullary main_c_30 (constantI S_ 32 0#32),
    TRef.nullary main_call4.cst (constant S_ .f32 0x00000000#32),
    TRef.binary (.of main_v171 : TRef sig ⟨S200000x64, .f32⟩) main_call4.cst main_call4.v0 (fun x v => Host.reduceAdd x v reducesTo_S200000x64_S64_d0 h_S_),
    TRef.unary main_call4.v0 main_call4.v1 (broadcastInDim S1x64 ![1] bcast_S64_S1x64_1),
    TRef.nullary main_call4.cst_0 (constant S_ .f32 0x48435000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S200000x64 ![0, 1] bcast_S1x64_S200000x64_0_1),
    TRef.binary (.of main_v171 : TRef sig ⟨S200000x64, .f32⟩) main_call4.v4 main_call4.v5 subf,
    TRef.binary main_call4.v5 main_call4.v5 main_call4.v6 mulf,
    TRef.unary (.of main_c_30 : TRef sig ⟨S_, .i32⟩) main_call4.v7 (sitofp .f32),
    TRef.nullary main_call4.cst_1 (constant S_ .f32 0x48435000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S200000x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S64 ![] bcast_S_S64),
    TRef.ternary main_call4.v12 main_call4.v11 main_call4.call0.v1 main_call4.call0.v2 (fun p a b => select (broadcastInDim S64 ![] bcast_S_S64 p) a b) ]
abbrev C9_W : List (Ref sig .tc) :=
  [main_v172, main_v173, main_v174, main_v175, main_cst_28, main_v176, main_cst_29, main_v177, main_v178, main_c_30, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v179]
theorem C9_sub : (C9 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C9_writes : (C9 : List (HloOp τ sig (Elt F))).Forall fun op => op.writes ⊆ ((C9_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 214 … 229: 16 operations. -/
abbrev C10 : List (HloOp τ sig (Elt F)) :=
  [ unary main_v178 main_v180 (broadcastInDim S1x64 ![1] bcast_S64_S1x64_1 : (⟨S64, .f32⟩ : BufTy).Contents (Elt F) → (⟨S1x64, .f32⟩ : BufTy).Contents (Elt F)),
    unary main_v180 main_v181 (broadcastInDim S200000x64 ![0, 1] bcast_S1x64_S200000x64_0_1 : (⟨S1x64, .f32⟩ : BufTy).Contents (Elt F) → (⟨S200000x64, .f32⟩ : BufTy).Contents (Elt F)),
    binary main_v171 main_v181 main_v182 (subf : (⟨S200000x64, .f32⟩ : BufTy).Contents (Elt F) → (⟨S200000x64, .f32⟩ : BufTy).Contents (Elt F) → (⟨S200000x64, .f32⟩ : BufTy).Contents (Elt F)),
    unary main_v173 main_v183 (broadcastInDim S1x64 ![1] bcast_S64_S1x64_1 : (⟨S64, .f32⟩ : BufTy).Contents (Elt F) → (⟨S1x64, .f32⟩ : BufTy).Contents (Elt F)),
    unary main_v183 main_v184 (broadcastInDim S200000x64 ![0, 1] bcast_S1x64_S200000x64_0_1 : (⟨S1x64, .f32⟩ : BufTy).Contents (Elt F) → (⟨S200000x64, .f32⟩ : BufTy).Contents (Elt F)),
    binary main_v184 main_v182 main_v185 (mulf : (⟨S200000x64, .f32⟩ : BufTy).Contents (Elt F) → (⟨S200000x64, .f32⟩ : BufTy).Contents (Elt F) → (⟨S200000x64, .f32⟩ : BufTy).Contents (Elt F)),
    nullary main_cst_31 (constant S_ .f32 0x3727C5AC#32),
    unary main_cst_31 main_v186 (broadcastInDim S64 ![] bcast_S_S64 : (⟨S_, .f32⟩ : BufTy).Contents (Elt F) → (⟨S64, .f32⟩ : BufTy).Contents (Elt F)),
    binary main_v179 main_v186 main_v187 (addf : (⟨S64, .f32⟩ : BufTy).Contents (Elt F) → (⟨S64, .f32⟩ : BufTy).Contents (Elt F) → (⟨S64, .f32⟩ : BufTy).Contents (Elt F)),
    unary main_v187 main_v188 (Host.sqrt : (⟨S64, .f32⟩ : BufTy).Contents (Elt F) → (⟨S64, .f32⟩ : BufTy).Contents (Elt F)),
    unary main_v188 main_v189 (broadcastInDim S1x64 ![1] bcast_S64_S1x64_1 : (⟨S64, .f32⟩ : BufTy).Contents (Elt F) → (⟨S1x64, .f32⟩ : BufTy).Contents (Elt F)),
    unary main_v189 main_v190 (broadcastInDim S200000x64 ![0, 1] bcast_S1x64_S200000x64_0_1 : (⟨S1x64, .f32⟩ : BufTy).Contents (Elt F) → (⟨S200000x64, .f32⟩ : BufTy).Contents (Elt F)),
    binary main_v185 main_v190 main_v191 (Host.divf : (⟨S200000x64, .f32⟩ : BufTy).Contents (Elt F) → (⟨S200000x64, .f32⟩ : BufTy).Contents (Elt F) → (⟨S200000x64, .f32⟩ : BufTy).Contents (Elt F)),
    unary main_v175 main_v192 (broadcastInDim S1x64 ![1] bcast_S64_S1x64_1 : (⟨S64, .f32⟩ : BufTy).Contents (Elt F) → (⟨S1x64, .f32⟩ : BufTy).Contents (Elt F)),
    unary main_v192 main_v193 (broadcastInDim S200000x64 ![0, 1] bcast_S1x64_S200000x64_0_1 : (⟨S1x64, .f32⟩ : BufTy).Contents (Elt F) → (⟨S200000x64, .f32⟩ : BufTy).Contents (Elt F)),
    binary main_v191 main_v193 main_v194 (addf : (⟨S200000x64, .f32⟩ : BufTy).Contents (Elt F) → (⟨S200000x64, .f32⟩ : BufTy).Contents (Elt F) → (⟨S200000x64, .f32⟩ : BufTy).Contents (Elt F)) ]
abbrev C10_W : List (Ref sig .tc) :=
  [main_v180, main_v181, main_v182, main_v183, main_v184, main_v185, main_cst_31, main_v186, main_v187, main_v188, main_v189, main_v190, main_v191, main_v192, main_v193, main_v194]
theorem C10_sub : (C10 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C10_writes : (C10 : List (HloOp τ sig (Elt F))).Forall fun op => op.writes ⊆ ((C10_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 230 … 240: 32 operations. -/
abbrev C11 : List (HloOp τ sig (Elt F)) :=
  [ unary main_arg9 main_v195 ((extractStridedSlice S1x1x64 ![0, 1, 0] · slices_S2x2x64_S1x1x64_0_1_0) : (⟨S2x2x64, .f32⟩ : BufTy).Contents (Elt F) → (⟨S1x1x64, .f32⟩ : BufTy).Contents (Elt F)),
    reshape main_v195 main_v196 rfl shapeCasts_S1x1x64_S64,
    unary main_arg10 main_v197 ((extractStridedSlice S1x1x64 ![0, 1, 0] · slices_S2x2x64_S1x1x64_0_1_0) : (⟨S2x2x64, .f32⟩ : BufTy).Contents (Elt F) → (⟨S1x1x64, .f32⟩ : BufTy).Contents (Elt F)),
    reshape main_v197 main_v198 rfl shapeCasts_S1x1x64_S64,
    nullary main_cst_32 (constant S_ .f32 0x00000000#32),
    binary main_v100 main_cst_32 main_v199 ((fun x v => Host.reduceAdd x v reducesTo_S200000x64_S64_d0 h_S_) : (⟨S200000x64, .f32⟩ : BufTy).Contents (Elt F) → (⟨S_, .f32⟩ : BufTy).Contents (Elt F) → (⟨S64, .f32⟩ : BufTy).Contents (Elt F)),
    nullary main_cst_33 (constant S_ .f32 0x48435000#32),
    unary main_cst_33 main_v200 (broadcastInDim S64 ![] bcast_S_S64 : (⟨S_, .f32⟩ : BufTy).Contents (Elt F) → (⟨S64, .f32⟩ : BufTy).Contents (Elt F)),
    binary main_v199 main_v200 main_v201 (Host.divf : (⟨S64, .f32⟩ : BufTy).Contents (Elt F) → (⟨S64, .f32⟩ : BufTy).Contents (Elt F) → (⟨S64, .f32⟩ : BufTy).Contents (Elt F)),
    nullary main_c_34 (constantI S_ 32 0#32),
    TRef.nullary main_call5.cst (constant S_ .f32 0x00000000#32),
    TRef.binary (.of main_v100 : TRef sig ⟨S200000x64, .f32⟩) main_call5.cst main_call5.v0 (fun x v => Host.reduceAdd x v reducesTo_S200000x64_S64_d0 h_S_),
    TRef.unary main_call5.v0 main_call5.v1 (broadcastInDim S1x64 ![1] bcast_S64_S1x64_1),
    TRef.nullary main_call5.cst_0 (constant S_ .f32 0x48435000#32),
    TRef.unary main_call5.cst_0 main_call5.v2 (broadcastInDim S1x64 ![] bcast_S_S1x64),
    TRef.binary main_call5.v1 main_call5.v2 main_call5.v3 Host.divf,
    TRef.unary main_call5.v3 main_call5.v4 (broadcastInDim S200000x64 ![0, 1] bcast_S1x64_S200000x64_0_1),
    TRef.binary (.of main_v100 : TRef sig ⟨S200000x64, .f32⟩) main_call5.v4 main_call5.v5 subf,
    TRef.binary main_call5.v5 main_call5.v5 main_call5.v6 mulf,
    TRef.unary (.of main_c_34 : TRef sig ⟨S_, .i32⟩) main_call5.v7 (sitofp .f32),
    TRef.nullary main_call5.cst_1 (constant S_ .f32 0x48435000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S200000x64_S64_d0 h_S_),
    TRef.unary main_call5.v8 main_call5.v10 (broadcastInDim S64 ![] bcast_S_S64),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S64 ![] bcast_S_S64),
    TRef.ternary main_call5.v12 main_call5.v11 main_call5.call0.v1 main_call5.call0.v2 (fun p a b => select (broadcastInDim S64 ![] bcast_S_S64 p) a b) ]
abbrev C11_W : List (Ref sig .tc) :=
  [main_v195, main_v196, main_v197, main_v198, main_cst_32, main_v199, main_cst_33, main_v200, main_v201, main_c_34, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v202]
theorem C11_sub : (C11 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C11_writes : (C11 : List (HloOp τ sig (Elt F))).Forall fun op => op.writes ⊆ ((C11_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 241 … 256: 16 operations. -/
abbrev C12 : List (HloOp τ sig (Elt F)) :=
  [ unary main_v201 main_v203 (broadcastInDim S1x64 ![1] bcast_S64_S1x64_1 : (⟨S64, .f32⟩ : BufTy).Contents (Elt F) → (⟨S1x64, .f32⟩ : BufTy).Contents (Elt F)),
    unary main_v203 main_v204 (broadcastInDim S200000x64 ![0, 1] bcast_S1x64_S200000x64_0_1 : (⟨S1x64, .f32⟩ : BufTy).Contents (Elt F) → (⟨S200000x64, .f32⟩ : BufTy).Contents (Elt F)),
    binary main_v100 main_v204 main_v205 (subf : (⟨S200000x64, .f32⟩ : BufTy).Contents (Elt F) → (⟨S200000x64, .f32⟩ : BufTy).Contents (Elt F) → (⟨S200000x64, .f32⟩ : BufTy).Contents (Elt F)),
    unary main_v196 main_v206 (broadcastInDim S1x64 ![1] bcast_S64_S1x64_1 : (⟨S64, .f32⟩ : BufTy).Contents (Elt F) → (⟨S1x64, .f32⟩ : BufTy).Contents (Elt F)),
    unary main_v206 main_v207 (broadcastInDim S200000x64 ![0, 1] bcast_S1x64_S200000x64_0_1 : (⟨S1x64, .f32⟩ : BufTy).Contents (Elt F) → (⟨S200000x64, .f32⟩ : BufTy).Contents (Elt F)),
    binary main_v207 main_v205 main_v208 (mulf : (⟨S200000x64, .f32⟩ : BufTy).Contents (Elt F) → (⟨S200000x64, .f32⟩ : BufTy).Contents (Elt F) → (⟨S200000x64, .f32⟩ : BufTy).Contents (Elt F)),
    nullary main_cst_35 (constant S_ .f32 0x3727C5AC#32),
    unary main_cst_35 main_v209 (broadcastInDim S64 ![] bcast_S_S64 : (⟨S_, .f32⟩ : BufTy).Contents (Elt F) → (⟨S64, .f32⟩ : BufTy).Contents (Elt F)),
    binary main_v202 main_v209 main_v210 (addf : (⟨S64, .f32⟩ : BufTy).Contents (Elt F) → (⟨S64, .f32⟩ : BufTy).Contents (Elt F) → (⟨S64, .f32⟩ : BufTy).Contents (Elt F)),
    unary main_v210 main_v211 (Host.sqrt : (⟨S64, .f32⟩ : BufTy).Contents (Elt F) → (⟨S64, .f32⟩ : BufTy).Contents (Elt F)),
    unary main_v211 main_v212 (broadcastInDim S1x64 ![1] bcast_S64_S1x64_1 : (⟨S64, .f32⟩ : BufTy).Contents (Elt F) → (⟨S1x64, .f32⟩ : BufTy).Contents (Elt F)),
    unary main_v212 main_v213 (broadcastInDim S200000x64 ![0, 1] bcast_S1x64_S200000x64_0_1 : (⟨S1x64, .f32⟩ : BufTy).Contents (Elt F) → (⟨S200000x64, .f32⟩ : BufTy).Contents (Elt F)),
    binary main_v208 main_v213 main_v214 (Host.divf : (⟨S200000x64, .f32⟩ : BufTy).Contents (Elt F) → (⟨S200000x64, .f32⟩ : BufTy).Contents (Elt F) → (⟨S200000x64, .f32⟩ : BufTy).Contents (Elt F)),
    unary main_v198 main_v215 (broadcastInDim S1x64 ![1] bcast_S64_S1x64_1 : (⟨S64, .f32⟩ : BufTy).Contents (Elt F) → (⟨S1x64, .f32⟩ : BufTy).Contents (Elt F)),
    unary main_v215 main_v216 (broadcastInDim S200000x64 ![0, 1] bcast_S1x64_S200000x64_0_1 : (⟨S1x64, .f32⟩ : BufTy).Contents (Elt F) → (⟨S200000x64, .f32⟩ : BufTy).Contents (Elt F)),
    binary main_v214 main_v216 main_v217 (addf : (⟨S200000x64, .f32⟩ : BufTy).Contents (Elt F) → (⟨S200000x64, .f32⟩ : BufTy).Contents (Elt F) → (⟨S200000x64, .f32⟩ : BufTy).Contents (Elt F)) ]
abbrev C12_W : List (Ref sig .tc) :=
  [main_v203, main_v204, main_v205, main_v206, main_v207, main_v208, main_cst_35, main_v209, main_v210, main_v211, main_v212, main_v213, main_v214, main_v215, main_v216, main_v217]
theorem C12_sub : (C12 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C12_writes : (C12 : List (HloOp τ sig (Elt F))).Forall fun op => op.writes ⊆ ((C12_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 257 … 270: 14 operations. -/
abbrev C13 : List (HloOp τ sig (Elt F)) :=
  [ nullary main_cst_36 (constant S_ .f32 0x00000000#32),
    unary main_cst_36 main_v218 (broadcastInDim S200000x64 ![] bcast_S_S200000x64 : (⟨S_, .f32⟩ : BufTy).Contents (Elt F) → (⟨S200000x64, .f32⟩ : BufTy).Contents (Elt F)),
    binary main_v194 main_v218 main_v219 (cmpf .oge : (⟨S200000x64, .f32⟩ : BufTy).Contents (Elt F) → (⟨S200000x64, .f32⟩ : BufTy).Contents (Elt F) → (⟨S200000x64, .i1⟩ : BufTy).Contents (Elt F)),
    nullary main_cst_37 (constant S_ .f32 0x3C23D70A#32),
    unary main_cst_37 main_v220 (broadcastInDim S200000x64 ![] bcast_S_S200000x64 : (⟨S_, .f32⟩ : BufTy).Contents (Elt F) → (⟨S200000x64, .f32⟩ : BufTy).Contents (Elt F)),
    binary main_v220 main_v194 main_v221 (mulf : (⟨S200000x64, .f32⟩ : BufTy).Contents (Elt F) → (⟨S200000x64, .f32⟩ : BufTy).Contents (Elt F) → (⟨S200000x64, .f32⟩ : BufTy).Contents (Elt F)),
    TRef.ternary (.of main_v219 : TRef sig ⟨S200000x64, .i1⟩) (.of main_v194 : TRef sig ⟨S200000x64, .f32⟩) (.of main_v221 : TRef sig ⟨S200000x64, .f32⟩) main_call6.v0 select,
    nullary main_cst_38 (constant S_ .f32 0x00000000#32),
    unary main_cst_38 main_v223 (broadcastInDim S200000x64 ![] bcast_S_S200000x64 : (⟨S_, .f32⟩ : BufTy).Contents (Elt F) → (⟨S200000x64, .f32⟩ : BufTy).Contents (Elt F)),
    binary main_v217 main_v223 main_v224 (cmpf .oge : (⟨S200000x64, .f32⟩ : BufTy).Contents (Elt F) → (⟨S200000x64, .f32⟩ : BufTy).Contents (Elt F) → (⟨S200000x64, .i1⟩ : BufTy).Contents (Elt F)),
    nullary main_cst_39 (constant S_ .f32 0x3C23D70A#32),
    unary main_cst_39 main_v225 (broadcastInDim S200000x64 ![] bcast_S_S200000x64 : (⟨S_, .f32⟩ : BufTy).Contents (Elt F) → (⟨S200000x64, .f32⟩ : BufTy).Contents (Elt F)),
    binary main_v225 main_v217 main_v226 (mulf : (⟨S200000x64, .f32⟩ : BufTy).Contents (Elt F) → (⟨S200000x64, .f32⟩ : BufTy).Contents (Elt F) → (⟨S200000x64, .f32⟩ : BufTy).Contents (Elt F)),
    TRef.ternary (.of main_v224 : TRef sig ⟨S200000x64, .i1⟩) (.of main_v217 : TRef sig ⟨S200000x64, .f32⟩) (.of main_v226 : TRef sig ⟨S200000x64, .f32⟩) main_call7.v0 select ]
abbrev C13_W : List (Ref sig .tc) :=
  [main_cst_36, main_v218, main_v219, main_cst_37, main_v220, main_v221, main_v222, main_cst_38, main_v223, main_v224, main_cst_39, main_v225, main_v226, main_v227]
theorem C13_sub : (C13 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C13_writes : (C13 : List (HloOp τ sig (Elt F))).Forall fun op => op.writes ⊆ ((C13_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 271 … 305: 35 operations. -/
abbrev C14 : List (HloOp τ sig (Elt F)) :=
  [ unary main_arg6 main_v228 ((extractStridedSlice S1x1x64x64 ![1, 0, 0, 0] · slices_S2x3x64x64_S1x1x64x64_1_0_0_0) : (⟨S2x3x64x64, .f32⟩ : BufTy).Contents (Elt F) → (⟨S1x1x64x64, .f32⟩ : BufTy).Contents (Elt F)),
    reshape main_v228 main_v229 rfl shapeCasts_S1x1x64x64_S64x64,
    unary main_arg7 main_v230 ((extractStridedSlice S1x1x64x64 ![1, 0, 0, 0] · slices_S2x3x64x64_S1x1x64x64_1_0_0_0) : (⟨S2x3x64x64, .f32⟩ : BufTy).Contents (Elt F) → (⟨S1x1x64x64, .f32⟩ : BufTy).Contents (Elt F)),
    reshape main_v230 main_v231 rfl shapeCasts_S1x1x64x64_S64x64,
    unary main_arg8 main_v232 ((extractStridedSlice S1x1x64 ![1, 0, 0] · slices_S2x3x64_S1x1x64_1_0_0) : (⟨S2x3x64, .f32⟩ : BufTy).Contents (Elt F) → (⟨S1x1x64, .f32⟩ : BufTy).Contents (Elt F)),
    reshape main_v232 main_v233 rfl shapeCasts_S1x1x64_S64,
    unary main_arg15 main_v234 ((extractStridedSlice S1x1000000 ![0, 0] · slices_S2x1000000_S1x1000000_0_0) : (⟨S2x1000000, .i32⟩ : BufTy).Contents (Elt F) → (⟨S1x1000000, .i32⟩ : BufTy).Contents (Elt F)),
    reshape main_v234 main_v235 rfl shapeCasts_S1x1000000_S1000000,
    unary main_arg15 main_v236 ((extractStridedSlice S1x1000000 ![1, 0] · slices_S2x1000000_S1x1000000_1_0) : (⟨S2x1000000, .i32⟩ : BufTy).Contents (Elt F) → (⟨S1x1000000, .i32⟩ : BufTy).Contents (Elt F)),
    reshape main_v236 main_v237 rfl shapeCasts_S1x1000000_S1000000,
    nullary main_c_40 (constantI S_ 32 0#32),
    unary main_c_40 main_v238 (broadcastInDim S1000000 ![] bcast_S_S1000000 : (⟨S_, .i32⟩ : BufTy).Contents (Elt F) → (⟨S1000000, .i32⟩ : BufTy).Contents (Elt F)),
    binary main_v235 main_v238 main_v239 (cmpi .slt : (⟨S1000000, .i32⟩ : BufTy).Contents (Elt F) → (⟨S1000000, .i32⟩ : BufTy).Contents (Elt F) → (⟨S1000000, .i1⟩ : BufTy).Contents (Elt F)),
    nullary main_c_41 (constantI S_ 32 200000#32),
    unary main_c_41 main_v240 (broadcastInDim S1000000 ![] bcast_S_S1000000 : (⟨S_, .i32⟩ : BufTy).Contents (Elt F) → (⟨S1000000, .i32⟩ : BufTy).Contents (Elt F)),
    binary main_v235 main_v240 main_v241 (addi : (⟨S1000000, .i32⟩ : BufTy).Contents (Elt F) → (⟨S1000000, .i32⟩ : BufTy).Contents (Elt F) → (⟨S1000000, .i32⟩ : BufTy).Contents (Elt F)),
    ternary main_v239 main_v241 main_v235 main_v242 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v242 main_v243 (broadcastInDim S1000000x1 ![0] bcast_S1000000_S1000000x1_0 : (⟨S1000000, .i32⟩ : BufTy).Contents (Elt F) → (⟨S1000000x1, .i32⟩ : BufTy).Contents (Elt F)),
    binary main_v222 main_v243 main_v244 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    nullary main_cst_42 (constant S_ .f32 0x00000000#32),
    unary main_cst_42 main_v245 (broadcastInDim S200000x64 ![] bcast_S_S200000x64 : (⟨S_, .f32⟩ : BufTy).Contents (Elt F) → (⟨S200000x64, .f32⟩ : BufTy).Contents (Elt F)),
    unary main_v237 main_v246 (broadcastInDim S1000000x1 ![0] bcast_S1000000_S1000000x1_0 : (⟨S1000000, .i32⟩ : BufTy).Contents (Elt F) → (⟨S1000000x1, .i32⟩ : BufTy).Contents (Elt F)),
    ternary main_v245 main_v246 main_v244 main_v247 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    nullary main_cst_43 (constant S_ .f32 0x3F800000#32),
    unary main_cst_43 main_v248 (broadcastInDim S1000000 ![] bcast_S_S1000000 : (⟨S_, .f32⟩ : BufTy).Contents (Elt F) → (⟨S1000000, .f32⟩ : BufTy).Contents (Elt F)),
    nullary main_cst_44 (constant S_ .f32 0x00000000#32),
    unary main_cst_44 main_v249 (broadcastInDim S200000 ![] bcast_S_S200000 : (⟨S_, .f32⟩ : BufTy).Contents (Elt F) → (⟨S200000, .f32⟩ : BufTy).Contents (Elt F)),
    unary main_v237 main_v250 (broadcastInDim S1000000x1 ![0] bcast_S1000000_S1000000x1_0 : (⟨S1000000, .i32⟩ : BufTy).Contents (Elt F) → (⟨S1000000x1, .i32⟩ : BufTy).Contents (Elt F)),
    ternary main_v249 main_v250 main_v248 main_v251 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)),
    unary main_v251 main_v252 (broadcastInDim S200000x1 ![0] bcast_S200000_S200000x1_0 : (⟨S200000, .f32⟩ : BufTy).Contents (Elt F) → (⟨S200000x1, .f32⟩ : BufTy).Contents (Elt F)),
    nullary main_cst_45 (constant S_ .f32 0x3F800000#32),
    unary main_cst_45 main_v253 (broadcastInDim S200000x1 ![] bcast_S_S200000x1 : (⟨S_, .f32⟩ : BufTy).Contents (Elt F) → (⟨S200000x1, .f32⟩ : BufTy).Contents (Elt F)),
    binary main_v252 main_v253 main_v254 (maximumf : (⟨S200000x1, .f32⟩ : BufTy).Contents (Elt F) → (⟨S200000x1, .f32⟩ : BufTy).Contents (Elt F) → (⟨S200000x1, .f32⟩ : BufTy).Contents (Elt F)),
    unary main_v254 main_v255 (broadcastInDim S200000x64 ![0, 1] bcast_S200000x1_S200000x64_0_1 : (⟨S200000x1, .f32⟩ : BufTy).Contents (Elt F) → (⟨S200000x64, .f32⟩ : BufTy).Contents (Elt F)),
    binary main_v247 main_v255 main_v256 (Host.divf : (⟨S200000x64, .f32⟩ : BufTy).Contents (Elt F) → (⟨S200000x64, .f32⟩ : BufTy).Contents (Elt F) → (⟨S200000x64, .f32⟩ : BufTy).Contents (Elt F)) ]
abbrev C14_W : List (Ref sig .tc) :=
  [main_v228, main_v229, main_v230, main_v231, main_v232, main_v233, main_v234, main_v235, main_v236, main_v237, main_c_40, main_v238, main_v239, main_c_41, main_v240, main_v241, main_v242, main_v243, main_v244, main_cst_42, main_v245, main_v246, main_v247, main_cst_43, main_v248, main_cst_44, main_v249, main_v250, main_v251, main_v252, main_cst_45, main_v253, main_v254, main_v255, main_v256]
theorem C14_sub : (C14 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C14_writes : (C14 : List (HloOp τ sig (Elt F))).Forall fun op => op.writes ⊆ ((C14_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 306 … 311: 6 operations. -/
abbrev C15 : List (HloOp τ sig (Elt F)) :=
  [ binary main_v227 main_v229 main_v257 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v256 main_v231 main_v258 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v257 main_v258 main_v259 (addf : (⟨S200000x64, .f32⟩ : BufTy).Contents (Elt F) → (⟨S200000x64, .f32⟩ : BufTy).Contents (Elt F) → (⟨S200000x64, .f32⟩ : BufTy).Contents (Elt F)),
    unary main_v233 main_v260 (broadcastInDim S1x64 ![1] bcast_S64_S1x64_1 : (⟨S64, .f32⟩ : BufTy).Contents (Elt F) → (⟨S1x64, .f32⟩ : BufTy).Contents (Elt F)),
    unary main_v260 main_v261 (broadcastInDim S200000x64 ![0, 1] bcast_S1x64_S200000x64_0_1 : (⟨S1x64, .f32⟩ : BufTy).Contents (Elt F) → (⟨S200000x64, .f32⟩ : BufTy).Contents (Elt F)),
    binary main_v259 main_v261 main_v262 (addf : (⟨S200000x64, .f32⟩ : BufTy).Contents (Elt F) → (⟨S200000x64, .f32⟩ : BufTy).Contents (Elt F) → (⟨S200000x64, .f32⟩ : BufTy).Contents (Elt F)) ]
abbrev C15_W : List (Ref sig .tc) :=
  [main_v257, main_v258, main_v259, main_v260, main_v261, main_v262]
theorem C15_sub : (C15 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C15_writes : (C15 : List (HloOp τ sig (Elt F))).Forall fun op => op.writes ⊆ ((C15_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 312 … 346: 35 operations. -/
abbrev C16 : List (HloOp τ sig (Elt F)) :=
  [ unary main_arg6 main_v263 ((extractStridedSlice S1x1x64x64 ![1, 1, 0, 0] · slices_S2x3x64x64_S1x1x64x64_1_1_0_0) : (⟨S2x3x64x64, .f32⟩ : BufTy).Contents (Elt F) → (⟨S1x1x64x64, .f32⟩ : BufTy).Contents (Elt F)),
    reshape main_v263 main_v264 rfl shapeCasts_S1x1x64x64_S64x64,
    unary main_arg7 main_v265 ((extractStridedSlice S1x1x64x64 ![1, 1, 0, 0] · slices_S2x3x64x64_S1x1x64x64_1_1_0_0) : (⟨S2x3x64x64, .f32⟩ : BufTy).Contents (Elt F) → (⟨S1x1x64x64, .f32⟩ : BufTy).Contents (Elt F)),
    reshape main_v265 main_v266 rfl shapeCasts_S1x1x64x64_S64x64,
    unary main_arg8 main_v267 ((extractStridedSlice S1x1x64 ![1, 1, 0] · slices_S2x3x64_S1x1x64_1_1_0) : (⟨S2x3x64, .f32⟩ : BufTy).Contents (Elt F) → (⟨S1x1x64, .f32⟩ : BufTy).Contents (Elt F)),
    reshape main_v267 main_v268 rfl shapeCasts_S1x1x64_S64,
    unary main_arg16 main_v269 ((extractStridedSlice S1x1000000 ![0, 0] · slices_S2x1000000_S1x1000000_0_0) : (⟨S2x1000000, .i32⟩ : BufTy).Contents (Elt F) → (⟨S1x1000000, .i32⟩ : BufTy).Contents (Elt F)),
    reshape main_v269 main_v270 rfl shapeCasts_S1x1000000_S1000000,
    unary main_arg16 main_v271 ((extractStridedSlice S1x1000000 ![1, 0] · slices_S2x1000000_S1x1000000_1_0) : (⟨S2x1000000, .i32⟩ : BufTy).Contents (Elt F) → (⟨S1x1000000, .i32⟩ : BufTy).Contents (Elt F)),
    reshape main_v271 main_v272 rfl shapeCasts_S1x1000000_S1000000,
    nullary main_c_46 (constantI S_ 32 0#32),
    unary main_c_46 main_v273 (broadcastInDim S1000000 ![] bcast_S_S1000000 : (⟨S_, .i32⟩ : BufTy).Contents (Elt F) → (⟨S1000000, .i32⟩ : BufTy).Contents (Elt F)),
    binary main_v270 main_v273 main_v274 (cmpi .slt : (⟨S1000000, .i32⟩ : BufTy).Contents (Elt F) → (⟨S1000000, .i32⟩ : BufTy).Contents (Elt F) → (⟨S1000000, .i1⟩ : BufTy).Contents (Elt F)),
    nullary main_c_47 (constantI S_ 32 200000#32),
    unary main_c_47 main_v275 (broadcastInDim S1000000 ![] bcast_S_S1000000 : (⟨S_, .i32⟩ : BufTy).Contents (Elt F) → (⟨S1000000, .i32⟩ : BufTy).Contents (Elt F)),
    binary main_v270 main_v275 main_v276 (addi : (⟨S1000000, .i32⟩ : BufTy).Contents (Elt F) → (⟨S1000000, .i32⟩ : BufTy).Contents (Elt F) → (⟨S1000000, .i32⟩ : BufTy).Contents (Elt F)),
    ternary main_v274 main_v276 main_v270 main_v277 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v277 main_v278 (broadcastInDim S1000000x1 ![0] bcast_S1000000_S1000000x1_0 : (⟨S1000000, .i32⟩ : BufTy).Contents (Elt F) → (⟨S1000000x1, .i32⟩ : BufTy).Contents (Elt F)),
    binary main_v227 main_v278 main_v279 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    nullary main_cst_48 (constant S_ .f32 0x00000000#32),
    unary main_cst_48 main_v280 (broadcastInDim S200000x64 ![] bcast_S_S200000x64 : (⟨S_, .f32⟩ : BufTy).Contents (Elt F) → (⟨S200000x64, .f32⟩ : BufTy).Contents (Elt F)),
    unary main_v272 main_v281 (broadcastInDim S1000000x1 ![0] bcast_S1000000_S1000000x1_0 : (⟨S1000000, .i32⟩ : BufTy).Contents (Elt F) → (⟨S1000000x1, .i32⟩ : BufTy).Contents (Elt F)),
    ternary main_v280 main_v281 main_v279 main_v282 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    nullary main_cst_49 (constant S_ .f32 0x3F800000#32),
    unary main_cst_49 main_v283 (broadcastInDim S1000000 ![] bcast_S_S1000000 : (⟨S_, .f32⟩ : BufTy).Contents (Elt F) → (⟨S1000000, .f32⟩ : BufTy).Contents (Elt F)),
    nullary main_cst_50 (constant S_ .f32 0x00000000#32),
    unary main_cst_50 main_v284 (broadcastInDim S200000 ![] bcast_S_S200000 : (⟨S_, .f32⟩ : BufTy).Contents (Elt F) → (⟨S200000, .f32⟩ : BufTy).Contents (Elt F)),
    unary main_v272 main_v285 (broadcastInDim S1000000x1 ![0] bcast_S1000000_S1000000x1_0 : (⟨S1000000, .i32⟩ : BufTy).Contents (Elt F) → (⟨S1000000x1, .i32⟩ : BufTy).Contents (Elt F)),
    ternary main_v284 main_v285 main_v283 main_v286 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)),
    unary main_v286 main_v287 (broadcastInDim S200000x1 ![0] bcast_S200000_S200000x1_0 : (⟨S200000, .f32⟩ : BufTy).Contents (Elt F) → (⟨S200000x1, .f32⟩ : BufTy).Contents (Elt F)),
    nullary main_cst_51 (constant S_ .f32 0x3F800000#32),
    unary main_cst_51 main_v288 (broadcastInDim S200000x1 ![] bcast_S_S200000x1 : (⟨S_, .f32⟩ : BufTy).Contents (Elt F) → (⟨S200000x1, .f32⟩ : BufTy).Contents (Elt F)),
    binary main_v287 main_v288 main_v289 (maximumf : (⟨S200000x1, .f32⟩ : BufTy).Contents (Elt F) → (⟨S200000x1, .f32⟩ : BufTy).Contents (Elt F) → (⟨S200000x1, .f32⟩ : BufTy).Contents (Elt F)),
    unary main_v289 main_v290 (broadcastInDim S200000x64 ![0, 1] bcast_S200000x1_S200000x64_0_1 : (⟨S200000x1, .f32⟩ : BufTy).Contents (Elt F) → (⟨S200000x64, .f32⟩ : BufTy).Contents (Elt F)),
    binary main_v282 main_v290 main_v291 (Host.divf : (⟨S200000x64, .f32⟩ : BufTy).Contents (Elt F) → (⟨S200000x64, .f32⟩ : BufTy).Contents (Elt F) → (⟨S200000x64, .f32⟩ : BufTy).Contents (Elt F)) ]
abbrev C16_W : List (Ref sig .tc) :=
  [main_v263, main_v264, main_v265, main_v266, main_v267, main_v268, main_v269, main_v270, main_v271, main_v272, main_c_46, main_v273, main_v274, main_c_47, main_v275, main_v276, main_v277, main_v278, main_v279, main_cst_48, main_v280, main_v281, main_v282, main_cst_49, main_v283, main_cst_50, main_v284, main_v285, main_v286, main_v287, main_cst_51, main_v288, main_v289, main_v290, main_v291]
theorem C16_sub : (C16 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C16_writes : (C16 : List (HloOp τ sig (Elt F))).Forall fun op => op.writes ⊆ ((C16_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 347 … 352: 6 operations. -/
abbrev C17 : List (HloOp τ sig (Elt F)) :=
  [ binary main_v222 main_v264 main_v292 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v291 main_v266 main_v293 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v292 main_v293 main_v294 (addf : (⟨S200000x64, .f32⟩ : BufTy).Contents (Elt F) → (⟨S200000x64, .f32⟩ : BufTy).Contents (Elt F) → (⟨S200000x64, .f32⟩ : BufTy).Contents (Elt F)),
    unary main_v268 main_v295 (broadcastInDim S1x64 ![1] bcast_S64_S1x64_1 : (⟨S64, .f32⟩ : BufTy).Contents (Elt F) → (⟨S1x64, .f32⟩ : BufTy).Contents (Elt F)),
    unary main_v295 main_v296 (broadcastInDim S200000x64 ![0, 1] bcast_S1x64_S200000x64_0_1 : (⟨S1x64, .f32⟩ : BufTy).Contents (Elt F) → (⟨S200000x64, .f32⟩ : BufTy).Contents (Elt F)),
    binary main_v294 main_v296 main_v297 (addf : (⟨S200000x64, .f32⟩ : BufTy).Contents (Elt F) → (⟨S200000x64, .f32⟩ : BufTy).Contents (Elt F) → (⟨S200000x64, .f32⟩ : BufTy).Contents (Elt F)) ]
abbrev C17_W : List (Ref sig .tc) :=
  [main_v292, main_v293, main_v294, main_v295, main_v296, main_v297]
theorem C17_sub : (C17 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C17_writes : (C17 : List (HloOp τ sig (Elt F))).Forall fun op => op.writes ⊆ ((C17_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 353 … 387: 35 operations. -/
abbrev C18 : List (HloOp τ sig (Elt F)) :=
  [ unary main_arg6 main_v298 ((extractStridedSlice S1x1x64x64 ![1, 2, 0, 0] · slices_S2x3x64x64_S1x1x64x64_1_2_0_0) : (⟨S2x3x64x64, .f32⟩ : BufTy).Contents (Elt F) → (⟨S1x1x64x64, .f32⟩ : BufTy).Contents (Elt F)),
    reshape main_v298 main_v299 rfl shapeCasts_S1x1x64x64_S64x64,
    unary main_arg7 main_v300 ((extractStridedSlice S1x1x64x64 ![1, 2, 0, 0] · slices_S2x3x64x64_S1x1x64x64_1_2_0_0) : (⟨S2x3x64x64, .f32⟩ : BufTy).Contents (Elt F) → (⟨S1x1x64x64, .f32⟩ : BufTy).Contents (Elt F)),
    reshape main_v300 main_v301 rfl shapeCasts_S1x1x64x64_S64x64,
    unary main_arg8 main_v302 ((extractStridedSlice S1x1x64 ![1, 2, 0] · slices_S2x3x64_S1x1x64_1_2_0) : (⟨S2x3x64, .f32⟩ : BufTy).Contents (Elt F) → (⟨S1x1x64, .f32⟩ : BufTy).Contents (Elt F)),
    reshape main_v302 main_v303 rfl shapeCasts_S1x1x64_S64,
    unary main_arg17 main_v304 ((extractStridedSlice S1x1000000 ![0, 0] · slices_S2x1000000_S1x1000000_0_0) : (⟨S2x1000000, .i32⟩ : BufTy).Contents (Elt F) → (⟨S1x1000000, .i32⟩ : BufTy).Contents (Elt F)),
    reshape main_v304 main_v305 rfl shapeCasts_S1x1000000_S1000000,
    unary main_arg17 main_v306 ((extractStridedSlice S1x1000000 ![1, 0] · slices_S2x1000000_S1x1000000_1_0) : (⟨S2x1000000, .i32⟩ : BufTy).Contents (Elt F) → (⟨S1x1000000, .i32⟩ : BufTy).Contents (Elt F)),
    reshape main_v306 main_v307 rfl shapeCasts_S1x1000000_S1000000,
    nullary main_c_52 (constantI S_ 32 0#32),
    unary main_c_52 main_v308 (broadcastInDim S1000000 ![] bcast_S_S1000000 : (⟨S_, .i32⟩ : BufTy).Contents (Elt F) → (⟨S1000000, .i32⟩ : BufTy).Contents (Elt F)),
    binary main_v305 main_v308 main_v309 (cmpi .slt : (⟨S1000000, .i32⟩ : BufTy).Contents (Elt F) → (⟨S1000000, .i32⟩ : BufTy).Contents (Elt F) → (⟨S1000000, .i1⟩ : BufTy).Contents (Elt F)),
    nullary main_c_53 (constantI S_ 32 200000#32),
    unary main_c_53 main_v310 (broadcastInDim S1000000 ![] bcast_S_S1000000 : (⟨S_, .i32⟩ : BufTy).Contents (Elt F) → (⟨S1000000, .i32⟩ : BufTy).Contents (Elt F)),
    binary main_v305 main_v310 main_v311 (addi : (⟨S1000000, .i32⟩ : BufTy).Contents (Elt F) → (⟨S1000000, .i32⟩ : BufTy).Contents (Elt F) → (⟨S1000000, .i32⟩ : BufTy).Contents (Elt F)),
    ternary main_v309 main_v311 main_v305 main_v312 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v312 main_v313 (broadcastInDim S1000000x1 ![0] bcast_S1000000_S1000000x1_0 : (⟨S1000000, .i32⟩ : BufTy).Contents (Elt F) → (⟨S1000000x1, .i32⟩ : BufTy).Contents (Elt F)),
    binary main_v222 main_v313 main_v314 ((fun x i => Host.gather gather_S200000x64_S1000000x1_S1000000x64_1_0_n_n_0_1_164 x i) : (⟨S200000x64, .f32⟩ : BufTy).Contents (Elt F) → (⟨S1000000x1, .i32⟩ : BufTy).Contents (Elt F) → (⟨S1000000x64, .f32⟩ : BufTy).Contents (Elt F)),
    nullary main_cst_54 (constant S_ .f32 0x00000000#32),
    unary main_cst_54 main_v315 (broadcastInDim S200000x64 ![] bcast_S_S200000x64 : (⟨S_, .f32⟩ : BufTy).Contents (Elt F) → (⟨S200000x64, .f32⟩ : BufTy).Contents (Elt F)),
    unary main_v307 main_v316 (broadcastInDim S1000000x1 ![0] bcast_S1000000_S1000000x1_0 : (⟨S1000000, .i32⟩ : BufTy).Contents (Elt F) → (⟨S1000000x1, .i32⟩ : BufTy).Contents (Elt F)),
    ternary main_v315 main_v316 main_v314 main_v317 ((fun x i u => Host.scatterAdd scatter_S200000x64_S1000000x1_S1000000x64_1_0_0_1 x i u) : (⟨S200000x64, .f32⟩ : BufTy).Contents (Elt F) → (⟨S1000000x1, .i32⟩ : BufTy).Contents (Elt F) → (⟨S1000000x64, .f32⟩ : BufTy).Contents (Elt F) → (⟨S200000x64, .f32⟩ : BufTy).Contents (Elt F)),
    nullary main_cst_55 (constant S_ .f32 0x3F800000#32),
    unary main_cst_55 main_v318 (broadcastInDim S1000000 ![] bcast_S_S1000000 : (⟨S_, .f32⟩ : BufTy).Contents (Elt F) → (⟨S1000000, .f32⟩ : BufTy).Contents (Elt F)),
    nullary main_cst_56 (constant S_ .f32 0x00000000#32),
    unary main_cst_56 main_v319 (broadcastInDim S200000 ![] bcast_S_S200000 : (⟨S_, .f32⟩ : BufTy).Contents (Elt F) → (⟨S200000, .f32⟩ : BufTy).Contents (Elt F)),
    unary main_v307 main_v320 (broadcastInDim S1000000x1 ![0] bcast_S1000000_S1000000x1_0 : (⟨S1000000, .i32⟩ : BufTy).Contents (Elt F) → (⟨S1000000x1, .i32⟩ : BufTy).Contents (Elt F)),
    ternary main_v319 main_v320 main_v318 main_v321 ((fun x i u => Host.scatterAdd scatter_S200000_S1000000x1_S1000000_n_0_0_1 x i u) : (⟨S200000, .f32⟩ : BufTy).Contents (Elt F) → (⟨S1000000x1, .i32⟩ : BufTy).Contents (Elt F) → (⟨S1000000, .f32⟩ : BufTy).Contents (Elt F) → (⟨S200000, .f32⟩ : BufTy).Contents (Elt F)),
    unary main_v321 main_v322 (broadcastInDim S200000x1 ![0] bcast_S200000_S200000x1_0 : (⟨S200000, .f32⟩ : BufTy).Contents (Elt F) → (⟨S200000x1, .f32⟩ : BufTy).Contents (Elt F)),
    nullary main_cst_57 (constant S_ .f32 0x3F800000#32),
    unary main_cst_57 main_v323 (broadcastInDim S200000x1 ![] bcast_S_S200000x1 : (⟨S_, .f32⟩ : BufTy).Contents (Elt F) → (⟨S200000x1, .f32⟩ : BufTy).Contents (Elt F)),
    binary main_v322 main_v323 main_v324 (maximumf : (⟨S200000x1, .f32⟩ : BufTy).Contents (Elt F) → (⟨S200000x1, .f32⟩ : BufTy).Contents (Elt F) → (⟨S200000x1, .f32⟩ : BufTy).Contents (Elt F)),
    unary main_v324 main_v325 (broadcastInDim S200000x64 ![0, 1] bcast_S200000x1_S200000x64_0_1 : (⟨S200000x1, .f32⟩ : BufTy).Contents (Elt F) → (⟨S200000x64, .f32⟩ : BufTy).Contents (Elt F)),
    binary main_v317 main_v325 main_v326 (Host.divf : (⟨S200000x64, .f32⟩ : BufTy).Contents (Elt F) → (⟨S200000x64, .f32⟩ : BufTy).Contents (Elt F) → (⟨S200000x64, .f32⟩ : BufTy).Contents (Elt F)) ]
abbrev C18_W : List (Ref sig .tc) :=
  [main_v298, main_v299, main_v300, main_v301, main_v302, main_v303, main_v304, main_v305, main_v306, main_v307, main_c_52, main_v308, main_v309, main_c_53, main_v310, main_v311, main_v312, main_v313, main_v314, main_cst_54, main_v315, main_v316, main_v317, main_cst_55, main_v318, main_cst_56, main_v319, main_v320, main_v321, main_v322, main_cst_57, main_v323, main_v324, main_v325, main_v326]
theorem C18_sub : (C18 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C18_writes : (C18 : List (HloOp τ sig (Elt F))).Forall fun op => op.writes ⊆ ((C18_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 388 … 394: 7 operations. -/
abbrev C19 : List (HloOp τ sig (Elt F)) :=
  [ binary main_v222 main_v299 main_v327 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v326 main_v301 main_v328 ((fun l r => Host.dotGeneral dot_S200000x64_S64x64_S200000x64_1_0_0_1_n_n none l r) : (⟨S200000x64, .f32⟩ : BufTy).Contents (Elt F) → (⟨S64x64, .f32⟩ : BufTy).Contents (Elt F) → (⟨S200000x64, .f32⟩ : BufTy).Contents (Elt F)),
    binary main_v327 main_v328 main_v329 (addf : (⟨S200000x64, .f32⟩ : BufTy).Contents (Elt F) → (⟨S200000x64, .f32⟩ : BufTy).Contents (Elt F) → (⟨S200000x64, .f32⟩ : BufTy).Contents (Elt F)),
    unary main_v303 main_v330 (broadcastInDim S1x64 ![1] bcast_S64_S1x64_1 : (⟨S64, .f32⟩ : BufTy).Contents (Elt F) → (⟨S1x64, .f32⟩ : BufTy).Contents (Elt F)),
    unary main_v330 main_v331 (broadcastInDim S200000x64 ![0, 1] bcast_S1x64_S200000x64_0_1 : (⟨S1x64, .f32⟩ : BufTy).Contents (Elt F) → (⟨S200000x64, .f32⟩ : BufTy).Contents (Elt F)),
    binary main_v329 main_v331 main_v332 (addf : (⟨S200000x64, .f32⟩ : BufTy).Contents (Elt F) → (⟨S200000x64, .f32⟩ : BufTy).Contents (Elt F) → (⟨S200000x64, .f32⟩ : BufTy).Contents (Elt F)),
    binary main_v297 main_v332 main_v333 (addf : (⟨S200000x64, .f32⟩ : BufTy).Contents (Elt F) → (⟨S200000x64, .f32⟩ : BufTy).Contents (Elt F) → (⟨S200000x64, .f32⟩ : BufTy).Contents (Elt F)) ]
abbrev C19_W : List (Ref sig .tc) :=
  [main_v327, main_v328, main_v329, main_v330, main_v331, main_v332, main_v333]
theorem C19_sub : (C19 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C19_writes : (C19 : List (HloOp τ sig (Elt F))).Forall fun op => op.writes ⊆ ((C19_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 395 … 405: 32 operations. -/
abbrev C20 : List (HloOp τ sig (Elt F)) :=
  [ unary main_arg9 main_v334 ((extractStridedSlice S1x1x64 ![1, 0, 0] · slices_S2x2x64_S1x1x64_1_0_0) : (⟨S2x2x64, .f32⟩ : BufTy).Contents (Elt F) → (⟨S1x1x64, .f32⟩ : BufTy).Contents (Elt F)),
    reshape main_v334 main_v335 rfl shapeCasts_S1x1x64_S64,
    unary main_arg10 main_v336 ((extractStridedSlice S1x1x64 ![1, 0, 0] · slices_S2x2x64_S1x1x64_1_0_0) : (⟨S2x2x64, .f32⟩ : BufTy).Contents (Elt F) → (⟨S1x1x64, .f32⟩ : BufTy).Contents (Elt F)),
    reshape main_v336 main_v337 rfl shapeCasts_S1x1x64_S64,
    nullary main_cst_58 (constant S_ .f32 0x00000000#32),
    binary main_v333 main_cst_58 main_v338 ((fun x v => Host.reduceAdd x v reducesTo_S200000x64_S64_d0 h_S_) : (⟨S200000x64, .f32⟩ : BufTy).Contents (Elt F) → (⟨S_, .f32⟩ : BufTy).Contents (Elt F) → (⟨S64, .f32⟩ : BufTy).Contents (Elt F)),
    nullary main_cst_59 (constant S_ .f32 0x48435000#32),
    unary main_cst_59 main_v339 (broadcastInDim S64 ![] bcast_S_S64 : (⟨S_, .f32⟩ : BufTy).Contents (Elt F) → (⟨S64, .f32⟩ : BufTy).Contents (Elt F)),
    binary main_v338 main_v339 main_v340 (Host.divf : (⟨S64, .f32⟩ : BufTy).Contents (Elt F) → (⟨S64, .f32⟩ : BufTy).Contents (Elt F) → (⟨S64, .f32⟩ : BufTy).Contents (Elt F)),
    nullary main_c_60 (constantI S_ 32 0#32),
    TRef.nullary main_call8.cst (constant S_ .f32 0x00000000#32),
    TRef.binary (.of main_v333 : TRef sig ⟨S200000x64, .f32⟩) main_call8.cst main_call8.v0 (fun x v => Host.reduceAdd x v reducesTo_S200000x64_S64_d0 h_S_),
    TRef.unary main_call8.v0 main_call8.v1 (broadcastInDim S1x64 ![1] bcast_S64_S1x64_1),
    TRef.nullary main_call8.cst_0 (constant S_ .f32 0x48435000#32),
    TRef.unary main_call8.cst_0 main_call8.v2 (broadcastInDim S1x64 ![] bcast_S_S1x64),
    TRef.binary main_call8.v1 main_call8.v2 main_call8.v3 Host.divf,
    TRef.unary main_call8.v3 main_call8.v4 (broadcastInDim S200000x64 ![0, 1] bcast_S1x64_S200000x64_0_1),
    TRef.binary (.of main_v333 : TRef sig ⟨S200000x64, .f32⟩) main_call8.v4 main_call8.v5 subf,
    TRef.binary main_call8.v5 main_call8.v5 main_call8.v6 mulf,
    TRef.unary (.of main_c_60 : TRef sig ⟨S_, .i32⟩) main_call8.v7 (sitofp .f32),
    TRef.nullary main_call8.cst_1 (constant S_ .f32 0x48435000#32),
    TRef.binary main_call8.cst_1 main_call8.v7 main_call8.v8 subf,
    TRef.nullary main_call8.cst_2 (constant S_ .f32 0x00000000#32),
    TRef.binary main_call8.v6 main_call8.cst_2 main_call8.v9 (fun x v => Host.reduceAdd x v reducesTo_S200000x64_S64_d0 h_S_),
    TRef.unary main_call8.v8 main_call8.v10 (broadcastInDim S64 ![] bcast_S_S64),
    TRef.binary main_call8.v9 main_call8.v10 main_call8.v11 Host.divf,
    TRef.nullary main_call8.cst_3 (constant S_ .f32 0x00000000#32),
    TRef.binary main_call8.v8 main_call8.cst_3 main_call8.v12 (cmpf .ogt),
    TRef.nullary main_call8.cst_4 (constant S_ .f32 0x7FC00000#32),
    TRef.unary main_call8.cst_4 main_call8.call0.v0 id,
    TRef.unary main_call8.call0.v0 main_call8.call0.v1 (broadcastInDim S64 ![] bcast_S_S64),
    TRef.ternary main_call8.v12 main_call8.v11 main_call8.call0.v1 main_call8.call0.v2 (fun p a b => select (broadcastInDim S64 ![] bcast_S_S64 p) a b) ]
abbrev C20_W : List (Ref sig .tc) :=
  [main_v334, main_v335, main_v336, main_v337, main_cst_58, main_v338, main_cst_59, main_v339, main_v340, main_c_60, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v341]
theorem C20_sub : (C20 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C20_writes : (C20 : List (HloOp τ sig (Elt F))).Forall fun op => op.writes ⊆ ((C20_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 406 … 421: 16 operations. -/
abbrev C21 : List (HloOp τ sig (Elt F)) :=
  [ unary main_v340 main_v342 (broadcastInDim S1x64 ![1] bcast_S64_S1x64_1 : (⟨S64, .f32⟩ : BufTy).Contents (Elt F) → (⟨S1x64, .f32⟩ : BufTy).Contents (Elt F)),
    unary main_v342 main_v343 (broadcastInDim S200000x64 ![0, 1] bcast_S1x64_S200000x64_0_1 : (⟨S1x64, .f32⟩ : BufTy).Contents (Elt F) → (⟨S200000x64, .f32⟩ : BufTy).Contents (Elt F)),
    binary main_v333 main_v343 main_v344 (subf : (⟨S200000x64, .f32⟩ : BufTy).Contents (Elt F) → (⟨S200000x64, .f32⟩ : BufTy).Contents (Elt F) → (⟨S200000x64, .f32⟩ : BufTy).Contents (Elt F)),
    unary main_v335 main_v345 (broadcastInDim S1x64 ![1] bcast_S64_S1x64_1 : (⟨S64, .f32⟩ : BufTy).Contents (Elt F) → (⟨S1x64, .f32⟩ : BufTy).Contents (Elt F)),
    unary main_v345 main_v346 (broadcastInDim S200000x64 ![0, 1] bcast_S1x64_S200000x64_0_1 : (⟨S1x64, .f32⟩ : BufTy).Contents (Elt F) → (⟨S200000x64, .f32⟩ : BufTy).Contents (Elt F)),
    binary main_v346 main_v344 main_v347 (mulf : (⟨S200000x64, .f32⟩ : BufTy).Contents (Elt F) → (⟨S200000x64, .f32⟩ : BufTy).Contents (Elt F) → (⟨S200000x64, .f32⟩ : BufTy).Contents (Elt F)),
    nullary main_cst_61 (constant S_ .f32 0x3727C5AC#32),
    unary main_cst_61 main_v348 (broadcastInDim S64 ![] bcast_S_S64 : (⟨S_, .f32⟩ : BufTy).Contents (Elt F) → (⟨S64, .f32⟩ : BufTy).Contents (Elt F)),
    binary main_v341 main_v348 main_v349 (addf : (⟨S64, .f32⟩ : BufTy).Contents (Elt F) → (⟨S64, .f32⟩ : BufTy).Contents (Elt F) → (⟨S64, .f32⟩ : BufTy).Contents (Elt F)),
    unary main_v349 main_v350 (Host.sqrt : (⟨S64, .f32⟩ : BufTy).Contents (Elt F) → (⟨S64, .f32⟩ : BufTy).Contents (Elt F)),
    unary main_v350 main_v351 (broadcastInDim S1x64 ![1] bcast_S64_S1x64_1 : (⟨S64, .f32⟩ : BufTy).Contents (Elt F) → (⟨S1x64, .f32⟩ : BufTy).Contents (Elt F)),
    unary main_v351 main_v352 (broadcastInDim S200000x64 ![0, 1] bcast_S1x64_S200000x64_0_1 : (⟨S1x64, .f32⟩ : BufTy).Contents (Elt F) → (⟨S200000x64, .f32⟩ : BufTy).Contents (Elt F)),
    binary main_v347 main_v352 main_v353 (Host.divf : (⟨S200000x64, .f32⟩ : BufTy).Contents (Elt F) → (⟨S200000x64, .f32⟩ : BufTy).Contents (Elt F) → (⟨S200000x64, .f32⟩ : BufTy).Contents (Elt F)),
    unary main_v337 main_v354 (broadcastInDim S1x64 ![1] bcast_S64_S1x64_1 : (⟨S64, .f32⟩ : BufTy).Contents (Elt F) → (⟨S1x64, .f32⟩ : BufTy).Contents (Elt F)),
    unary main_v354 main_v355 (broadcastInDim S200000x64 ![0, 1] bcast_S1x64_S200000x64_0_1 : (⟨S1x64, .f32⟩ : BufTy).Contents (Elt F) → (⟨S200000x64, .f32⟩ : BufTy).Contents (Elt F)),
    binary main_v353 main_v355 main_v356 (addf : (⟨S200000x64, .f32⟩ : BufTy).Contents (Elt F) → (⟨S200000x64, .f32⟩ : BufTy).Contents (Elt F) → (⟨S200000x64, .f32⟩ : BufTy).Contents (Elt F)) ]
abbrev C21_W : List (Ref sig .tc) :=
  [main_v342, main_v343, main_v344, main_v345, main_v346, main_v347, main_cst_61, main_v348, main_v349, main_v350, main_v351, main_v352, main_v353, main_v354, main_v355, main_v356]
theorem C21_sub : (C21 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C21_writes : (C21 : List (HloOp τ sig (Elt F))).Forall fun op => op.writes ⊆ ((C21_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 422 … 432: 32 operations. -/
abbrev C22 : List (HloOp τ sig (Elt F)) :=
  [ unary main_arg9 main_v357 ((extractStridedSlice S1x1x64 ![1, 1, 0] · slices_S2x2x64_S1x1x64_1_1_0) : (⟨S2x2x64, .f32⟩ : BufTy).Contents (Elt F) → (⟨S1x1x64, .f32⟩ : BufTy).Contents (Elt F)),
    reshape main_v357 main_v358 rfl shapeCasts_S1x1x64_S64,
    unary main_arg10 main_v359 ((extractStridedSlice S1x1x64 ![1, 1, 0] · slices_S2x2x64_S1x1x64_1_1_0) : (⟨S2x2x64, .f32⟩ : BufTy).Contents (Elt F) → (⟨S1x1x64, .f32⟩ : BufTy).Contents (Elt F)),
    reshape main_v359 main_v360 rfl shapeCasts_S1x1x64_S64,
    nullary main_cst_62 (constant S_ .f32 0x00000000#32),
    binary main_v262 main_cst_62 main_v361 ((fun x v => Host.reduceAdd x v reducesTo_S200000x64_S64_d0 h_S_) : (⟨S200000x64, .f32⟩ : BufTy).Contents (Elt F) → (⟨S_, .f32⟩ : BufTy).Contents (Elt F) → (⟨S64, .f32⟩ : BufTy).Contents (Elt F)),
    nullary main_cst_63 (constant S_ .f32 0x48435000#32),
    unary main_cst_63 main_v362 (broadcastInDim S64 ![] bcast_S_S64 : (⟨S_, .f32⟩ : BufTy).Contents (Elt F) → (⟨S64, .f32⟩ : BufTy).Contents (Elt F)),
    binary main_v361 main_v362 main_v363 (Host.divf : (⟨S64, .f32⟩ : BufTy).Contents (Elt F) → (⟨S64, .f32⟩ : BufTy).Contents (Elt F) → (⟨S64, .f32⟩ : BufTy).Contents (Elt F)),
    nullary main_c_64 (constantI S_ 32 0#32),
    TRef.nullary main_call9.cst (constant S_ .f32 0x00000000#32),
    TRef.binary (.of main_v262 : TRef sig ⟨S200000x64, .f32⟩) main_call9.cst main_call9.v0 (fun x v => Host.reduceAdd x v reducesTo_S200000x64_S64_d0 h_S_),
    TRef.unary main_call9.v0 main_call9.v1 (broadcastInDim S1x64 ![1] bcast_S64_S1x64_1),
    TRef.nullary main_call9.cst_0 (constant S_ .f32 0x48435000#32),
    TRef.unary main_call9.cst_0 main_call9.v2 (broadcastInDim S1x64 ![] bcast_S_S1x64),
    TRef.binary main_call9.v1 main_call9.v2 main_call9.v3 Host.divf,
    TRef.unary main_call9.v3 main_call9.v4 (broadcastInDim S200000x64 ![0, 1] bcast_S1x64_S200000x64_0_1),
    TRef.binary (.of main_v262 : TRef sig ⟨S200000x64, .f32⟩) main_call9.v4 main_call9.v5 subf,
    TRef.binary main_call9.v5 main_call9.v5 main_call9.v6 mulf,
    TRef.unary (.of main_c_64 : TRef sig ⟨S_, .i32⟩) main_call9.v7 (sitofp .f32),
    TRef.nullary main_call9.cst_1 (constant S_ .f32 0x48435000#32),
    TRef.binary main_call9.cst_1 main_call9.v7 main_call9.v8 subf,
    TRef.nullary main_call9.cst_2 (constant S_ .f32 0x00000000#32),
    TRef.binary main_call9.v6 main_call9.cst_2 main_call9.v9 (fun x v => Host.reduceAdd x v reducesTo_S200000x64_S64_d0 h_S_),
    TRef.unary main_call9.v8 main_call9.v10 (broadcastInDim S64 ![] bcast_S_S64),
    TRef.binary main_call9.v9 main_call9.v10 main_call9.v11 Host.divf,
    TRef.nullary main_call9.cst_3 (constant S_ .f32 0x00000000#32),
    TRef.binary main_call9.v8 main_call9.cst_3 main_call9.v12 (cmpf .ogt),
    TRef.nullary main_call9.cst_4 (constant S_ .f32 0x7FC00000#32),
    TRef.unary main_call9.cst_4 main_call9.call0.v0 id,
    TRef.unary main_call9.call0.v0 main_call9.call0.v1 (broadcastInDim S64 ![] bcast_S_S64),
    TRef.ternary main_call9.v12 main_call9.v11 main_call9.call0.v1 main_call9.call0.v2 (fun p a b => select (broadcastInDim S64 ![] bcast_S_S64 p) a b) ]
abbrev C22_W : List (Ref sig .tc) :=
  [main_v357, main_v358, main_v359, main_v360, main_cst_62, main_v361, main_cst_63, main_v362, main_v363, main_c_64, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v364]
theorem C22_sub : (C22 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C22_writes : (C22 : List (HloOp τ sig (Elt F))).Forall fun op => op.writes ⊆ ((C22_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 433 … 448: 16 operations. -/
abbrev C23 : List (HloOp τ sig (Elt F)) :=
  [ unary main_v363 main_v365 (broadcastInDim S1x64 ![1] bcast_S64_S1x64_1 : (⟨S64, .f32⟩ : BufTy).Contents (Elt F) → (⟨S1x64, .f32⟩ : BufTy).Contents (Elt F)),
    unary main_v365 main_v366 (broadcastInDim S200000x64 ![0, 1] bcast_S1x64_S200000x64_0_1 : (⟨S1x64, .f32⟩ : BufTy).Contents (Elt F) → (⟨S200000x64, .f32⟩ : BufTy).Contents (Elt F)),
    binary main_v262 main_v366 main_v367 (subf : (⟨S200000x64, .f32⟩ : BufTy).Contents (Elt F) → (⟨S200000x64, .f32⟩ : BufTy).Contents (Elt F) → (⟨S200000x64, .f32⟩ : BufTy).Contents (Elt F)),
    unary main_v358 main_v368 (broadcastInDim S1x64 ![1] bcast_S64_S1x64_1 : (⟨S64, .f32⟩ : BufTy).Contents (Elt F) → (⟨S1x64, .f32⟩ : BufTy).Contents (Elt F)),
    unary main_v368 main_v369 (broadcastInDim S200000x64 ![0, 1] bcast_S1x64_S200000x64_0_1 : (⟨S1x64, .f32⟩ : BufTy).Contents (Elt F) → (⟨S200000x64, .f32⟩ : BufTy).Contents (Elt F)),
    binary main_v369 main_v367 main_v370 (mulf : (⟨S200000x64, .f32⟩ : BufTy).Contents (Elt F) → (⟨S200000x64, .f32⟩ : BufTy).Contents (Elt F) → (⟨S200000x64, .f32⟩ : BufTy).Contents (Elt F)),
    nullary main_cst_65 (constant S_ .f32 0x3727C5AC#32),
    unary main_cst_65 main_v371 (broadcastInDim S64 ![] bcast_S_S64 : (⟨S_, .f32⟩ : BufTy).Contents (Elt F) → (⟨S64, .f32⟩ : BufTy).Contents (Elt F)),
    binary main_v364 main_v371 main_v372 (addf : (⟨S64, .f32⟩ : BufTy).Contents (Elt F) → (⟨S64, .f32⟩ : BufTy).Contents (Elt F) → (⟨S64, .f32⟩ : BufTy).Contents (Elt F)),
    unary main_v372 main_v373 (Host.sqrt : (⟨S64, .f32⟩ : BufTy).Contents (Elt F) → (⟨S64, .f32⟩ : BufTy).Contents (Elt F)),
    unary main_v373 main_v374 (broadcastInDim S1x64 ![1] bcast_S64_S1x64_1 : (⟨S64, .f32⟩ : BufTy).Contents (Elt F) → (⟨S1x64, .f32⟩ : BufTy).Contents (Elt F)),
    unary main_v374 main_v375 (broadcastInDim S200000x64 ![0, 1] bcast_S1x64_S200000x64_0_1 : (⟨S1x64, .f32⟩ : BufTy).Contents (Elt F) → (⟨S200000x64, .f32⟩ : BufTy).Contents (Elt F)),
    binary main_v370 main_v375 main_v376 (Host.divf : (⟨S200000x64, .f32⟩ : BufTy).Contents (Elt F) → (⟨S200000x64, .f32⟩ : BufTy).Contents (Elt F) → (⟨S200000x64, .f32⟩ : BufTy).Contents (Elt F)),
    unary main_v360 main_v377 (broadcastInDim S1x64 ![1] bcast_S64_S1x64_1 : (⟨S64, .f32⟩ : BufTy).Contents (Elt F) → (⟨S1x64, .f32⟩ : BufTy).Contents (Elt F)),
    unary main_v377 main_v378 (broadcastInDim S200000x64 ![0, 1] bcast_S1x64_S200000x64_0_1 : (⟨S1x64, .f32⟩ : BufTy).Contents (Elt F) → (⟨S200000x64, .f32⟩ : BufTy).Contents (Elt F)),
    binary main_v376 main_v378 main_v379 (addf : (⟨S200000x64, .f32⟩ : BufTy).Contents (Elt F) → (⟨S200000x64, .f32⟩ : BufTy).Contents (Elt F) → (⟨S200000x64, .f32⟩ : BufTy).Contents (Elt F)) ]
abbrev C23_W : List (Ref sig .tc) :=
  [main_v365, main_v366, main_v367, main_v368, main_v369, main_v370, main_cst_65, main_v371, main_v372, main_v373, main_v374, main_v375, main_v376, main_v377, main_v378, main_v379]
theorem C23_sub : (C23 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C23_writes : (C23 : List (HloOp τ sig (Elt F))).Forall fun op => op.writes ⊆ ((C23_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 449 … 470: 22 operations. -/
abbrev C24 : List (HloOp τ sig (Elt F)) :=
  [ unary main_arg18 main_v380 ((extractStridedSlice S1x100000 ![0, 0] · slices_S2x100000_S1x100000_0_0) : (⟨S2x100000, .i32⟩ : BufTy).Contents (Elt F) → (⟨S1x100000, .i32⟩ : BufTy).Contents (Elt F)),
    reshape main_v380 main_v381 rfl shapeCasts_S1x100000_S100000,
    nullary main_c_66 (constantI S_ 32 0#32),
    unary main_c_66 main_v382 (broadcastInDim S100000 ![] bcast_S_S100000 : (⟨S_, .i32⟩ : BufTy).Contents (Elt F) → (⟨S100000, .i32⟩ : BufTy).Contents (Elt F)),
    binary main_v381 main_v382 main_v383 (cmpi .slt : (⟨S100000, .i32⟩ : BufTy).Contents (Elt F) → (⟨S100000, .i32⟩ : BufTy).Contents (Elt F) → (⟨S100000, .i1⟩ : BufTy).Contents (Elt F)),
    nullary main_c_67 (constantI S_ 32 200000#32),
    unary main_c_67 main_v384 (broadcastInDim S100000 ![] bcast_S_S100000 : (⟨S_, .i32⟩ : BufTy).Contents (Elt F) → (⟨S100000, .i32⟩ : BufTy).Contents (Elt F)),
    binary main_v381 main_v384 main_v385 (addi : (⟨S100000, .i32⟩ : BufTy).Contents (Elt F) → (⟨S100000, .i32⟩ : BufTy).Contents (Elt F) → (⟨S100000, .i32⟩ : BufTy).Contents (Elt F)),
    ternary main_v383 main_v385 main_v381 main_v386 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v386 main_v387 (broadcastInDim S100000x1 ![0] bcast_S100000_S100000x1_0 : (⟨S100000, .i32⟩ : BufTy).Contents (Elt F) → (⟨S100000x1, .i32⟩ : BufTy).Contents (Elt F)),
    binary main_v356 main_v387 main_v388 ((fun x i => Host.gather gather_S200000x64_S100000x1_S100000x64_1_0_n_n_0_1_164 x i) : (⟨S200000x64, .f32⟩ : BufTy).Contents (Elt F) → (⟨S100000x1, .i32⟩ : BufTy).Contents (Elt F) → (⟨S100000x64, .f32⟩ : BufTy).Contents (Elt F)),
    unary main_arg18 main_v389 ((extractStridedSlice S1x100000 ![1, 0] · slices_S2x100000_S1x100000_1_0) : (⟨S2x100000, .i32⟩ : BufTy).Contents (Elt F) → (⟨S1x100000, .i32⟩ : BufTy).Contents (Elt F)),
    reshape main_v389 main_v390 rfl shapeCasts_S1x100000_S100000,
    nullary main_c_68 (constantI S_ 32 0#32),
    unary main_c_68 main_v391 (broadcastInDim S100000 ![] bcast_S_S100000 : (⟨S_, .i32⟩ : BufTy).Contents (Elt F) → (⟨S100000, .i32⟩ : BufTy).Contents (Elt F)),
    binary main_v390 main_v391 main_v392 (cmpi .slt : (⟨S100000, .i32⟩ : BufTy).Contents (Elt F) → (⟨S100000, .i32⟩ : BufTy).Contents (Elt F) → (⟨S100000, .i1⟩ : BufTy).Contents (Elt F)),
    nullary main_c_69 (constantI S_ 32 200000#32),
    unary main_c_69 main_v393 (broadcastInDim S100000 ![] bcast_S_S100000 : (⟨S_, .i32⟩ : BufTy).Contents (Elt F) → (⟨S100000, .i32⟩ : BufTy).Contents (Elt F)),
    binary main_v390 main_v393 main_v394 (addi : (⟨S100000, .i32⟩ : BufTy).Contents (Elt F) → (⟨S100000, .i32⟩ : BufTy).Contents (Elt F) → (⟨S100000, .i32⟩ : BufTy).Contents (Elt F)),
    ternary main_v392 main_v394 main_v390 main_v395 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v395 main_v396 (broadcastInDim S100000x1 ![0] bcast_S100000_S100000x1_0 : (⟨S100000, .i32⟩ : BufTy).Contents (Elt F) → (⟨S100000x1, .i32⟩ : BufTy).Contents (Elt F)),
    binary main_v379 main_v396 main_v397 ((fun x i => Host.gather gather_S200000x64_S100000x1_S100000x64_1_0_n_n_0_1_164 x i) : (⟨S200000x64, .f32⟩ : BufTy).Contents (Elt F) → (⟨S100000x1, .i32⟩ : BufTy).Contents (Elt F) → (⟨S100000x64, .f32⟩ : BufTy).Contents (Elt F)) ]
abbrev C24_W : List (Ref sig .tc) :=
  [main_v380, main_v381, main_c_66, main_v382, main_v383, main_c_67, main_v384, main_v385, main_v386, main_v387, main_v388, main_v389, main_v390, main_c_68, main_v391, main_v392, main_c_69, main_v393, main_v394, main_v395, main_v396, main_v397]
theorem C24_sub : (C24 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C24_writes : (C24 : List (HloOp τ sig (Elt F))).Forall fun op => op.writes ⊆ ((C24_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 471 … 473: 3 operations. -/
abbrev C25 : List (HloOp τ sig (Elt F)) :=
  [ binary main_v388 main_v397 main_v398 (mulf : (⟨S100000x64, .f32⟩ : BufTy).Contents (Elt F) → (⟨S100000x64, .f32⟩ : BufTy).Contents (Elt F) → (⟨S100000x64, .f32⟩ : BufTy).Contents (Elt F)),
    nullary main_cst_70 (constant S_ .f32 0x00000000#32),
    binary main_v398 main_cst_70 main_v399 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)) ]
abbrev C25_W : List (Ref sig .tc) :=
  [main_v398, main_cst_70, main_v399]
theorem C25_sub : (C25 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C25_writes : (C25 : List (HloOp τ sig (Elt F))).Forall fun op => op.writes ⊆ ((C25_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 474 … 484: 11 operations. -/
abbrev C26 : List (HloOp τ sig (Elt F)) :=
  [ unary main_arg18 main_v400 ((extractStridedSlice S1x100000 ![1, 0] · slices_S2x100000_S1x100000_1_0) : (⟨S2x100000, .i32⟩ : BufTy).Contents (Elt F) → (⟨S1x100000, .i32⟩ : BufTy).Contents (Elt F)),
    reshape main_v400 main_v401 rfl shapeCasts_S1x100000_S100000,
    nullary main_c_71 (constantI S_ 32 0#32),
    unary main_c_71 main_v402 (broadcastInDim S100000 ![] bcast_S_S100000 : (⟨S_, .i32⟩ : BufTy).Contents (Elt F) → (⟨S100000, .i32⟩ : BufTy).Contents (Elt F)),
    binary main_v401 main_v402 main_v403 (cmpi .slt : (⟨S100000, .i32⟩ : BufTy).Contents (Elt F) → (⟨S100000, .i32⟩ : BufTy).Contents (Elt F) → (⟨S100000, .i1⟩ : BufTy).Contents (Elt F)),
    nullary main_c_72 (constantI S_ 32 200000#32),
    unary main_c_72 main_v404 (broadcastInDim S100000 ![] bcast_S_S100000 : (⟨S_, .i32⟩ : BufTy).Contents (Elt F) → (⟨S100000, .i32⟩ : BufTy).Contents (Elt F)),
    binary main_v401 main_v404 main_v405 (addi : (⟨S100000, .i32⟩ : BufTy).Contents (Elt F) → (⟨S100000, .i32⟩ : BufTy).Contents (Elt F) → (⟨S100000, .i32⟩ : BufTy).Contents (Elt F)),
    ternary main_v403 main_v405 main_v401 main_v406 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v406 main_v407 (broadcastInDim S100000x1 ![0] bcast_S100000_S100000x1_0 : (⟨S100000, .i32⟩ : BufTy).Contents (Elt F) → (⟨S100000x1, .i32⟩ : BufTy).Contents (Elt F)),
    binary main_arg12 main_v407 main_v408 ((fun x i => Host.gather gather_S200000_S100000x1_S100000_n_0_n_n_0_1_1 x i) : (⟨S200000, .f32⟩ : BufTy).Contents (Elt F) → (⟨S100000x1, .i32⟩ : BufTy).Contents (Elt F) → (⟨S100000, .f32⟩ : BufTy).Contents (Elt F)) ]
abbrev C26_W : List (Ref sig .tc) :=
  [main_v400, main_v401, main_c_71, main_v402, main_v403, main_c_72, main_v404, main_v405, main_v406, main_v407, main_v408]
theorem C26_sub : (C26 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C26_writes : (C26 : List (HloOp τ sig (Elt F))).Forall fun op => op.writes ⊆ ((C26_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 485 … 506: 22 operations. -/
abbrev C27 : List (HloOp τ sig (Elt F)) :=
  [ unary main_arg19 main_v409 ((extractStridedSlice S1x100000 ![0, 0] · slices_S2x100000_S1x100000_0_0) : (⟨S2x100000, .i32⟩ : BufTy).Contents (Elt F) → (⟨S1x100000, .i32⟩ : BufTy).Contents (Elt F)),
    reshape main_v409 main_v410 rfl shapeCasts_S1x100000_S100000,
    nullary main_c_73 (constantI S_ 32 0#32),
    unary main_c_73 main_v411 (broadcastInDim S100000 ![] bcast_S_S100000 : (⟨S_, .i32⟩ : BufTy).Contents (Elt F) → (⟨S100000, .i32⟩ : BufTy).Contents (Elt F)),
    binary main_v410 main_v411 main_v412 (cmpi .slt : (⟨S100000, .i32⟩ : BufTy).Contents (Elt F) → (⟨S100000, .i32⟩ : BufTy).Contents (Elt F) → (⟨S100000, .i1⟩ : BufTy).Contents (Elt F)),
    nullary main_c_74 (constantI S_ 32 200000#32),
    unary main_c_74 main_v413 (broadcastInDim S100000 ![] bcast_S_S100000 : (⟨S_, .i32⟩ : BufTy).Contents (Elt F) → (⟨S100000, .i32⟩ : BufTy).Contents (Elt F)),
    binary main_v410 main_v413 main_v414 (addi : (⟨S100000, .i32⟩ : BufTy).Contents (Elt F) → (⟨S100000, .i32⟩ : BufTy).Contents (Elt F) → (⟨S100000, .i32⟩ : BufTy).Contents (Elt F)),
    ternary main_v412 main_v414 main_v410 main_v415 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v415 main_v416 (broadcastInDim S100000x1 ![0] bcast_S100000_S100000x1_0 : (⟨S100000, .i32⟩ : BufTy).Contents (Elt F) → (⟨S100000x1, .i32⟩ : BufTy).Contents (Elt F)),
    binary main_v379 main_v416 main_v417 ((fun x i => Host.gather gather_S200000x64_S100000x1_S100000x64_1_0_n_n_0_1_164 x i) : (⟨S200000x64, .f32⟩ : BufTy).Contents (Elt F) → (⟨S100000x1, .i32⟩ : BufTy).Contents (Elt F) → (⟨S100000x64, .f32⟩ : BufTy).Contents (Elt F)),
    unary main_arg19 main_v418 ((extractStridedSlice S1x100000 ![1, 0] · slices_S2x100000_S1x100000_1_0) : (⟨S2x100000, .i32⟩ : BufTy).Contents (Elt F) → (⟨S1x100000, .i32⟩ : BufTy).Contents (Elt F)),
    reshape main_v418 main_v419 rfl shapeCasts_S1x100000_S100000,
    nullary main_c_75 (constantI S_ 32 0#32),
    unary main_c_75 main_v420 (broadcastInDim S100000 ![] bcast_S_S100000 : (⟨S_, .i32⟩ : BufTy).Contents (Elt F) → (⟨S100000, .i32⟩ : BufTy).Contents (Elt F)),
    binary main_v419 main_v420 main_v421 (cmpi .slt : (⟨S100000, .i32⟩ : BufTy).Contents (Elt F) → (⟨S100000, .i32⟩ : BufTy).Contents (Elt F) → (⟨S100000, .i1⟩ : BufTy).Contents (Elt F)),
    nullary main_c_76 (constantI S_ 32 200000#32),
    unary main_c_76 main_v422 (broadcastInDim S100000 ![] bcast_S_S100000 : (⟨S_, .i32⟩ : BufTy).Contents (Elt F) → (⟨S100000, .i32⟩ : BufTy).Contents (Elt F)),
    binary main_v419 main_v422 main_v423 (addi : (⟨S100000, .i32⟩ : BufTy).Contents (Elt F) → (⟨S100000, .i32⟩ : BufTy).Contents (Elt F) → (⟨S100000, .i32⟩ : BufTy).Contents (Elt F)),
    ternary main_v421 main_v423 main_v419 main_v424 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v424 main_v425 (broadcastInDim S100000x1 ![0] bcast_S100000_S100000x1_0 : (⟨S100000, .i32⟩ : BufTy).Contents (Elt F) → (⟨S100000x1, .i32⟩ : BufTy).Contents (Elt F)),
    binary main_v356 main_v425 main_v426 ((fun x i => Host.gather gather_S200000x64_S100000x1_S100000x64_1_0_n_n_0_1_164 x i) : (⟨S200000x64, .f32⟩ : BufTy).Contents (Elt F) → (⟨S100000x1, .i32⟩ : BufTy).Contents (Elt F) → (⟨S100000x64, .f32⟩ : BufTy).Contents (Elt F)) ]
abbrev C27_W : List (Ref sig .tc) :=
  [main_v409, main_v410, main_c_73, main_v411, main_v412, main_c_74, main_v413, main_v414, main_v415, main_v416, main_v417, main_v418, main_v419, main_c_75, main_v420, main_v421, main_c_76, main_v422, main_v423, main_v424, main_v425, main_v426]
theorem C27_sub : (C27 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C27_writes : (C27 : List (HloOp τ sig (Elt F))).Forall fun op => op.writes ⊆ ((C27_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 507 … 509: 3 operations. -/
abbrev C28 : List (HloOp τ sig (Elt F)) :=
  [ binary main_v417 main_v426 main_v427 (mulf : (⟨S100000x64, .f32⟩ : BufTy).Contents (Elt F) → (⟨S100000x64, .f32⟩ : BufTy).Contents (Elt F) → (⟨S100000x64, .f32⟩ : BufTy).Contents (Elt F)),
    nullary main_cst_77 (constant S_ .f32 0x00000000#32),
    binary main_v427 main_cst_77 main_v428 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)) ]
abbrev C28_W : List (Ref sig .tc) :=
  [main_v427, main_cst_77, main_v428]
theorem C28_sub : (C28 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C28_writes : (C28 : List (HloOp τ sig (Elt F))).Forall fun op => op.writes ⊆ ((C28_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 510 … 520: 11 operations. -/
abbrev C29 : List (HloOp τ sig (Elt F)) :=
  [ unary main_arg19 main_v429 ((extractStridedSlice S1x100000 ![1, 0] · slices_S2x100000_S1x100000_1_0) : (⟨S2x100000, .i32⟩ : BufTy).Contents (Elt F) → (⟨S1x100000, .i32⟩ : BufTy).Contents (Elt F)),
    reshape main_v429 main_v430 rfl shapeCasts_S1x100000_S100000,
    nullary main_c_78 (constantI S_ 32 0#32),
    unary main_c_78 main_v431 (broadcastInDim S100000 ![] bcast_S_S100000 : (⟨S_, .i32⟩ : BufTy).Contents (Elt F) → (⟨S100000, .i32⟩ : BufTy).Contents (Elt F)),
    binary main_v430 main_v431 main_v432 (cmpi .slt : (⟨S100000, .i32⟩ : BufTy).Contents (Elt F) → (⟨S100000, .i32⟩ : BufTy).Contents (Elt F) → (⟨S100000, .i1⟩ : BufTy).Contents (Elt F)),
    nullary main_c_79 (constantI S_ 32 200000#32),
    unary main_c_79 main_v433 (broadcastInDim S100000 ![] bcast_S_S100000 : (⟨S_, .i32⟩ : BufTy).Contents (Elt F) → (⟨S100000, .i32⟩ : BufTy).Contents (Elt F)),
    binary main_v430 main_v433 main_v434 (addi : (⟨S100000, .i32⟩ : BufTy).Contents (Elt F) → (⟨S100000, .i32⟩ : BufTy).Contents (Elt F) → (⟨S100000, .i32⟩ : BufTy).Contents (Elt F)),
    ternary main_v432 main_v434 main_v430 main_v435 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v435 main_v436 (broadcastInDim S100000x1 ![0] bcast_S100000_S100000x1_0 : (⟨S100000, .i32⟩ : BufTy).Contents (Elt F) → (⟨S100000x1, .i32⟩ : BufTy).Contents (Elt F)),
    binary main_arg11 main_v436 main_v437 ((fun x i => Host.gather gather_S200000_S100000x1_S100000_n_0_n_n_0_1_1 x i) : (⟨S200000, .f32⟩ : BufTy).Contents (Elt F) → (⟨S100000x1, .i32⟩ : BufTy).Contents (Elt F) → (⟨S100000, .f32⟩ : BufTy).Contents (Elt F)) ]
abbrev C29_W : List (Ref sig .tc) :=
  [main_v429, main_v430, main_c_78, main_v431, main_v432, main_c_79, main_v433, main_v434, main_v435, main_v436, main_v437]
theorem C29_sub : (C29 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C29_writes : (C29 : List (HloOp τ sig (Elt F))).Forall fun op => op.writes ⊆ ((C29_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 521 … 542: 22 operations. -/
abbrev C30 : List (HloOp τ sig (Elt F)) :=
  [ unary main_arg20 main_v438 ((extractStridedSlice S1x100000 ![0, 0] · slices_S2x100000_S1x100000_0_0) : (⟨S2x100000, .i32⟩ : BufTy).Contents (Elt F) → (⟨S1x100000, .i32⟩ : BufTy).Contents (Elt F)),
    reshape main_v438 main_v439 rfl shapeCasts_S1x100000_S100000,
    nullary main_c_80 (constantI S_ 32 0#32),
    unary main_c_80 main_v440 (broadcastInDim S100000 ![] bcast_S_S100000 : (⟨S_, .i32⟩ : BufTy).Contents (Elt F) → (⟨S100000, .i32⟩ : BufTy).Contents (Elt F)),
    binary main_v439 main_v440 main_v441 (cmpi .slt : (⟨S100000, .i32⟩ : BufTy).Contents (Elt F) → (⟨S100000, .i32⟩ : BufTy).Contents (Elt F) → (⟨S100000, .i1⟩ : BufTy).Contents (Elt F)),
    nullary main_c_81 (constantI S_ 32 200000#32),
    unary main_c_81 main_v442 (broadcastInDim S100000 ![] bcast_S_S100000 : (⟨S_, .i32⟩ : BufTy).Contents (Elt F) → (⟨S100000, .i32⟩ : BufTy).Contents (Elt F)),
    binary main_v439 main_v442 main_v443 (addi : (⟨S100000, .i32⟩ : BufTy).Contents (Elt F) → (⟨S100000, .i32⟩ : BufTy).Contents (Elt F) → (⟨S100000, .i32⟩ : BufTy).Contents (Elt F)),
    ternary main_v441 main_v443 main_v439 main_v444 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v444 main_v445 (broadcastInDim S100000x1 ![0] bcast_S100000_S100000x1_0 : (⟨S100000, .i32⟩ : BufTy).Contents (Elt F) → (⟨S100000x1, .i32⟩ : BufTy).Contents (Elt F)),
    binary main_v356 main_v445 main_v446 ((fun x i => Host.gather gather_S200000x64_S100000x1_S100000x64_1_0_n_n_0_1_164 x i) : (⟨S200000x64, .f32⟩ : BufTy).Contents (Elt F) → (⟨S100000x1, .i32⟩ : BufTy).Contents (Elt F) → (⟨S100000x64, .f32⟩ : BufTy).Contents (Elt F)),
    unary main_arg20 main_v447 ((extractStridedSlice S1x100000 ![1, 0] · slices_S2x100000_S1x100000_1_0) : (⟨S2x100000, .i32⟩ : BufTy).Contents (Elt F) → (⟨S1x100000, .i32⟩ : BufTy).Contents (Elt F)),
    reshape main_v447 main_v448 rfl shapeCasts_S1x100000_S100000,
    nullary main_c_82 (constantI S_ 32 0#32),
    unary main_c_82 main_v449 (broadcastInDim S100000 ![] bcast_S_S100000 : (⟨S_, .i32⟩ : BufTy).Contents (Elt F) → (⟨S100000, .i32⟩ : BufTy).Contents (Elt F)),
    binary main_v448 main_v449 main_v450 (cmpi .slt : (⟨S100000, .i32⟩ : BufTy).Contents (Elt F) → (⟨S100000, .i32⟩ : BufTy).Contents (Elt F) → (⟨S100000, .i1⟩ : BufTy).Contents (Elt F)),
    nullary main_c_83 (constantI S_ 32 200000#32),
    unary main_c_83 main_v451 (broadcastInDim S100000 ![] bcast_S_S100000 : (⟨S_, .i32⟩ : BufTy).Contents (Elt F) → (⟨S100000, .i32⟩ : BufTy).Contents (Elt F)),
    binary main_v448 main_v451 main_v452 (addi : (⟨S100000, .i32⟩ : BufTy).Contents (Elt F) → (⟨S100000, .i32⟩ : BufTy).Contents (Elt F) → (⟨S100000, .i32⟩ : BufTy).Contents (Elt F)),
    ternary main_v450 main_v452 main_v448 main_v453 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v453 main_v454 (broadcastInDim S100000x1 ![0] bcast_S100000_S100000x1_0 : (⟨S100000, .i32⟩ : BufTy).Contents (Elt F) → (⟨S100000x1, .i32⟩ : BufTy).Contents (Elt F)),
    binary main_v356 main_v454 main_v455 ((fun x i => Host.gather gather_S200000x64_S100000x1_S100000x64_1_0_n_n_0_1_164 x i) : (⟨S200000x64, .f32⟩ : BufTy).Contents (Elt F) → (⟨S100000x1, .i32⟩ : BufTy).Contents (Elt F) → (⟨S100000x64, .f32⟩ : BufTy).Contents (Elt F)) ]
abbrev C30_W : List (Ref sig .tc) :=
  [main_v438, main_v439, main_c_80, main_v440, main_v441, main_c_81, main_v442, main_v443, main_v444, main_v445, main_v446, main_v447, main_v448, main_c_82, main_v449, main_v450, main_c_83, main_v451, main_v452, main_v453, main_v454, main_v455]
theorem C30_sub : (C30 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C30_writes : (C30 : List (HloOp τ sig (Elt F))).Forall fun op => op.writes ⊆ ((C30_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 543 … 545: 3 operations. -/
abbrev C31 : List (HloOp τ sig (Elt F)) :=
  [ binary main_v446 main_v455 main_v456 (mulf : (⟨S100000x64, .f32⟩ : BufTy).Contents (Elt F) → (⟨S100000x64, .f32⟩ : BufTy).Contents (Elt F) → (⟨S100000x64, .f32⟩ : BufTy).Contents (Elt F)),
    nullary main_cst_84 (constant S_ .f32 0x00000000#32),
    binary main_v456 main_cst_84 main_v457 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)) ]
abbrev C31_W : List (Ref sig .tc) :=
  [main_v456, main_cst_84, main_v457]
theorem C31_sub : (C31 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C31_writes : (C31 : List (HloOp τ sig (Elt F))).Forall fun op => op.writes ⊆ ((C31_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 546 … 556: 11 operations. -/
abbrev C32 : List (HloOp τ sig (Elt F)) :=
  [ unary main_arg20 main_v458 ((extractStridedSlice S1x100000 ![1, 0] · slices_S2x100000_S1x100000_1_0) : (⟨S2x100000, .i32⟩ : BufTy).Contents (Elt F) → (⟨S1x100000, .i32⟩ : BufTy).Contents (Elt F)),
    reshape main_v458 main_v459 rfl shapeCasts_S1x100000_S100000,
    nullary main_c_85 (constantI S_ 32 0#32),
    unary main_c_85 main_v460 (broadcastInDim S100000 ![] bcast_S_S100000 : (⟨S_, .i32⟩ : BufTy).Contents (Elt F) → (⟨S100000, .i32⟩ : BufTy).Contents (Elt F)),
    binary main_v459 main_v460 main_v461 (cmpi .slt : (⟨S100000, .i32⟩ : BufTy).Contents (Elt F) → (⟨S100000, .i32⟩ : BufTy).Contents (Elt F) → (⟨S100000, .i1⟩ : BufTy).Contents (Elt F)),
    nullary main_c_86 (constantI S_ 32 200000#32),
    unary main_c_86 main_v462 (broadcastInDim S100000 ![] bcast_S_S100000 : (⟨S_, .i32⟩ : BufTy).Contents (Elt F) → (⟨S100000, .i32⟩ : BufTy).Contents (Elt F)),
    binary main_v459 main_v462 main_v463 (addi : (⟨S100000, .i32⟩ : BufTy).Contents (Elt F) → (⟨S100000, .i32⟩ : BufTy).Contents (Elt F) → (⟨S100000, .i32⟩ : BufTy).Contents (Elt F)),
    ternary main_v461 main_v463 main_v459 main_v464 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v464 main_v465 (broadcastInDim S100000x1 ![0] bcast_S100000_S100000x1_0 : (⟨S100000, .i32⟩ : BufTy).Contents (Elt F) → (⟨S100000x1, .i32⟩ : BufTy).Contents (Elt F)),
    binary main_arg11 main_v465 main_v466 ((fun x i => Host.gather gather_S200000_S100000x1_S100000_n_0_n_n_0_1_1 x i) : (⟨S200000, .f32⟩ : BufTy).Contents (Elt F) → (⟨S100000x1, .i32⟩ : BufTy).Contents (Elt F) → (⟨S100000, .f32⟩ : BufTy).Contents (Elt F)) ]
abbrev C32_W : List (Ref sig .tc) :=
  [main_v458, main_v459, main_c_85, main_v460, main_v461, main_c_86, main_v462, main_v463, main_v464, main_v465, main_v466]
theorem C32_sub : (C32 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C32_writes : (C32 : List (HloOp τ sig (Elt F))).Forall fun op => op.writes ⊆ ((C32_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

/-- Statements 557 … 563: 7 operations. -/
abbrev C33 : List (HloOp τ sig (Elt F)) :=
  [ unary main_v399 main_v467 (broadcastInDim S1x100000 ![1] bcast_S100000_S1x100000_1 : (⟨S100000, .f32⟩ : BufTy).Contents (Elt F) → (⟨S1x100000, .f32⟩ : BufTy).Contents (Elt F)),
    unary main_v428 main_v468 (broadcastInDim S1x100000 ![1] bcast_S100000_S1x100000_1 : (⟨S100000, .f32⟩ : BufTy).Contents (Elt F) → (⟨S1x100000, .f32⟩ : BufTy).Contents (Elt F)),
    unary main_v457 main_v469 (broadcastInDim S1x100000 ![1] bcast_S100000_S1x100000_1 : (⟨S100000, .f32⟩ : BufTy).Contents (Elt F) → (⟨S1x100000, .f32⟩ : BufTy).Contents (Elt F)),
    unary main_v408 main_v470 (broadcastInDim S1x100000 ![1] bcast_S100000_S1x100000_1 : (⟨S100000, .f32⟩ : BufTy).Contents (Elt F) → (⟨S1x100000, .f32⟩ : BufTy).Contents (Elt F)),
    unary main_v437 main_v471 (broadcastInDim S1x100000 ![1] bcast_S100000_S1x100000_1 : (⟨S100000, .f32⟩ : BufTy).Contents (Elt F) → (⟨S1x100000, .f32⟩ : BufTy).Contents (Elt F)),
    unary main_v466 main_v472 (broadcastInDim S1x100000 ![1] bcast_S100000_S1x100000_1 : (⟨S100000, .f32⟩ : BufTy).Contents (Elt F) → (⟨S1x100000, .f32⟩ : BufTy).Contents (Elt F)),
    nary ![main_v467, main_v468, main_v469, main_v470, main_v471, main_v472] main_v473 (fun u => concatenate S6x100000 0 [⟨S1x100000, u 0⟩, ⟨S1x100000, u 1⟩, ⟨S1x100000, u 2⟩, ⟨S1x100000, u 3⟩, ⟨S1x100000, u 4⟩, ⟨S1x100000, u 5⟩] concatenates_S1x100000_S1x100000_S1x100000_S1x100000_S1x100000_S1x100000_S6x100000_d0) ]
abbrev C33_W : List (Ref sig .tc) :=
  [main_v467, main_v468, main_v469, main_v470, main_v471, main_v472, main_v473]
theorem C33_sub : (C33 : List (HloOp τ sig (Elt F))).Forall fun op => op.bufs ⊆ tcRefs τ sig := by
  simp only [List.Forall, nullary_bufs_sub, unary_bufs_sub, binary_bufs_sub, ternary_bufs_sub, quaternary_bufs_sub,
    reshape_bufs_sub, nary_bufs_sub, and_self]
theorem C33_writes : (C33 : List (HloOp τ sig (Elt F))).Forall fun op => op.writes ⊆ ((C33_W).map (Proc.devRef (τ := τ) .tc)).toFinset := by
  simp only [List.Forall, nullary_writes, unary_writes, binary_writes, ternary_writes, quaternary_writes, reshape_writes,
    nary_writes, Finset.singleton_subset_iff, List.mem_toFinset]
  (repeat' apply And.intro) <;> exact List.mem_map_of_mem (by decide)

end Cert.ReferenceIdeal.Hand

end
-- ==== Proof.Ref.Folds.lean ====
/-
  The reference program's operations, cut at stage boundaries, and what a device's buffers hold at each boundary. The
  list `ops` of the whole program is the concatenation of the thirty-four stretches `C0 … C33` (the same operations in the
  same order, cut at other places than the windows). `Rv0` is the launch contents and `Rv(J+1)` the fold of stretch `J`
  over `RvJ`; a reference stretch `J` does not write holds at `Rv(J+1)` what it held at `RvJ`; and the fold of the
  whole program over the launch contents is `Rv34` (`after` over a concatenation is the folds one after the other).
-/
import proofs.«151172_j14164802142730_2_alg».proof.Proof.Ref.Run
import proofs.«151172_j14164802142730_2_alg».proof.Proof.Ref.Chunks

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
/-- The windows' lists one after the other and the stretches' lists one after the other, both associated to the right,
    are the same list: both are literal lists of the same operations in the same order, so the two concatenations
    compute to one list (associated to the right, each step of the computation peels one operation off both sides). -/
theorem ops_eq_chunks_right :
    (ops0 ++ (ops1 ++ (ops2 ++ (ops3 ++ (ops4 ++ (ops5 ++ (ops6 ++ (ops7 ++ (ops8 ++ (ops9))))))))) : List (HloOp τ sig (Elt F)))
      = C0 ++ (C1 ++ (C2 ++ (C3 ++ (C4 ++ (C5 ++ (C6 ++ (C7 ++ (C8 ++ (C9 ++ (C10 ++ (C11 ++ (C12 ++ (C13 ++ (C14 ++ (C15 ++ (C16 ++ (C17 ++ (C18 ++ (C19 ++ (C20 ++ (C21 ++ (C22 ++ (C23 ++ (C24 ++ (C25 ++ (C26 ++ (C27 ++ (C28 ++ (C29 ++ (C30 ++ (C31 ++ (C32 ++ (C33))))))))))))))))))))))))))))))))) := rfl

/-- The program's list is the stretches' lists one after the other (`List.append_assoc` on both sides of the above). -/
theorem ops_eq_chunks : (ops : List (HloOp τ sig (Elt F))) = C0 ++ C1 ++ C2 ++ C3 ++ C4 ++ C5 ++ C6 ++ C7 ++ C8 ++ C9 ++ C10 ++ C11 ++ C12 ++ C13 ++ C14 ++ C15 ++ C16 ++ C17 ++ C18 ++ C19 ++ C20 ++ C21 ++ C22 ++ C23 ++ C24 ++ C25 ++ C26 ++ C27 ++ C28 ++ C29 ++ C30 ++ C31 ++ C32 ++ C33 := by
  simpa only [ops, List.append_assoc] using ops_eq_chunks_right (F := F)

/-- The fold over a concatenation is the fold over the first list, then over the second from there. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable (m : (ℓ : Loc nD τ sig) → Buf (Elt F) ℓ)

/-- A device's buffers at launch. -/
def Rv0 (c : Dev nD) : Valuation τ sig (Elt F) := launchContents m c
/-- A device's buffers after stretch 0. -/
def Rv1 (c : Dev nD) : Valuation τ sig (Elt F) := after C0 (Rv0 m c)
/-- A device's buffers after stretch 1. -/
def Rv2 (c : Dev nD) : Valuation τ sig (Elt F) := after C1 (Rv1 m c)
/-- A device's buffers after stretch 2. -/
def Rv3 (c : Dev nD) : Valuation τ sig (Elt F) := after C2 (Rv2 m c)
/-- A device's buffers after stretch 3. -/
def Rv4 (c : Dev nD) : Valuation τ sig (Elt F) := after C3 (Rv3 m c)
/-- A device's buffers after stretch 4. -/
def Rv5 (c : Dev nD) : Valuation τ sig (Elt F) := after C4 (Rv4 m c)
/-- A device's buffers after stretch 5. -/
def Rv6 (c : Dev nD) : Valuation τ sig (Elt F) := after C5 (Rv5 m c)
/-- A device's buffers after stretch 6. -/
def Rv7 (c : Dev nD) : Valuation τ sig (Elt F) := after C6 (Rv6 m c)
/-- A device's buffers after stretch 7. -/
def Rv8 (c : Dev nD) : Valuation τ sig (Elt F) := after C7 (Rv7 m c)
/-- A device's buffers after stretch 8. -/
def Rv9 (c : Dev nD) : Valuation τ sig (Elt F) := after C8 (Rv8 m c)
/-- A device's buffers after stretch 9. -/
def Rv10 (c : Dev nD) : Valuation τ sig (Elt F) := after C9 (Rv9 m c)
/-- A device's buffers after stretch 10. -/
def Rv11 (c : Dev nD) : Valuation τ sig (Elt F) := after C10 (Rv10 m c)
/-- A device's buffers after stretch 11. -/
def Rv12 (c : Dev nD) : Valuation τ sig (Elt F) := after C11 (Rv11 m c)
/-- A device's buffers after stretch 12. -/
def Rv13 (c : Dev nD) : Valuation τ sig (Elt F) := after C12 (Rv12 m c)
/-- A device's buffers after stretch 13. -/
def Rv14 (c : Dev nD) : Valuation τ sig (Elt F) := after C13 (Rv13 m c)
/-- A device's buffers after stretch 14. -/
def Rv15 (c : Dev nD) : Valuation τ sig (Elt F) := after C14 (Rv14 m c)
/-- A device's buffers after stretch 15. -/
def Rv16 (c : Dev nD) : Valuation τ sig (Elt F) := after C15 (Rv15 m c)
/-- A device's buffers after stretch 16. -/
def Rv17 (c : Dev nD) : Valuation τ sig (Elt F) := after C16 (Rv16 m c)
/-- A device's buffers after stretch 17. -/
def Rv18 (c : Dev nD) : Valuation τ sig (Elt F) := after C17 (Rv17 m c)
/-- A device's buffers after stretch 18. -/
def Rv19 (c : Dev nD) : Valuation τ sig (Elt F) := after C18 (Rv18 m c)
/-- A device's buffers after stretch 19. -/
def Rv20 (c : Dev nD) : Valuation τ sig (Elt F) := after C19 (Rv19 m c)
/-- A device's buffers after stretch 20. -/
def Rv21 (c : Dev nD) : Valuation τ sig (Elt F) := after C20 (Rv20 m c)
/-- A device's buffers after stretch 21. -/
def Rv22 (c : Dev nD) : Valuation τ sig (Elt F) := after C21 (Rv21 m c)
/-- A device's buffers after stretch 22. -/
def Rv23 (c : Dev nD) : Valuation τ sig (Elt F) := after C22 (Rv22 m c)
/-- A device's buffers after stretch 23. -/
def Rv24 (c : Dev nD) : Valuation τ sig (Elt F) := after C23 (Rv23 m c)
/-- A device's buffers after stretch 24. -/
def Rv25 (c : Dev nD) : Valuation τ sig (Elt F) := after C24 (Rv24 m c)
/-- A device's buffers after stretch 25. -/
def Rv26 (c : Dev nD) : Valuation τ sig (Elt F) := after C25 (Rv25 m c)
/-- A device's buffers after stretch 26. -/
def Rv27 (c : Dev nD) : Valuation τ sig (Elt F) := after C26 (Rv26 m c)
/-- A device's buffers after stretch 27. -/
def Rv28 (c : Dev nD) : Valuation τ sig (Elt F) := after C27 (Rv27 m c)
/-- A device's buffers after stretch 28. -/
def Rv29 (c : Dev nD) : Valuation τ sig (Elt F) := after C28 (Rv28 m c)
/-- A device's buffers after stretch 29. -/
def Rv30 (c : Dev nD) : Valuation τ sig (Elt F) := after C29 (Rv29 m c)
/-- A device's buffers after stretch 30. -/
def Rv31 (c : Dev nD) : Valuation τ sig (Elt F) := after C30 (Rv30 m c)
/-- A device's buffers after stretch 31. -/
def Rv32 (c : Dev nD) : Valuation τ sig (Elt F) := after C31 (Rv31 m c)
/-- A device's buffers after stretch 32. -/
def Rv33 (c : Dev nD) : Valuation τ sig (Elt F) := after C32 (Rv32 m c)
/-- A device's buffers after stretch 33. -/
def Rv34 (c : Dev nD) : Valuation τ sig (Elt F) := after C33 (Rv33 m c)

theorem Rv0_eq (c : Dev nD) : Rv0 m c = launchContents m c := rfl
theorem Rv1_eq (c : Dev nD) : Rv1 m c = after C0 (Rv0 m c) := rfl
theorem Rv2_eq (c : Dev nD) : Rv2 m c = after C1 (Rv1 m c) := rfl
theorem Rv3_eq (c : Dev nD) : Rv3 m c = after C2 (Rv2 m c) := rfl
theorem Rv4_eq (c : Dev nD) : Rv4 m c = after C3 (Rv3 m c) := rfl
theorem Rv5_eq (c : Dev nD) : Rv5 m c = after C4 (Rv4 m c) := rfl
theorem Rv6_eq (c : Dev nD) : Rv6 m c = after C5 (Rv5 m c) := rfl
theorem Rv7_eq (c : Dev nD) : Rv7 m c = after C6 (Rv6 m c) := rfl
theorem Rv8_eq (c : Dev nD) : Rv8 m c = after C7 (Rv7 m c) := rfl
theorem Rv9_eq (c : Dev nD) : Rv9 m c = after C8 (Rv8 m c) := rfl
theorem Rv10_eq (c : Dev nD) : Rv10 m c = after C9 (Rv9 m c) := rfl
theorem Rv11_eq (c : Dev nD) : Rv11 m c = after C10 (Rv10 m c) := rfl
theorem Rv12_eq (c : Dev nD) : Rv12 m c = after C11 (Rv11 m c) := rfl
theorem Rv13_eq (c : Dev nD) : Rv13 m c = after C12 (Rv12 m c) := rfl
theorem Rv14_eq (c : Dev nD) : Rv14 m c = after C13 (Rv13 m c) := rfl
theorem Rv15_eq (c : Dev nD) : Rv15 m c = after C14 (Rv14 m c) := rfl
theorem Rv16_eq (c : Dev nD) : Rv16 m c = after C15 (Rv15 m c) := rfl
theorem Rv17_eq (c : Dev nD) : Rv17 m c = after C16 (Rv16 m c) := rfl
theorem Rv18_eq (c : Dev nD) : Rv18 m c = after C17 (Rv17 m c) := rfl
theorem Rv19_eq (c : Dev nD) : Rv19 m c = after C18 (Rv18 m c) := rfl
theorem Rv20_eq (c : Dev nD) : Rv20 m c = after C19 (Rv19 m c) := rfl
theorem Rv21_eq (c : Dev nD) : Rv21 m c = after C20 (Rv20 m c) := rfl
theorem Rv22_eq (c : Dev nD) : Rv22 m c = after C21 (Rv21 m c) := rfl
theorem Rv23_eq (c : Dev nD) : Rv23 m c = after C22 (Rv22 m c) := rfl
theorem Rv24_eq (c : Dev nD) : Rv24 m c = after C23 (Rv23 m c) := rfl
theorem Rv25_eq (c : Dev nD) : Rv25 m c = after C24 (Rv24 m c) := rfl
theorem Rv26_eq (c : Dev nD) : Rv26 m c = after C25 (Rv25 m c) := rfl
theorem Rv27_eq (c : Dev nD) : Rv27 m c = after C26 (Rv26 m c) := rfl
theorem Rv28_eq (c : Dev nD) : Rv28 m c = after C27 (Rv27 m c) := rfl
theorem Rv29_eq (c : Dev nD) : Rv29 m c = after C28 (Rv28 m c) := rfl
theorem Rv30_eq (c : Dev nD) : Rv30 m c = after C29 (Rv29 m c) := rfl
theorem Rv31_eq (c : Dev nD) : Rv31 m c = after C30 (Rv30 m c) := rfl
theorem Rv32_eq (c : Dev nD) : Rv32 m c = after C31 (Rv31 m c) := rfl
theorem Rv33_eq (c : Dev nD) : Rv33 m c = after C32 (Rv32 m c) := rfl
theorem Rv34_eq (c : Dev nD) : Rv34 m c = after C33 (Rv33 m c) := rfl

/-- A reference stretch 0 does not write keeps its contents across it. -/
theorem Rv1_keep (c : Dev nD) (r : Ref sig .tc) (h : r ∉ C0_W) :
    Rv1 m c (Proc.devRef .tc r) = Rv0 m c (Proc.devRef .tc r) := after_of_writes_sub C0 _ C0_writes h
/-- A reference stretch 1 does not write keeps its contents across it. -/
theorem Rv2_keep (c : Dev nD) (r : Ref sig .tc) (h : r ∉ C1_W) :
    Rv2 m c (Proc.devRef .tc r) = Rv1 m c (Proc.devRef .tc r) := after_of_writes_sub C1 _ C1_writes h
/-- A reference stretch 2 does not write keeps its contents across it. -/
theorem Rv3_keep (c : Dev nD) (r : Ref sig .tc) (h : r ∉ C2_W) :
    Rv3 m c (Proc.devRef .tc r) = Rv2 m c (Proc.devRef .tc r) := after_of_writes_sub C2 _ C2_writes h
/-- A reference stretch 3 does not write keeps its contents across it. -/
theorem Rv4_keep (c : Dev nD) (r : Ref sig .tc) (h : r ∉ C3_W) :
    Rv4 m c (Proc.devRef .tc r) = Rv3 m c (Proc.devRef .tc r) := after_of_writes_sub C3 _ C3_writes h
/-- A reference stretch 4 does not write keeps its contents across it. -/
theorem Rv5_keep (c : Dev nD) (r : Ref sig .tc) (h : r ∉ C4_W) :
    Rv5 m c (Proc.devRef .tc r) = Rv4 m c (Proc.devRef .tc r) := after_of_writes_sub C4 _ C4_writes h
/-- A reference stretch 5 does not write keeps its contents across it. -/
theorem Rv6_keep (c : Dev nD) (r : Ref sig .tc) (h : r ∉ C5_W) :
    Rv6 m c (Proc.devRef .tc r) = Rv5 m c (Proc.devRef .tc r) := after_of_writes_sub C5 _ C5_writes h
/-- A reference stretch 6 does not write keeps its contents across it. -/
theorem Rv7_keep (c : Dev nD) (r : Ref sig .tc) (h : r ∉ C6_W) :
    Rv7 m c (Proc.devRef .tc r) = Rv6 m c (Proc.devRef .tc r) := after_of_writes_sub C6 _ C6_writes h
/-- A reference stretch 7 does not write keeps its contents across it. -/
theorem Rv8_keep (c : Dev nD) (r : Ref sig .tc) (h : r ∉ C7_W) :
    Rv8 m c (Proc.devRef .tc r) = Rv7 m c (Proc.devRef .tc r) := after_of_writes_sub C7 _ C7_writes h
/-- A reference stretch 8 does not write keeps its contents across it. -/
theorem Rv9_keep (c : Dev nD) (r : Ref sig .tc) (h : r ∉ C8_W) :
    Rv9 m c (Proc.devRef .tc r) = Rv8 m c (Proc.devRef .tc r) := after_of_writes_sub C8 _ C8_writes h
/-- A reference stretch 9 does not write keeps its contents across it. -/
theorem Rv10_keep (c : Dev nD) (r : Ref sig .tc) (h : r ∉ C9_W) :
    Rv10 m c (Proc.devRef .tc r) = Rv9 m c (Proc.devRef .tc r) := after_of_writes_sub C9 _ C9_writes h
/-- A reference stretch 10 does not write keeps its contents across it. -/
theorem Rv11_keep (c : Dev nD) (r : Ref sig .tc) (h : r ∉ C10_W) :
    Rv11 m c (Proc.devRef .tc r) = Rv10 m c (Proc.devRef .tc r) := after_of_writes_sub C10 _ C10_writes h
/-- A reference stretch 11 does not write keeps its contents across it. -/
theorem Rv12_keep (c : Dev nD) (r : Ref sig .tc) (h : r ∉ C11_W) :
    Rv12 m c (Proc.devRef .tc r) = Rv11 m c (Proc.devRef .tc r) := after_of_writes_sub C11 _ C11_writes h
/-- A reference stretch 12 does not write keeps its contents across it. -/
theorem Rv13_keep (c : Dev nD) (r : Ref sig .tc) (h : r ∉ C12_W) :
    Rv13 m c (Proc.devRef .tc r) = Rv12 m c (Proc.devRef .tc r) := after_of_writes_sub C12 _ C12_writes h
/-- A reference stretch 13 does not write keeps its contents across it. -/
theorem Rv14_keep (c : Dev nD) (r : Ref sig .tc) (h : r ∉ C13_W) :
    Rv14 m c (Proc.devRef .tc r) = Rv13 m c (Proc.devRef .tc r) := after_of_writes_sub C13 _ C13_writes h
/-- A reference stretch 14 does not write keeps its contents across it. -/
theorem Rv15_keep (c : Dev nD) (r : Ref sig .tc) (h : r ∉ C14_W) :
    Rv15 m c (Proc.devRef .tc r) = Rv14 m c (Proc.devRef .tc r) := after_of_writes_sub C14 _ C14_writes h
/-- A reference stretch 15 does not write keeps its contents across it. -/
theorem Rv16_keep (c : Dev nD) (r : Ref sig .tc) (h : r ∉ C15_W) :
    Rv16 m c (Proc.devRef .tc r) = Rv15 m c (Proc.devRef .tc r) := after_of_writes_sub C15 _ C15_writes h
/-- A reference stretch 16 does not write keeps its contents across it. -/
theorem Rv17_keep (c : Dev nD) (r : Ref sig .tc) (h : r ∉ C16_W) :
    Rv17 m c (Proc.devRef .tc r) = Rv16 m c (Proc.devRef .tc r) := after_of_writes_sub C16 _ C16_writes h
/-- A reference stretch 17 does not write keeps its contents across it. -/
theorem Rv18_keep (c : Dev nD) (r : Ref sig .tc) (h : r ∉ C17_W) :
    Rv18 m c (Proc.devRef .tc r) = Rv17 m c (Proc.devRef .tc r) := after_of_writes_sub C17 _ C17_writes h
/-- A reference stretch 18 does not write keeps its contents across it. -/
theorem Rv19_keep (c : Dev nD) (r : Ref sig .tc) (h : r ∉ C18_W) :
    Rv19 m c (Proc.devRef .tc r) = Rv18 m c (Proc.devRef .tc r) := after_of_writes_sub C18 _ C18_writes h
/-- A reference stretch 19 does not write keeps its contents across it. -/
theorem Rv20_keep (c : Dev nD) (r : Ref sig .tc) (h : r ∉ C19_W) :
    Rv20 m c (Proc.devRef .tc r) = Rv19 m c (Proc.devRef .tc r) := after_of_writes_sub C19 _ C19_writes h
/-- A reference stretch 20 does not write keeps its contents across it. -/
theorem Rv21_keep (c : Dev nD) (r : Ref sig .tc) (h : r ∉ C20_W) :
    Rv21 m c (Proc.devRef .tc r) = Rv20 m c (Proc.devRef .tc r) := after_of_writes_sub C20 _ C20_writes h
/-- A reference stretch 21 does not write keeps its contents across it. -/
theorem Rv22_keep (c : Dev nD) (r : Ref sig .tc) (h : r ∉ C21_W) :
    Rv22 m c (Proc.devRef .tc r) = Rv21 m c (Proc.devRef .tc r) := after_of_writes_sub C21 _ C21_writes h
/-- A reference stretch 22 does not write keeps its contents across it. -/
theorem Rv23_keep (c : Dev nD) (r : Ref sig .tc) (h : r ∉ C22_W) :
    Rv23 m c (Proc.devRef .tc r) = Rv22 m c (Proc.devRef .tc r) := after_of_writes_sub C22 _ C22_writes h
/-- A reference stretch 23 does not write keeps its contents across it. -/
theorem Rv24_keep (c : Dev nD) (r : Ref sig .tc) (h : r ∉ C23_W) :
    Rv24 m c (Proc.devRef .tc r) = Rv23 m c (Proc.devRef .tc r) := after_of_writes_sub C23 _ C23_writes h
/-- A reference stretch 24 does not write keeps its contents across it. -/
theorem Rv25_keep (c : Dev nD) (r : Ref sig .tc) (h : r ∉ C24_W) :
    Rv25 m c (Proc.devRef .tc r) = Rv24 m c (Proc.devRef .tc r) := after_of_writes_sub C24 _ C24_writes h
/-- A reference stretch 25 does not write keeps its contents across it. -/
theorem Rv26_keep (c : Dev nD) (r : Ref sig .tc) (h : r ∉ C25_W) :
    Rv26 m c (Proc.devRef .tc r) = Rv25 m c (Proc.devRef .tc r) := after_of_writes_sub C25 _ C25_writes h
/-- A reference stretch 26 does not write keeps its contents across it. -/
theorem Rv27_keep (c : Dev nD) (r : Ref sig .tc) (h : r ∉ C26_W) :
    Rv27 m c (Proc.devRef .tc r) = Rv26 m c (Proc.devRef .tc r) := after_of_writes_sub C26 _ C26_writes h
/-- A reference stretch 27 does not write keeps its contents across it. -/
theorem Rv28_keep (c : Dev nD) (r : Ref sig .tc) (h : r ∉ C27_W) :
    Rv28 m c (Proc.devRef .tc r) = Rv27 m c (Proc.devRef .tc r) := after_of_writes_sub C27 _ C27_writes h
/-- A reference stretch 28 does not write keeps its contents across it. -/
theorem Rv29_keep (c : Dev nD) (r : Ref sig .tc) (h : r ∉ C28_W) :
    Rv29 m c (Proc.devRef .tc r) = Rv28 m c (Proc.devRef .tc r) := after_of_writes_sub C28 _ C28_writes h
/-- A reference stretch 29 does not write keeps its contents across it. -/
theorem Rv30_keep (c : Dev nD) (r : Ref sig .tc) (h : r ∉ C29_W) :
    Rv30 m c (Proc.devRef .tc r) = Rv29 m c (Proc.devRef .tc r) := after_of_writes_sub C29 _ C29_writes h
/-- A reference stretch 30 does not write keeps its contents across it. -/
theorem Rv31_keep (c : Dev nD) (r : Ref sig .tc) (h : r ∉ C30_W) :
    Rv31 m c (Proc.devRef .tc r) = Rv30 m c (Proc.devRef .tc r) := after_of_writes_sub C30 _ C30_writes h
/-- A reference stretch 31 does not write keeps its contents across it. -/
theorem Rv32_keep (c : Dev nD) (r : Ref sig .tc) (h : r ∉ C31_W) :
    Rv32 m c (Proc.devRef .tc r) = Rv31 m c (Proc.devRef .tc r) := after_of_writes_sub C31 _ C31_writes h
/-- A reference stretch 32 does not write keeps its contents across it. -/
theorem Rv33_keep (c : Dev nD) (r : Ref sig .tc) (h : r ∉ C32_W) :
    Rv33 m c (Proc.devRef .tc r) = Rv32 m c (Proc.devRef .tc r) := after_of_writes_sub C32 _ C32_writes h
/-- A reference stretch 33 does not write keeps its contents across it. -/
theorem Rv34_keep (c : Dev nD) (r : Ref sig .tc) (h : r ∉ C33_W) :
    Rv34 m c (Proc.devRef .tc r) = Rv33 m c (Proc.devRef .tc r) := after_of_writes_sub C33 _ C33_writes h

/-- The whole program's fold over the launch contents is the last boundary's contents. -/
theorem after_ops (c : Dev nD) : after ops (launchContents m c) = Rv34 m c := by
  rw [ops_eq_chunks]
  simp only [after_append]
  simp only [Rv34, Rv33, Rv32, Rv31, Rv30, Rv29, Rv28, Rv27, Rv26, Rv25, Rv24, Rv23, Rv22, Rv21, Rv20, Rv19, Rv18, Rv17, Rv16, Rv15, Rv14, Rv13, Rv12, Rv11, Rv10, Rv9, Rv8, Rv7, Rv6, Rv5, Rv4, Rv3, Rv2, Rv1, Rv0]

end Cert.ReferenceIdeal.Hand

end
-- ==== Proof.Ref.Args.lean ====
/-
  No operation of the reference writes an argument array, so at the last boundary each still holds its launch contents.
-/
import proofs.«151172_j14164802142730_2_alg».proof.Proof.Ref.Folds

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

theorem Rv34_main_arg0 (c : Dev nD) : Rv34 m c (Proc.devRef .tc main_arg0) = m ((c.tc : Thread nD τ).loc main_arg0) :=
  calc Rv34 m c (Proc.devRef .tc main_arg0)
    _ = Rv33 m c (Proc.devRef .tc main_arg0) := Rv34_keep m c main_arg0 (by decide)
    _ = Rv32 m c (Proc.devRef .tc main_arg0) := Rv33_keep m c main_arg0 (by decide)
    _ = Rv31 m c (Proc.devRef .tc main_arg0) := Rv32_keep m c main_arg0 (by decide)
    _ = Rv30 m c (Proc.devRef .tc main_arg0) := Rv31_keep m c main_arg0 (by decide)
    _ = Rv29 m c (Proc.devRef .tc main_arg0) := Rv30_keep m c main_arg0 (by decide)
    _ = Rv28 m c (Proc.devRef .tc main_arg0) := Rv29_keep m c main_arg0 (by decide)
    _ = Rv27 m c (Proc.devRef .tc main_arg0) := Rv28_keep m c main_arg0 (by decide)
    _ = Rv26 m c (Proc.devRef .tc main_arg0) := Rv27_keep m c main_arg0 (by decide)
    _ = Rv25 m c (Proc.devRef .tc main_arg0) := Rv26_keep m c main_arg0 (by decide)
    _ = Rv24 m c (Proc.devRef .tc main_arg0) := Rv25_keep m c main_arg0 (by decide)
    _ = Rv23 m c (Proc.devRef .tc main_arg0) := Rv24_keep m c main_arg0 (by decide)
    _ = Rv22 m c (Proc.devRef .tc main_arg0) := Rv23_keep m c main_arg0 (by decide)
    _ = Rv21 m c (Proc.devRef .tc main_arg0) := Rv22_keep m c main_arg0 (by decide)
    _ = Rv20 m c (Proc.devRef .tc main_arg0) := Rv21_keep m c main_arg0 (by decide)
    _ = Rv19 m c (Proc.devRef .tc main_arg0) := Rv20_keep m c main_arg0 (by decide)
    _ = Rv18 m c (Proc.devRef .tc main_arg0) := Rv19_keep m c main_arg0 (by decide)
    _ = Rv17 m c (Proc.devRef .tc main_arg0) := Rv18_keep m c main_arg0 (by decide)
    _ = Rv16 m c (Proc.devRef .tc main_arg0) := Rv17_keep m c main_arg0 (by decide)
    _ = Rv15 m c (Proc.devRef .tc main_arg0) := Rv16_keep m c main_arg0 (by decide)
    _ = Rv14 m c (Proc.devRef .tc main_arg0) := Rv15_keep m c main_arg0 (by decide)
    _ = Rv13 m c (Proc.devRef .tc main_arg0) := Rv14_keep m c main_arg0 (by decide)
    _ = Rv12 m c (Proc.devRef .tc main_arg0) := Rv13_keep m c main_arg0 (by decide)
    _ = Rv11 m c (Proc.devRef .tc main_arg0) := Rv12_keep m c main_arg0 (by decide)
    _ = Rv10 m c (Proc.devRef .tc main_arg0) := Rv11_keep m c main_arg0 (by decide)
    _ = Rv9 m c (Proc.devRef .tc main_arg0) := Rv10_keep m c main_arg0 (by decide)
    _ = Rv8 m c (Proc.devRef .tc main_arg0) := Rv9_keep m c main_arg0 (by decide)
    _ = Rv7 m c (Proc.devRef .tc main_arg0) := Rv8_keep m c main_arg0 (by decide)
    _ = Rv6 m c (Proc.devRef .tc main_arg0) := Rv7_keep m c main_arg0 (by decide)
    _ = Rv5 m c (Proc.devRef .tc main_arg0) := Rv6_keep m c main_arg0 (by decide)
    _ = Rv4 m c (Proc.devRef .tc main_arg0) := Rv5_keep m c main_arg0 (by decide)
    _ = Rv3 m c (Proc.devRef .tc main_arg0) := Rv4_keep m c main_arg0 (by decide)
    _ = Rv2 m c (Proc.devRef .tc main_arg0) := Rv3_keep m c main_arg0 (by decide)
    _ = Rv1 m c (Proc.devRef .tc main_arg0) := Rv2_keep m c main_arg0 (by decide)
    _ = Rv0 m c (Proc.devRef .tc main_arg0) := Rv1_keep m c main_arg0 (by decide)
    _ = m ((c.tc : Thread nD τ).loc main_arg0) := rfl

theorem Rv34_main_arg1 (c : Dev nD) : Rv34 m c (Proc.devRef .tc main_arg1) = m ((c.tc : Thread nD τ).loc main_arg1) :=
  calc Rv34 m c (Proc.devRef .tc main_arg1)
    _ = Rv33 m c (Proc.devRef .tc main_arg1) := Rv34_keep m c main_arg1 (by decide)
    _ = Rv32 m c (Proc.devRef .tc main_arg1) := Rv33_keep m c main_arg1 (by decide)
    _ = Rv31 m c (Proc.devRef .tc main_arg1) := Rv32_keep m c main_arg1 (by decide)
    _ = Rv30 m c (Proc.devRef .tc main_arg1) := Rv31_keep m c main_arg1 (by decide)
    _ = Rv29 m c (Proc.devRef .tc main_arg1) := Rv30_keep m c main_arg1 (by decide)
    _ = Rv28 m c (Proc.devRef .tc main_arg1) := Rv29_keep m c main_arg1 (by decide)
    _ = Rv27 m c (Proc.devRef .tc main_arg1) := Rv28_keep m c main_arg1 (by decide)
    _ = Rv26 m c (Proc.devRef .tc main_arg1) := Rv27_keep m c main_arg1 (by decide)
    _ = Rv25 m c (Proc.devRef .tc main_arg1) := Rv26_keep m c main_arg1 (by decide)
    _ = Rv24 m c (Proc.devRef .tc main_arg1) := Rv25_keep m c main_arg1 (by decide)
    _ = Rv23 m c (Proc.devRef .tc main_arg1) := Rv24_keep m c main_arg1 (by decide)
    _ = Rv22 m c (Proc.devRef .tc main_arg1) := Rv23_keep m c main_arg1 (by decide)
    _ = Rv21 m c (Proc.devRef .tc main_arg1) := Rv22_keep m c main_arg1 (by decide)
    _ = Rv20 m c (Proc.devRef .tc main_arg1) := Rv21_keep m c main_arg1 (by decide)
    _ = Rv19 m c (Proc.devRef .tc main_arg1) := Rv20_keep m c main_arg1 (by decide)
    _ = Rv18 m c (Proc.devRef .tc main_arg1) := Rv19_keep m c main_arg1 (by decide)
    _ = Rv17 m c (Proc.devRef .tc main_arg1) := Rv18_keep m c main_arg1 (by decide)
    _ = Rv16 m c (Proc.devRef .tc main_arg1) := Rv17_keep m c main_arg1 (by decide)
    _ = Rv15 m c (Proc.devRef .tc main_arg1) := Rv16_keep m c main_arg1 (by decide)
    _ = Rv14 m c (Proc.devRef .tc main_arg1) := Rv15_keep m c main_arg1 (by decide)
    _ = Rv13 m c (Proc.devRef .tc main_arg1) := Rv14_keep m c main_arg1 (by decide)
    _ = Rv12 m c (Proc.devRef .tc main_arg1) := Rv13_keep m c main_arg1 (by decide)
    _ = Rv11 m c (Proc.devRef .tc main_arg1) := Rv12_keep m c main_arg1 (by decide)
    _ = Rv10 m c (Proc.devRef .tc main_arg1) := Rv11_keep m c main_arg1 (by decide)
    _ = Rv9 m c (Proc.devRef .tc main_arg1) := Rv10_keep m c main_arg1 (by decide)
    _ = Rv8 m c (Proc.devRef .tc main_arg1) := Rv9_keep m c main_arg1 (by decide)
    _ = Rv7 m c (Proc.devRef .tc main_arg1) := Rv8_keep m c main_arg1 (by decide)
    _ = Rv6 m c (Proc.devRef .tc main_arg1) := Rv7_keep m c main_arg1 (by decide)
    _ = Rv5 m c (Proc.devRef .tc main_arg1) := Rv6_keep m c main_arg1 (by decide)
    _ = Rv4 m c (Proc.devRef .tc main_arg1) := Rv5_keep m c main_arg1 (by decide)
    _ = Rv3 m c (Proc.devRef .tc main_arg1) := Rv4_keep m c main_arg1 (by decide)
    _ = Rv2 m c (Proc.devRef .tc main_arg1) := Rv3_keep m c main_arg1 (by decide)
    _ = Rv1 m c (Proc.devRef .tc main_arg1) := Rv2_keep m c main_arg1 (by decide)
    _ = Rv0 m c (Proc.devRef .tc main_arg1) := Rv1_keep m c main_arg1 (by decide)
    _ = m ((c.tc : Thread nD τ).loc main_arg1) := rfl

theorem Rv34_main_arg2 (c : Dev nD) : Rv34 m c (Proc.devRef .tc main_arg2) = m ((c.tc : Thread nD τ).loc main_arg2) :=
  calc Rv34 m c (Proc.devRef .tc main_arg2)
    _ = Rv33 m c (Proc.devRef .tc main_arg2) := Rv34_keep m c main_arg2 (by decide)
    _ = Rv32 m c (Proc.devRef .tc main_arg2) := Rv33_keep m c main_arg2 (by decide)
    _ = Rv31 m c (Proc.devRef .tc main_arg2) := Rv32_keep m c main_arg2 (by decide)
    _ = Rv30 m c (Proc.devRef .tc main_arg2) := Rv31_keep m c main_arg2 (by decide)
    _ = Rv29 m c (Proc.devRef .tc main_arg2) := Rv30_keep m c main_arg2 (by decide)
    _ = Rv28 m c (Proc.devRef .tc main_arg2) := Rv29_keep m c main_arg2 (by decide)
    _ = Rv27 m c (Proc.devRef .tc main_arg2) := Rv28_keep m c main_arg2 (by decide)
    _ = Rv26 m c (Proc.devRef .tc main_arg2) := Rv27_keep m c main_arg2 (by decide)
    _ = Rv25 m c (Proc.devRef .tc main_arg2) := Rv26_keep m c main_arg2 (by decide)
    _ = Rv24 m c (Proc.devRef .tc main_arg2) := Rv25_keep m c main_arg2 (by decide)
    _ = Rv23 m c (Proc.devRef .tc main_arg2) := Rv24_keep m c main_arg2 (by decide)
    _ = Rv22 m c (Proc.devRef .tc main_arg2) := Rv23_keep m c main_arg2 (by decide)
    _ = Rv21 m c (Proc.devRef .tc main_arg2) := Rv22_keep m c main_arg2 (by decide)
    _ = Rv20 m c (Proc.devRef .tc main_arg2) := Rv21_keep m c main_arg2 (by decide)
    _ = Rv19 m c (Proc.devRef .tc main_arg2) := Rv20_keep m c main_arg2 (by decide)
    _ = Rv18 m c (Proc.devRef .tc main_arg2) := Rv19_keep m c main_arg2 (by decide)
    _ = Rv17 m c (Proc.devRef .tc main_arg2) := Rv18_keep m c main_arg2 (by decide)
    _ = Rv16 m c (Proc.devRef .tc main_arg2) := Rv17_keep m c main_arg2 (by decide)
    _ = Rv15 m c (Proc.devRef .tc main_arg2) := Rv16_keep m c main_arg2 (by decide)
    _ = Rv14 m c (Proc.devRef .tc main_arg2) := Rv15_keep m c main_arg2 (by decide)
    _ = Rv13 m c (Proc.devRef .tc main_arg2) := Rv14_keep m c main_arg2 (by decide)
    _ = Rv12 m c (Proc.devRef .tc main_arg2) := Rv13_keep m c main_arg2 (by decide)
    _ = Rv11 m c (Proc.devRef .tc main_arg2) := Rv12_keep m c main_arg2 (by decide)
    _ = Rv10 m c (Proc.devRef .tc main_arg2) := Rv11_keep m c main_arg2 (by decide)
    _ = Rv9 m c (Proc.devRef .tc main_arg2) := Rv10_keep m c main_arg2 (by decide)
    _ = Rv8 m c (Proc.devRef .tc main_arg2) := Rv9_keep m c main_arg2 (by decide)
    _ = Rv7 m c (Proc.devRef .tc main_arg2) := Rv8_keep m c main_arg2 (by decide)
    _ = Rv6 m c (Proc.devRef .tc main_arg2) := Rv7_keep m c main_arg2 (by decide)
    _ = Rv5 m c (Proc.devRef .tc main_arg2) := Rv6_keep m c main_arg2 (by decide)
    _ = Rv4 m c (Proc.devRef .tc main_arg2) := Rv5_keep m c main_arg2 (by decide)
    _ = Rv3 m c (Proc.devRef .tc main_arg2) := Rv4_keep m c main_arg2 (by decide)
    _ = Rv2 m c (Proc.devRef .tc main_arg2) := Rv3_keep m c main_arg2 (by decide)
    _ = Rv1 m c (Proc.devRef .tc main_arg2) := Rv2_keep m c main_arg2 (by decide)
    _ = Rv0 m c (Proc.devRef .tc main_arg2) := Rv1_keep m c main_arg2 (by decide)
    _ = m ((c.tc : Thread nD τ).loc main_arg2) := rfl

theorem Rv34_main_arg3 (c : Dev nD) : Rv34 m c (Proc.devRef .tc main_arg3) = m ((c.tc : Thread nD τ).loc main_arg3) :=
  calc Rv34 m c (Proc.devRef .tc main_arg3)
    _ = Rv33 m c (Proc.devRef .tc main_arg3) := Rv34_keep m c main_arg3 (by decide)
    _ = Rv32 m c (Proc.devRef .tc main_arg3) := Rv33_keep m c main_arg3 (by decide)
    _ = Rv31 m c (Proc.devRef .tc main_arg3) := Rv32_keep m c main_arg3 (by decide)
    _ = Rv30 m c (Proc.devRef .tc main_arg3) := Rv31_keep m c main_arg3 (by decide)
    _ = Rv29 m c (Proc.devRef .tc main_arg3) := Rv30_keep m c main_arg3 (by decide)
    _ = Rv28 m c (Proc.devRef .tc main_arg3) := Rv29_keep m c main_arg3 (by decide)
    _ = Rv27 m c (Proc.devRef .tc main_arg3) := Rv28_keep m c main_arg3 (by decide)
    _ = Rv26 m c (Proc.devRef .tc main_arg3) := Rv27_keep m c main_arg3 (by decide)
    _ = Rv25 m c (Proc.devRef .tc main_arg3) := Rv26_keep m c main_arg3 (by decide)
    _ = Rv24 m c (Proc.devRef .tc main_arg3) := Rv25_keep m c main_arg3 (by decide)
    _ = Rv23 m c (Proc.devRef .tc main_arg3) := Rv24_keep m c main_arg3 (by decide)
    _ = Rv22 m c (Proc.devRef .tc main_arg3) := Rv23_keep m c main_arg3 (by decide)
    _ = Rv21 m c (Proc.devRef .tc main_arg3) := Rv22_keep m c main_arg3 (by decide)
    _ = Rv20 m c (Proc.devRef .tc main_arg3) := Rv21_keep m c main_arg3 (by decide)
    _ = Rv19 m c (Proc.devRef .tc main_arg3) := Rv20_keep m c main_arg3 (by decide)
    _ = Rv18 m c (Proc.devRef .tc main_arg3) := Rv19_keep m c main_arg3 (by decide)
    _ = Rv17 m c (Proc.devRef .tc main_arg3) := Rv18_keep m c main_arg3 (by decide)
    _ = Rv16 m c (Proc.devRef .tc main_arg3) := Rv17_keep m c main_arg3 (by decide)
    _ = Rv15 m c (Proc.devRef .tc main_arg3) := Rv16_keep m c main_arg3 (by decide)
    _ = Rv14 m c (Proc.devRef .tc main_arg3) := Rv15_keep m c main_arg3 (by decide)
    _ = Rv13 m c (Proc.devRef .tc main_arg3) := Rv14_keep m c main_arg3 (by decide)
    _ = Rv12 m c (Proc.devRef .tc main_arg3) := Rv13_keep m c main_arg3 (by decide)
    _ = Rv11 m c (Proc.devRef .tc main_arg3) := Rv12_keep m c main_arg3 (by decide)
    _ = Rv10 m c (Proc.devRef .tc main_arg3) := Rv11_keep m c main_arg3 (by decide)
    _ = Rv9 m c (Proc.devRef .tc main_arg3) := Rv10_keep m c main_arg3 (by decide)
    _ = Rv8 m c (Proc.devRef .tc main_arg3) := Rv9_keep m c main_arg3 (by decide)
    _ = Rv7 m c (Proc.devRef .tc main_arg3) := Rv8_keep m c main_arg3 (by decide)
    _ = Rv6 m c (Proc.devRef .tc main_arg3) := Rv7_keep m c main_arg3 (by decide)
    _ = Rv5 m c (Proc.devRef .tc main_arg3) := Rv6_keep m c main_arg3 (by decide)
    _ = Rv4 m c (Proc.devRef .tc main_arg3) := Rv5_keep m c main_arg3 (by decide)
    _ = Rv3 m c (Proc.devRef .tc main_arg3) := Rv4_keep m c main_arg3 (by decide)
    _ = Rv2 m c (Proc.devRef .tc main_arg3) := Rv3_keep m c main_arg3 (by decide)
    _ = Rv1 m c (Proc.devRef .tc main_arg3) := Rv2_keep m c main_arg3 (by decide)
    _ = Rv0 m c (Proc.devRef .tc main_arg3) := Rv1_keep m c main_arg3 (by decide)
    _ = m ((c.tc : Thread nD τ).loc main_arg3) := rfl

theorem Rv34_main_arg4 (c : Dev nD) : Rv34 m c (Proc.devRef .tc main_arg4) = m ((c.tc : Thread nD τ).loc main_arg4) :=
  calc Rv34 m c (Proc.devRef .tc main_arg4)
    _ = Rv33 m c (Proc.devRef .tc main_arg4) := Rv34_keep m c main_arg4 (by decide)
    _ = Rv32 m c (Proc.devRef .tc main_arg4) := Rv33_keep m c main_arg4 (by decide)
    _ = Rv31 m c (Proc.devRef .tc main_arg4) := Rv32_keep m c main_arg4 (by decide)
    _ = Rv30 m c (Proc.devRef .tc main_arg4) := Rv31_keep m c main_arg4 (by decide)
    _ = Rv29 m c (Proc.devRef .tc main_arg4) := Rv30_keep m c main_arg4 (by decide)
    _ = Rv28 m c (Proc.devRef .tc main_arg4) := Rv29_keep m c main_arg4 (by decide)
    _ = Rv27 m c (Proc.devRef .tc main_arg4) := Rv28_keep m c main_arg4 (by decide)
    _ = Rv26 m c (Proc.devRef .tc main_arg4) := Rv27_keep m c main_arg4 (by decide)
    _ = Rv25 m c (Proc.devRef .tc main_arg4) := Rv26_keep m c main_arg4 (by decide)
    _ = Rv24 m c (Proc.devRef .tc main_arg4) := Rv25_keep m c main_arg4 (by decide)
    _ = Rv23 m c (Proc.devRef .tc main_arg4) := Rv24_keep m c main_arg4 (by decide)
    _ = Rv22 m c (Proc.devRef .tc main_arg4) := Rv23_keep m c main_arg4 (by decide)
    _ = Rv21 m c (Proc.devRef .tc main_arg4) := Rv22_keep m c main_arg4 (by decide)
    _ = Rv20 m c (Proc.devRef .tc main_arg4) := Rv21_keep m c main_arg4 (by decide)
    _ = Rv19 m c (Proc.devRef .tc main_arg4) := Rv20_keep m c main_arg4 (by decide)
    _ = Rv18 m c (Proc.devRef .tc main_arg4) := Rv19_keep m c main_arg4 (by decide)
    _ = Rv17 m c (Proc.devRef .tc main_arg4) := Rv18_keep m c main_arg4 (by decide)
    _ = Rv16 m c (Proc.devRef .tc main_arg4) := Rv17_keep m c main_arg4 (by decide)
    _ = Rv15 m c (Proc.devRef .tc main_arg4) := Rv16_keep m c main_arg4 (by decide)
    _ = Rv14 m c (Proc.devRef .tc main_arg4) := Rv15_keep m c main_arg4 (by decide)
    _ = Rv13 m c (Proc.devRef .tc main_arg4) := Rv14_keep m c main_arg4 (by decide)
    _ = Rv12 m c (Proc.devRef .tc main_arg4) := Rv13_keep m c main_arg4 (by decide)
    _ = Rv11 m c (Proc.devRef .tc main_arg4) := Rv12_keep m c main_arg4 (by decide)
    _ = Rv10 m c (Proc.devRef .tc main_arg4) := Rv11_keep m c main_arg4 (by decide)
    _ = Rv9 m c (Proc.devRef .tc main_arg4) := Rv10_keep m c main_arg4 (by decide)
    _ = Rv8 m c (Proc.devRef .tc main_arg4) := Rv9_keep m c main_arg4 (by decide)
    _ = Rv7 m c (Proc.devRef .tc main_arg4) := Rv8_keep m c main_arg4 (by decide)
    _ = Rv6 m c (Proc.devRef .tc main_arg4) := Rv7_keep m c main_arg4 (by decide)
    _ = Rv5 m c (Proc.devRef .tc main_arg4) := Rv6_keep m c main_arg4 (by decide)
    _ = Rv4 m c (Proc.devRef .tc main_arg4) := Rv5_keep m c main_arg4 (by decide)
    _ = Rv3 m c (Proc.devRef .tc main_arg4) := Rv4_keep m c main_arg4 (by decide)
    _ = Rv2 m c (Proc.devRef .tc main_arg4) := Rv3_keep m c main_arg4 (by decide)
    _ = Rv1 m c (Proc.devRef .tc main_arg4) := Rv2_keep m c main_arg4 (by decide)
    _ = Rv0 m c (Proc.devRef .tc main_arg4) := Rv1_keep m c main_arg4 (by decide)
    _ = m ((c.tc : Thread nD τ).loc main_arg4) := rfl

theorem Rv34_main_arg5 (c : Dev nD) : Rv34 m c (Proc.devRef .tc main_arg5) = m ((c.tc : Thread nD τ).loc main_arg5) :=
  calc Rv34 m c (Proc.devRef .tc main_arg5)
    _ = Rv33 m c (Proc.devRef .tc main_arg5) := Rv34_keep m c main_arg5 (by decide)
    _ = Rv32 m c (Proc.devRef .tc main_arg5) := Rv33_keep m c main_arg5 (by decide)
    _ = Rv31 m c (Proc.devRef .tc main_arg5) := Rv32_keep m c main_arg5 (by decide)
    _ = Rv30 m c (Proc.devRef .tc main_arg5) := Rv31_keep m c main_arg5 (by decide)
    _ = Rv29 m c (Proc.devRef .tc main_arg5) := Rv30_keep m c main_arg5 (by decide)
    _ = Rv28 m c (Proc.devRef .tc main_arg5) := Rv29_keep m c main_arg5 (by decide)
    _ = Rv27 m c (Proc.devRef .tc main_arg5) := Rv28_keep m c main_arg5 (by decide)
    _ = Rv26 m c (Proc.devRef .tc main_arg5) := Rv27_keep m c main_arg5 (by decide)
    _ = Rv25 m c (Proc.devRef .tc main_arg5) := Rv26_keep m c main_arg5 (by decide)
    _ = Rv24 m c (Proc.devRef .tc main_arg5) := Rv25_keep m c main_arg5 (by decide)
    _ = Rv23 m c (Proc.devRef .tc main_arg5) := Rv24_keep m c main_arg5 (by decide)
    _ = Rv22 m c (Proc.devRef .tc main_arg5) := Rv23_keep m c main_arg5 (by decide)
    _ = Rv21 m c (Proc.devRef .tc main_arg5) := Rv22_keep m c main_arg5 (by decide)
    _ = Rv20 m c (Proc.devRef .tc main_arg5) := Rv21_keep m c main_arg5 (by decide)
    _ = Rv19 m c (Proc.devRef .tc main_arg5) := Rv20_keep m c main_arg5 (by decide)
    _ = Rv18 m c (Proc.devRef .tc main_arg5) := Rv19_keep m c main_arg5 (by decide)
    _ = Rv17 m c (Proc.devRef .tc main_arg5) := Rv18_keep m c main_arg5 (by decide)
    _ = Rv16 m c (Proc.devRef .tc main_arg5) := Rv17_keep m c main_arg5 (by decide)
    _ = Rv15 m c (Proc.devRef .tc main_arg5) := Rv16_keep m c main_arg5 (by decide)
    _ = Rv14 m c (Proc.devRef .tc main_arg5) := Rv15_keep m c main_arg5 (by decide)
    _ = Rv13 m c (Proc.devRef .tc main_arg5) := Rv14_keep m c main_arg5 (by decide)
    _ = Rv12 m c (Proc.devRef .tc main_arg5) := Rv13_keep m c main_arg5 (by decide)
    _ = Rv11 m c (Proc.devRef .tc main_arg5) := Rv12_keep m c main_arg5 (by decide)
    _ = Rv10 m c (Proc.devRef .tc main_arg5) := Rv11_keep m c main_arg5 (by decide)
    _ = Rv9 m c (Proc.devRef .tc main_arg5) := Rv10_keep m c main_arg5 (by decide)
    _ = Rv8 m c (Proc.devRef .tc main_arg5) := Rv9_keep m c main_arg5 (by decide)
    _ = Rv7 m c (Proc.devRef .tc main_arg5) := Rv8_keep m c main_arg5 (by decide)
    _ = Rv6 m c (Proc.devRef .tc main_arg5) := Rv7_keep m c main_arg5 (by decide)
    _ = Rv5 m c (Proc.devRef .tc main_arg5) := Rv6_keep m c main_arg5 (by decide)
    _ = Rv4 m c (Proc.devRef .tc main_arg5) := Rv5_keep m c main_arg5 (by decide)
    _ = Rv3 m c (Proc.devRef .tc main_arg5) := Rv4_keep m c main_arg5 (by decide)
    _ = Rv2 m c (Proc.devRef .tc main_arg5) := Rv3_keep m c main_arg5 (by decide)
    _ = Rv1 m c (Proc.devRef .tc main_arg5) := Rv2_keep m c main_arg5 (by decide)
    _ = Rv0 m c (Proc.devRef .tc main_arg5) := Rv1_keep m c main_arg5 (by decide)
    _ = m ((c.tc : Thread nD τ).loc main_arg5) := rfl

theorem Rv34_main_arg6 (c : Dev nD) : Rv34 m c (Proc.devRef .tc main_arg6) = m ((c.tc : Thread nD τ).loc main_arg6) :=
  calc Rv34 m c (Proc.devRef .tc main_arg6)
    _ = Rv33 m c (Proc.devRef .tc main_arg6) := Rv34_keep m c main_arg6 (by decide)
    _ = Rv32 m c (Proc.devRef .tc main_arg6) := Rv33_keep m c main_arg6 (by decide)
    _ = Rv31 m c (Proc.devRef .tc main_arg6) := Rv32_keep m c main_arg6 (by decide)
    _ = Rv30 m c (Proc.devRef .tc main_arg6) := Rv31_keep m c main_arg6 (by decide)
    _ = Rv29 m c (Proc.devRef .tc main_arg6) := Rv30_keep m c main_arg6 (by decide)
    _ = Rv28 m c (Proc.devRef .tc main_arg6) := Rv29_keep m c main_arg6 (by decide)
    _ = Rv27 m c (Proc.devRef .tc main_arg6) := Rv28_keep m c main_arg6 (by decide)
    _ = Rv26 m c (Proc.devRef .tc main_arg6) := Rv27_keep m c main_arg6 (by decide)
    _ = Rv25 m c (Proc.devRef .tc main_arg6) := Rv26_keep m c main_arg6 (by decide)
    _ = Rv24 m c (Proc.devRef .tc main_arg6) := Rv25_keep m c main_arg6 (by decide)
    _ = Rv23 m c (Proc.devRef .tc main_arg6) := Rv24_keep m c main_arg6 (by decide)
    _ = Rv22 m c (Proc.devRef .tc main_arg6) := Rv23_keep m c main_arg6 (by decide)
    _ = Rv21 m c (Proc.devRef .tc main_arg6) := Rv22_keep m c main_arg6 (by decide)
    _ = Rv20 m c (Proc.devRef .tc main_arg6) := Rv21_keep m c main_arg6 (by decide)
    _ = Rv19 m c (Proc.devRef .tc main_arg6) := Rv20_keep m c main_arg6 (by decide)
    _ = Rv18 m c (Proc.devRef .tc main_arg6) := Rv19_keep m c main_arg6 (by decide)
    _ = Rv17 m c (Proc.devRef .tc main_arg6) := Rv18_keep m c main_arg6 (by decide)
    _ = Rv16 m c (Proc.devRef .tc main_arg6) := Rv17_keep m c main_arg6 (by decide)
    _ = Rv15 m c (Proc.devRef .tc main_arg6) := Rv16_keep m c main_arg6 (by decide)
    _ = Rv14 m c (Proc.devRef .tc main_arg6) := Rv15_keep m c main_arg6 (by decide)
    _ = Rv13 m c (Proc.devRef .tc main_arg6) := Rv14_keep m c main_arg6 (by decide)
    _ = Rv12 m c (Proc.devRef .tc main_arg6) := Rv13_keep m c main_arg6 (by decide)
    _ = Rv11 m c (Proc.devRef .tc main_arg6) := Rv12_keep m c main_arg6 (by decide)
    _ = Rv10 m c (Proc.devRef .tc main_arg6) := Rv11_keep m c main_arg6 (by decide)
    _ = Rv9 m c (Proc.devRef .tc main_arg6) := Rv10_keep m c main_arg6 (by decide)
    _ = Rv8 m c (Proc.devRef .tc main_arg6) := Rv9_keep m c main_arg6 (by decide)
    _ = Rv7 m c (Proc.devRef .tc main_arg6) := Rv8_keep m c main_arg6 (by decide)
    _ = Rv6 m c (Proc.devRef .tc main_arg6) := Rv7_keep m c main_arg6 (by decide)
    _ = Rv5 m c (Proc.devRef .tc main_arg6) := Rv6_keep m c main_arg6 (by decide)
    _ = Rv4 m c (Proc.devRef .tc main_arg6) := Rv5_keep m c main_arg6 (by decide)
    _ = Rv3 m c (Proc.devRef .tc main_arg6) := Rv4_keep m c main_arg6 (by decide)
    _ = Rv2 m c (Proc.devRef .tc main_arg6) := Rv3_keep m c main_arg6 (by decide)
    _ = Rv1 m c (Proc.devRef .tc main_arg6) := Rv2_keep m c main_arg6 (by decide)
    _ = Rv0 m c (Proc.devRef .tc main_arg6) := Rv1_keep m c main_arg6 (by decide)
    _ = m ((c.tc : Thread nD τ).loc main_arg6) := rfl

theorem Rv34_main_arg7 (c : Dev nD) : Rv34 m c (Proc.devRef .tc main_arg7) = m ((c.tc : Thread nD τ).loc main_arg7) :=
  calc Rv34 m c (Proc.devRef .tc main_arg7)
    _ = Rv33 m c (Proc.devRef .tc main_arg7) := Rv34_keep m c main_arg7 (by decide)
    _ = Rv32 m c (Proc.devRef .tc main_arg7) := Rv33_keep m c main_arg7 (by decide)
    _ = Rv31 m c (Proc.devRef .tc main_arg7) := Rv32_keep m c main_arg7 (by decide)
    _ = Rv30 m c (Proc.devRef .tc main_arg7) := Rv31_keep m c main_arg7 (by decide)
    _ = Rv29 m c (Proc.devRef .tc main_arg7) := Rv30_keep m c main_arg7 (by decide)
    _ = Rv28 m c (Proc.devRef .tc main_arg7) := Rv29_keep m c main_arg7 (by decide)
    _ = Rv27 m c (Proc.devRef .tc main_arg7) := Rv28_keep m c main_arg7 (by decide)
    _ = Rv26 m c (Proc.devRef .tc main_arg7) := Rv27_keep m c main_arg7 (by decide)
    _ = Rv25 m c (Proc.devRef .tc main_arg7) := Rv26_keep m c main_arg7 (by decide)
    _ = Rv24 m c (Proc.devRef .tc main_arg7) := Rv25_keep m c main_arg7 (by decide)
    _ = Rv23 m c (Proc.devRef .tc main_arg7) := Rv24_keep m c main_arg7 (by decide)
    _ = Rv22 m c (Proc.devRef .tc main_arg7) := Rv23_keep m c main_arg7 (by decide)
    _ = Rv21 m c (Proc.devRef .tc main_arg7) := Rv22_keep m c main_arg7 (by decide)
    _ = Rv20 m c (Proc.devRef .tc main_arg7) := Rv21_keep m c main_arg7 (by decide)
    _ = Rv19 m c (Proc.devRef .tc main_arg7) := Rv20_keep m c main_arg7 (by decide)
    _ = Rv18 m c (Proc.devRef .tc main_arg7) := Rv19_keep m c main_arg7 (by decide)
    _ = Rv17 m c (Proc.devRef .tc main_arg7) := Rv18_keep m c main_arg7 (by decide)
    _ = Rv16 m c (Proc.devRef .tc main_arg7) := Rv17_keep m c main_arg7 (by decide)
    _ = Rv15 m c (Proc.devRef .tc main_arg7) := Rv16_keep m c main_arg7 (by decide)
    _ = Rv14 m c (Proc.devRef .tc main_arg7) := Rv15_keep m c main_arg7 (by decide)
    _ = Rv13 m c (Proc.devRef .tc main_arg7) := Rv14_keep m c main_arg7 (by decide)
    _ = Rv12 m c (Proc.devRef .tc main_arg7) := Rv13_keep m c main_arg7 (by decide)
    _ = Rv11 m c (Proc.devRef .tc main_arg7) := Rv12_keep m c main_arg7 (by decide)
    _ = Rv10 m c (Proc.devRef .tc main_arg7) := Rv11_keep m c main_arg7 (by decide)
    _ = Rv9 m c (Proc.devRef .tc main_arg7) := Rv10_keep m c main_arg7 (by decide)
    _ = Rv8 m c (Proc.devRef .tc main_arg7) := Rv9_keep m c main_arg7 (by decide)
    _ = Rv7 m c (Proc.devRef .tc main_arg7) := Rv8_keep m c main_arg7 (by decide)
    _ = Rv6 m c (Proc.devRef .tc main_arg7) := Rv7_keep m c main_arg7 (by decide)
    _ = Rv5 m c (Proc.devRef .tc main_arg7) := Rv6_keep m c main_arg7 (by decide)
    _ = Rv4 m c (Proc.devRef .tc main_arg7) := Rv5_keep m c main_arg7 (by decide)
    _ = Rv3 m c (Proc.devRef .tc main_arg7) := Rv4_keep m c main_arg7 (by decide)
    _ = Rv2 m c (Proc.devRef .tc main_arg7) := Rv3_keep m c main_arg7 (by decide)
    _ = Rv1 m c (Proc.devRef .tc main_arg7) := Rv2_keep m c main_arg7 (by decide)
    _ = Rv0 m c (Proc.devRef .tc main_arg7) := Rv1_keep m c main_arg7 (by decide)
    _ = m ((c.tc : Thread nD τ).loc main_arg7) := rfl

theorem Rv34_main_arg8 (c : Dev nD) : Rv34 m c (Proc.devRef .tc main_arg8) = m ((c.tc : Thread nD τ).loc main_arg8) :=
  calc Rv34 m c (Proc.devRef .tc main_arg8)
    _ = Rv33 m c (Proc.devRef .tc main_arg8) := Rv34_keep m c main_arg8 (by decide)
    _ = Rv32 m c (Proc.devRef .tc main_arg8) := Rv33_keep m c main_arg8 (by decide)
    _ = Rv31 m c (Proc.devRef .tc main_arg8) := Rv32_keep m c main_arg8 (by decide)
    _ = Rv30 m c (Proc.devRef .tc main_arg8) := Rv31_keep m c main_arg8 (by decide)
    _ = Rv29 m c (Proc.devRef .tc main_arg8) := Rv30_keep m c main_arg8 (by decide)
    _ = Rv28 m c (Proc.devRef .tc main_arg8) := Rv29_keep m c main_arg8 (by decide)
    _ = Rv27 m c (Proc.devRef .tc main_arg8) := Rv28_keep m c main_arg8 (by decide)
    _ = Rv26 m c (Proc.devRef .tc main_arg8) := Rv27_keep m c main_arg8 (by decide)
    _ = Rv25 m c (Proc.devRef .tc main_arg8) := Rv26_keep m c main_arg8 (by decide)
    _ = Rv24 m c (Proc.devRef .tc main_arg8) := Rv25_keep m c main_arg8 (by decide)
    _ = Rv23 m c (Proc.devRef .tc main_arg8) := Rv24_keep m c main_arg8 (by decide)
    _ = Rv22 m c (Proc.devRef .tc main_arg8) := Rv23_keep m c main_arg8 (by decide)
    _ = Rv21 m c (Proc.devRef .tc main_arg8) := Rv22_keep m c main_arg8 (by decide)
    _ = Rv20 m c (Proc.devRef .tc main_arg8) := Rv21_keep m c main_arg8 (by decide)
    _ = Rv19 m c (Proc.devRef .tc main_arg8) := Rv20_keep m c main_arg8 (by decide)
    _ = Rv18 m c (Proc.devRef .tc main_arg8) := Rv19_keep m c main_arg8 (by decide)
    _ = Rv17 m c (Proc.devRef .tc main_arg8) := Rv18_keep m c main_arg8 (by decide)
    _ = Rv16 m c (Proc.devRef .tc main_arg8) := Rv17_keep m c main_arg8 (by decide)
    _ = Rv15 m c (Proc.devRef .tc main_arg8) := Rv16_keep m c main_arg8 (by decide)
    _ = Rv14 m c (Proc.devRef .tc main_arg8) := Rv15_keep m c main_arg8 (by decide)
    _ = Rv13 m c (Proc.devRef .tc main_arg8) := Rv14_keep m c main_arg8 (by decide)
    _ = Rv12 m c (Proc.devRef .tc main_arg8) := Rv13_keep m c main_arg8 (by decide)
    _ = Rv11 m c (Proc.devRef .tc main_arg8) := Rv12_keep m c main_arg8 (by decide)
    _ = Rv10 m c (Proc.devRef .tc main_arg8) := Rv11_keep m c main_arg8 (by decide)
    _ = Rv9 m c (Proc.devRef .tc main_arg8) := Rv10_keep m c main_arg8 (by decide)
    _ = Rv8 m c (Proc.devRef .tc main_arg8) := Rv9_keep m c main_arg8 (by decide)
    _ = Rv7 m c (Proc.devRef .tc main_arg8) := Rv8_keep m c main_arg8 (by decide)
    _ = Rv6 m c (Proc.devRef .tc main_arg8) := Rv7_keep m c main_arg8 (by decide)
    _ = Rv5 m c (Proc.devRef .tc main_arg8) := Rv6_keep m c main_arg8 (by decide)
    _ = Rv4 m c (Proc.devRef .tc main_arg8) := Rv5_keep m c main_arg8 (by decide)
    _ = Rv3 m c (Proc.devRef .tc main_arg8) := Rv4_keep m c main_arg8 (by decide)
    _ = Rv2 m c (Proc.devRef .tc main_arg8) := Rv3_keep m c main_arg8 (by decide)
    _ = Rv1 m c (Proc.devRef .tc main_arg8) := Rv2_keep m c main_arg8 (by decide)
    _ = Rv0 m c (Proc.devRef .tc main_arg8) := Rv1_keep m c main_arg8 (by decide)
    _ = m ((c.tc : Thread nD τ).loc main_arg8) := rfl

theorem Rv34_main_arg9 (c : Dev nD) : Rv34 m c (Proc.devRef .tc main_arg9) = m ((c.tc : Thread nD τ).loc main_arg9) :=
  calc Rv34 m c (Proc.devRef .tc main_arg9)
    _ = Rv33 m c (Proc.devRef .tc main_arg9) := Rv34_keep m c main_arg9 (by decide)
    _ = Rv32 m c (Proc.devRef .tc main_arg9) := Rv33_keep m c main_arg9 (by decide)
    _ = Rv31 m c (Proc.devRef .tc main_arg9) := Rv32_keep m c main_arg9 (by decide)
    _ = Rv30 m c (Proc.devRef .tc main_arg9) := Rv31_keep m c main_arg9 (by decide)
    _ = Rv29 m c (Proc.devRef .tc main_arg9) := Rv30_keep m c main_arg9 (by decide)
    _ = Rv28 m c (Proc.devRef .tc main_arg9) := Rv29_keep m c main_arg9 (by decide)
    _ = Rv27 m c (Proc.devRef .tc main_arg9) := Rv28_keep m c main_arg9 (by decide)
    _ = Rv26 m c (Proc.devRef .tc main_arg9) := Rv27_keep m c main_arg9 (by decide)
    _ = Rv25 m c (Proc.devRef .tc main_arg9) := Rv26_keep m c main_arg9 (by decide)
    _ = Rv24 m c (Proc.devRef .tc main_arg9) := Rv25_keep m c main_arg9 (by decide)
    _ = Rv23 m c (Proc.devRef .tc main_arg9) := Rv24_keep m c main_arg9 (by decide)
    _ = Rv22 m c (Proc.devRef .tc main_arg9) := Rv23_keep m c main_arg9 (by decide)
    _ = Rv21 m c (Proc.devRef .tc main_arg9) := Rv22_keep m c main_arg9 (by decide)
    _ = Rv20 m c (Proc.devRef .tc main_arg9) := Rv21_keep m c main_arg9 (by decide)
    _ = Rv19 m c (Proc.devRef .tc main_arg9) := Rv20_keep m c main_arg9 (by decide)
    _ = Rv18 m c (Proc.devRef .tc main_arg9) := Rv19_keep m c main_arg9 (by decide)
    _ = Rv17 m c (Proc.devRef .tc main_arg9) := Rv18_keep m c main_arg9 (by decide)
    _ = Rv16 m c (Proc.devRef .tc main_arg9) := Rv17_keep m c main_arg9 (by decide)
    _ = Rv15 m c (Proc.devRef .tc main_arg9) := Rv16_keep m c main_arg9 (by decide)
    _ = Rv14 m c (Proc.devRef .tc main_arg9) := Rv15_keep m c main_arg9 (by decide)
    _ = Rv13 m c (Proc.devRef .tc main_arg9) := Rv14_keep m c main_arg9 (by decide)
    _ = Rv12 m c (Proc.devRef .tc main_arg9) := Rv13_keep m c main_arg9 (by decide)
    _ = Rv11 m c (Proc.devRef .tc main_arg9) := Rv12_keep m c main_arg9 (by decide)
    _ = Rv10 m c (Proc.devRef .tc main_arg9) := Rv11_keep m c main_arg9 (by decide)
    _ = Rv9 m c (Proc.devRef .tc main_arg9) := Rv10_keep m c main_arg9 (by decide)
    _ = Rv8 m c (Proc.devRef .tc main_arg9) := Rv9_keep m c main_arg9 (by decide)
    _ = Rv7 m c (Proc.devRef .tc main_arg9) := Rv8_keep m c main_arg9 (by decide)
    _ = Rv6 m c (Proc.devRef .tc main_arg9) := Rv7_keep m c main_arg9 (by decide)
    _ = Rv5 m c (Proc.devRef .tc main_arg9) := Rv6_keep m c main_arg9 (by decide)
    _ = Rv4 m c (Proc.devRef .tc main_arg9) := Rv5_keep m c main_arg9 (by decide)
    _ = Rv3 m c (Proc.devRef .tc main_arg9) := Rv4_keep m c main_arg9 (by decide)
    _ = Rv2 m c (Proc.devRef .tc main_arg9) := Rv3_keep m c main_arg9 (by decide)
    _ = Rv1 m c (Proc.devRef .tc main_arg9) := Rv2_keep m c main_arg9 (by decide)
    _ = Rv0 m c (Proc.devRef .tc main_arg9) := Rv1_keep m c main_arg9 (by decide)
    _ = m ((c.tc : Thread nD τ).loc main_arg9) := rfl

theorem Rv34_main_arg10 (c : Dev nD) : Rv34 m c (Proc.devRef .tc main_arg10) = m ((c.tc : Thread nD τ).loc main_arg10) :=
  calc Rv34 m c (Proc.devRef .tc main_arg10)
    _ = Rv33 m c (Proc.devRef .tc main_arg10) := Rv34_keep m c main_arg10 (by decide)
    _ = Rv32 m c (Proc.devRef .tc main_arg10) := Rv33_keep m c main_arg10 (by decide)
    _ = Rv31 m c (Proc.devRef .tc main_arg10) := Rv32_keep m c main_arg10 (by decide)
    _ = Rv30 m c (Proc.devRef .tc main_arg10) := Rv31_keep m c main_arg10 (by decide)
    _ = Rv29 m c (Proc.devRef .tc main_arg10) := Rv30_keep m c main_arg10 (by decide)
    _ = Rv28 m c (Proc.devRef .tc main_arg10) := Rv29_keep m c main_arg10 (by decide)
    _ = Rv27 m c (Proc.devRef .tc main_arg10) := Rv28_keep m c main_arg10 (by decide)
    _ = Rv26 m c (Proc.devRef .tc main_arg10) := Rv27_keep m c main_arg10 (by decide)
    _ = Rv25 m c (Proc.devRef .tc main_arg10) := Rv26_keep m c main_arg10 (by decide)
    _ = Rv24 m c (Proc.devRef .tc main_arg10) := Rv25_keep m c main_arg10 (by decide)
    _ = Rv23 m c (Proc.devRef .tc main_arg10) := Rv24_keep m c main_arg10 (by decide)
    _ = Rv22 m c (Proc.devRef .tc main_arg10) := Rv23_keep m c main_arg10 (by decide)
    _ = Rv21 m c (Proc.devRef .tc main_arg10) := Rv22_keep m c main_arg10 (by decide)
    _ = Rv20 m c (Proc.devRef .tc main_arg10) := Rv21_keep m c main_arg10 (by decide)
    _ = Rv19 m c (Proc.devRef .tc main_arg10) := Rv20_keep m c main_arg10 (by decide)
    _ = Rv18 m c (Proc.devRef .tc main_arg10) := Rv19_keep m c main_arg10 (by decide)
    _ = Rv17 m c (Proc.devRef .tc main_arg10) := Rv18_keep m c main_arg10 (by decide)
    _ = Rv16 m c (Proc.devRef .tc main_arg10) := Rv17_keep m c main_arg10 (by decide)
    _ = Rv15 m c (Proc.devRef .tc main_arg10) := Rv16_keep m c main_arg10 (by decide)
    _ = Rv14 m c (Proc.devRef .tc main_arg10) := Rv15_keep m c main_arg10 (by decide)
    _ = Rv13 m c (Proc.devRef .tc main_arg10) := Rv14_keep m c main_arg10 (by decide)
    _ = Rv12 m c (Proc.devRef .tc main_arg10) := Rv13_keep m c main_arg10 (by decide)
    _ = Rv11 m c (Proc.devRef .tc main_arg10) := Rv12_keep m c main_arg10 (by decide)
    _ = Rv10 m c (Proc.devRef .tc main_arg10) := Rv11_keep m c main_arg10 (by decide)
    _ = Rv9 m c (Proc.devRef .tc main_arg10) := Rv10_keep m c main_arg10 (by decide)
    _ = Rv8 m c (Proc.devRef .tc main_arg10) := Rv9_keep m c main_arg10 (by decide)
    _ = Rv7 m c (Proc.devRef .tc main_arg10) := Rv8_keep m c main_arg10 (by decide)
    _ = Rv6 m c (Proc.devRef .tc main_arg10) := Rv7_keep m c main_arg10 (by decide)
    _ = Rv5 m c (Proc.devRef .tc main_arg10) := Rv6_keep m c main_arg10 (by decide)
    _ = Rv4 m c (Proc.devRef .tc main_arg10) := Rv5_keep m c main_arg10 (by decide)
    _ = Rv3 m c (Proc.devRef .tc main_arg10) := Rv4_keep m c main_arg10 (by decide)
    _ = Rv2 m c (Proc.devRef .tc main_arg10) := Rv3_keep m c main_arg10 (by decide)
    _ = Rv1 m c (Proc.devRef .tc main_arg10) := Rv2_keep m c main_arg10 (by decide)
    _ = Rv0 m c (Proc.devRef .tc main_arg10) := Rv1_keep m c main_arg10 (by decide)
    _ = m ((c.tc : Thread nD τ).loc main_arg10) := rfl

theorem Rv34_main_arg11 (c : Dev nD) : Rv34 m c (Proc.devRef .tc main_arg11) = m ((c.tc : Thread nD τ).loc main_arg11) :=
  calc Rv34 m c (Proc.devRef .tc main_arg11)
    _ = Rv33 m c (Proc.devRef .tc main_arg11) := Rv34_keep m c main_arg11 (by decide)
    _ = Rv32 m c (Proc.devRef .tc main_arg11) := Rv33_keep m c main_arg11 (by decide)
    _ = Rv31 m c (Proc.devRef .tc main_arg11) := Rv32_keep m c main_arg11 (by decide)
    _ = Rv30 m c (Proc.devRef .tc main_arg11) := Rv31_keep m c main_arg11 (by decide)
    _ = Rv29 m c (Proc.devRef .tc main_arg11) := Rv30_keep m c main_arg11 (by decide)
    _ = Rv28 m c (Proc.devRef .tc main_arg11) := Rv29_keep m c main_arg11 (by decide)
    _ = Rv27 m c (Proc.devRef .tc main_arg11) := Rv28_keep m c main_arg11 (by decide)
    _ = Rv26 m c (Proc.devRef .tc main_arg11) := Rv27_keep m c main_arg11 (by decide)
    _ = Rv25 m c (Proc.devRef .tc main_arg11) := Rv26_keep m c main_arg11 (by decide)
    _ = Rv24 m c (Proc.devRef .tc main_arg11) := Rv25_keep m c main_arg11 (by decide)
    _ = Rv23 m c (Proc.devRef .tc main_arg11) := Rv24_keep m c main_arg11 (by decide)
    _ = Rv22 m c (Proc.devRef .tc main_arg11) := Rv23_keep m c main_arg11 (by decide)
    _ = Rv21 m c (Proc.devRef .tc main_arg11) := Rv22_keep m c main_arg11 (by decide)
    _ = Rv20 m c (Proc.devRef .tc main_arg11) := Rv21_keep m c main_arg11 (by decide)
    _ = Rv19 m c (Proc.devRef .tc main_arg11) := Rv20_keep m c main_arg11 (by decide)
    _ = Rv18 m c (Proc.devRef .tc main_arg11) := Rv19_keep m c main_arg11 (by decide)
    _ = Rv17 m c (Proc.devRef .tc main_arg11) := Rv18_keep m c main_arg11 (by decide)
    _ = Rv16 m c (Proc.devRef .tc main_arg11) := Rv17_keep m c main_arg11 (by decide)
    _ = Rv15 m c (Proc.devRef .tc main_arg11) := Rv16_keep m c main_arg11 (by decide)
    _ = Rv14 m c (Proc.devRef .tc main_arg11) := Rv15_keep m c main_arg11 (by decide)
    _ = Rv13 m c (Proc.devRef .tc main_arg11) := Rv14_keep m c main_arg11 (by decide)
    _ = Rv12 m c (Proc.devRef .tc main_arg11) := Rv13_keep m c main_arg11 (by decide)
    _ = Rv11 m c (Proc.devRef .tc main_arg11) := Rv12_keep m c main_arg11 (by decide)
    _ = Rv10 m c (Proc.devRef .tc main_arg11) := Rv11_keep m c main_arg11 (by decide)
    _ = Rv9 m c (Proc.devRef .tc main_arg11) := Rv10_keep m c main_arg11 (by decide)
    _ = Rv8 m c (Proc.devRef .tc main_arg11) := Rv9_keep m c main_arg11 (by decide)
    _ = Rv7 m c (Proc.devRef .tc main_arg11) := Rv8_keep m c main_arg11 (by decide)
    _ = Rv6 m c (Proc.devRef .tc main_arg11) := Rv7_keep m c main_arg11 (by decide)
    _ = Rv5 m c (Proc.devRef .tc main_arg11) := Rv6_keep m c main_arg11 (by decide)
    _ = Rv4 m c (Proc.devRef .tc main_arg11) := Rv5_keep m c main_arg11 (by decide)
    _ = Rv3 m c (Proc.devRef .tc main_arg11) := Rv4_keep m c main_arg11 (by decide)
    _ = Rv2 m c (Proc.devRef .tc main_arg11) := Rv3_keep m c main_arg11 (by decide)
    _ = Rv1 m c (Proc.devRef .tc main_arg11) := Rv2_keep m c main_arg11 (by decide)
    _ = Rv0 m c (Proc.devRef .tc main_arg11) := Rv1_keep m c main_arg11 (by decide)
    _ = m ((c.tc : Thread nD τ).loc main_arg11) := rfl

theorem Rv34_main_arg12 (c : Dev nD) : Rv34 m c (Proc.devRef .tc main_arg12) = m ((c.tc : Thread nD τ).loc main_arg12) :=
  calc Rv34 m c (Proc.devRef .tc main_arg12)
    _ = Rv33 m c (Proc.devRef .tc main_arg12) := Rv34_keep m c main_arg12 (by decide)
    _ = Rv32 m c (Proc.devRef .tc main_arg12) := Rv33_keep m c main_arg12 (by decide)
    _ = Rv31 m c (Proc.devRef .tc main_arg12) := Rv32_keep m c main_arg12 (by decide)
    _ = Rv30 m c (Proc.devRef .tc main_arg12) := Rv31_keep m c main_arg12 (by decide)
    _ = Rv29 m c (Proc.devRef .tc main_arg12) := Rv30_keep m c main_arg12 (by decide)
    _ = Rv28 m c (Proc.devRef .tc main_arg12) := Rv29_keep m c main_arg12 (by decide)
    _ = Rv27 m c (Proc.devRef .tc main_arg12) := Rv28_keep m c main_arg12 (by decide)
    _ = Rv26 m c (Proc.devRef .tc main_arg12) := Rv27_keep m c main_arg12 (by decide)
    _ = Rv25 m c (Proc.devRef .tc main_arg12) := Rv26_keep m c main_arg12 (by decide)
    _ = Rv24 m c (Proc.devRef .tc main_arg12) := Rv25_keep m c main_arg12 (by decide)
    _ = Rv23 m c (Proc.devRef .tc main_arg12) := Rv24_keep m c main_arg12 (by decide)
    _ = Rv22 m c (Proc.devRef .tc main_arg12) := Rv23_keep m c main_arg12 (by decide)
    _ = Rv21 m c (Proc.devRef .tc main_arg12) := Rv22_keep m c main_arg12 (by decide)
    _ = Rv20 m c (Proc.devRef .tc main_arg12) := Rv21_keep m c main_arg12 (by decide)
    _ = Rv19 m c (Proc.devRef .tc main_arg12) := Rv20_keep m c main_arg12 (by decide)
    _ = Rv18 m c (Proc.devRef .tc main_arg12) := Rv19_keep m c main_arg12 (by decide)
    _ = Rv17 m c (Proc.devRef .tc main_arg12) := Rv18_keep m c main_arg12 (by decide)
    _ = Rv16 m c (Proc.devRef .tc main_arg12) := Rv17_keep m c main_arg12 (by decide)
    _ = Rv15 m c (Proc.devRef .tc main_arg12) := Rv16_keep m c main_arg12 (by decide)
    _ = Rv14 m c (Proc.devRef .tc main_arg12) := Rv15_keep m c main_arg12 (by decide)
    _ = Rv13 m c (Proc.devRef .tc main_arg12) := Rv14_keep m c main_arg12 (by decide)
    _ = Rv12 m c (Proc.devRef .tc main_arg12) := Rv13_keep m c main_arg12 (by decide)
    _ = Rv11 m c (Proc.devRef .tc main_arg12) := Rv12_keep m c main_arg12 (by decide)
    _ = Rv10 m c (Proc.devRef .tc main_arg12) := Rv11_keep m c main_arg12 (by decide)
    _ = Rv9 m c (Proc.devRef .tc main_arg12) := Rv10_keep m c main_arg12 (by decide)
    _ = Rv8 m c (Proc.devRef .tc main_arg12) := Rv9_keep m c main_arg12 (by decide)
    _ = Rv7 m c (Proc.devRef .tc main_arg12) := Rv8_keep m c main_arg12 (by decide)
    _ = Rv6 m c (Proc.devRef .tc main_arg12) := Rv7_keep m c main_arg12 (by decide)
    _ = Rv5 m c (Proc.devRef .tc main_arg12) := Rv6_keep m c main_arg12 (by decide)
    _ = Rv4 m c (Proc.devRef .tc main_arg12) := Rv5_keep m c main_arg12 (by decide)
    _ = Rv3 m c (Proc.devRef .tc main_arg12) := Rv4_keep m c main_arg12 (by decide)
    _ = Rv2 m c (Proc.devRef .tc main_arg12) := Rv3_keep m c main_arg12 (by decide)
    _ = Rv1 m c (Proc.devRef .tc main_arg12) := Rv2_keep m c main_arg12 (by decide)
    _ = Rv0 m c (Proc.devRef .tc main_arg12) := Rv1_keep m c main_arg12 (by decide)
    _ = m ((c.tc : Thread nD τ).loc main_arg12) := rfl

theorem Rv34_main_arg13 (c : Dev nD) : Rv34 m c (Proc.devRef .tc main_arg13) = m ((c.tc : Thread nD τ).loc main_arg13) :=
  calc Rv34 m c (Proc.devRef .tc main_arg13)
    _ = Rv33 m c (Proc.devRef .tc main_arg13) := Rv34_keep m c main_arg13 (by decide)
    _ = Rv32 m c (Proc.devRef .tc main_arg13) := Rv33_keep m c main_arg13 (by decide)
    _ = Rv31 m c (Proc.devRef .tc main_arg13) := Rv32_keep m c main_arg13 (by decide)
    _ = Rv30 m c (Proc.devRef .tc main_arg13) := Rv31_keep m c main_arg13 (by decide)
    _ = Rv29 m c (Proc.devRef .tc main_arg13) := Rv30_keep m c main_arg13 (by decide)
    _ = Rv28 m c (Proc.devRef .tc main_arg13) := Rv29_keep m c main_arg13 (by decide)
    _ = Rv27 m c (Proc.devRef .tc main_arg13) := Rv28_keep m c main_arg13 (by decide)
    _ = Rv26 m c (Proc.devRef .tc main_arg13) := Rv27_keep m c main_arg13 (by decide)
    _ = Rv25 m c (Proc.devRef .tc main_arg13) := Rv26_keep m c main_arg13 (by decide)
    _ = Rv24 m c (Proc.devRef .tc main_arg13) := Rv25_keep m c main_arg13 (by decide)
    _ = Rv23 m c (Proc.devRef .tc main_arg13) := Rv24_keep m c main_arg13 (by decide)
    _ = Rv22 m c (Proc.devRef .tc main_arg13) := Rv23_keep m c main_arg13 (by decide)
    _ = Rv21 m c (Proc.devRef .tc main_arg13) := Rv22_keep m c main_arg13 (by decide)
    _ = Rv20 m c (Proc.devRef .tc main_arg13) := Rv21_keep m c main_arg13 (by decide)
    _ = Rv19 m c (Proc.devRef .tc main_arg13) := Rv20_keep m c main_arg13 (by decide)
    _ = Rv18 m c (Proc.devRef .tc main_arg13) := Rv19_keep m c main_arg13 (by decide)
    _ = Rv17 m c (Proc.devRef .tc main_arg13) := Rv18_keep m c main_arg13 (by decide)
    _ = Rv16 m c (Proc.devRef .tc main_arg13) := Rv17_keep m c main_arg13 (by decide)
    _ = Rv15 m c (Proc.devRef .tc main_arg13) := Rv16_keep m c main_arg13 (by decide)
    _ = Rv14 m c (Proc.devRef .tc main_arg13) := Rv15_keep m c main_arg13 (by decide)
    _ = Rv13 m c (Proc.devRef .tc main_arg13) := Rv14_keep m c main_arg13 (by decide)
    _ = Rv12 m c (Proc.devRef .tc main_arg13) := Rv13_keep m c main_arg13 (by decide)
    _ = Rv11 m c (Proc.devRef .tc main_arg13) := Rv12_keep m c main_arg13 (by decide)
    _ = Rv10 m c (Proc.devRef .tc main_arg13) := Rv11_keep m c main_arg13 (by decide)
    _ = Rv9 m c (Proc.devRef .tc main_arg13) := Rv10_keep m c main_arg13 (by decide)
    _ = Rv8 m c (Proc.devRef .tc main_arg13) := Rv9_keep m c main_arg13 (by decide)
    _ = Rv7 m c (Proc.devRef .tc main_arg13) := Rv8_keep m c main_arg13 (by decide)
    _ = Rv6 m c (Proc.devRef .tc main_arg13) := Rv7_keep m c main_arg13 (by decide)
    _ = Rv5 m c (Proc.devRef .tc main_arg13) := Rv6_keep m c main_arg13 (by decide)
    _ = Rv4 m c (Proc.devRef .tc main_arg13) := Rv5_keep m c main_arg13 (by decide)
    _ = Rv3 m c (Proc.devRef .tc main_arg13) := Rv4_keep m c main_arg13 (by decide)
    _ = Rv2 m c (Proc.devRef .tc main_arg13) := Rv3_keep m c main_arg13 (by decide)
    _ = Rv1 m c (Proc.devRef .tc main_arg13) := Rv2_keep m c main_arg13 (by decide)
    _ = Rv0 m c (Proc.devRef .tc main_arg13) := Rv1_keep m c main_arg13 (by decide)
    _ = m ((c.tc : Thread nD τ).loc main_arg13) := rfl

theorem Rv34_main_arg14 (c : Dev nD) : Rv34 m c (Proc.devRef .tc main_arg14) = m ((c.tc : Thread nD τ).loc main_arg14) :=
  calc Rv34 m c (Proc.devRef .tc main_arg14)
    _ = Rv33 m c (Proc.devRef .tc main_arg14) := Rv34_keep m c main_arg14 (by decide)
    _ = Rv32 m c (Proc.devRef .tc main_arg14) := Rv33_keep m c main_arg14 (by decide)
    _ = Rv31 m c (Proc.devRef .tc main_arg14) := Rv32_keep m c main_arg14 (by decide)
    _ = Rv30 m c (Proc.devRef .tc main_arg14) := Rv31_keep m c main_arg14 (by decide)
    _ = Rv29 m c (Proc.devRef .tc main_arg14) := Rv30_keep m c main_arg14 (by decide)
    _ = Rv28 m c (Proc.devRef .tc main_arg14) := Rv29_keep m c main_arg14 (by decide)
    _ = Rv27 m c (Proc.devRef .tc main_arg14) := Rv28_keep m c main_arg14 (by decide)
    _ = Rv26 m c (Proc.devRef .tc main_arg14) := Rv27_keep m c main_arg14 (by decide)
    _ = Rv25 m c (Proc.devRef .tc main_arg14) := Rv26_keep m c main_arg14 (by decide)
    _ = Rv24 m c (Proc.devRef .tc main_arg14) := Rv25_keep m c main_arg14 (by decide)
    _ = Rv23 m c (Proc.devRef .tc main_arg14) := Rv24_keep m c main_arg14 (by decide)
    _ = Rv22 m c (Proc.devRef .tc main_arg14) := Rv23_keep m c main_arg14 (by decide)
    _ = Rv21 m c (Proc.devRef .tc main_arg14) := Rv22_keep m c main_arg14 (by decide)
    _ = Rv20 m c (Proc.devRef .tc main_arg14) := Rv21_keep m c main_arg14 (by decide)
    _ = Rv19 m c (Proc.devRef .tc main_arg14) := Rv20_keep m c main_arg14 (by decide)
    _ = Rv18 m c (Proc.devRef .tc main_arg14) := Rv19_keep m c main_arg14 (by decide)
    _ = Rv17 m c (Proc.devRef .tc main_arg14) := Rv18_keep m c main_arg14 (by decide)
    _ = Rv16 m c (Proc.devRef .tc main_arg14) := Rv17_keep m c main_arg14 (by decide)
    _ = Rv15 m c (Proc.devRef .tc main_arg14) := Rv16_keep m c main_arg14 (by decide)
    _ = Rv14 m c (Proc.devRef .tc main_arg14) := Rv15_keep m c main_arg14 (by decide)
    _ = Rv13 m c (Proc.devRef .tc main_arg14) := Rv14_keep m c main_arg14 (by decide)
    _ = Rv12 m c (Proc.devRef .tc main_arg14) := Rv13_keep m c main_arg14 (by decide)
    _ = Rv11 m c (Proc.devRef .tc main_arg14) := Rv12_keep m c main_arg14 (by decide)
    _ = Rv10 m c (Proc.devRef .tc main_arg14) := Rv11_keep m c main_arg14 (by decide)
    _ = Rv9 m c (Proc.devRef .tc main_arg14) := Rv10_keep m c main_arg14 (by decide)
    _ = Rv8 m c (Proc.devRef .tc main_arg14) := Rv9_keep m c main_arg14 (by decide)
    _ = Rv7 m c (Proc.devRef .tc main_arg14) := Rv8_keep m c main_arg14 (by decide)
    _ = Rv6 m c (Proc.devRef .tc main_arg14) := Rv7_keep m c main_arg14 (by decide)
    _ = Rv5 m c (Proc.devRef .tc main_arg14) := Rv6_keep m c main_arg14 (by decide)
    _ = Rv4 m c (Proc.devRef .tc main_arg14) := Rv5_keep m c main_arg14 (by decide)
    _ = Rv3 m c (Proc.devRef .tc main_arg14) := Rv4_keep m c main_arg14 (by decide)
    _ = Rv2 m c (Proc.devRef .tc main_arg14) := Rv3_keep m c main_arg14 (by decide)
    _ = Rv1 m c (Proc.devRef .tc main_arg14) := Rv2_keep m c main_arg14 (by decide)
    _ = Rv0 m c (Proc.devRef .tc main_arg14) := Rv1_keep m c main_arg14 (by decide)
    _ = m ((c.tc : Thread nD τ).loc main_arg14) := rfl

theorem Rv34_main_arg15 (c : Dev nD) : Rv34 m c (Proc.devRef .tc main_arg15) = m ((c.tc : Thread nD τ).loc main_arg15) :=
  calc Rv34 m c (Proc.devRef .tc main_arg15)
    _ = Rv33 m c (Proc.devRef .tc main_arg15) := Rv34_keep m c main_arg15 (by decide)
    _ = Rv32 m c (Proc.devRef .tc main_arg15) := Rv33_keep m c main_arg15 (by decide)
    _ = Rv31 m c (Proc.devRef .tc main_arg15) := Rv32_keep m c main_arg15 (by decide)
    _ = Rv30 m c (Proc.devRef .tc main_arg15) := Rv31_keep m c main_arg15 (by decide)
    _ = Rv29 m c (Proc.devRef .tc main_arg15) := Rv30_keep m c main_arg15 (by decide)
    _ = Rv28 m c (Proc.devRef .tc main_arg15) := Rv29_keep m c main_arg15 (by decide)
    _ = Rv27 m c (Proc.devRef .tc main_arg15) := Rv28_keep m c main_arg15 (by decide)
    _ = Rv26 m c (Proc.devRef .tc main_arg15) := Rv27_keep m c main_arg15 (by decide)
    _ = Rv25 m c (Proc.devRef .tc main_arg15) := Rv26_keep m c main_arg15 (by decide)
    _ = Rv24 m c (Proc.devRef .tc main_arg15) := Rv25_keep m c main_arg15 (by decide)
    _ = Rv23 m c (Proc.devRef .tc main_arg15) := Rv24_keep m c main_arg15 (by decide)
    _ = Rv22 m c (Proc.devRef .tc main_arg15) := Rv23_keep m c main_arg15 (by decide)
    _ = Rv21 m c (Proc.devRef .tc main_arg15) := Rv22_keep m c main_arg15 (by decide)
    _ = Rv20 m c (Proc.devRef .tc main_arg15) := Rv21_keep m c main_arg15 (by decide)
    _ = Rv19 m c (Proc.devRef .tc main_arg15) := Rv20_keep m c main_arg15 (by decide)
    _ = Rv18 m c (Proc.devRef .tc main_arg15) := Rv19_keep m c main_arg15 (by decide)
    _ = Rv17 m c (Proc.devRef .tc main_arg15) := Rv18_keep m c main_arg15 (by decide)
    _ = Rv16 m c (Proc.devRef .tc main_arg15) := Rv17_keep m c main_arg15 (by decide)
    _ = Rv15 m c (Proc.devRef .tc main_arg15) := Rv16_keep m c main_arg15 (by decide)
    _ = Rv14 m c (Proc.devRef .tc main_arg15) := Rv15_keep m c main_arg15 (by decide)
    _ = Rv13 m c (Proc.devRef .tc main_arg15) := Rv14_keep m c main_arg15 (by decide)
    _ = Rv12 m c (Proc.devRef .tc main_arg15) := Rv13_keep m c main_arg15 (by decide)
    _ = Rv11 m c (Proc.devRef .tc main_arg15) := Rv12_keep m c main_arg15 (by decide)
    _ = Rv10 m c (Proc.devRef .tc main_arg15) := Rv11_keep m c main_arg15 (by decide)
    _ = Rv9 m c (Proc.devRef .tc main_arg15) := Rv10_keep m c main_arg15 (by decide)
    _ = Rv8 m c (Proc.devRef .tc main_arg15) := Rv9_keep m c main_arg15 (by decide)
    _ = Rv7 m c (Proc.devRef .tc main_arg15) := Rv8_keep m c main_arg15 (by decide)
    _ = Rv6 m c (Proc.devRef .tc main_arg15) := Rv7_keep m c main_arg15 (by decide)
    _ = Rv5 m c (Proc.devRef .tc main_arg15) := Rv6_keep m c main_arg15 (by decide)
    _ = Rv4 m c (Proc.devRef .tc main_arg15) := Rv5_keep m c main_arg15 (by decide)
    _ = Rv3 m c (Proc.devRef .tc main_arg15) := Rv4_keep m c main_arg15 (by decide)
    _ = Rv2 m c (Proc.devRef .tc main_arg15) := Rv3_keep m c main_arg15 (by decide)
    _ = Rv1 m c (Proc.devRef .tc main_arg15) := Rv2_keep m c main_arg15 (by decide)
    _ = Rv0 m c (Proc.devRef .tc main_arg15) := Rv1_keep m c main_arg15 (by decide)
    _ = m ((c.tc : Thread nD τ).loc main_arg15) := rfl

theorem Rv34_main_arg16 (c : Dev nD) : Rv34 m c (Proc.devRef .tc main_arg16) = m ((c.tc : Thread nD τ).loc main_arg16) :=
  calc Rv34 m c (Proc.devRef .tc main_arg16)
    _ = Rv33 m c (Proc.devRef .tc main_arg16) := Rv34_keep m c main_arg16 (by decide)
    _ = Rv32 m c (Proc.devRef .tc main_arg16) := Rv33_keep m c main_arg16 (by decide)
    _ = Rv31 m c (Proc.devRef .tc main_arg16) := Rv32_keep m c main_arg16 (by decide)
    _ = Rv30 m c (Proc.devRef .tc main_arg16) := Rv31_keep m c main_arg16 (by decide)
    _ = Rv29 m c (Proc.devRef .tc main_arg16) := Rv30_keep m c main_arg16 (by decide)
    _ = Rv28 m c (Proc.devRef .tc main_arg16) := Rv29_keep m c main_arg16 (by decide)
    _ = Rv27 m c (Proc.devRef .tc main_arg16) := Rv28_keep m c main_arg16 (by decide)
    _ = Rv26 m c (Proc.devRef .tc main_arg16) := Rv27_keep m c main_arg16 (by decide)
    _ = Rv25 m c (Proc.devRef .tc main_arg16) := Rv26_keep m c main_arg16 (by decide)
    _ = Rv24 m c (Proc.devRef .tc main_arg16) := Rv25_keep m c main_arg16 (by decide)
    _ = Rv23 m c (Proc.devRef .tc main_arg16) := Rv24_keep m c main_arg16 (by decide)
    _ = Rv22 m c (Proc.devRef .tc main_arg16) := Rv23_keep m c main_arg16 (by decide)
    _ = Rv21 m c (Proc.devRef .tc main_arg16) := Rv22_keep m c main_arg16 (by decide)
    _ = Rv20 m c (Proc.devRef .tc main_arg16) := Rv21_keep m c main_arg16 (by decide)
    _ = Rv19 m c (Proc.devRef .tc main_arg16) := Rv20_keep m c main_arg16 (by decide)
    _ = Rv18 m c (Proc.devRef .tc main_arg16) := Rv19_keep m c main_arg16 (by decide)
    _ = Rv17 m c (Proc.devRef .tc main_arg16) := Rv18_keep m c main_arg16 (by decide)
    _ = Rv16 m c (Proc.devRef .tc main_arg16) := Rv17_keep m c main_arg16 (by decide)
    _ = Rv15 m c (Proc.devRef .tc main_arg16) := Rv16_keep m c main_arg16 (by decide)
    _ = Rv14 m c (Proc.devRef .tc main_arg16) := Rv15_keep m c main_arg16 (by decide)
    _ = Rv13 m c (Proc.devRef .tc main_arg16) := Rv14_keep m c main_arg16 (by decide)
    _ = Rv12 m c (Proc.devRef .tc main_arg16) := Rv13_keep m c main_arg16 (by decide)
    _ = Rv11 m c (Proc.devRef .tc main_arg16) := Rv12_keep m c main_arg16 (by decide)
    _ = Rv10 m c (Proc.devRef .tc main_arg16) := Rv11_keep m c main_arg16 (by decide)
    _ = Rv9 m c (Proc.devRef .tc main_arg16) := Rv10_keep m c main_arg16 (by decide)
    _ = Rv8 m c (Proc.devRef .tc main_arg16) := Rv9_keep m c main_arg16 (by decide)
    _ = Rv7 m c (Proc.devRef .tc main_arg16) := Rv8_keep m c main_arg16 (by decide)
    _ = Rv6 m c (Proc.devRef .tc main_arg16) := Rv7_keep m c main_arg16 (by decide)
    _ = Rv5 m c (Proc.devRef .tc main_arg16) := Rv6_keep m c main_arg16 (by decide)
    _ = Rv4 m c (Proc.devRef .tc main_arg16) := Rv5_keep m c main_arg16 (by decide)
    _ = Rv3 m c (Proc.devRef .tc main_arg16) := Rv4_keep m c main_arg16 (by decide)
    _ = Rv2 m c (Proc.devRef .tc main_arg16) := Rv3_keep m c main_arg16 (by decide)
    _ = Rv1 m c (Proc.devRef .tc main_arg16) := Rv2_keep m c main_arg16 (by decide)
    _ = Rv0 m c (Proc.devRef .tc main_arg16) := Rv1_keep m c main_arg16 (by decide)
    _ = m ((c.tc : Thread nD τ).loc main_arg16) := rfl

theorem Rv34_main_arg17 (c : Dev nD) : Rv34 m c (Proc.devRef .tc main_arg17) = m ((c.tc : Thread nD τ).loc main_arg17) :=
  calc Rv34 m c (Proc.devRef .tc main_arg17)
    _ = Rv33 m c (Proc.devRef .tc main_arg17) := Rv34_keep m c main_arg17 (by decide)
    _ = Rv32 m c (Proc.devRef .tc main_arg17) := Rv33_keep m c main_arg17 (by decide)
    _ = Rv31 m c (Proc.devRef .tc main_arg17) := Rv32_keep m c main_arg17 (by decide)
    _ = Rv30 m c (Proc.devRef .tc main_arg17) := Rv31_keep m c main_arg17 (by decide)
    _ = Rv29 m c (Proc.devRef .tc main_arg17) := Rv30_keep m c main_arg17 (by decide)
    _ = Rv28 m c (Proc.devRef .tc main_arg17) := Rv29_keep m c main_arg17 (by decide)
    _ = Rv27 m c (Proc.devRef .tc main_arg17) := Rv28_keep m c main_arg17 (by decide)
    _ = Rv26 m c (Proc.devRef .tc main_arg17) := Rv27_keep m c main_arg17 (by decide)
    _ = Rv25 m c (Proc.devRef .tc main_arg17) := Rv26_keep m c main_arg17 (by decide)
    _ = Rv24 m c (Proc.devRef .tc main_arg17) := Rv25_keep m c main_arg17 (by decide)
    _ = Rv23 m c (Proc.devRef .tc main_arg17) := Rv24_keep m c main_arg17 (by decide)
    _ = Rv22 m c (Proc.devRef .tc main_arg17) := Rv23_keep m c main_arg17 (by decide)
    _ = Rv21 m c (Proc.devRef .tc main_arg17) := Rv22_keep m c main_arg17 (by decide)
    _ = Rv20 m c (Proc.devRef .tc main_arg17) := Rv21_keep m c main_arg17 (by decide)
    _ = Rv19 m c (Proc.devRef .tc main_arg17) := Rv20_keep m c main_arg17 (by decide)
    _ = Rv18 m c (Proc.devRef .tc main_arg17) := Rv19_keep m c main_arg17 (by decide)
    _ = Rv17 m c (Proc.devRef .tc main_arg17) := Rv18_keep m c main_arg17 (by decide)
    _ = Rv16 m c (Proc.devRef .tc main_arg17) := Rv17_keep m c main_arg17 (by decide)
    _ = Rv15 m c (Proc.devRef .tc main_arg17) := Rv16_keep m c main_arg17 (by decide)
    _ = Rv14 m c (Proc.devRef .tc main_arg17) := Rv15_keep m c main_arg17 (by decide)
    _ = Rv13 m c (Proc.devRef .tc main_arg17) := Rv14_keep m c main_arg17 (by decide)
    _ = Rv12 m c (Proc.devRef .tc main_arg17) := Rv13_keep m c main_arg17 (by decide)
    _ = Rv11 m c (Proc.devRef .tc main_arg17) := Rv12_keep m c main_arg17 (by decide)
    _ = Rv10 m c (Proc.devRef .tc main_arg17) := Rv11_keep m c main_arg17 (by decide)
    _ = Rv9 m c (Proc.devRef .tc main_arg17) := Rv10_keep m c main_arg17 (by decide)
    _ = Rv8 m c (Proc.devRef .tc main_arg17) := Rv9_keep m c main_arg17 (by decide)
    _ = Rv7 m c (Proc.devRef .tc main_arg17) := Rv8_keep m c main_arg17 (by decide)
    _ = Rv6 m c (Proc.devRef .tc main_arg17) := Rv7_keep m c main_arg17 (by decide)
    _ = Rv5 m c (Proc.devRef .tc main_arg17) := Rv6_keep m c main_arg17 (by decide)
    _ = Rv4 m c (Proc.devRef .tc main_arg17) := Rv5_keep m c main_arg17 (by decide)
    _ = Rv3 m c (Proc.devRef .tc main_arg17) := Rv4_keep m c main_arg17 (by decide)
    _ = Rv2 m c (Proc.devRef .tc main_arg17) := Rv3_keep m c main_arg17 (by decide)
    _ = Rv1 m c (Proc.devRef .tc main_arg17) := Rv2_keep m c main_arg17 (by decide)
    _ = Rv0 m c (Proc.devRef .tc main_arg17) := Rv1_keep m c main_arg17 (by decide)
    _ = m ((c.tc : Thread nD τ).loc main_arg17) := rfl

theorem Rv34_main_arg18 (c : Dev nD) : Rv34 m c (Proc.devRef .tc main_arg18) = m ((c.tc : Thread nD τ).loc main_arg18) :=
  calc Rv34 m c (Proc.devRef .tc main_arg18)
    _ = Rv33 m c (Proc.devRef .tc main_arg18) := Rv34_keep m c main_arg18 (by decide)
    _ = Rv32 m c (Proc.devRef .tc main_arg18) := Rv33_keep m c main_arg18 (by decide)
    _ = Rv31 m c (Proc.devRef .tc main_arg18) := Rv32_keep m c main_arg18 (by decide)
    _ = Rv30 m c (Proc.devRef .tc main_arg18) := Rv31_keep m c main_arg18 (by decide)
    _ = Rv29 m c (Proc.devRef .tc main_arg18) := Rv30_keep m c main_arg18 (by decide)
    _ = Rv28 m c (Proc.devRef .tc main_arg18) := Rv29_keep m c main_arg18 (by decide)
    _ = Rv27 m c (Proc.devRef .tc main_arg18) := Rv28_keep m c main_arg18 (by decide)
    _ = Rv26 m c (Proc.devRef .tc main_arg18) := Rv27_keep m c main_arg18 (by decide)
    _ = Rv25 m c (Proc.devRef .tc main_arg18) := Rv26_keep m c main_arg18 (by decide)
    _ = Rv24 m c (Proc.devRef .tc main_arg18) := Rv25_keep m c main_arg18 (by decide)
    _ = Rv23 m c (Proc.devRef .tc main_arg18) := Rv24_keep m c main_arg18 (by decide)
    _ = Rv22 m c (Proc.devRef .tc main_arg18) := Rv23_keep m c main_arg18 (by decide)
    _ = Rv21 m c (Proc.devRef .tc main_arg18) := Rv22_keep m c main_arg18 (by decide)
    _ = Rv20 m c (Proc.devRef .tc main_arg18) := Rv21_keep m c main_arg18 (by decide)
    _ = Rv19 m c (Proc.devRef .tc main_arg18) := Rv20_keep m c main_arg18 (by decide)
    _ = Rv18 m c (Proc.devRef .tc main_arg18) := Rv19_keep m c main_arg18 (by decide)
    _ = Rv17 m c (Proc.devRef .tc main_arg18) := Rv18_keep m c main_arg18 (by decide)
    _ = Rv16 m c (Proc.devRef .tc main_arg18) := Rv17_keep m c main_arg18 (by decide)
    _ = Rv15 m c (Proc.devRef .tc main_arg18) := Rv16_keep m c main_arg18 (by decide)
    _ = Rv14 m c (Proc.devRef .tc main_arg18) := Rv15_keep m c main_arg18 (by decide)
    _ = Rv13 m c (Proc.devRef .tc main_arg18) := Rv14_keep m c main_arg18 (by decide)
    _ = Rv12 m c (Proc.devRef .tc main_arg18) := Rv13_keep m c main_arg18 (by decide)
    _ = Rv11 m c (Proc.devRef .tc main_arg18) := Rv12_keep m c main_arg18 (by decide)
    _ = Rv10 m c (Proc.devRef .tc main_arg18) := Rv11_keep m c main_arg18 (by decide)
    _ = Rv9 m c (Proc.devRef .tc main_arg18) := Rv10_keep m c main_arg18 (by decide)
    _ = Rv8 m c (Proc.devRef .tc main_arg18) := Rv9_keep m c main_arg18 (by decide)
    _ = Rv7 m c (Proc.devRef .tc main_arg18) := Rv8_keep m c main_arg18 (by decide)
    _ = Rv6 m c (Proc.devRef .tc main_arg18) := Rv7_keep m c main_arg18 (by decide)
    _ = Rv5 m c (Proc.devRef .tc main_arg18) := Rv6_keep m c main_arg18 (by decide)
    _ = Rv4 m c (Proc.devRef .tc main_arg18) := Rv5_keep m c main_arg18 (by decide)
    _ = Rv3 m c (Proc.devRef .tc main_arg18) := Rv4_keep m c main_arg18 (by decide)
    _ = Rv2 m c (Proc.devRef .tc main_arg18) := Rv3_keep m c main_arg18 (by decide)
    _ = Rv1 m c (Proc.devRef .tc main_arg18) := Rv2_keep m c main_arg18 (by decide)
    _ = Rv0 m c (Proc.devRef .tc main_arg18) := Rv1_keep m c main_arg18 (by decide)
    _ = m ((c.tc : Thread nD τ).loc main_arg18) := rfl

theorem Rv34_main_arg19 (c : Dev nD) : Rv34 m c (Proc.devRef .tc main_arg19) = m ((c.tc : Thread nD τ).loc main_arg19) :=
  calc Rv34 m c (Proc.devRef .tc main_arg19)
    _ = Rv33 m c (Proc.devRef .tc main_arg19) := Rv34_keep m c main_arg19 (by decide)
    _ = Rv32 m c (Proc.devRef .tc main_arg19) := Rv33_keep m c main_arg19 (by decide)
    _ = Rv31 m c (Proc.devRef .tc main_arg19) := Rv32_keep m c main_arg19 (by decide)
    _ = Rv30 m c (Proc.devRef .tc main_arg19) := Rv31_keep m c main_arg19 (by decide)
    _ = Rv29 m c (Proc.devRef .tc main_arg19) := Rv30_keep m c main_arg19 (by decide)
    _ = Rv28 m c (Proc.devRef .tc main_arg19) := Rv29_keep m c main_arg19 (by decide)
    _ = Rv27 m c (Proc.devRef .tc main_arg19) := Rv28_keep m c main_arg19 (by decide)
    _ = Rv26 m c (Proc.devRef .tc main_arg19) := Rv27_keep m c main_arg19 (by decide)
    _ = Rv25 m c (Proc.devRef .tc main_arg19) := Rv26_keep m c main_arg19 (by decide)
    _ = Rv24 m c (Proc.devRef .tc main_arg19) := Rv25_keep m c main_arg19 (by decide)
    _ = Rv23 m c (Proc.devRef .tc main_arg19) := Rv24_keep m c main_arg19 (by decide)
    _ = Rv22 m c (Proc.devRef .tc main_arg19) := Rv23_keep m c main_arg19 (by decide)
    _ = Rv21 m c (Proc.devRef .tc main_arg19) := Rv22_keep m c main_arg19 (by decide)
    _ = Rv20 m c (Proc.devRef .tc main_arg19) := Rv21_keep m c main_arg19 (by decide)
    _ = Rv19 m c (Proc.devRef .tc main_arg19) := Rv20_keep m c main_arg19 (by decide)
    _ = Rv18 m c (Proc.devRef .tc main_arg19) := Rv19_keep m c main_arg19 (by decide)
    _ = Rv17 m c (Proc.devRef .tc main_arg19) := Rv18_keep m c main_arg19 (by decide)
    _ = Rv16 m c (Proc.devRef .tc main_arg19) := Rv17_keep m c main_arg19 (by decide)
    _ = Rv15 m c (Proc.devRef .tc main_arg19) := Rv16_keep m c main_arg19 (by decide)
    _ = Rv14 m c (Proc.devRef .tc main_arg19) := Rv15_keep m c main_arg19 (by decide)
    _ = Rv13 m c (Proc.devRef .tc main_arg19) := Rv14_keep m c main_arg19 (by decide)
    _ = Rv12 m c (Proc.devRef .tc main_arg19) := Rv13_keep m c main_arg19 (by decide)
    _ = Rv11 m c (Proc.devRef .tc main_arg19) := Rv12_keep m c main_arg19 (by decide)
    _ = Rv10 m c (Proc.devRef .tc main_arg19) := Rv11_keep m c main_arg19 (by decide)
    _ = Rv9 m c (Proc.devRef .tc main_arg19) := Rv10_keep m c main_arg19 (by decide)
    _ = Rv8 m c (Proc.devRef .tc main_arg19) := Rv9_keep m c main_arg19 (by decide)
    _ = Rv7 m c (Proc.devRef .tc main_arg19) := Rv8_keep m c main_arg19 (by decide)
    _ = Rv6 m c (Proc.devRef .tc main_arg19) := Rv7_keep m c main_arg19 (by decide)
    _ = Rv5 m c (Proc.devRef .tc main_arg19) := Rv6_keep m c main_arg19 (by decide)
    _ = Rv4 m c (Proc.devRef .tc main_arg19) := Rv5_keep m c main_arg19 (by decide)
    _ = Rv3 m c (Proc.devRef .tc main_arg19) := Rv4_keep m c main_arg19 (by decide)
    _ = Rv2 m c (Proc.devRef .tc main_arg19) := Rv3_keep m c main_arg19 (by decide)
    _ = Rv1 m c (Proc.devRef .tc main_arg19) := Rv2_keep m c main_arg19 (by decide)
    _ = Rv0 m c (Proc.devRef .tc main_arg19) := Rv1_keep m c main_arg19 (by decide)
    _ = m ((c.tc : Thread nD τ).loc main_arg19) := rfl

theorem Rv34_main_arg20 (c : Dev nD) : Rv34 m c (Proc.devRef .tc main_arg20) = m ((c.tc : Thread nD τ).loc main_arg20) :=
  calc Rv34 m c (Proc.devRef .tc main_arg20)
    _ = Rv33 m c (Proc.devRef .tc main_arg20) := Rv34_keep m c main_arg20 (by decide)
    _ = Rv32 m c (Proc.devRef .tc main_arg20) := Rv33_keep m c main_arg20 (by decide)
    _ = Rv31 m c (Proc.devRef .tc main_arg20) := Rv32_keep m c main_arg20 (by decide)
    _ = Rv30 m c (Proc.devRef .tc main_arg20) := Rv31_keep m c main_arg20 (by decide)
    _ = Rv29 m c (Proc.devRef .tc main_arg20) := Rv30_keep m c main_arg20 (by decide)
    _ = Rv28 m c (Proc.devRef .tc main_arg20) := Rv29_keep m c main_arg20 (by decide)
    _ = Rv27 m c (Proc.devRef .tc main_arg20) := Rv28_keep m c main_arg20 (by decide)
    _ = Rv26 m c (Proc.devRef .tc main_arg20) := Rv27_keep m c main_arg20 (by decide)
    _ = Rv25 m c (Proc.devRef .tc main_arg20) := Rv26_keep m c main_arg20 (by decide)
    _ = Rv24 m c (Proc.devRef .tc main_arg20) := Rv25_keep m c main_arg20 (by decide)
    _ = Rv23 m c (Proc.devRef .tc main_arg20) := Rv24_keep m c main_arg20 (by decide)
    _ = Rv22 m c (Proc.devRef .tc main_arg20) := Rv23_keep m c main_arg20 (by decide)
    _ = Rv21 m c (Proc.devRef .tc main_arg20) := Rv22_keep m c main_arg20 (by decide)
    _ = Rv20 m c (Proc.devRef .tc main_arg20) := Rv21_keep m c main_arg20 (by decide)
    _ = Rv19 m c (Proc.devRef .tc main_arg20) := Rv20_keep m c main_arg20 (by decide)
    _ = Rv18 m c (Proc.devRef .tc main_arg20) := Rv19_keep m c main_arg20 (by decide)
    _ = Rv17 m c (Proc.devRef .tc main_arg20) := Rv18_keep m c main_arg20 (by decide)
    _ = Rv16 m c (Proc.devRef .tc main_arg20) := Rv17_keep m c main_arg20 (by decide)
    _ = Rv15 m c (Proc.devRef .tc main_arg20) := Rv16_keep m c main_arg20 (by decide)
    _ = Rv14 m c (Proc.devRef .tc main_arg20) := Rv15_keep m c main_arg20 (by decide)
    _ = Rv13 m c (Proc.devRef .tc main_arg20) := Rv14_keep m c main_arg20 (by decide)
    _ = Rv12 m c (Proc.devRef .tc main_arg20) := Rv13_keep m c main_arg20 (by decide)
    _ = Rv11 m c (Proc.devRef .tc main_arg20) := Rv12_keep m c main_arg20 (by decide)
    _ = Rv10 m c (Proc.devRef .tc main_arg20) := Rv11_keep m c main_arg20 (by decide)
    _ = Rv9 m c (Proc.devRef .tc main_arg20) := Rv10_keep m c main_arg20 (by decide)
    _ = Rv8 m c (Proc.devRef .tc main_arg20) := Rv9_keep m c main_arg20 (by decide)
    _ = Rv7 m c (Proc.devRef .tc main_arg20) := Rv8_keep m c main_arg20 (by decide)
    _ = Rv6 m c (Proc.devRef .tc main_arg20) := Rv7_keep m c main_arg20 (by decide)
    _ = Rv5 m c (Proc.devRef .tc main_arg20) := Rv6_keep m c main_arg20 (by decide)
    _ = Rv4 m c (Proc.devRef .tc main_arg20) := Rv5_keep m c main_arg20 (by decide)
    _ = Rv3 m c (Proc.devRef .tc main_arg20) := Rv4_keep m c main_arg20 (by decide)
    _ = Rv2 m c (Proc.devRef .tc main_arg20) := Rv3_keep m c main_arg20 (by decide)
    _ = Rv1 m c (Proc.devRef .tc main_arg20) := Rv2_keep m c main_arg20 (by decide)
    _ = Rv0 m c (Proc.devRef .tc main_arg20) := Rv1_keep m c main_arg20 (by decide)
    _ = m ((c.tc : Thread nD τ).loc main_arg20) := rfl

end Cert.ReferenceIdeal.Hand

end
-- ==== Proof.KI.Keeps.lean ====
/-
  A kernel region changes one array only: its output window's. Every other reference holds after the region what it held
  before it — an input window's array because the pipeline leaves it as entered, any other reference because no window stages it.
-/
import proofs.«151172_j14164802142730_2_alg».proof.Proof.KI.Folds

set_option maxRecDepth 16384

noncomputable section

namespace Cert.KernelIdeal.Frame

open Cert.KernelIdeal Cert.KernelIdeal.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

/-- Region 0 writes main_v14 only. -/
theorem W2_keep (c : Dev nD) (r : Ref sig .tc) (h : r ≠ main_v14) : W2 m ρ c (Proc.devRef .tc r) = W1 m ρ c (Proc.devRef .tc r) := by
  by_cases hr : ∃ w, Pipeline.arrRef spec0 w = r
  · obtain ⟨w, rfl⟩ := hr
    rw [W2_arr]
    have hw : (cfg0.win w).isOut = false := by
      revert h; revert w; decide
    exact ((dat0 (V1 m ρ) c).arrAt_in w hw _).trans (A_eq0 (V1 m ρ) c w)
  · exact W2_of_ne m ρ c r fun w e => hr ⟨w, e⟩
/-- Region 0's output array holds what the pipeline's write-backs leave. -/
theorem W2_out (c : Dev nD) : W2 m ρ c (Proc.devRef .tc main_v14) = (dat0 (V1 m ρ) c).arrAt 3 cfg0.N :=
  W2_arr m ρ c 3

/-- Region 1 writes main_v15 only. -/
theorem W3_keep (c : Dev nD) (r : Ref sig .tc) (h : r ≠ main_v15) : W3 m ρ c (Proc.devRef .tc r) = W2 m ρ c (Proc.devRef .tc r) := by
  by_cases hr : ∃ w, Pipeline.arrRef spec1 w = r
  · obtain ⟨w, rfl⟩ := hr
    rw [W3_arr]
    have hw : (cfg1.win w).isOut = false := by
      revert h; revert w; decide
    exact ((dat1 (V2 m ρ) c).arrAt_in w hw _).trans (A_eq1 (V2 m ρ) c w)
  · exact W3_of_ne m ρ c r fun w e => hr ⟨w, e⟩
/-- Region 1's output array holds what the pipeline's write-backs leave. -/
theorem W3_out (c : Dev nD) : W3 m ρ c (Proc.devRef .tc main_v15) = (dat1 (V2 m ρ) c).arrAt 3 cfg1.N :=
  W3_arr m ρ c 3

/-- Region 2 writes main_v91 only. -/
theorem W5_keep (c : Dev nD) (r : Ref sig .tc) (h : r ≠ main_v91) : W5 m ρ c (Proc.devRef .tc r) = W4 m ρ c (Proc.devRef .tc r) := by
  by_cases hr : ∃ w, Pipeline.arrRef spec2 w = r
  · obtain ⟨w, rfl⟩ := hr
    rw [W5_arr]
    have hw : (cfg2.win w).isOut = false := by
      revert h; revert w; decide
    exact ((dat2 (V4 m ρ) c).arrAt_in w hw _).trans (A_eq2 (V4 m ρ) c w)
  · exact W5_of_ne m ρ c r fun w e => hr ⟨w, e⟩
/-- Region 2's output array holds what the pipeline's write-backs leave. -/
theorem W5_out (c : Dev nD) : W5 m ρ c (Proc.devRef .tc main_v91) = (dat2 (V4 m ρ) c).arrAt 5 cfg2.N :=
  W5_arr m ρ c 5

/-- Region 3 writes main_v104 only. -/
theorem W7_keep (c : Dev nD) (r : Ref sig .tc) (h : r ≠ main_v104) : W7 m ρ c (Proc.devRef .tc r) = W6 m ρ c (Proc.devRef .tc r) := by
  by_cases hr : ∃ w, Pipeline.arrRef spec3 w = r
  · obtain ⟨w, rfl⟩ := hr
    rw [W7_arr]
    have hw : (cfg3.win w).isOut = false := by
      revert h; revert w; decide
    exact ((dat3 (V6 m ρ) c).arrAt_in w hw _).trans (A_eq3 (V6 m ρ) c w)
  · exact W7_of_ne m ρ c r fun w e => hr ⟨w, e⟩
/-- Region 3's output array holds what the pipeline's write-backs leave. -/
theorem W7_out (c : Dev nD) : W7 m ρ c (Proc.devRef .tc main_v104) = (dat3 (V6 m ρ) c).arrAt 9 cfg3.N :=
  W7_arr m ρ c 9

/-- Region 4 writes main_v117 only. -/
theorem W13_keep (c : Dev nD) (r : Ref sig .tc) (h : r ≠ main_v117) : W13 m ρ c (Proc.devRef .tc r) = W12 m ρ c (Proc.devRef .tc r) := by
  by_cases hr : ∃ w, Pipeline.arrRef spec4 w = r
  · obtain ⟨w, rfl⟩ := hr
    rw [W13_arr]
    have hw : (cfg4.win w).isOut = false := by
      revert h; revert w; decide
    exact ((dat4 (V12 m ρ) c).arrAt_in w hw _).trans (A_eq4 (V12 m ρ) c w)
  · exact W13_of_ne m ρ c r fun w e => hr ⟨w, e⟩
/-- Region 4's output array holds what the pipeline's write-backs leave. -/
theorem W13_out (c : Dev nD) : W13 m ρ c (Proc.devRef .tc main_v117) = (dat4 (V12 m ρ) c).arrAt 5 cfg4.N :=
  W13_arr m ρ c 5

/-- Region 5 writes main_v122 only. -/
theorem W15_keep (c : Dev nD) (r : Ref sig .tc) (h : r ≠ main_v122) : W15 m ρ c (Proc.devRef .tc r) = W14 m ρ c (Proc.devRef .tc r) := by
  by_cases hr : ∃ w, Pipeline.arrRef spec5 w = r
  · obtain ⟨w, rfl⟩ := hr
    rw [W15_arr]
    have hw : (cfg5.win w).isOut = false := by
      revert h; revert w; decide
    exact ((dat5 (V14 m ρ) c).arrAt_in w hw _).trans (A_eq5 (V14 m ρ) c w)
  · exact W15_of_ne m ρ c r fun w e => hr ⟨w, e⟩
/-- Region 5's output array holds what the pipeline's write-backs leave. -/
theorem W15_out (c : Dev nD) : W15 m ρ c (Proc.devRef .tc main_v122) = (dat5 (V14 m ρ) c).arrAt 5 cfg5.N :=
  W15_arr m ρ c 5

/-- Region 6 writes main_v198 only. -/
theorem W17_keep (c : Dev nD) (r : Ref sig .tc) (h : r ≠ main_v198) : W17 m ρ c (Proc.devRef .tc r) = W16 m ρ c (Proc.devRef .tc r) := by
  by_cases hr : ∃ w, Pipeline.arrRef spec6 w = r
  · obtain ⟨w, rfl⟩ := hr
    rw [W17_arr]
    have hw : (cfg6.win w).isOut = false := by
      revert h; revert w; decide
    exact ((dat6 (V16 m ρ) c).arrAt_in w hw _).trans (A_eq6 (V16 m ρ) c w)
  · exact W17_of_ne m ρ c r fun w e => hr ⟨w, e⟩
/-- Region 6's output array holds what the pipeline's write-backs leave. -/
theorem W17_out (c : Dev nD) : W17 m ρ c (Proc.devRef .tc main_v198) = (dat6 (V16 m ρ) c).arrAt 5 cfg6.N :=
  W17_arr m ρ c 5

/-- Region 7 writes main_v211 only. -/
theorem W19_keep (c : Dev nD) (r : Ref sig .tc) (h : r ≠ main_v211) : W19 m ρ c (Proc.devRef .tc r) = W18 m ρ c (Proc.devRef .tc r) := by
  by_cases hr : ∃ w, Pipeline.arrRef spec7 w = r
  · obtain ⟨w, rfl⟩ := hr
    rw [W19_arr]
    have hw : (cfg7.win w).isOut = false := by
      revert h; revert w; decide
    exact ((dat7 (V18 m ρ) c).arrAt_in w hw _).trans (A_eq7 (V18 m ρ) c w)
  · exact W19_of_ne m ρ c r fun w e => hr ⟨w, e⟩
/-- Region 7's output array holds what the pipeline's write-backs leave. -/
theorem W19_out (c : Dev nD) : W19 m ρ c (Proc.devRef .tc main_v211) = (dat7 (V18 m ρ) c).arrAt 9 cfg7.N :=
  W19_arr m ρ c 9

/-- Region 8 writes main_v224 only. -/
theorem W25_keep (c : Dev nD) (r : Ref sig .tc) (h : r ≠ main_v224) : W25 m ρ c (Proc.devRef .tc r) = W24 m ρ c (Proc.devRef .tc r) := by
  by_cases hr : ∃ w, Pipeline.arrRef spec8 w = r
  · obtain ⟨w, rfl⟩ := hr
    rw [W25_arr]
    have hw : (cfg8.win w).isOut = false := by
      revert h; revert w; decide
    exact ((dat8 (V24 m ρ) c).arrAt_in w hw _).trans (A_eq8 (V24 m ρ) c w)
  · exact W25_of_ne m ρ c r fun w e => hr ⟨w, e⟩
/-- Region 8's output array holds what the pipeline's write-backs leave. -/
theorem W25_out (c : Dev nD) : W25 m ρ c (Proc.devRef .tc main_v224) = (dat8 (V24 m ρ) c).arrAt 5 cfg8.N :=
  W25_arr m ρ c 5

/-- Region 9 writes main_v229 only. -/
theorem W27_keep (c : Dev nD) (r : Ref sig .tc) (h : r ≠ main_v229) : W27 m ρ c (Proc.devRef .tc r) = W26 m ρ c (Proc.devRef .tc r) := by
  by_cases hr : ∃ w, Pipeline.arrRef spec9 w = r
  · obtain ⟨w, rfl⟩ := hr
    rw [W27_arr]
    have hw : (cfg9.win w).isOut = false := by
      revert h; revert w; decide
    exact ((dat9 (V26 m ρ) c).arrAt_in w hw _).trans (A_eq9 (V26 m ρ) c w)
  · exact W27_of_ne m ρ c r fun w e => hr ⟨w, e⟩
/-- Region 9's output array holds what the pipeline's write-backs leave. -/
theorem W27_out (c : Dev nD) : W27 m ρ c (Proc.devRef .tc main_v229) = (dat9 (V26 m ρ) c).arrAt 5 cfg9.N :=
  W27_arr m ρ c 5

/-- Region 10 writes main_v248 only. -/
theorem W29_keep (c : Dev nD) (r : Ref sig .tc) (h : r ≠ main_v248) : W29 m ρ c (Proc.devRef .tc r) = W28 m ρ c (Proc.devRef .tc r) := by
  by_cases hr : ∃ w, Pipeline.arrRef spec10 w = r
  · obtain ⟨w, rfl⟩ := hr
    rw [W29_arr]
    have hw : (cfg10.win w).isOut = false := by
      revert h; revert w; decide
    exact ((dat10 (V28 m ρ) c).arrAt_in w hw _).trans (A_eq10 (V28 m ρ) c w)
  · exact W29_of_ne m ρ c r fun w e => hr ⟨w, e⟩
/-- Region 10's output array holds what the pipeline's write-backs leave. -/
theorem W29_out (c : Dev nD) : W29 m ρ c (Proc.devRef .tc main_v248) = (dat10 (V28 m ρ) c).arrAt 2 cfg10.N :=
  W29_arr m ρ c 2

/-- Region 11 writes main_v277 only. -/
theorem W31_keep (c : Dev nD) (r : Ref sig .tc) (h : r ≠ main_v277) : W31 m ρ c (Proc.devRef .tc r) = W30 m ρ c (Proc.devRef .tc r) := by
  by_cases hr : ∃ w, Pipeline.arrRef spec11 w = r
  · obtain ⟨w, rfl⟩ := hr
    rw [W31_arr]
    have hw : (cfg11.win w).isOut = false := by
      revert h; revert w; decide
    exact ((dat11 (V30 m ρ) c).arrAt_in w hw _).trans (A_eq11 (V30 m ρ) c w)
  · exact W31_of_ne m ρ c r fun w e => hr ⟨w, e⟩
/-- Region 11's output array holds what the pipeline's write-backs leave. -/
theorem W31_out (c : Dev nD) : W31 m ρ c (Proc.devRef .tc main_v277) = (dat11 (V30 m ρ) c).arrAt 2 cfg11.N :=
  W31_arr m ρ c 2

/-- Region 12 writes main_v306 only. -/
theorem W33_keep (c : Dev nD) (r : Ref sig .tc) (h : r ≠ main_v306) : W33 m ρ c (Proc.devRef .tc r) = W32 m ρ c (Proc.devRef .tc r) := by
  by_cases hr : ∃ w, Pipeline.arrRef spec12 w = r
  · obtain ⟨w, rfl⟩ := hr
    rw [W33_arr]
    have hw : (cfg12.win w).isOut = false := by
      revert h; revert w; decide
    exact ((dat12 (V32 m ρ) c).arrAt_in w hw _).trans (A_eq12 (V32 m ρ) c w)
  · exact W33_of_ne m ρ c r fun w e => hr ⟨w, e⟩
/-- Region 12's output array holds what the pipeline's write-backs leave. -/
theorem W33_out (c : Dev nD) : W33 m ρ c (Proc.devRef .tc main_v306) = (dat12 (V32 m ρ) c).arrAt 2 cfg12.N :=
  W33_arr m ρ c 2

/-! ## Each window's array, by name -/
theorem arrRef0_0 : Pipeline.arrRef spec0 0 = main_v6 := rfl
theorem arrRef0_1 : Pipeline.arrRef spec0 1 = main_arg2 := rfl
theorem arrRef0_2 : Pipeline.arrRef spec0 2 = main_arg3 := rfl
theorem arrRef0_3 : Pipeline.arrRef spec0 3 = main_v14 := rfl
theorem arrRef1_0 : Pipeline.arrRef spec1 0 = main_v13 := rfl
theorem arrRef1_1 : Pipeline.arrRef spec1 1 = main_arg4 := rfl
theorem arrRef1_2 : Pipeline.arrRef spec1 2 = main_arg5 := rfl
theorem arrRef1_3 : Pipeline.arrRef spec1 3 = main_v15 := rfl
theorem arrRef2_0 : Pipeline.arrRef spec2 0 = main_v15 := rfl
theorem arrRef2_1 : Pipeline.arrRef spec2 1 = main_v38 := rfl
theorem arrRef2_2 : Pipeline.arrRef spec2 2 = main_v86 := rfl
theorem arrRef2_3 : Pipeline.arrRef spec2 3 = main_v88 := rfl
theorem arrRef2_4 : Pipeline.arrRef spec2 4 = main_v90 := rfl
theorem arrRef2_5 : Pipeline.arrRef spec2 5 = main_v91 := rfl
theorem arrRef3_0 : Pipeline.arrRef spec3 0 = main_v14 := rfl
theorem arrRef3_1 : Pipeline.arrRef spec3 1 = main_v61 := rfl
theorem arrRef3_2 : Pipeline.arrRef spec3 2 = main_v84 := rfl
theorem arrRef3_3 : Pipeline.arrRef spec3 3 = main_v93 := rfl
theorem arrRef3_4 : Pipeline.arrRef spec3 4 = main_v95 := rfl
theorem arrRef3_5 : Pipeline.arrRef spec3 5 = main_v97 := rfl
theorem arrRef3_6 : Pipeline.arrRef spec3 6 = main_v99 := rfl
theorem arrRef3_7 : Pipeline.arrRef spec3 7 = main_v101 := rfl
theorem arrRef3_8 : Pipeline.arrRef spec3 8 = main_v103 := rfl
theorem arrRef3_9 : Pipeline.arrRef spec3 9 = main_v104 := rfl
theorem arrRef4_0 : Pipeline.arrRef spec4 0 = main_v104 := rfl
theorem arrRef4_1 : Pipeline.arrRef spec4 1 = main_v114 := rfl
theorem arrRef4_2 : Pipeline.arrRef spec4 2 = main_v116 := rfl
theorem arrRef4_3 : Pipeline.arrRef spec4 3 = main_v107 := rfl
theorem arrRef4_4 : Pipeline.arrRef spec4 4 = main_v108 := rfl
theorem arrRef4_5 : Pipeline.arrRef spec4 5 = main_v117 := rfl
theorem arrRef5_0 : Pipeline.arrRef spec5 0 = main_v91 := rfl
theorem arrRef5_1 : Pipeline.arrRef spec5 1 = main_v119 := rfl
theorem arrRef5_2 : Pipeline.arrRef spec5 2 = main_v121 := rfl
theorem arrRef5_3 : Pipeline.arrRef spec5 3 = main_v111 := rfl
theorem arrRef5_4 : Pipeline.arrRef spec5 4 = main_v112 := rfl
theorem arrRef5_5 : Pipeline.arrRef spec5 5 = main_v122 := rfl
theorem arrRef6_0 : Pipeline.arrRef spec6 0 = main_v122 := rfl
theorem arrRef6_1 : Pipeline.arrRef spec6 1 = main_v145 := rfl
theorem arrRef6_2 : Pipeline.arrRef spec6 2 = main_v193 := rfl
theorem arrRef6_3 : Pipeline.arrRef spec6 3 = main_v195 := rfl
theorem arrRef6_4 : Pipeline.arrRef spec6 4 = main_v197 := rfl
theorem arrRef6_5 : Pipeline.arrRef spec6 5 = main_v198 := rfl
theorem arrRef7_0 : Pipeline.arrRef spec7 0 = main_v117 := rfl
theorem arrRef7_1 : Pipeline.arrRef spec7 1 = main_v168 := rfl
theorem arrRef7_2 : Pipeline.arrRef spec7 2 = main_v191 := rfl
theorem arrRef7_3 : Pipeline.arrRef spec7 3 = main_v200 := rfl
theorem arrRef7_4 : Pipeline.arrRef spec7 4 = main_v202 := rfl
theorem arrRef7_5 : Pipeline.arrRef spec7 5 = main_v204 := rfl
theorem arrRef7_6 : Pipeline.arrRef spec7 6 = main_v206 := rfl
theorem arrRef7_7 : Pipeline.arrRef spec7 7 = main_v208 := rfl
theorem arrRef7_8 : Pipeline.arrRef spec7 8 = main_v210 := rfl
theorem arrRef7_9 : Pipeline.arrRef spec7 9 = main_v211 := rfl
theorem arrRef8_0 : Pipeline.arrRef spec8 0 = main_v211 := rfl
theorem arrRef8_1 : Pipeline.arrRef spec8 1 = main_v221 := rfl
theorem arrRef8_2 : Pipeline.arrRef spec8 2 = main_v223 := rfl
theorem arrRef8_3 : Pipeline.arrRef spec8 3 = main_v214 := rfl
theorem arrRef8_4 : Pipeline.arrRef spec8 4 = main_v215 := rfl
theorem arrRef8_5 : Pipeline.arrRef spec8 5 = main_v224 := rfl
theorem arrRef9_0 : Pipeline.arrRef spec9 0 = main_v198 := rfl
theorem arrRef9_1 : Pipeline.arrRef spec9 1 = main_v226 := rfl
theorem arrRef9_2 : Pipeline.arrRef spec9 2 = main_v228 := rfl
theorem arrRef9_3 : Pipeline.arrRef spec9 3 = main_v218 := rfl
theorem arrRef9_4 : Pipeline.arrRef spec9 4 = main_v219 := rfl
theorem arrRef9_5 : Pipeline.arrRef spec9 5 = main_v229 := rfl
theorem arrRef10_0 : Pipeline.arrRef spec10 0 = main_v238 := rfl
theorem arrRef10_1 : Pipeline.arrRef spec10 1 = main_v247 := rfl
theorem arrRef10_2 : Pipeline.arrRef spec10 2 = main_v248 := rfl
theorem arrRef11_0 : Pipeline.arrRef spec11 0 = main_v267 := rfl
theorem arrRef11_1 : Pipeline.arrRef spec11 1 = main_v276 := rfl
theorem arrRef11_2 : Pipeline.arrRef spec11 2 = main_v277 := rfl
theorem arrRef12_0 : Pipeline.arrRef spec12 0 = main_v296 := rfl
theorem arrRef12_1 : Pipeline.arrRef spec12 1 = main_v305 := rfl
theorem arrRef12_2 : Pipeline.arrRef spec12 2 = main_v306 := rfl

end Cert.KernelIdeal.Frame

end
-- ==== Proof.Bridge.Base.lean ====
/-
  The two idealized programs side by side. The kernel program's buffers at its 35 boundaries (`W0 … W34`) and the reference's
  at its 35 (`Rv0 … Rv34`, its operations cut where the stages end) are compared stage by stage: a stage's outputs agree when
  its inputs agree, the same host operations being applied on both sides, or the kernel region's array being the reference's
  composition of its input arrays. This module fixes the hypothesis: at the first boundary each of the 21 argument arrays is
  the same on both sides — one equation per argument number, so that a stage cites only the arguments it reads.
-/
import proofs.«151172_j14164802142730_2_alg».proof.Proof.KI.Keeps
import proofs.«151172_j14164802142730_2_alg».proof.Proof.Ref.Folds
import Idealize.ShloMosaic.PureOps.Ideal

set_option maxRecDepth 16384

noncomputable section

namespace Cert.Bridge

open Idealize.ShloMosaic Idealize.ShloMosaic.TcCoe Idealize.SL.Sem Idealize.ShloMosaic.StableHlo
open Cert.KernelIdeal.Frame Cert.ReferenceIdeal.Hand

/-- Argument `n` is the same array on both sides at the first boundary (for `n` past the last argument: nothing). -/
@[reducible] def ArgPair (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Nat → Prop
  | 0 => ∀ (ρ : Dev Cert.KernelIdeal.nD → PrngReg) (c : Dev Cert.KernelIdeal.nD), Rv0 m' c (Proc.devRef .tc Cert.ReferenceIdeal.main_arg0) = W0 m ρ c (Proc.devRef .tc Cert.KernelIdeal.main_arg0)
  | 1 => ∀ (ρ : Dev Cert.KernelIdeal.nD → PrngReg) (c : Dev Cert.KernelIdeal.nD), Rv0 m' c (Proc.devRef .tc Cert.ReferenceIdeal.main_arg1) = W0 m ρ c (Proc.devRef .tc Cert.KernelIdeal.main_arg1)
  | 2 => ∀ (ρ : Dev Cert.KernelIdeal.nD → PrngReg) (c : Dev Cert.KernelIdeal.nD), Rv0 m' c (Proc.devRef .tc Cert.ReferenceIdeal.main_arg2) = W0 m ρ c (Proc.devRef .tc Cert.KernelIdeal.main_arg2)
  | 3 => ∀ (ρ : Dev Cert.KernelIdeal.nD → PrngReg) (c : Dev Cert.KernelIdeal.nD), Rv0 m' c (Proc.devRef .tc Cert.ReferenceIdeal.main_arg3) = W0 m ρ c (Proc.devRef .tc Cert.KernelIdeal.main_arg3)
  | 4 => ∀ (ρ : Dev Cert.KernelIdeal.nD → PrngReg) (c : Dev Cert.KernelIdeal.nD), Rv0 m' c (Proc.devRef .tc Cert.ReferenceIdeal.main_arg4) = W0 m ρ c (Proc.devRef .tc Cert.KernelIdeal.main_arg4)
  | 5 => ∀ (ρ : Dev Cert.KernelIdeal.nD → PrngReg) (c : Dev Cert.KernelIdeal.nD), Rv0 m' c (Proc.devRef .tc Cert.ReferenceIdeal.main_arg5) = W0 m ρ c (Proc.devRef .tc Cert.KernelIdeal.main_arg5)
  | 6 => ∀ (ρ : Dev Cert.KernelIdeal.nD → PrngReg) (c : Dev Cert.KernelIdeal.nD), Rv0 m' c (Proc.devRef .tc Cert.ReferenceIdeal.main_arg6) = W0 m ρ c (Proc.devRef .tc Cert.KernelIdeal.main_arg6)
  | 7 => ∀ (ρ : Dev Cert.KernelIdeal.nD → PrngReg) (c : Dev Cert.KernelIdeal.nD), Rv0 m' c (Proc.devRef .tc Cert.ReferenceIdeal.main_arg7) = W0 m ρ c (Proc.devRef .tc Cert.KernelIdeal.main_arg7)
  | 8 => ∀ (ρ : Dev Cert.KernelIdeal.nD → PrngReg) (c : Dev Cert.KernelIdeal.nD), Rv0 m' c (Proc.devRef .tc Cert.ReferenceIdeal.main_arg8) = W0 m ρ c (Proc.devRef .tc Cert.KernelIdeal.main_arg8)
  | 9 => ∀ (ρ : Dev Cert.KernelIdeal.nD → PrngReg) (c : Dev Cert.KernelIdeal.nD), Rv0 m' c (Proc.devRef .tc Cert.ReferenceIdeal.main_arg9) = W0 m ρ c (Proc.devRef .tc Cert.KernelIdeal.main_arg9)
  | 10 => ∀ (ρ : Dev Cert.KernelIdeal.nD → PrngReg) (c : Dev Cert.KernelIdeal.nD), Rv0 m' c (Proc.devRef .tc Cert.ReferenceIdeal.main_arg10) = W0 m ρ c (Proc.devRef .tc Cert.KernelIdeal.main_arg10)
  | 11 => ∀ (ρ : Dev Cert.KernelIdeal.nD → PrngReg) (c : Dev Cert.KernelIdeal.nD), Rv0 m' c (Proc.devRef .tc Cert.ReferenceIdeal.main_arg11) = W0 m ρ c (Proc.devRef .tc Cert.KernelIdeal.main_arg11)
  | 12 => ∀ (ρ : Dev Cert.KernelIdeal.nD → PrngReg) (c : Dev Cert.KernelIdeal.nD), Rv0 m' c (Proc.devRef .tc Cert.ReferenceIdeal.main_arg12) = W0 m ρ c (Proc.devRef .tc Cert.KernelIdeal.main_arg12)
  | 13 => ∀ (ρ : Dev Cert.KernelIdeal.nD → PrngReg) (c : Dev Cert.KernelIdeal.nD), Rv0 m' c (Proc.devRef .tc Cert.ReferenceIdeal.main_arg13) = W0 m ρ c (Proc.devRef .tc Cert.KernelIdeal.main_arg13)
  | 14 => ∀ (ρ : Dev Cert.KernelIdeal.nD → PrngReg) (c : Dev Cert.KernelIdeal.nD), Rv0 m' c (Proc.devRef .tc Cert.ReferenceIdeal.main_arg14) = W0 m ρ c (Proc.devRef .tc Cert.KernelIdeal.main_arg14)
  | 15 => ∀ (ρ : Dev Cert.KernelIdeal.nD → PrngReg) (c : Dev Cert.KernelIdeal.nD), Rv0 m' c (Proc.devRef .tc Cert.ReferenceIdeal.main_arg15) = W0 m ρ c (Proc.devRef .tc Cert.KernelIdeal.main_arg15)
  | 16 => ∀ (ρ : Dev Cert.KernelIdeal.nD → PrngReg) (c : Dev Cert.KernelIdeal.nD), Rv0 m' c (Proc.devRef .tc Cert.ReferenceIdeal.main_arg16) = W0 m ρ c (Proc.devRef .tc Cert.KernelIdeal.main_arg16)
  | 17 => ∀ (ρ : Dev Cert.KernelIdeal.nD → PrngReg) (c : Dev Cert.KernelIdeal.nD), Rv0 m' c (Proc.devRef .tc Cert.ReferenceIdeal.main_arg17) = W0 m ρ c (Proc.devRef .tc Cert.KernelIdeal.main_arg17)
  | 18 => ∀ (ρ : Dev Cert.KernelIdeal.nD → PrngReg) (c : Dev Cert.KernelIdeal.nD), Rv0 m' c (Proc.devRef .tc Cert.ReferenceIdeal.main_arg18) = W0 m ρ c (Proc.devRef .tc Cert.KernelIdeal.main_arg18)
  | 19 => ∀ (ρ : Dev Cert.KernelIdeal.nD → PrngReg) (c : Dev Cert.KernelIdeal.nD), Rv0 m' c (Proc.devRef .tc Cert.ReferenceIdeal.main_arg19) = W0 m ρ c (Proc.devRef .tc Cert.KernelIdeal.main_arg19)
  | 20 => ∀ (ρ : Dev Cert.KernelIdeal.nD → PrngReg) (c : Dev Cert.KernelIdeal.nD), Rv0 m' c (Proc.devRef .tc Cert.ReferenceIdeal.main_arg20) = W0 m ρ c (Proc.devRef .tc Cert.KernelIdeal.main_arg20)
  | _ => True

/-- At the first boundary the two programs hold the same argument arrays, on every core. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ n : Nat, ArgPair m m' n

variable {m : (ℓ : Loc Cert.KernelIdeal.nD Cert.KernelIdeal.τ Cert.KernelIdeal.sig) → Buf (Elt Ideal) ℓ} (ρ : Dev Cert.KernelIdeal.nD → PrngReg)
  {m' : (ℓ : Loc Cert.ReferenceIdeal.nD Cert.ReferenceIdeal.τ Cert.ReferenceIdeal.sig) → Buf (Elt Ideal) ℓ}

theorem arg0 (hag : Agree m m') (c : Dev Cert.KernelIdeal.nD) : Rv0 m' c (Proc.devRef .tc Cert.ReferenceIdeal.main_arg0) = W0 m ρ c (Proc.devRef .tc Cert.KernelIdeal.main_arg0) := hag 0 ρ c
theorem arg1 (hag : Agree m m') (c : Dev Cert.KernelIdeal.nD) : Rv0 m' c (Proc.devRef .tc Cert.ReferenceIdeal.main_arg1) = W0 m ρ c (Proc.devRef .tc Cert.KernelIdeal.main_arg1) := hag 1 ρ c
theorem arg2 (hag : Agree m m') (c : Dev Cert.KernelIdeal.nD) : Rv0 m' c (Proc.devRef .tc Cert.ReferenceIdeal.main_arg2) = W0 m ρ c (Proc.devRef .tc Cert.KernelIdeal.main_arg2) := hag 2 ρ c
theorem arg3 (hag : Agree m m') (c : Dev Cert.KernelIdeal.nD) : Rv0 m' c (Proc.devRef .tc Cert.ReferenceIdeal.main_arg3) = W0 m ρ c (Proc.devRef .tc Cert.KernelIdeal.main_arg3) := hag 3 ρ c
theorem arg4 (hag : Agree m m') (c : Dev Cert.KernelIdeal.nD) : Rv0 m' c (Proc.devRef .tc Cert.ReferenceIdeal.main_arg4) = W0 m ρ c (Proc.devRef .tc Cert.KernelIdeal.main_arg4) := hag 4 ρ c
theorem arg5 (hag : Agree m m') (c : Dev Cert.KernelIdeal.nD) : Rv0 m' c (Proc.devRef .tc Cert.ReferenceIdeal.main_arg5) = W0 m ρ c (Proc.devRef .tc Cert.KernelIdeal.main_arg5) := hag 5 ρ c
theorem arg6 (hag : Agree m m') (c : Dev Cert.KernelIdeal.nD) : Rv0 m' c (Proc.devRef .tc Cert.ReferenceIdeal.main_arg6) = W0 m ρ c (Proc.devRef .tc Cert.KernelIdeal.main_arg6) := hag 6 ρ c
theorem arg7 (hag : Agree m m') (c : Dev Cert.KernelIdeal.nD) : Rv0 m' c (Proc.devRef .tc Cert.ReferenceIdeal.main_arg7) = W0 m ρ c (Proc.devRef .tc Cert.KernelIdeal.main_arg7) := hag 7 ρ c
theorem arg8 (hag : Agree m m') (c : Dev Cert.KernelIdeal.nD) : Rv0 m' c (Proc.devRef .tc Cert.ReferenceIdeal.main_arg8) = W0 m ρ c (Proc.devRef .tc Cert.KernelIdeal.main_arg8) := hag 8 ρ c
theorem arg9 (hag : Agree m m') (c : Dev Cert.KernelIdeal.nD) : Rv0 m' c (Proc.devRef .tc Cert.ReferenceIdeal.main_arg9) = W0 m ρ c (Proc.devRef .tc Cert.KernelIdeal.main_arg9) := hag 9 ρ c
theorem arg10 (hag : Agree m m') (c : Dev Cert.KernelIdeal.nD) : Rv0 m' c (Proc.devRef .tc Cert.ReferenceIdeal.main_arg10) = W0 m ρ c (Proc.devRef .tc Cert.KernelIdeal.main_arg10) := hag 10 ρ c
theorem arg11 (hag : Agree m m') (c : Dev Cert.KernelIdeal.nD) : Rv0 m' c (Proc.devRef .tc Cert.ReferenceIdeal.main_arg11) = W0 m ρ c (Proc.devRef .tc Cert.KernelIdeal.main_arg11) := hag 11 ρ c
theorem arg12 (hag : Agree m m') (c : Dev Cert.KernelIdeal.nD) : Rv0 m' c (Proc.devRef .tc Cert.ReferenceIdeal.main_arg12) = W0 m ρ c (Proc.devRef .tc Cert.KernelIdeal.main_arg12) := hag 12 ρ c
theorem arg13 (hag : Agree m m') (c : Dev Cert.KernelIdeal.nD) : Rv0 m' c (Proc.devRef .tc Cert.ReferenceIdeal.main_arg13) = W0 m ρ c (Proc.devRef .tc Cert.KernelIdeal.main_arg13) := hag 13 ρ c
theorem arg14 (hag : Agree m m') (c : Dev Cert.KernelIdeal.nD) : Rv0 m' c (Proc.devRef .tc Cert.ReferenceIdeal.main_arg14) = W0 m ρ c (Proc.devRef .tc Cert.KernelIdeal.main_arg14) := hag 14 ρ c
theorem arg15 (hag : Agree m m') (c : Dev Cert.KernelIdeal.nD) : Rv0 m' c (Proc.devRef .tc Cert.ReferenceIdeal.main_arg15) = W0 m ρ c (Proc.devRef .tc Cert.KernelIdeal.main_arg15) := hag 15 ρ c
theorem arg16 (hag : Agree m m') (c : Dev Cert.KernelIdeal.nD) : Rv0 m' c (Proc.devRef .tc Cert.ReferenceIdeal.main_arg16) = W0 m ρ c (Proc.devRef .tc Cert.KernelIdeal.main_arg16) := hag 16 ρ c
theorem arg17 (hag : Agree m m') (c : Dev Cert.KernelIdeal.nD) : Rv0 m' c (Proc.devRef .tc Cert.ReferenceIdeal.main_arg17) = W0 m ρ c (Proc.devRef .tc Cert.KernelIdeal.main_arg17) := hag 17 ρ c
theorem arg18 (hag : Agree m m') (c : Dev Cert.KernelIdeal.nD) : Rv0 m' c (Proc.devRef .tc Cert.ReferenceIdeal.main_arg18) = W0 m ρ c (Proc.devRef .tc Cert.KernelIdeal.main_arg18) := hag 18 ρ c
theorem arg19 (hag : Agree m m') (c : Dev Cert.KernelIdeal.nD) : Rv0 m' c (Proc.devRef .tc Cert.ReferenceIdeal.main_arg19) = W0 m ρ c (Proc.devRef .tc Cert.KernelIdeal.main_arg19) := hag 19 ρ c
theorem arg20 (hag : Agree m m') (c : Dev Cert.KernelIdeal.nD) : Rv0 m' c (Proc.devRef .tc Cert.ReferenceIdeal.main_arg20) = W0 m ρ c (Proc.devRef .tc Cert.KernelIdeal.main_arg20) := hag 20 ρ c

end Cert.Bridge

end
-- ==== Proof.Val.MlpRef.lean ====
/-
  The encoder stage of the reference program (two layers, each a linear map followed by a LeakyReLU), as one function of
  whole arrays, and what it is at one entry.

  `refMlp x w b` is the reference's own chain of host operations for `mlp(x, w, b)`, in the order and nesting the program
  prints them, at any float instance: per layer `l` the slice `w[l]` reshaped to a 64×64 matrix, the product `x · w[l]`,
  the slice `b[l]` reshaped to a vector and laid along every row, their sum `h`, and `where(h ≥ 0, h, 0.01 · h)` with the
  slope's own f32 word.

  At the ideal values every operation is exact, so entry (r, q) of the result depends on row r of `x` alone: with
  `leaky h = if h ≥ 0 then h else slope · h` and `layerAt X W B q = leaky (∑ c, X c · W c q + B q)`, it is
  `layerAt (fun c => layerAt (x r ·) w[0] b[0] c) w[1] b[1] q` (`mlpRow`, and `mlpG` as a function of the index). The sums
  run over the 64 contracted coordinates in the program's own order; no law of arithmetic is used.
-/
import proofs.«151172_j14164802142730_2_alg».proof.Proof.Gen.ReferenceIdeal
import Idealize.ShloMosaic.Lib.Pipeline.Value
import Idealize.ShloMosaic.Lib.ValueIdx
import Idealize.ShloMosaic.Lib.KernelVsHost
import Idealize.ShloMosaic.Lib.StackMember
import Idealize.ShloMosaic.PureOps.Ideal.Laws

noncomputable section

namespace Cert.Val

open Idealize.ShloMosaic Idealize.ShloMosaic.ValueIdx
open Cert.ReferenceIdeal Cert.ReferenceIdeal.Gen

/-! ## The reference's composition, at any float instance -/

/-- `mlp(x, w, b)` as the reference program computes it: its host operations in their printed order, each applied to
    the values the earlier ones produced. -/
def refMlp {F : FTy → Type} [FloatOps F] (x : FVec F S200000x64 .f32) (w : FVec F S2x64x64 .f32) (b : FVec F S2x64 .f32) :
    FVec F S200000x64 .f32 :=
  have v14 : FVec F S1x64x64 .f32 := extractStridedSlice S1x64x64 ![0, 0, 0] w slices_S2x64x64_S1x64x64_0_0_0
  have v15 : FVec F S64x64 .f32 := shapeCast S64x64 v14 shapeCasts_S1x64x64_S64x64
  have v16 : FVec F S200000x64 .f32 := Host.dotGeneral dot_S200000x64_S64x64_S200000x64_1_0_0_1_n_n none x v15
  have v17 : FVec F S1x64 .f32 := extractStridedSlice S1x64 ![0, 0] b slices_S2x64_S1x64_0_0
  have v18 : FVec F S64 .f32 := shapeCast S64 v17 shapeCasts_S1x64_S64
  have v19 : FVec F S1x64 .f32 := broadcastInDim S1x64 ![1] bcast_S64_S1x64_1 v18
  have v20 : FVec F S200000x64 .f32 := broadcastInDim S200000x64 ![0, 1] bcast_S1x64_S200000x64_0_1 v19
  have v21 : FVec F S200000x64 .f32 := addf v16 v20
  have cst : FVec F S_ .f32 := constant S_ .f32 0x00000000#32
  have v22 : FVec F S200000x64 .f32 := broadcastInDim S200000x64 ![] bcast_S_S200000x64 cst
  have v23 : IVec S200000x64 1 := cmpf .oge v21 v22
  have cst_3 : FVec F S_ .f32 := constant S_ .f32 0x3C23D70A#32
  have v24 : FVec F S200000x64 .f32 := broadcastInDim S200000x64 ![] bcast_S_S200000x64 cst_3
  have v25 : FVec F S200000x64 .f32 := mulf v24 v21
  have v26 : FVec F S200000x64 .f32 := select v23 v21 v25
  have v27 : FVec F S1x64x64 .f32 := extractStridedSlice S1x64x64 ![1, 0, 0] w slices_S2x64x64_S1x64x64_1_0_0
  have v28 : FVec F S64x64 .f32 := shapeCast S64x64 v27 shapeCasts_S1x64x64_S64x64
  have v29 : FVec F S200000x64 .f32 := Host.dotGeneral dot_S200000x64_S64x64_S200000x64_1_0_0_1_n_n none v26 v28
  have v30 : FVec F S1x64 .f32 := extractStridedSlice S1x64 ![1, 0] b slices_S2x64_S1x64_1_0
  have v31 : FVec F S64 .f32 := shapeCast S64 v30 shapeCasts_S1x64_S64
  have v32 : FVec F S1x64 .f32 := broadcastInDim S1x64 ![1] bcast_S64_S1x64_1 v31
  have v33 : FVec F S200000x64 .f32 := broadcastInDim S200000x64 ![0, 1] bcast_S1x64_S200000x64_0_1 v32
  have v34 : FVec F S200000x64 .f32 := addf v29 v33
  have cst_4 : FVec F S_ .f32 := constant S_ .f32 0x00000000#32
  have v35 : FVec F S200000x64 .f32 := broadcastInDim S200000x64 ![] bcast_S_S200000x64 cst_4
  have v36 : IVec S200000x64 1 := cmpf .oge v34 v35
  have cst_5 : FVec F S_ .f32 := constant S_ .f32 0x3C23D70A#32
  have v37 : FVec F S200000x64 .f32 := broadcastInDim S200000x64 ![] bcast_S_S200000x64 cst_5
  have v38 : FVec F S200000x64 .f32 := mulf v37 v34
  have v39 : FVec F S200000x64 .f32 := select v36 v34 v38
  v39

/-! ## One entry, at the ideal values -/

/-- LeakyReLU of one extended real: the value itself where it is at least zero, the slope's f32 word times it elsewhere. -/
def leaky (h : EReal) : EReal :=
  Scalar.select (Ideal.cmp .oge h (Ideal.ofBits .f32 0x00000000#32)) h (Ideal.ofBits .f32 0x3C23D70A#32 * h)

/-- One layer at one output coordinate `q`: the row `X` against column `q` of `W`, plus the bias, through `leaky`. -/
def layerAt (X : Fin 64 → EReal) (W : Fin 64 → Fin 64 → EReal) (B : Fin 64 → EReal) (q : Fin 64) : EReal :=
  leaky ((∑ c : Fin 64, X c * W c q) + B q)

/-- The two layers on one row, given as its 64 entries `X`, at output coordinate `q`, over the stacked weights and biases. -/
def mlpRow (X : Fin 64 → EReal) (w : (⟨3, ![2, 64, 64]⟩ : Shape).Idx → EReal) (b : (⟨2, ![2, 64]⟩ : Shape).Idx → EReal)
    (q : Fin 64) : EReal :=
  layerAt (fun c => layerAt X (fun a d => w (ix3 (0 : Fin 2) a d)) (fun d => b (ix2 (0 : Fin 2) d)) c)
    (fun a d => w (ix3 (1 : Fin 2) a d)) (fun d => b (ix2 (1 : Fin 2) d)) q

/-- The encoder's result as a function of the index: entry (r, q) is `mlpRow` of row r. -/
def mlpG (x : (⟨2, ![200000, 64]⟩ : Shape).Idx → EReal) (w : (⟨3, ![2, 64, 64]⟩ : Shape).Idx → EReal)
    (b : (⟨2, ![2, 64]⟩ : Shape).Idx → EReal) : (⟨2, ![200000, 64]⟩ : Shape).Idx → EReal :=
  fun i => mlpRow (fun c => x (ix2 (i 0 : Fin 200000) c)) w b (i 1 : Fin 64)

theorem mlpG_apply (x : (⟨2, ![200000, 64]⟩ : Shape).Idx → EReal) (w : (⟨3, ![2, 64, 64]⟩ : Shape).Idx → EReal)
    (b : (⟨2, ![2, 64]⟩ : Shape).Idx → EReal) (r : Fin 200000) (q : Fin 64) :
    mlpG x w b (ix2 r q) = mlpRow (fun c => x (ix2 r c)) w b q := rfl

/-! ## The layout operations of one layer, read at an index -/

section Layout
variable {α : Type}

/-- Layer `l`'s weight matrix: the slice `w[l]` reshaped to 64×64, at (c, q), is `w` at (l, c, q). -/
theorem weight_apply (off : Fin 3 → Nat) (l : Fin 2) (h0 : off 0 = l.val) (h1 : off 1 = 0) (h2 : off 2 = 0)
    (w : (⟨3, ![2, 64, 64]⟩ : Shape).Idx → α) (hs : (⟨3, ![2, 64, 64]⟩ : Shape).Slices off ⟨3, ![1, 64, 64]⟩)
    (hc : (⟨3, ![1, 64, 64]⟩ : Shape).ShapeCasts ⟨2, ![64, 64]⟩) (c q : Fin 64) :
    shapeCast ⟨2, ![64, 64]⟩ (extractStridedSlice ⟨3, ![1, 64, 64]⟩ off w hs) hc (ix2 c q) = w (ix3 l c q) := by
  refine (shapeCast_apply _ hc (ix2 c q) (ix3 (0 : Fin 1) c q) ?_).trans
    (extractStridedSlice_apply off w hs (ix3 (0 : Fin 1) c q) (ix3 l c q) fun a => ?_)
  · rw [Shape.rowMajor_val_three, Shape.rowMajor_val_two]
    show (0 * 64 + c.val) * 64 + q.val = c.val * 64 + q.val
    omega
  · match a with
    | ⟨0, _⟩ => show l.val = off 0 + 0; omega
    | ⟨1, _⟩ => show c.val = off 1 + c.val; omega
    | ⟨2, _⟩ => show q.val = off 2 + q.val; omega

/-- Layer `l`'s bias laid along every row: the slice `b[l]` reshaped to a vector, broadcast to one row and then down
    `m` rows, at (r, q), is `b` at (l, q). -/
theorem bias_apply {m : Nat} (off : Fin 2 → Nat) (l : Fin 2) (h0 : off 0 = l.val) (h1 : off 1 = 0)
    (b : (⟨2, ![2, 64]⟩ : Shape).Idx → α) (hs : (⟨2, ![2, 64]⟩ : Shape).Slices off ⟨2, ![1, 64]⟩)
    (hc : (⟨2, ![1, 64]⟩ : Shape).ShapeCasts ⟨1, ![64]⟩)
    (hb1 : (⟨1, ![64]⟩ : Shape).BroadcastsInDim ⟨2, ![1, 64]⟩ ![1])
    (hb2 : (⟨2, ![1, 64]⟩ : Shape).BroadcastsInDim ⟨2, ![m, 64]⟩ ![0, 1]) (r : Fin m) (q : Fin 64) :
    broadcastInDim ⟨2, ![m, 64]⟩ ![0, 1] hb2
        (broadcastInDim ⟨2, ![1, 64]⟩ ![1] hb1 (shapeCast ⟨1, ![64]⟩ (extractStridedSlice ⟨2, ![1, 64]⟩ off b hs) hc)) (ix2 r q)
      = b (ix2 l q) := by
  refine (broadcastInDim_oneRow_apply hb2 _ r q).trans ?_
  refine (broadcastInDim_apply ![1] hb1 _ (ix2 (0 : Fin 1) q) (ix1 q) fun a => ?_).trans ?_
  · match a with
    | ⟨0, _⟩ => rfl
  refine (shapeCast_apply _ hc (ix1 q) (ix2 (0 : Fin 1) q) ?_).trans
    (extractStridedSlice_apply off b hs (ix2 (0 : Fin 1) q) (ix2 l q) fun a => ?_)
  · rw [Shape.rowMajor_val_two, Shape.rowMajor_val_one]
    show 0 * 64 + q.val = q.val
    omega
  · match a with
    | ⟨0, _⟩ => show l.val = off 0 + 0; omega
    | ⟨1, _⟩ => show q.val = off 1 + q.val; omega

end Layout

/-! ## The reference's composition is `mlpG` -/

/-- The reference's dimension numbers are the plain product's: 200000×64 by 64×64. -/
theorem dotRef_eq : dot_S200000x64_S64x64_S200000x64_1_0_0_1_n_n = DotDims.plain 200000 64 64 := rfl

/-- The host's product of a 200000×64 by a 64×64 matrix at (r, q). -/
theorem dotRef_apply (A : FVec Ideal S200000x64 .f32) (B : FVec Ideal S64x64 .f32) (r : Fin 200000) (q : Fin 64) :
    Host.dotGeneral dot_S200000x64_S64x64_S200000x64_1_0_0_1_n_n none A B (ix2 r q) = ∑ c : Fin 64, A (ix2 r c) * B (ix2 c q) := by
  rw [dotRef_eq]
  exact StackMember.dotGeneral_plain_apply none A B r q

/-- One layer's pre-activation in the reference at (r, q): the product with layer `l`'s weight matrix plus layer `l`'s bias. -/
theorem refSum_apply (X : FVec Ideal S200000x64 .f32) (w : FVec Ideal S2x64x64 .f32) (b : FVec Ideal S2x64 .f32)
    (offw : Fin 3 → Nat) (offb : Fin 2 → Nat) (l : Fin 2) (hw0 : offw 0 = l.val) (hw1 : offw 1 = 0) (hw2 : offw 2 = 0)
    (hb0 : offb 0 = l.val) (hb1 : offb 1 = 0) (hsw : S2x64x64.Slices offw S1x64x64) (hsb : S2x64.Slices offb S1x64)
    (r : Fin 200000) (q : Fin 64) :
    addf (Host.dotGeneral dot_S200000x64_S64x64_S200000x64_1_0_0_1_n_n none X
            (shapeCast S64x64 (extractStridedSlice S1x64x64 offw w hsw) shapeCasts_S1x64x64_S64x64))
          (broadcastInDim S200000x64 ![0, 1] bcast_S1x64_S200000x64_0_1
            (broadcastInDim S1x64 ![1] bcast_S64_S1x64_1 (shapeCast S64 (extractStridedSlice S1x64 offb b hsb) shapeCasts_S1x64_S64)))
          (ix2 r q)
      = (∑ c : Fin 64, X (ix2 r c) * w (ix3 l c q)) + b (ix2 l q) := by
  show _ + _ = _
  rw [dotRef_apply, bias_apply offb l hb0 hb1 b hsb]
  refine congrArg (· + b (ix2 l q)) (Finset.sum_congr rfl fun c _ => ?_)
  rw [weight_apply offw l hw0 hw1 hw2 w hsw]

/-- The reference's LeakyReLU of a whole array `h` (compare with the zero splat, multiply by the slope's splat, select) at an index. -/
theorem refLeaky_apply (h : FVec Ideal S200000x64 .f32) (i : S200000x64.Idx) :
    select (cmpf .oge h (broadcastInDim S200000x64 ![] bcast_S_S200000x64 (constant (F := Ideal) S_ .f32 0x00000000#32))) h
        (mulf (broadcastInDim S200000x64 ![] bcast_S_S200000x64 (constant (F := Ideal) S_ .f32 0x3C23D70A#32)) h) i
      = leaky (h i) := rfl

/-- At the ideal values the reference's composition is `mlpG`, entry by entry. -/
theorem refMlp_eq (x : FVec Ideal S200000x64 .f32) (w : FVec Ideal S2x64x64 .f32) (b : FVec Ideal S2x64 .f32) :
    refMlp (F := Ideal) x w b = mlpG x w b := by
  funext i
  obtain ⟨r, q, rfl⟩ : ∃ (r : Fin 200000) (q : Fin 64), i = ix2 r q := ⟨i 0, i 1, eq_ix2 i⟩
  rw [mlpG_apply]
  unfold refMlp mlpRow layerAt
  refine (refLeaky_apply _ (ix2 r q)).trans (congrArg leaky ?_)
  refine (refSum_apply _ w b ![1, 0, 0] ![1, 0] 1 rfl rfl rfl rfl rfl _ _ r q).trans ?_
  refine congrArg (· + b (ix2 (1 : Fin 2) q)) (Finset.sum_congr rfl fun c _ => congrArg (· * w (ix3 (1 : Fin 2) c q)) ?_)
  refine (refLeaky_apply _ (ix2 r c)).trans (congrArg leaky ?_)
  exact refSum_apply x w b ![0, 0, 0] ![0, 0] 0 rfl rfl rfl rfl rfl _ _ r c

/-! ## The same layer as a kernel body spells it, read at an index

A kernel body computes a layer on a block of `m` rows: both operands of the product pass through bf16, which at the ideal
values changes nothing; the product accumulates into a zero splat; the bias vector is cast to one row and broadcast down
the rows; the LeakyReLU compares with and multiplies by splats of scalar constants. -/

/-- The body's LeakyReLU of a whole block `h` at an index. -/
theorem kerLeaky_apply {S : Shape} (h : FVec Ideal S .f32) (i : S.Idx) :
    select (cmpf .oge h (broadcast S (Scalar.ofBits (F := Ideal) .f32 0x00000000#32))) h
        (mulf (broadcast S (Scalar.ofBits (F := Ideal) .f32 0x3C23D70A#32)) h) i
      = leaky (h i) := rfl

/-- The body's pre-activation at (p, q): the block `X` against the one-matrix stack `W` (its matrix at (0, ·, ·)), plus the
    one-row bias `B` at (0, q). -/
theorem kerSum_apply {m : Nat} (d : DotDims ⟨2, ![m, 64]⟩ ⟨2, ![64, 64]⟩ ⟨2, ![m, 64]⟩) (hd : d = DotDims.plain m 64 64)
    (X : FVec Ideal ⟨2, ![m, 64]⟩ .f32) (W : FVec Ideal ⟨3, ![1, 64, 64]⟩ .f32) (B : FVec Ideal ⟨2, ![1, 64]⟩ .f32)
    (hx : FTy.bf16.bits < FTy.f32.bits) (hcw : (⟨3, ![1, 64, 64]⟩ : Shape).ShapeCasts ⟨2, ![64, 64]⟩)
    (hcb : (⟨2, ![1, 64]⟩ : Shape).ShapeCasts ⟨1, ![64]⟩) (hcb' : (⟨1, ![64]⟩ : Shape).ShapeCasts ⟨2, ![1, 64]⟩)
    (hbb : (⟨2, ![1, 64]⟩ : Shape).Broadcasts ⟨2, ![m, 64]⟩) (p : Fin m) (q : Fin 64) :
    addf (matmul d none (truncf .bf16 X hx) (truncf .bf16 (shapeCast ⟨2, ![64, 64]⟩ W hcw) hx)
            (constant ⟨2, ![m, 64]⟩ .f32 0x00000000#32))
          (broadcastTo ⟨2, ![m, 64]⟩ (shapeCast ⟨2, ![1, 64]⟩ (shapeCast ⟨1, ![64]⟩ B hcb) hcb') hbb) (ix2 p q)
      = (∑ c : Fin 64, X (ix2 p c) * W (ix3 (0 : Fin 1) c q)) + B (ix2 (0 : Fin 1) q) := by
  subst hd
  show _ + _ = _
  have e1 : matmul (DotDims.plain m 64 64) none (truncf .bf16 X hx) (truncf .bf16 (shapeCast ⟨2, ![64, 64]⟩ W hcw) hx)
        (constant ⟨2, ![m, 64]⟩ .f32 0x00000000#32) (ix2 p q)
      = ∑ c : Fin 64, X (ix2 p c) * W (ix3 (0 : Fin 1) c q) := by
    rw [matmul_zero_eq_dotGeneral, StackMember.dotGeneral_plain_apply]
    refine Finset.sum_congr rfl fun c _ => ?_
    show X (ix2 p c) * shapeCast ⟨2, ![64, 64]⟩ W hcw (ix2 c q) = _
    rw [shapeCast_apply W hcw (ix2 c q) (ix3 (0 : Fin 1) c q) (by
      rw [Shape.rowMajor_val_three, Shape.rowMajor_val_two]
      show (0 * 64 + c.val) * 64 + q.val = c.val * 64 + q.val
      omega)]
  have e2 : broadcastTo ⟨2, ![m, 64]⟩ (shapeCast ⟨2, ![1, 64]⟩ (shapeCast ⟨1, ![64]⟩ B hcb) hcb') hbb (ix2 p q)
      = B (ix2 (0 : Fin 1) q) := by
    refine (broadcastTo_apply _ hbb (ix2 p q) (ix2 (0 : Fin 1) q) fun a => ?_).trans ?_
    · match a with
      | ⟨0, _⟩ => rfl
      | ⟨1, _⟩ => rfl
    refine (shapeCast_apply _ hcb' (ix2 (0 : Fin 1) q) (ix1 q) ?_).trans
      (shapeCast_apply B hcb (ix1 q) (ix2 (0 : Fin 1) q) ?_)
    · rw [Shape.rowMajor_val_two, Shape.rowMajor_val_one]
      show q.val = 0 * 64 + q.val
      omega
    · rw [Shape.rowMajor_val_two, Shape.rowMajor_val_one]
      show 0 * 64 + q.val = q.val
      omega
  rw [e1, e2]

end Cert.Val

end
-- ==== Proof.Val.Mlp.lean ====
/-
  The value of region 0 (the encoder's two layers over blocks of 5000 rows) at the ideal values: after the region the
  output array holds the reference's `mlp` of the three argument arrays as the region finds them.

  At grid point `t` the body sees rows `5000 t … 5000 t + 4999` of the features, the whole stacked weights and the whole
  stacked biases, and stores one value into the whole output block. Entry (p, q) of that value is the two layers on row p of
  the block (`pay0_apply`), and row p of the block is row `5000 t + p` of the array, so the block written back at `t` is block
  `t` of `mlpG` of the arrays (`flushed0_eq`). Row `r` of the output lies in the block of point `r / 5000`, so the blocks cover
  the array (`cover0`), which therefore ends holding `mlpG` of the arrays, and that is the reference's composition (`val0`).
-/
import proofs.«151172_j14164802142730_2_alg».proof.Proof.KI.R0
import proofs.«151172_j14164802142730_2_alg».proof.Proof.Val.MlpRef
import Idealize.ShloMosaic.Lib.Pipeline.Value
import Idealize.ShloMosaic.Lib.ValueIdx
import Idealize.ShloMosaic.Lib.KernelVsHost

noncomputable section

namespace Cert.Val

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Frame

/-! ## The body's stored value at an index -/

/-- The body's dimension numbers are the plain product's: 5000×64 by 64×64. -/
theorem dot0_eq : dot_S5000x64_S64x64_S5000x64_1_0_0_1_n_n = DotDims.plain 5000 64 64 := rfl

/-- Entry (p, q) of what the body stores: the two layers on row p of the features' block, over the two loaded weight
    matrices and bias rows. -/
theorem pay0_apply (x0 : Vec Ideal S5000x64 .f32) (v2 : Vec Ideal S1x64x64 .f32) (v5 : Vec Ideal S1x64 .f32)
    (v17 : Vec Ideal S1x64x64 .f32) (v20 : Vec Ideal S1x64 .f32) (p : Fin 5000) (q : Fin 64) :
    k0_pay1 (F := Ideal) x0 v2 v5 v17 v20 (ix2 p q)
      = layerAt (fun c => layerAt (fun c' => x0 (ix2 p c')) (fun a d => v2 (ix3 (0 : Fin 1) a d)) (fun d => v5 (ix2 (0 : Fin 1) d)) c)
          (fun a d => v17 (ix3 (0 : Fin 1) a d)) (fun d => v20 (ix2 (0 : Fin 1) d)) q := by
  unfold k0_pay1 layerAt
  dsimp only
  refine (kerLeaky_apply _ (ix2 p q)).trans (congrArg leaky ?_)
  refine (kerSum_apply _ dot0_eq _ v17 v20 _ _ _ _ _ p q).trans ?_
  refine congrArg (· + v20 (ix2 (0 : Fin 1) q)) (Finset.sum_congr rfl fun c _ => congrArg (· * v17 (ix3 (0 : Fin 1) c q)) ?_)
  refine (kerLeaky_apply _ (ix2 p c)).trans (congrArg leaky ?_)
  refine (kerSum_apply _ dot0_eq _ v2 v5 _ _ _ _ _ p c).trans ?_
  rw [shapeCast_self]

/-! ## The blocks the body sees, as parts of the arrays -/

variable (V : (c : Dev nD) → (b : Ref sig .tc) → Buf (Elt Ideal) ((c : Thread nD τ).loc b))

/-- The three argument arrays as region 0 finds them, at their literal types. -/
abbrev xarr0 (c : Dev nD) : Vec Ideal S200000x64 .f32 := V c (Pipeline.arrRef spec0 0)
abbrev warr0 (c : Dev nD) : Vec Ideal S2x64x64 .f32 := V c (Pipeline.arrRef spec0 1)
abbrev barr0 (c : Dev nD) : Vec Ideal S2x64 .f32 := V c (Pipeline.arrRef spec0 2)

theorem hz0 : (![0, 0] : Fin 2 → Nat) = fun _ => 0 := funext fun a => by fin_cases a <;> rfl

/-- The printed index maps, decided over the grid: the features' and the output's block index is the point's number on
    the row axis and zero on the other; the weights' and the biases' is zero on every axis. -/
theorem idx_facts0 : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the features' block at point `t` is row `5000 t + p` of the array. -/
theorem xblk0_apply (c : Dev nD) (t : Fin cfg0.N) (p : Fin 5000) (q : Fin 64) (k : Fin 200000)
    (hk : k.val = 5000 * t.val + p.val) :
    View.ld (iblk0 V c 0 t : Vec Ideal S5000x64 .f32) r0_x (ix2 p q) = xarr0 V c (ix2 k q) := by
  obtain ⟨e0, e1, -⟩ := idx_facts0 t
  show (V c (Pipeline.arrRef spec0 0) : Vec Ideal S200000x64 .f32) (((cfg0.win 0).blk t).view.emb (r0_x.idx (ix2 p q))) = _
  refine congrArg _ (funext fun a => Fin.ext ?_)
  match a with
  | ⟨0, _⟩ => show win0_0.index t (0 : Fin 2) * 5000 + 1 * (0 + 1 * p.val) = k.val; rw [e0, hk]; omega
  | ⟨1, _⟩ => show win0_0.index t (1 : Fin 2) * 64 + 1 * (0 + 1 * q.val) = q.val; rw [e1]; omega

/-- Matrix `l` of the weights' block, as the body loads it, is matrix `l` of the array. -/
theorem wblk0_apply (c : Dev nD) (t : Fin cfg0.N) (off : Fin 3 → Nat) (inb) (l : Fin 2) (h0 : off 0 = l.val)
    (h1 : off 1 = 0) (h2 : off 2 = 0) (a d : Fin 64) :
    View.ld (iblk0 V c 1 t : Vec Ideal S2x64x64 .f32) (Rect.unit (s := S2x64x64) off S1x64x64.size inb) (ix3 (0 : Fin 1) a d)
      = warr0 V c (ix3 l a d) := by
  obtain ⟨-, -, e0, e1, e2, -⟩ := idx_facts0 t
  show (V c (Pipeline.arrRef spec0 1) : Vec Ideal S2x64x64 .f32)
      (((cfg0.win 1).blk t).view.emb ((Rect.unit (s := S2x64x64) off S1x64x64.size inb).idx (ix3 (0 : Fin 1) a d))) = _
  refine congrArg _ (funext fun ax => Fin.ext ?_)
  match ax with
  | ⟨0, _⟩ => show win0_1.index t (0 : Fin 3) * 2 + 1 * (off 0 + 1 * 0) = l.val; rw [e0, h0]; omega
  | ⟨1, _⟩ => show win0_1.index t (1 : Fin 3) * 64 + 1 * (off 1 + 1 * a.val) = a.val; rw [e1, h1]; omega
  | ⟨2, _⟩ => show win0_1.index t (2 : Fin 3) * 64 + 1 * (off 2 + 1 * d.val) = d.val; rw [e2, h2]; omega

/-- Row `l` of the biases' block, as the body loads it, is row `l` of the array. -/
theorem bblk0_apply (c : Dev nD) (t : Fin cfg0.N) (off : Fin 2 → Nat) (inb) (l : Fin 2) (h0 : off 0 = l.val)
    (h1 : off 1 = 0) (d : Fin 64) :
    View.ld (iblk0 V c 2 t : Vec Ideal S2x64 .f32) (Rect.unit (s := S2x64) off S1x64.size inb) (ix2 (0 : Fin 1) d)
      = barr0 V c (ix2 l d) := by
  obtain ⟨-, -, -, -, -, e0, e1, -⟩ := idx_facts0 t
  show (V c (Pipeline.arrRef spec0 2) : Vec Ideal S2x64 .f32)
      (((cfg0.win 2).blk t).view.emb ((Rect.unit (s := S2x64) off S1x64.size inb).idx (ix2 (0 : Fin 1) d))) = _
  refine congrArg _ (funext fun ax => Fin.ext ?_)
  match ax with
  | ⟨0, _⟩ => show win0_2.index t (0 : Fin 2) * 2 + 1 * (off 0 + 1 * 0) = l.val; rw [e0, h0]; omega
  | ⟨1, _⟩ => show win0_2.index t (1 : Fin 2) * 64 + 1 * (off 1 + 1 * d.val) = d.val; rw [e1, h1]; omega

/-! ## What each point writes back, the cover, and the array after the region -/

/-- What point `t` writes back is block `t` of `mlpG` of the arrays. -/
theorem flushed0_eq (c : Dev nD) (t : Fin cfg0.N) :
    (dat0 (F := Ideal) V c).flushed 3 t
      = ((cfg0.win 3).blk t).view.read (Elt Ideal) (mlpG (xarr0 V c) (warr0 V c) (barr0 V c)) := by
  show (cfg0.win 3).cut (grid0.coords t) ((dat0 V c).after 3 t) = _
  rw [after0_3]
  unfold out0_3
  rw [View.canon_unit_zero hz0]
  funext j
  obtain ⟨p, q, rfl⟩ : ∃ (p : Fin 5000) (q : Fin 64), j = (ix2 p q : S5000x64.Idx) :=
    ⟨j 0, j 1, funext fun a => by match a with | ⟨0, _⟩ => rfl | ⟨1, _⟩ => rfl⟩
  obtain ⟨-, -, -, -, -, -, -, e0, e1⟩ := idx_facts0 t
  have hN : cfg0.N = 40 := N_0
  have ht : t.val < 40 := hN ▸ t.isLt
  have hk : 5000 * t.val + p.val < 200000 := by have := p.isLt; omega
  have hemb : ((cfg0.win 3).blk t).view.emb (ix2 p q : S5000x64.Idx) = (ix2 (⟨5000 * t.val + p.val, hk⟩ : Fin 200000) q : S200000x64.Idx) := by
    funext a; apply Fin.ext
    match a with
    | ⟨0, _⟩ => show win0_3.index t (0 : Fin 2) * 5000 + 1 * p.val = 5000 * t.val + p.val; rw [e0]; omega
    | ⟨1, _⟩ => show win0_3.index t (1 : Fin 2) * 64 + 1 * q.val = q.val; rw [e1]; omega
  show k0_pay1 (F := Ideal) (View.ld (iblk0 V c 0 t) r0_x) (View.ld (iblk0 V c 1 t) r0_w0) (View.ld (iblk0 V c 2 t) r0_b0)
      (View.ld (iblk0 V c 1 t) r0_w1) (View.ld (iblk0 V c 2 t) r0_b1) (ix2 p q)
    = mlpG (xarr0 V c) (warr0 V c) (barr0 V c) (((cfg0.win 3).blk t).view.emb (ix2 p q : S5000x64.Idx))
  rw [hemb, mlpG_apply, pay0_apply]
  unfold mlpRow
  have key : ∀ (X X' : Fin 64 → EReal) (W0 W0' W1 W1' : Fin 64 → Fin 64 → EReal) (B0 B0' B1 B1' : Fin 64 → EReal),
      X = X' → W0 = W0' → B0 = B0' → W1 = W1' → B1 = B1' →
      layerAt (fun c => layerAt X W0 B0 c) W1 B1 q = layerAt (fun c => layerAt X' W0' B0' c) W1' B1' q := by
    intro X X' W0 W0' W1 W1' B0 B0' B1 B1' h1 h2 h3 h4 h5
    rw [h1, h2, h3, h4, h5]
  exact key _ _ _ _ _ _ _ _ _ _
    (funext fun c' => xblk0_apply V c t p c' ⟨5000 * t.val + p.val, hk⟩ rfl)
    (funext fun a => funext fun d => wblk0_apply V c t ![0, 0, 0] _ 0 rfl rfl rfl a d)
    (funext fun d => bblk0_apply V c t ![0, 0] _ 0 rfl rfl d)
    (funext fun a => funext fun d => wblk0_apply V c t ![1, 0, 0] _ 1 rfl rfl rfl a d)
    (funext fun d => bblk0_apply V c t ![1, 0] _ 1 rfl rfl d)

/-- An index of the output array is in point `t`'s block iff each coordinate is in the block's range on its axis. -/
theorem mem_blk0 (t : Fin cfg0.N) (i : S200000x64.Idx) :
    i ∈ ((cfg0.win 3).blk t).view.set
      ↔ ∀ a : Fin 2, win0_3.index t a * S5000x64.size a ≤ (i a).val ∧ (i a).val < win0_3.index t a * S5000x64.size a + S5000x64.size a := by
  show i ∈ ((View.whole (Pipeline.arrRef spec0 3)).slice (win0_3.rect t)).set ↔ _
  rw [View.set_slice_whole, Rect.mem_set_unit]
  exact Iff.rfl

/-- Row `r` of the output array lies in the block of point `r / 5000`: the blocks cover the array. -/
theorem cover0 (i : S200000x64.Idx) :
    ∃ t : Fin cfg0.N, (cfg0.win 3).flush t = true ∧ i ∈ ((cfg0.win 3).blk t).view.set := by
  have hi0 : (i 0).val < 200000 := (i 0).isLt
  have hi1 : (i 1).val < 64 := (i 1).isLt
  have hN : cfg0.N = 40 := N_0
  have hlt : (i 0).val / 5000 < cfg0.N := by rw [hN]; omega
  obtain ⟨-, -, -, -, -, -, -, e0, e1⟩ := idx_facts0 ⟨(i 0).val / 5000, hlt⟩
  refine ⟨⟨(i 0).val / 5000, hlt⟩, flush0_3 _, ?_⟩
  rw [mem_blk0]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_3.index ⟨(i 0).val / 5000, hlt⟩ (1 : Fin 2) * 64 ≤ (i 1).val
      ∧ (i 1).val < win0_3.index ⟨(i 0).val / 5000, hlt⟩ (1 : Fin 2) * 64 + 64
    rw [e1]
    omega

/-- After region 0 the output array holds `mlpG` of the three argument arrays as the region finds them. -/
theorem arr0_eq (c : Dev nD) :
    (dat0 (F := Ideal) V c).arrAt 3 cfg0.N = mlpG (xarr0 V c) (warr0 V c) (barr0 V c) :=
  (dat0 (F := Ideal) V c).arrAt_eq_of_cover 3 (mlpG (xarr0 V c) (warr0 V c) (barr0 V c))
    (fun t _ => flushed0_eq V c t) cover0

/-- THE VALUE OF REGION 0: after it the output array is the reference's `mlp` of the three argument arrays as the region
    finds them. -/
theorem val0 (c : Dev nD) :
    ((Cert.KernelIdeal.Frame.dat0 (F := Ideal) V c).arrAt 3 Cert.KernelIdeal.cfg0.N : FVec Ideal Cert.ReferenceIdeal.S200000x64 .f32)
      = refMlp (F := Ideal) (V c (Pipeline.arrRef Cert.KernelIdeal.spec0 0)) (V c (Pipeline.arrRef Cert.KernelIdeal.spec0 1))
          (V c (Pipeline.arrRef Cert.KernelIdeal.spec0 2)) :=
  (arr0_eq V c).trans (refMlp_eq (xarr0 V c) (warr0 V c) (barr0 V c)).symm

end Cert.Val

end
-- ==== Proof.Val.Mlpr1.lean ====
/-
  The value of region 1 (the encoder's two layers over blocks of 5000 rows) at the ideal values: after the region the
  output array holds the reference's `mlp` of the three argument arrays as the region finds them.

  At grid point `t` the body sees rows `5000 t … 5000 t + 4999` of the features, the whole stacked weights and the whole
  stacked biases, and stores one value into the whole output block. Entry (p, q) of that value is the two layers on row p of
  the block (`pay1_apply`), and row p of the block is row `5000 t + p` of the array, so the block written back at `t` is block
  `t` of `mlpG` of the arrays (`flushed1_eq`). Row `r` of the output lies in the block of point `r / 5000`, so the blocks cover
  the array (`cover1`), which therefore ends holding `mlpG` of the arrays, and that is the reference's composition (`val1`).
-/
import proofs.«151172_j14164802142730_2_alg».proof.Proof.KI.R1
import proofs.«151172_j14164802142730_2_alg».proof.Proof.Val.MlpRef
import Idealize.ShloMosaic.Lib.Pipeline.Value
import Idealize.ShloMosaic.Lib.ValueIdx
import Idealize.ShloMosaic.Lib.KernelVsHost

noncomputable section

namespace Cert.Val

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Frame

/-! ## The body's stored value at an index -/

/-- The body's dimension numbers are the plain product's: 5000×64 by 64×64. -/
theorem dot1_eq : dot_S5000x64_S64x64_S5000x64_1_0_0_1_n_n = DotDims.plain 5000 64 64 := rfl

/-- Entry (p, q) of what the body stores: the two layers on row p of the features' block, over the two loaded weight
    matrices and bias rows. -/
theorem pay1_apply (x0 : Vec Ideal S5000x64 .f32) (v2 : Vec Ideal S1x64x64 .f32) (v5 : Vec Ideal S1x64 .f32)
    (v17 : Vec Ideal S1x64x64 .f32) (v20 : Vec Ideal S1x64 .f32) (p : Fin 5000) (q : Fin 64) :
    k1_pay1 (F := Ideal) x0 v2 v5 v17 v20 (ix2 p q)
      = layerAt (fun c => layerAt (fun c' => x0 (ix2 p c')) (fun a d => v2 (ix3 (0 : Fin 1) a d)) (fun d => v5 (ix2 (0 : Fin 1) d)) c)
          (fun a d => v17 (ix3 (0 : Fin 1) a d)) (fun d => v20 (ix2 (0 : Fin 1) d)) q := by
  unfold k1_pay1 layerAt
  dsimp only
  refine (kerLeaky_apply _ (ix2 p q)).trans (congrArg leaky ?_)
  refine (kerSum_apply _ dot1_eq _ v17 v20 _ _ _ _ _ p q).trans ?_
  refine congrArg (· + v20 (ix2 (0 : Fin 1) q)) (Finset.sum_congr rfl fun c _ => congrArg (· * v17 (ix3 (0 : Fin 1) c q)) ?_)
  refine (kerLeaky_apply _ (ix2 p c)).trans (congrArg leaky ?_)
  refine (kerSum_apply _ dot1_eq _ v2 v5 _ _ _ _ _ p c).trans ?_
  rw [shapeCast_self]

/-! ## The blocks the body sees, as parts of the arrays -/

variable (V : (c : Dev nD) → (b : Ref sig .tc) → Buf (Elt Ideal) ((c : Thread nD τ).loc b))

/-- The three argument arrays as region 1 finds them, at their literal types. -/
abbrev xarr1 (c : Dev nD) : Vec Ideal S200000x64 .f32 := V c (Pipeline.arrRef spec1 0)
abbrev warr1 (c : Dev nD) : Vec Ideal S2x64x64 .f32 := V c (Pipeline.arrRef spec1 1)
abbrev barr1 (c : Dev nD) : Vec Ideal S2x64 .f32 := V c (Pipeline.arrRef spec1 2)

theorem hz1 : (![0, 0] : Fin 2 → Nat) = fun _ => 0 := funext fun a => by fin_cases a <;> rfl

/-- The printed index maps, decided over the grid: the features' and the output's block index is the point's number on
    the row axis and zero on the other; the weights' and the biases' is zero on every axis. -/
theorem idx_facts1 : ∀ t : Fin cfg1.N, win1_0.index t (0 : Fin 2) = t.val ∧ win1_0.index t (1 : Fin 2) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the features' block at point `t` is row `5000 t + p` of the array. -/
theorem xblk1_apply (c : Dev nD) (t : Fin cfg1.N) (p : Fin 5000) (q : Fin 64) (k : Fin 200000)
    (hk : k.val = 5000 * t.val + p.val) :
    View.ld (iblk1 V c 0 t : Vec Ideal S5000x64 .f32) r1_x (ix2 p q) = xarr1 V c (ix2 k q) := by
  obtain ⟨e0, e1, -⟩ := idx_facts1 t
  show (V c (Pipeline.arrRef spec1 0) : Vec Ideal S200000x64 .f32) (((cfg1.win 0).blk t).view.emb (r1_x.idx (ix2 p q))) = _
  refine congrArg _ (funext fun a => Fin.ext ?_)
  match a with
  | ⟨0, _⟩ => show win1_0.index t (0 : Fin 2) * 5000 + 1 * (0 + 1 * p.val) = k.val; rw [e0, hk]; omega
  | ⟨1, _⟩ => show win1_0.index t (1 : Fin 2) * 64 + 1 * (0 + 1 * q.val) = q.val; rw [e1]; omega

/-- Matrix `l` of the weights' block, as the body loads it, is matrix `l` of the array. -/
theorem wblk1_apply (c : Dev nD) (t : Fin cfg1.N) (off : Fin 3 → Nat) (inb) (l : Fin 2) (h0 : off 0 = l.val)
    (h1 : off 1 = 0) (h2 : off 2 = 0) (a d : Fin 64) :
    View.ld (iblk1 V c 1 t : Vec Ideal S2x64x64 .f32) (Rect.unit (s := S2x64x64) off S1x64x64.size inb) (ix3 (0 : Fin 1) a d)
      = warr1 V c (ix3 l a d) := by
  obtain ⟨-, -, e0, e1, e2, -⟩ := idx_facts1 t
  show (V c (Pipeline.arrRef spec1 1) : Vec Ideal S2x64x64 .f32)
      (((cfg1.win 1).blk t).view.emb ((Rect.unit (s := S2x64x64) off S1x64x64.size inb).idx (ix3 (0 : Fin 1) a d))) = _
  refine congrArg _ (funext fun ax => Fin.ext ?_)
  match ax with
  | ⟨0, _⟩ => show win1_1.index t (0 : Fin 3) * 2 + 1 * (off 0 + 1 * 0) = l.val; rw [e0, h0]; omega
  | ⟨1, _⟩ => show win1_1.index t (1 : Fin 3) * 64 + 1 * (off 1 + 1 * a.val) = a.val; rw [e1, h1]; omega
  | ⟨2, _⟩ => show win1_1.index t (2 : Fin 3) * 64 + 1 * (off 2 + 1 * d.val) = d.val; rw [e2, h2]; omega

/-- Row `l` of the biases' block, as the body loads it, is row `l` of the array. -/
theorem bblk1_apply (c : Dev nD) (t : Fin cfg1.N) (off : Fin 2 → Nat) (inb) (l : Fin 2) (h0 : off 0 = l.val)
    (h1 : off 1 = 0) (d : Fin 64) :
    View.ld (iblk1 V c 2 t : Vec Ideal S2x64 .f32) (Rect.unit (s := S2x64) off S1x64.size inb) (ix2 (0 : Fin 1) d)
      = barr1 V c (ix2 l d) := by
  obtain ⟨-, -, -, -, -, e0, e1, -⟩ := idx_facts1 t
  show (V c (Pipeline.arrRef spec1 2) : Vec Ideal S2x64 .f32)
      (((cfg1.win 2).blk t).view.emb ((Rect.unit (s := S2x64) off S1x64.size inb).idx (ix2 (0 : Fin 1) d))) = _
  refine congrArg _ (funext fun ax => Fin.ext ?_)
  match ax with
  | ⟨0, _⟩ => show win1_2.index t (0 : Fin 2) * 2 + 1 * (off 0 + 1 * 0) = l.val; rw [e0, h0]; omega
  | ⟨1, _⟩ => show win1_2.index t (1 : Fin 2) * 64 + 1 * (off 1 + 1 * d.val) = d.val; rw [e1, h1]; omega

/-! ## What each point writes back, the cover, and the array after the region -/

/-- What point `t` writes back is block `t` of `mlpG` of the arrays. -/
theorem flushed1_eq (c : Dev nD) (t : Fin cfg1.N) :
    (dat1 (F := Ideal) V c).flushed 3 t
      = ((cfg1.win 3).blk t).view.read (Elt Ideal) (mlpG (xarr1 V c) (warr1 V c) (barr1 V c)) := by
  show (cfg1.win 3).cut (grid1.coords t) ((dat1 V c).after 3 t) = _
  rw [after1_3]
  unfold out1_3
  rw [View.canon_unit_zero hz1]
  funext j
  obtain ⟨p, q, rfl⟩ : ∃ (p : Fin 5000) (q : Fin 64), j = (ix2 p q : S5000x64.Idx) :=
    ⟨j 0, j 1, funext fun a => by match a with | ⟨0, _⟩ => rfl | ⟨1, _⟩ => rfl⟩
  obtain ⟨-, -, -, -, -, -, -, e0, e1⟩ := idx_facts1 t
  have hN : cfg1.N = 40 := N_1
  have ht : t.val < 40 := hN ▸ t.isLt
  have hk : 5000 * t.val + p.val < 200000 := by have := p.isLt; omega
  have hemb : ((cfg1.win 3).blk t).view.emb (ix2 p q : S5000x64.Idx) = (ix2 (⟨5000 * t.val + p.val, hk⟩ : Fin 200000) q : S200000x64.Idx) := by
    funext a; apply Fin.ext
    match a with
    | ⟨0, _⟩ => show win1_3.index t (0 : Fin 2) * 5000 + 1 * p.val = 5000 * t.val + p.val; rw [e0]; omega
    | ⟨1, _⟩ => show win1_3.index t (1 : Fin 2) * 64 + 1 * q.val = q.val; rw [e1]; omega
  show k1_pay1 (F := Ideal) (View.ld (iblk1 V c 0 t) r1_x) (View.ld (iblk1 V c 1 t) r1_w0) (View.ld (iblk1 V c 2 t) r1_b0)
      (View.ld (iblk1 V c 1 t) r1_w1) (View.ld (iblk1 V c 2 t) r1_b1) (ix2 p q)
    = mlpG (xarr1 V c) (warr1 V c) (barr1 V c) (((cfg1.win 3).blk t).view.emb (ix2 p q : S5000x64.Idx))
  rw [hemb, mlpG_apply, pay1_apply]
  unfold mlpRow
  have key : ∀ (X X' : Fin 64 → EReal) (W0 W0' W1 W1' : Fin 64 → Fin 64 → EReal) (B0 B0' B1 B1' : Fin 64 → EReal),
      X = X' → W0 = W0' → B0 = B0' → W1 = W1' → B1 = B1' →
      layerAt (fun c => layerAt X W0 B0 c) W1 B1 q = layerAt (fun c => layerAt X' W0' B0' c) W1' B1' q := by
    intro X X' W0 W0' W1 W1' B0 B0' B1 B1' h1 h2 h3 h4 h5
    rw [h1, h2, h3, h4, h5]
  exact key _ _ _ _ _ _ _ _ _ _
    (funext fun c' => xblk1_apply V c t p c' ⟨5000 * t.val + p.val, hk⟩ rfl)
    (funext fun a => funext fun d => wblk1_apply V c t ![0, 0, 0] _ 0 rfl rfl rfl a d)
    (funext fun d => bblk1_apply V c t ![0, 0] _ 0 rfl rfl d)
    (funext fun a => funext fun d => wblk1_apply V c t ![1, 0, 0] _ 1 rfl rfl rfl a d)
    (funext fun d => bblk1_apply V c t ![1, 0] _ 1 rfl rfl d)

/-- An index of the output array is in point `t`'s block iff each coordinate is in the block's range on its axis. -/
theorem mem_blk1 (t : Fin cfg1.N) (i : S200000x64.Idx) :
    i ∈ ((cfg1.win 3).blk t).view.set
      ↔ ∀ a : Fin 2, win1_3.index t a * S5000x64.size a ≤ (i a).val ∧ (i a).val < win1_3.index t a * S5000x64.size a + S5000x64.size a := by
  show i ∈ ((View.whole (Pipeline.arrRef spec1 3)).slice (win1_3.rect t)).set ↔ _
  rw [View.set_slice_whole, Rect.mem_set_unit]
  exact Iff.rfl

/-- Row `r` of the output array lies in the block of point `r / 5000`: the blocks cover the array. -/
theorem cover1 (i : S200000x64.Idx) :
    ∃ t : Fin cfg1.N, (cfg1.win 3).flush t = true ∧ i ∈ ((cfg1.win 3).blk t).view.set := by
  have hi0 : (i 0).val < 200000 := (i 0).isLt
  have hi1 : (i 1).val < 64 := (i 1).isLt
  have hN : cfg1.N = 40 := N_1
  have hlt : (i 0).val / 5000 < cfg1.N := by rw [hN]; omega
  obtain ⟨-, -, -, -, -, -, -, e0, e1⟩ := idx_facts1 ⟨(i 0).val / 5000, hlt⟩
  refine ⟨⟨(i 0).val / 5000, hlt⟩, flush1_3 _, ?_⟩
  rw [mem_blk1]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_3.index ⟨(i 0).val / 5000, hlt⟩ (1 : Fin 2) * 64 ≤ (i 1).val
      ∧ (i 1).val < win1_3.index ⟨(i 0).val / 5000, hlt⟩ (1 : Fin 2) * 64 + 64
    rw [e1]
    omega

/-- After region 1 the output array holds `mlpG` of the three argument arrays as the region finds them. -/
theorem arr1_eq (c : Dev nD) :
    (dat1 (F := Ideal) V c).arrAt 3 cfg1.N = mlpG (xarr1 V c) (warr1 V c) (barr1 V c) :=
  (dat1 (F := Ideal) V c).arrAt_eq_of_cover 3 (mlpG (xarr1 V c) (warr1 V c) (barr1 V c))
    (fun t _ => flushed1_eq V c t) cover1

/-- THE VALUE OF REGION 0: after it the output array is the reference's `mlp` of the three argument arrays as the region
    finds them. -/
theorem val1 (c : Dev nD) :
    ((Cert.KernelIdeal.Frame.dat1 (F := Ideal) V c).arrAt 3 Cert.KernelIdeal.cfg1.N : FVec Ideal Cert.ReferenceIdeal.S200000x64 .f32)
      = refMlp (F := Ideal) (V c (Pipeline.arrRef Cert.KernelIdeal.spec1 0)) (V c (Pipeline.arrRef Cert.KernelIdeal.spec1 1))
          (V c (Pipeline.arrRef Cert.KernelIdeal.spec1 2)) :=
  (arr1_eq V c).trans (refMlp_eq (xarr1 V c) (warr1 V c) (barr1 V c)).symm

end Cert.Val

end
-- ==== Proof.Bridge.B0.lean ====
/-
  The first stages, side by side. Both programs gather each node's embedding row by the same host operations, so the
  gathered features agree because the embedding tables and the index vectors do. The kernel program then runs each encoder as
  a region whose output array is the reference's two Linear + LeakyReLU layers of the region's input arrays; the reference
  applies those layers as host operations to the same arrays. Each host stage is first stated over ARBITRARY contents of the
  buffers before it (the two folds agree at the written reference when the contents agree at the references read), then used
  at the boundaries' contents.
-/
import proofs.«151172_j14164802142730_2_alg».proof.Proof.Bridge.Base
import proofs.«151172_j14164802142730_2_alg».proof.Proof.Val.Mlp
import proofs.«151172_j14164802142730_2_alg».proof.Proof.Val.Mlpr1
import proofs.«151172_j14164802142730_2_alg».proof.Proof.Gen.ReferenceIdeal
import proofs.«151172_j14164802142730_2_alg».proof.Proof.Gen.KernelIdeal

set_option maxRecDepth 16384

noncomputable section

namespace Cert.Bridge

open Idealize.ShloMosaic Idealize.ShloMosaic.TcCoe Idealize.SL.Sem Idealize.ShloMosaic.StableHlo
open Cert.KernelIdeal.Frame Cert.ReferenceIdeal.Hand

variable {m : (ℓ : Loc Cert.KernelIdeal.nD Cert.KernelIdeal.τ Cert.KernelIdeal.sig) → Buf (Elt Ideal) ℓ} (ρ : Dev Cert.KernelIdeal.nD → PrngReg)
  {m' : (ℓ : Loc Cert.ReferenceIdeal.nD Cert.ReferenceIdeal.τ Cert.ReferenceIdeal.sig) → Buf (Elt Ideal) ℓ}

/-! ## The stages over arbitrary contents -/

section Stages
variable (V : Valuation Cert.KernelIdeal.τ Cert.KernelIdeal.sig (Elt Ideal)) (V' : Valuation Cert.ReferenceIdeal.τ Cert.ReferenceIdeal.sig (Elt Ideal))

set_option maxHeartbeats 1000000 in
/-- The object nodes' embedding gather: the same nine operations on both sides. -/
theorem s_v6 (h0 : V' (Proc.devRef .tc Cert.ReferenceIdeal.main_arg0) = V (Proc.devRef .tc Cert.KernelIdeal.main_arg0))
    (h13 : V' (Proc.devRef .tc Cert.ReferenceIdeal.main_arg13) = V (Proc.devRef .tc Cert.KernelIdeal.main_arg13)) :
    after Cert.ReferenceIdeal.Hand.C0 V' (Proc.devRef .tc Cert.ReferenceIdeal.main_v6)
      = after Cert.KernelIdeal.Gen.hostOps0 V (Proc.devRef .tc Cert.KernelIdeal.main_v6) := by
  after_results_simp
  rw [h0, h13]
  rfl

set_option maxHeartbeats 1000000 in
/-- The attribute nodes' embedding gather. -/
theorem s_v13 (h1 : V' (Proc.devRef .tc Cert.ReferenceIdeal.main_arg1) = V (Proc.devRef .tc Cert.KernelIdeal.main_arg1))
    (h14 : V' (Proc.devRef .tc Cert.ReferenceIdeal.main_arg14) = V (Proc.devRef .tc Cert.KernelIdeal.main_arg14)) :
    after Cert.ReferenceIdeal.Hand.C0 V' (Proc.devRef .tc Cert.ReferenceIdeal.main_v13)
      = after Cert.KernelIdeal.Gen.hostOps0 V (Proc.devRef .tc Cert.KernelIdeal.main_v13) := by
  after_results_simp
  rw [h1, h14]
  rfl

set_option maxHeartbeats 1000000 in
/-- The reference's two encoder layers of the object nodes, as the function the region's value is stated with. -/
theorem s_r39 : after Cert.ReferenceIdeal.Hand.C1 V' (Proc.devRef .tc Cert.ReferenceIdeal.main_v39)
      = Cert.Val.refMlp (F := Ideal) (V' (Proc.devRef .tc Cert.ReferenceIdeal.main_v6)) (V' (Proc.devRef .tc Cert.ReferenceIdeal.main_arg2))
          (V' (Proc.devRef .tc Cert.ReferenceIdeal.main_arg3)) := by
  after_results_simp
  simp only [TRef.ofBuf, TRef.toBuf, cast_eq]
  rfl

set_option maxHeartbeats 1000000 in
/-- The same for the attribute nodes. -/
theorem s_r65 : after Cert.ReferenceIdeal.Hand.C2 V' (Proc.devRef .tc Cert.ReferenceIdeal.main_v65)
      = Cert.Val.refMlp (F := Ideal) (V' (Proc.devRef .tc Cert.ReferenceIdeal.main_v13)) (V' (Proc.devRef .tc Cert.ReferenceIdeal.main_arg4))
          (V' (Proc.devRef .tc Cert.ReferenceIdeal.main_arg5)) := by
  after_results_simp
  simp only [TRef.ofBuf, TRef.toBuf, cast_eq]
  rfl

end Stages

/-! ## At the boundaries -/

/-- The object nodes' gathered embeddings. -/
theorem p_v6 (hag : Agree m m') (c : Dev Cert.KernelIdeal.nD) :
    Rv1 m' c (Proc.devRef .tc Cert.ReferenceIdeal.main_v6) = W1 m ρ c (Proc.devRef .tc Cert.KernelIdeal.main_v6) := by
  rw [Rv1_eq, W1_eq]
  exact s_v6 _ _ (arg0 ρ hag c) (arg13 ρ hag c)

/-- The attribute nodes' gathered embeddings. -/
theorem p_v13 (hag : Agree m m') (c : Dev Cert.KernelIdeal.nD) :
    Rv1 m' c (Proc.devRef .tc Cert.ReferenceIdeal.main_v13) = W1 m ρ c (Proc.devRef .tc Cert.KernelIdeal.main_v13) := by
  rw [Rv1_eq, W1_eq]
  exact s_v13 _ _ (arg1 ρ hag c) (arg14 ρ hag c)

/-- The object nodes' encoder: region 0's output array against the reference's two layers. -/
theorem p_v14 (hag : Agree m m') (c : Dev Cert.KernelIdeal.nD) :
    Rv2 m' c (Proc.devRef .tc Cert.ReferenceIdeal.main_v39) = W2 m ρ c (Proc.devRef .tc Cert.KernelIdeal.main_v14) := by
  rw [W2_out, Cert.Val.val0 (V1 m ρ) c, Rv2_eq, s_r39]
  simp only [arrRef0_0, arrRef0_1, arrRef0_2]
  have e2 : Rv1 m' c (Proc.devRef .tc Cert.ReferenceIdeal.main_arg2) = W1 m ρ c (Proc.devRef .tc Cert.KernelIdeal.main_arg2) :=
    (Rv1_keep m' c _ (by decide)).trans ((arg2 ρ hag c).trans (W1_keep m ρ c _ (by decide)).symm)
  have e3 : Rv1 m' c (Proc.devRef .tc Cert.ReferenceIdeal.main_arg3) = W1 m ρ c (Proc.devRef .tc Cert.KernelIdeal.main_arg3) :=
    (Rv1_keep m' c _ (by decide)).trans ((arg3 ρ hag c).trans (W1_keep m ρ c _ (by decide)).symm)
  rw [p_v6 ρ hag c, e2, e3]

/-- The attribute nodes' encoder: region 1. -/
theorem p_v15 (hag : Agree m m') (c : Dev Cert.KernelIdeal.nD) :
    Rv3 m' c (Proc.devRef .tc Cert.ReferenceIdeal.main_v65) = W3 m ρ c (Proc.devRef .tc Cert.KernelIdeal.main_v15) := by
  rw [W3_out, Cert.Val.val1 (V2 m ρ) c, Rv3_eq, s_r65]
  simp only [arrRef1_0, arrRef1_1, arrRef1_2]
  have e13 : Rv2 m' c (Proc.devRef .tc Cert.ReferenceIdeal.main_v13) = W2 m ρ c (Proc.devRef .tc Cert.KernelIdeal.main_v13) :=
    (Rv2_keep m' c _ (by decide)).trans ((p_v13 ρ hag c).trans (W2_keep m ρ c _ (by decide)).symm)
  have e4 : Rv2 m' c (Proc.devRef .tc Cert.ReferenceIdeal.main_arg4) = W2 m ρ c (Proc.devRef .tc Cert.KernelIdeal.main_arg4) :=
    (Rv2_keep m' c _ (by decide)).trans ((Rv1_keep m' c _ (by decide)).trans ((arg4 ρ hag c).trans
      ((W1_keep m ρ c _ (by decide)).symm.trans (W2_keep m ρ c _ (by decide)).symm)))
  have e5 : Rv2 m' c (Proc.devRef .tc Cert.ReferenceIdeal.main_arg5) = W2 m ρ c (Proc.devRef .tc Cert.KernelIdeal.main_arg5) :=
    (Rv2_keep m' c _ (by decide)).trans ((Rv1_keep m' c _ (by decide)).trans ((arg5 ρ hag c).trans
      ((W1_keep m ρ c _ (by decide)).symm.trans (W2_keep m ρ c _ (by decide)).symm)))
  rw [e13, e4, e5]

end Cert.Bridge

end
-- ==== Proof.Val.Sage1Ref.lean ====
/-
  One SAGEConv linear combine as the reference computes it, and that computation read index by index at the ideal
  values, where a float is an extended real and every operation is exact.

  The reference takes the destination features `xd` and the aggregated messages `ag` (200000 rows of 64), the self
  weight `ws` and the message weight `wm` (64 by 64) and the bias `b` (64), and returns `xd · ws + ag · wm + b`, the bias
  laid along every row. At entry `(r, c)` that is `(Σₖ xd(r,k) ws(k,c) + Σₖ ag(r,k) wm(k,c)) + b(c)`, which `sageAt`
  states for any number of rows.
-/
import proofs.«151172_j14164802142730_2_alg».proof.Proof.Gen.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.Val

open Cert.ReferenceIdeal Cert.ReferenceIdeal.Gen
open Idealize.ShloMosaic Idealize.ShloMosaic.ValueIdx
open scoped BigOperators

/-- The reference's combine, operation by operation as it is printed: the two products, their sum, the bias made a one-row
    matrix and laid along the rows, the last sum. -/
def refSage1 {F : FTy → Type} [FloatOps F] (xd ag : FVec F Cert.ReferenceIdeal.S200000x64 .f32)
    (ws wm : FVec F Cert.ReferenceIdeal.S64x64 .f32) (b : FVec F Cert.ReferenceIdeal.S64 .f32) :
    FVec F Cert.ReferenceIdeal.S200000x64 .f32 :=
  addf
    (addf (Host.dotGeneral dot_S200000x64_S64x64_S200000x64_1_0_0_1_n_n none xd ws)
      (Host.dotGeneral dot_S200000x64_S64x64_S200000x64_1_0_0_1_n_n none ag wm))
    (broadcastInDim S200000x64 ![0, 1] bcast_S1x64_S200000x64_0_1 (broadcastInDim S1x64 ![1] bcast_S64_S1x64_1 b))

/-- Entry `(r, c)` of the combine of `n` rows: row `r` of the features times column `c` of the self weight, plus row `r` of
    the messages times column `c` of the message weight, plus the bias at `c`. -/
def sageAt {n : Nat} (xd ag : (⟨2, ![n, 64]⟩ : Shape).Idx → EReal) (ws wm : (⟨2, ![64, 64]⟩ : Shape).Idx → EReal)
    (b : (⟨1, ![64]⟩ : Shape).Idx → EReal) (r : Fin n) (c : Fin 64) : EReal :=
  (∑ k : Fin 64, xd (ix2 r k) * ws (ix2 k c) + ∑ k : Fin 64, ag (ix2 r k) * wm (ix2 k c)) + b (ix1 c)

/-! ## The reference's product at an entry -/

/-- The left operand's index at result index `i` and contraction index `q`: row `i 0`, column `q`'s one coordinate. -/
theorem sage1ref_lhs_0 (i : S200000x64.Idx) (q : dot_S200000x64_S64x64_S200000x64_1_0_0_1_n_n.contr.Idx) :
    (dot_S200000x64_S64x64_S200000x64_1_0_0_1_n_n.lhsIdx i q 0).val = (i 0).val := by
  unfold DotDims.lhsIdx
  rw [dif_neg (show ¬(0 : Fin S200000x64.rank) ∈ dot_S200000x64_S64x64_S200000x64_1_0_0_1_n_n.lhsBatch by decide), dif_pos (show (0 : Fin S200000x64.rank) ∈ dot_S200000x64_S64x64_S200000x64_1_0_0_1_n_n.lhsNonContracting by decide)]
  rfl
theorem sage1ref_lhs_1 (i : S200000x64.Idx) (q : dot_S200000x64_S64x64_S200000x64_1_0_0_1_n_n.contr.Idx) :
    (dot_S200000x64_S64x64_S200000x64_1_0_0_1_n_n.lhsIdx i q 1).val = (q ⟨0, by decide⟩).val :=
  dot_S200000x64_S64x64_S200000x64_1_0_0_1_n_n.lhsIdx_val_of_single rfl i q
/-- The right operand's: row `q`'s one coordinate, column `i 1`. -/
theorem sage1ref_rhs_0 (i : S200000x64.Idx) (q : dot_S200000x64_S64x64_S200000x64_1_0_0_1_n_n.contr.Idx) :
    (dot_S200000x64_S64x64_S200000x64_1_0_0_1_n_n.rhsIdx i q 0).val = (q ⟨0, by decide⟩).val :=
  dot_S200000x64_S64x64_S200000x64_1_0_0_1_n_n.rhsIdx_val_of_single rfl i q
theorem sage1ref_rhs_1 (i : S200000x64.Idx) (q : dot_S200000x64_S64x64_S200000x64_1_0_0_1_n_n.contr.Idx) :
    (dot_S200000x64_S64x64_S200000x64_1_0_0_1_n_n.rhsIdx i q 1).val = (i 1).val := by
  unfold DotDims.rhsIdx
  rw [dif_neg (show ¬(1 : Fin S64x64.rank) ∈ dot_S200000x64_S64x64_S200000x64_1_0_0_1_n_n.rhsBatch by decide), dif_pos (show (1 : Fin S64x64.rank) ∈ dot_S200000x64_S64x64_S200000x64_1_0_0_1_n_n.rhsNonContracting by decide)]
  rfl

/-- The contraction's sum at `(r, c)`, re-indexed by the contracted coordinate: row `r` of the left operand times column
    `c` of the right one. -/
theorem sage1ref_sum (x : S200000x64.Idx → EReal) (y : S64x64.Idx → EReal) (r : Fin 200000) (c : Fin 64) :
    ∑ k : dot_S200000x64_S64x64_S200000x64_1_0_0_1_n_n.contr.Idx, x (dot_S200000x64_S64x64_S200000x64_1_0_0_1_n_n.lhsIdx (ix2 r c) k) * y (dot_S200000x64_S64x64_S200000x64_1_0_0_1_n_n.rhsIdx (ix2 r c) k)
      = ∑ k : Fin 64, x (ix2 r k) * y (ix2 k c) := by
  rw [← Equiv.sum_comp (contrEquiv1 dot_S200000x64_S64x64_S200000x64_1_0_0_1_n_n 64 rfl rfl).symm]
  refine Finset.sum_congr rfl fun k _ => ?_
  have hk := contrEquiv1_symm_val dot_S200000x64_S64x64_S200000x64_1_0_0_1_n_n 64 rfl rfl k
  have el : dot_S200000x64_S64x64_S200000x64_1_0_0_1_n_n.lhsIdx (ix2 r c) ((contrEquiv1 dot_S200000x64_S64x64_S200000x64_1_0_0_1_n_n 64 rfl rfl).symm k) = ix2 r k := funext fun a => Fin.ext (by
    match a with
    | ⟨0, _⟩ => exact sage1ref_lhs_0 _ _
    | ⟨1, _⟩ => exact (sage1ref_lhs_1 _ _).trans hk)
  have er : dot_S200000x64_S64x64_S200000x64_1_0_0_1_n_n.rhsIdx (ix2 r c) ((contrEquiv1 dot_S200000x64_S64x64_S200000x64_1_0_0_1_n_n 64 rfl rfl).symm k) = ix2 k c := funext fun a => Fin.ext (by
    match a with
    | ⟨0, _⟩ => exact (sage1ref_rhs_0 _ _).trans hk
    | ⟨1, _⟩ => exact sage1ref_rhs_1 _ _)
  rw [el, er]

/-- The bias as the reference lays it along the rows, at `(r, c)`: the bias at `c`. -/
theorem sage1ref_bias_apply (b : S64.Idx → EReal) (r : Fin 200000) (c : Fin 64) :
    broadcastInDim S200000x64 ![0, 1] bcast_S1x64_S200000x64_0_1 (broadcastInDim S1x64 ![1] bcast_S64_S1x64_1 b) (ix2 r c)
      = b (ix1 c) := by
  refine (broadcastInDim_oneRow_apply bcast_S1x64_S200000x64_0_1 _ r c).trans ?_
  refine broadcastInDim_apply ![1] bcast_S64_S1x64_1 b (ix2 (0 : Fin 1) c) (ix1 c) fun a => ?_
  match a with
  | ⟨0, _⟩ =>
    show c.val = if (64 : ℕ) = 1 then 0 else c.val
    rw [if_neg (by decide)]

/-- THE REFERENCE'S COMBINE AT AN ENTRY, at the ideal values. -/
theorem refSage1_apply (xd ag : FVec Ideal Cert.ReferenceIdeal.S200000x64 .f32) (ws wm : FVec Ideal Cert.ReferenceIdeal.S64x64 .f32)
    (b : FVec Ideal Cert.ReferenceIdeal.S64 .f32) (r : Fin 200000) (c : Fin 64) :
    refSage1 (F := Ideal) xd ag ws wm b (ix2 r c) = sageAt xd ag ws wm b r c := by
  have h1 : Host.dotGeneral (F := Ideal) dot_S200000x64_S64x64_S200000x64_1_0_0_1_n_n none xd ws (ix2 r c)
      = ∑ k : Fin 64, xd (ix2 r k) * ws (ix2 k c) :=
    (Ideal.dotGeneral_apply dot_S200000x64_S64x64_S200000x64_1_0_0_1_n_n none .single xd ws (ix2 r c)).trans (sage1ref_sum xd ws r c)
  have h2 : Host.dotGeneral (F := Ideal) dot_S200000x64_S64x64_S200000x64_1_0_0_1_n_n none ag wm (ix2 r c)
      = ∑ k : Fin 64, ag (ix2 r k) * wm (ix2 k c) :=
    (Ideal.dotGeneral_apply dot_S200000x64_S64x64_S200000x64_1_0_0_1_n_n none .single ag wm (ix2 r c)).trans (sage1ref_sum ag wm r c)
  unfold refSage1 sageAt
  rw [addf_apply, addf_apply, h1, h2, sage1ref_bias_apply]

end Cert.Val

end
-- ==== Proof.Val.Sage2Ref.lean ====
/-
  The reference's second SAGE stage as ONE pure function of whole arrays, and that function read index by index at the
  extended reals.

  The stage is the sum of two SAGEConv linear combines that share the destination features `x`:
  `(x·Ws + m·Wm + b) + (x·Ws' + m'·Wm' + b')`, each product the host's `dot_general` contracting the 64 feature
  columns, each bias laid along every row by two broadcasts (first to one row, then down the 200000 rows), the sums in
  the association the reference prints. At the extended reals a `dot_general` is the plain sum over the contracted
  column, so entry `(p, q)` of one combine is
  `Σₖ x[p,k]·Ws[k,q] + Σₖ m[p,k]·Wm[k,q] + b[q]`.
-/
import proofs.«151172_j14164802142730_2_alg».proof.ReferenceIdeal
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

namespace Cert.Val

open Idealize.ShloMosaic Idealize.SL.Sem Idealize.ShloMosaic.ValueIdx Cert.ReferenceIdeal Cert.ReferenceIdeal.Facts₀

section Terms
variable {F : FTy → Type} [FloatOps F] [Cert.ReferenceIdeal.Facts₀]

/-- One SAGEConv linear combine, term for term as the reference computes it: the destination features times the self
    weight plus the aggregated messages times the message weight, plus the bias broadcast to one row and then down the
    rows. -/
def refSageLin (x a : FVec F S200000x64 .f32) (ws wm : FVec F S64x64 .f32) (b : FVec F S64 .f32) : FVec F S200000x64 .f32 :=
  addf
    (addf (Host.dotGeneral dot_S200000x64_S64x64_S200000x64_1_0_0_1_n_n none x ws)
      (Host.dotGeneral dot_S200000x64_S64x64_S200000x64_1_0_0_1_n_n none a wm))
    (broadcastInDim S200000x64 ![0, 1] bcast_S1x64_S200000x64_0_1 (broadcastInDim S1x64 ![1] bcast_S64_S1x64_1 b))

/-- The stage: the sum of the two combines over the same destination features `xd`, the first with the messages `a1`
    and the parameters `ws1 wm1 b1`, the second with `a2` and `ws2 wm2 b2`. -/
def refSage2 (xd a1 a2 : FVec F S200000x64 .f32) (ws1 wm1 : FVec F S64x64 .f32) (b1 : FVec F S64 .f32)
    (ws2 wm2 : FVec F S64x64 .f32) (b2 : FVec F S64 .f32) : FVec F S200000x64 .f32 :=
  addf (refSageLin xd a1 ws1 wm1 b1) (refSageLin xd a2 ws2 wm2 b2)

end Terms

/-! ## Index by index at the extended reals -/

/-- A product of a `[rows, 64]` array with a `[64, 64]` weight at row `p`, column `q`: the sum over the 64 contracted
    columns. -/
def sageRowDot {n : Nat} (x : (⟨2, ![n, 64]⟩ : Shape).Idx → EReal) (w : (⟨2, ![64, 64]⟩ : Shape).Idx → EReal) (p : Fin n) (q : Fin 64) : EReal :=
  ∑ k : Fin 64, x (ix2 p k) * w (ix2 k q)

/-- One combine at row `p`, column `q`. -/
def sageLinAt {n : Nat} (x a : (⟨2, ![n, 64]⟩ : Shape).Idx → EReal) (ws wm : (⟨2, ![64, 64]⟩ : Shape).Idx → EReal)
    (b : (⟨1, ![64]⟩ : Shape).Idx → EReal) (p : Fin n) (q : Fin 64) : EReal :=
  sageRowDot x ws p q + sageRowDot a wm p q + b (ix1 q)

/-- The stage at row `p`, column `q`: the two combines added. -/
def sage2At {n : Nat} (xd a1 a2 : (⟨2, ![n, 64]⟩ : Shape).Idx → EReal) (ws1 wm1 : (⟨2, ![64, 64]⟩ : Shape).Idx → EReal)
    (b1 : (⟨1, ![64]⟩ : Shape).Idx → EReal) (ws2 wm2 : (⟨2, ![64, 64]⟩ : Shape).Idx → EReal)
    (b2 : (⟨1, ![64]⟩ : Shape).Idx → EReal) (p : Fin n) (q : Fin 64) : EReal :=
  sageLinAt xd a1 ws1 wm1 b1 p q + sageLinAt xd a2 ws2 wm2 b2 p q

/-- Two products agree when their operands agree along the contracted column. -/
theorem sageRowDot_congr {n m : Nat} (x : (⟨2, ![n, 64]⟩ : Shape).Idx → EReal) (X : (⟨2, ![m, 64]⟩ : Shape).Idx → EReal)
    (w W : (⟨2, ![64, 64]⟩ : Shape).Idx → EReal) (r : Fin n) (P : Fin m) (q : Fin 64)
    (hx : ∀ k, x (ix2 r k) = X (ix2 P k)) (hw : ∀ k, w (ix2 k q) = W (ix2 k q)) : sageRowDot x w r q = sageRowDot X W P q := by
  unfold sageRowDot
  exact Finset.sum_congr rfl fun k _ => by rw [hx k, hw k]

section AtIdeal
variable [Cert.ReferenceIdeal.Facts₀]

/-! The reference's dimension numbers, axis by axis: the left operand is read at the result's row and the contracted
    column, the right at the contracted column and the result's column. -/

theorem lhs_ref_0 (i : S200000x64.Idx) (q : dot_S200000x64_S64x64_S200000x64_1_0_0_1_n_n.contr.Idx) :
    (dot_S200000x64_S64x64_S200000x64_1_0_0_1_n_n.lhsIdx i q 0).val = (i 0).val := by
  unfold DotDims.lhsIdx
  rw [dif_neg (show ¬(0 : Fin S200000x64.rank) ∈ dot_S200000x64_S64x64_S200000x64_1_0_0_1_n_n.lhsBatch by show ¬(0 : Fin 2) ∈ ([] : List (Fin 2)); decide),
    dif_pos (show (0 : Fin S200000x64.rank) ∈ dot_S200000x64_S64x64_S200000x64_1_0_0_1_n_n.lhsNonContracting by show (0 : Fin 2) ∈ ([0] : List (Fin 2)); decide)]
  rfl
theorem lhs_ref_1 (i : S200000x64.Idx) (q : dot_S200000x64_S64x64_S200000x64_1_0_0_1_n_n.contr.Idx) :
    (dot_S200000x64_S64x64_S200000x64_1_0_0_1_n_n.lhsIdx i q 1).val = (q ⟨0, Nat.one_pos⟩).val :=
  dot_S200000x64_S64x64_S200000x64_1_0_0_1_n_n.lhsIdx_val_of_single rfl i q
theorem rhs_ref_0 (i : S200000x64.Idx) (q : dot_S200000x64_S64x64_S200000x64_1_0_0_1_n_n.contr.Idx) :
    (dot_S200000x64_S64x64_S200000x64_1_0_0_1_n_n.rhsIdx i q 0).val = (q ⟨0, Nat.one_pos⟩).val :=
  dot_S200000x64_S64x64_S200000x64_1_0_0_1_n_n.rhsIdx_val_of_single rfl i q
theorem rhs_ref_1 (i : S200000x64.Idx) (q : dot_S200000x64_S64x64_S200000x64_1_0_0_1_n_n.contr.Idx) :
    (dot_S200000x64_S64x64_S200000x64_1_0_0_1_n_n.rhsIdx i q 1).val = (i 1).val := by
  unfold DotDims.rhsIdx
  rw [dif_neg (show ¬(1 : Fin S64x64.rank) ∈ dot_S200000x64_S64x64_S200000x64_1_0_0_1_n_n.rhsBatch by show ¬(1 : Fin 2) ∈ ([] : List (Fin 2)); decide),
    dif_pos (show (1 : Fin S64x64.rank) ∈ dot_S200000x64_S64x64_S200000x64_1_0_0_1_n_n.rhsNonContracting by show (1 : Fin 2) ∈ ([1] : List (Fin 2)); decide)]
  rfl

/-- The host's product at an index is the sum over the contracted column. -/
theorem dot_ref_apply (x : FVec Ideal S200000x64 .f32) (w : FVec Ideal S64x64 .f32) (p : Fin 200000) (q : Fin 64) :
    Host.dotGeneral dot_S200000x64_S64x64_S200000x64_1_0_0_1_n_n none x w (ix2 p q) = sageRowDot x w p q := by
  unfold sageRowDot
  simp only [Host.dotGeneral]
  rw [Ideal.dotGeneral_apply, ← Equiv.sum_comp (ValueIdx.contrEquiv1 dot_S200000x64_S64x64_S200000x64_1_0_0_1_n_n 64 rfl rfl).symm]
  refine Finset.sum_congr rfl fun k _ => ?_
  have hk := ValueIdx.contrEquiv1_symm_val dot_S200000x64_S64x64_S200000x64_1_0_0_1_n_n 64 rfl rfl k
  have el : dot_S200000x64_S64x64_S200000x64_1_0_0_1_n_n.lhsIdx (ix2 p q) ((ValueIdx.contrEquiv1 dot_S200000x64_S64x64_S200000x64_1_0_0_1_n_n 64 rfl rfl).symm k) = ix2 p k := funext fun a => Fin.ext (by
    match a with
    | ⟨0, _⟩ => exact lhs_ref_0 _ _
    | ⟨1, _⟩ => exact (lhs_ref_1 _ _).trans hk)
  have er : dot_S200000x64_S64x64_S200000x64_1_0_0_1_n_n.rhsIdx (ix2 p q) ((ValueIdx.contrEquiv1 dot_S200000x64_S64x64_S200000x64_1_0_0_1_n_n 64 rfl rfl).symm k) = ix2 k q := funext fun a => Fin.ext (by
    match a with
    | ⟨0, _⟩ => exact (rhs_ref_0 _ _).trans hk
    | ⟨1, _⟩ => exact rhs_ref_1 _ _)
  rw [el, er]

/-- The bias laid along every row, at an index, is the bias at the column. -/
theorem bias_ref_apply {α : Type} (b : S64.Idx → α) (p : Fin 200000) (q : Fin 64) :
    broadcastInDim S200000x64 ![0, 1] bcast_S1x64_S200000x64_0_1 (broadcastInDim S1x64 ![1] bcast_S64_S1x64_1 b) (ix2 p q) = b (ix1 q) := by
  rw [broadcastInDim_oneRow_apply]
  refine broadcastInDim_apply ![1] bcast_S64_S1x64_1 b (ix2 (0 : Fin 1) q) (ix1 q) fun a => ?_
  match a with
  | ⟨0, _⟩ => show q.val = if (64 : ℕ) = 1 then 0 else q.val; rw [if_neg (by decide)]

/-- One combine of the reference at an index. -/
theorem refSageLin_apply (x a : FVec Ideal S200000x64 .f32) (ws wm : FVec Ideal S64x64 .f32) (b : FVec Ideal S64 .f32)
    (p : Fin 200000) (q : Fin 64) : refSageLin x a ws wm b (ix2 p q) = sageLinAt x a ws wm b p q := by
  unfold refSageLin sageLinAt
  rw [addf_apply, addf_apply, dot_ref_apply, dot_ref_apply, bias_ref_apply]

/-- The reference's stage at an index. -/
theorem refSage2_apply (xd a1 a2 : FVec Ideal S200000x64 .f32) (ws1 wm1 : FVec Ideal S64x64 .f32) (b1 : FVec Ideal S64 .f32)
    (ws2 wm2 : FVec Ideal S64x64 .f32) (b2 : FVec Ideal S64 .f32) (p : Fin 200000) (q : Fin 64) :
    refSage2 xd a1 a2 ws1 wm1 b1 ws2 wm2 b2 (ix2 p q) = sage2At xd a1 a2 ws1 wm1 b1 ws2 wm2 b2 p q := by
  unfold refSage2 sage2At
  rw [addf_apply, refSageLin_apply, refSageLin_apply]

end AtIdeal

end Cert.Val

end
-- ==== Proof.Bridge.BL0aS.lean ====
/-
  Layer 0 of the message passing, stage by stage over arbitrary contents of the buffers before each stage.

  Both programs cut the same weight and bias slices out of the stacked convolution parameters and aggregate the same
  way: gather the source rows along an edge list, scatter-add them at the destination rows, and divide by the destination
  counts (at least one). So a slice or an aggregation agrees on the two sides when the arrays it reads agree. The
  reference then applies each SAGEConv linear combine as host operations: the composition the regions' values are stated with.
-/
import proofs.«151172_j14164802142730_2_alg».proof.Proof.Gen.KernelIdeal.Launch
import proofs.«151172_j14164802142730_2_alg».proof.Proof.Ref.Chunks
import proofs.«151172_j14164802142730_2_alg».proof.Proof.Val.Sage1Ref
import proofs.«151172_j14164802142730_2_alg».proof.Proof.Val.Sage2Ref
import proofs.«151172_j14164802142730_2_alg».proof.Proof.Gen.ReferenceIdeal
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo

variable (V : Valuation Cert.KernelIdeal.τ Cert.KernelIdeal.sig (Elt Ideal)) (V' : Valuation Cert.ReferenceIdeal.τ Cert.ReferenceIdeal.sig (Elt Ideal))

/-! ## The first convolution's parameter slices -/

set_option maxHeartbeats 1000000 in
/-- The first convolution's self weight: the same slice of the stacked self weights. -/
theorem s_v86 (h6 : V' (Proc.devRef .tc Cert.ReferenceIdeal.main_arg6) = V (Proc.devRef .tc Cert.KernelIdeal.main_arg6)) :
    after Cert.ReferenceIdeal.Hand.C3 V' (Proc.devRef .tc Cert.ReferenceIdeal.main_v67)
      = after Cert.KernelIdeal.Gen.hostOps2 V (Proc.devRef .tc Cert.KernelIdeal.main_v86) := by
  after_results_simp
  rw [h6]
  rfl

set_option maxHeartbeats 1000000 in
/-- Its message weight. -/
theorem s_v88 (h7 : V' (Proc.devRef .tc Cert.ReferenceIdeal.main_arg7) = V (Proc.devRef .tc Cert.KernelIdeal.main_arg7)) :
    after Cert.ReferenceIdeal.Hand.C3 V' (Proc.devRef .tc Cert.ReferenceIdeal.main_v69)
      = after Cert.KernelIdeal.Gen.hostOps2 V (Proc.devRef .tc Cert.KernelIdeal.main_v88) := by
  after_results_simp
  rw [h7]
  rfl

set_option maxHeartbeats 1000000 in
/-- Its bias. -/
theorem s_v90 (h8 : V' (Proc.devRef .tc Cert.ReferenceIdeal.main_arg8) = V (Proc.devRef .tc Cert.KernelIdeal.main_arg8)) :
    after Cert.ReferenceIdeal.Hand.C3 V' (Proc.devRef .tc Cert.ReferenceIdeal.main_v71)
      = after Cert.KernelIdeal.Gen.hostOps2 V (Proc.devRef .tc Cert.KernelIdeal.main_v90) := by
  after_results_simp
  rw [h8]
  rfl

/-! ## The three mean aggregations -/

set_option maxHeartbeats 1000000 in
/-- The object features averaged over the first edge list's destinations. -/
theorem s_v38 (h15 : V' (Proc.devRef .tc Cert.ReferenceIdeal.main_arg15) = V (Proc.devRef .tc Cert.KernelIdeal.main_arg15))
    (h14 : V' (Proc.devRef .tc Cert.ReferenceIdeal.main_v39) = V (Proc.devRef .tc Cert.KernelIdeal.main_v14)) :
    after Cert.ReferenceIdeal.Hand.C3 V' (Proc.devRef .tc Cert.ReferenceIdeal.main_v94)
      = after Cert.KernelIdeal.Gen.hostOps2 V (Proc.devRef .tc Cert.KernelIdeal.main_v38) := by
  after_results_simp
  rw [h15, h14]
  rfl

set_option maxHeartbeats 1000000 in
/-- The attribute features averaged over the second edge list's destinations. -/
theorem s_v61 (h16 : V' (Proc.devRef .tc Cert.ReferenceIdeal.main_arg16) = V (Proc.devRef .tc Cert.KernelIdeal.main_arg16))
    (h15 : V' (Proc.devRef .tc Cert.ReferenceIdeal.main_v65) = V (Proc.devRef .tc Cert.KernelIdeal.main_v15)) :
    after Cert.ReferenceIdeal.Hand.C5 V' (Proc.devRef .tc Cert.ReferenceIdeal.main_v129)
      = after Cert.KernelIdeal.Gen.hostOps2 V (Proc.devRef .tc Cert.KernelIdeal.main_v61) := by
  after_results_simp
  rw [h16, h15]
  rfl

set_option maxHeartbeats 1000000 in
/-- The object features averaged over the third edge list's destinations. -/
theorem s_v84 (h17 : V' (Proc.devRef .tc Cert.ReferenceIdeal.main_arg17) = V (Proc.devRef .tc Cert.KernelIdeal.main_arg17))
    (h14 : V' (Proc.devRef .tc Cert.ReferenceIdeal.main_v39) = V (Proc.devRef .tc Cert.KernelIdeal.main_v14)) :
    after Cert.ReferenceIdeal.Hand.C7 V' (Proc.devRef .tc Cert.ReferenceIdeal.main_v164)
      = after Cert.KernelIdeal.Gen.hostOps2 V (Proc.devRef .tc Cert.KernelIdeal.main_v84) := by
  after_results_simp
  rw [h17, h14]
  rfl

/-! ## The second and third convolutions' parameter slices -/

set_option maxHeartbeats 1000000 in
/-- The second convolution's self weight. -/
theorem s_v93 (h6 : V' (Proc.devRef .tc Cert.ReferenceIdeal.main_arg6) = V (Proc.devRef .tc Cert.KernelIdeal.main_arg6)) :
    after Cert.ReferenceIdeal.Hand.C5 V' (Proc.devRef .tc Cert.ReferenceIdeal.main_v102)
      = after Cert.KernelIdeal.Gen.hostOps3 V (Proc.devRef .tc Cert.KernelIdeal.main_v93) := by
  after_results_simp
  rw [h6]
  rfl

set_option maxHeartbeats 1000000 in
/-- Its message weight. -/
theorem s_v95 (h7 : V' (Proc.devRef .tc Cert.ReferenceIdeal.main_arg7) = V (Proc.devRef .tc Cert.KernelIdeal.main_arg7)) :
    after Cert.ReferenceIdeal.Hand.C5 V' (Proc.devRef .tc Cert.ReferenceIdeal.main_v104)
      = after Cert.KernelIdeal.Gen.hostOps3 V (Proc.devRef .tc Cert.KernelIdeal.main_v95) := by
  after_results_simp
  rw [h7]
  rfl

set_option maxHeartbeats 1000000 in
/-- Its bias. -/
theorem s_v97 (h8 : V' (Proc.devRef .tc Cert.ReferenceIdeal.main_arg8) = V (Proc.devRef .tc Cert.KernelIdeal.main_arg8)) :
    after Cert.ReferenceIdeal.Hand.C5 V' (Proc.devRef .tc Cert.ReferenceIdeal.main_v106)
      = after Cert.KernelIdeal.Gen.hostOps3 V (Proc.devRef .tc Cert.KernelIdeal.main_v97) := by
  after_results_simp
  rw [h8]
  rfl

set_option maxHeartbeats 1000000 in
/-- The third convolution's self weight. -/
theorem s_v99 (h6 : V' (Proc.devRef .tc Cert.ReferenceIdeal.main_arg6) = V (Proc.devRef .tc Cert.KernelIdeal.main_arg6)) :
    after Cert.ReferenceIdeal.Hand.C7 V' (Proc.devRef .tc Cert.ReferenceIdeal.main_v137)
      = after Cert.KernelIdeal.Gen.hostOps3 V (Proc.devRef .tc Cert.KernelIdeal.main_v99) := by
  after_results_simp
  rw [h6]
  rfl

set_option maxHeartbeats 1000000 in
/-- Its message weight. -/
theorem s_v101 (h7 : V' (Proc.devRef .tc Cert.ReferenceIdeal.main_arg7) = V (Proc.devRef .tc Cert.KernelIdeal.main_arg7)) :
    after Cert.ReferenceIdeal.Hand.C7 V' (Proc.devRef .tc Cert.ReferenceIdeal.main_v139)
      = after Cert.KernelIdeal.Gen.hostOps3 V (Proc.devRef .tc Cert.KernelIdeal.main_v101) := by
  after_results_simp
  rw [h7]
  rfl

set_option maxHeartbeats 1000000 in
/-- Its bias. -/
theorem s_v103 (h8 : V' (Proc.devRef .tc Cert.ReferenceIdeal.main_arg8) = V (Proc.devRef .tc Cert.KernelIdeal.main_arg8)) :
    after Cert.ReferenceIdeal.Hand.C7 V' (Proc.devRef .tc Cert.ReferenceIdeal.main_v141)
      = after Cert.KernelIdeal.Gen.hostOps3 V (Proc.devRef .tc Cert.KernelIdeal.main_v103) := by
  after_results_simp
  rw [h8]
  rfl

/-! ## The reference's linear combines, as the functions the regions' values are stated with -/

set_option maxHeartbeats 1000000 in
/-- The first convolution's combine. -/
theorem s_r100 : after Cert.ReferenceIdeal.Hand.C4 V' (Proc.devRef .tc Cert.ReferenceIdeal.main_v100)
      = Cert.Val.refSage1 (F := Ideal) (V' (Proc.devRef .tc Cert.ReferenceIdeal.main_v65)) (V' (Proc.devRef .tc Cert.ReferenceIdeal.main_v94)) (V' (Proc.devRef .tc Cert.ReferenceIdeal.main_v67))
          (V' (Proc.devRef .tc Cert.ReferenceIdeal.main_v69)) (V' (Proc.devRef .tc Cert.ReferenceIdeal.main_v71)) := by
  after_results_simp
  rfl

set_option maxHeartbeats 1000000 in
/-- The second convolution's combine. -/
theorem s_r135 : after Cert.ReferenceIdeal.Hand.C6 V' (Proc.devRef .tc Cert.ReferenceIdeal.main_v135)
      = Cert.Val.refSageLin (F := Ideal) (V' (Proc.devRef .tc Cert.ReferenceIdeal.main_v39)) (V' (Proc.devRef .tc Cert.ReferenceIdeal.main_v129)) (V' (Proc.devRef .tc Cert.ReferenceIdeal.main_v102))
          (V' (Proc.devRef .tc Cert.ReferenceIdeal.main_v104)) (V' (Proc.devRef .tc Cert.ReferenceIdeal.main_v106)) := by
  after_results_simp
  rfl

set_option maxHeartbeats 1000000 in
/-- The third convolution's combine added to the second's. -/
theorem s_r171 : after Cert.ReferenceIdeal.Hand.C8 V' (Proc.devRef .tc Cert.ReferenceIdeal.main_v171)
      = addf (F := Ideal) (s := Cert.ReferenceIdeal.S200000x64) (φ := .f32) (V' (Proc.devRef .tc Cert.ReferenceIdeal.main_v135))
          (Cert.Val.refSageLin (F := Ideal) (V' (Proc.devRef .tc Cert.ReferenceIdeal.main_v39)) (V' (Proc.devRef .tc Cert.ReferenceIdeal.main_v164)) (V' (Proc.devRef .tc Cert.ReferenceIdeal.main_v137))
            (V' (Proc.devRef .tc Cert.ReferenceIdeal.main_v139)) (V' (Proc.devRef .tc Cert.ReferenceIdeal.main_v141))) := by
  after_results_simp
  rfl

end Cert.Bridge

end
-- ==== Proof.Val.Sage1Ker.lean ====
/-
  The kernel's matrix product and its bias row, read at an entry at the ideal values, where a float is an extended real
  and every operation is exact (so the conversions between the 32-bit and the 16-bit formats do nothing).

  The kernel multiplies a block of 5000 rows of 64 by a 64 by 64 weight on the matrix unit, accumulating into zeros: at
  `(p, q)` that is the sum over `k` of the block at `(p, k)` times the weight at `(k, q)`. It lays a vector of 64 along
  the 5000 rows by making it a one-row matrix and repeating the row: at `(p, q)` that is the vector at `q`.
-/
import proofs.«151172_j14164802142730_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.Val

open Cert.KernelIdeal Cert.KernelIdeal.Gen
open Idealize.ShloMosaic Idealize.ShloMosaic.ValueIdx
open scoped BigOperators

/-! ## The kernel's product at an entry -/

/-- The left operand's index at result index `i` and contraction index `q`: row `i 0`, column `q`'s one coordinate. -/
theorem lhs_ker_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_ker_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's: row `q`'s one coordinate, column `i 1`. -/
theorem rhs_ker_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_ker_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The contraction's sum at `(r, c)`, re-indexed by the contracted coordinate: row `r` of the left operand times column
    `c` of the right one. -/
theorem sum_ker (x : S5000x64.Idx → EReal) (y : S64x64.Idx → EReal) (r : Fin 5000) (c : Fin 64) :
    ∑ k : dot_S5000x64_S64x64_S5000x64_1_0_0_1_n_n.contr.Idx, x (dot_S5000x64_S64x64_S5000x64_1_0_0_1_n_n.lhsIdx (ix2 r c) k) * y (dot_S5000x64_S64x64_S5000x64_1_0_0_1_n_n.rhsIdx (ix2 r c) k)
      = ∑ k : Fin 64, x (ix2 r k) * y (ix2 k c) := by
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r c) ((contrEquiv1 dot_S5000x64_S64x64_S5000x64_1_0_0_1_n_n 64 rfl rfl).symm k) = ix2 r k := funext fun a => Fin.ext (by
    match a with
    | ⟨0, _⟩ => exact lhs_ker_0 _ _
    | ⟨1, _⟩ => exact (lhs_ker_1 _ _).trans hk)
  have er : dot_S5000x64_S64x64_S5000x64_1_0_0_1_n_n.rhsIdx (ix2 r c) ((contrEquiv1 dot_S5000x64_S64x64_S5000x64_1_0_0_1_n_n 64 rfl rfl).symm k) = ix2 k c := funext fun a => Fin.ext (by
    match a with
    | ⟨0, _⟩ => exact (rhs_ker_0 _ _).trans hk
    | ⟨1, _⟩ => exact rhs_ker_1 _ _)
  rw [el, er]

/-- The matrix unit's product of a block and a weight, both narrowed to 16 bits first, accumulated into zeros, at `(p, q)`. -/
theorem kerMat_apply (x : S5000x64.Idx → EReal) (w : S64x64.Idx → EReal) (p : Fin 5000) (q : Fin 64) :
    matmul (F := Ideal) dot_S5000x64_S64x64_S5000x64_1_0_0_1_n_n none
        (truncf .bf16 (x : FVec Ideal S5000x64 .f32) bitsLt_bf16_f32) (truncf .bf16 (w : FVec Ideal S64x64 .f32) bitsLt_bf16_f32)
        (constant (F := Ideal) S5000x64 .f32 0x00000000#32) (ix2 p q)
      = ∑ k : Fin 64, x (ix2 p k) * w (ix2 k q) :=
  (Ideal.matmul_constant_zero_apply dot_S5000x64_S64x64_S5000x64_1_0_0_1_n_n none _ _ (ix2 p q)).trans (sum_ker x w p q)

/-- The bias as the kernel lays it along the rows, at `(p, q)`: the bias at `q`. -/
theorem kerBias_apply (b : S64.Idx → EReal) (p : Fin 5000) (q : Fin 64) :
    broadcastTo S5000x64 (shapeCast S1x64 b shapeCasts_S64_S1x64) broadcasts_S1x64_S5000x64 (ix2 p q) = b (ix1 q) :=
  (broadcastTo_1b_ab_apply _ broadcasts_S1x64_S5000x64 p q).trans (shapeCast_a_1a_apply b shapeCasts_S64_S1x64 0 q)

end Cert.Val

end
-- ==== Proof.Val.Sage1.lean ====
/-
  Region 2's value at the ideal values: after the region, the output array is the reference's SAGEConv linear combine of
  the five input arrays as the region found them.

  At grid point `t` the body stores `k2_pay1` of its five loaded blocks: at `(p, q)` of the block that is row `p` of the
  features' block times column `q` of the self weight, plus row `p` of the messages' block times column `q` of the message
  weight, plus the bias at `q`. The two row blocks are rows `5000 t + p` of their arrays and the weights and the bias are
  their whole arrays, so this is entry `(5000 t + p, q)` of the reference's combine of the arrays: point `t` writes back
  block `t` of it. Row `r` lies in block `r / 5000`, so the 40 blocks cover the array.
-/
import proofs.«151172_j14164802142730_2_alg».proof.Proof.KI.R2
import proofs.«151172_j14164802142730_2_alg».proof.Proof.Val.Sage1Ref
import proofs.«151172_j14164802142730_2_alg».proof.Proof.Val.Sage1Ker
import Idealize.ShloMosaic.Lib.Pipeline.Value
import Idealize.ShloMosaic.Lib.ValueIdx

set_option maxRecDepth 16384

noncomputable section

namespace Cert.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The body's payload at an entry -/

/-- The stored value at `(p, q)`: the combine of the five loaded blocks there. -/
theorem pay2_apply (x0 x1 : Vec Ideal S5000x64 .f32) (x2 x3 : Vec Ideal S64x64 .f32) (x4 : Vec Ideal S64 .f32)
    (p : Fin 5000) (q : Fin 64) :
    k2_pay1 (F := Ideal) x0 x1 x2 x3 x4 (ix2 p q) = sageAt x0 x1 x2 x3 x4 p q := by
  unfold Gen.k2_pay1 sageAt
  simp only [shapeCast_self]
  rw [addf_apply, addf_apply, kerMat_apply, kerMat_apply, kerBias_apply]

/-- When the two row blocks are rows `5000 o + p` of two arrays and the weights and the bias are three whole arrays, the
    stored value at `y` is the reference's combine of the arrays at the entry `i` that is `y` moved down `5000 o` rows. -/
theorem block2_eq (A0 A1 : Vec Ideal S200000x64 .f32) (A2 A3 : Vec Ideal S64x64 .f32) (A4 : Vec Ideal S64 .f32)
    (x0 x1 : Vec Ideal S5000x64 .f32) (x2 x3 : Vec Ideal S64x64 .f32) (x4 : Vec Ideal S64 .f32)
    (y : S5000x64.Idx) (i : S200000x64.Idx) (o : Nat)
    (hi0 : (i 0).val = o * 5000 + (y 0).val) (hi1 : (i 1).val = (y 1).val)
    (h0 : ∀ (p : Fin 5000) (k : Fin 64) (r : Fin 200000), r.val = o * 5000 + p.val → x0 (ix2 p k) = A0 (ix2 r k))
    (h1 : ∀ (p : Fin 5000) (k : Fin 64) (r : Fin 200000), r.val = o * 5000 + p.val → x1 (ix2 p k) = A1 (ix2 r k))
    (h2 : x2 = A2) (h3 : x3 = A3) (h4 : x4 = A4) :
    k2_pay1 (F := Ideal) x0 x1 x2 x3 x4 y = refSage1 (F := Ideal) A0 A1 A2 A3 A4 i := by
  obtain ⟨p, q, rfl⟩ : ∃ (p : Fin 5000) (q : Fin 64), y = ix2 p q := ⟨y 0, y 1, eq_ix2 y⟩
  obtain ⟨r, q', rfl⟩ : ∃ (r : Fin 200000) (q' : Fin 64), i = ix2 r q' := ⟨i 0, i 1, eq_ix2 i⟩
  obtain rfl : q' = q := Fin.ext hi1
  subst h2; subst h3; subst h4
  rw [pay2_apply, refSage1_apply]
  unfold sageAt
  simp only [h0 p _ r hi0, h1 p _ r hi0]

/-! ## From the blocks to the array -/

private theorem zeros_pair : (![0, 0] : Fin 2 → Nat) = fun _ => 0 := funext fun a => by fin_cases a <;> rfl
private theorem zeros_single : (![0] : Fin 1 → Nat) = fun _ => 0 := funext fun a => by fin_cases a; rfl

/-- The printed index maps, decided over the grid: the two row inputs move with the output down the rows, the weights
    and the bias stay at block 0, and the output's block index stays below 40. -/
theorem idx_facts2 : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 2) ≤ 39 ∧ win2_5.index t (1 : Fin 2) = 0 :=
  (by decide +kernel : ∀ t : Fin grid2.N, _)

/-- Every one of the 40 row blocks is some point's. -/
theorem idx_onto2 : ∀ q0 : Fin 40, ∃ t : Fin cfg2.N, win2_5.index t (0 : Fin 2) = q0.val :=
  (by decide +kernel : ∀ q0 : Fin 40, ∃ t : Fin grid2.N, win2_5.index t (0 : Fin 2) = q0.val)

/-- Window 0's block at point `t` is rows `5000 · (the output's block index) + p` of its array. -/
theorem rows2_0 (c : Dev nD) (t : Fin cfg2.N) (p : Fin 5000) (k : Fin 64) (r : Fin 200000)
    (hr : r.val = win2_5.index t (0 : Fin 2) * 5000 + p.val) :
    (iblk2 V c 0 t : Vec Ideal S5000x64 .f32) (ix2 p k) = (V c (Pipeline.arrRef spec2 0) : Vec Ideal S200000x64 .f32) (ix2 r k) := by
  obtain ⟨e0, e1, e2, e3, e4, e5, e6, e7, e8, e9, e10⟩ := idx_facts2 t
  show V c (Pipeline.arrRef spec2 0) (((cfg2.win 0).blk t).view.emb (ix2 p k)) = V c (Pipeline.arrRef spec2 0) (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 64 + 1 * k.val = k.val; omega

/-- Window 1's block at point `t` is rows `5000 · (the output's block index) + p` of its array. -/
theorem rows2_1 (c : Dev nD) (t : Fin cfg2.N) (p : Fin 5000) (k : Fin 64) (r : Fin 200000)
    (hr : r.val = win2_5.index t (0 : Fin 2) * 5000 + p.val) :
    (iblk2 V c 1 t : Vec Ideal S5000x64 .f32) (ix2 p k) = (V c (Pipeline.arrRef spec2 1) : Vec Ideal S200000x64 .f32) (ix2 r k) := by
  obtain ⟨e0, e1, e2, e3, e4, e5, e6, e7, e8, e9, e10⟩ := idx_facts2 t
  show V c (Pipeline.arrRef spec2 1) (((cfg2.win 1).blk t).view.emb (ix2 p k)) = V c (Pipeline.arrRef spec2 1) (ix2 r k)
  refine congrArg _ (funext fun a => Fin.ext ?_)
  match a with
  | ⟨0, _⟩ => show win2_1.index t (0 : Fin 2) * 5000 + 1 * p.val = r.val; omega
  | ⟨1, _⟩ => show win2_1.index t (1 : Fin 2) * 64 + 1 * k.val = k.val; omega

/-- Window 2's block at every point is its whole array. -/
theorem whole2_2 (c : Dev nD) (t : Fin cfg2.N) :
    (iblk2 V c 2 t : Vec Ideal S64x64 .f32) = (V c (Pipeline.arrRef spec2 2) : Vec Ideal S64x64 .f32) := by
  obtain ⟨e0, e1, e2, e3, e4, e5, e6, e7, e8, e9, e10⟩ := idx_facts2 t
  funext y
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- Window 3's block at every point is its whole array. -/
theorem whole2_3 (c : Dev nD) (t : Fin cfg2.N) :
    (iblk2 V c 3 t : Vec Ideal S64x64 .f32) = (V c (Pipeline.arrRef spec2 3) : Vec Ideal S64x64 .f32) := by
  obtain ⟨e0, e1, e2, e3, e4, e5, e6, e7, e8, e9, e10⟩ := idx_facts2 t
  funext y
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 64 + 1 * (y 0).val = (y 0).val; omega
  | ⟨1, _⟩ => show win2_3.index t (1 : Fin 2) * 64 + 1 * (y 1).val = (y 1).val; omega

/-- Window 4's block at every point is its whole array. -/
theorem whole2_4 (c : Dev nD) (t : Fin cfg2.N) :
    (iblk2 V c 4 t : Vec Ideal S64 .f32) = (V c (Pipeline.arrRef spec2 4) : Vec Ideal S64 .f32) := by
  obtain ⟨e0, e1, e2, e3, e4, e5, e6, e7, e8, e9, e10⟩ := idx_facts2 t
  funext y
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 1) * 64 + 1 * (y 0).val = (y 0).val; omega

set_option maxHeartbeats 1000000 in
/-- WHAT POINT `t` WRITES BACK is block `t` of the reference's combine of the arrays as the region finds them. -/
theorem flushed2_eq (c : Dev nD) (t : Fin cfg2.N) :
    (dat2 (F := Ideal) V c).flushed 5 t = ((cfg2.win 5).blk t).view.read (Elt Ideal) (refSage1 (F := Ideal) (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero zeros_pair]
  simp only [View.ld_unit_zero (S := S5000x64) zeros_pair, View.ld_unit_zero (S := S64x64) zeros_pair,
    View.ld_unit_zero (S := S64) zeros_single]
  obtain ⟨e0, e1, e2, e3, e4, e5, e6, e7, e8, e9, e10⟩ := idx_facts2 t
  funext j
  show k2_pay1 (F := Ideal) (iblk2 V c 0 t) (iblk2 V c 1 t) (iblk2 V c 2 t) (iblk2 V c 3 t) (iblk2 V c 4 t) j
      = (refSage1 (F := Ideal) (V c (Pipeline.arrRef spec2 0)) (V c (Pipeline.arrRef spec2 1)) (V c (Pipeline.arrRef spec2 2)) (V c (Pipeline.arrRef spec2 3)) (V c (Pipeline.arrRef spec2 4))) (((cfg2.win 5).blk t).view.emb j)
  refine block2_eq _ _ _ _ _ _ _ _ _ _ j _ (win2_5.index t (0 : Fin 2)) ?_ ?_
    (fun p k r hr => rows2_0 V c t p k r hr) (fun p k r hr => rows2_1 V c t p k r hr)
    (whole2_2 V c t) (whole2_3 V c t) (whole2_4 V c t)
  · show win2_5.index t (0 : Fin 2) * 5000 + 1 * (j 0).val = win2_5.index t (0 : Fin 2) * 5000 + (j 0).val; omega
  · show win2_5.index t (1 : Fin 2) * 64 + 1 * (j 1).val = (j 1).val; omega

/-- An index of the array is in point `t`'s block iff each coordinate is in the block's range on its axis. -/
theorem mem_blk2 (t : Fin cfg2.N) (i : S200000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole (Pipeline.arrRef spec2 5)).slice (win2_5.rect t)).set ↔ _
  rw [View.set_slice_whole, Rect.mem_set_unit]
  exact Iff.rfl

/-- Row `r` lies in block `r / 5000`: every index of the array is in some point's block. -/
theorem cover2 (i : S200000x64.Idx) :
    ∃ t : Fin cfg2.N, (cfg2.win 5).flush t = true ∧ i ∈ ((cfg2.win 5).blk t).view.set := by
  have hi0 : (i 0).val < 200000 := (i 0).isLt
  have hi1 : (i 1).val < 64 := (i 1).isLt
  obtain ⟨t, ht⟩ := idx_onto2 ⟨(i 0).val / 5000, by omega⟩
  have q0 : win2_5.index t (0 : Fin 2) = (i 0).val / 5000 := ht
  obtain ⟨e0, e1, e2, e3, e4, e5, e6, e7, e8, e9, e10⟩ := idx_facts2 t
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- THE OUTPUT ARRAY after region 2, whatever the buffers held at its entry: the reference's combine of the five input
    arrays as the region found them. -/
theorem val2 (c : Dev nD) :
    (dat2 (F := Ideal) V c).arrAt 5 cfg2.N = refSage1 (F := Ideal) (V c (Pipeline.arrRef spec2 0)) (V c (Pipeline.arrRef spec2 1)) (V c (Pipeline.arrRef spec2 2)) (V c (Pipeline.arrRef spec2 3)) (V c (Pipeline.arrRef spec2 4)) :=
  (dat2 (F := Ideal) V c).arrAt_eq_of_cover 5 _ (fun t _ => flushed2_eq V c t) (cover2)

end Cert.Val

end
-- ==== Proof.Val.Sage2.lean ====
/-
  The value of region 3 at the extended reals: after the region's forty points the output array holds the reference's
  second SAGE stage of the nine input arrays as the region found them.

  At a point the body stores, into the whole output block, the payload of its nine loads: four products of a
  5000-row block with a 64 × 64 weight (every operand rounded to bf16 first, which is the identity at the extended
  reals; each product accumulated into a zero splat), added left to right with the two biases laid along the rows:
  `((((x·Ws + m₁·Wm) + b) + x·Ws') + m₂·Wm') + b'`. The reference adds the two combines, `(x·Ws + m₁·Wm + b) +
  (x·Ws' + m₂·Wm' + b')`; addition of extended reals is associative, so the two agree at every index. Row `r` of the
  block at point `t` is row `5000 t + r` of each row array, the parameter blocks are the parameter arrays whole, and the
  forty output blocks tile the output array.
-/
import proofs.«151172_j14164802142730_2_alg».proof.Proof.KI.R3
import proofs.«151172_j14164802142730_2_alg».proof.Proof.Val.Sage2Ref
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Val

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

/-! ## The body's payload at an index -/

/-! The kernel's dimension numbers, axis by axis: the left operand is read at the result's row and the contracted
    column, the right at the contracted column and the result's column. -/

theorem lhs_k3_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_k3_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_k3_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_k3_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product of the body at an index: both operands cast to their own shapes and rounded to bf16, accumulated into a
    zero splat, is the sum over the contracted column. -/
theorem mm3_apply (x : FVec Ideal S5000x64 .f32) (w : FVec Ideal S64x64 .f32)
    (h1 : S5000x64.ShapeCasts S5000x64) (h2 : S64x64.ShapeCasts S64x64) (hb : FTy.bf16.bits < FTy.f32.bits)
    (r : Fin 5000) (q : Fin 64) :
    matmul dot_S5000x64_S64x64_S5000x64_1_0_0_1_n_n none (truncf .bf16 (shapeCast S5000x64 x h1) hb) (truncf .bf16 (shapeCast S64x64 w h2) hb)
      (constant S5000x64 .f32 0x00000000#32) (ix2 r q) = sageRowDot x w r q := by
  rw [shapeCast_self, shapeCast_self]
  unfold sageRowDot
  refine (Ideal.matmul_constant_zero_apply dot_S5000x64_S64x64_S5000x64_1_0_0_1_n_n none _ _ (ix2 r q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 r q) ((ValueIdx.contrEquiv1 dot_S5000x64_S64x64_S5000x64_1_0_0_1_n_n 64 rfl rfl).symm k) = ix2 r k := funext fun a => Fin.ext (by
    match a with
    | ⟨0, _⟩ => exact lhs_k3_0 _ _
    | ⟨1, _⟩ => exact (lhs_k3_1 _ _).trans hk)
  have er : dot_S5000x64_S64x64_S5000x64_1_0_0_1_n_n.rhsIdx (ix2 r q) ((ValueIdx.contrEquiv1 dot_S5000x64_S64x64_S5000x64_1_0_0_1_n_n 64 rfl rfl).symm k) = ix2 k q := funext fun a => Fin.ext (by
    match a with
    | ⟨0, _⟩ => exact (rhs_k3_0 _ _).trans hk
    | ⟨1, _⟩ => exact rhs_k3_1 _ _)
  rw [el, er]
  rfl

/-- A bias of the body at an index: cast to its own shape, to one row, and broadcast down the rows, it is the bias at
    the column. -/
theorem bias3_apply (b : FVec Ideal S64 .f32) (h0 : S64.ShapeCasts S64) (h1 : S64.ShapeCasts S1x64)
    (hb : S1x64.Broadcasts S5000x64) (r : Fin 5000) (q : Fin 64) :
    broadcastTo S5000x64 (shapeCast S1x64 (shapeCast S64 b h0) h1) hb (ix2 r q) = b (ix1 q) := by
  rw [shapeCast_self, broadcastTo_1b_ab_apply, shapeCast_a_1a_apply]

/-- The body's payload at row `r`, column `q` of the block: the four products and the two biases added left to right. -/
theorem pay3_apply (x0 x1 x2 : FVec Ideal S5000x64 .f32) (x3 x4 x6 x7 : FVec Ideal S64x64 .f32) (x5 x8 : FVec Ideal S64 .f32)
    (r : Fin 5000) (q : Fin 64) :
    k3_pay1 (F := Ideal) x0 x1 x2 x3 x4 x6 x7 x5 x8 (ix2 r q)
      = sageRowDot x0 x3 r q + sageRowDot x1 x4 r q + x5 (ix1 q) + sageRowDot x0 x6 r q + sageRowDot x2 x7 r q + x8 (ix1 q) := by
  unfold k3_pay1
  rw [addf_apply, addf_apply, addf_apply, addf_apply, addf_apply, mm3_apply, mm3_apply, mm3_apply, mm3_apply,
    bias3_apply, bias3_apply]

/-- ONE POINT, ONE ENTRY: when row `r` of the three row blocks is row `P` of the three row arrays along the contracted
    column, and the parameter blocks are the parameter arrays where they are read, the body's payload at `(r, q)` is the
    reference's stage at `(P, q)`. The body adds its six terms left to right, the reference adds two combines of three:
    the same sum of extended reals, reassociated. -/
theorem sage2_point3 [Cert.ReferenceIdeal.Facts₀]
    (x0 x1 x2 : FVec Ideal S5000x64 .f32) (w3 w4 : FVec Ideal S64x64 .f32) (b5 : FVec Ideal S64 .f32)
    (w6 w7 : FVec Ideal S64x64 .f32) (b8 : FVec Ideal S64 .f32)
    (X0 X1 X2 : FVec Ideal S200000x64 .f32) (W3 W4 : FVec Ideal S64x64 .f32) (B5 : FVec Ideal S64 .f32)
    (W6 W7 : FVec Ideal S64x64 .f32) (B8 : FVec Ideal S64 .f32)
    (r : Fin 5000) (P : Fin 200000) (q : Fin 64)
    (h0 : ∀ k, x0 (ix2 r k) = X0 (ix2 P k)) (h1 : ∀ k, x1 (ix2 r k) = X1 (ix2 P k)) (h2 : ∀ k, x2 (ix2 r k) = X2 (ix2 P k))
    (h3 : ∀ k, w3 (ix2 k q) = W3 (ix2 k q)) (h4 : ∀ k, w4 (ix2 k q) = W4 (ix2 k q)) (h5 : b5 (ix1 q) = B5 (ix1 q))
    (h6 : ∀ k, w6 (ix2 k q) = W6 (ix2 k q)) (h7 : ∀ k, w7 (ix2 k q) = W7 (ix2 k q)) (h8 : b8 (ix1 q) = B8 (ix1 q)) :
    k3_pay1 (F := Ideal) x0 x1 x2 w3 w4 w6 w7 b5 b8 (ix2 r q)
      = refSage2 (F := Ideal) X0 X1 X2 W3 W4 B5 W6 W7 B8 (ix2 P q) := by
  rw [pay3_apply, refSage2_apply]
  unfold sage2At sageLinAt
  rw [sageRowDot_congr x0 X0 w3 W3 r P q h0 h3, sageRowDot_congr x1 X1 w4 W4 r P q h1 h4,
    sageRowDot_congr x0 X0 w6 W6 r P q h0 h6, sageRowDot_congr x2 X2 w7 W7 r P q h2 h7, h5, h8]
  simp only [add_assoc]

/-! ## From blocks to the array -/

section Blocks
variable (V : (c : Dev nD) → (b : Ref sig .tc) → Buf (Elt Ideal) ((c : Thread nD τ).loc b))

theorem hz3_2 : (![0, 0] : Fin 2 → Nat) = fun _ => 0 := funext fun a => by fin_cases a <;> rfl
theorem hz3_1 : (![0] : Fin 1 → Nat) = fun _ => 0 := funext fun a => by fin_cases a <;> rfl

/-! The printed index maps, decided over the grid: a row window's block index is the point on the rows' axis and zero
    on the columns'; a parameter window's is zero. -/

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)
theorem idx3_9 : ∀ t : Fin cfg3.N, win3_9.index t (0 : Fin 2) = t.val ∧ win3_9.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = 0 ∧ win3_7.index t (1 : Fin 2) = 0 :=
  (by decide +kernel : ∀ t : Fin grid3.N, _)
theorem idx3_5 : ∀ t : Fin cfg3.N, win3_5.index t (0 : Fin 1) = 0 :=
  (by decide +kernel : ∀ t : Fin grid3.N, _)
theorem idx3_8 : ∀ t : Fin cfg3.N, win3_8.index t (0 : Fin 1) = 0 :=
  (by decide +kernel : ∀ t : Fin grid3.N, _)

/-! Each input block read where the arrays are: row `r` of a row block at point `t` is row `5000 t + r` of its array; a
    parameter block is its array. -/

theorem blk3_0 (c : Dev nD) (t : Fin cfg3.N) (r : Fin 5000) (k : Fin 64) (P : Fin 200000) (hP : P.val = t.val * 5000 + r.val) :
    (iblk3 V c 0 t : S5000x64.Idx → EReal) (ix2 r k) = ((V c (Pipeline.arrRef spec3 0)) : S200000x64.Idx → EReal) (ix2 P k) := by
  obtain ⟨e0, e1⟩ := idx3_0 t
  show (V c (Pipeline.arrRef spec3 0)) (((cfg3.win 0).blk t).view.emb (ix2 r k)) = _
  refine congrArg (V c (Pipeline.arrRef spec3 0)) (funext fun a => Fin.ext ?_)
  match a with
  | ⟨0, _⟩ => show win3_0.index t (0 : Fin 2) * 5000 + 1 * r.val = P.val; omega
  | ⟨1, _⟩ => show win3_0.index t (1 : Fin 2) * 64 + 1 * k.val = k.val; omega
theorem blk3_1 (c : Dev nD) (t : Fin cfg3.N) (r : Fin 5000) (k : Fin 64) (P : Fin 200000) (hP : P.val = t.val * 5000 + r.val) :
    (iblk3 V c 1 t : S5000x64.Idx → EReal) (ix2 r k) = ((V c (Pipeline.arrRef spec3 1)) : S200000x64.Idx → EReal) (ix2 P k) := by
  obtain ⟨e0, e1⟩ := idx3_1 t
  show (V c (Pipeline.arrRef spec3 1)) (((cfg3.win 1).blk t).view.emb (ix2 r k)) = _
  refine congrArg (V c (Pipeline.arrRef spec3 1)) (funext fun a => Fin.ext ?_)
  match a with
  | ⟨0, _⟩ => show win3_1.index t (0 : Fin 2) * 5000 + 1 * r.val = P.val; omega
  | ⟨1, _⟩ => show win3_1.index t (1 : Fin 2) * 64 + 1 * k.val = k.val; omega
theorem blk3_2 (c : Dev nD) (t : Fin cfg3.N) (r : Fin 5000) (k : Fin 64) (P : Fin 200000) (hP : P.val = t.val * 5000 + r.val) :
    (iblk3 V c 2 t : S5000x64.Idx → EReal) (ix2 r k) = ((V c (Pipeline.arrRef spec3 2)) : S200000x64.Idx → EReal) (ix2 P k) := by
  obtain ⟨e0, e1⟩ := idx3_2 t
  show (V c (Pipeline.arrRef spec3 2)) (((cfg3.win 2).blk t).view.emb (ix2 r k)) = _
  refine congrArg (V c (Pipeline.arrRef spec3 2)) (funext fun a => Fin.ext ?_)
  match a with
  | ⟨0, _⟩ => show win3_2.index t (0 : Fin 2) * 5000 + 1 * r.val = P.val; omega
  | ⟨1, _⟩ => show win3_2.index t (1 : Fin 2) * 64 + 1 * k.val = k.val; omega
theorem blk3_3 (c : Dev nD) (t : Fin cfg3.N) (k q : Fin 64) :
    (iblk3 V c 3 t : S64x64.Idx → EReal) (ix2 k q) = ((V c (Pipeline.arrRef spec3 3)) : S64x64.Idx → EReal) (ix2 k q) := by
  obtain ⟨e0, e1⟩ := idx3_3 t
  show (V c (Pipeline.arrRef spec3 3)) (((cfg3.win 3).blk t).view.emb (ix2 k q)) = _
  refine congrArg (V c (Pipeline.arrRef spec3 3)) (funext fun a => Fin.ext ?_)
  match a with
  | ⟨0, _⟩ => show win3_3.index t (0 : Fin 2) * 64 + 1 * k.val = k.val; omega
  | ⟨1, _⟩ => show win3_3.index t (1 : Fin 2) * 64 + 1 * q.val = q.val; omega
theorem blk3_4 (c : Dev nD) (t : Fin cfg3.N) (k q : Fin 64) :
    (iblk3 V c 4 t : S64x64.Idx → EReal) (ix2 k q) = ((V c (Pipeline.arrRef spec3 4)) : S64x64.Idx → EReal) (ix2 k q) := by
  obtain ⟨e0, e1⟩ := idx3_4 t
  show (V c (Pipeline.arrRef spec3 4)) (((cfg3.win 4).blk t).view.emb (ix2 k q)) = _
  refine congrArg (V c (Pipeline.arrRef spec3 4)) (funext fun a => Fin.ext ?_)
  match a with
  | ⟨0, _⟩ => show win3_4.index t (0 : Fin 2) * 64 + 1 * k.val = k.val; omega
  | ⟨1, _⟩ => show win3_4.index t (1 : Fin 2) * 64 + 1 * q.val = q.val; omega
theorem blk3_6 (c : Dev nD) (t : Fin cfg3.N) (k q : Fin 64) :
    (iblk3 V c 6 t : S64x64.Idx → EReal) (ix2 k q) = ((V c (Pipeline.arrRef spec3 6)) : S64x64.Idx → EReal) (ix2 k q) := by
  obtain ⟨e0, e1⟩ := idx3_6 t
  show (V c (Pipeline.arrRef spec3 6)) (((cfg3.win 6).blk t).view.emb (ix2 k q)) = _
  refine congrArg (V c (Pipeline.arrRef spec3 6)) (funext fun a => Fin.ext ?_)
  match a with
  | ⟨0, _⟩ => show win3_6.index t (0 : Fin 2) * 64 + 1 * k.val = k.val; omega
  | ⟨1, _⟩ => show win3_6.index t (1 : Fin 2) * 64 + 1 * q.val = q.val; omega
theorem blk3_7 (c : Dev nD) (t : Fin cfg3.N) (k q : Fin 64) :
    (iblk3 V c 7 t : S64x64.Idx → EReal) (ix2 k q) = ((V c (Pipeline.arrRef spec3 7)) : S64x64.Idx → EReal) (ix2 k q) := by
  obtain ⟨e0, e1⟩ := idx3_7 t
  show (V c (Pipeline.arrRef spec3 7)) (((cfg3.win 7).blk t).view.emb (ix2 k q)) = _
  refine congrArg (V c (Pipeline.arrRef spec3 7)) (funext fun a => Fin.ext ?_)
  match a with
  | ⟨0, _⟩ => show win3_7.index t (0 : Fin 2) * 64 + 1 * k.val = k.val; omega
  | ⟨1, _⟩ => show win3_7.index t (1 : Fin 2) * 64 + 1 * q.val = q.val; omega
theorem blk3_5 (c : Dev nD) (t : Fin cfg3.N) (q : Fin 64) :
    (iblk3 V c 5 t : S64.Idx → EReal) (ix1 q) = ((V c (Pipeline.arrRef spec3 5)) : S64.Idx → EReal) (ix1 q) := by
  have e0 := idx3_5 t
  show (V c (Pipeline.arrRef spec3 5)) (((cfg3.win 5).blk t).view.emb (ix1 q)) = _
  refine congrArg (V c (Pipeline.arrRef spec3 5)) (funext fun a => Fin.ext ?_)
  match a with
  | ⟨0, _⟩ => show win3_5.index t (0 : Fin 1) * 64 + 1 * q.val = q.val; omega
theorem blk3_8 (c : Dev nD) (t : Fin cfg3.N) (q : Fin 64) :
    (iblk3 V c 8 t : S64.Idx → EReal) (ix1 q) = ((V c (Pipeline.arrRef spec3 8)) : S64.Idx → EReal) (ix1 q) := by
  have e0 := idx3_8 t
  show (V c (Pipeline.arrRef spec3 8)) (((cfg3.win 8).blk t).view.emb (ix1 q)) = _
  refine congrArg (V c (Pipeline.arrRef spec3 8)) (funext fun a => Fin.ext ?_)
  match a with
  | ⟨0, _⟩ => show win3_8.index t (0 : Fin 1) * 64 + 1 * q.val = q.val; omega

variable [Cert.ReferenceIdeal.Facts₀]

set_option maxHeartbeats 1000000 in
/-- WHAT POINT `t` WRITES BACK is block `t` of the reference's stage of the arrays as the region finds them: row `r` of
    the block is row `5000 t + r` of the row arrays and the parameter blocks are the parameter arrays. -/
theorem flushed3_eq (c : Dev nD) (t : Fin cfg3.N) :
    (dat3 (F := Ideal) V c).flushed 9 t
      = ((cfg3.win 9).blk t).view.read (Elt Ideal) (refSage2 (F := Ideal) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8))) := by
  show (cfg3.win 9).cut (grid3.coords t) ((dat3 V c).after 9 t) = _
  rw [after3_9]
  unfold out3_9
  rw [View.canon_unit_zero hz3_2]
  simp only [View.ld_unit_zero (S := S5000x64) hz3_2, View.ld_unit_zero (S := S64x64) hz3_2, View.ld_unit_zero (S := S64) hz3_1]
  funext j
  have hj0 : (j 0).val < 5000 := (j 0).isLt
  have hj1 : (j 1).val < 64 := (j 1).isLt
  have ht : t.val < 40 := Nat.lt_of_lt_of_eq t.isLt N_3
  obtain ⟨e0, e1⟩ := idx3_9 t
  obtain ⟨r, hr⟩ : ∃ r : Fin 5000, r.val = (j 0).val := ⟨⟨(j 0).val, hj0⟩, rfl⟩
  obtain ⟨q, hq⟩ : ∃ q : Fin 64, q.val = (j 1).val := ⟨⟨(j 1).val, hj1⟩, rfl⟩
  obtain ⟨P, hP⟩ : ∃ P : Fin 200000, P.val = t.val * 5000 + r.val := ⟨⟨t.val * 5000 + r.val, by omega⟩, rfl⟩
  have hx : (cfg3.win 9).xinj (grid3.coords t) j = ix2 r q :=
    funext fun a => Fin.ext (by
      match a with
      | ⟨0, _⟩ => exact hr.symm
      | ⟨1, _⟩ => exact hq.symm)
  have hemb : ((cfg3.win 9).blk t).view.emb j = ix2 P q :=
    funext fun a => Fin.ext (by
      match a with
      | ⟨0, _⟩ => show win3_9.index t (0 : Fin 2) * 5000 + 1 * (j 0).val = P.val; omega
      | ⟨1, _⟩ => show win3_9.index t (1 : Fin 2) * 64 + 1 * (j 1).val = q.val; omega)
  show k3_pay1 (F := Ideal) _ _ _ _ _ _ _ _ _ ((cfg3.win 9).xinj (grid3.coords t) j)
    = refSage2 (F := Ideal) _ _ _ _ _ _ _ _ _ (((cfg3.win 9).blk t).view.emb j)
  rw [hx, hemb]
  refine sage2_point3 _ _ _ _ _ _ _ _ _ _ _ _ _ _ _ _ _ _ r P q ?_ ?_ ?_ ?_ ?_ ?_ ?_ ?_ ?_
  · exact fun k => blk3_0 V c t r k P hP
  · exact fun k => blk3_1 V c t r k P hP
  · exact fun k => blk3_2 V c t r k P hP
  · exact fun k => blk3_3 V c t k q
  · exact fun k => blk3_4 V c t k q
  · exact blk3_5 V c t q
  · exact fun k => blk3_6 V c t k q
  · exact fun k => blk3_7 V c t k q
  · exact blk3_8 V c t q

/-- An index of the output array is in point `t`'s block iff each coordinate is in the block's range on its axis. -/
theorem mem_blk3 (t : Fin cfg3.N) (i : S200000x64.Idx) :
    i ∈ ((cfg3.win 9).blk t).view.set ↔ ∀ a : Fin 2, win3_9.index t a * S5000x64.size a ≤ (i a).val ∧ (i a).val < win3_9.index t a * S5000x64.size a + S5000x64.size a := by
  show i ∈ ((View.whole main_v104).slice (win3_9.rect t)).set ↔ _
  rw [View.set_slice_whole, Rect.mem_set_unit]
  exact Iff.rfl

/-- THE ARRAY after the region: every row lies in the block of the point `row / 5000`, so the forty blocks cover the
    array and it holds the reference's stage of the nine input arrays. -/
theorem val3 (c : Dev nD) :
    (dat3 (F := Ideal) V c).arrAt 9 cfg3.N = refSage2 (F := Ideal) (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) :=
  (dat3 (F := Ideal) V c).arrAt_eq_of_cover 9 _ (fun t _ => flushed3_eq V c t) fun (i : S200000x64.Idx) => by
    have hi0 : (i 0).val < 200000 := (i 0).isLt
    have hi1 : (i 1).val < 64 := (i 1).isLt
    have hN : cfg3.N = 40 := N_3
    refine ⟨⟨(i 0).val / 5000, by rw [hN]; omega⟩, flush3_9 _, ?_⟩
    rw [mem_blk3]
    obtain ⟨e0, e1⟩ := idx3_9 ⟨(i 0).val / 5000, by rw [hN]; omega⟩
    intro a
    match a with
    | ⟨0, _⟩ =>
      show win3_9.index ⟨(i 0).val / 5000, _⟩ (0 : Fin 2) * 5000 ≤ (i 0).val ∧ (i 0).val < win3_9.index ⟨(i 0).val / 5000, _⟩ (0 : Fin 2) * 5000 + 5000
      rw [e0]; show (i 0).val / 5000 * 5000 ≤ (i 0).val ∧ (i 0).val < (i 0).val / 5000 * 5000 + 5000; omega
    | ⟨1, _⟩ =>
      show win3_9.index ⟨(i 0).val / 5000, _⟩ (1 : Fin 2) * 64 ≤ (i 1).val ∧ (i 1).val < win3_9.index ⟨(i 0).val / 5000, _⟩ (1 : Fin 2) * 64 + 64
      rw [e1]; omega

end Blocks

end Cert.Val

end
-- ==== Proof.Bridge.BL0a.lean ====
/-
  Layer 0 of the message passing at the boundaries of the two programs: each buffer the kernel program writes there holds
  the array the reference's corresponding buffer holds, given that the two encoders' outputs agree and the argument arrays do.

  The parameter slices and the three mean aggregations are the same host operations on both sides, read at the boundary
  before them, where the arrays they read agree; a buffer is carried to that boundary over the stages that do not write
  it. Region 2's output array is the reference's first linear combine of its five input arrays, and region 3's is the sum
  of the second and third combines of its nine: the reference computes those as host operations on the agreeing arrays.
-/
import proofs.«151172_j14164802142730_2_alg».proof.Proof.Bridge.Base
import proofs.«151172_j14164802142730_2_alg».proof.Proof.Bridge.BL0aS
import proofs.«151172_j14164802142730_2_alg».proof.Proof.Val.Sage1
import proofs.«151172_j14164802142730_2_alg».proof.Proof.Val.Sage2
import proofs.«151172_j14164802142730_2_alg».proof.Proof.Gen.ReferenceIdeal
import proofs.«151172_j14164802142730_2_alg».proof.Proof.Gen.KernelIdeal

set_option maxRecDepth 16384

noncomputable section

namespace Cert.Bridge

open Idealize.ShloMosaic Idealize.ShloMosaic.TcCoe Idealize.SL.Sem Idealize.ShloMosaic.StableHlo
open Cert.KernelIdeal.Frame Cert.ReferenceIdeal.Hand

variable {m : (ℓ : Loc Cert.KernelIdeal.nD Cert.KernelIdeal.τ Cert.KernelIdeal.sig) → Buf (Elt Ideal) ℓ} (ρ : Dev Cert.KernelIdeal.nD → PrngReg)
  {m' : (ℓ : Loc Cert.ReferenceIdeal.nD Cert.ReferenceIdeal.τ Cert.ReferenceIdeal.sig) → Buf (Elt Ideal) ℓ}

/-! ## The first convolution's inputs (the kernel program's fourth boundary) -/

/-- The first convolution's self weight. -/
theorem p_v86 (hag : Agree m m') (c : Dev Cert.KernelIdeal.nD) :
    Rv4 m' c (Proc.devRef .tc Cert.ReferenceIdeal.main_v67) = W4 m ρ c (Proc.devRef .tc Cert.KernelIdeal.main_v86) := by
  have e0 : Rv3 m' c (Proc.devRef .tc Cert.ReferenceIdeal.main_arg6) = W3 m ρ c (Proc.devRef .tc Cert.KernelIdeal.main_arg6) :=
    ((Rv3_keep m' c _ (by decide)).trans ((Rv2_keep m' c _ (by decide)).trans (Rv1_keep m' c _ (by decide)))).trans ((arg6 ρ hag c).trans ((W3_keep m ρ c _ (by decide)).trans ((W2_keep m ρ c _ (by decide)).trans (W1_keep m ρ c _ (by decide)))).symm)
  rw [Rv4_eq, W4_eq]
  exact s_v86 _ _ e0

/-- Its message weight. -/
theorem p_v88 (hag : Agree m m') (c : Dev Cert.KernelIdeal.nD) :
    Rv4 m' c (Proc.devRef .tc Cert.ReferenceIdeal.main_v69) = W4 m ρ c (Proc.devRef .tc Cert.KernelIdeal.main_v88) := by
  have e0 : Rv3 m' c (Proc.devRef .tc Cert.ReferenceIdeal.main_arg7) = W3 m ρ c (Proc.devRef .tc Cert.KernelIdeal.main_arg7) :=
    ((Rv3_keep m' c _ (by decide)).trans ((Rv2_keep m' c _ (by decide)).trans (Rv1_keep m' c _ (by decide)))).trans ((arg7 ρ hag c).trans ((W3_keep m ρ c _ (by decide)).trans ((W2_keep m ρ c _ (by decide)).trans (W1_keep m ρ c _ (by decide)))).symm)
  rw [Rv4_eq, W4_eq]
  exact s_v88 _ _ e0

/-- Its bias. -/
theorem p_v90 (hag : Agree m m') (c : Dev Cert.KernelIdeal.nD) :
    Rv4 m' c (Proc.devRef .tc Cert.ReferenceIdeal.main_v71) = W4 m ρ c (Proc.devRef .tc Cert.KernelIdeal.main_v90) := by
  have e0 : Rv3 m' c (Proc.devRef .tc Cert.ReferenceIdeal.main_arg8) = W3 m ρ c (Proc.devRef .tc Cert.KernelIdeal.main_arg8) :=
    ((Rv3_keep m' c _ (by decide)).trans ((Rv2_keep m' c _ (by decide)).trans (Rv1_keep m' c _ (by decide)))).trans ((arg8 ρ hag c).trans ((W3_keep m ρ c _ (by decide)).trans ((W2_keep m ρ c _ (by decide)).trans (W1_keep m ρ c _ (by decide)))).symm)
  rw [Rv4_eq, W4_eq]
  exact s_v90 _ _ e0

/-- The object features averaged over the first edge list's destinations. -/
theorem p_v38 (hag : Agree m m') (c : Dev Cert.KernelIdeal.nD) (h14 : Rv2 m' c (Proc.devRef .tc Cert.ReferenceIdeal.main_v39) = W2 m ρ c (Proc.devRef .tc Cert.KernelIdeal.main_v14)) :
    Rv4 m' c (Proc.devRef .tc Cert.ReferenceIdeal.main_v94) = W4 m ρ c (Proc.devRef .tc Cert.KernelIdeal.main_v38) := by
  have e0 : Rv3 m' c (Proc.devRef .tc Cert.ReferenceIdeal.main_arg15) = W3 m ρ c (Proc.devRef .tc Cert.KernelIdeal.main_arg15) :=
    ((Rv3_keep m' c _ (by decide)).trans ((Rv2_keep m' c _ (by decide)).trans (Rv1_keep m' c _ (by decide)))).trans ((arg15 ρ hag c).trans ((W3_keep m ρ c _ (by decide)).trans ((W2_keep m ρ c _ (by decide)).trans (W1_keep m ρ c _ (by decide)))).symm)
  have e1 : Rv3 m' c (Proc.devRef .tc Cert.ReferenceIdeal.main_v39) = W3 m ρ c (Proc.devRef .tc Cert.KernelIdeal.main_v14) :=
    ((Rv3_keep m' c _ (by decide))).trans ((h14).trans ((W3_keep m ρ c _ (by decide))).symm)
  rw [Rv4_eq, W4_eq]
  exact s_v38 _ _ e0 e1

/-- The attribute features averaged over the second edge list's destinations. -/
theorem p_v61 (hag : Agree m m') (c : Dev Cert.KernelIdeal.nD) (h15 : Rv3 m' c (Proc.devRef .tc Cert.ReferenceIdeal.main_v65) = W3 m ρ c (Proc.devRef .tc Cert.KernelIdeal.main_v15)) :
    Rv6 m' c (Proc.devRef .tc Cert.ReferenceIdeal.main_v129) = W4 m ρ c (Proc.devRef .tc Cert.KernelIdeal.main_v61) := by
  have e0 : Rv5 m' c (Proc.devRef .tc Cert.ReferenceIdeal.main_arg16) = W3 m ρ c (Proc.devRef .tc Cert.KernelIdeal.main_arg16) :=
    ((Rv5_keep m' c _ (by decide)).trans ((Rv4_keep m' c _ (by decide)).trans ((Rv3_keep m' c _ (by decide)).trans ((Rv2_keep m' c _ (by decide)).trans (Rv1_keep m' c _ (by decide)))))).trans ((arg16 ρ hag c).trans ((W3_keep m ρ c _ (by decide)).trans ((W2_keep m ρ c _ (by decide)).trans (W1_keep m ρ c _ (by decide)))).symm)
  have e1 : Rv5 m' c (Proc.devRef .tc Cert.ReferenceIdeal.main_v65) = W3 m ρ c (Proc.devRef .tc Cert.KernelIdeal.main_v15) :=
    ((Rv5_keep m' c _ (by decide)).trans (Rv4_keep m' c _ (by decide))).trans (h15)
  rw [Rv6_eq, W4_eq]
  exact s_v61 _ _ e0 e1

/-- The object features averaged over the third edge list's destinations. -/
theorem p_v84 (hag : Agree m m') (c : Dev Cert.KernelIdeal.nD) (h14 : Rv2 m' c (Proc.devRef .tc Cert.ReferenceIdeal.main_v39) = W2 m ρ c (Proc.devRef .tc Cert.KernelIdeal.main_v14)) :
    Rv8 m' c (Proc.devRef .tc Cert.ReferenceIdeal.main_v164) = W4 m ρ c (Proc.devRef .tc Cert.KernelIdeal.main_v84) := by
  have e0 : Rv7 m' c (Proc.devRef .tc Cert.ReferenceIdeal.main_arg17) = W3 m ρ c (Proc.devRef .tc Cert.KernelIdeal.main_arg17) :=
    ((Rv7_keep m' c _ (by decide)).trans ((Rv6_keep m' c _ (by decide)).trans ((Rv5_keep m' c _ (by decide)).trans ((Rv4_keep m' c _ (by decide)).trans ((Rv3_keep m' c _ (by decide)).trans ((Rv2_keep m' c _ (by decide)).trans (Rv1_keep m' c _ (by decide)))))))).trans ((arg17 ρ hag c).trans ((W3_keep m ρ c _ (by decide)).trans ((W2_keep m ρ c _ (by decide)).trans (W1_keep m ρ c _ (by decide)))).symm)
  have e1 : Rv7 m' c (Proc.devRef .tc Cert.ReferenceIdeal.main_v39) = W3 m ρ c (Proc.devRef .tc Cert.KernelIdeal.main_v14) :=
    ((Rv7_keep m' c _ (by decide)).trans ((Rv6_keep m' c _ (by decide)).trans ((Rv5_keep m' c _ (by decide)).trans ((Rv4_keep m' c _ (by decide)).trans (Rv3_keep m' c _ (by decide)))))).trans ((h14).trans ((W3_keep m ρ c _ (by decide))).symm)
  rw [Rv8_eq, W4_eq]
  exact s_v84 _ _ e0 e1

/-! ## Region 2: the first convolution's linear combine -/

set_option maxHeartbeats 1000000 in
/-- Region 2's output array against the reference's combine of the attribute features, the aggregated object features
    and the first convolution's parameters. -/
theorem p_v91 (hag : Agree m m') (c : Dev Cert.KernelIdeal.nD) (h14 : Rv2 m' c (Proc.devRef .tc Cert.ReferenceIdeal.main_v39) = W2 m ρ c (Proc.devRef .tc Cert.KernelIdeal.main_v14)) (h15 : Rv3 m' c (Proc.devRef .tc Cert.ReferenceIdeal.main_v65) = W3 m ρ c (Proc.devRef .tc Cert.KernelIdeal.main_v15)) :
    Rv5 m' c (Proc.devRef .tc Cert.ReferenceIdeal.main_v100) = W5 m ρ c (Proc.devRef .tc Cert.KernelIdeal.main_v91) := by
  have e15 : Rv4 m' c (Proc.devRef .tc Cert.ReferenceIdeal.main_v65) = W4 m ρ c (Proc.devRef .tc Cert.KernelIdeal.main_v15) :=
    ((Rv4_keep m' c _ (by decide))).trans ((h15).trans ((W4_keep m ρ c _ (by decide))).symm)
  rw [W5_out, Cert.Val.val2 (V4 m ρ) c, Rv5_eq, s_r100]
  simp only [arrRef2_0, arrRef2_1, arrRef2_2, arrRef2_3, arrRef2_4]
  rw [e15, p_v38 ρ hag c h14, p_v86 ρ hag c, p_v88 ρ hag c, p_v90 ρ hag c]

/-! ## The second and third convolutions' parameters (the kernel program's sixth boundary) -/

/-- The second convolution's self weight. -/
theorem p_v93 (hag : Agree m m') (c : Dev Cert.KernelIdeal.nD) :
    Rv6 m' c (Proc.devRef .tc Cert.ReferenceIdeal.main_v102) = W6 m ρ c (Proc.devRef .tc Cert.KernelIdeal.main_v93) := by
  have e0 : Rv5 m' c (Proc.devRef .tc Cert.ReferenceIdeal.main_arg6) = W5 m ρ c (Proc.devRef .tc Cert.KernelIdeal.main_arg6) :=
    ((Rv5_keep m' c _ (by decide)).trans ((Rv4_keep m' c _ (by decide)).trans ((Rv3_keep m' c _ (by decide)).trans ((Rv2_keep m' c _ (by decide)).trans (Rv1_keep m' c _ (by decide)))))).trans ((arg6 ρ hag c).trans ((W5_keep m ρ c _ (by decide)).trans ((W4_keep m ρ c _ (by decide)).trans ((W3_keep m ρ c _ (by decide)).trans ((W2_keep m ρ c _ (by decide)).trans (W1_keep m ρ c _ (by decide)))))).symm)
  rw [Rv6_eq, W6_eq]
  exact s_v93 _ _ e0

/-- Its message weight. -/
theorem p_v95 (hag : Agree m m') (c : Dev Cert.KernelIdeal.nD) :
    Rv6 m' c (Proc.devRef .tc Cert.ReferenceIdeal.main_v104) = W6 m ρ c (Proc.devRef .tc Cert.KernelIdeal.main_v95) := by
  have e0 : Rv5 m' c (Proc.devRef .tc Cert.ReferenceIdeal.main_arg7) = W5 m ρ c (Proc.devRef .tc Cert.KernelIdeal.main_arg7) :=
    ((Rv5_keep m' c _ (by decide)).trans ((Rv4_keep m' c _ (by decide)).trans ((Rv3_keep m' c _ (by decide)).trans ((Rv2_keep m' c _ (by decide)).trans (Rv1_keep m' c _ (by decide)))))).trans ((arg7 ρ hag c).trans ((W5_keep m ρ c _ (by decide)).trans ((W4_keep m ρ c _ (by decide)).trans ((W3_keep m ρ c _ (by decide)).trans ((W2_keep m ρ c _ (by decide)).trans (W1_keep m ρ c _ (by decide)))))).symm)
  rw [Rv6_eq, W6_eq]
  exact s_v95 _ _ e0

/-- Its bias. -/
theorem p_v97 (hag : Agree m m') (c : Dev Cert.KernelIdeal.nD) :
    Rv6 m' c (Proc.devRef .tc Cert.ReferenceIdeal.main_v106) = W6 m ρ c (Proc.devRef .tc Cert.KernelIdeal.main_v97) := by
  have e0 : Rv5 m' c (Proc.devRef .tc Cert.ReferenceIdeal.main_arg8) = W5 m ρ c (Proc.devRef .tc Cert.KernelIdeal.main_arg8) :=
    ((Rv5_keep m' c _ (by decide)).trans ((Rv4_keep m' c _ (by decide)).trans ((Rv3_keep m' c _ (by decide)).trans ((Rv2_keep m' c _ (by decide)).trans (Rv1_keep m' c _ (by decide)))))).trans ((arg8 ρ hag c).trans ((W5_keep m ρ c _ (by decide)).trans ((W4_keep m ρ c _ (by decide)).trans ((W3_keep m ρ c _ (by decide)).trans ((W2_keep m ρ c _ (by decide)).trans (W1_keep m ρ c _ (by decide)))))).symm)
  rw [Rv6_eq, W6_eq]
  exact s_v97 _ _ e0

/-- The third convolution's self weight. -/
theorem p_v99 (hag : Agree m m') (c : Dev Cert.KernelIdeal.nD) :
    Rv8 m' c (Proc.devRef .tc Cert.ReferenceIdeal.main_v137) = W6 m ρ c (Proc.devRef .tc Cert.KernelIdeal.main_v99) := by
  have e0 : Rv7 m' c (Proc.devRef .tc Cert.ReferenceIdeal.main_arg6) = W5 m ρ c (Proc.devRef .tc Cert.KernelIdeal.main_arg6) :=
    ((Rv7_keep m' c _ (by decide)).trans ((Rv6_keep m' c _ (by decide)).trans ((Rv5_keep m' c _ (by decide)).trans ((Rv4_keep m' c _ (by decide)).trans ((Rv3_keep m' c _ (by decide)).trans ((Rv2_keep m' c _ (by decide)).trans (Rv1_keep m' c _ (by decide)))))))).trans ((arg6 ρ hag c).trans ((W5_keep m ρ c _ (by decide)).trans ((W4_keep m ρ c _ (by decide)).trans ((W3_keep m ρ c _ (by decide)).trans ((W2_keep m ρ c _ (by decide)).trans (W1_keep m ρ c _ (by decide)))))).symm)
  rw [Rv8_eq, W6_eq]
  exact s_v99 _ _ e0

/-- Its message weight. -/
theorem p_v101 (hag : Agree m m') (c : Dev Cert.KernelIdeal.nD) :
    Rv8 m' c (Proc.devRef .tc Cert.ReferenceIdeal.main_v139) = W6 m ρ c (Proc.devRef .tc Cert.KernelIdeal.main_v101) := by
  have e0 : Rv7 m' c (Proc.devRef .tc Cert.ReferenceIdeal.main_arg7) = W5 m ρ c (Proc.devRef .tc Cert.KernelIdeal.main_arg7) :=
    ((Rv7_keep m' c _ (by decide)).trans ((Rv6_keep m' c _ (by decide)).trans ((Rv5_keep m' c _ (by decide)).trans ((Rv4_keep m' c _ (by decide)).trans ((Rv3_keep m' c _ (by decide)).trans ((Rv2_keep m' c _ (by decide)).trans (Rv1_keep m' c _ (by decide)))))))).trans ((arg7 ρ hag c).trans ((W5_keep m ρ c _ (by decide)).trans ((W4_keep m ρ c _ (by decide)).trans ((W3_keep m ρ c _ (by decide)).trans ((W2_keep m ρ c _ (by decide)).trans (W1_keep m ρ c _ (by decide)))))).symm)
  rw [Rv8_eq, W6_eq]
  exact s_v101 _ _ e0

/-- Its bias. -/
theorem p_v103 (hag : Agree m m') (c : Dev Cert.KernelIdeal.nD) :
    Rv8 m' c (Proc.devRef .tc Cert.ReferenceIdeal.main_v141) = W6 m ρ c (Proc.devRef .tc Cert.KernelIdeal.main_v103) := by
  have e0 : Rv7 m' c (Proc.devRef .tc Cert.ReferenceIdeal.main_arg8) = W5 m ρ c (Proc.devRef .tc Cert.KernelIdeal.main_arg8) :=
    ((Rv7_keep m' c _ (by decide)).trans ((Rv6_keep m' c _ (by decide)).trans ((Rv5_keep m' c _ (by decide)).trans ((Rv4_keep m' c _ (by decide)).trans ((Rv3_keep m' c _ (by decide)).trans ((Rv2_keep m' c _ (by decide)).trans (Rv1_keep m' c _ (by decide)))))))).trans ((arg8 ρ hag c).trans ((W5_keep m ρ c _ (by decide)).trans ((W4_keep m ρ c _ (by decide)).trans ((W3_keep m ρ c _ (by decide)).trans ((W2_keep m ρ c _ (by decide)).trans (W1_keep m ρ c _ (by decide)))))).symm)
  rw [Rv8_eq, W6_eq]
  exact s_v103 _ _ e0

/-! ## Region 3: the second and third convolutions' linear combines, added -/

set_option maxHeartbeats 4000000 in
/-- Region 3's output array against the reference's sum of the two combines over the object features. -/
theorem p_v104 (hag : Agree m m') (c : Dev Cert.KernelIdeal.nD) (h14 : Rv2 m' c (Proc.devRef .tc Cert.ReferenceIdeal.main_v39) = W2 m ρ c (Proc.devRef .tc Cert.KernelIdeal.main_v14)) (h15 : Rv3 m' c (Proc.devRef .tc Cert.ReferenceIdeal.main_v65) = W3 m ρ c (Proc.devRef .tc Cert.KernelIdeal.main_v15)) :
    Rv9 m' c (Proc.devRef .tc Cert.ReferenceIdeal.main_v171) = W7 m ρ c (Proc.devRef .tc Cert.KernelIdeal.main_v104) := by
  have e135 : Rv8 m' c (Proc.devRef .tc Cert.ReferenceIdeal.main_v135)
      = Cert.Val.refSageLin (F := Ideal) (Rv6 m' c (Proc.devRef .tc Cert.ReferenceIdeal.main_v39)) (Rv6 m' c (Proc.devRef .tc Cert.ReferenceIdeal.main_v129)) (Rv6 m' c (Proc.devRef .tc Cert.ReferenceIdeal.main_v102))
          (Rv6 m' c (Proc.devRef .tc Cert.ReferenceIdeal.main_v104)) (Rv6 m' c (Proc.devRef .tc Cert.ReferenceIdeal.main_v106)) := by
    rw [Rv8_keep m' c Cert.ReferenceIdeal.main_v135 (by decide), Rv7_eq, s_r135]
  have a39 : Rv6 m' c (Proc.devRef .tc Cert.ReferenceIdeal.main_v39) = W6 m ρ c (Proc.devRef .tc Cert.KernelIdeal.main_v14) :=
    ((Rv6_keep m' c _ (by decide)).trans ((Rv5_keep m' c _ (by decide)).trans ((Rv4_keep m' c _ (by decide)).trans (Rv3_keep m' c _ (by decide))))).trans ((h14).trans ((W6_keep m ρ c _ (by decide)).trans ((W5_keep m ρ c _ (by decide)).trans ((W4_keep m ρ c _ (by decide)).trans (W3_keep m ρ c _ (by decide))))).symm)
  have a129 : Rv6 m' c (Proc.devRef .tc Cert.ReferenceIdeal.main_v129) = W6 m ρ c (Proc.devRef .tc Cert.KernelIdeal.main_v61) :=
    ((p_v61 ρ hag c h15).trans ((W6_keep m ρ c _ (by decide)).trans (W5_keep m ρ c _ (by decide))).symm)
  have b39 : Rv8 m' c (Proc.devRef .tc Cert.ReferenceIdeal.main_v39) = W6 m ρ c (Proc.devRef .tc Cert.KernelIdeal.main_v14) :=
    ((Rv8_keep m' c _ (by decide)).trans ((Rv7_keep m' c _ (by decide)).trans ((Rv6_keep m' c _ (by decide)).trans ((Rv5_keep m' c _ (by decide)).trans ((Rv4_keep m' c _ (by decide)).trans (Rv3_keep m' c _ (by decide))))))).trans ((h14).trans ((W6_keep m ρ c _ (by decide)).trans ((W5_keep m ρ c _ (by decide)).trans ((W4_keep m ρ c _ (by decide)).trans (W3_keep m ρ c _ (by decide))))).symm)
  have b164 : Rv8 m' c (Proc.devRef .tc Cert.ReferenceIdeal.main_v164) = W6 m ρ c (Proc.devRef .tc Cert.KernelIdeal.main_v84) :=
    ((p_v84 ρ hag c h14).trans ((W6_keep m ρ c _ (by decide)).trans (W5_keep m ρ c _ (by decide))).symm)
  rw [W7_out, Cert.Val.val3 (V6 m ρ) c, Rv9_eq, s_r171]
  simp only [arrRef3_0, arrRef3_1, arrRef3_2, arrRef3_3, arrRef3_4, arrRef3_5, arrRef3_6, arrRef3_7, arrRef3_8]
  unfold Cert.Val.refSage2
  rw [e135, a39, a129, p_v93 ρ hag c, p_v95 ρ hag c, p_v97 ρ hag c, b39, b164, p_v99 ρ hag c, p_v101 ρ hag c, p_v103 ρ hag c]

end Cert.Bridge

end
-- ==== Proof.Val.BnRef.lean ====
/-
  The reference's batch-norm affine step and its LeakyReLU, each as ONE pure function of whole arrays, in the
  operations and the nesting in which the reference program spells them, for any float instance; and, on the extended
  reals, what each of them is at one index.

  `refBn x gamma beta mu var` is `gamma * (x - mu) / sqrt (var + eps) + beta` over a 200000 x 64 array `x` and four
  per-feature vectors of length 64, each vector first made a row and then repeated down the rows; `eps` is the single-precision
  float nearest 1e-5. `refLeaky y` keeps `y` where it is at least zero and takes `0.01 * y` elsewhere.
  At row `p` and feature `q` the first reads only `x p q` and the four vectors at `q`; the second is pointwise.
-/
import proofs.«151172_j14164802142730_2_alg».proof.ReferenceIdeal
import Idealize.ShloMosaic.Lib.Pipeline.Value
import Idealize.ShloMosaic.Lib.ValueIdx
import Idealize.ShloMosaic.PureOps.Ideal.Laws

noncomputable section

namespace Cert.Val

open Idealize.ShloMosaic Idealize.ShloMosaic.ValueIdx
open Cert.ReferenceIdeal (S200000x64 S64 S1x64 S_)
open Cert.ReferenceIdeal.Facts₀

section AnyInstance
variable {F : FTy → Type} [FloatOps F] [Cert.ReferenceIdeal.Facts₀]

/-- The reference's normalisation step: the mean subtracted, the scale multiplied on, the quotient by the square root
    of the variance plus `eps`, the shift added; every vector broadcast to a row and then over the rows. -/
def refBn (x : FVec F S200000x64 .f32) (gamma beta mu var : FVec F S64 .f32) : FVec F S200000x64 .f32 :=
  addf
    (Host.divf
      (mulf
        (broadcastInDim S200000x64 ![0, 1] bcast_S1x64_S200000x64_0_1 (broadcastInDim S1x64 ![1] bcast_S64_S1x64_1 gamma))
        (subf x (broadcastInDim S200000x64 ![0, 1] bcast_S1x64_S200000x64_0_1 (broadcastInDim S1x64 ![1] bcast_S64_S1x64_1 mu))))
      (broadcastInDim S200000x64 ![0, 1] bcast_S1x64_S200000x64_0_1 (broadcastInDim S1x64 ![1] bcast_S64_S1x64_1
        (Host.sqrt (addf var (broadcastInDim S64 ![] bcast_S_S64 (constant S_ .f32 0x3727C5AC#32)))))))
    (broadcastInDim S200000x64 ![0, 1] bcast_S1x64_S200000x64_0_1 (broadcastInDim S1x64 ![1] bcast_S64_S1x64_1 beta))

/-- The reference's LeakyReLU: where `y ≥ 0` it is `y`, elsewhere `0.01 * y`. -/
def refLeaky (y : FVec F S200000x64 .f32) : FVec F S200000x64 .f32 :=
  select (cmpf .oge y (broadcastInDim S200000x64 ![] bcast_S_S200000x64 (constant S_ .f32 0x00000000#32)))
    y (mulf (broadcastInDim S200000x64 ![] bcast_S_S200000x64 (constant S_ .f32 0x3C23D70A#32)) y)

/-- A vector made a row and repeated down the rows reads, at row `p` and feature `q`, the vector at `q`. -/
theorem rowBroadcast_apply {α : Type} (v : S64.Idx → α) (p : Fin 200000) (q : Fin 64) :
    broadcastInDim S200000x64 ![0, 1] bcast_S1x64_S200000x64_0_1 (broadcastInDim S1x64 ![1] bcast_S64_S1x64_1 v) (ix2 p q)
      = v (ix1 q) :=
  (broadcastInDim_apply _ _ _ (ix2 p q) (ix2 (0 : Fin 1) q) (fun a => by match a with | ⟨0, _⟩ => rfl | ⟨1, _⟩ => rfl)).trans
    (broadcastInDim_apply _ _ v (ix2 (0 : Fin 1) q) (ix1 q) (fun a => by match a with | ⟨0, _⟩ => rfl))

/-- A scalar broadcast to a vector reads the scalar everywhere. -/
theorem scalarToVector_apply {α : Type} (x : S_.Idx → α) (i : S64.Idx) :
    broadcastInDim S64 ![] bcast_S_S64 x i = x ix0 :=
  broadcastInDim_apply _ _ x i ix0 (fun a => a.elim0)

/-- A scalar broadcast to the array reads the scalar everywhere. -/
theorem scalarToArray_apply {α : Type} (x : S_.Idx → α) (i : S200000x64.Idx) :
    broadcastInDim S200000x64 ![] bcast_S_S200000x64 x i = x ix0 :=
  broadcastInDim_apply _ _ x i ix0 (fun a => a.elim0)

end AnyInstance

/-! ## On the extended reals, index by index -/

/-- LeakyReLU of one extended real against a zero `z` and a slope `s`: `y` where `y ≥ z`, else `s * y`. -/
def leakyWith (z s y : EReal) : EReal :=
  Scalar.select (FloatOps.cmpf (F := Ideal) (φ := .f32) .oge y z) y (s * y)

/-- LeakyReLU of one extended real, with the two float literals as the programs spell them. -/
def leakyAt (y : EReal) : EReal :=
  leakyWith (Ideal.ofBits .f32 0x00000000#32) (Ideal.ofBits .f32 0x3C23D70A#32) y

/-- `g * (x - m) / s + b`. -/
def bnWith (x g b m s : EReal) : EReal := Ideal.div (g * (x - m)) s + b

/-- The normalisation of one entry: `g * (x - m) / sqrt (v + eps) + b`. -/
def bnAt (x g b m v : EReal) : EReal :=
  bnWith x g b m (Ideal.sqrt (v + Ideal.ofBits .f32 0x3727C5AC#32))

variable [Cert.ReferenceIdeal.Facts₀]

/-- The reference's LeakyReLU at an index is `leakyAt` of the entry there. -/
theorem bnLeaky_apply (y : FVec Ideal S200000x64 .f32) (i : S200000x64.Idx) :
    refLeaky y i = leakyAt (y i) := by
  have h0 : broadcastInDim S200000x64 ![] bcast_S_S200000x64 (constant (F := Ideal) S_ .f32 0x00000000#32) i
      = Ideal.ofBits .f32 0x00000000#32 := scalarToArray_apply _ i
  have h1 : broadcastInDim S200000x64 ![] bcast_S_S200000x64 (constant (F := Ideal) S_ .f32 0x3C23D70A#32) i
      = Ideal.ofBits .f32 0x3C23D70A#32 := scalarToArray_apply _ i
  exact congr (congrArg (fun z s => leakyWith z s (y i)) h0) h1

/-- The reference's normalisation at row `p`, feature `q`. -/
theorem refBn_apply (x : FVec Ideal S200000x64 .f32) (gamma beta mu var : FVec Ideal S64 .f32) (p : Fin 200000) (q : Fin 64) :
    refBn x gamma beta mu var (ix2 p q) = bnAt (x (ix2 p q)) (gamma (ix1 q)) (beta (ix1 q)) (mu (ix1 q)) (var (ix1 q)) := by
  have hG := rowBroadcast_apply gamma p q
  have hB := rowBroadcast_apply beta p q
  have hM := rowBroadcast_apply mu p q
  have hE : broadcastInDim S64 ![] bcast_S_S64 (constant (F := Ideal) S_ .f32 0x3727C5AC#32) (ix1 q)
      = Ideal.ofBits .f32 0x3727C5AC#32 := scalarToVector_apply _ (ix1 q)
  have hS : broadcastInDim S200000x64 ![0, 1] bcast_S1x64_S200000x64_0_1 (broadcastInDim S1x64 ![1] bcast_S64_S1x64_1
        (Host.sqrt (addf var (broadcastInDim S64 ![] bcast_S_S64 (constant (F := Ideal) S_ .f32 0x3727C5AC#32))))) (ix2 p q)
      = Ideal.sqrt (var (ix1 q) + Ideal.ofBits .f32 0x3727C5AC#32) :=
    (rowBroadcast_apply _ p q).trans (congrArg (fun e => Ideal.sqrt (var (ix1 q) + e)) hE)
  exact congr (congr (congr (congrArg (bnWith (x (ix2 p q))) hG) hB) hM) hS

/-- The same at any index `i`, with the feature's index `k` given by its coordinate. -/
theorem refBn_point (x : FVec Ideal S200000x64 .f32) (gamma beta mu var : FVec Ideal S64 .f32) (i : S200000x64.Idx) (k : S64.Idx)
    (hk : (k 0).val = (i 1).val) :
    refBn x gamma beta mu var i = bnAt (x i) (gamma k) (beta k) (mu k) (var k) := by
  obtain ⟨p, q, rfl⟩ : ∃ (p : Fin 200000) (q : Fin 64), i = ix2 p q := ⟨i 0, i 1, eq_ix2 i⟩
  obtain rfl : k = ix1 q := by funext d; match d with | ⟨0, _⟩ => exact Fin.ext hk
  exact refBn_apply x gamma beta mu var p q

/-- The normalisation followed by LeakyReLU, at any index. -/
theorem refLeakyBn_point (x : FVec Ideal S200000x64 .f32) (gamma beta mu var : FVec Ideal S64 .f32) (i : S200000x64.Idx) (k : S64.Idx)
    (hk : (k 0).val = (i 1).val) :
    refLeaky (refBn x gamma beta mu var) i = leakyAt (bnAt (x i) (gamma k) (beta k) (mu k) (var k)) := by
  rw [bnLeaky_apply, refBn_point x gamma beta mu var i k hk]

end Cert.Val

end
-- ==== Proof.Bridge.BL0bS.lean ====
/-
  Layer 0's batch statistics and batch-norm, stage by stage, over ARBITRARY contents of the buffers before each stage.

  Both programs compute a node type's per-feature mean and variance over the 200000 rows by the same host operations (the
  column sums over the constant 200000; the variance through the same inlined function, whose degrees-of-freedom correction
  is the integer constant zero on both sides), and cut the scale and shift vectors out of the same two argument arrays by the
  same slice and reshape. So each of these buffers agrees on the two sides as soon as the buffers the operations read do.
  The reference then normalises and applies its LeakyReLU as host operations; those two stretches are the functions
  `refBn` and `refLeaky` of the buffers they read, which is how the kernel regions' values are stated.
-/
import proofs.«151172_j14164802142730_2_alg».proof.Proof.Gen.KernelIdeal.Launch
import proofs.«151172_j14164802142730_2_alg».proof.Proof.Ref.Chunks
import proofs.«151172_j14164802142730_2_alg».proof.Proof.Val.BnRef
import proofs.«151172_j14164802142730_2_alg».proof.Proof.Gen.ReferenceIdeal
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo

variable (V : Valuation Cert.KernelIdeal.τ Cert.KernelIdeal.sig (Elt Ideal)) (V' : Valuation Cert.ReferenceIdeal.τ Cert.ReferenceIdeal.sig (Elt Ideal))

/-! ## The object nodes' statistics and affine vectors -/

set_option maxHeartbeats 1000000 in
/-- The object features' mean over the rows. -/
theorem s_v107 (h : V' (Proc.devRef .tc Cert.ReferenceIdeal.main_v171) = V (Proc.devRef .tc Cert.KernelIdeal.main_v104)) :
    after Cert.ReferenceIdeal.Hand.C9 V' (Proc.devRef .tc Cert.ReferenceIdeal.main_v178)
      = after Cert.KernelIdeal.Gen.hostOps4 V (Proc.devRef .tc Cert.KernelIdeal.main_v107) := by
  after_results_simp
  rw [h]

set_option maxHeartbeats 1000000 in
/-- The kernel program's stretch that computes that mean also leaves the variance's correction at the integer zero. -/
theorem s_c22 : @Eq (IVec Cert.KernelIdeal.S_ 32) (after Cert.KernelIdeal.Gen.hostOps4 V (Proc.devRef .tc Cert.KernelIdeal.main_c_22))
      (constantI Cert.KernelIdeal.S_ 32 0#32) := by
  after_results_simp

set_option maxHeartbeats 1000000 in
/-- The object features' variance over the rows: the same inlined function on both sides, the correction zero. -/
theorem s_v108 (h : V' (Proc.devRef .tc Cert.ReferenceIdeal.main_v171) = V (Proc.devRef .tc Cert.KernelIdeal.main_v104))
    (hc : @Eq (IVec Cert.KernelIdeal.S_ 32) (V (Proc.devRef .tc Cert.KernelIdeal.main_c_22)) (constantI Cert.KernelIdeal.S_ 32 0#32)) :
    after Cert.ReferenceIdeal.Hand.C9 V' (Proc.devRef .tc Cert.ReferenceIdeal.main_v179)
      = after Cert.KernelIdeal.Gen.hostOps4_1 V (Proc.devRef .tc Cert.KernelIdeal.main_v108) := by
  after_results_simp
  simp only [TRef.ofBuf, TRef.toBuf, cast_eq]
  rw [h, hc]

set_option maxHeartbeats 1000000 in
/-- The object nodes' scale vector: row (0, 0) of the scales. -/
theorem s_v114 (h : V' (Proc.devRef .tc Cert.ReferenceIdeal.main_arg9) = V (Proc.devRef .tc Cert.KernelIdeal.main_arg9)) :
    after Cert.ReferenceIdeal.Hand.C9 V' (Proc.devRef .tc Cert.ReferenceIdeal.main_v173)
      = after Cert.KernelIdeal.Gen.hostOps4_4 V (Proc.devRef .tc Cert.KernelIdeal.main_v114) := by
  after_results_simp
  rw [h]
  rfl

set_option maxHeartbeats 1000000 in
/-- The object nodes' shift vector: row (0, 0) of the shifts. -/
theorem s_v116 (h : V' (Proc.devRef .tc Cert.ReferenceIdeal.main_arg10) = V (Proc.devRef .tc Cert.KernelIdeal.main_arg10)) :
    after Cert.ReferenceIdeal.Hand.C9 V' (Proc.devRef .tc Cert.ReferenceIdeal.main_v175)
      = after Cert.KernelIdeal.Gen.hostOps4_4 V (Proc.devRef .tc Cert.KernelIdeal.main_v116) := by
  after_results_simp
  rw [h]
  rfl

/-! ## The attribute nodes' statistics and affine vectors -/

set_option maxHeartbeats 1000000 in
/-- The attribute features' mean over the rows. -/
theorem s_v111 (h : V' (Proc.devRef .tc Cert.ReferenceIdeal.main_v100) = V (Proc.devRef .tc Cert.KernelIdeal.main_v91)) :
    after Cert.ReferenceIdeal.Hand.C11 V' (Proc.devRef .tc Cert.ReferenceIdeal.main_v201)
      = after Cert.KernelIdeal.Gen.hostOps4_2 V (Proc.devRef .tc Cert.KernelIdeal.main_v111) := by
  after_results_simp
  rw [h]

set_option maxHeartbeats 1000000 in
/-- The kernel program's stretch that computes that mean also leaves the variance's correction at the integer zero. -/
theorem s_c25 : @Eq (IVec Cert.KernelIdeal.S_ 32) (after Cert.KernelIdeal.Gen.hostOps4_2 V (Proc.devRef .tc Cert.KernelIdeal.main_c_25))
      (constantI Cert.KernelIdeal.S_ 32 0#32) := by
  after_results_simp

set_option maxHeartbeats 1000000 in
/-- The attribute features' variance over the rows. -/
theorem s_v112 (h : V' (Proc.devRef .tc Cert.ReferenceIdeal.main_v100) = V (Proc.devRef .tc Cert.KernelIdeal.main_v91))
    (hc : @Eq (IVec Cert.KernelIdeal.S_ 32) (V (Proc.devRef .tc Cert.KernelIdeal.main_c_25)) (constantI Cert.KernelIdeal.S_ 32 0#32)) :
    after Cert.ReferenceIdeal.Hand.C11 V' (Proc.devRef .tc Cert.ReferenceIdeal.main_v202)
      = after Cert.KernelIdeal.Gen.hostOps4_3 V (Proc.devRef .tc Cert.KernelIdeal.main_v112) := by
  after_results_simp
  simp only [TRef.ofBuf, TRef.toBuf, cast_eq]
  rw [h, hc]

set_option maxHeartbeats 1000000 in
/-- The attribute nodes' scale vector: row (0, 1) of the scales. -/
theorem s_v119 (h : V' (Proc.devRef .tc Cert.ReferenceIdeal.main_arg9) = V (Proc.devRef .tc Cert.KernelIdeal.main_arg9)) :
    after Cert.ReferenceIdeal.Hand.C11 V' (Proc.devRef .tc Cert.ReferenceIdeal.main_v196)
      = after Cert.KernelIdeal.Gen.hostOps5 V (Proc.devRef .tc Cert.KernelIdeal.main_v119) := by
  after_results_simp
  rw [h]
  rfl

set_option maxHeartbeats 1000000 in
/-- The attribute nodes' shift vector: row (0, 1) of the shifts. -/
theorem s_v121 (h : V' (Proc.devRef .tc Cert.ReferenceIdeal.main_arg10) = V (Proc.devRef .tc Cert.KernelIdeal.main_arg10)) :
    after Cert.ReferenceIdeal.Hand.C11 V' (Proc.devRef .tc Cert.ReferenceIdeal.main_v198)
      = after Cert.KernelIdeal.Gen.hostOps5 V (Proc.devRef .tc Cert.KernelIdeal.main_v121) := by
  after_results_simp
  rw [h]
  rfl

/-! ## The reference's normalisation and LeakyReLU stretches, as the functions the regions' values are stated with -/

set_option maxHeartbeats 1000000 in
/-- The object nodes' normalisation. -/
theorem s_r194 : after Cert.ReferenceIdeal.Hand.C10 V' (Proc.devRef .tc Cert.ReferenceIdeal.main_v194)
      = Cert.Val.refBn (F := Ideal) (V' (Proc.devRef .tc Cert.ReferenceIdeal.main_v171)) (V' (Proc.devRef .tc Cert.ReferenceIdeal.main_v173))
          (V' (Proc.devRef .tc Cert.ReferenceIdeal.main_v175)) (V' (Proc.devRef .tc Cert.ReferenceIdeal.main_v178))
          (V' (Proc.devRef .tc Cert.ReferenceIdeal.main_v179)) := by
  after_results_simp
  rfl

set_option maxHeartbeats 1000000 in
/-- The attribute nodes' normalisation. -/
theorem s_r217 : after Cert.ReferenceIdeal.Hand.C12 V' (Proc.devRef .tc Cert.ReferenceIdeal.main_v217)
      = Cert.Val.refBn (F := Ideal) (V' (Proc.devRef .tc Cert.ReferenceIdeal.main_v100)) (V' (Proc.devRef .tc Cert.ReferenceIdeal.main_v196))
          (V' (Proc.devRef .tc Cert.ReferenceIdeal.main_v198)) (V' (Proc.devRef .tc Cert.ReferenceIdeal.main_v201))
          (V' (Proc.devRef .tc Cert.ReferenceIdeal.main_v202)) := by
  after_results_simp
  rfl

set_option maxHeartbeats 1000000 in
/-- The object nodes' LeakyReLU. -/
theorem s_r222 : after Cert.ReferenceIdeal.Hand.C13 V' (Proc.devRef .tc Cert.ReferenceIdeal.main_v222)
      = Cert.Val.refLeaky (F := Ideal) (V' (Proc.devRef .tc Cert.ReferenceIdeal.main_v194)) := by
  after_results_simp
  simp only [TRef.ofBuf, TRef.toBuf, cast_eq]
  rfl

set_option maxHeartbeats 1000000 in
/-- The attribute nodes' LeakyReLU. -/
theorem s_r227 : after Cert.ReferenceIdeal.Hand.C13 V' (Proc.devRef .tc Cert.ReferenceIdeal.main_v227)
      = Cert.Val.refLeaky (F := Ideal) (V' (Proc.devRef .tc Cert.ReferenceIdeal.main_v217)) := by
  after_results_simp
  simp only [TRef.ofBuf, TRef.toBuf, cast_eq]
  rfl

end Cert.Bridge

end
-- ==== Proof.Spec.BnLaw.lean ====
/- The normalisation law at the extended reals: multiplying by the reciprocal square root agrees with
   dividing by the square root on a strictly positive argument (the infinite one included), a mean of
   squares plus a positive real is strictly positive, and the float constants the programs spell. -/
import Idealize.ShloMosaic.PureOps.Ideal
import Mathlib.Data.EReal.Inv
import Mathlib.Data.EReal.Operations
import Mathlib.Analysis.SpecialFunctions.Sqrt
import Mathlib.Algebra.Order.BigOperators.Group.Finset

noncomputable section

namespace Cert.Spec

open Idealize.ShloMosaic

/-- On `0 < v` (with `v = ⊤` allowed) `a * rsqrt v = a / sqrt v`: at `⊤` both sides are `a * 0`; at a real
    `r > 0` the square root is a nonzero real and both sides are `a * (√r)⁻¹`. -/
theorem mul_rsqrt_eq_div_sqrt (a v : EReal) (hv : 0 < v) : a * Ideal.rsqrt v = Ideal.div a (Ideal.sqrt v) := by
  induction v using EReal.rec with
  | bot => exact absurd hv (not_lt_of_ge bot_le)
  | top =>
    rw [Ideal.rsqrt_top, Ideal.sqrt_top, Ideal.div, if_neg (by simp), EReal.inv_top]
  | coe r =>
    have hr : 0 < r := by exact_mod_cast hv
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]

/-- A square is nonnegative at every extended real: `⊥ * ⊥ = ⊤`, `⊤ * ⊤ = ⊤`, and a real's square. -/
theorem mul_self_nonneg' (c : EReal) : 0 ≤ c * c := by
  induction c using EReal.rec with
  | bot => rw [EReal.bot_mul_bot]; exact le_top
  | top => rw [EReal.top_mul_top]; exact le_top
  | coe r => rw [← EReal.coe_mul]; exact_mod_cast mul_self_nonneg r

/-- A sum of squares is nonnegative, with no finiteness assumption. -/
theorem sum_mul_self_nonneg {ι : Type*} (s : Finset ι) (f : ι → EReal) : 0 ≤ ∑ i ∈ s, f i * f i :=
  Finset.sum_nonneg fun i _ => mul_self_nonneg' (f i)

/-- A mean of squares plus a positive real is strictly positive. -/
theorem mean_sq_add_pos {ι : Type*} [Fintype ι] (f : ι → EReal) {n e : ℝ} (hn : 0 < n) (he : 0 < e) :
    0 < Ideal.div (0 + ∑ i, f i * f i) (n : EReal) + (e : EReal) := by
  have h1 : (0 : EReal) ≤ Ideal.div (0 + ∑ i, f i * f i) (n : EReal) := by
    rw [Ideal.div_coe hn.ne', zero_add]
    exact EReal.mul_nonneg (sum_mul_self_nonneg _ f) (by exact_mod_cast (one_div_pos.mpr hn).le)
  exact Right.add_pos_of_nonneg_of_pos h1 (by exact_mod_cast he)

/-- `200000.0` denotes the real `200000`. -/
theorem ofBits_200000 : Ideal.ofBits .f32 0x48435000#32 = ((200000 : ℝ) : EReal) := by
  simp [Ideal.ofBits, Ideal.ieee, -EReal.coe_mul]; norm_num

/-- `+0.0` denotes `0`. -/
theorem ofBits_zero : Ideal.ofBits .f32 0x00000000#32 = (0 : EReal) := by
  simp [Ideal.ofBits, Ideal.ieee]

/-- The float nearest `1e-5` denotes a strictly positive real. -/
theorem ofBits_eps : ∃ e : ℝ, 0 < e ∧ Ideal.ofBits .f32 0x3727C5AC#32 = (e : EReal) := by
  refine ⟨((10995116 : ℝ) * (2 : ℝ) ^ (-40 : Int)), by positivity, ?_⟩
  simp [Ideal.ofBits, Ideal.ieee, -EReal.coe_mul]

end Cert.Spec

end
-- ==== Proof.Val.Var.lean ====
/- The reference's variance and mean over the rows as pure terms, and the variance's sign at the extended
   reals: with the degrees-of-freedom correction zero the divisor 200000 - 0 is positive, the selection keeps
   the quotient, and the quotient is a sum of squares over a positive real. -/
import proofs.«151172_j14164802142730_2_alg».proof.ReferenceIdeal
import proofs.«151172_j14164802142730_2_alg».proof.Proof.Spec.BnLaw
import Idealize.ShloMosaic.Lib.IdealHost

noncomputable section

namespace Cert.Val

open Idealize.ShloMosaic Idealize.SL.Sem Cert.ReferenceIdeal Cert.ReferenceIdeal.Facts₀

section Terms
variable {F : FTy → Type} [FloatOps F] [Cert.ReferenceIdeal.Facts₀]

/-- The variance over the rows, term for term as the reference's function computes it: the column sums from
    zero, over the constant 200000, broadcast back and subtracted; the differences squared and summed from zero;
    that sum over 200000 minus the correction; kept where that divisor is positive, the junk constant elsewhere. -/
def refVar (x : FVec F S200000x64 .f32) (ddof : IVec S_ 32) : FVec F S64 .f32 :=
  select
    (broadcastInDim S64 ![] bcast_S_S64 (cmpf (F := F) .ogt (subf (constant S_ .f32 0x48435000#32) (sitofp .f32 ddof)) (constant S_ .f32 0x00000000#32)))
    (Host.divf
      (Host.reduceAdd
        (mulf (subf x (broadcastInDim S200000x64 ![0, 1] bcast_S1x64_S200000x64_0_1 (Host.divf (broadcastInDim S1x64 ![1] bcast_S64_S1x64_1 (Host.reduceAdd x (constant S_ .f32 0x00000000#32) reducesTo_S200000x64_S64_d0 h_S_)) (broadcastInDim S1x64 ![] bcast_S_S1x64 (constant S_ .f32 0x48435000#32))))) (subf x (broadcastInDim S200000x64 ![0, 1] bcast_S1x64_S200000x64_0_1 (Host.divf (broadcastInDim S1x64 ![1] bcast_S64_S1x64_1 (Host.reduceAdd x (constant S_ .f32 0x00000000#32) reducesTo_S200000x64_S64_d0 h_S_)) (broadcastInDim S1x64 ![] bcast_S_S1x64 (constant S_ .f32 0x48435000#32))))))
        (constant S_ .f32 0x00000000#32) reducesTo_S200000x64_S64_d0 h_S_)
      (broadcastInDim S64 ![] bcast_S_S64 (subf (constant S_ .f32 0x48435000#32) (sitofp .f32 ddof))))
    (broadcastInDim S64 ![] bcast_S_S64 (id (constant S_ .f32 0x7FC00000#32)))

/-- The mean over the rows as the reference computes it: the column sums from zero over the constant 200000. -/
def refMean (x : FVec F S200000x64 .f32) : FVec F S64 .f32 :=
  Host.divf
    (Host.reduceAdd x (constant S_ .f32 0x00000000#32) reducesTo_S200000x64_S64_d0 h_S_)
    (broadcastInDim S64 ![] bcast_S_S64 (constant S_ .f32 0x48435000#32))

end Terms

/-- A selection whose condition holds at an index reads its first branch there. -/
private theorem select_apply_of_eq_one {s : Shape} {α : Type} (c : IVec s 1) (a b : s.Idx → α) (j : s.Idx)
    (h : c j = 1) : select c a b j = a j := by
  unfold select Scalar.select
  rw [if_pos h]

/-- The shape of the variance at the extended reals: a condition that holds, a divisor that is the real 200000,
    an initial value zero, and a summand that is a square. -/
private theorem core [Cert.ReferenceIdeal.Facts₀] (p : IVec S_ 1) (q : FVec Ideal S200000x64 .f32)
    (d z : FVec Ideal S_ .f32) (b : FVec Ideal S64 .f32)
    (hp : ∀ i, p i = 1) (hd : ∀ i, d i = ((200000 : ℝ) : EReal)) (hz : ∀ i, z i = (0 : EReal)) (j : S64.Idx) :
    (0 : EReal) ≤ select (broadcastInDim S64 ![] bcast_S_S64 p)
      (Host.divf (Host.reduceAdd (mulf q q) z reducesTo_S200000x64_S64_d0 h_S_) (broadcastInDim S64 ![] bcast_S_S64 d)) b j := by
  rw [select_apply_of_eq_one _ _ _ j (by rw [ValueIdx.broadcastInDim_scalar_apply]; exact hp _)]
  rw [ValueIdx.hostDivf_apply, ValueIdx.hostReduceAdd_apply, ValueIdx.broadcastInDim_scalar_apply, hd, hz]
  unfold Ideal.hostReduceAdd
  rw [Ideal.div_coe (by norm_num), zero_add]
  have hs : (0 : EReal) ≤ ∑ i ∈ Finset.univ.filter (fun i => reducesTo_S200000x64_S64_d0.drop i = j), q i * q i :=
    Cert.Spec.sum_mul_self_nonneg _ q
  exact EReal.mul_nonneg hs (by exact_mod_cast (by norm_num : (0 : ℝ) ≤ 1 / 200000))

/-- With the correction zero the reference's variance is nonnegative at every column. -/
theorem refVar_nonneg [Cert.ReferenceIdeal.Facts₀] (x : FVec Ideal S200000x64 .f32) :
    ∀ j, 0 ≤ refVar x (constantI S_ 32 0#32) j := by
  intro j
  have hd : ∀ i, subf (constant (F := Ideal) S_ .f32 0x48435000#32) (sitofp .f32 (constantI S_ 32 0#32)) i
      = ((200000 : ℝ) : EReal) := by
    intro i
    show Ideal.ofBits .f32 0x48435000#32 - (((0#32 : BitVec 32).toInt : ℝ) : EReal) = _
    rw [Cert.Spec.ofBits_200000]; simp
  have hz : ∀ i, constant (F := Ideal) S_ .f32 0x00000000#32 i = (0 : EReal) := fun _ => Cert.Spec.ofBits_zero
  have hp : ∀ i, cmpf .ogt (subf (constant (F := Ideal) S_ .f32 0x48435000#32) (sitofp .f32 (constantI S_ 32 0#32)))
      (constant S_ .f32 0x00000000#32) i = 1 := by
    intro i
    show Ideal.cmp .ogt (subf (constant (F := Ideal) S_ .f32 0x48435000#32) (sitofp .f32 (constantI S_ 32 0#32)) i)
      (constant (F := Ideal) S_ .f32 0x00000000#32 i) = 1
    rw [hd, hz]
    simp [Ideal.cmp]
  unfold refVar
  exact core _ _ _ _ _ hp hd hz j

end Cert.Val

end
-- ==== Proof.KI.VarK.lean ====
/- The batch-norm regions' variance inputs: each is the host's variance function of a region's output with the
   correction zero, unchanged until its region is entered, hence nonnegative at every column. -/
import proofs.«151172_j14164802142730_2_alg».proof.Proof.KI.Keeps
import proofs.«151172_j14164802142730_2_alg».proof.Proof.Val.Var
import proofs.«151172_j14164802142730_2_alg».proof.Proof.Gen.ReferenceIdeal

set_option maxRecDepth 16384

noncomputable section

namespace Cert.KernelIdeal.Frame

open Cert.KernelIdeal Cert.KernelIdeal.Gen
open Idealize.ShloMosaic Idealize.ShloMosaic.TcCoe
open Idealize.SL.Sem
open Idealize.ShloMosaic.StableHlo

variable (m : (ℓ : Loc nD τ sig) → Buf (Elt Ideal) ℓ) (ρ : Dev nD → PrngReg)

/-! ## The host's variance function and the correction, over any contents -/

section Generic
variable {F : FTy → Type} [FloatOps F]

set_option maxHeartbeats 1000000 in
/-- The host's variance function for layer 0's object nodes, over any contents: what its last operation leaves at its
    result is the variance term of the contents at its two arguments. -/
theorem var_call0 (V : Valuation τ sig (Elt F)) :
    @Eq (FVec F S64 .f32) (StableHlo.after hostOps4_1 V (Proc.devRef .tc main_v108))
      (Cert.Val.refVar (F := F) (V (Proc.devRef .tc main_v104)) (V (Proc.devRef .tc main_c_22))) := by
  after_results_simp
  simp only [TRef.ofBuf, TRef.toBuf, cast_eq]
  rfl

/-- The stretch before it leaves the correction at the constant zero. -/
theorem ddof_c22 (V : Valuation τ sig (Elt F)) :
    @Eq (IVec S_ 32) (StableHlo.after hostOps4 V (Proc.devRef .tc main_c_22)) (constantI S_ 32 0#32) := by
  after_results_simp

set_option maxHeartbeats 1000000 in
/-- The host's variance function for layer 0's attribute nodes, over any contents: what its last operation leaves at its
    result is the variance term of the contents at its two arguments. -/
theorem var_call1 (V : Valuation τ sig (Elt F)) :
    @Eq (FVec F S64 .f32) (StableHlo.after hostOps4_3 V (Proc.devRef .tc main_v112))
      (Cert.Val.refVar (F := F) (V (Proc.devRef .tc main_v91)) (V (Proc.devRef .tc main_c_25))) := by
  after_results_simp
  simp only [TRef.ofBuf, TRef.toBuf, cast_eq]
  rfl

/-- The stretch before it leaves the correction at the constant zero. -/
theorem ddof_c25 (V : Valuation τ sig (Elt F)) :
    @Eq (IVec S_ 32) (StableHlo.after hostOps4_2 V (Proc.devRef .tc main_c_25)) (constantI S_ 32 0#32) := by
  after_results_simp

set_option maxHeartbeats 1000000 in
/-- The host's variance function for layer 1's object nodes, over any contents: what its last operation leaves at its
    result is the variance term of the contents at its two arguments. -/
theorem var_call2 (V : Valuation τ sig (Elt F)) :
    @Eq (FVec F S64 .f32) (StableHlo.after hostOps8_1 V (Proc.devRef .tc main_v215))
      (Cert.Val.refVar (F := F) (V (Proc.devRef .tc main_v211)) (V (Proc.devRef .tc main_c_46))) := by
  after_results_simp
  simp only [TRef.ofBuf, TRef.toBuf, cast_eq]
  rfl

/-- The stretch before it leaves the correction at the constant zero. -/
theorem ddof_c46 (V : Valuation τ sig (Elt F)) :
    @Eq (IVec S_ 32) (StableHlo.after hostOps8 V (Proc.devRef .tc main_c_46)) (constantI S_ 32 0#32) := by
  after_results_simp

set_option maxHeartbeats 1000000 in
/-- The host's variance function for layer 1's attribute nodes, over any contents: what its last operation leaves at its
    result is the variance term of the contents at its two arguments. -/
theorem var_call3 (V : Valuation τ sig (Elt F)) :
    @Eq (FVec F S64 .f32) (StableHlo.after hostOps8_3 V (Proc.devRef .tc main_v219))
      (Cert.Val.refVar (F := F) (V (Proc.devRef .tc main_v198)) (V (Proc.devRef .tc main_c_49))) := by
  after_results_simp
  simp only [TRef.ofBuf, TRef.toBuf, cast_eq]
  rfl

/-- The stretch before it leaves the correction at the constant zero. -/
theorem ddof_c49 (V : Valuation τ sig (Elt F)) :
    @Eq (IVec S_ 32) (StableHlo.after hostOps8_2 V (Proc.devRef .tc main_c_49)) (constantI S_ 32 0#32) := by
  after_results_simp

end Generic

/-! ## The variance buffers, and their sign where their regions are entered -/

/-- The variance buffer of layer 0's object nodes after the host's variance function: that function of region 3's output
    with the correction zero. -/
theorem var4_eq (c : Dev nD) :
    @Eq (FVec Ideal S64 .f32) (W9 m ρ c (Proc.devRef .tc main_v108))
      (Cert.Val.refVar (F := Ideal) (W7 m ρ c (Proc.devRef .tc main_v104)) (constantI S_ 32 0#32)) := by
  have h := var_call0 (W8 m ρ c)
  have hx : W8 m ρ c (Proc.devRef .tc main_v104) = W7 m ρ c (Proc.devRef .tc main_v104) :=
    (W8_keep m ρ c main_v104 (by decide))
  have hc : W8 m ρ c (Proc.devRef .tc main_c_22) = constantI S_ 32 0#32 := by
    rw [W8_eq]; exact ddof_c22 (W7 m ρ c)
  rw [hx, hc] at h
  rw [W9_eq]
  exact h

/-- Where its region is entered that buffer is unchanged, hence nonnegative at every column. -/
theorem hvar4 (c : Dev nD) : ∀ j, (0 : EReal) ≤ (V12 m ρ c (Pipeline.arrRef spec4 4) : S64.Idx → EReal) j := by
  have e : W12 m ρ c (Proc.devRef .tc main_v108) = W9 m ρ c (Proc.devRef .tc main_v108) :=
    ((W12_keep m ρ c main_v108 (by decide)).trans ((W11_keep m ρ c main_v108 (by decide)).trans (W10_keep m ρ c main_v108 (by decide))))
  intro j
  show (0 : EReal) ≤ (W12 m ρ c (Proc.devRef .tc main_v108) : S64.Idx → EReal) j
  rw [e, var4_eq]
  exact Cert.Val.refVar_nonneg _ j

/-- The variance buffer of layer 0's attribute nodes after the host's variance function: that function of region 2's output
    with the correction zero. -/
theorem var5_eq (c : Dev nD) :
    @Eq (FVec Ideal S64 .f32) (W11 m ρ c (Proc.devRef .tc main_v112))
      (Cert.Val.refVar (F := Ideal) (W5 m ρ c (Proc.devRef .tc main_v91)) (constantI S_ 32 0#32)) := by
  have h := var_call1 (W10 m ρ c)
  have hx : W10 m ρ c (Proc.devRef .tc main_v91) = W5 m ρ c (Proc.devRef .tc main_v91) :=
    ((W10_keep m ρ c main_v91 (by decide)).trans ((W9_keep m ρ c main_v91 (by decide)).trans ((W8_keep m ρ c main_v91 (by decide)).trans ((W7_keep m ρ c main_v91 (by decide)).trans (W6_keep m ρ c main_v91 (by decide))))))
  have hc : W10 m ρ c (Proc.devRef .tc main_c_25) = constantI S_ 32 0#32 := by
    rw [W10_eq]; exact ddof_c25 (W9 m ρ c)
  rw [hx, hc] at h
  rw [W11_eq]
  exact h

/-- Where its region is entered that buffer is unchanged, hence nonnegative at every column. -/
theorem hvar5 (c : Dev nD) : ∀ j, (0 : EReal) ≤ (V14 m ρ c (Pipeline.arrRef spec5 4) : S64.Idx → EReal) j := by
  have e : W14 m ρ c (Proc.devRef .tc main_v112) = W11 m ρ c (Proc.devRef .tc main_v112) :=
    ((W14_keep m ρ c main_v112 (by decide)).trans ((W13_keep m ρ c main_v112 (by decide)).trans (W12_keep m ρ c main_v112 (by decide))))
  intro j
  show (0 : EReal) ≤ (W14 m ρ c (Proc.devRef .tc main_v112) : S64.Idx → EReal) j
  rw [e, var5_eq]
  exact Cert.Val.refVar_nonneg _ j

/-- The variance buffer of layer 1's object nodes after the host's variance function: that function of region 7's output
    with the correction zero. -/
theorem var8_eq (c : Dev nD) :
    @Eq (FVec Ideal S64 .f32) (W21 m ρ c (Proc.devRef .tc main_v215))
      (Cert.Val.refVar (F := Ideal) (W19 m ρ c (Proc.devRef .tc main_v211)) (constantI S_ 32 0#32)) := by
  have h := var_call2 (W20 m ρ c)
  have hx : W20 m ρ c (Proc.devRef .tc main_v211) = W19 m ρ c (Proc.devRef .tc main_v211) :=
    (W20_keep m ρ c main_v211 (by decide))
  have hc : W20 m ρ c (Proc.devRef .tc main_c_46) = constantI S_ 32 0#32 := by
    rw [W20_eq]; exact ddof_c46 (W19 m ρ c)
  rw [hx, hc] at h
  rw [W21_eq]
  exact h

/-- Where its region is entered that buffer is unchanged, hence nonnegative at every column. -/
theorem hvar8 (c : Dev nD) : ∀ j, (0 : EReal) ≤ (V24 m ρ c (Pipeline.arrRef spec8 4) : S64.Idx → EReal) j := by
  have e : W24 m ρ c (Proc.devRef .tc main_v215) = W21 m ρ c (Proc.devRef .tc main_v215) :=
    ((W24_keep m ρ c main_v215 (by decide)).trans ((W23_keep m ρ c main_v215 (by decide)).trans (W22_keep m ρ c main_v215 (by decide))))
  intro j
  show (0 : EReal) ≤ (W24 m ρ c (Proc.devRef .tc main_v215) : S64.Idx → EReal) j
  rw [e, var8_eq]
  exact Cert.Val.refVar_nonneg _ j

/-- The variance buffer of layer 1's attribute nodes after the host's variance function: that function of region 6's output
    with the correction zero. -/
theorem var9_eq (c : Dev nD) :
    @Eq (FVec Ideal S64 .f32) (W23 m ρ c (Proc.devRef .tc main_v219))
      (Cert.Val.refVar (F := Ideal) (W17 m ρ c (Proc.devRef .tc main_v198)) (constantI S_ 32 0#32)) := by
  have h := var_call3 (W22 m ρ c)
  have hx : W22 m ρ c (Proc.devRef .tc main_v198) = W17 m ρ c (Proc.devRef .tc main_v198) :=
    ((W22_keep m ρ c main_v198 (by decide)).trans ((W21_keep m ρ c main_v198 (by decide)).trans ((W20_keep m ρ c main_v198 (by decide)).trans ((W19_keep m ρ c main_v198 (by decide)).trans (W18_keep m ρ c main_v198 (by decide))))))
  have hc : W22 m ρ c (Proc.devRef .tc main_c_49) = constantI S_ 32 0#32 := by
    rw [W22_eq]; exact ddof_c49 (W21 m ρ c)
  rw [hx, hc] at h
  rw [W23_eq]
  exact h

/-- Where its region is entered that buffer is unchanged, hence nonnegative at every column. -/
theorem hvar9 (c : Dev nD) : ∀ j, (0 : EReal) ≤ (V26 m ρ c (Pipeline.arrRef spec9 4) : S64.Idx → EReal) j := by
  have e : W26 m ρ c (Proc.devRef .tc main_v219) = W23 m ρ c (Proc.devRef .tc main_v219) :=
    ((W26_keep m ρ c main_v219 (by decide)).trans ((W25_keep m ρ c main_v219 (by decide)).trans (W24_keep m ρ c main_v219 (by decide))))
  intro j
  show (0 : EReal) ≤ (W26 m ρ c (Proc.devRef .tc main_v219) : S64.Idx → EReal) j
  rw [e, var9_eq]
  exact Cert.Val.refVar_nonneg _ j

end Cert.KernelIdeal.Frame

end
-- ==== Proof.Val.Bn.lean ====
/-
  The value of region 4: after its pipeline has run, the output array (window 5) holds, at every index, the reference's
  batch-norm affine step followed by its LeakyReLU of the five input arrays as the region found them, provided the variance input
  (window 4) is nowhere negative.

  The body's one store at a grid point is read index by index: at row `p`, feature `q` of the block it is
  `(gamma q * (x p q - mean q)) * rsqrt (var q + eps) + beta q`, then LeakyReLU. The reference divides by `sqrt (var q + eps)` instead of
  multiplying by the reciprocal square root; on the extended reals the two agree exactly when `var q + eps` is strictly
  positive, which is where the hypothesis on the variance is used (`eps` is a positive real). The rows' block at point
  `t` is rows `5000 t … 5000 t + 4999` of the array and each per-feature window's block is its whole vector, so point `t`
  writes back block `t` of the reference's function; the 40 blocks tile the 200000 rows, so the array ends as that function.
-/
import proofs.«151172_j14164802142730_2_alg».proof.Proof.KI.R4
import proofs.«151172_j14164802142730_2_alg».proof.Proof.Gen.ReferenceIdeal
import proofs.«151172_j14164802142730_2_alg».proof.Proof.Val.BnRef
import proofs.«151172_j14164802142730_2_alg».proof.Proof.Spec.BnLaw
import Idealize.ShloMosaic.Lib.Pipeline.Value
import Idealize.ShloMosaic.Lib.ValueIdx
import Idealize.ShloMosaic.Lib.ValueLayout

set_option maxRecDepth 16384

noncomputable section

namespace Cert.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

/-! ## The body's payload at an index -/

theorem hz4_2 : (![0, 0] : Fin 2 → Nat) = fun _ => 0 := funext fun a => by fin_cases a <;> rfl
theorem hz4_1 : (![0] : Fin 1 → Nat) = fun _ => 0 := funext fun a => by fin_cases a; rfl

/-- A vector of length 64 made a row and repeated over the block's 5000 rows reads, at row `p` and feature `q`, the vector at `q`. -/
theorem rowOf4_apply {α : Type} (v : S64.Idx → α) (h : S64.ShapeCasts S1x64) (h' : S1x64.Broadcasts S5000x64) (p : Fin 5000) (q : Fin 64) :
    broadcastTo S5000x64 (shapeCast S1x64 v h) h' (ix2 p q) = v (ix1 q) :=
  (broadcastTo_1b_ab_apply (a := 5000) (b := 64) (shapeCast S1x64 v h) h' p q).trans
    (shapeCast_a_1a_apply (a := 64) v h (0 : Fin 1) q)

/-- A reciprocal square root of a vector at an index is that of the entry. -/
theorem rsqrt4_apply {s : Shape} (a : FVec Ideal s .f32) (i : s.Idx) : rsqrt a i = Ideal.rsqrt (a i) := rfl

/-- The payload at row `p`, feature `q` of the block. -/
theorem pay4_apply (v0 : Vec Ideal S5000x64 .f32) (v2 v4 v6 v8 : Vec Ideal S64 .f32) (p : Fin 5000) (q : Fin 64) :
    k4_pay1 (F := Ideal) v0 v2 v4 v6 v8 (ix2 p q)
      = leakyAt ((v6 (ix1 q) * (v0 (ix2 p q) - v2 (ix1 q))) * Ideal.rsqrt (v4 (ix1 q) + Ideal.ofBits .f32 0x3727C5AC#32) + v8 (ix1 q)) := by
  unfold k4_pay1 leakyAt
  simp only [shapeCast_self]
  show leakyWith _ _ ((_ * (v0 (ix2 p q) - _)) * _ + _) = _
  rw [rowOf4_apply, rowOf4_apply, rowOf4_apply, rowOf4_apply]
  rfl

/-- The same at any index `y` of the block, the feature's index `k` given by its coordinate. -/
theorem pay4_point (v0 : Vec Ideal S5000x64 .f32) (v2 v4 v6 v8 : Vec Ideal S64 .f32) (y : S5000x64.Idx) (k : S64.Idx)
    (hk : (k 0).val = (y 1).val) :
    k4_pay1 (F := Ideal) v0 v2 v4 v6 v8 y
      = leakyAt ((v6 k * (v0 y - v2 k)) * Ideal.rsqrt (v4 k + Ideal.ofBits .f32 0x3727C5AC#32) + v8 k) := by
  obtain ⟨p, q, rfl⟩ : ∃ (p : Fin 5000) (q : Fin 64), y = ix2 p q := ⟨y 0, y 1, eq_ix2 y⟩
  obtain rfl : k = ix1 q := by funext d; match d with | ⟨0, _⟩ => exact Fin.ext hk
  exact pay4_apply v0 v2 v4 v6 v8 p q

/-- ONE ENTRY: the payload of blocks that agree with whole arrays `X G B M Vr` at the matching indices is the reference's
    function of those arrays there, when the variance array is nowhere negative. -/
theorem point4 (X : S200000x64.Idx → EReal) (G B M Vr : S64.Idx → EReal) (hvar : ∀ j, 0 ≤ Vr j)
    (x0 : Vec Ideal S5000x64 .f32) (x1 x2 x3 x4 : Vec Ideal S64 .f32) (y : S5000x64.Idx) (i : S200000x64.Idx)
    (hi : (i 1).val = (y 1).val) (h0 : x0 y = X i) (h1 : ∀ k, x1 k = G k) (h2 : ∀ k, x2 k = B k) (h3 : ∀ k, x3 k = M k)
    (h4 : ∀ k, x4 k = Vr k) :
    k4_pay1 (F := Ideal) x0 x3 x4 x1 x2 y = refLeaky (refBn X G B M Vr) i := by
  obtain ⟨k, hk⟩ : ∃ k : S64.Idx, (k 0).val = (y 1).val := ⟨ix1 (⟨(y 1).val, idx2_lt1 y⟩ : Fin 64), rfl⟩
  rw [pay4_point x0 x3 x4 x1 x2 y k hk, refLeakyBn_point X G B M Vr i k (hk.trans hi.symm), h0, h1, h2, h3, h4]
  unfold bnAt bnWith
  obtain ⟨e, he, hE⟩ := Cert.Spec.ofBits_eps
  have hpos : 0 < Vr k + Ideal.ofBits .f32 0x3727C5AC#32 := by
    rw [hE]; exact Right.add_pos_of_nonneg_of_pos (hvar k) (by exact_mod_cast he)
  rw [Cert.Spec.mul_rsqrt_eq_div_sqrt _ _ hpos]

/-! ## The blocks: where each window's block sits in its array -/

variable (V : (c : Dev nD) → (b : Ref sig .tc) → Buf (Elt Ideal) ((c : Thread nD τ).loc b))

/-- The printed index maps, decided over the grid's 40 points: the rows' input block moves with the output block, along
    the rows only, and each per-feature window stays at block 0. -/
theorem idx_facts4 : ∀ t : Fin cfg4.N,
    win4_0.index t (0 : Fin 2) = win4_5.index t (0 : Fin 2) ∧ win4_0.index t (1 : Fin 2) = 0 ∧ win4_5.index t (1 : Fin 2) = 0
    ∧ win4_1.index t (0 : Fin 1) = 0 ∧ win4_2.index t (0 : Fin 1) = 0 ∧ win4_3.index t (0 : Fin 1) = 0 ∧ win4_4.index t (0 : Fin 1) = 0 :=
  (by decide +kernel : ∀ t : Fin grid4.N, _)

/-- Every one of the 40 row blocks is some point's. -/
theorem idx_onto4 : ∀ q0 : Fin 40, ∃ t : Fin cfg4.N, win4_5.index t = ![q0.val, 0] :=
  (by decide +kernel : ∀ q0 : Fin 40, ∃ t : Fin grid4.N, win4_5.index t = ![q0.val, 0])

/-- The rows' block at point `t`, read at `y`, is the array at the row `5000 * (block index) + y 0`, same feature. -/
theorem iblk4_0_apply (c : Dev nD) (t : Fin cfg4.N) (y : S5000x64.Idx) (i : S200000x64.Idx)
    (h0 : (i 0).val = win4_5.index t (0 : Fin 2) * 5000 + (y 0).val) (h1 : (i 1).val = (y 1).val) :
    (iblk4 V c 0 t : Vec Ideal S5000x64 .f32) y = (V c (Pipeline.arrRef spec4 0) : S200000x64.Idx → EReal) i := by
  obtain ⟨e0, e1, -⟩ := idx_facts4 t
  unfold iblk4
  show V c (Pipeline.arrRef spec4 0) (((cfg4.win 0).blk t).view.emb y) = V c (Pipeline.arrRef spec4 0) i
  refine congrArg (V c (Pipeline.arrRef spec4 0)) (funext fun a => Fin.ext ?_)
  match a with
  | ⟨0, _⟩ => show win4_0.index t (0 : Fin 2) * 5000 + 1 * (y 0).val = (i 0).val; rw [h0, e0]; omega
  | ⟨1, _⟩ => show win4_0.index t (1 : Fin 2) * 64 + 1 * (y 1).val = (i 1).val; rw [h1, e1]; omega

/-- A per-feature window's block is its whole array, at every point. -/
theorem iblk4_1_apply (c : Dev nD) (t : Fin cfg4.N) (k : S64.Idx) :
    (iblk4 V c 1 t : Vec Ideal S64 .f32) k = (V c (Pipeline.arrRef spec4 1) : S64.Idx → EReal) k := by
  obtain ⟨-, -, -, e, -⟩ := idx_facts4 t
  unfold iblk4
  show V c (Pipeline.arrRef spec4 1) (((cfg4.win 1).blk t).view.emb k) = V c (Pipeline.arrRef spec4 1) k
  refine congrArg (V c (Pipeline.arrRef spec4 1)) (funext fun a => Fin.ext ?_)
  match a with
  | ⟨0, _⟩ => show win4_1.index t (0 : Fin 1) * 64 + 1 * (k 0).val = (k 0).val; rw [e]; omega
theorem iblk4_2_apply (c : Dev nD) (t : Fin cfg4.N) (k : S64.Idx) :
    (iblk4 V c 2 t : Vec Ideal S64 .f32) k = (V c (Pipeline.arrRef spec4 2) : S64.Idx → EReal) k := by
  obtain ⟨-, -, -, -, e, -⟩ := idx_facts4 t
  unfold iblk4
  show V c (Pipeline.arrRef spec4 2) (((cfg4.win 2).blk t).view.emb k) = V c (Pipeline.arrRef spec4 2) k
  refine congrArg (V c (Pipeline.arrRef spec4 2)) (funext fun a => Fin.ext ?_)
  match a with
  | ⟨0, _⟩ => show win4_2.index t (0 : Fin 1) * 64 + 1 * (k 0).val = (k 0).val; rw [e]; omega
theorem iblk4_3_apply (c : Dev nD) (t : Fin cfg4.N) (k : S64.Idx) :
    (iblk4 V c 3 t : Vec Ideal S64 .f32) k = (V c (Pipeline.arrRef spec4 3) : S64.Idx → EReal) k := by
  obtain ⟨-, -, -, -, -, e, -⟩ := idx_facts4 t
  unfold iblk4
  show V c (Pipeline.arrRef spec4 3) (((cfg4.win 3).blk t).view.emb k) = V c (Pipeline.arrRef spec4 3) k
  refine congrArg (V c (Pipeline.arrRef spec4 3)) (funext fun a => Fin.ext ?_)
  match a with
  | ⟨0, _⟩ => show win4_3.index t (0 : Fin 1) * 64 + 1 * (k 0).val = (k 0).val; rw [e]; omega
theorem iblk4_4_apply (c : Dev nD) (t : Fin cfg4.N) (k : S64.Idx) :
    (iblk4 V c 4 t : Vec Ideal S64 .f32) k = (V c (Pipeline.arrRef spec4 4) : S64.Idx → EReal) k := by
  obtain ⟨-, -, -, -, -, -, e⟩ := idx_facts4 t
  unfold iblk4
  show V c (Pipeline.arrRef spec4 4) (((cfg4.win 4).blk t).view.emb k) = V c (Pipeline.arrRef spec4 4) k
  refine congrArg (V c (Pipeline.arrRef spec4 4)) (funext fun a => Fin.ext ?_)
  match a with
  | ⟨0, _⟩ => show win4_4.index t (0 : Fin 1) * 64 + 1 * (k 0).val = (k 0).val; rw [e]; omega

/-! ## What a point writes back, the cover, the array -/

/-- WHAT POINT `t` WRITES BACK is block `t` of the reference's function of the five arrays as the region finds them. -/
theorem flushed4_eq (c : Dev nD) (hvar : ∀ j, (0 : EReal) ≤ (V c (Pipeline.arrRef spec4 4) : S64.Idx → EReal) j) (t : Fin cfg4.N) :
    (dat4 (F := Ideal) V c).flushed 5 t = ((cfg4.win 5).blk t).view.read (Elt Ideal)
      (refLeaky (F := Ideal) (refBn (F := Ideal) (V c (Pipeline.arrRef spec4 0)) (V c (Pipeline.arrRef spec4 1)) (V c (Pipeline.arrRef spec4 2))
        (V c (Pipeline.arrRef spec4 3)) (V c (Pipeline.arrRef spec4 4)))) := by
  obtain ⟨-, -, e5, -⟩ := idx_facts4 t
  show (cfg4.win 5).cut (grid4.coords t) ((dat4 V c).after 5 t) = _
  rw [after4_5]
  unfold out4_5
  rw [View.canon_unit_zero hz4_2]
  simp only [View.ld_unit_zero (S := S5000x64) hz4_2, View.ld_unit_zero (S := S64) hz4_1]
  funext j
  show k4_pay1 (F := Ideal) (iblk4 V c 0 t) (iblk4 V c 3 t) (iblk4 V c 4 t) (iblk4 V c 1 t) (iblk4 V c 2 t)
      ((cfg4.win 5).xinj (grid4.coords t) j)
    = refLeaky (F := Ideal) (refBn (F := Ideal) (V c (Pipeline.arrRef spec4 0)) (V c (Pipeline.arrRef spec4 1)) (V c (Pipeline.arrRef spec4 2))
        (V c (Pipeline.arrRef spec4 3)) (V c (Pipeline.arrRef spec4 4))) (((cfg4.win 5).blk t).view.emb j)
  refine point4 _ _ _ _ _ hvar _ _ _ _ _ _ _ ?_ ?_ (iblk4_1_apply V c t) (iblk4_2_apply V c t) (iblk4_3_apply V c t)
    (iblk4_4_apply V c t)
  · show win4_5.index t (1 : Fin 2) * 64 + 1 * (j 1).val = (j 1).val
    rw [e5]; omega
  · refine iblk4_0_apply V c t _ _ ?_ ?_
    · show win4_5.index t (0 : Fin 2) * 5000 + 1 * (j 0).val = win4_5.index t (0 : Fin 2) * 5000 + (j 0).val
      omega
    · show win4_5.index t (1 : Fin 2) * 64 + 1 * (j 1).val = (j 1).val
      rw [e5]; omega

/-- An index of the output array is in point `t`'s block iff each coordinate is in the block's range on its axis. -/
theorem mem_blk4 (t : Fin cfg4.N) (i : S200000x64.Idx) :
    i ∈ ((cfg4.win 5).blk t).view.set ↔ ∀ a : Fin 2, win4_5.index t a * S5000x64.size a ≤ (i a).val
      ∧ (i a).val < win4_5.index t a * S5000x64.size a + S5000x64.size a := by
  show i ∈ ((View.whole (Pipeline.arrRef spec4 5)).slice (win4_5.rect t)).set ↔ _
  rw [View.set_slice_whole, Rect.mem_set_unit]
  exact Iff.rfl

/-- Every index of the output array is in some point's block: row `r` lies in block `r / 5000`. -/
theorem cover4 (i : S200000x64.Idx) :
    ∃ t : Fin cfg4.N, (cfg4.win 5).flush t = true ∧ i ∈ ((cfg4.win 5).blk t).view.set := by
  have hi0 : (i 0).val < 200000 := (i 0).isLt
  have hi1 : (i 1).val < 64 := (i 1).isLt
  obtain ⟨t, ht⟩ := idx_onto4 ⟨(i 0).val / 5000, by omega⟩
  have q0 : win4_5.index t (0 : Fin 2) = (i 0).val / 5000 := congrFun ht 0
  have q1 : win4_5.index t (1 : Fin 2) = 0 := congrFun ht 1
  refine ⟨t, flush4_5 t, ?_⟩
  rw [mem_blk4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 64 ≤ (i 1).val ∧ (i 1).val < win4_5.index t (1 : Fin 2) * 64 + 64; omega

/-- THE ARRAY after region 4: the reference's function of the five arrays as the region found them (windows: 0 the
    rows, 1 gamma, 2 beta, 3 the mean, 4 the variance), for any contents at region entry with a nowhere negative variance. -/
theorem val4 (V : (c : Dev nD) → (b : Ref sig .tc) → Buf (Elt Ideal) ((c : Thread nD τ).loc b)) (c : Dev nD)
    (hvar : ∀ j, (0 : EReal) ≤ (V c (Pipeline.arrRef spec4 4) : S64.Idx → EReal) j) :
    (dat4 (F := Ideal) V c).arrAt 5 cfg4.N
      = refLeaky (F := Ideal) (refBn (F := Ideal) (V c (Pipeline.arrRef spec4 0)) (V c (Pipeline.arrRef spec4 1)) (V c (Pipeline.arrRef spec4 2))
        (V c (Pipeline.arrRef spec4 3)) (V c (Pipeline.arrRef spec4 4))) :=
  (dat4 (F := Ideal) V c).arrAt_eq_of_cover 5 _ (fun t _ => flushed4_eq V c hvar t) (cover4)

end Cert.Val

end
-- ==== Proof.Val.Bn5.lean ====
/-
  The value of region 5: after its pipeline has run, the output array (window 5) holds, at every index, the reference's
  batch-norm affine step followed by its LeakyReLU of the five input arrays as the region found them, provided the variance input
  (window 4) is nowhere negative.

  The body's one store at a grid point is read index by index: at row `p`, feature `q` of the block it is
  `(gamma q * (x p q - mean q)) * rsqrt (var q + eps) + beta q`, then LeakyReLU. The reference divides by `sqrt (var q + eps)` instead of
  multiplying by the reciprocal square root; on the extended reals the two agree exactly when `var q + eps` is strictly
  positive, which is where the hypothesis on the variance is used (`eps` is a positive real). The rows' block at point
  `t` is rows `5000 t … 5000 t + 4999` of the array and each per-feature window's block is its whole vector, so point `t`
  writes back block `t` of the reference's function; the 40 blocks tile the 200000 rows, so the array ends as that function.
-/
import proofs.«151172_j14164802142730_2_alg».proof.Proof.KI.R5
import proofs.«151172_j14164802142730_2_alg».proof.Proof.Gen.ReferenceIdeal
import proofs.«151172_j14164802142730_2_alg».proof.Proof.Val.BnRef
import proofs.«151172_j14164802142730_2_alg».proof.Proof.Spec.BnLaw
import Idealize.ShloMosaic.Lib.Pipeline.Value
import Idealize.ShloMosaic.Lib.ValueIdx
import Idealize.ShloMosaic.Lib.ValueLayout

set_option maxRecDepth 16384

noncomputable section

namespace Cert.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

/-! ## The body's payload at an index -/

theorem hz5_2 : (![0, 0] : Fin 2 → Nat) = fun _ => 0 := funext fun a => by fin_cases a <;> rfl
theorem hz5_1 : (![0] : Fin 1 → Nat) = fun _ => 0 := funext fun a => by fin_cases a; rfl

/-- A vector of length 64 made a row and repeated over the block's 5000 rows reads, at row `p` and feature `q`, the vector at `q`. -/
theorem rowOf5_apply {α : Type} (v : S64.Idx → α) (h : S64.ShapeCasts S1x64) (h' : S1x64.Broadcasts S5000x64) (p : Fin 5000) (q : Fin 64) :
    broadcastTo S5000x64 (shapeCast S1x64 v h) h' (ix2 p q) = v (ix1 q) :=
  (broadcastTo_1b_ab_apply (a := 5000) (b := 64) (shapeCast S1x64 v h) h' p q).trans
    (shapeCast_a_1a_apply (a := 64) v h (0 : Fin 1) q)

/-- A reciprocal square root of a vector at an index is that of the entry. -/
theorem rsqrt5_apply {s : Shape} (a : FVec Ideal s .f32) (i : s.Idx) : rsqrt a i = Ideal.rsqrt (a i) := rfl

/-- The payload at row `p`, feature `q` of the block. -/
theorem pay5_apply (v0 : Vec Ideal S5000x64 .f32) (v2 v4 v6 v8 : Vec Ideal S64 .f32) (p : Fin 5000) (q : Fin 64) :
    k5_pay1 (F := Ideal) v0 v2 v4 v6 v8 (ix2 p q)
      = leakyAt ((v6 (ix1 q) * (v0 (ix2 p q) - v2 (ix1 q))) * Ideal.rsqrt (v4 (ix1 q) + Ideal.ofBits .f32 0x3727C5AC#32) + v8 (ix1 q)) := by
  unfold k5_pay1 leakyAt
  simp only [shapeCast_self]
  show leakyWith _ _ ((_ * (v0 (ix2 p q) - _)) * _ + _) = _
  rw [rowOf5_apply, rowOf5_apply, rowOf5_apply, rowOf5_apply]
  rfl

/-- The same at any index `y` of the block, the feature's index `k` given by its coordinate. -/
theorem pay5_point (v0 : Vec Ideal S5000x64 .f32) (v2 v4 v6 v8 : Vec Ideal S64 .f32) (y : S5000x64.Idx) (k : S64.Idx)
    (hk : (k 0).val = (y 1).val) :
    k5_pay1 (F := Ideal) v0 v2 v4 v6 v8 y
      = leakyAt ((v6 k * (v0 y - v2 k)) * Ideal.rsqrt (v4 k + Ideal.ofBits .f32 0x3727C5AC#32) + v8 k) := by
  obtain ⟨p, q, rfl⟩ : ∃ (p : Fin 5000) (q : Fin 64), y = ix2 p q := ⟨y 0, y 1, eq_ix2 y⟩
  obtain rfl : k = ix1 q := by funext d; match d with | ⟨0, _⟩ => exact Fin.ext hk
  exact pay5_apply v0 v2 v4 v6 v8 p q

/-- ONE ENTRY: the payload of blocks that agree with whole arrays `X G B M Vr` at the matching indices is the reference's
    function of those arrays there, when the variance array is nowhere negative. -/
theorem point5 (X : S200000x64.Idx → EReal) (G B M Vr : S64.Idx → EReal) (hvar : ∀ j, 0 ≤ Vr j)
    (x0 : Vec Ideal S5000x64 .f32) (x1 x2 x3 x4 : Vec Ideal S64 .f32) (y : S5000x64.Idx) (i : S200000x64.Idx)
    (hi : (i 1).val = (y 1).val) (h0 : x0 y = X i) (h1 : ∀ k, x1 k = G k) (h2 : ∀ k, x2 k = B k) (h3 : ∀ k, x3 k = M k)
    (h4 : ∀ k, x4 k = Vr k) :
    k5_pay1 (F := Ideal) x0 x3 x4 x1 x2 y = refLeaky (refBn X G B M Vr) i := by
  obtain ⟨k, hk⟩ : ∃ k : S64.Idx, (k 0).val = (y 1).val := ⟨ix1 (⟨(y 1).val, idx2_lt1 y⟩ : Fin 64), rfl⟩
  rw [pay5_point x0 x3 x4 x1 x2 y k hk, refLeakyBn_point X G B M Vr i k (hk.trans hi.symm), h0, h1, h2, h3, h4]
  unfold bnAt bnWith
  obtain ⟨e, he, hE⟩ := Cert.Spec.ofBits_eps
  have hpos : 0 < Vr k + Ideal.ofBits .f32 0x3727C5AC#32 := by
    rw [hE]; exact Right.add_pos_of_nonneg_of_pos (hvar k) (by exact_mod_cast he)
  rw [Cert.Spec.mul_rsqrt_eq_div_sqrt _ _ hpos]

/-! ## The blocks: where each window's block sits in its array -/

variable (V : (c : Dev nD) → (b : Ref sig .tc) → Buf (Elt Ideal) ((c : Thread nD τ).loc b))

/-- The printed index maps, decided over the grid's 40 points: the rows' input block moves with the output block, along
    the rows only, and each per-feature window stays at block 0. -/
theorem idx_facts5 : ∀ t : Fin cfg5.N,
    win5_0.index t (0 : Fin 2) = win5_5.index t (0 : Fin 2) ∧ win5_0.index t (1 : Fin 2) = 0 ∧ win5_5.index t (1 : Fin 2) = 0
    ∧ win5_1.index t (0 : Fin 1) = 0 ∧ win5_2.index t (0 : Fin 1) = 0 ∧ win5_3.index t (0 : Fin 1) = 0 ∧ win5_4.index t (0 : Fin 1) = 0 :=
  (by decide +kernel : ∀ t : Fin grid5.N, _)

/-- Every one of the 40 row blocks is some point's. -/
theorem idx_onto5 : ∀ q0 : Fin 40, ∃ t : Fin cfg5.N, win5_5.index t = ![q0.val, 0] :=
  (by decide +kernel : ∀ q0 : Fin 40, ∃ t : Fin grid5.N, win5_5.index t = ![q0.val, 0])

/-- The rows' block at point `t`, read at `y`, is the array at the row `5000 * (block index) + y 0`, same feature. -/
theorem iblk5_0_apply (c : Dev nD) (t : Fin cfg5.N) (y : S5000x64.Idx) (i : S200000x64.Idx)
    (h0 : (i 0).val = win5_5.index t (0 : Fin 2) * 5000 + (y 0).val) (h1 : (i 1).val = (y 1).val) :
    (iblk5 V c 0 t : Vec Ideal S5000x64 .f32) y = (V c (Pipeline.arrRef spec5 0) : S200000x64.Idx → EReal) i := by
  obtain ⟨e0, e1, -⟩ := idx_facts5 t
  unfold iblk5
  show V c (Pipeline.arrRef spec5 0) (((cfg5.win 0).blk t).view.emb y) = V c (Pipeline.arrRef spec5 0) i
  refine congrArg (V c (Pipeline.arrRef spec5 0)) (funext fun a => Fin.ext ?_)
  match a with
  | ⟨0, _⟩ => show win5_0.index t (0 : Fin 2) * 5000 + 1 * (y 0).val = (i 0).val; rw [h0, e0]; omega
  | ⟨1, _⟩ => show win5_0.index t (1 : Fin 2) * 64 + 1 * (y 1).val = (i 1).val; rw [h1, e1]; omega

/-- A per-feature window's block is its whole array, at every point. -/
theorem iblk5_1_apply (c : Dev nD) (t : Fin cfg5.N) (k : S64.Idx) :
    (iblk5 V c 1 t : Vec Ideal S64 .f32) k = (V c (Pipeline.arrRef spec5 1) : S64.Idx → EReal) k := by
  obtain ⟨-, -, -, e, -⟩ := idx_facts5 t
  unfold iblk5
  show V c (Pipeline.arrRef spec5 1) (((cfg5.win 1).blk t).view.emb k) = V c (Pipeline.arrRef spec5 1) k
  refine congrArg (V c (Pipeline.arrRef spec5 1)) (funext fun a => Fin.ext ?_)
  match a with
  | ⟨0, _⟩ => show win5_1.index t (0 : Fin 1) * 64 + 1 * (k 0).val = (k 0).val; rw [e]; omega
theorem iblk5_2_apply (c : Dev nD) (t : Fin cfg5.N) (k : S64.Idx) :
    (iblk5 V c 2 t : Vec Ideal S64 .f32) k = (V c (Pipeline.arrRef spec5 2) : S64.Idx → EReal) k := by
  obtain ⟨-, -, -, -, e, -⟩ := idx_facts5 t
  unfold iblk5
  show V c (Pipeline.arrRef spec5 2) (((cfg5.win 2).blk t).view.emb k) = V c (Pipeline.arrRef spec5 2) k
  refine congrArg (V c (Pipeline.arrRef spec5 2)) (funext fun a => Fin.ext ?_)
  match a with
  | ⟨0, _⟩ => show win5_2.index t (0 : Fin 1) * 64 + 1 * (k 0).val = (k 0).val; rw [e]; omega
theorem iblk5_3_apply (c : Dev nD) (t : Fin cfg5.N) (k : S64.Idx) :
    (iblk5 V c 3 t : Vec Ideal S64 .f32) k = (V c (Pipeline.arrRef spec5 3) : S64.Idx → EReal) k := by
  obtain ⟨-, -, -, -, -, e, -⟩ := idx_facts5 t
  unfold iblk5
  show V c (Pipeline.arrRef spec5 3) (((cfg5.win 3).blk t).view.emb k) = V c (Pipeline.arrRef spec5 3) k
  refine congrArg (V c (Pipeline.arrRef spec5 3)) (funext fun a => Fin.ext ?_)
  match a with
  | ⟨0, _⟩ => show win5_3.index t (0 : Fin 1) * 64 + 1 * (k 0).val = (k 0).val; rw [e]; omega
theorem iblk5_4_apply (c : Dev nD) (t : Fin cfg5.N) (k : S64.Idx) :
    (iblk5 V c 4 t : Vec Ideal S64 .f32) k = (V c (Pipeline.arrRef spec5 4) : S64.Idx → EReal) k := by
  obtain ⟨-, -, -, -, -, -, e⟩ := idx_facts5 t
  unfold iblk5
  show V c (Pipeline.arrRef spec5 4) (((cfg5.win 4).blk t).view.emb k) = V c (Pipeline.arrRef spec5 4) k
  refine congrArg (V c (Pipeline.arrRef spec5 4)) (funext fun a => Fin.ext ?_)
  match a with
  | ⟨0, _⟩ => show win5_4.index t (0 : Fin 1) * 64 + 1 * (k 0).val = (k 0).val; rw [e]; omega

/-! ## What a point writes back, the cover, the array -/

/-- WHAT POINT `t` WRITES BACK is block `t` of the reference's function of the five arrays as the region finds them. -/
theorem flushed5_eq (c : Dev nD) (hvar : ∀ j, (0 : EReal) ≤ (V c (Pipeline.arrRef spec5 4) : S64.Idx → EReal) j) (t : Fin cfg5.N) :
    (dat5 (F := Ideal) V c).flushed 5 t = ((cfg5.win 5).blk t).view.read (Elt Ideal)
      (refLeaky (F := Ideal) (refBn (F := Ideal) (V c (Pipeline.arrRef spec5 0)) (V c (Pipeline.arrRef spec5 1)) (V c (Pipeline.arrRef spec5 2))
        (V c (Pipeline.arrRef spec5 3)) (V c (Pipeline.arrRef spec5 4)))) := by
  obtain ⟨-, -, e5, -⟩ := idx_facts5 t
  show (cfg5.win 5).cut (grid5.coords t) ((dat5 V c).after 5 t) = _
  rw [after5_5]
  unfold out5_5
  rw [View.canon_unit_zero hz5_2]
  simp only [View.ld_unit_zero (S := S5000x64) hz5_2, View.ld_unit_zero (S := S64) hz5_1]
  funext j
  show k5_pay1 (F := Ideal) (iblk5 V c 0 t) (iblk5 V c 3 t) (iblk5 V c 4 t) (iblk5 V c 1 t) (iblk5 V c 2 t)
      ((cfg5.win 5).xinj (grid5.coords t) j)
    = refLeaky (F := Ideal) (refBn (F := Ideal) (V c (Pipeline.arrRef spec5 0)) (V c (Pipeline.arrRef spec5 1)) (V c (Pipeline.arrRef spec5 2))
        (V c (Pipeline.arrRef spec5 3)) (V c (Pipeline.arrRef spec5 4))) (((cfg5.win 5).blk t).view.emb j)
  refine point5 _ _ _ _ _ hvar _ _ _ _ _ _ _ ?_ ?_ (iblk5_1_apply V c t) (iblk5_2_apply V c t) (iblk5_3_apply V c t)
    (iblk5_4_apply V c t)
  · show win5_5.index t (1 : Fin 2) * 64 + 1 * (j 1).val = (j 1).val
    rw [e5]; omega
  · refine iblk5_0_apply V c t _ _ ?_ ?_
    · show win5_5.index t (0 : Fin 2) * 5000 + 1 * (j 0).val = win5_5.index t (0 : Fin 2) * 5000 + (j 0).val
      omega
    · show win5_5.index t (1 : Fin 2) * 64 + 1 * (j 1).val = (j 1).val
      rw [e5]; omega

/-- An index of the output array is in point `t`'s block iff each coordinate is in the block's range on its axis. -/
theorem mem_blk5 (t : Fin cfg5.N) (i : S200000x64.Idx) :
    i ∈ ((cfg5.win 5).blk t).view.set ↔ ∀ a : Fin 2, win5_5.index t a * S5000x64.size a ≤ (i a).val
      ∧ (i a).val < win5_5.index t a * S5000x64.size a + S5000x64.size a := by
  show i ∈ ((View.whole (Pipeline.arrRef spec5 5)).slice (win5_5.rect t)).set ↔ _
  rw [View.set_slice_whole, Rect.mem_set_unit]
  exact Iff.rfl

/-- Every index of the output array is in some point's block: row `r` lies in block `r / 5000`. -/
theorem cover5 (i : S200000x64.Idx) :
    ∃ t : Fin cfg5.N, (cfg5.win 5).flush t = true ∧ i ∈ ((cfg5.win 5).blk t).view.set := by
  have hi0 : (i 0).val < 200000 := (i 0).isLt
  have hi1 : (i 1).val < 64 := (i 1).isLt
  obtain ⟨t, ht⟩ := idx_onto5 ⟨(i 0).val / 5000, by omega⟩
  have q0 : win5_5.index t (0 : Fin 2) = (i 0).val / 5000 := congrFun ht 0
  have q1 : win5_5.index t (1 : Fin 2) = 0 := congrFun ht 1
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 64 ≤ (i 1).val ∧ (i 1).val < win5_5.index t (1 : Fin 2) * 64 + 64; omega

/-- THE ARRAY after region 5: the reference's function of the five arrays as the region found them (windows: 0 the
    rows, 1 gamma, 2 beta, 3 the mean, 4 the variance), for any contents at region entry with a nowhere negative variance. -/
theorem val5 (V : (c : Dev nD) → (b : Ref sig .tc) → Buf (Elt Ideal) ((c : Thread nD τ).loc b)) (c : Dev nD)
    (hvar : ∀ j, (0 : EReal) ≤ (V c (Pipeline.arrRef spec5 4) : S64.Idx → EReal) j) :
    (dat5 (F := Ideal) V c).arrAt 5 cfg5.N
      = refLeaky (F := Ideal) (refBn (F := Ideal) (V c (Pipeline.arrRef spec5 0)) (V c (Pipeline.arrRef spec5 1)) (V c (Pipeline.arrRef spec5 2))
        (V c (Pipeline.arrRef spec5 3)) (V c (Pipeline.arrRef spec5 4))) :=
  (dat5 (F := Ideal) V c).arrAt_eq_of_cover 5 _ (fun t _ => flushed5_eq V c hvar t) (cover5)

end Cert.Val

end
-- ==== Proof.Bridge.BL0b.lean ====
/-
  Layer 0's batch statistics and batch-norm at the boundaries. The per-feature mean and variance of each node type's features,
  and the scale and shift vectors cut out of the two argument arrays, hold the same arrays on the two sides because the same
  host operations compute them from buffers that agree (the features by an earlier stage, the arguments by hypothesis). Each
  kernel region's output array is then the reference's normalisation followed by its LeakyReLU of the region's five input
  arrays, the variance being nowhere negative; the reference applies the same two functions as host operations to the same
  five arrays.
-/
import proofs.«151172_j14164802142730_2_alg».proof.Proof.Bridge.Base
import proofs.«151172_j14164802142730_2_alg».proof.Proof.Bridge.BL0bS
import proofs.«151172_j14164802142730_2_alg».proof.Proof.KI.VarK
import proofs.«151172_j14164802142730_2_alg».proof.Proof.Val.Bn
import proofs.«151172_j14164802142730_2_alg».proof.Proof.Val.Bn5
import proofs.«151172_j14164802142730_2_alg».proof.Proof.Gen.ReferenceIdeal
import proofs.«151172_j14164802142730_2_alg».proof.Proof.Gen.KernelIdeal

set_option maxRecDepth 16384

noncomputable section

namespace Cert.Bridge

open Idealize.ShloMosaic Idealize.ShloMosaic.TcCoe Idealize.SL.Sem Idealize.ShloMosaic.StableHlo
open Cert.KernelIdeal.Frame Cert.ReferenceIdeal.Hand

variable {m : (ℓ : Loc Cert.KernelIdeal.nD Cert.KernelIdeal.τ Cert.KernelIdeal.sig) → Buf (Elt Ideal) ℓ} (ρ : Dev Cert.KernelIdeal.nD → PrngReg)
  {m' : (ℓ : Loc Cert.ReferenceIdeal.nD Cert.ReferenceIdeal.τ Cert.ReferenceIdeal.sig) → Buf (Elt Ideal) ℓ}

/-! ## The two argument arrays read here, carried to the boundaries where they are read -/

/-- An argument array the reference never writes holds at boundary 9 what it held at launch. -/
theorem r9_of_r0 (c : Dev Cert.ReferenceIdeal.nD) (r : Ref Cert.ReferenceIdeal.sig .tc)
    (h0 : r ∉ C0_W) (h1 : r ∉ C1_W) (h2 : r ∉ C2_W) (h3 : r ∉ C3_W) (h4 : r ∉ C4_W) (h5 : r ∉ C5_W) (h6 : r ∉ C6_W)
    (h7 : r ∉ C7_W) (h8 : r ∉ C8_W) :
    Rv9 m' c (Proc.devRef .tc r) = Rv0 m' c (Proc.devRef .tc r) :=
  (Rv9_keep m' c r h8).trans ((Rv8_keep m' c r h7).trans ((Rv7_keep m' c r h6).trans ((Rv6_keep m' c r h5).trans
    ((Rv5_keep m' c r h4).trans ((Rv4_keep m' c r h3).trans ((Rv3_keep m' c r h2).trans ((Rv2_keep m' c r h1).trans
      (Rv1_keep m' c r h0))))))))

/-- The same for the kernel program up to boundary 11: no host stretch writes the array and no region's output is it. -/
theorem k11_of_k0 (c : Dev Cert.KernelIdeal.nD) (r : Ref Cert.KernelIdeal.sig .tc)
    (h1 : r ∉ hostOps0_W) (h2 : r ≠ Cert.KernelIdeal.main_v14) (h3 : r ≠ Cert.KernelIdeal.main_v15) (h4 : r ∉ hostOps2_W)
    (h5 : r ≠ Cert.KernelIdeal.main_v91) (h6 : r ∉ hostOps3_W) (h7 : r ≠ Cert.KernelIdeal.main_v104) (h8 : r ∉ hostOps4_W)
    (h9 : r ∉ hostOps4_1_W) (h10 : r ∉ hostOps4_2_W) (h11 : r ∉ hostOps4_3_W) :
    W11 m ρ c (Proc.devRef .tc r) = W0 m ρ c (Proc.devRef .tc r) :=
  (W11_keep m ρ c r h11).trans ((W10_keep m ρ c r h10).trans ((W9_keep m ρ c r h9).trans ((W8_keep m ρ c r h8).trans
    ((W7_keep m ρ c r h7).trans ((W6_keep m ρ c r h6).trans ((W5_keep m ρ c r h5).trans ((W4_keep m ρ c r h4).trans
      ((W3_keep m ρ c r h3).trans ((W2_keep m ρ c r h2).trans (W1_keep m ρ c r h1))))))))))

/-- The scales at the boundaries where the object nodes' vectors are cut out. -/
theorem e9_arg9 (hag : Agree m m') (c : Dev Cert.KernelIdeal.nD) :
    Rv9 m' c (Proc.devRef .tc Cert.ReferenceIdeal.main_arg9) = W11 m ρ c (Proc.devRef .tc Cert.KernelIdeal.main_arg9) :=
  (r9_of_r0 c _ (by decide) (by decide) (by decide) (by decide) (by decide) (by decide) (by decide) (by decide) (by decide)).trans
    ((arg9 ρ hag c).trans (k11_of_k0 ρ c _ (by decide) (by decide) (by decide) (by decide) (by decide) (by decide) (by decide)
      (by decide) (by decide) (by decide) (by decide)).symm)

/-- The shifts there. -/
theorem e9_arg10 (hag : Agree m m') (c : Dev Cert.KernelIdeal.nD) :
    Rv9 m' c (Proc.devRef .tc Cert.ReferenceIdeal.main_arg10) = W11 m ρ c (Proc.devRef .tc Cert.KernelIdeal.main_arg10) :=
  (r9_of_r0 c _ (by decide) (by decide) (by decide) (by decide) (by decide) (by decide) (by decide) (by decide) (by decide)).trans
    ((arg10 ρ hag c).trans (k11_of_k0 ρ c _ (by decide) (by decide) (by decide) (by decide) (by decide) (by decide) (by decide)
      (by decide) (by decide) (by decide) (by decide)).symm)

/-- The scales at the boundaries where the attribute nodes' vectors are cut out. -/
theorem e11_arg9 (hag : Agree m m') (c : Dev Cert.KernelIdeal.nD) :
    Rv11 m' c (Proc.devRef .tc Cert.ReferenceIdeal.main_arg9) = W13 m ρ c (Proc.devRef .tc Cert.KernelIdeal.main_arg9) :=
  (Rv11_keep m' c _ (by decide)).trans ((Rv10_keep m' c _ (by decide)).trans ((e9_arg9 ρ hag c).trans
    ((W12_keep m ρ c _ (by decide)).symm.trans (W13_keep m ρ c _ (by decide)).symm)))

/-- The shifts there. -/
theorem e11_arg10 (hag : Agree m m') (c : Dev Cert.KernelIdeal.nD) :
    Rv11 m' c (Proc.devRef .tc Cert.ReferenceIdeal.main_arg10) = W13 m ρ c (Proc.devRef .tc Cert.KernelIdeal.main_arg10) :=
  (Rv11_keep m' c _ (by decide)).trans ((Rv10_keep m' c _ (by decide)).trans ((e9_arg10 ρ hag c).trans
    ((W12_keep m ρ c _ (by decide)).symm.trans (W13_keep m ρ c _ (by decide)).symm)))

/-! ## The object nodes -/

/-- The object features' mean. -/
theorem p_v107 (c : Dev Cert.KernelIdeal.nD)
    (h104 : Rv9 m' c (Proc.devRef .tc Cert.ReferenceIdeal.main_v171) = W7 m ρ c (Proc.devRef .tc Cert.KernelIdeal.main_v104)) :
    Rv10 m' c (Proc.devRef .tc Cert.ReferenceIdeal.main_v178) = W8 m ρ c (Proc.devRef .tc Cert.KernelIdeal.main_v107) := by
  rw [Rv10_eq, W8_eq]
  exact s_v107 _ _ h104

/-- The object features' variance. -/
theorem p_v108 (c : Dev Cert.KernelIdeal.nD)
    (h104 : Rv9 m' c (Proc.devRef .tc Cert.ReferenceIdeal.main_v171) = W7 m ρ c (Proc.devRef .tc Cert.KernelIdeal.main_v104)) :
    Rv10 m' c (Proc.devRef .tc Cert.ReferenceIdeal.main_v179) = W9 m ρ c (Proc.devRef .tc Cert.KernelIdeal.main_v108) := by
  have hx : Rv9 m' c (Proc.devRef .tc Cert.ReferenceIdeal.main_v171) = W8 m ρ c (Proc.devRef .tc Cert.KernelIdeal.main_v104) :=
    h104.trans (W8_keep m ρ c _ (by decide)).symm
  have hc : @Eq (IVec Cert.KernelIdeal.S_ 32) (W8 m ρ c (Proc.devRef .tc Cert.KernelIdeal.main_c_22)) (constantI Cert.KernelIdeal.S_ 32 0#32) := by
    rw [W8_eq]; exact s_c22 _
  rw [Rv10_eq, W9_eq]
  exact s_v108 _ _ hx hc

/-- The object nodes' scale vector. -/
theorem p_v114 (hag : Agree m m') (c : Dev Cert.KernelIdeal.nD) :
    Rv10 m' c (Proc.devRef .tc Cert.ReferenceIdeal.main_v173) = W12 m ρ c (Proc.devRef .tc Cert.KernelIdeal.main_v114) := by
  rw [Rv10_eq, W12_eq]
  exact s_v114 _ _ (e9_arg9 ρ hag c)

/-- The object nodes' shift vector. -/
theorem p_v116 (hag : Agree m m') (c : Dev Cert.KernelIdeal.nD) :
    Rv10 m' c (Proc.devRef .tc Cert.ReferenceIdeal.main_v175) = W12 m ρ c (Proc.devRef .tc Cert.KernelIdeal.main_v116) := by
  rw [Rv10_eq, W12_eq]
  exact s_v116 _ _ (e9_arg10 ρ hag c)

/-- The object nodes' batch-norm and LeakyReLU: region 4's output array against the reference's two stretches. -/
theorem p_v117 (hag : Agree m m') (c : Dev Cert.KernelIdeal.nD)
    (h104 : Rv9 m' c (Proc.devRef .tc Cert.ReferenceIdeal.main_v171) = W7 m ρ c (Proc.devRef .tc Cert.KernelIdeal.main_v104)) :
    Rv14 m' c (Proc.devRef .tc Cert.ReferenceIdeal.main_v222) = W13 m ρ c (Proc.devRef .tc Cert.KernelIdeal.main_v117) := by
  rw [W13_out, Cert.Val.val4 (V12 m ρ) c (hvar4 m ρ c), Rv14_eq, s_r222,
    Rv13_keep m' c Cert.ReferenceIdeal.main_v194 (by decide), Rv12_keep m' c Cert.ReferenceIdeal.main_v194 (by decide), Rv11_eq, s_r194]
  simp only [arrRef4_0, arrRef4_1, arrRef4_2, arrRef4_3, arrRef4_4]
  have e171 : Rv10 m' c (Proc.devRef .tc Cert.ReferenceIdeal.main_v171) = W12 m ρ c (Proc.devRef .tc Cert.KernelIdeal.main_v104) :=
    (Rv10_keep m' c _ (by decide)).trans (h104.trans ((W8_keep m ρ c _ (by decide)).symm.trans ((W9_keep m ρ c _ (by decide)).symm.trans
      ((W10_keep m ρ c _ (by decide)).symm.trans ((W11_keep m ρ c _ (by decide)).symm.trans (W12_keep m ρ c _ (by decide)).symm)))))
  have e178 : Rv10 m' c (Proc.devRef .tc Cert.ReferenceIdeal.main_v178) = W12 m ρ c (Proc.devRef .tc Cert.KernelIdeal.main_v107) :=
    (p_v107 ρ c h104).trans ((W9_keep m ρ c _ (by decide)).symm.trans ((W10_keep m ρ c _ (by decide)).symm.trans
      ((W11_keep m ρ c _ (by decide)).symm.trans (W12_keep m ρ c _ (by decide)).symm)))
  have e179 : Rv10 m' c (Proc.devRef .tc Cert.ReferenceIdeal.main_v179) = W12 m ρ c (Proc.devRef .tc Cert.KernelIdeal.main_v108) :=
    (p_v108 ρ c h104).trans ((W10_keep m ρ c _ (by decide)).symm.trans
      ((W11_keep m ρ c _ (by decide)).symm.trans (W12_keep m ρ c _ (by decide)).symm))
  rw [e171, p_v114 ρ hag c, p_v116 ρ hag c, e178, e179]

/-! ## The attribute nodes -/

/-- The attribute features at the boundaries where their statistics are computed. -/
theorem e11_v100 (c : Dev Cert.KernelIdeal.nD)
    (h91 : Rv5 m' c (Proc.devRef .tc Cert.ReferenceIdeal.main_v100) = W5 m ρ c (Proc.devRef .tc Cert.KernelIdeal.main_v91)) :
    Rv11 m' c (Proc.devRef .tc Cert.ReferenceIdeal.main_v100) = W9 m ρ c (Proc.devRef .tc Cert.KernelIdeal.main_v91) :=
  (Rv11_keep m' c _ (by decide)).trans ((Rv10_keep m' c _ (by decide)).trans ((Rv9_keep m' c _ (by decide)).trans
    ((Rv8_keep m' c _ (by decide)).trans ((Rv7_keep m' c _ (by decide)).trans ((Rv6_keep m' c _ (by decide)).trans
      (h91.trans ((W6_keep m ρ c _ (by decide)).symm.trans ((W7_keep m ρ c _ (by decide)).symm.trans
        ((W8_keep m ρ c _ (by decide)).symm.trans (W9_keep m ρ c _ (by decide)).symm)))))))))

/-- The attribute features' mean. -/
theorem p_v111 (c : Dev Cert.KernelIdeal.nD)
    (h91 : Rv5 m' c (Proc.devRef .tc Cert.ReferenceIdeal.main_v100) = W5 m ρ c (Proc.devRef .tc Cert.KernelIdeal.main_v91)) :
    Rv12 m' c (Proc.devRef .tc Cert.ReferenceIdeal.main_v201) = W10 m ρ c (Proc.devRef .tc Cert.KernelIdeal.main_v111) := by
  rw [Rv12_eq, W10_eq]
  exact s_v111 _ _ (e11_v100 ρ c h91)

/-- The attribute features' variance. -/
theorem p_v112 (c : Dev Cert.KernelIdeal.nD)
    (h91 : Rv5 m' c (Proc.devRef .tc Cert.ReferenceIdeal.main_v100) = W5 m ρ c (Proc.devRef .tc Cert.KernelIdeal.main_v91)) :
    Rv12 m' c (Proc.devRef .tc Cert.ReferenceIdeal.main_v202) = W11 m ρ c (Proc.devRef .tc Cert.KernelIdeal.main_v112) := by
  have hx : Rv11 m' c (Proc.devRef .tc Cert.ReferenceIdeal.main_v100) = W10 m ρ c (Proc.devRef .tc Cert.KernelIdeal.main_v91) :=
    (e11_v100 ρ c h91).trans (W10_keep m ρ c _ (by decide)).symm
  have hc : @Eq (IVec Cert.KernelIdeal.S_ 32) (W10 m ρ c (Proc.devRef .tc Cert.KernelIdeal.main_c_25)) (constantI Cert.KernelIdeal.S_ 32 0#32) := by
    rw [W10_eq]; exact s_c25 _
  rw [Rv12_eq, W11_eq]
  exact s_v112 _ _ hx hc

/-- The attribute nodes' scale vector. -/
theorem p_v119 (hag : Agree m m') (c : Dev Cert.KernelIdeal.nD) :
    Rv12 m' c (Proc.devRef .tc Cert.ReferenceIdeal.main_v196) = W14 m ρ c (Proc.devRef .tc Cert.KernelIdeal.main_v119) := by
  rw [Rv12_eq, W14_eq]
  exact s_v119 _ _ (e11_arg9 ρ hag c)

/-- The attribute nodes' shift vector. -/
theorem p_v121 (hag : Agree m m') (c : Dev Cert.KernelIdeal.nD) :
    Rv12 m' c (Proc.devRef .tc Cert.ReferenceIdeal.main_v198) = W14 m ρ c (Proc.devRef .tc Cert.KernelIdeal.main_v121) := by
  rw [Rv12_eq, W14_eq]
  exact s_v121 _ _ (e11_arg10 ρ hag c)

/-- The attribute nodes' batch-norm and LeakyReLU: region 5's output array against the reference's two stretches. -/
theorem p_v122 (hag : Agree m m') (c : Dev Cert.KernelIdeal.nD)
    (h91 : Rv5 m' c (Proc.devRef .tc Cert.ReferenceIdeal.main_v100) = W5 m ρ c (Proc.devRef .tc Cert.KernelIdeal.main_v91)) :
    Rv14 m' c (Proc.devRef .tc Cert.ReferenceIdeal.main_v227) = W15 m ρ c (Proc.devRef .tc Cert.KernelIdeal.main_v122) := by
  rw [W15_out, Cert.Val.val5 (V14 m ρ) c (hvar5 m ρ c), Rv14_eq, s_r227, Rv13_eq, s_r217]
  simp only [arrRef5_0, arrRef5_1, arrRef5_2, arrRef5_3, arrRef5_4]
  have e100 : Rv12 m' c (Proc.devRef .tc Cert.ReferenceIdeal.main_v100) = W14 m ρ c (Proc.devRef .tc Cert.KernelIdeal.main_v91) :=
    (Rv12_keep m' c _ (by decide)).trans ((e11_v100 ρ c h91).trans ((W10_keep m ρ c _ (by decide)).symm.trans
      ((W11_keep m ρ c _ (by decide)).symm.trans ((W12_keep m ρ c _ (by decide)).symm.trans
        ((W13_keep m ρ c _ (by decide)).symm.trans (W14_keep m ρ c _ (by decide)).symm)))))
  have e201 : Rv12 m' c (Proc.devRef .tc Cert.ReferenceIdeal.main_v201) = W14 m ρ c (Proc.devRef .tc Cert.KernelIdeal.main_v111) :=
    (p_v111 ρ c h91).trans ((W11_keep m ρ c _ (by decide)).symm.trans ((W12_keep m ρ c _ (by decide)).symm.trans
      ((W13_keep m ρ c _ (by decide)).symm.trans (W14_keep m ρ c _ (by decide)).symm)))
  have e202 : Rv12 m' c (Proc.devRef .tc Cert.ReferenceIdeal.main_v202) = W14 m ρ c (Proc.devRef .tc Cert.KernelIdeal.main_v112) :=
    (p_v112 ρ c h91).trans ((W12_keep m ρ c _ (by decide)).symm.trans
      ((W13_keep m ρ c _ (by decide)).symm.trans (W14_keep m ρ c _ (by decide)).symm))
  rw [e100, p_v119 ρ hag c, p_v121 ρ hag c, e201, e202]

end Cert.Bridge

end
-- ==== Proof.Bridge.BL1aS.lean ====
/-
  The second message-passing layer's stages, side by side, over ARBITRARY contents of the buffers before them. A host stage
  applies the same operations on both sides, so the two folds agree at the written reference when the contents agree at the
  references read: the layer's parameter slices (a slice and a reshape of an argument array) and the three mean
  aggregations (gather the source rows, sum them into the destination rows, divide by the edge count). A linear combine the
  kernel program runs as a region is, on the reference side, the host operations' composed term, which is the function the
  region's value is stated with.
-/
import proofs.«151172_j14164802142730_2_alg».proof.Proof.Gen.KernelIdeal.Launch
import proofs.«151172_j14164802142730_2_alg».proof.Proof.Ref.Chunks
import proofs.«151172_j14164802142730_2_alg».proof.Proof.Val.Sage1Ref
import proofs.«151172_j14164802142730_2_alg».proof.Proof.Val.Sage2Ref
import proofs.«151172_j14164802142730_2_alg».proof.Proof.Gen.ReferenceIdeal
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo

variable (V : Valuation Cert.KernelIdeal.τ Cert.KernelIdeal.sig (Elt Ideal)) (V' : Valuation Cert.ReferenceIdeal.τ Cert.ReferenceIdeal.sig (Elt Ideal))

/-! ## The first relation's stage: parameter slices and aggregation -/

set_option maxHeartbeats 1000000 in
/-- The first relation's self weight: the same slice and reshape of the same argument array on both sides. -/
theorem s_v193 (h6 : V' (Proc.devRef .tc Cert.ReferenceIdeal.main_arg6) = V (Proc.devRef .tc Cert.KernelIdeal.main_arg6)) :
    after Cert.ReferenceIdeal.Hand.C14 V' (Proc.devRef .tc Cert.ReferenceIdeal.main_v229)
      = after Cert.KernelIdeal.Gen.hostOps6 V (Proc.devRef .tc Cert.KernelIdeal.main_v193) := by
  after_results_simp
  rw [h6]
  rfl

set_option maxHeartbeats 1000000 in
/-- The first relation's message weight: the same slice and reshape of the same argument array on both sides. -/
theorem s_v195 (h7 : V' (Proc.devRef .tc Cert.ReferenceIdeal.main_arg7) = V (Proc.devRef .tc Cert.KernelIdeal.main_arg7)) :
    after Cert.ReferenceIdeal.Hand.C14 V' (Proc.devRef .tc Cert.ReferenceIdeal.main_v231)
      = after Cert.KernelIdeal.Gen.hostOps6 V (Proc.devRef .tc Cert.KernelIdeal.main_v195) := by
  after_results_simp
  rw [h7]
  rfl

set_option maxHeartbeats 1000000 in
/-- The first relation's bias: the same slice and reshape of the same argument array on both sides. -/
theorem s_v197 (h8 : V' (Proc.devRef .tc Cert.ReferenceIdeal.main_arg8) = V (Proc.devRef .tc Cert.KernelIdeal.main_arg8)) :
    after Cert.ReferenceIdeal.Hand.C14 V' (Proc.devRef .tc Cert.ReferenceIdeal.main_v233)
      = after Cert.KernelIdeal.Gen.hostOps6 V (Proc.devRef .tc Cert.KernelIdeal.main_v197) := by
  after_results_simp
  rw [h8]
  rfl

set_option maxHeartbeats 1000000 in
/-- The object features averaged over the first relation's edges: the same thirty operations on both sides — the source rows gathered (negative indices wrapped), summed into the destination rows, and divided by the destination's edge count (at least one). -/
theorem s_v145 (h117 : V' (Proc.devRef .tc Cert.ReferenceIdeal.main_v222) = V (Proc.devRef .tc Cert.KernelIdeal.main_v117))
    (h15 : V' (Proc.devRef .tc Cert.ReferenceIdeal.main_arg15) = V (Proc.devRef .tc Cert.KernelIdeal.main_arg15)) :
    after Cert.ReferenceIdeal.Hand.C14 V' (Proc.devRef .tc Cert.ReferenceIdeal.main_v256)
      = after Cert.KernelIdeal.Gen.hostOps6 V (Proc.devRef .tc Cert.KernelIdeal.main_v145) := by
  after_results_simp
  rw [h117, h15]
  rfl

/-! ## The second relation's -/

set_option maxHeartbeats 1000000 in
/-- The second relation's self weight: the same slice and reshape of the same argument array on both sides. -/
theorem s_v200 (h6 : V' (Proc.devRef .tc Cert.ReferenceIdeal.main_arg6) = V (Proc.devRef .tc Cert.KernelIdeal.main_arg6)) :
    after Cert.ReferenceIdeal.Hand.C16 V' (Proc.devRef .tc Cert.ReferenceIdeal.main_v264)
      = after Cert.KernelIdeal.Gen.hostOps7 V (Proc.devRef .tc Cert.KernelIdeal.main_v200) := by
  after_results_simp
  rw [h6]
  rfl

set_option maxHeartbeats 1000000 in
/-- The second relation's message weight: the same slice and reshape of the same argument array on both sides. -/
theorem s_v202 (h7 : V' (Proc.devRef .tc Cert.ReferenceIdeal.main_arg7) = V (Proc.devRef .tc Cert.KernelIdeal.main_arg7)) :
    after Cert.ReferenceIdeal.Hand.C16 V' (Proc.devRef .tc Cert.ReferenceIdeal.main_v266)
      = after Cert.KernelIdeal.Gen.hostOps7 V (Proc.devRef .tc Cert.KernelIdeal.main_v202) := by
  after_results_simp
  rw [h7]
  rfl

set_option maxHeartbeats 1000000 in
/-- The second relation's bias: the same slice and reshape of the same argument array on both sides. -/
theorem s_v204 (h8 : V' (Proc.devRef .tc Cert.ReferenceIdeal.main_arg8) = V (Proc.devRef .tc Cert.KernelIdeal.main_arg8)) :
    after Cert.ReferenceIdeal.Hand.C16 V' (Proc.devRef .tc Cert.ReferenceIdeal.main_v268)
      = after Cert.KernelIdeal.Gen.hostOps7 V (Proc.devRef .tc Cert.KernelIdeal.main_v204) := by
  after_results_simp
  rw [h8]
  rfl

set_option maxHeartbeats 1000000 in
/-- The attribute features averaged over the second relation's edges: the same thirty operations on both sides — the source rows gathered (negative indices wrapped), summed into the destination rows, and divided by the destination's edge count (at least one). -/
theorem s_v168 (h122 : V' (Proc.devRef .tc Cert.ReferenceIdeal.main_v227) = V (Proc.devRef .tc Cert.KernelIdeal.main_v122))
    (h16 : V' (Proc.devRef .tc Cert.ReferenceIdeal.main_arg16) = V (Proc.devRef .tc Cert.KernelIdeal.main_arg16)) :
    after Cert.ReferenceIdeal.Hand.C16 V' (Proc.devRef .tc Cert.ReferenceIdeal.main_v291)
      = after Cert.KernelIdeal.Gen.hostOps6 V (Proc.devRef .tc Cert.KernelIdeal.main_v168) := by
  after_results_simp
  rw [h122, h16]
  rfl

/-! ## The third relation's -/

set_option maxHeartbeats 1000000 in
/-- The third relation's self weight: the same slice and reshape of the same argument array on both sides. -/
theorem s_v206 (h6 : V' (Proc.devRef .tc Cert.ReferenceIdeal.main_arg6) = V (Proc.devRef .tc Cert.KernelIdeal.main_arg6)) :
    after Cert.ReferenceIdeal.Hand.C18 V' (Proc.devRef .tc Cert.ReferenceIdeal.main_v299)
      = after Cert.KernelIdeal.Gen.hostOps7 V (Proc.devRef .tc Cert.KernelIdeal.main_v206) := by
  after_results_simp
  rw [h6]
  rfl

set_option maxHeartbeats 1000000 in
/-- The third relation's message weight: the same slice and reshape of the same argument array on both sides. -/
theorem s_v208 (h7 : V' (Proc.devRef .tc Cert.ReferenceIdeal.main_arg7) = V (Proc.devRef .tc Cert.KernelIdeal.main_arg7)) :
    after Cert.ReferenceIdeal.Hand.C18 V' (Proc.devRef .tc Cert.ReferenceIdeal.main_v301)
      = after Cert.KernelIdeal.Gen.hostOps7 V (Proc.devRef .tc Cert.KernelIdeal.main_v208) := by
  after_results_simp
  rw [h7]
  rfl

set_option maxHeartbeats 1000000 in
/-- The third relation's bias: the same slice and reshape of the same argument array on both sides. -/
theorem s_v210 (h8 : V' (Proc.devRef .tc Cert.ReferenceIdeal.main_arg8) = V (Proc.devRef .tc Cert.KernelIdeal.main_arg8)) :
    after Cert.ReferenceIdeal.Hand.C18 V' (Proc.devRef .tc Cert.ReferenceIdeal.main_v303)
      = after Cert.KernelIdeal.Gen.hostOps7 V (Proc.devRef .tc Cert.KernelIdeal.main_v210) := by
  after_results_simp
  rw [h8]
  rfl

set_option maxHeartbeats 1000000 in
/-- The object features averaged over the third relation's edges: the same thirty operations on both sides — the source rows gathered (negative indices wrapped), summed into the destination rows, and divided by the destination's edge count (at least one). -/
theorem s_v191 (h117 : V' (Proc.devRef .tc Cert.ReferenceIdeal.main_v222) = V (Proc.devRef .tc Cert.KernelIdeal.main_v117))
    (h17 : V' (Proc.devRef .tc Cert.ReferenceIdeal.main_arg17) = V (Proc.devRef .tc Cert.KernelIdeal.main_arg17)) :
    after Cert.ReferenceIdeal.Hand.C18 V' (Proc.devRef .tc Cert.ReferenceIdeal.main_v326)
      = after Cert.KernelIdeal.Gen.hostOps6 V (Proc.devRef .tc Cert.KernelIdeal.main_v191) := by
  after_results_simp
  rw [h117, h17]
  rfl

/-! ## The reference's linear combines, as the functions the regions' values are stated with -/

set_option maxHeartbeats 1000000 in
/-- The first relation's combine (attribute nodes): the reference's six operations compose to `refSage1` of the five arrays
    read. -/
theorem s_r262 : after Cert.ReferenceIdeal.Hand.C15 V' (Proc.devRef .tc Cert.ReferenceIdeal.main_v262)
      = Cert.Val.refSage1 (F := Ideal) (V' (Proc.devRef .tc Cert.ReferenceIdeal.main_v227)) (V' (Proc.devRef .tc Cert.ReferenceIdeal.main_v256))
          (V' (Proc.devRef .tc Cert.ReferenceIdeal.main_v229)) (V' (Proc.devRef .tc Cert.ReferenceIdeal.main_v231)) (V' (Proc.devRef .tc Cert.ReferenceIdeal.main_v233)) := by
  after_results_simp
  rfl

set_option maxHeartbeats 1000000 in
/-- The second relation's combine (object nodes): one `refSageLin`. -/
theorem s_r297 : after Cert.ReferenceIdeal.Hand.C17 V' (Proc.devRef .tc Cert.ReferenceIdeal.main_v297)
      = Cert.Val.refSageLin (F := Ideal) (V' (Proc.devRef .tc Cert.ReferenceIdeal.main_v222)) (V' (Proc.devRef .tc Cert.ReferenceIdeal.main_v291))
          (V' (Proc.devRef .tc Cert.ReferenceIdeal.main_v264)) (V' (Proc.devRef .tc Cert.ReferenceIdeal.main_v266)) (V' (Proc.devRef .tc Cert.ReferenceIdeal.main_v268)) := by
  after_results_simp
  rfl

set_option maxHeartbeats 1000000 in
/-- The third relation's combine added to the second's: the stretch computes the third `refSageLin` and adds it to the
    second relation's combine, which it finds in its buffer. -/
theorem s_r333 : after Cert.ReferenceIdeal.Hand.C19 V' (Proc.devRef .tc Cert.ReferenceIdeal.main_v333)
      = addf (V' (Proc.devRef .tc Cert.ReferenceIdeal.main_v297))
          (Cert.Val.refSageLin (F := Ideal) (V' (Proc.devRef .tc Cert.ReferenceIdeal.main_v222)) (V' (Proc.devRef .tc Cert.ReferenceIdeal.main_v326))
            (V' (Proc.devRef .tc Cert.ReferenceIdeal.main_v299)) (V' (Proc.devRef .tc Cert.ReferenceIdeal.main_v301)) (V' (Proc.devRef .tc Cert.ReferenceIdeal.main_v303))) := by
  after_results_simp
  rfl

end Cert.Bridge

end
-- ==== Proof.Val.Sage1r6.lean ====
/-
  Region 6's value at the ideal values: after the region, the output array is the reference's SAGEConv linear combine of
  the five input arrays as the region found them.

  At grid point `t` the body stores `k6_pay1` of its five loaded blocks: at `(p, q)` of the block that is row `p` of the
  features' block times column `q` of the self weight, plus row `p` of the messages' block times column `q` of the message
  weight, plus the bias at `q`. The two row blocks are rows `5000 t + p` of their arrays and the weights and the bias are
  their whole arrays, so this is entry `(5000 t + p, q)` of the reference's combine of the arrays: point `t` writes back
  block `t` of it. Row `r` lies in block `r / 5000`, so the 40 blocks cover the array.
-/
import proofs.«151172_j14164802142730_2_alg».proof.Proof.KI.R6
import proofs.«151172_j14164802142730_2_alg».proof.Proof.Val.Sage1Ref
import proofs.«151172_j14164802142730_2_alg».proof.Proof.Val.Sage1Ker
import Idealize.ShloMosaic.Lib.Pipeline.Value
import Idealize.ShloMosaic.Lib.ValueIdx

set_option maxRecDepth 16384

noncomputable section

namespace Cert.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The body's payload at an entry -/

/-- The stored value at `(p, q)`: the combine of the five loaded blocks there. -/
theorem pay6_apply (x0 x1 : Vec Ideal S5000x64 .f32) (x2 x3 : Vec Ideal S64x64 .f32) (x4 : Vec Ideal S64 .f32)
    (p : Fin 5000) (q : Fin 64) :
    k6_pay1 (F := Ideal) x0 x1 x2 x3 x4 (ix2 p q) = sageAt x0 x1 x2 x3 x4 p q := by
  unfold Gen.k6_pay1 sageAt
  simp only [shapeCast_self]
  rw [addf_apply, addf_apply, kerMat_apply, kerMat_apply, kerBias_apply]

/-- When the two row blocks are rows `5000 o + p` of two arrays and the weights and the bias are three whole arrays, the
    stored value at `y` is the reference's combine of the arrays at the entry `i` that is `y` moved down `5000 o` rows. -/
theorem block6_eq (A0 A1 : Vec Ideal S200000x64 .f32) (A2 A3 : Vec Ideal S64x64 .f32) (A4 : Vec Ideal S64 .f32)
    (x0 x1 : Vec Ideal S5000x64 .f32) (x2 x3 : Vec Ideal S64x64 .f32) (x4 : Vec Ideal S64 .f32)
    (y : S5000x64.Idx) (i : S200000x64.Idx) (o : Nat)
    (hi0 : (i 0).val = o * 5000 + (y 0).val) (hi1 : (i 1).val = (y 1).val)
    (h0 : ∀ (p : Fin 5000) (k : Fin 64) (r : Fin 200000), r.val = o * 5000 + p.val → x0 (ix2 p k) = A0 (ix2 r k))
    (h1 : ∀ (p : Fin 5000) (k : Fin 64) (r : Fin 200000), r.val = o * 5000 + p.val → x1 (ix2 p k) = A1 (ix2 r k))
    (h2 : x2 = A2) (h3 : x3 = A3) (h4 : x4 = A4) :
    k6_pay1 (F := Ideal) x0 x1 x2 x3 x4 y = refSage1 (F := Ideal) A0 A1 A2 A3 A4 i := by
  obtain ⟨p, q, rfl⟩ : ∃ (p : Fin 5000) (q : Fin 64), y = ix2 p q := ⟨y 0, y 1, eq_ix2 y⟩
  obtain ⟨r, q', rfl⟩ : ∃ (r : Fin 200000) (q' : Fin 64), i = ix2 r q' := ⟨i 0, i 1, eq_ix2 i⟩
  obtain rfl : q' = q := Fin.ext hi1
  subst h2; subst h3; subst h4
  rw [pay6_apply, refSage1_apply]
  unfold sageAt
  simp only [h0 p _ r hi0, h1 p _ r hi0]

/-! ## From the blocks to the array -/

private theorem zeros_pair : (![0, 0] : Fin 2 → Nat) = fun _ => 0 := funext fun a => by fin_cases a <;> rfl
private theorem zeros_single : (![0] : Fin 1 → Nat) = fun _ => 0 := funext fun a => by fin_cases a; rfl

/-- The printed index maps, decided over the grid: the two row inputs move with the output down the rows, the weights
    and the bias stay at block 0, and the output's block index stays below 40. -/
theorem idx_facts6 : ∀ t : Fin cfg6.N,
    win6_0.index t (0 : Fin 2) = win6_5.index t (0 : Fin 2) ∧ win6_0.index t (1 : Fin 2) = 0
    ∧ win6_1.index t (0 : Fin 2) = win6_5.index t (0 : Fin 2) ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 1) = 0
    ∧ win6_5.index t (0 : Fin 2) ≤ 39 ∧ win6_5.index t (1 : Fin 2) = 0 :=
  (by decide +kernel : ∀ t : Fin grid6.N, _)

/-- Every one of the 40 row blocks is some point's. -/
theorem idx_onto6 : ∀ q0 : Fin 40, ∃ t : Fin cfg6.N, win6_5.index t (0 : Fin 2) = q0.val :=
  (by decide +kernel : ∀ q0 : Fin 40, ∃ t : Fin grid6.N, win6_5.index t (0 : Fin 2) = q0.val)

/-- Window 0's block at point `t` is rows `5000 · (the output's block index) + p` of its array. -/
theorem rows6_0 (c : Dev nD) (t : Fin cfg6.N) (p : Fin 5000) (k : Fin 64) (r : Fin 200000)
    (hr : r.val = win6_5.index t (0 : Fin 2) * 5000 + p.val) :
    (iblk6 V c 0 t : Vec Ideal S5000x64 .f32) (ix2 p k) = (V c (Pipeline.arrRef spec6 0) : Vec Ideal S200000x64 .f32) (ix2 r k) := by
  obtain ⟨e0, e1, e2, e3, e4, e5, e6, e7, e8, e9, e10⟩ := idx_facts6 t
  show V c (Pipeline.arrRef spec6 0) (((cfg6.win 0).blk t).view.emb (ix2 p k)) = V c (Pipeline.arrRef spec6 0) (ix2 r k)
  refine congrArg _ (funext fun a => Fin.ext ?_)
  match a with
  | ⟨0, _⟩ => show win6_0.index t (0 : Fin 2) * 5000 + 1 * p.val = r.val; omega
  | ⟨1, _⟩ => show win6_0.index t (1 : Fin 2) * 64 + 1 * k.val = k.val; omega

/-- Window 1's block at point `t` is rows `5000 · (the output's block index) + p` of its array. -/
theorem rows6_1 (c : Dev nD) (t : Fin cfg6.N) (p : Fin 5000) (k : Fin 64) (r : Fin 200000)
    (hr : r.val = win6_5.index t (0 : Fin 2) * 5000 + p.val) :
    (iblk6 V c 1 t : Vec Ideal S5000x64 .f32) (ix2 p k) = (V c (Pipeline.arrRef spec6 1) : Vec Ideal S200000x64 .f32) (ix2 r k) := by
  obtain ⟨e0, e1, e2, e3, e4, e5, e6, e7, e8, e9, e10⟩ := idx_facts6 t
  show V c (Pipeline.arrRef spec6 1) (((cfg6.win 1).blk t).view.emb (ix2 p k)) = V c (Pipeline.arrRef spec6 1) (ix2 r k)
  refine congrArg _ (funext fun a => Fin.ext ?_)
  match a with
  | ⟨0, _⟩ => show win6_1.index t (0 : Fin 2) * 5000 + 1 * p.val = r.val; omega
  | ⟨1, _⟩ => show win6_1.index t (1 : Fin 2) * 64 + 1 * k.val = k.val; omega

/-- Window 2's block at every point is its whole array. -/
theorem whole6_2 (c : Dev nD) (t : Fin cfg6.N) :
    (iblk6 V c 2 t : Vec Ideal S64x64 .f32) = (V c (Pipeline.arrRef spec6 2) : Vec Ideal S64x64 .f32) := by
  obtain ⟨e0, e1, e2, e3, e4, e5, e6, e7, e8, e9, e10⟩ := idx_facts6 t
  funext y
  show V c (Pipeline.arrRef spec6 2) (((cfg6.win 2).blk t).view.emb y) = V c (Pipeline.arrRef spec6 2) y
  refine congrArg _ (funext fun a => Fin.ext ?_)
  match a with
  | ⟨0, _⟩ => show win6_2.index t (0 : Fin 2) * 64 + 1 * (y 0).val = (y 0).val; omega
  | ⟨1, _⟩ => show win6_2.index t (1 : Fin 2) * 64 + 1 * (y 1).val = (y 1).val; omega

/-- Window 3's block at every point is its whole array. -/
theorem whole6_3 (c : Dev nD) (t : Fin cfg6.N) :
    (iblk6 V c 3 t : Vec Ideal S64x64 .f32) = (V c (Pipeline.arrRef spec6 3) : Vec Ideal S64x64 .f32) := by
  obtain ⟨e0, e1, e2, e3, e4, e5, e6, e7, e8, e9, e10⟩ := idx_facts6 t
  funext y
  show V c (Pipeline.arrRef spec6 3) (((cfg6.win 3).blk t).view.emb y) = V c (Pipeline.arrRef spec6 3) y
  refine congrArg _ (funext fun a => Fin.ext ?_)
  match a with
  | ⟨0, _⟩ => show win6_3.index t (0 : Fin 2) * 64 + 1 * (y 0).val = (y 0).val; omega
  | ⟨1, _⟩ => show win6_3.index t (1 : Fin 2) * 64 + 1 * (y 1).val = (y 1).val; omega

/-- Window 4's block at every point is its whole array. -/
theorem whole6_4 (c : Dev nD) (t : Fin cfg6.N) :
    (iblk6 V c 4 t : Vec Ideal S64 .f32) = (V c (Pipeline.arrRef spec6 4) : Vec Ideal S64 .f32) := by
  obtain ⟨e0, e1, e2, e3, e4, e5, e6, e7, e8, e9, e10⟩ := idx_facts6 t
  funext y
  show V c (Pipeline.arrRef spec6 4) (((cfg6.win 4).blk t).view.emb y) = V c (Pipeline.arrRef spec6 4) y
  refine congrArg _ (funext fun a => Fin.ext ?_)
  match a with
  | ⟨0, _⟩ => show win6_4.index t (0 : Fin 1) * 64 + 1 * (y 0).val = (y 0).val; omega

set_option maxHeartbeats 1000000 in
/-- WHAT POINT `t` WRITES BACK is block `t` of the reference's combine of the arrays as the region finds them. -/
theorem flushed6_eq (c : Dev nD) (t : Fin cfg6.N) :
    (dat6 (F := Ideal) V c).flushed 5 t = ((cfg6.win 5).blk t).view.read (Elt Ideal) (refSage1 (F := Ideal) (V c (Pipeline.arrRef spec6 0)) (V c (Pipeline.arrRef spec6 1)) (V c (Pipeline.arrRef spec6 2)) (V c (Pipeline.arrRef spec6 3)) (V c (Pipeline.arrRef spec6 4))) := by
  show (cfg6.win 5).cut (grid6.coords t) ((dat6 V c).after 5 t) = _
  rw [after6_5]
  unfold out6_5
  rw [View.canon_unit_zero zeros_pair]
  simp only [View.ld_unit_zero (S := S5000x64) zeros_pair, View.ld_unit_zero (S := S64x64) zeros_pair,
    View.ld_unit_zero (S := S64) zeros_single]
  obtain ⟨e0, e1, e2, e3, e4, e5, e6, e7, e8, e9, e10⟩ := idx_facts6 t
  funext j
  show k6_pay1 (F := Ideal) (iblk6 V c 0 t) (iblk6 V c 1 t) (iblk6 V c 2 t) (iblk6 V c 3 t) (iblk6 V c 4 t) j
      = (refSage1 (F := Ideal) (V c (Pipeline.arrRef spec6 0)) (V c (Pipeline.arrRef spec6 1)) (V c (Pipeline.arrRef spec6 2)) (V c (Pipeline.arrRef spec6 3)) (V c (Pipeline.arrRef spec6 4))) (((cfg6.win 5).blk t).view.emb j)
  refine block6_eq _ _ _ _ _ _ _ _ _ _ j _ (win6_5.index t (0 : Fin 2)) ?_ ?_
    (fun p k r hr => rows6_0 V c t p k r hr) (fun p k r hr => rows6_1 V c t p k r hr)
    (whole6_2 V c t) (whole6_3 V c t) (whole6_4 V c t)
  · show win6_5.index t (0 : Fin 2) * 5000 + 1 * (j 0).val = win6_5.index t (0 : Fin 2) * 5000 + (j 0).val; omega
  · show win6_5.index t (1 : Fin 2) * 64 + 1 * (j 1).val = (j 1).val; omega

/-- An index of the array is in point `t`'s block iff each coordinate is in the block's range on its axis. -/
theorem mem_blk6 (t : Fin cfg6.N) (i : S200000x64.Idx) :
    i ∈ ((cfg6.win 5).blk t).view.set ↔ ∀ a : Fin 2, win6_5.index t a * S5000x64.size a ≤ (i a).val
      ∧ (i a).val < win6_5.index t a * S5000x64.size a + S5000x64.size a := by
  show i ∈ ((View.whole (Pipeline.arrRef spec6 5)).slice (win6_5.rect t)).set ↔ _
  rw [View.set_slice_whole, Rect.mem_set_unit]
  exact Iff.rfl

/-- Row `r` lies in block `r / 5000`: every index of the array is in some point's block. -/
theorem cover6 (i : S200000x64.Idx) :
    ∃ t : Fin cfg6.N, (cfg6.win 5).flush t = true ∧ i ∈ ((cfg6.win 5).blk t).view.set := by
  have hi0 : (i 0).val < 200000 := (i 0).isLt
  have hi1 : (i 1).val < 64 := (i 1).isLt
  obtain ⟨t, ht⟩ := idx_onto6 ⟨(i 0).val / 5000, by omega⟩
  have q0 : win6_5.index t (0 : Fin 2) = (i 0).val / 5000 := ht
  obtain ⟨e0, e1, e2, e3, e4, e5, e6, e7, e8, e9, e10⟩ := idx_facts6 t
  refine ⟨t, flush6_5 t, ?_⟩
  rw [mem_blk6]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 64 ≤ (i 1).val ∧ (i 1).val < win6_5.index t (1 : Fin 2) * 64 + 64; omega

/-- THE OUTPUT ARRAY after region 6, whatever the buffers held at its entry: the reference's combine of the five input
    arrays as the region found them. -/
theorem val6 (c : Dev nD) :
    (dat6 (F := Ideal) V c).arrAt 5 cfg6.N = refSage1 (F := Ideal) (V c (Pipeline.arrRef spec6 0)) (V c (Pipeline.arrRef spec6 1)) (V c (Pipeline.arrRef spec6 2)) (V c (Pipeline.arrRef spec6 3)) (V c (Pipeline.arrRef spec6 4)) :=
  (dat6 (F := Ideal) V c).arrAt_eq_of_cover 5 _ (fun t _ => flushed6_eq V c t) (cover6)

end Cert.Val

end
-- ==== Proof.Val.Sage2r7.lean ====
/-
  The value of region 7 at the extended reals: after the region's forty points the output array holds the reference's
  second SAGE stage of the nine input arrays as the region found them.

  At a point the body stores, into the whole output block, the payload of its nine loads: four products of a
  5000-row block with a 64 × 64 weight (every operand rounded to bf16 first, which is the identity at the extended
  reals; each product accumulated into a zero splat), added left to right with the two biases laid along the rows:
  `((((x·Ws + m₁·Wm) + b) + x·Ws') + m₂·Wm') + b'`. The reference adds the two combines, `(x·Ws + m₁·Wm + b) +
  (x·Ws' + m₂·Wm' + b')`; addition of extended reals is associative, so the two agree at every index. Row `r` of the
  block at point `t` is row `5000 t + r` of each row array, the parameter blocks are the parameter arrays whole, and the
  forty output blocks tile the output array.
-/
import proofs.«151172_j14164802142730_2_alg».proof.Proof.KI.R7
import proofs.«151172_j14164802142730_2_alg».proof.Proof.Val.Sage2Ref
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Val

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

/-! ## The body's payload at an index -/

/-! The kernel's dimension numbers, axis by axis: the left operand is read at the result's row and the contracted
    column, the right at the contracted column and the result's column. -/

theorem lhs_k7_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_k7_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_k7_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_k7_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product of the body at an index: both operands cast to their own shapes and rounded to bf16, accumulated into a
    zero splat, is the sum over the contracted column. -/
theorem mm7_apply (x : FVec Ideal S5000x64 .f32) (w : FVec Ideal S64x64 .f32)
    (h1 : S5000x64.ShapeCasts S5000x64) (h2 : S64x64.ShapeCasts S64x64) (hb : FTy.bf16.bits < FTy.f32.bits)
    (r : Fin 5000) (q : Fin 64) :
    matmul dot_S5000x64_S64x64_S5000x64_1_0_0_1_n_n none (truncf .bf16 (shapeCast S5000x64 x h1) hb) (truncf .bf16 (shapeCast S64x64 w h2) hb)
      (constant S5000x64 .f32 0x00000000#32) (ix2 r q) = sageRowDot x w r q := by
  rw [shapeCast_self, shapeCast_self]
  unfold sageRowDot
  refine (Ideal.matmul_constant_zero_apply dot_S5000x64_S64x64_S5000x64_1_0_0_1_n_n none _ _ (ix2 r q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 r q) ((ValueIdx.contrEquiv1 dot_S5000x64_S64x64_S5000x64_1_0_0_1_n_n 64 rfl rfl).symm k) = ix2 r k := funext fun a => Fin.ext (by
    match a with
    | ⟨0, _⟩ => exact lhs_k7_0 _ _
    | ⟨1, _⟩ => exact (lhs_k7_1 _ _).trans hk)
  have er : dot_S5000x64_S64x64_S5000x64_1_0_0_1_n_n.rhsIdx (ix2 r q) ((ValueIdx.contrEquiv1 dot_S5000x64_S64x64_S5000x64_1_0_0_1_n_n 64 rfl rfl).symm k) = ix2 k q := funext fun a => Fin.ext (by
    match a with
    | ⟨0, _⟩ => exact (rhs_k7_0 _ _).trans hk
    | ⟨1, _⟩ => exact rhs_k7_1 _ _)
  rw [el, er]
  rfl

/-- A bias of the body at an index: cast to its own shape, to one row, and broadcast down the rows, it is the bias at
    the column. -/
theorem bias7_apply (b : FVec Ideal S64 .f32) (h0 : S64.ShapeCasts S64) (h1 : S64.ShapeCasts S1x64)
    (hb : S1x64.Broadcasts S5000x64) (r : Fin 5000) (q : Fin 64) :
    broadcastTo S5000x64 (shapeCast S1x64 (shapeCast S64 b h0) h1) hb (ix2 r q) = b (ix1 q) := by
  rw [shapeCast_self, broadcastTo_1b_ab_apply, shapeCast_a_1a_apply]

/-- The body's payload at row `r`, column `q` of the block: the four products and the two biases added left to right. -/
theorem pay7_apply (x0 x1 x2 : FVec Ideal S5000x64 .f32) (x3 x4 x6 x7 : FVec Ideal S64x64 .f32) (x5 x8 : FVec Ideal S64 .f32)
    (r : Fin 5000) (q : Fin 64) :
    k7_pay1 (F := Ideal) x0 x1 x2 x3 x4 x6 x7 x5 x8 (ix2 r q)
      = sageRowDot x0 x3 r q + sageRowDot x1 x4 r q + x5 (ix1 q) + sageRowDot x0 x6 r q + sageRowDot x2 x7 r q + x8 (ix1 q) := by
  unfold k7_pay1
  rw [addf_apply, addf_apply, addf_apply, addf_apply, addf_apply, mm7_apply, mm7_apply, mm7_apply, mm7_apply,
    bias7_apply, bias7_apply]

/-- ONE POINT, ONE ENTRY: when row `r` of the three row blocks is row `P` of the three row arrays along the contracted
    column, and the parameter blocks are the parameter arrays where they are read, the body's payload at `(r, q)` is the
    reference's stage at `(P, q)`. The body adds its six terms left to right, the reference adds two combines of three:
    the same sum of extended reals, reassociated. -/
theorem sage2_point7 [Cert.ReferenceIdeal.Facts₀]
    (x0 x1 x2 : FVec Ideal S5000x64 .f32) (w3 w4 : FVec Ideal S64x64 .f32) (b5 : FVec Ideal S64 .f32)
    (w6 w7 : FVec Ideal S64x64 .f32) (b8 : FVec Ideal S64 .f32)
    (X0 X1 X2 : FVec Ideal S200000x64 .f32) (W3 W4 : FVec Ideal S64x64 .f32) (B5 : FVec Ideal S64 .f32)
    (W6 W7 : FVec Ideal S64x64 .f32) (B8 : FVec Ideal S64 .f32)
    (r : Fin 5000) (P : Fin 200000) (q : Fin 64)
    (h0 : ∀ k, x0 (ix2 r k) = X0 (ix2 P k)) (h1 : ∀ k, x1 (ix2 r k) = X1 (ix2 P k)) (h2 : ∀ k, x2 (ix2 r k) = X2 (ix2 P k))
    (h3 : ∀ k, w3 (ix2 k q) = W3 (ix2 k q)) (h4 : ∀ k, w4 (ix2 k q) = W4 (ix2 k q)) (h5 : b5 (ix1 q) = B5 (ix1 q))
    (h6 : ∀ k, w6 (ix2 k q) = W6 (ix2 k q)) (h7 : ∀ k, w7 (ix2 k q) = W7 (ix2 k q)) (h8 : b8 (ix1 q) = B8 (ix1 q)) :
    k7_pay1 (F := Ideal) x0 x1 x2 w3 w4 w6 w7 b5 b8 (ix2 r q)
      = refSage2 (F := Ideal) X0 X1 X2 W3 W4 B5 W6 W7 B8 (ix2 P q) := by
  rw [pay7_apply, refSage2_apply]
  unfold sage2At sageLinAt
  rw [sageRowDot_congr x0 X0 w3 W3 r P q h0 h3, sageRowDot_congr x1 X1 w4 W4 r P q h1 h4,
    sageRowDot_congr x0 X0 w6 W6 r P q h0 h6, sageRowDot_congr x2 X2 w7 W7 r P q h2 h7, h5, h8]
  simp only [add_assoc]

/-! ## From blocks to the array -/

section Blocks
variable (V : (c : Dev nD) → (b : Ref sig .tc) → Buf (Elt Ideal) ((c : Thread nD τ).loc b))

theorem hz7_2 : (![0, 0] : Fin 2 → Nat) = fun _ => 0 := funext fun a => by fin_cases a <;> rfl
theorem hz7_1 : (![0] : Fin 1 → Nat) = fun _ => 0 := funext fun a => by fin_cases a <;> rfl

/-! The printed index maps, decided over the grid: a row window's block index is the point on the rows' axis and zero
    on the columns'; a parameter window's is zero. -/

theorem idx7_0 : ∀ t : Fin cfg7.N, win7_0.index t (0 : Fin 2) = t.val ∧ win7_0.index t (1 : Fin 2) = 0 :=
  (by decide +kernel : ∀ t : Fin grid7.N, _)
theorem idx7_1 : ∀ t : Fin cfg7.N, win7_1.index t (0 : Fin 2) = t.val ∧ win7_1.index t (1 : Fin 2) = 0 :=
  (by decide +kernel : ∀ t : Fin grid7.N, _)
theorem idx7_2 : ∀ t : Fin cfg7.N, win7_2.index t (0 : Fin 2) = t.val ∧ win7_2.index t (1 : Fin 2) = 0 :=
  (by decide +kernel : ∀ t : Fin grid7.N, _)
theorem idx7_9 : ∀ t : Fin cfg7.N, win7_9.index t (0 : Fin 2) = t.val ∧ win7_9.index t (1 : Fin 2) = 0 :=
  (by decide +kernel : ∀ t : Fin grid7.N, _)
theorem idx7_3 : ∀ t : Fin cfg7.N, win7_3.index t (0 : Fin 2) = 0 ∧ win7_3.index t (1 : Fin 2) = 0 :=
  (by decide +kernel : ∀ t : Fin grid7.N, _)
theorem idx7_4 : ∀ t : Fin cfg7.N, win7_4.index t (0 : Fin 2) = 0 ∧ win7_4.index t (1 : Fin 2) = 0 :=
  (by decide +kernel : ∀ t : Fin grid7.N, _)
theorem idx7_6 : ∀ t : Fin cfg7.N, win7_6.index t (0 : Fin 2) = 0 ∧ win7_6.index t (1 : Fin 2) = 0 :=
  (by decide +kernel : ∀ t : Fin grid7.N, _)
theorem idx7_7 : ∀ t : Fin cfg7.N, win7_7.index t (0 : Fin 2) = 0 ∧ win7_7.index t (1 : Fin 2) = 0 :=
  (by decide +kernel : ∀ t : Fin grid7.N, _)
theorem idx7_5 : ∀ t : Fin cfg7.N, win7_5.index t (0 : Fin 1) = 0 :=
  (by decide +kernel : ∀ t : Fin grid7.N, _)
theorem idx7_8 : ∀ t : Fin cfg7.N, win7_8.index t (0 : Fin 1) = 0 :=
  (by decide +kernel : ∀ t : Fin grid7.N, _)

/-! Each input block read where the arrays are: row `r` of a row block at point `t` is row `5000 t + r` of its array; a
    parameter block is its array. -/

theorem blk7_0 (c : Dev nD) (t : Fin cfg7.N) (r : Fin 5000) (k : Fin 64) (P : Fin 200000) (hP : P.val = t.val * 5000 + r.val) :
    (iblk7 V c 0 t : S5000x64.Idx → EReal) (ix2 r k) = ((V c (Pipeline.arrRef spec7 0)) : S200000x64.Idx → EReal) (ix2 P k) := by
  obtain ⟨e0, e1⟩ := idx7_0 t
  show (V c (Pipeline.arrRef spec7 0)) (((cfg7.win 0).blk t).view.emb (ix2 r k)) = _
  refine congrArg (V c (Pipeline.arrRef spec7 0)) (funext fun a => Fin.ext ?_)
  match a with
  | ⟨0, _⟩ => show win7_0.index t (0 : Fin 2) * 5000 + 1 * r.val = P.val; omega
  | ⟨1, _⟩ => show win7_0.index t (1 : Fin 2) * 64 + 1 * k.val = k.val; omega
theorem blk7_1 (c : Dev nD) (t : Fin cfg7.N) (r : Fin 5000) (k : Fin 64) (P : Fin 200000) (hP : P.val = t.val * 5000 + r.val) :
    (iblk7 V c 1 t : S5000x64.Idx → EReal) (ix2 r k) = ((V c (Pipeline.arrRef spec7 1)) : S200000x64.Idx → EReal) (ix2 P k) := by
  obtain ⟨e0, e1⟩ := idx7_1 t
  show (V c (Pipeline.arrRef spec7 1)) (((cfg7.win 1).blk t).view.emb (ix2 r k)) = _
  refine congrArg (V c (Pipeline.arrRef spec7 1)) (funext fun a => Fin.ext ?_)
  match a with
  | ⟨0, _⟩ => show win7_1.index t (0 : Fin 2) * 5000 + 1 * r.val = P.val; omega
  | ⟨1, _⟩ => show win7_1.index t (1 : Fin 2) * 64 + 1 * k.val = k.val; omega
theorem blk7_2 (c : Dev nD) (t : Fin cfg7.N) (r : Fin 5000) (k : Fin 64) (P : Fin 200000) (hP : P.val = t.val * 5000 + r.val) :
    (iblk7 V c 2 t : S5000x64.Idx → EReal) (ix2 r k) = ((V c (Pipeline.arrRef spec7 2)) : S200000x64.Idx → EReal) (ix2 P k) := by
  obtain ⟨e0, e1⟩ := idx7_2 t
  show (V c (Pipeline.arrRef spec7 2)) (((cfg7.win 2).blk t).view.emb (ix2 r k)) = _
  refine congrArg (V c (Pipeline.arrRef spec7 2)) (funext fun a => Fin.ext ?_)
  match a with
  | ⟨0, _⟩ => show win7_2.index t (0 : Fin 2) * 5000 + 1 * r.val = P.val; omega
  | ⟨1, _⟩ => show win7_2.index t (1 : Fin 2) * 64 + 1 * k.val = k.val; omega
theorem blk7_3 (c : Dev nD) (t : Fin cfg7.N) (k q : Fin 64) :
    (iblk7 V c 3 t : S64x64.Idx → EReal) (ix2 k q) = ((V c (Pipeline.arrRef spec7 3)) : S64x64.Idx → EReal) (ix2 k q) := by
  obtain ⟨e0, e1⟩ := idx7_3 t
  show (V c (Pipeline.arrRef spec7 3)) (((cfg7.win 3).blk t).view.emb (ix2 k q)) = _
  refine congrArg (V c (Pipeline.arrRef spec7 3)) (funext fun a => Fin.ext ?_)
  match a with
  | ⟨0, _⟩ => show win7_3.index t (0 : Fin 2) * 64 + 1 * k.val = k.val; omega
  | ⟨1, _⟩ => show win7_3.index t (1 : Fin 2) * 64 + 1 * q.val = q.val; omega
theorem blk7_4 (c : Dev nD) (t : Fin cfg7.N) (k q : Fin 64) :
    (iblk7 V c 4 t : S64x64.Idx → EReal) (ix2 k q) = ((V c (Pipeline.arrRef spec7 4)) : S64x64.Idx → EReal) (ix2 k q) := by
  obtain ⟨e0, e1⟩ := idx7_4 t
  show (V c (Pipeline.arrRef spec7 4)) (((cfg7.win 4).blk t).view.emb (ix2 k q)) = _
  refine congrArg (V c (Pipeline.arrRef spec7 4)) (funext fun a => Fin.ext ?_)
  match a with
  | ⟨0, _⟩ => show win7_4.index t (0 : Fin 2) * 64 + 1 * k.val = k.val; omega
  | ⟨1, _⟩ => show win7_4.index t (1 : Fin 2) * 64 + 1 * q.val = q.val; omega
theorem blk7_6 (c : Dev nD) (t : Fin cfg7.N) (k q : Fin 64) :
    (iblk7 V c 6 t : S64x64.Idx → EReal) (ix2 k q) = ((V c (Pipeline.arrRef spec7 6)) : S64x64.Idx → EReal) (ix2 k q) := by
  obtain ⟨e0, e1⟩ := idx7_6 t
  show (V c (Pipeline.arrRef spec7 6)) (((cfg7.win 6).blk t).view.emb (ix2 k q)) = _
  refine congrArg (V c (Pipeline.arrRef spec7 6)) (funext fun a => Fin.ext ?_)
  match a with
  | ⟨0, _⟩ => show win7_6.index t (0 : Fin 2) * 64 + 1 * k.val = k.val; omega
  | ⟨1, _⟩ => show win7_6.index t (1 : Fin 2) * 64 + 1 * q.val = q.val; omega
theorem blk7_7 (c : Dev nD) (t : Fin cfg7.N) (k q : Fin 64) :
    (iblk7 V c 7 t : S64x64.Idx → EReal) (ix2 k q) = ((V c (Pipeline.arrRef spec7 7)) : S64x64.Idx → EReal) (ix2 k q) := by
  obtain ⟨e0, e1⟩ := idx7_7 t
  show (V c (Pipeline.arrRef spec7 7)) (((cfg7.win 7).blk t).view.emb (ix2 k q)) = _
  refine congrArg (V c (Pipeline.arrRef spec7 7)) (funext fun a => Fin.ext ?_)
  match a with
  | ⟨0, _⟩ => show win7_7.index t (0 : Fin 2) * 64 + 1 * k.val = k.val; omega
  | ⟨1, _⟩ => show win7_7.index t (1 : Fin 2) * 64 + 1 * q.val = q.val; omega
theorem blk7_5 (c : Dev nD) (t : Fin cfg7.N) (q : Fin 64) :
    (iblk7 V c 5 t : S64.Idx → EReal) (ix1 q) = ((V c (Pipeline.arrRef spec7 5)) : S64.Idx → EReal) (ix1 q) := by
  have e0 := idx7_5 t
  show (V c (Pipeline.arrRef spec7 5)) (((cfg7.win 5).blk t).view.emb (ix1 q)) = _
  refine congrArg (V c (Pipeline.arrRef spec7 5)) (funext fun a => Fin.ext ?_)
  match a with
  | ⟨0, _⟩ => show win7_5.index t (0 : Fin 1) * 64 + 1 * q.val = q.val; omega
theorem blk7_8 (c : Dev nD) (t : Fin cfg7.N) (q : Fin 64) :
    (iblk7 V c 8 t : S64.Idx → EReal) (ix1 q) = ((V c (Pipeline.arrRef spec7 8)) : S64.Idx → EReal) (ix1 q) := by
  have e0 := idx7_8 t
  show (V c (Pipeline.arrRef spec7 8)) (((cfg7.win 8).blk t).view.emb (ix1 q)) = _
  refine congrArg (V c (Pipeline.arrRef spec7 8)) (funext fun a => Fin.ext ?_)
  match a with
  | ⟨0, _⟩ => show win7_8.index t (0 : Fin 1) * 64 + 1 * q.val = q.val; omega

variable [Cert.ReferenceIdeal.Facts₀]

set_option maxHeartbeats 1000000 in
/-- WHAT POINT `t` WRITES BACK is block `t` of the reference's stage of the arrays as the region finds them: row `r` of
    the block is row `5000 t + r` of the row arrays and the parameter blocks are the parameter arrays. -/
theorem flushed7_eq (c : Dev nD) (t : Fin cfg7.N) :
    (dat7 (F := Ideal) V c).flushed 9 t
      = ((cfg7.win 9).blk t).view.read (Elt Ideal) (refSage2 (F := Ideal) (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) (V c (Pipeline.arrRef spec7 8))) := by
  show (cfg7.win 9).cut (grid7.coords t) ((dat7 V c).after 9 t) = _
  rw [after7_9]
  unfold out7_9
  rw [View.canon_unit_zero hz7_2]
  simp only [View.ld_unit_zero (S := S5000x64) hz7_2, View.ld_unit_zero (S := S64x64) hz7_2, View.ld_unit_zero (S := S64) hz7_1]
  funext j
  have hj0 : (j 0).val < 5000 := (j 0).isLt
  have hj1 : (j 1).val < 64 := (j 1).isLt
  have ht : t.val < 40 := Nat.lt_of_lt_of_eq t.isLt N_7
  obtain ⟨e0, e1⟩ := idx7_9 t
  obtain ⟨r, hr⟩ : ∃ r : Fin 5000, r.val = (j 0).val := ⟨⟨(j 0).val, hj0⟩, rfl⟩
  obtain ⟨q, hq⟩ : ∃ q : Fin 64, q.val = (j 1).val := ⟨⟨(j 1).val, hj1⟩, rfl⟩
  obtain ⟨P, hP⟩ : ∃ P : Fin 200000, P.val = t.val * 5000 + r.val := ⟨⟨t.val * 5000 + r.val, by omega⟩, rfl⟩
  have hx : (cfg7.win 9).xinj (grid7.coords t) j = ix2 r q :=
    funext fun a => Fin.ext (by
      match a with
      | ⟨0, _⟩ => exact hr.symm
      | ⟨1, _⟩ => exact hq.symm)
  have hemb : ((cfg7.win 9).blk t).view.emb j = ix2 P q :=
    funext fun a => Fin.ext (by
      match a with
      | ⟨0, _⟩ => show win7_9.index t (0 : Fin 2) * 5000 + 1 * (j 0).val = P.val; omega
      | ⟨1, _⟩ => show win7_9.index t (1 : Fin 2) * 64 + 1 * (j 1).val = q.val; omega)
  show k7_pay1 (F := Ideal) _ _ _ _ _ _ _ _ _ ((cfg7.win 9).xinj (grid7.coords t) j)
    = refSage2 (F := Ideal) _ _ _ _ _ _ _ _ _ (((cfg7.win 9).blk t).view.emb j)
  rw [hx, hemb]
  refine sage2_point7 _ _ _ _ _ _ _ _ _ _ _ _ _ _ _ _ _ _ r P q ?_ ?_ ?_ ?_ ?_ ?_ ?_ ?_ ?_
  · exact fun k => blk7_0 V c t r k P hP
  · exact fun k => blk7_1 V c t r k P hP
  · exact fun k => blk7_2 V c t r k P hP
  · exact fun k => blk7_3 V c t k q
  · exact fun k => blk7_4 V c t k q
  · exact blk7_5 V c t q
  · exact fun k => blk7_6 V c t k q
  · exact fun k => blk7_7 V c t k q
  · exact blk7_8 V c t q

/-- An index of the output array is in point `t`'s block iff each coordinate is in the block's range on its axis. -/
theorem mem_blk7 (t : Fin cfg7.N) (i : S200000x64.Idx) :
    i ∈ ((cfg7.win 9).blk t).view.set ↔ ∀ a : Fin 2, win7_9.index t a * S5000x64.size a ≤ (i a).val ∧ (i a).val < win7_9.index t a * S5000x64.size a + S5000x64.size a := by
  show i ∈ ((View.whole main_v211).slice (win7_9.rect t)).set ↔ _
  rw [View.set_slice_whole, Rect.mem_set_unit]
  exact Iff.rfl

/-- THE ARRAY after the region: every row lies in the block of the point `row / 5000`, so the forty blocks cover the
    array and it holds the reference's stage of the nine input arrays. -/
theorem val7 (c : Dev nD) :
    (dat7 (F := Ideal) V c).arrAt 9 cfg7.N = refSage2 (F := Ideal) (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) (V c (Pipeline.arrRef spec7 8)) :=
  (dat7 (F := Ideal) V c).arrAt_eq_of_cover 9 _ (fun t _ => flushed7_eq V c t) fun (i : S200000x64.Idx) => by
    have hi0 : (i 0).val < 200000 := (i 0).isLt
    have hi1 : (i 1).val < 64 := (i 1).isLt
    have hN : cfg7.N = 40 := N_7
    refine ⟨⟨(i 0).val / 5000, by rw [hN]; omega⟩, flush7_9 _, ?_⟩
    rw [mem_blk7]
    obtain ⟨e0, e1⟩ := idx7_9 ⟨(i 0).val / 5000, by rw [hN]; omega⟩
    intro a
    match a with
    | ⟨0, _⟩ =>
      show win7_9.index ⟨(i 0).val / 5000, _⟩ (0 : Fin 2) * 5000 ≤ (i 0).val ∧ (i 0).val < win7_9.index ⟨(i 0).val / 5000, _⟩ (0 : Fin 2) * 5000 + 5000
      rw [e0]; show (i 0).val / 5000 * 5000 ≤ (i 0).val ∧ (i 0).val < (i 0).val / 5000 * 5000 + 5000; omega
    | ⟨1, _⟩ =>
      show win7_9.index ⟨(i 0).val / 5000, _⟩ (1 : Fin 2) * 64 ≤ (i 1).val ∧ (i 1).val < win7_9.index ⟨(i 0).val / 5000, _⟩ (1 : Fin 2) * 64 + 64
      rw [e1]; omega

end Blocks

end Cert.Val

end
-- ==== Proof.Bridge.BL1a.lean ====
/-
  The second message-passing layer, side by side at the boundaries. The layer's three mean aggregations and its parameter
  slices are the same host operations in both programs, applied to arrays already known to agree (the first layer's
  features, the edge lists and the stacked parameters among the arguments), so their buffers agree. The kernel program then
  runs each linear combine as a region whose output array is the reference's combine of the region's input arrays; the
  reference computes that combine by host operations on the agreeing arrays. An argument array is written by no stage, so
  at every boundary it is what it was at launch.
-/
import proofs.«151172_j14164802142730_2_alg».proof.Proof.Bridge.Base
import proofs.«151172_j14164802142730_2_alg».proof.Proof.Bridge.BL1aS
import proofs.«151172_j14164802142730_2_alg».proof.Proof.Val.Sage1r6
import proofs.«151172_j14164802142730_2_alg».proof.Proof.Val.Sage2r7
import proofs.«151172_j14164802142730_2_alg».proof.Proof.Gen.ReferenceIdeal
import proofs.«151172_j14164802142730_2_alg».proof.Proof.Gen.KernelIdeal

set_option maxRecDepth 16384

noncomputable section

namespace Cert.Bridge

open Idealize.ShloMosaic Idealize.ShloMosaic.TcCoe Idealize.SL.Sem Idealize.ShloMosaic.StableHlo
open Cert.KernelIdeal.Frame Cert.ReferenceIdeal.Hand

variable {m : (ℓ : Loc Cert.KernelIdeal.nD Cert.KernelIdeal.τ Cert.KernelIdeal.sig) → Buf (Elt Ideal) ℓ} (ρ : Dev Cert.KernelIdeal.nD → PrngReg)
  {m' : (ℓ : Loc Cert.ReferenceIdeal.nD Cert.ReferenceIdeal.τ Cert.ReferenceIdeal.sig) → Buf (Elt Ideal) ℓ}

/-! ## The argument arrays at the boundaries where the layer reads them

No stage writes an argument array, so each holds at a later boundary what it held at launch: one keep per stage crossed. -/

theorem r14_arg6 (c : Dev Cert.ReferenceIdeal.nD) : Rv14 m' c (Proc.devRef .tc Cert.ReferenceIdeal.main_arg6) = Rv0 m' c (Proc.devRef .tc Cert.ReferenceIdeal.main_arg6) :=
  (Rv14_keep m' c _ (by decide)).trans ((Rv13_keep m' c _ (by decide)).trans ((Rv12_keep m' c _ (by decide)).trans ((Rv11_keep m' c _ (by decide)).trans ((Rv10_keep m' c _ (by decide)).trans ((Rv9_keep m' c _ (by decide)).trans ((Rv8_keep m' c _ (by decide)).trans ((Rv7_keep m' c _ (by decide)).trans ((Rv6_keep m' c _ (by decide)).trans ((Rv5_keep m' c _ (by decide)).trans ((Rv4_keep m' c _ (by decide)).trans ((Rv3_keep m' c _ (by decide)).trans ((Rv2_keep m' c _ (by decide)).trans ((Rv1_keep m' c _ (by decide)))))))))))))))
theorem k15_arg6 (c : Dev Cert.KernelIdeal.nD) : W15 m ρ c (Proc.devRef .tc Cert.KernelIdeal.main_arg6) = W0 m ρ c (Proc.devRef .tc Cert.KernelIdeal.main_arg6) :=
  (W15_keep m ρ c _ (by decide)).trans ((W14_keep m ρ c _ (by decide)).trans ((W13_keep m ρ c _ (by decide)).trans ((W12_keep m ρ c _ (by decide)).trans ((W11_keep m ρ c _ (by decide)).trans ((W10_keep m ρ c _ (by decide)).trans ((W9_keep m ρ c _ (by decide)).trans ((W8_keep m ρ c _ (by decide)).trans ((W7_keep m ρ c _ (by decide)).trans ((W6_keep m ρ c _ (by decide)).trans ((W5_keep m ρ c _ (by decide)).trans ((W4_keep m ρ c _ (by decide)).trans ((W3_keep m ρ c _ (by decide)).trans ((W2_keep m ρ c _ (by decide)).trans ((W1_keep m ρ c _ (by decide))))))))))))))))
theorem r14_arg7 (c : Dev Cert.ReferenceIdeal.nD) : Rv14 m' c (Proc.devRef .tc Cert.ReferenceIdeal.main_arg7) = Rv0 m' c (Proc.devRef .tc Cert.ReferenceIdeal.main_arg7) :=
  (Rv14_keep m' c _ (by decide)).trans ((Rv13_keep m' c _ (by decide)).trans ((Rv12_keep m' c _ (by decide)).trans ((Rv11_keep m' c _ (by decide)).trans ((Rv10_keep m' c _ (by decide)).trans ((Rv9_keep m' c _ (by decide)).trans ((Rv8_keep m' c _ (by decide)).trans ((Rv7_keep m' c _ (by decide)).trans ((Rv6_keep m' c _ (by decide)).trans ((Rv5_keep m' c _ (by decide)).trans ((Rv4_keep m' c _ (by decide)).trans ((Rv3_keep m' c _ (by decide)).trans ((Rv2_keep m' c _ (by decide)).trans ((Rv1_keep m' c _ (by decide)))))))))))))))
theorem k15_arg7 (c : Dev Cert.KernelIdeal.nD) : W15 m ρ c (Proc.devRef .tc Cert.KernelIdeal.main_arg7) = W0 m ρ c (Proc.devRef .tc Cert.KernelIdeal.main_arg7) :=
  (W15_keep m ρ c _ (by decide)).trans ((W14_keep m ρ c _ (by decide)).trans ((W13_keep m ρ c _ (by decide)).trans ((W12_keep m ρ c _ (by decide)).trans ((W11_keep m ρ c _ (by decide)).trans ((W10_keep m ρ c _ (by decide)).trans ((W9_keep m ρ c _ (by decide)).trans ((W8_keep m ρ c _ (by decide)).trans ((W7_keep m ρ c _ (by decide)).trans ((W6_keep m ρ c _ (by decide)).trans ((W5_keep m ρ c _ (by decide)).trans ((W4_keep m ρ c _ (by decide)).trans ((W3_keep m ρ c _ (by decide)).trans ((W2_keep m ρ c _ (by decide)).trans ((W1_keep m ρ c _ (by decide))))))))))))))))
theorem r14_arg8 (c : Dev Cert.ReferenceIdeal.nD) : Rv14 m' c (Proc.devRef .tc Cert.ReferenceIdeal.main_arg8) = Rv0 m' c (Proc.devRef .tc Cert.ReferenceIdeal.main_arg8) :=
  (Rv14_keep m' c _ (by decide)).trans ((Rv13_keep m' c _ (by decide)).trans ((Rv12_keep m' c _ (by decide)).trans ((Rv11_keep m' c _ (by decide)).trans ((Rv10_keep m' c _ (by decide)).trans ((Rv9_keep m' c _ (by decide)).trans ((Rv8_keep m' c _ (by decide)).trans ((Rv7_keep m' c _ (by decide)).trans ((Rv6_keep m' c _ (by decide)).trans ((Rv5_keep m' c _ (by decide)).trans ((Rv4_keep m' c _ (by decide)).trans ((Rv3_keep m' c _ (by decide)).trans ((Rv2_keep m' c _ (by decide)).trans ((Rv1_keep m' c _ (by decide)))))))))))))))
theorem k15_arg8 (c : Dev Cert.KernelIdeal.nD) : W15 m ρ c (Proc.devRef .tc Cert.KernelIdeal.main_arg8) = W0 m ρ c (Proc.devRef .tc Cert.KernelIdeal.main_arg8) :=
  (W15_keep m ρ c _ (by decide)).trans ((W14_keep m ρ c _ (by decide)).trans ((W13_keep m ρ c _ (by decide)).trans ((W12_keep m ρ c _ (by decide)).trans ((W11_keep m ρ c _ (by decide)).trans ((W10_keep m ρ c _ (by decide)).trans ((W9_keep m ρ c _ (by decide)).trans ((W8_keep m ρ c _ (by decide)).trans ((W7_keep m ρ c _ (by decide)).trans ((W6_keep m ρ c _ (by decide)).trans ((W5_keep m ρ c _ (by decide)).trans ((W4_keep m ρ c _ (by decide)).trans ((W3_keep m ρ c _ (by decide)).trans ((W2_keep m ρ c _ (by decide)).trans ((W1_keep m ρ c _ (by decide))))))))))))))))
theorem r14_arg15 (c : Dev Cert.ReferenceIdeal.nD) : Rv14 m' c (Proc.devRef .tc Cert.ReferenceIdeal.main_arg15) = Rv0 m' c (Proc.devRef .tc Cert.ReferenceIdeal.main_arg15) :=
  (Rv14_keep m' c _ (by decide)).trans ((Rv13_keep m' c _ (by decide)).trans ((Rv12_keep m' c _ (by decide)).trans ((Rv11_keep m' c _ (by decide)).trans ((Rv10_keep m' c _ (by decide)).trans ((Rv9_keep m' c _ (by decide)).trans ((Rv8_keep m' c _ (by decide)).trans ((Rv7_keep m' c _ (by decide)).trans ((Rv6_keep m' c _ (by decide)).trans ((Rv5_keep m' c _ (by decide)).trans ((Rv4_keep m' c _ (by decide)).trans ((Rv3_keep m' c _ (by decide)).trans ((Rv2_keep m' c _ (by decide)).trans ((Rv1_keep m' c _ (by decide)))))))))))))))
theorem k15_arg15 (c : Dev Cert.KernelIdeal.nD) : W15 m ρ c (Proc.devRef .tc Cert.KernelIdeal.main_arg15) = W0 m ρ c (Proc.devRef .tc Cert.KernelIdeal.main_arg15) :=
  (W15_keep m ρ c _ (by decide)).trans ((W14_keep m ρ c _ (by decide)).trans ((W13_keep m ρ c _ (by decide)).trans ((W12_keep m ρ c _ (by decide)).trans ((W11_keep m ρ c _ (by decide)).trans ((W10_keep m ρ c _ (by decide)).trans ((W9_keep m ρ c _ (by decide)).trans ((W8_keep m ρ c _ (by decide)).trans ((W7_keep m ρ c _ (by decide)).trans ((W6_keep m ρ c _ (by decide)).trans ((W5_keep m ρ c _ (by decide)).trans ((W4_keep m ρ c _ (by decide)).trans ((W3_keep m ρ c _ (by decide)).trans ((W2_keep m ρ c _ (by decide)).trans ((W1_keep m ρ c _ (by decide))))))))))))))))
theorem r14_arg16 (c : Dev Cert.ReferenceIdeal.nD) : Rv14 m' c (Proc.devRef .tc Cert.ReferenceIdeal.main_arg16) = Rv0 m' c (Proc.devRef .tc Cert.ReferenceIdeal.main_arg16) :=
  (Rv14_keep m' c _ (by decide)).trans ((Rv13_keep m' c _ (by decide)).trans ((Rv12_keep m' c _ (by decide)).trans ((Rv11_keep m' c _ (by decide)).trans ((Rv10_keep m' c _ (by decide)).trans ((Rv9_keep m' c _ (by decide)).trans ((Rv8_keep m' c _ (by decide)).trans ((Rv7_keep m' c _ (by decide)).trans ((Rv6_keep m' c _ (by decide)).trans ((Rv5_keep m' c _ (by decide)).trans ((Rv4_keep m' c _ (by decide)).trans ((Rv3_keep m' c _ (by decide)).trans ((Rv2_keep m' c _ (by decide)).trans ((Rv1_keep m' c _ (by decide)))))))))))))))
theorem k15_arg16 (c : Dev Cert.KernelIdeal.nD) : W15 m ρ c (Proc.devRef .tc Cert.KernelIdeal.main_arg16) = W0 m ρ c (Proc.devRef .tc Cert.KernelIdeal.main_arg16) :=
  (W15_keep m ρ c _ (by decide)).trans ((W14_keep m ρ c _ (by decide)).trans ((W13_keep m ρ c _ (by decide)).trans ((W12_keep m ρ c _ (by decide)).trans ((W11_keep m ρ c _ (by decide)).trans ((W10_keep m ρ c _ (by decide)).trans ((W9_keep m ρ c _ (by decide)).trans ((W8_keep m ρ c _ (by decide)).trans ((W7_keep m ρ c _ (by decide)).trans ((W6_keep m ρ c _ (by decide)).trans ((W5_keep m ρ c _ (by decide)).trans ((W4_keep m ρ c _ (by decide)).trans ((W3_keep m ρ c _ (by decide)).trans ((W2_keep m ρ c _ (by decide)).trans ((W1_keep m ρ c _ (by decide))))))))))))))))
theorem r14_arg17 (c : Dev Cert.ReferenceIdeal.nD) : Rv14 m' c (Proc.devRef .tc Cert.ReferenceIdeal.main_arg17) = Rv0 m' c (Proc.devRef .tc Cert.ReferenceIdeal.main_arg17) :=
  (Rv14_keep m' c _ (by decide)).trans ((Rv13_keep m' c _ (by decide)).trans ((Rv12_keep m' c _ (by decide)).trans ((Rv11_keep m' c _ (by decide)).trans ((Rv10_keep m' c _ (by decide)).trans ((Rv9_keep m' c _ (by decide)).trans ((Rv8_keep m' c _ (by decide)).trans ((Rv7_keep m' c _ (by decide)).trans ((Rv6_keep m' c _ (by decide)).trans ((Rv5_keep m' c _ (by decide)).trans ((Rv4_keep m' c _ (by decide)).trans ((Rv3_keep m' c _ (by decide)).trans ((Rv2_keep m' c _ (by decide)).trans ((Rv1_keep m' c _ (by decide)))))))))))))))
theorem k15_arg17 (c : Dev Cert.KernelIdeal.nD) : W15 m ρ c (Proc.devRef .tc Cert.KernelIdeal.main_arg17) = W0 m ρ c (Proc.devRef .tc Cert.KernelIdeal.main_arg17) :=
  (W15_keep m ρ c _ (by decide)).trans ((W14_keep m ρ c _ (by decide)).trans ((W13_keep m ρ c _ (by decide)).trans ((W12_keep m ρ c _ (by decide)).trans ((W11_keep m ρ c _ (by decide)).trans ((W10_keep m ρ c _ (by decide)).trans ((W9_keep m ρ c _ (by decide)).trans ((W8_keep m ρ c _ (by decide)).trans ((W7_keep m ρ c _ (by decide)).trans ((W6_keep m ρ c _ (by decide)).trans ((W5_keep m ρ c _ (by decide)).trans ((W4_keep m ρ c _ (by decide)).trans ((W3_keep m ρ c _ (by decide)).trans ((W2_keep m ρ c _ (by decide)).trans ((W1_keep m ρ c _ (by decide))))))))))))))))
theorem r16_arg6 (c : Dev Cert.ReferenceIdeal.nD) : Rv16 m' c (Proc.devRef .tc Cert.ReferenceIdeal.main_arg6) = Rv0 m' c (Proc.devRef .tc Cert.ReferenceIdeal.main_arg6) :=
  (Rv16_keep m' c _ (by decide)).trans ((Rv15_keep m' c _ (by decide)).trans (r14_arg6 c))
theorem r16_arg7 (c : Dev Cert.ReferenceIdeal.nD) : Rv16 m' c (Proc.devRef .tc Cert.ReferenceIdeal.main_arg7) = Rv0 m' c (Proc.devRef .tc Cert.ReferenceIdeal.main_arg7) :=
  (Rv16_keep m' c _ (by decide)).trans ((Rv15_keep m' c _ (by decide)).trans (r14_arg7 c))
theorem r16_arg8 (c : Dev Cert.ReferenceIdeal.nD) : Rv16 m' c (Proc.devRef .tc Cert.ReferenceIdeal.main_arg8) = Rv0 m' c (Proc.devRef .tc Cert.ReferenceIdeal.main_arg8) :=
  (Rv16_keep m' c _ (by decide)).trans ((Rv15_keep m' c _ (by decide)).trans (r14_arg8 c))
theorem r16_arg16 (c : Dev Cert.ReferenceIdeal.nD) : Rv16 m' c (Proc.devRef .tc Cert.ReferenceIdeal.main_arg16) = Rv0 m' c (Proc.devRef .tc Cert.ReferenceIdeal.main_arg16) :=
  (Rv16_keep m' c _ (by decide)).trans ((Rv15_keep m' c _ (by decide)).trans (r14_arg16 c))
theorem r16_arg17 (c : Dev Cert.ReferenceIdeal.nD) : Rv16 m' c (Proc.devRef .tc Cert.ReferenceIdeal.main_arg17) = Rv0 m' c (Proc.devRef .tc Cert.ReferenceIdeal.main_arg17) :=
  (Rv16_keep m' c _ (by decide)).trans ((Rv15_keep m' c _ (by decide)).trans (r14_arg17 c))
theorem r18_arg6 (c : Dev Cert.ReferenceIdeal.nD) : Rv18 m' c (Proc.devRef .tc Cert.ReferenceIdeal.main_arg6) = Rv0 m' c (Proc.devRef .tc Cert.ReferenceIdeal.main_arg6) :=
  (Rv18_keep m' c _ (by decide)).trans ((Rv17_keep m' c _ (by decide)).trans (r16_arg6 c))
theorem r18_arg7 (c : Dev Cert.ReferenceIdeal.nD) : Rv18 m' c (Proc.devRef .tc Cert.ReferenceIdeal.main_arg7) = Rv0 m' c (Proc.devRef .tc Cert.ReferenceIdeal.main_arg7) :=
  (Rv18_keep m' c _ (by decide)).trans ((Rv17_keep m' c _ (by decide)).trans (r16_arg7 c))
theorem r18_arg8 (c : Dev Cert.ReferenceIdeal.nD) : Rv18 m' c (Proc.devRef .tc Cert.ReferenceIdeal.main_arg8) = Rv0 m' c (Proc.devRef .tc Cert.ReferenceIdeal.main_arg8) :=
  (Rv18_keep m' c _ (by decide)).trans ((Rv17_keep m' c _ (by decide)).trans (r16_arg8 c))
theorem r18_arg17 (c : Dev Cert.ReferenceIdeal.nD) : Rv18 m' c (Proc.devRef .tc Cert.ReferenceIdeal.main_arg17) = Rv0 m' c (Proc.devRef .tc Cert.ReferenceIdeal.main_arg17) :=
  (Rv18_keep m' c _ (by decide)).trans ((Rv17_keep m' c _ (by decide)).trans (r16_arg17 c))
theorem k17_arg6 (c : Dev Cert.KernelIdeal.nD) : W17 m ρ c (Proc.devRef .tc Cert.KernelIdeal.main_arg6) = W0 m ρ c (Proc.devRef .tc Cert.KernelIdeal.main_arg6) :=
  (W17_keep m ρ c _ (by decide)).trans ((W16_keep m ρ c _ (by decide)).trans (k15_arg6 ρ c))
theorem k17_arg7 (c : Dev Cert.KernelIdeal.nD) : W17 m ρ c (Proc.devRef .tc Cert.KernelIdeal.main_arg7) = W0 m ρ c (Proc.devRef .tc Cert.KernelIdeal.main_arg7) :=
  (W17_keep m ρ c _ (by decide)).trans ((W16_keep m ρ c _ (by decide)).trans (k15_arg7 ρ c))
theorem k17_arg8 (c : Dev Cert.KernelIdeal.nD) : W17 m ρ c (Proc.devRef .tc Cert.KernelIdeal.main_arg8) = W0 m ρ c (Proc.devRef .tc Cert.KernelIdeal.main_arg8) :=
  (W17_keep m ρ c _ (by decide)).trans ((W16_keep m ρ c _ (by decide)).trans (k15_arg8 ρ c))

/-- An argument array where the first relation's stage reads it: the same on both sides. -/
theorem e14_arg6 (hag : Agree m m') (c : Dev Cert.KernelIdeal.nD) : Rv14 m' c (Proc.devRef .tc Cert.ReferenceIdeal.main_arg6) = W15 m ρ c (Proc.devRef .tc Cert.KernelIdeal.main_arg6) :=
  (r14_arg6 c).trans ((arg6 ρ hag c).trans (k15_arg6 ρ c).symm)
theorem e14_arg7 (hag : Agree m m') (c : Dev Cert.KernelIdeal.nD) : Rv14 m' c (Proc.devRef .tc Cert.ReferenceIdeal.main_arg7) = W15 m ρ c (Proc.devRef .tc Cert.KernelIdeal.main_arg7) :=
  (r14_arg7 c).trans ((arg7 ρ hag c).trans (k15_arg7 ρ c).symm)
theorem e14_arg8 (hag : Agree m m') (c : Dev Cert.KernelIdeal.nD) : Rv14 m' c (Proc.devRef .tc Cert.ReferenceIdeal.main_arg8) = W15 m ρ c (Proc.devRef .tc Cert.KernelIdeal.main_arg8) :=
  (r14_arg8 c).trans ((arg8 ρ hag c).trans (k15_arg8 ρ c).symm)
theorem e14_arg15 (hag : Agree m m') (c : Dev Cert.KernelIdeal.nD) : Rv14 m' c (Proc.devRef .tc Cert.ReferenceIdeal.main_arg15) = W15 m ρ c (Proc.devRef .tc Cert.KernelIdeal.main_arg15) :=
  (r14_arg15 c).trans ((arg15 ρ hag c).trans (k15_arg15 ρ c).symm)
theorem e14_arg16 (hag : Agree m m') (c : Dev Cert.KernelIdeal.nD) : Rv14 m' c (Proc.devRef .tc Cert.ReferenceIdeal.main_arg16) = W15 m ρ c (Proc.devRef .tc Cert.KernelIdeal.main_arg16) :=
  (r14_arg16 c).trans ((arg16 ρ hag c).trans (k15_arg16 ρ c).symm)
theorem e14_arg17 (hag : Agree m m') (c : Dev Cert.KernelIdeal.nD) : Rv14 m' c (Proc.devRef .tc Cert.ReferenceIdeal.main_arg17) = W15 m ρ c (Proc.devRef .tc Cert.KernelIdeal.main_arg17) :=
  (r14_arg17 c).trans ((arg17 ρ hag c).trans (k15_arg17 ρ c).symm)
/-- Where the second relation's stage reads it. -/
theorem e16_arg6 (hag : Agree m m') (c : Dev Cert.KernelIdeal.nD) : Rv16 m' c (Proc.devRef .tc Cert.ReferenceIdeal.main_arg6) = W17 m ρ c (Proc.devRef .tc Cert.KernelIdeal.main_arg6) :=
  (r16_arg6 c).trans ((arg6 ρ hag c).trans (k17_arg6 ρ c).symm)
theorem e16_arg7 (hag : Agree m m') (c : Dev Cert.KernelIdeal.nD) : Rv16 m' c (Proc.devRef .tc Cert.ReferenceIdeal.main_arg7) = W17 m ρ c (Proc.devRef .tc Cert.KernelIdeal.main_arg7) :=
  (r16_arg7 c).trans ((arg7 ρ hag c).trans (k17_arg7 ρ c).symm)
theorem e16_arg8 (hag : Agree m m') (c : Dev Cert.KernelIdeal.nD) : Rv16 m' c (Proc.devRef .tc Cert.ReferenceIdeal.main_arg8) = W17 m ρ c (Proc.devRef .tc Cert.KernelIdeal.main_arg8) :=
  (r16_arg8 c).trans ((arg8 ρ hag c).trans (k17_arg8 ρ c).symm)
theorem e16_arg16 (hag : Agree m m') (c : Dev Cert.KernelIdeal.nD) : Rv16 m' c (Proc.devRef .tc Cert.ReferenceIdeal.main_arg16) = W15 m ρ c (Proc.devRef .tc Cert.KernelIdeal.main_arg16) :=
  (r16_arg16 c).trans ((arg16 ρ hag c).trans (k15_arg16 ρ c).symm)
/-- Where the third relation's stage reads it. -/
theorem e18_arg6 (hag : Agree m m') (c : Dev Cert.KernelIdeal.nD) : Rv18 m' c (Proc.devRef .tc Cert.ReferenceIdeal.main_arg6) = W17 m ρ c (Proc.devRef .tc Cert.KernelIdeal.main_arg6) :=
  (r18_arg6 c).trans ((arg6 ρ hag c).trans (k17_arg6 ρ c).symm)
theorem e18_arg7 (hag : Agree m m') (c : Dev Cert.KernelIdeal.nD) : Rv18 m' c (Proc.devRef .tc Cert.ReferenceIdeal.main_arg7) = W17 m ρ c (Proc.devRef .tc Cert.KernelIdeal.main_arg7) :=
  (r18_arg7 c).trans ((arg7 ρ hag c).trans (k17_arg7 ρ c).symm)
theorem e18_arg8 (hag : Agree m m') (c : Dev Cert.KernelIdeal.nD) : Rv18 m' c (Proc.devRef .tc Cert.ReferenceIdeal.main_arg8) = W17 m ρ c (Proc.devRef .tc Cert.KernelIdeal.main_arg8) :=
  (r18_arg8 c).trans ((arg8 ρ hag c).trans (k17_arg8 ρ c).symm)
theorem e18_arg17 (hag : Agree m m') (c : Dev Cert.KernelIdeal.nD) : Rv18 m' c (Proc.devRef .tc Cert.ReferenceIdeal.main_arg17) = W15 m ρ c (Proc.devRef .tc Cert.KernelIdeal.main_arg17) :=
  (r18_arg17 c).trans ((arg17 ρ hag c).trans (k15_arg17 ρ c).symm)

/-! ## The first relation: parameter slices, aggregation, combine (region 6) -/

/-- The first relation's self weight. -/
theorem p_v193 (hag : Agree m m') (c : Dev Cert.KernelIdeal.nD) :
    Rv15 m' c (Proc.devRef .tc Cert.ReferenceIdeal.main_v229) = W16 m ρ c (Proc.devRef .tc Cert.KernelIdeal.main_v193) := by
  rw [Rv15_eq, W16_eq]
  exact s_v193 _ _ (e14_arg6 ρ hag c)

/-- The first relation's message weight. -/
theorem p_v195 (hag : Agree m m') (c : Dev Cert.KernelIdeal.nD) :
    Rv15 m' c (Proc.devRef .tc Cert.ReferenceIdeal.main_v231) = W16 m ρ c (Proc.devRef .tc Cert.KernelIdeal.main_v195) := by
  rw [Rv15_eq, W16_eq]
  exact s_v195 _ _ (e14_arg7 ρ hag c)

/-- The first relation's bias. -/
theorem p_v197 (hag : Agree m m') (c : Dev Cert.KernelIdeal.nD) :
    Rv15 m' c (Proc.devRef .tc Cert.ReferenceIdeal.main_v233) = W16 m ρ c (Proc.devRef .tc Cert.KernelIdeal.main_v197) := by
  rw [Rv15_eq, W16_eq]
  exact s_v197 _ _ (e14_arg8 ρ hag c)

/-- The object features averaged over the first relation's edges: the features agree where the stage reads them (no stage
    between writes them), and so do the edge lists. -/
theorem p_v145 (c : Dev Cert.KernelIdeal.nD) (h117 : Rv14 m' c (Proc.devRef .tc Cert.ReferenceIdeal.main_v222) = W13 m ρ c (Proc.devRef .tc Cert.KernelIdeal.main_v117))
    (hag : Agree m m') :
    Rv15 m' c (Proc.devRef .tc Cert.ReferenceIdeal.main_v256) = W16 m ρ c (Proc.devRef .tc Cert.KernelIdeal.main_v145) := by
  rw [Rv15_eq, W16_eq]
  exact s_v145 _ _ (h117.trans ((W15_keep m ρ c _ (by decide)).trans (W14_keep m ρ c _ (by decide))).symm) (e14_arg15 ρ hag c)

set_option maxHeartbeats 1000000 in
/-- The first relation's combine at the attribute nodes: region 6's output array against the reference's six operations. -/
theorem p_v198 (c : Dev Cert.KernelIdeal.nD) (h122 : Rv14 m' c (Proc.devRef .tc Cert.ReferenceIdeal.main_v227) = W15 m ρ c (Proc.devRef .tc Cert.KernelIdeal.main_v122))
    (h145 : Rv15 m' c (Proc.devRef .tc Cert.ReferenceIdeal.main_v256) = W16 m ρ c (Proc.devRef .tc Cert.KernelIdeal.main_v145))
    (h193 : Rv15 m' c (Proc.devRef .tc Cert.ReferenceIdeal.main_v229) = W16 m ρ c (Proc.devRef .tc Cert.KernelIdeal.main_v193))
    (h195 : Rv15 m' c (Proc.devRef .tc Cert.ReferenceIdeal.main_v231) = W16 m ρ c (Proc.devRef .tc Cert.KernelIdeal.main_v195))
    (h197 : Rv15 m' c (Proc.devRef .tc Cert.ReferenceIdeal.main_v233) = W16 m ρ c (Proc.devRef .tc Cert.KernelIdeal.main_v197)) :
    Rv16 m' c (Proc.devRef .tc Cert.ReferenceIdeal.main_v262) = W17 m ρ c (Proc.devRef .tc Cert.KernelIdeal.main_v198) := by
  rw [W17_out, Cert.Val.val6 (V16 m ρ) c, Rv16_eq, s_r262]
  simp only [arrRef6_0, arrRef6_1, arrRef6_2, arrRef6_3, arrRef6_4]
  have e122 : Rv15 m' c (Proc.devRef .tc Cert.ReferenceIdeal.main_v227) = W16 m ρ c (Proc.devRef .tc Cert.KernelIdeal.main_v122) :=
    (Rv15_keep m' c _ (by decide)).trans (h122.trans (W16_keep m ρ c _ (by decide)).symm)
  rw [e122, h145, h193, h195, h197]

/-! ## The second relation: parameter slices and aggregation -/

/-- The second relation's self weight. -/
theorem p_v200 (hag : Agree m m') (c : Dev Cert.KernelIdeal.nD) :
    Rv17 m' c (Proc.devRef .tc Cert.ReferenceIdeal.main_v264) = W18 m ρ c (Proc.devRef .tc Cert.KernelIdeal.main_v200) := by
  rw [Rv17_eq, W18_eq]
  exact s_v200 _ _ (e16_arg6 ρ hag c)

/-- The second relation's message weight. -/
theorem p_v202 (hag : Agree m m') (c : Dev Cert.KernelIdeal.nD) :
    Rv17 m' c (Proc.devRef .tc Cert.ReferenceIdeal.main_v266) = W18 m ρ c (Proc.devRef .tc Cert.KernelIdeal.main_v202) := by
  rw [Rv17_eq, W18_eq]
  exact s_v202 _ _ (e16_arg7 ρ hag c)

/-- The second relation's bias. -/
theorem p_v204 (hag : Agree m m') (c : Dev Cert.KernelIdeal.nD) :
    Rv17 m' c (Proc.devRef .tc Cert.ReferenceIdeal.main_v268) = W18 m ρ c (Proc.devRef .tc Cert.KernelIdeal.main_v204) := by
  rw [Rv17_eq, W18_eq]
  exact s_v204 _ _ (e16_arg8 ρ hag c)

/-- The attribute features averaged over the second relation's edges. -/
theorem p_v168 (c : Dev Cert.KernelIdeal.nD) (h122 : Rv14 m' c (Proc.devRef .tc Cert.ReferenceIdeal.main_v227) = W15 m ρ c (Proc.devRef .tc Cert.KernelIdeal.main_v122))
    (hag : Agree m m') :
    Rv17 m' c (Proc.devRef .tc Cert.ReferenceIdeal.main_v291) = W16 m ρ c (Proc.devRef .tc Cert.KernelIdeal.main_v168) := by
  rw [Rv17_eq, W16_eq]
  exact s_v168 _ _ ((Rv16_keep m' c _ (by decide)).trans ((Rv15_keep m' c _ (by decide)).trans h122)) (e16_arg16 ρ hag c)

/-! ## The third relation: parameter slices and aggregation -/

/-- The third relation's self weight. -/
theorem p_v206 (hag : Agree m m') (c : Dev Cert.KernelIdeal.nD) :
    Rv19 m' c (Proc.devRef .tc Cert.ReferenceIdeal.main_v299) = W18 m ρ c (Proc.devRef .tc Cert.KernelIdeal.main_v206) := by
  rw [Rv19_eq, W18_eq]
  exact s_v206 _ _ (e18_arg6 ρ hag c)

/-- The third relation's message weight. -/
theorem p_v208 (hag : Agree m m') (c : Dev Cert.KernelIdeal.nD) :
    Rv19 m' c (Proc.devRef .tc Cert.ReferenceIdeal.main_v301) = W18 m ρ c (Proc.devRef .tc Cert.KernelIdeal.main_v208) := by
  rw [Rv19_eq, W18_eq]
  exact s_v208 _ _ (e18_arg7 ρ hag c)

/-- The third relation's bias. -/
theorem p_v210 (hag : Agree m m') (c : Dev Cert.KernelIdeal.nD) :
    Rv19 m' c (Proc.devRef .tc Cert.ReferenceIdeal.main_v303) = W18 m ρ c (Proc.devRef .tc Cert.KernelIdeal.main_v210) := by
  rw [Rv19_eq, W18_eq]
  exact s_v210 _ _ (e18_arg8 ρ hag c)

/-- The object features averaged over the third relation's edges. -/
theorem p_v191 (c : Dev Cert.KernelIdeal.nD) (h117 : Rv14 m' c (Proc.devRef .tc Cert.ReferenceIdeal.main_v222) = W13 m ρ c (Proc.devRef .tc Cert.KernelIdeal.main_v117))
    (hag : Agree m m') :
    Rv19 m' c (Proc.devRef .tc Cert.ReferenceIdeal.main_v326) = W16 m ρ c (Proc.devRef .tc Cert.KernelIdeal.main_v191) := by
  rw [Rv19_eq, W16_eq]
  exact s_v191 _ _
    ((Rv18_keep m' c _ (by decide)).trans ((Rv17_keep m' c _ (by decide)).trans ((Rv16_keep m' c _ (by decide)).trans
      ((Rv15_keep m' c _ (by decide)).trans (h117.trans ((W15_keep m ρ c _ (by decide)).trans (W14_keep m ρ c _ (by decide))).symm)))))
    (e18_arg17 ρ hag c)

/-! ## The object nodes' combine (region 7): the second and third relations' combines added -/

set_option maxHeartbeats 4000000 in
/-- Region 7's output array against the reference's sum: the reference adds the second relation's combine, computed two
    stretches earlier and kept since, to the third's; the region's value is that sum of the nine arrays it reads. -/
theorem p_v211 (c : Dev Cert.KernelIdeal.nD) (h117 : Rv14 m' c (Proc.devRef .tc Cert.ReferenceIdeal.main_v222) = W13 m ρ c (Proc.devRef .tc Cert.KernelIdeal.main_v117))
    (h168 : Rv17 m' c (Proc.devRef .tc Cert.ReferenceIdeal.main_v291) = W16 m ρ c (Proc.devRef .tc Cert.KernelIdeal.main_v168))
    (h191 : Rv19 m' c (Proc.devRef .tc Cert.ReferenceIdeal.main_v326) = W16 m ρ c (Proc.devRef .tc Cert.KernelIdeal.main_v191))
    (h200 : Rv17 m' c (Proc.devRef .tc Cert.ReferenceIdeal.main_v264) = W18 m ρ c (Proc.devRef .tc Cert.KernelIdeal.main_v200))
    (h202 : Rv17 m' c (Proc.devRef .tc Cert.ReferenceIdeal.main_v266) = W18 m ρ c (Proc.devRef .tc Cert.KernelIdeal.main_v202))
    (h204 : Rv17 m' c (Proc.devRef .tc Cert.ReferenceIdeal.main_v268) = W18 m ρ c (Proc.devRef .tc Cert.KernelIdeal.main_v204))
    (h206 : Rv19 m' c (Proc.devRef .tc Cert.ReferenceIdeal.main_v299) = W18 m ρ c (Proc.devRef .tc Cert.KernelIdeal.main_v206))
    (h208 : Rv19 m' c (Proc.devRef .tc Cert.ReferenceIdeal.main_v301) = W18 m ρ c (Proc.devRef .tc Cert.KernelIdeal.main_v208))
    (h210 : Rv19 m' c (Proc.devRef .tc Cert.ReferenceIdeal.main_v303) = W18 m ρ c (Proc.devRef .tc Cert.KernelIdeal.main_v210)) :
    Rv20 m' c (Proc.devRef .tc Cert.ReferenceIdeal.main_v333) = W19 m ρ c (Proc.devRef .tc Cert.KernelIdeal.main_v211) := by
  rw [W19_out, Cert.Val.val7 (V18 m ρ) c, Rv20_eq, s_r333, Rv19_keep m' c Cert.ReferenceIdeal.main_v297 (by decide), Rv18_eq, s_r297]
  simp only [arrRef7_0, arrRef7_1, arrRef7_2, arrRef7_3, arrRef7_4, arrRef7_5, arrRef7_6, arrRef7_7, arrRef7_8]
  have k117 : W18 m ρ c (Proc.devRef .tc Cert.KernelIdeal.main_v117) = W13 m ρ c (Proc.devRef .tc Cert.KernelIdeal.main_v117) :=
    (W18_keep m ρ c _ (by decide)).trans ((W17_keep m ρ c _ (by decide)).trans ((W16_keep m ρ c _ (by decide)).trans
      ((W15_keep m ρ c _ (by decide)).trans (W14_keep m ρ c _ (by decide)))))
  have e117a : Rv17 m' c (Proc.devRef .tc Cert.ReferenceIdeal.main_v222) = W18 m ρ c (Proc.devRef .tc Cert.KernelIdeal.main_v117) :=
    (Rv17_keep m' c _ (by decide)).trans ((Rv16_keep m' c _ (by decide)).trans ((Rv15_keep m' c _ (by decide)).trans
      (h117.trans k117.symm)))
  have e117b : Rv19 m' c (Proc.devRef .tc Cert.ReferenceIdeal.main_v222) = W18 m ρ c (Proc.devRef .tc Cert.KernelIdeal.main_v117) :=
    (Rv19_keep m' c _ (by decide)).trans ((Rv18_keep m' c _ (by decide)).trans e117a)
  have e168 : Rv17 m' c (Proc.devRef .tc Cert.ReferenceIdeal.main_v291) = W18 m ρ c (Proc.devRef .tc Cert.KernelIdeal.main_v168) :=
    h168.trans ((W18_keep m ρ c _ (by decide)).trans (W17_keep m ρ c _ (by decide))).symm
  have e191 : Rv19 m' c (Proc.devRef .tc Cert.ReferenceIdeal.main_v326) = W18 m ρ c (Proc.devRef .tc Cert.KernelIdeal.main_v191) :=
    h191.trans ((W18_keep m ρ c _ (by decide)).trans (W17_keep m ρ c _ (by decide))).symm
  rw [e117a, e117b, e168, e191, h200, h202, h204, h206, h208, h210]
  rfl

end Cert.Bridge

end
-- ==== Proof.Bridge.BL1bS.lean ====
/- Layer 1's batch statistics and batch-norm, side by side over arbitrary contents of the buffers before each stage. The
   two programs take a feature array's mean and variance by the same host operations (the variance by the same called
   function, the correction a constant zero written just before), slice the scale and the shift out of the same two
   argument arrays, and the reference's normalisation is the function the regions' values are stated with. -/
import proofs.«151172_j14164802142730_2_alg».proof.Proof.Gen.KernelIdeal.Launch
import proofs.«151172_j14164802142730_2_alg».proof.Proof.Ref.Chunks
import proofs.«151172_j14164802142730_2_alg».proof.Proof.Val.BnRef
import proofs.«151172_j14164802142730_2_alg».proof.Proof.Gen.ReferenceIdeal
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo

variable (V : Valuation Cert.KernelIdeal.τ Cert.KernelIdeal.sig (Elt Ideal)) (V' : Valuation Cert.ReferenceIdeal.τ Cert.ReferenceIdeal.sig (Elt Ideal))

/-! ## The object features -/

set_option maxHeartbeats 1000000 in
/-- The mean over the rows of the object features: the same five operations on both sides. -/
theorem s_v214 (hx : V' (Proc.devRef .tc Cert.ReferenceIdeal.main_v333) = V (Proc.devRef .tc Cert.KernelIdeal.main_v211)) :
    after Cert.ReferenceIdeal.Hand.C20 V' (Proc.devRef .tc Cert.ReferenceIdeal.main_v340)
      = after Cert.KernelIdeal.Gen.hostOps8 V (Proc.devRef .tc Cert.KernelIdeal.main_v214) := by
  after_results_simp
  rw [hx]

set_option maxHeartbeats 1000000 in
/-- The correction the kernel program writes before its variance function is the constant zero. -/
theorem s_c_46 :
    @Eq (IVec Cert.KernelIdeal.S_ 32) (after Cert.KernelIdeal.Gen.hostOps8 V (Proc.devRef .tc Cert.KernelIdeal.main_c_46)) (constantI Cert.KernelIdeal.S_ 32 0#32) := by
  after_results_simp

set_option maxHeartbeats 2000000 in
/-- The variance over the rows of the object features: the same called function on both sides, its correction the
    constant zero (the reference writes it in the same stretch, the kernel program in the stretch before). -/
theorem s_v215 (hx : V' (Proc.devRef .tc Cert.ReferenceIdeal.main_v333) = V (Proc.devRef .tc Cert.KernelIdeal.main_v211))
    (hc : @Eq (IVec Cert.KernelIdeal.S_ 32) (V (Proc.devRef .tc Cert.KernelIdeal.main_c_46)) (constantI Cert.KernelIdeal.S_ 32 0#32)) :
    after Cert.ReferenceIdeal.Hand.C20 V' (Proc.devRef .tc Cert.ReferenceIdeal.main_v341)
      = after Cert.KernelIdeal.Gen.hostOps8_1 V (Proc.devRef .tc Cert.KernelIdeal.main_v215) := by
  after_results_simp
  simp only [TRef.ofBuf, TRef.toBuf, cast_eq]
  rw [hx, hc]

set_option maxHeartbeats 1000000 in
/-- The scale: the same slice of the same argument array, recast to a vector. -/
theorem s_v221 (h9 : V' (Proc.devRef .tc Cert.ReferenceIdeal.main_arg9) = V (Proc.devRef .tc Cert.KernelIdeal.main_arg9)) :
    after Cert.ReferenceIdeal.Hand.C20 V' (Proc.devRef .tc Cert.ReferenceIdeal.main_v335)
      = after Cert.KernelIdeal.Gen.hostOps8_4 V (Proc.devRef .tc Cert.KernelIdeal.main_v221) := by
  after_results_simp
  rw [h9]
  rfl

set_option maxHeartbeats 1000000 in
/-- The shift likewise. -/
theorem s_v223 (h10 : V' (Proc.devRef .tc Cert.ReferenceIdeal.main_arg10) = V (Proc.devRef .tc Cert.KernelIdeal.main_arg10)) :
    after Cert.ReferenceIdeal.Hand.C20 V' (Proc.devRef .tc Cert.ReferenceIdeal.main_v337)
      = after Cert.KernelIdeal.Gen.hostOps8_4 V (Proc.devRef .tc Cert.KernelIdeal.main_v223) := by
  after_results_simp
  rw [h10]
  rfl

set_option maxHeartbeats 1000000 in
/-- The reference's normalisation of the object features, as the function the region's value is stated with. -/
theorem s_r356 :
    after Cert.ReferenceIdeal.Hand.C21 V' (Proc.devRef .tc Cert.ReferenceIdeal.main_v356)
      = Cert.Val.refBn (F := Ideal) (V' (Proc.devRef .tc Cert.ReferenceIdeal.main_v333)) (V' (Proc.devRef .tc Cert.ReferenceIdeal.main_v335)) (V' (Proc.devRef .tc Cert.ReferenceIdeal.main_v337))
          (V' (Proc.devRef .tc Cert.ReferenceIdeal.main_v340)) (V' (Proc.devRef .tc Cert.ReferenceIdeal.main_v341)) := by
  after_results_simp
  rfl

/-! ## The attribute features -/

set_option maxHeartbeats 1000000 in
/-- The mean over the rows of the attribute features: the same five operations on both sides. -/
theorem s_v218 (hx : V' (Proc.devRef .tc Cert.ReferenceIdeal.main_v262) = V (Proc.devRef .tc Cert.KernelIdeal.main_v198)) :
    after Cert.ReferenceIdeal.Hand.C22 V' (Proc.devRef .tc Cert.ReferenceIdeal.main_v363)
      = after Cert.KernelIdeal.Gen.hostOps8_2 V (Proc.devRef .tc Cert.KernelIdeal.main_v218) := by
  after_results_simp
  rw [hx]

set_option maxHeartbeats 1000000 in
/-- The correction the kernel program writes before its variance function is the constant zero. -/
theorem s_c_49 :
    @Eq (IVec Cert.KernelIdeal.S_ 32) (after Cert.KernelIdeal.Gen.hostOps8_2 V (Proc.devRef .tc Cert.KernelIdeal.main_c_49)) (constantI Cert.KernelIdeal.S_ 32 0#32) := by
  after_results_simp

set_option maxHeartbeats 2000000 in
/-- The variance over the rows of the attribute features: the same called function on both sides, its correction the
    constant zero (the reference writes it in the same stretch, the kernel program in the stretch before). -/
theorem s_v219 (hx : V' (Proc.devRef .tc Cert.ReferenceIdeal.main_v262) = V (Proc.devRef .tc Cert.KernelIdeal.main_v198))
    (hc : @Eq (IVec Cert.KernelIdeal.S_ 32) (V (Proc.devRef .tc Cert.KernelIdeal.main_c_49)) (constantI Cert.KernelIdeal.S_ 32 0#32)) :
    after Cert.ReferenceIdeal.Hand.C22 V' (Proc.devRef .tc Cert.ReferenceIdeal.main_v364)
      = after Cert.KernelIdeal.Gen.hostOps8_3 V (Proc.devRef .tc Cert.KernelIdeal.main_v219) := by
  after_results_simp
  simp only [TRef.ofBuf, TRef.toBuf, cast_eq]
  rw [hx, hc]

set_option maxHeartbeats 1000000 in
/-- The scale: the same slice of the same argument array, recast to a vector. -/
theorem s_v226 (h9 : V' (Proc.devRef .tc Cert.ReferenceIdeal.main_arg9) = V (Proc.devRef .tc Cert.KernelIdeal.main_arg9)) :
    after Cert.ReferenceIdeal.Hand.C22 V' (Proc.devRef .tc Cert.ReferenceIdeal.main_v358)
      = after Cert.KernelIdeal.Gen.hostOps9 V (Proc.devRef .tc Cert.KernelIdeal.main_v226) := by
  after_results_simp
  rw [h9]
  rfl

set_option maxHeartbeats 1000000 in
/-- The shift likewise. -/
theorem s_v228 (h10 : V' (Proc.devRef .tc Cert.ReferenceIdeal.main_arg10) = V (Proc.devRef .tc Cert.KernelIdeal.main_arg10)) :
    after Cert.ReferenceIdeal.Hand.C22 V' (Proc.devRef .tc Cert.ReferenceIdeal.main_v360)
      = after Cert.KernelIdeal.Gen.hostOps9 V (Proc.devRef .tc Cert.KernelIdeal.main_v228) := by
  after_results_simp
  rw [h10]
  rfl

set_option maxHeartbeats 1000000 in
/-- The reference's normalisation of the attribute features, as the function the region's value is stated with. -/
theorem s_r379 :
    after Cert.ReferenceIdeal.Hand.C23 V' (Proc.devRef .tc Cert.ReferenceIdeal.main_v379)
      = Cert.Val.refBn (F := Ideal) (V' (Proc.devRef .tc Cert.ReferenceIdeal.main_v262)) (V' (Proc.devRef .tc Cert.ReferenceIdeal.main_v358)) (V' (Proc.devRef .tc Cert.ReferenceIdeal.main_v360))
          (V' (Proc.devRef .tc Cert.ReferenceIdeal.main_v363)) (V' (Proc.devRef .tc Cert.ReferenceIdeal.main_v364)) := by
  after_results_simp
  rfl

end Cert.Bridge

end
-- ==== Proof.Val.Bn8.lean ====
/-
  The value of region 8: after its pipeline has run, the output array (window 5) holds, at every index, the reference's
  batch-norm affine step of the five input arrays as the region found them, provided the variance input
  (window 4) is nowhere negative.

  The body's one store at a grid point is read index by index: at row `p`, feature `q` of the block it is
  `(gamma q * (x p q - mean q)) * rsqrt (var q + eps) + beta q`. The reference divides by `sqrt (var q + eps)` instead of
  multiplying by the reciprocal square root; on the extended reals the two agree exactly when `var q + eps` is strictly
  positive, which is where the hypothesis on the variance is used (`eps` is a positive real). The rows' block at point
  `t` is rows `5000 t … 5000 t + 4999` of the array and each per-feature window's block is its whole vector, so point `t`
  writes back block `t` of the reference's function; the 40 blocks tile the 200000 rows, so the array ends as that function.
-/
import proofs.«151172_j14164802142730_2_alg».proof.Proof.KI.R8
import proofs.«151172_j14164802142730_2_alg».proof.Proof.Gen.ReferenceIdeal
import proofs.«151172_j14164802142730_2_alg».proof.Proof.Val.BnRef
import proofs.«151172_j14164802142730_2_alg».proof.Proof.Spec.BnLaw
import Idealize.ShloMosaic.Lib.Pipeline.Value
import Idealize.ShloMosaic.Lib.ValueIdx
import Idealize.ShloMosaic.Lib.ValueLayout

set_option maxRecDepth 16384

noncomputable section

namespace Cert.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

/-! ## The body's payload at an index -/

theorem hz8_2 : (![0, 0] : Fin 2 → Nat) = fun _ => 0 := funext fun a => by fin_cases a <;> rfl
theorem hz8_1 : (![0] : Fin 1 → Nat) = fun _ => 0 := funext fun a => by fin_cases a; rfl

/-- A vector of length 64 made a row and repeated over the block's 5000 rows reads, at row `p` and feature `q`, the vector at `q`. -/
theorem rowOf8_apply {α : Type} (v : S64.Idx → α) (h : S64.ShapeCasts S1x64) (h' : S1x64.Broadcasts S5000x64) (p : Fin 5000) (q : Fin 64) :
    broadcastTo S5000x64 (shapeCast S1x64 v h) h' (ix2 p q) = v (ix1 q) :=
  (broadcastTo_1b_ab_apply (a := 5000) (b := 64) (shapeCast S1x64 v h) h' p q).trans
    (shapeCast_a_1a_apply (a := 64) v h (0 : Fin 1) q)

/-- A reciprocal square root of a vector at an index is that of the entry. -/
theorem rsqrt8_apply {s : Shape} (a : FVec Ideal s .f32) (i : s.Idx) : rsqrt a i = Ideal.rsqrt (a i) := rfl

/-- The payload at row `p`, feature `q` of the block. -/
theorem pay8_apply (v0 : Vec Ideal S5000x64 .f32) (v2 v4 v6 v8 : Vec Ideal S64 .f32) (p : Fin 5000) (q : Fin 64) :
    k8_pay1 (F := Ideal) v0 v2 v4 v6 v8 (ix2 p q)
      = ((v6 (ix1 q) * (v0 (ix2 p q) - v2 (ix1 q))) * Ideal.rsqrt (v4 (ix1 q) + Ideal.ofBits .f32 0x3727C5AC#32) + v8 (ix1 q)) := by
  unfold k8_pay1
  simp only [shapeCast_self]
  show (_ * (v0 (ix2 p q) - _)) * _ + _ = _
  rw [rowOf8_apply, rowOf8_apply, rowOf8_apply, rowOf8_apply]
  rfl

/-- The same at any index `y` of the block, the feature's index `k` given by its coordinate. -/
theorem pay8_point (v0 : Vec Ideal S5000x64 .f32) (v2 v4 v6 v8 : Vec Ideal S64 .f32) (y : S5000x64.Idx) (k : S64.Idx)
    (hk : (k 0).val = (y 1).val) :
    k8_pay1 (F := Ideal) v0 v2 v4 v6 v8 y
      = ((v6 k * (v0 y - v2 k)) * Ideal.rsqrt (v4 k + Ideal.ofBits .f32 0x3727C5AC#32) + v8 k) := by
  obtain ⟨p, q, rfl⟩ : ∃ (p : Fin 5000) (q : Fin 64), y = ix2 p q := ⟨y 0, y 1, eq_ix2 y⟩
  obtain rfl : k = ix1 q := by funext d; match d with | ⟨0, _⟩ => exact Fin.ext hk
  exact pay8_apply v0 v2 v4 v6 v8 p q

/-- ONE ENTRY: the payload of blocks that agree with whole arrays `X G B M Vr` at the matching indices is the reference's
    function of those arrays there, when the variance array is nowhere negative. -/
theorem point8 (X : S200000x64.Idx → EReal) (G B M Vr : S64.Idx → EReal) (hvar : ∀ j, 0 ≤ Vr j)
    (x0 : Vec Ideal S5000x64 .f32) (x1 x2 x3 x4 : Vec Ideal S64 .f32) (y : S5000x64.Idx) (i : S200000x64.Idx)
    (hi : (i 1).val = (y 1).val) (h0 : x0 y = X i) (h1 : ∀ k, x1 k = G k) (h2 : ∀ k, x2 k = B k) (h3 : ∀ k, x3 k = M k)
    (h4 : ∀ k, x4 k = Vr k) :
    k8_pay1 (F := Ideal) x0 x3 x4 x1 x2 y = refBn X G B M Vr i := by
  obtain ⟨k, hk⟩ : ∃ k : S64.Idx, (k 0).val = (y 1).val := ⟨ix1 (⟨(y 1).val, idx2_lt1 y⟩ : Fin 64), rfl⟩
  rw [pay8_point x0 x3 x4 x1 x2 y k hk, refBn_point X G B M Vr i k (hk.trans hi.symm), h0, h1, h2, h3, h4]
  unfold bnAt bnWith
  obtain ⟨e, he, hE⟩ := Cert.Spec.ofBits_eps
  have hpos : 0 < Vr k + Ideal.ofBits .f32 0x3727C5AC#32 := by
    rw [hE]; exact Right.add_pos_of_nonneg_of_pos (hvar k) (by exact_mod_cast he)
  rw [Cert.Spec.mul_rsqrt_eq_div_sqrt _ _ hpos]

/-! ## The blocks: where each window's block sits in its array -/

variable (V : (c : Dev nD) → (b : Ref sig .tc) → Buf (Elt Ideal) ((c : Thread nD τ).loc b))

/-- The printed index maps, decided over the grid's 40 points: the rows' input block moves with the output block, along
    the rows only, and each per-feature window stays at block 0. -/
theorem idx_facts8 : ∀ t : Fin cfg8.N,
    win8_0.index t (0 : Fin 2) = win8_5.index t (0 : Fin 2) ∧ win8_0.index t (1 : Fin 2) = 0 ∧ win8_5.index t (1 : Fin 2) = 0
    ∧ win8_1.index t (0 : Fin 1) = 0 ∧ win8_2.index t (0 : Fin 1) = 0 ∧ win8_3.index t (0 : Fin 1) = 0 ∧ win8_4.index t (0 : Fin 1) = 0 :=
  (by decide +kernel : ∀ t : Fin grid8.N, _)

/-- Every one of the 40 row blocks is some point's. -/
theorem idx_onto8 : ∀ q0 : Fin 40, ∃ t : Fin cfg8.N, win8_5.index t = ![q0.val, 0] :=
  (by decide +kernel : ∀ q0 : Fin 40, ∃ t : Fin grid8.N, win8_5.index t = ![q0.val, 0])

/-- The rows' block at point `t`, read at `y`, is the array at the row `5000 * (block index) + y 0`, same feature. -/
theorem iblk8_0_apply (c : Dev nD) (t : Fin cfg8.N) (y : S5000x64.Idx) (i : S200000x64.Idx)
    (h0 : (i 0).val = win8_5.index t (0 : Fin 2) * 5000 + (y 0).val) (h1 : (i 1).val = (y 1).val) :
    (iblk8 V c 0 t : Vec Ideal S5000x64 .f32) y = (V c (Pipeline.arrRef spec8 0) : S200000x64.Idx → EReal) i := by
  obtain ⟨e0, e1, -⟩ := idx_facts8 t
  unfold iblk8
  show V c (Pipeline.arrRef spec8 0) (((cfg8.win 0).blk t).view.emb y) = V c (Pipeline.arrRef spec8 0) i
  refine congrArg (V c (Pipeline.arrRef spec8 0)) (funext fun a => Fin.ext ?_)
  match a with
  | ⟨0, _⟩ => show win8_0.index t (0 : Fin 2) * 5000 + 1 * (y 0).val = (i 0).val; rw [h0, e0]; omega
  | ⟨1, _⟩ => show win8_0.index t (1 : Fin 2) * 64 + 1 * (y 1).val = (i 1).val; rw [h1, e1]; omega

/-- A per-feature window's block is its whole array, at every point. -/
theorem iblk8_1_apply (c : Dev nD) (t : Fin cfg8.N) (k : S64.Idx) :
    (iblk8 V c 1 t : Vec Ideal S64 .f32) k = (V c (Pipeline.arrRef spec8 1) : S64.Idx → EReal) k := by
  obtain ⟨-, -, -, e, -⟩ := idx_facts8 t
  unfold iblk8
  show V c (Pipeline.arrRef spec8 1) (((cfg8.win 1).blk t).view.emb k) = V c (Pipeline.arrRef spec8 1) k
  refine congrArg (V c (Pipeline.arrRef spec8 1)) (funext fun a => Fin.ext ?_)
  match a with
  | ⟨0, _⟩ => show win8_1.index t (0 : Fin 1) * 64 + 1 * (k 0).val = (k 0).val; rw [e]; omega
theorem iblk8_2_apply (c : Dev nD) (t : Fin cfg8.N) (k : S64.Idx) :
    (iblk8 V c 2 t : Vec Ideal S64 .f32) k = (V c (Pipeline.arrRef spec8 2) : S64.Idx → EReal) k := by
  obtain ⟨-, -, -, -, e, -⟩ := idx_facts8 t
  unfold iblk8
  show V c (Pipeline.arrRef spec8 2) (((cfg8.win 2).blk t).view.emb k) = V c (Pipeline.arrRef spec8 2) k
  refine congrArg (V c (Pipeline.arrRef spec8 2)) (funext fun a => Fin.ext ?_)
  match a with
  | ⟨0, _⟩ => show win8_2.index t (0 : Fin 1) * 64 + 1 * (k 0).val = (k 0).val; rw [e]; omega
theorem iblk8_3_apply (c : Dev nD) (t : Fin cfg8.N) (k : S64.Idx) :
    (iblk8 V c 3 t : Vec Ideal S64 .f32) k = (V c (Pipeline.arrRef spec8 3) : S64.Idx → EReal) k := by
  obtain ⟨-, -, -, -, -, e, -⟩ := idx_facts8 t
  unfold iblk8
  show V c (Pipeline.arrRef spec8 3) (((cfg8.win 3).blk t).view.emb k) = V c (Pipeline.arrRef spec8 3) k
  refine congrArg (V c (Pipeline.arrRef spec8 3)) (funext fun a => Fin.ext ?_)
  match a with
  | ⟨0, _⟩ => show win8_3.index t (0 : Fin 1) * 64 + 1 * (k 0).val = (k 0).val; rw [e]; omega
theorem iblk8_4_apply (c : Dev nD) (t : Fin cfg8.N) (k : S64.Idx) :
    (iblk8 V c 4 t : Vec Ideal S64 .f32) k = (V c (Pipeline.arrRef spec8 4) : S64.Idx → EReal) k := by
  obtain ⟨-, -, -, -, -, -, e⟩ := idx_facts8 t
  unfold iblk8
  show V c (Pipeline.arrRef spec8 4) (((cfg8.win 4).blk t).view.emb k) = V c (Pipeline.arrRef spec8 4) k
  refine congrArg (V c (Pipeline.arrRef spec8 4)) (funext fun a => Fin.ext ?_)
  match a with
  | ⟨0, _⟩ => show win8_4.index t (0 : Fin 1) * 64 + 1 * (k 0).val = (k 0).val; rw [e]; omega

/-! ## What a point writes back, the cover, the array -/

set_option maxHeartbeats 1000000 in
/-- WHAT POINT `t` WRITES BACK is block `t` of the reference's function of the five arrays as the region finds them. -/
theorem flushed8_eq (c : Dev nD) (hvar : ∀ j, (0 : EReal) ≤ (V c (Pipeline.arrRef spec8 4) : S64.Idx → EReal) j) (t : Fin cfg8.N) :
    (dat8 (F := Ideal) V c).flushed 5 t = ((cfg8.win 5).blk t).view.read (Elt Ideal)
      (refBn (F := Ideal) (V c (Pipeline.arrRef spec8 0)) (V c (Pipeline.arrRef spec8 1)) (V c (Pipeline.arrRef spec8 2))
        (V c (Pipeline.arrRef spec8 3)) (V c (Pipeline.arrRef spec8 4))) := by
  obtain ⟨-, -, e5, -⟩ := idx_facts8 t
  show (cfg8.win 5).cut (grid8.coords t) ((dat8 V c).after 5 t) = _
  rw [after8_5]
  unfold out8_5
  rw [View.canon_unit_zero hz8_2]
  simp only [View.ld_unit_zero (S := S5000x64) hz8_2, View.ld_unit_zero (S := S64) hz8_1]
  funext j
  show k8_pay1 (F := Ideal) (iblk8 V c 0 t) (iblk8 V c 3 t) (iblk8 V c 4 t) (iblk8 V c 1 t) (iblk8 V c 2 t)
      ((cfg8.win 5).xinj (grid8.coords t) j)
    = refBn (F := Ideal) (V c (Pipeline.arrRef spec8 0)) (V c (Pipeline.arrRef spec8 1)) (V c (Pipeline.arrRef spec8 2))
        (V c (Pipeline.arrRef spec8 3)) (V c (Pipeline.arrRef spec8 4)) (((cfg8.win 5).blk t).view.emb j)
  refine point8 _ _ _ _ _ hvar _ _ _ _ _ _ _ ?_ ?_ (iblk8_1_apply V c t) (iblk8_2_apply V c t) (iblk8_3_apply V c t)
    (iblk8_4_apply V c t)
  · show win8_5.index t (1 : Fin 2) * 64 + 1 * (j 1).val = (j 1).val
    rw [e5]; omega
  · refine iblk8_0_apply V c t _ _ ?_ ?_
    · show win8_5.index t (0 : Fin 2) * 5000 + 1 * (j 0).val = win8_5.index t (0 : Fin 2) * 5000 + (j 0).val
      omega
    · show win8_5.index t (1 : Fin 2) * 64 + 1 * (j 1).val = (j 1).val
      rw [e5]; omega

/-- An index of the output array is in point `t`'s block iff each coordinate is in the block's range on its axis. -/
theorem mem_blk8 (t : Fin cfg8.N) (i : S200000x64.Idx) :
    i ∈ ((cfg8.win 5).blk t).view.set ↔ ∀ a : Fin 2, win8_5.index t a * S5000x64.size a ≤ (i a).val
      ∧ (i a).val < win8_5.index t a * S5000x64.size a + S5000x64.size a := by
  show i ∈ ((View.whole (Pipeline.arrRef spec8 5)).slice (win8_5.rect t)).set ↔ _
  rw [View.set_slice_whole, Rect.mem_set_unit]
  exact Iff.rfl

/-- Every index of the output array is in some point's block: row `r` lies in block `r / 5000`. -/
theorem cover8 (i : S200000x64.Idx) :
    ∃ t : Fin cfg8.N, (cfg8.win 5).flush t = true ∧ i ∈ ((cfg8.win 5).blk t).view.set := by
  have hi0 : (i 0).val < 200000 := (i 0).isLt
  have hi1 : (i 1).val < 64 := (i 1).isLt
  obtain ⟨t, ht⟩ := idx_onto8 ⟨(i 0).val / 5000, by omega⟩
  have q0 : win8_5.index t (0 : Fin 2) = (i 0).val / 5000 := congrFun ht 0
  have q1 : win8_5.index t (1 : Fin 2) = 0 := congrFun ht 1
  refine ⟨t, flush8_5 t, ?_⟩
  rw [mem_blk8]
  intro a
  match a with
  | ⟨0, _⟩ => show win8_5.index t (0 : Fin 2) * 5000 ≤ (i 0).val ∧ (i 0).val < win8_5.index t (0 : Fin 2) * 5000 + 5000; omega
  | ⟨1, _⟩ => show win8_5.index t (1 : Fin 2) * 64 ≤ (i 1).val ∧ (i 1).val < win8_5.index t (1 : Fin 2) * 64 + 64; omega

/-- THE ARRAY after region 8: the reference's function of the five arrays as the region found them (windows: 0 the
    rows, 1 gamma, 2 beta, 3 the mean, 4 the variance), for any contents at region entry with a nowhere negative variance. -/
theorem val8 (V : (c : Dev nD) → (b : Ref sig .tc) → Buf (Elt Ideal) ((c : Thread nD τ).loc b)) (c : Dev nD)
    (hvar : ∀ j, (0 : EReal) ≤ (V c (Pipeline.arrRef spec8 4) : S64.Idx → EReal) j) :
    (dat8 (F := Ideal) V c).arrAt 5 cfg8.N
      = refBn (F := Ideal) (V c (Pipeline.arrRef spec8 0)) (V c (Pipeline.arrRef spec8 1)) (V c (Pipeline.arrRef spec8 2))
        (V c (Pipeline.arrRef spec8 3)) (V c (Pipeline.arrRef spec8 4)) :=
  (dat8 (F := Ideal) V c).arrAt_eq_of_cover 5 _ (fun t _ => flushed8_eq V c hvar t) (cover8)

end Cert.Val

end
-- ==== Proof.Val.Bn9.lean ====
/-
  The value of region 9: after its pipeline has run, the output array (window 5) holds, at every index, the reference's
  batch-norm affine step of the five input arrays as the region found them, provided the variance input
  (window 4) is nowhere negative.

  The body's one store at a grid point is read index by index: at row `p`, feature `q` of the block it is
  `(gamma q * (x p q - mean q)) * rsqrt (var q + eps) + beta q`. The reference divides by `sqrt (var q + eps)` instead of
  multiplying by the reciprocal square root; on the extended reals the two agree exactly when `var q + eps` is strictly
  positive, which is where the hypothesis on the variance is used (`eps` is a positive real). The rows' block at point
  `t` is rows `5000 t … 5000 t + 4999` of the array and each per-feature window's block is its whole vector, so point `t`
  writes back block `t` of the reference's function; the 40 blocks tile the 200000 rows, so the array ends as that function.
-/
import proofs.«151172_j14164802142730_2_alg».proof.Proof.KI.R9
import proofs.«151172_j14164802142730_2_alg».proof.Proof.Gen.ReferenceIdeal
import proofs.«151172_j14164802142730_2_alg».proof.Proof.Val.BnRef
import proofs.«151172_j14164802142730_2_alg».proof.Proof.Spec.BnLaw
import Idealize.ShloMosaic.Lib.Pipeline.Value
import Idealize.ShloMosaic.Lib.ValueIdx
import Idealize.ShloMosaic.Lib.ValueLayout

set_option maxRecDepth 16384

noncomputable section

namespace Cert.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

/-! ## The body's payload at an index -/

theorem hz9_2 : (![0, 0] : Fin 2 → Nat) = fun _ => 0 := funext fun a => by fin_cases a <;> rfl
theorem hz9_1 : (![0] : Fin 1 → Nat) = fun _ => 0 := funext fun a => by fin_cases a; rfl

/-- A vector of length 64 made a row and repeated over the block's 5000 rows reads, at row `p` and feature `q`, the vector at `q`. -/
theorem rowOf9_apply {α : Type} (v : S64.Idx → α) (h : S64.ShapeCasts S1x64) (h' : S1x64.Broadcasts S5000x64) (p : Fin 5000) (q : Fin 64) :
    broadcastTo S5000x64 (shapeCast S1x64 v h) h' (ix2 p q) = v (ix1 q) :=
  (broadcastTo_1b_ab_apply (a := 5000) (b := 64) (shapeCast S1x64 v h) h' p q).trans
    (shapeCast_a_1a_apply (a := 64) v h (0 : Fin 1) q)

/-- A reciprocal square root of a vector at an index is that of the entry. -/
theorem rsqrt9_apply {s : Shape} (a : FVec Ideal s .f32) (i : s.Idx) : rsqrt a i = Ideal.rsqrt (a i) := rfl

/-- The payload at row `p`, feature `q` of the block. -/
theorem pay9_apply (v0 : Vec Ideal S5000x64 .f32) (v2 v4 v6 v8 : Vec Ideal S64 .f32) (p : Fin 5000) (q : Fin 64) :
    k9_pay1 (F := Ideal) v0 v2 v4 v6 v8 (ix2 p q)
      = ((v6 (ix1 q) * (v0 (ix2 p q) - v2 (ix1 q))) * Ideal.rsqrt (v4 (ix1 q) + Ideal.ofBits .f32 0x3727C5AC#32) + v8 (ix1 q)) := by
  unfold k9_pay1
  simp only [shapeCast_self]
  show (_ * (v0 (ix2 p q) - _)) * _ + _ = _
  rw [rowOf9_apply, rowOf9_apply, rowOf9_apply, rowOf9_apply]
  rfl

/-- The same at any index `y` of the block, the feature's index `k` given by its coordinate. -/
theorem pay9_point (v0 : Vec Ideal S5000x64 .f32) (v2 v4 v6 v8 : Vec Ideal S64 .f32) (y : S5000x64.Idx) (k : S64.Idx)
    (hk : (k 0).val = (y 1).val) :
    k9_pay1 (F := Ideal) v0 v2 v4 v6 v8 y
      = ((v6 k * (v0 y - v2 k)) * Ideal.rsqrt (v4 k + Ideal.ofBits .f32 0x3727C5AC#32) + v8 k) := by
  obtain ⟨p, q, rfl⟩ : ∃ (p : Fin 5000) (q : Fin 64), y = ix2 p q := ⟨y 0, y 1, eq_ix2 y⟩
  obtain rfl : k = ix1 q := by funext d; match d with | ⟨0, _⟩ => exact Fin.ext hk
  exact pay9_apply v0 v2 v4 v6 v8 p q

/-- ONE ENTRY: the payload of blocks that agree with whole arrays `X G B M Vr` at the matching indices is the reference's
    function of those arrays there, when the variance array is nowhere negative. -/
theorem point9 (X : S200000x64.Idx → EReal) (G B M Vr : S64.Idx → EReal) (hvar : ∀ j, 0 ≤ Vr j)
    (x0 : Vec Ideal S5000x64 .f32) (x1 x2 x3 x4 : Vec Ideal S64 .f32) (y : S5000x64.Idx) (i : S200000x64.Idx)
    (hi : (i 1).val = (y 1).val) (h0 : x0 y = X i) (h1 : ∀ k, x1 k = G k) (h2 : ∀ k, x2 k = B k) (h3 : ∀ k, x3 k = M k)
    (h4 : ∀ k, x4 k = Vr k) :
    k9_pay1 (F := Ideal) x0 x3 x4 x1 x2 y = refBn X G B M Vr i := by
  obtain ⟨k, hk⟩ : ∃ k : S64.Idx, (k 0).val = (y 1).val := ⟨ix1 (⟨(y 1).val, idx2_lt1 y⟩ : Fin 64), rfl⟩
  rw [pay9_point x0 x3 x4 x1 x2 y k hk, refBn_point X G B M Vr i k (hk.trans hi.symm), h0, h1, h2, h3, h4]
  unfold bnAt bnWith
  obtain ⟨e, he, hE⟩ := Cert.Spec.ofBits_eps
  have hpos : 0 < Vr k + Ideal.ofBits .f32 0x3727C5AC#32 := by
    rw [hE]; exact Right.add_pos_of_nonneg_of_pos (hvar k) (by exact_mod_cast he)
  rw [Cert.Spec.mul_rsqrt_eq_div_sqrt _ _ hpos]

/-! ## The blocks: where each window's block sits in its array -/

variable (V : (c : Dev nD) → (b : Ref sig .tc) → Buf (Elt Ideal) ((c : Thread nD τ).loc b))

/-- The printed index maps, decided over the grid's 40 points: the rows' input block moves with the output block, along
    the rows only, and each per-feature window stays at block 0. -/
theorem idx_facts9 : ∀ t : Fin cfg9.N,
    win9_0.index t (0 : Fin 2) = win9_5.index t (0 : Fin 2) ∧ win9_0.index t (1 : Fin 2) = 0 ∧ win9_5.index t (1 : Fin 2) = 0
    ∧ win9_1.index t (0 : Fin 1) = 0 ∧ win9_2.index t (0 : Fin 1) = 0 ∧ win9_3.index t (0 : Fin 1) = 0 ∧ win9_4.index t (0 : Fin 1) = 0 :=
  (by decide +kernel : ∀ t : Fin grid9.N, _)

/-- Every one of the 40 row blocks is some point's. -/
theorem idx_onto9 : ∀ q0 : Fin 40, ∃ t : Fin cfg9.N, win9_5.index t = ![q0.val, 0] :=
  (by decide +kernel : ∀ q0 : Fin 40, ∃ t : Fin grid9.N, win9_5.index t = ![q0.val, 0])

/-- The rows' block at point `t`, read at `y`, is the array at the row `5000 * (block index) + y 0`, same feature. -/
theorem iblk9_0_apply (c : Dev nD) (t : Fin cfg9.N) (y : S5000x64.Idx) (i : S200000x64.Idx)
    (h0 : (i 0).val = win9_5.index t (0 : Fin 2) * 5000 + (y 0).val) (h1 : (i 1).val = (y 1).val) :
    (iblk9 V c 0 t : Vec Ideal S5000x64 .f32) y = (V c (Pipeline.arrRef spec9 0) : S200000x64.Idx → EReal) i := by
  obtain ⟨e0, e1, -⟩ := idx_facts9 t
  unfold iblk9
  show V c (Pipeline.arrRef spec9 0) (((cfg9.win 0).blk t).view.emb y) = V c (Pipeline.arrRef spec9 0) i
  refine congrArg (V c (Pipeline.arrRef spec9 0)) (funext fun a => Fin.ext ?_)
  match a with
  | ⟨0, _⟩ => show win9_0.index t (0 : Fin 2) * 5000 + 1 * (y 0).val = (i 0).val; rw [h0, e0]; omega
  | ⟨1, _⟩ => show win9_0.index t (1 : Fin 2) * 64 + 1 * (y 1).val = (i 1).val; rw [h1, e1]; omega

/-- A per-feature window's block is its whole array, at every point. -/
theorem iblk9_1_apply (c : Dev nD) (t : Fin cfg9.N) (k : S64.Idx) :
    (iblk9 V c 1 t : Vec Ideal S64 .f32) k = (V c (Pipeline.arrRef spec9 1) : S64.Idx → EReal) k := by
  obtain ⟨-, -, -, e, -⟩ := idx_facts9 t
  unfold iblk9
  show V c (Pipeline.arrRef spec9 1) (((cfg9.win 1).blk t).view.emb k) = V c (Pipeline.arrRef spec9 1) k
  refine congrArg (V c (Pipeline.arrRef spec9 1)) (funext fun a => Fin.ext ?_)
  match a with
  | ⟨0, _⟩ => show win9_1.index t (0 : Fin 1) * 64 + 1 * (k 0).val = (k 0).val; rw [e]; omega
theorem iblk9_2_apply (c : Dev nD) (t : Fin cfg9.N) (k : S64.Idx) :
    (iblk9 V c 2 t : Vec Ideal S64 .f32) k = (V c (Pipeline.arrRef spec9 2) : S64.Idx → EReal) k := by
  obtain ⟨-, -, -, -, e, -⟩ := idx_facts9 t
  unfold iblk9
  show V c (Pipeline.arrRef spec9 2) (((cfg9.win 2).blk t).view.emb k) = V c (Pipeline.arrRef spec9 2) k
  refine congrArg (V c (Pipeline.arrRef spec9 2)) (funext fun a => Fin.ext ?_)
  match a with
  | ⟨0, _⟩ => show win9_2.index t (0 : Fin 1) * 64 + 1 * (k 0).val = (k 0).val; rw [e]; omega
theorem iblk9_3_apply (c : Dev nD) (t : Fin cfg9.N) (k : S64.Idx) :
    (iblk9 V c 3 t : Vec Ideal S64 .f32) k = (V c (Pipeline.arrRef spec9 3) : S64.Idx → EReal) k := by
  obtain ⟨-, -, -, -, -, e, -⟩ := idx_facts9 t
  unfold iblk9
  show V c (Pipeline.arrRef spec9 3) (((cfg9.win 3).blk t).view.emb k) = V c (Pipeline.arrRef spec9 3) k
  refine congrArg (V c (Pipeline.arrRef spec9 3)) (funext fun a => Fin.ext ?_)
  match a with
  | ⟨0, _⟩ => show win9_3.index t (0 : Fin 1) * 64 + 1 * (k 0).val = (k 0).val; rw [e]; omega
theorem iblk9_4_apply (c : Dev nD) (t : Fin cfg9.N) (k : S64.Idx) :
    (iblk9 V c 4 t : Vec Ideal S64 .f32) k = (V c (Pipeline.arrRef spec9 4) : S64.Idx → EReal) k := by
  obtain ⟨-, -, -, -, -, -, e⟩ := idx_facts9 t
  unfold iblk9
  show V c (Pipeline.arrRef spec9 4) (((cfg9.win 4).blk t).view.emb k) = V c (Pipeline.arrRef spec9 4) k
  refine congrArg (V c (Pipeline.arrRef spec9 4)) (funext fun a => Fin.ext ?_)
  match a with
  | ⟨0, _⟩ => show win9_4.index t (0 : Fin 1) * 64 + 1 * (k 0).val = (k 0).val; rw [e]; omega

/-! ## What a point writes back, the cover, the array -/

set_option maxHeartbeats 1000000 in
/-- WHAT POINT `t` WRITES BACK is block `t` of the reference's function of the five arrays as the region finds them. -/
theorem flushed9_eq (c : Dev nD) (hvar : ∀ j, (0 : EReal) ≤ (V c (Pipeline.arrRef spec9 4) : S64.Idx → EReal) j) (t : Fin cfg9.N) :
    (dat9 (F := Ideal) V c).flushed 5 t = ((cfg9.win 5).blk t).view.read (Elt Ideal)
      (refBn (F := Ideal) (V c (Pipeline.arrRef spec9 0)) (V c (Pipeline.arrRef spec9 1)) (V c (Pipeline.arrRef spec9 2))
        (V c (Pipeline.arrRef spec9 3)) (V c (Pipeline.arrRef spec9 4))) := by
  obtain ⟨-, -, e5, -⟩ := idx_facts9 t
  show (cfg9.win 5).cut (grid9.coords t) ((dat9 V c).after 5 t) = _
  rw [after9_5]
  unfold out9_5
  rw [View.canon_unit_zero hz9_2]
  simp only [View.ld_unit_zero (S := S5000x64) hz9_2, View.ld_unit_zero (S := S64) hz9_1]
  funext j
  show k9_pay1 (F := Ideal) (iblk9 V c 0 t) (iblk9 V c 3 t) (iblk9 V c 4 t) (iblk9 V c 1 t) (iblk9 V c 2 t)
      ((cfg9.win 5).xinj (grid9.coords t) j)
    = refBn (F := Ideal) (V c (Pipeline.arrRef spec9 0)) (V c (Pipeline.arrRef spec9 1)) (V c (Pipeline.arrRef spec9 2))
        (V c (Pipeline.arrRef spec9 3)) (V c (Pipeline.arrRef spec9 4)) (((cfg9.win 5).blk t).view.emb j)
  refine point9 _ _ _ _ _ hvar _ _ _ _ _ _ _ ?_ ?_ (iblk9_1_apply V c t) (iblk9_2_apply V c t) (iblk9_3_apply V c t)
    (iblk9_4_apply V c t)
  · show win9_5.index t (1 : Fin 2) * 64 + 1 * (j 1).val = (j 1).val
    rw [e5]; omega
  · refine iblk9_0_apply V c t _ _ ?_ ?_
    · show win9_5.index t (0 : Fin 2) * 5000 + 1 * (j 0).val = win9_5.index t (0 : Fin 2) * 5000 + (j 0).val
      omega
    · show win9_5.index t (1 : Fin 2) * 64 + 1 * (j 1).val = (j 1).val
      rw [e5]; omega

/-- An index of the output array is in point `t`'s block iff each coordinate is in the block's range on its axis. -/
theorem mem_blk9 (t : Fin cfg9.N) (i : S200000x64.Idx) :
    i ∈ ((cfg9.win 5).blk t).view.set ↔ ∀ a : Fin 2, win9_5.index t a * S5000x64.size a ≤ (i a).val
      ∧ (i a).val < win9_5.index t a * S5000x64.size a + S5000x64.size a := by
  show i ∈ ((View.whole (Pipeline.arrRef spec9 5)).slice (win9_5.rect t)).set ↔ _
  rw [View.set_slice_whole, Rect.mem_set_unit]
  exact Iff.rfl

/-- Every index of the output array is in some point's block: row `r` lies in block `r / 5000`. -/
theorem cover9 (i : S200000x64.Idx) :
    ∃ t : Fin cfg9.N, (cfg9.win 5).flush t = true ∧ i ∈ ((cfg9.win 5).blk t).view.set := by
  have hi0 : (i 0).val < 200000 := (i 0).isLt
  have hi1 : (i 1).val < 64 := (i 1).isLt
  obtain ⟨t, ht⟩ := idx_onto9 ⟨(i 0).val / 5000, by omega⟩
  have q0 : win9_5.index t (0 : Fin 2) = (i 0).val / 5000 := congrFun ht 0
  have q1 : win9_5.index t (1 : Fin 2) = 0 := congrFun ht 1
  refine ⟨t, flush9_5 t, ?_⟩
  rw [mem_blk9]
  intro a
  match a with
  | ⟨0, _⟩ => show win9_5.index t (0 : Fin 2) * 5000 ≤ (i 0).val ∧ (i 0).val < win9_5.index t (0 : Fin 2) * 5000 + 5000; omega
  | ⟨1, _⟩ => show win9_5.index t (1 : Fin 2) * 64 ≤ (i 1).val ∧ (i 1).val < win9_5.index t (1 : Fin 2) * 64 + 64; omega

/-- THE ARRAY after region 9: the reference's function of the five arrays as the region found them (windows: 0 the
    rows, 1 gamma, 2 beta, 3 the mean, 4 the variance), for any contents at region entry with a nowhere negative variance. -/
theorem val9 (V : (c : Dev nD) → (b : Ref sig .tc) → Buf (Elt Ideal) ((c : Thread nD τ).loc b)) (c : Dev nD)
    (hvar : ∀ j, (0 : EReal) ≤ (V c (Pipeline.arrRef spec9 4) : S64.Idx → EReal) j) :
    (dat9 (F := Ideal) V c).arrAt 5 cfg9.N
      = refBn (F := Ideal) (V c (Pipeline.arrRef spec9 0)) (V c (Pipeline.arrRef spec9 1)) (V c (Pipeline.arrRef spec9 2))
        (V c (Pipeline.arrRef spec9 3)) (V c (Pipeline.arrRef spec9 4)) :=
  (dat9 (F := Ideal) V c).arrAt_eq_of_cover 5 _ (fun t _ => flushed9_eq V c hvar t) (cover9)

end Cert.Val

end
-- ==== Proof.Bridge.BL1b.lean ====
/- Layer 1's batch statistics and batch-norm at the boundaries: each mean, variance, scale and shift of the reference is the
   kernel program's, because the feature arrays they are taken of agree and the two argument arrays they are sliced from do;
   and each batch-norm region's output array is the reference's normalisation of those five arrays, its variance input being
   nowhere negative. -/
import proofs.«151172_j14164802142730_2_alg».proof.Proof.Bridge.Base
import proofs.«151172_j14164802142730_2_alg».proof.Proof.Bridge.BL1bS
import proofs.«151172_j14164802142730_2_alg».proof.Proof.Val.Bn8
import proofs.«151172_j14164802142730_2_alg».proof.Proof.Val.Bn9
import proofs.«151172_j14164802142730_2_alg».proof.Proof.KI.VarK
import proofs.«151172_j14164802142730_2_alg».proof.Proof.Gen.ReferenceIdeal
import proofs.«151172_j14164802142730_2_alg».proof.Proof.Gen.KernelIdeal

set_option maxRecDepth 16384

noncomputable section

namespace Cert.Bridge

open Idealize.ShloMosaic Idealize.ShloMosaic.TcCoe Idealize.SL.Sem Idealize.ShloMosaic.StableHlo
open Cert.KernelIdeal.Frame Cert.ReferenceIdeal.Hand

variable {m : (ℓ : Loc Cert.KernelIdeal.nD Cert.KernelIdeal.τ Cert.KernelIdeal.sig) → Buf (Elt Ideal) ℓ} (ρ : Dev Cert.KernelIdeal.nD → PrngReg)
  {m' : (ℓ : Loc Cert.ReferenceIdeal.nD Cert.ReferenceIdeal.τ Cert.ReferenceIdeal.sig) → Buf (Elt Ideal) ℓ}

/-! ## The two argument arrays at the boundaries where they are sliced -/

/-- No item before boundary 25 changes this argument array in the kernel program. -/
theorem k_arg9_25 (c : Dev Cert.KernelIdeal.nD) : W25 m ρ c (Proc.devRef .tc Cert.KernelIdeal.main_arg9) = W0 m ρ c (Proc.devRef .tc Cert.KernelIdeal.main_arg9) :=
  calc W25 m ρ c (Proc.devRef .tc Cert.KernelIdeal.main_arg9)
    _ = W24 m ρ c (Proc.devRef .tc Cert.KernelIdeal.main_arg9) := W25_keep m ρ c Cert.KernelIdeal.main_arg9 (by decide)
    _ = W23 m ρ c (Proc.devRef .tc Cert.KernelIdeal.main_arg9) := W24_keep m ρ c Cert.KernelIdeal.main_arg9 (by decide)
    _ = W22 m ρ c (Proc.devRef .tc Cert.KernelIdeal.main_arg9) := W23_keep m ρ c Cert.KernelIdeal.main_arg9 (by decide)
    _ = W21 m ρ c (Proc.devRef .tc Cert.KernelIdeal.main_arg9) := W22_keep m ρ c Cert.KernelIdeal.main_arg9 (by decide)
    _ = W20 m ρ c (Proc.devRef .tc Cert.KernelIdeal.main_arg9) := W21_keep m ρ c Cert.KernelIdeal.main_arg9 (by decide)
    _ = W19 m ρ c (Proc.devRef .tc Cert.KernelIdeal.main_arg9) := W20_keep m ρ c Cert.KernelIdeal.main_arg9 (by decide)
    _ = W18 m ρ c (Proc.devRef .tc Cert.KernelIdeal.main_arg9) := W19_keep m ρ c Cert.KernelIdeal.main_arg9 (by decide)
    _ = W17 m ρ c (Proc.devRef .tc Cert.KernelIdeal.main_arg9) := W18_keep m ρ c Cert.KernelIdeal.main_arg9 (by decide)
    _ = W16 m ρ c (Proc.devRef .tc Cert.KernelIdeal.main_arg9) := W17_keep m ρ c Cert.KernelIdeal.main_arg9 (by decide)
    _ = W15 m ρ c (Proc.devRef .tc Cert.KernelIdeal.main_arg9) := W16_keep m ρ c Cert.KernelIdeal.main_arg9 (by decide)
    _ = W14 m ρ c (Proc.devRef .tc Cert.KernelIdeal.main_arg9) := W15_keep m ρ c Cert.KernelIdeal.main_arg9 (by decide)
    _ = W13 m ρ c (Proc.devRef .tc Cert.KernelIdeal.main_arg9) := W14_keep m ρ c Cert.KernelIdeal.main_arg9 (by decide)
    _ = W12 m ρ c (Proc.devRef .tc Cert.KernelIdeal.main_arg9) := W13_keep m ρ c Cert.KernelIdeal.main_arg9 (by decide)
    _ = W11 m ρ c (Proc.devRef .tc Cert.KernelIdeal.main_arg9) := W12_keep m ρ c Cert.KernelIdeal.main_arg9 (by decide)
    _ = W10 m ρ c (Proc.devRef .tc Cert.KernelIdeal.main_arg9) := W11_keep m ρ c Cert.KernelIdeal.main_arg9 (by decide)
    _ = W9 m ρ c (Proc.devRef .tc Cert.KernelIdeal.main_arg9) := W10_keep m ρ c Cert.KernelIdeal.main_arg9 (by decide)
    _ = W8 m ρ c (Proc.devRef .tc Cert.KernelIdeal.main_arg9) := W9_keep m ρ c Cert.KernelIdeal.main_arg9 (by decide)
    _ = W7 m ρ c (Proc.devRef .tc Cert.KernelIdeal.main_arg9) := W8_keep m ρ c Cert.KernelIdeal.main_arg9 (by decide)
    _ = W6 m ρ c (Proc.devRef .tc Cert.KernelIdeal.main_arg9) := W7_keep m ρ c Cert.KernelIdeal.main_arg9 (by decide)
    _ = W5 m ρ c (Proc.devRef .tc Cert.KernelIdeal.main_arg9) := W6_keep m ρ c Cert.KernelIdeal.main_arg9 (by decide)
    _ = W4 m ρ c (Proc.devRef .tc Cert.KernelIdeal.main_arg9) := W5_keep m ρ c Cert.KernelIdeal.main_arg9 (by decide)
    _ = W3 m ρ c (Proc.devRef .tc Cert.KernelIdeal.main_arg9) := W4_keep m ρ c Cert.KernelIdeal.main_arg9 (by decide)
    _ = W2 m ρ c (Proc.devRef .tc Cert.KernelIdeal.main_arg9) := W3_keep m ρ c Cert.KernelIdeal.main_arg9 (by decide)
    _ = W1 m ρ c (Proc.devRef .tc Cert.KernelIdeal.main_arg9) := W2_keep m ρ c Cert.KernelIdeal.main_arg9 (by decide)
    _ = W0 m ρ c (Proc.devRef .tc Cert.KernelIdeal.main_arg9) := W1_keep m ρ c Cert.KernelIdeal.main_arg9 (by decide)

/-- Nor before boundary 23. -/
theorem k_arg9_23 (c : Dev Cert.KernelIdeal.nD) : W23 m ρ c (Proc.devRef .tc Cert.KernelIdeal.main_arg9) = W0 m ρ c (Proc.devRef .tc Cert.KernelIdeal.main_arg9) :=
  calc W23 m ρ c (Proc.devRef .tc Cert.KernelIdeal.main_arg9)
    _ = W22 m ρ c (Proc.devRef .tc Cert.KernelIdeal.main_arg9) := W23_keep m ρ c Cert.KernelIdeal.main_arg9 (by decide)
    _ = W21 m ρ c (Proc.devRef .tc Cert.KernelIdeal.main_arg9) := W22_keep m ρ c Cert.KernelIdeal.main_arg9 (by decide)
    _ = W20 m ρ c (Proc.devRef .tc Cert.KernelIdeal.main_arg9) := W21_keep m ρ c Cert.KernelIdeal.main_arg9 (by decide)
    _ = W19 m ρ c (Proc.devRef .tc Cert.KernelIdeal.main_arg9) := W20_keep m ρ c Cert.KernelIdeal.main_arg9 (by decide)
    _ = W18 m ρ c (Proc.devRef .tc Cert.KernelIdeal.main_arg9) := W19_keep m ρ c Cert.KernelIdeal.main_arg9 (by decide)
    _ = W17 m ρ c (Proc.devRef .tc Cert.KernelIdeal.main_arg9) := W18_keep m ρ c Cert.KernelIdeal.main_arg9 (by decide)
    _ = W16 m ρ c (Proc.devRef .tc Cert.KernelIdeal.main_arg9) := W17_keep m ρ c Cert.KernelIdeal.main_arg9 (by decide)
    _ = W15 m ρ c (Proc.devRef .tc Cert.KernelIdeal.main_arg9) := W16_keep m ρ c Cert.KernelIdeal.main_arg9 (by decide)
    _ = W14 m ρ c (Proc.devRef .tc Cert.KernelIdeal.main_arg9) := W15_keep m ρ c Cert.KernelIdeal.main_arg9 (by decide)
    _ = W13 m ρ c (Proc.devRef .tc Cert.KernelIdeal.main_arg9) := W14_keep m ρ c Cert.KernelIdeal.main_arg9 (by decide)
    _ = W12 m ρ c (Proc.devRef .tc Cert.KernelIdeal.main_arg9) := W13_keep m ρ c Cert.KernelIdeal.main_arg9 (by decide)
    _ = W11 m ρ c (Proc.devRef .tc Cert.KernelIdeal.main_arg9) := W12_keep m ρ c Cert.KernelIdeal.main_arg9 (by decide)
    _ = W10 m ρ c (Proc.devRef .tc Cert.KernelIdeal.main_arg9) := W11_keep m ρ c Cert.KernelIdeal.main_arg9 (by decide)
    _ = W9 m ρ c (Proc.devRef .tc Cert.KernelIdeal.main_arg9) := W10_keep m ρ c Cert.KernelIdeal.main_arg9 (by decide)
    _ = W8 m ρ c (Proc.devRef .tc Cert.KernelIdeal.main_arg9) := W9_keep m ρ c Cert.KernelIdeal.main_arg9 (by decide)
    _ = W7 m ρ c (Proc.devRef .tc Cert.KernelIdeal.main_arg9) := W8_keep m ρ c Cert.KernelIdeal.main_arg9 (by decide)
    _ = W6 m ρ c (Proc.devRef .tc Cert.KernelIdeal.main_arg9) := W7_keep m ρ c Cert.KernelIdeal.main_arg9 (by decide)
    _ = W5 m ρ c (Proc.devRef .tc Cert.KernelIdeal.main_arg9) := W6_keep m ρ c Cert.KernelIdeal.main_arg9 (by decide)
    _ = W4 m ρ c (Proc.devRef .tc Cert.KernelIdeal.main_arg9) := W5_keep m ρ c Cert.KernelIdeal.main_arg9 (by decide)
    _ = W3 m ρ c (Proc.devRef .tc Cert.KernelIdeal.main_arg9) := W4_keep m ρ c Cert.KernelIdeal.main_arg9 (by decide)
    _ = W2 m ρ c (Proc.devRef .tc Cert.KernelIdeal.main_arg9) := W3_keep m ρ c Cert.KernelIdeal.main_arg9 (by decide)
    _ = W1 m ρ c (Proc.devRef .tc Cert.KernelIdeal.main_arg9) := W2_keep m ρ c Cert.KernelIdeal.main_arg9 (by decide)
    _ = W0 m ρ c (Proc.devRef .tc Cert.KernelIdeal.main_arg9) := W1_keep m ρ c Cert.KernelIdeal.main_arg9 (by decide)

/-- No stretch before boundary 22 changes it in the reference. -/
theorem r_arg9_22 (c : Dev Cert.ReferenceIdeal.nD) : Rv22 m' c (Proc.devRef .tc Cert.ReferenceIdeal.main_arg9) = Rv0 m' c (Proc.devRef .tc Cert.ReferenceIdeal.main_arg9) :=
  calc Rv22 m' c (Proc.devRef .tc Cert.ReferenceIdeal.main_arg9)
    _ = Rv21 m' c (Proc.devRef .tc Cert.ReferenceIdeal.main_arg9) := Rv22_keep m' c Cert.ReferenceIdeal.main_arg9 (by decide)
    _ = Rv20 m' c (Proc.devRef .tc Cert.ReferenceIdeal.main_arg9) := Rv21_keep m' c Cert.ReferenceIdeal.main_arg9 (by decide)
    _ = Rv19 m' c (Proc.devRef .tc Cert.ReferenceIdeal.main_arg9) := Rv20_keep m' c Cert.ReferenceIdeal.main_arg9 (by decide)
    _ = Rv18 m' c (Proc.devRef .tc Cert.ReferenceIdeal.main_arg9) := Rv19_keep m' c Cert.ReferenceIdeal.main_arg9 (by decide)
    _ = Rv17 m' c (Proc.devRef .tc Cert.ReferenceIdeal.main_arg9) := Rv18_keep m' c Cert.ReferenceIdeal.main_arg9 (by decide)
    _ = Rv16 m' c (Proc.devRef .tc Cert.ReferenceIdeal.main_arg9) := Rv17_keep m' c Cert.ReferenceIdeal.main_arg9 (by decide)
    _ = Rv15 m' c (Proc.devRef .tc Cert.ReferenceIdeal.main_arg9) := Rv16_keep m' c Cert.ReferenceIdeal.main_arg9 (by decide)
    _ = Rv14 m' c (Proc.devRef .tc Cert.ReferenceIdeal.main_arg9) := Rv15_keep m' c Cert.ReferenceIdeal.main_arg9 (by decide)
    _ = Rv13 m' c (Proc.devRef .tc Cert.ReferenceIdeal.main_arg9) := Rv14_keep m' c Cert.ReferenceIdeal.main_arg9 (by decide)
    _ = Rv12 m' c (Proc.devRef .tc Cert.ReferenceIdeal.main_arg9) := Rv13_keep m' c Cert.ReferenceIdeal.main_arg9 (by decide)
    _ = Rv11 m' c (Proc.devRef .tc Cert.ReferenceIdeal.main_arg9) := Rv12_keep m' c Cert.ReferenceIdeal.main_arg9 (by decide)
    _ = Rv10 m' c (Proc.devRef .tc Cert.ReferenceIdeal.main_arg9) := Rv11_keep m' c Cert.ReferenceIdeal.main_arg9 (by decide)
    _ = Rv9 m' c (Proc.devRef .tc Cert.ReferenceIdeal.main_arg9) := Rv10_keep m' c Cert.ReferenceIdeal.main_arg9 (by decide)
    _ = Rv8 m' c (Proc.devRef .tc Cert.ReferenceIdeal.main_arg9) := Rv9_keep m' c Cert.ReferenceIdeal.main_arg9 (by decide)
    _ = Rv7 m' c (Proc.devRef .tc Cert.ReferenceIdeal.main_arg9) := Rv8_keep m' c Cert.ReferenceIdeal.main_arg9 (by decide)
    _ = Rv6 m' c (Proc.devRef .tc Cert.ReferenceIdeal.main_arg9) := Rv7_keep m' c Cert.ReferenceIdeal.main_arg9 (by decide)
    _ = Rv5 m' c (Proc.devRef .tc Cert.ReferenceIdeal.main_arg9) := Rv6_keep m' c Cert.ReferenceIdeal.main_arg9 (by decide)
    _ = Rv4 m' c (Proc.devRef .tc Cert.ReferenceIdeal.main_arg9) := Rv5_keep m' c Cert.ReferenceIdeal.main_arg9 (by decide)
    _ = Rv3 m' c (Proc.devRef .tc Cert.ReferenceIdeal.main_arg9) := Rv4_keep m' c Cert.ReferenceIdeal.main_arg9 (by decide)
    _ = Rv2 m' c (Proc.devRef .tc Cert.ReferenceIdeal.main_arg9) := Rv3_keep m' c Cert.ReferenceIdeal.main_arg9 (by decide)
    _ = Rv1 m' c (Proc.devRef .tc Cert.ReferenceIdeal.main_arg9) := Rv2_keep m' c Cert.ReferenceIdeal.main_arg9 (by decide)
    _ = Rv0 m' c (Proc.devRef .tc Cert.ReferenceIdeal.main_arg9) := Rv1_keep m' c Cert.ReferenceIdeal.main_arg9 (by decide)

/-- Nor before boundary 20. -/
theorem r_arg9_20 (c : Dev Cert.ReferenceIdeal.nD) : Rv20 m' c (Proc.devRef .tc Cert.ReferenceIdeal.main_arg9) = Rv0 m' c (Proc.devRef .tc Cert.ReferenceIdeal.main_arg9) :=
  calc Rv20 m' c (Proc.devRef .tc Cert.ReferenceIdeal.main_arg9)
    _ = Rv19 m' c (Proc.devRef .tc Cert.ReferenceIdeal.main_arg9) := Rv20_keep m' c Cert.ReferenceIdeal.main_arg9 (by decide)
    _ = Rv18 m' c (Proc.devRef .tc Cert.ReferenceIdeal.main_arg9) := Rv19_keep m' c Cert.ReferenceIdeal.main_arg9 (by decide)
    _ = Rv17 m' c (Proc.devRef .tc Cert.ReferenceIdeal.main_arg9) := Rv18_keep m' c Cert.ReferenceIdeal.main_arg9 (by decide)
    _ = Rv16 m' c (Proc.devRef .tc Cert.ReferenceIdeal.main_arg9) := Rv17_keep m' c Cert.ReferenceIdeal.main_arg9 (by decide)
    _ = Rv15 m' c (Proc.devRef .tc Cert.ReferenceIdeal.main_arg9) := Rv16_keep m' c Cert.ReferenceIdeal.main_arg9 (by decide)
    _ = Rv14 m' c (Proc.devRef .tc Cert.ReferenceIdeal.main_arg9) := Rv15_keep m' c Cert.ReferenceIdeal.main_arg9 (by decide)
    _ = Rv13 m' c (Proc.devRef .tc Cert.ReferenceIdeal.main_arg9) := Rv14_keep m' c Cert.ReferenceIdeal.main_arg9 (by decide)
    _ = Rv12 m' c (Proc.devRef .tc Cert.ReferenceIdeal.main_arg9) := Rv13_keep m' c Cert.ReferenceIdeal.main_arg9 (by decide)
    _ = Rv11 m' c (Proc.devRef .tc Cert.ReferenceIdeal.main_arg9) := Rv12_keep m' c Cert.ReferenceIdeal.main_arg9 (by decide)
    _ = Rv10 m' c (Proc.devRef .tc Cert.ReferenceIdeal.main_arg9) := Rv11_keep m' c Cert.ReferenceIdeal.main_arg9 (by decide)
    _ = Rv9 m' c (Proc.devRef .tc Cert.ReferenceIdeal.main_arg9) := Rv10_keep m' c Cert.ReferenceIdeal.main_arg9 (by decide)
    _ = Rv8 m' c (Proc.devRef .tc Cert.ReferenceIdeal.main_arg9) := Rv9_keep m' c Cert.ReferenceIdeal.main_arg9 (by decide)
    _ = Rv7 m' c (Proc.devRef .tc Cert.ReferenceIdeal.main_arg9) := Rv8_keep m' c Cert.ReferenceIdeal.main_arg9 (by decide)
    _ = Rv6 m' c (Proc.devRef .tc Cert.ReferenceIdeal.main_arg9) := Rv7_keep m' c Cert.ReferenceIdeal.main_arg9 (by decide)
    _ = Rv5 m' c (Proc.devRef .tc Cert.ReferenceIdeal.main_arg9) := Rv6_keep m' c Cert.ReferenceIdeal.main_arg9 (by decide)
    _ = Rv4 m' c (Proc.devRef .tc Cert.ReferenceIdeal.main_arg9) := Rv5_keep m' c Cert.ReferenceIdeal.main_arg9 (by decide)
    _ = Rv3 m' c (Proc.devRef .tc Cert.ReferenceIdeal.main_arg9) := Rv4_keep m' c Cert.ReferenceIdeal.main_arg9 (by decide)
    _ = Rv2 m' c (Proc.devRef .tc Cert.ReferenceIdeal.main_arg9) := Rv3_keep m' c Cert.ReferenceIdeal.main_arg9 (by decide)
    _ = Rv1 m' c (Proc.devRef .tc Cert.ReferenceIdeal.main_arg9) := Rv2_keep m' c Cert.ReferenceIdeal.main_arg9 (by decide)
    _ = Rv0 m' c (Proc.devRef .tc Cert.ReferenceIdeal.main_arg9) := Rv1_keep m' c Cert.ReferenceIdeal.main_arg9 (by decide)

/-- No item before boundary 25 changes this argument array in the kernel program. -/
theorem k_arg10_25 (c : Dev Cert.KernelIdeal.nD) : W25 m ρ c (Proc.devRef .tc Cert.KernelIdeal.main_arg10) = W0 m ρ c (Proc.devRef .tc Cert.KernelIdeal.main_arg10) :=
  calc W25 m ρ c (Proc.devRef .tc Cert.KernelIdeal.main_arg10)
    _ = W24 m ρ c (Proc.devRef .tc Cert.KernelIdeal.main_arg10) := W25_keep m ρ c Cert.KernelIdeal.main_arg10 (by decide)
    _ = W23 m ρ c (Proc.devRef .tc Cert.KernelIdeal.main_arg10) := W24_keep m ρ c Cert.KernelIdeal.main_arg10 (by decide)
    _ = W22 m ρ c (Proc.devRef .tc Cert.KernelIdeal.main_arg10) := W23_keep m ρ c Cert.KernelIdeal.main_arg10 (by decide)
    _ = W21 m ρ c (Proc.devRef .tc Cert.KernelIdeal.main_arg10) := W22_keep m ρ c Cert.KernelIdeal.main_arg10 (by decide)
    _ = W20 m ρ c (Proc.devRef .tc Cert.KernelIdeal.main_arg10) := W21_keep m ρ c Cert.KernelIdeal.main_arg10 (by decide)
    _ = W19 m ρ c (Proc.devRef .tc Cert.KernelIdeal.main_arg10) := W20_keep m ρ c Cert.KernelIdeal.main_arg10 (by decide)
    _ = W18 m ρ c (Proc.devRef .tc Cert.KernelIdeal.main_arg10) := W19_keep m ρ c Cert.KernelIdeal.main_arg10 (by decide)
    _ = W17 m ρ c (Proc.devRef .tc Cert.KernelIdeal.main_arg10) := W18_keep m ρ c Cert.KernelIdeal.main_arg10 (by decide)
    _ = W16 m ρ c (Proc.devRef .tc Cert.KernelIdeal.main_arg10) := W17_keep m ρ c Cert.KernelIdeal.main_arg10 (by decide)
    _ = W15 m ρ c (Proc.devRef .tc Cert.KernelIdeal.main_arg10) := W16_keep m ρ c Cert.KernelIdeal.main_arg10 (by decide)
    _ = W14 m ρ c (Proc.devRef .tc Cert.KernelIdeal.main_arg10) := W15_keep m ρ c Cert.KernelIdeal.main_arg10 (by decide)
    _ = W13 m ρ c (Proc.devRef .tc Cert.KernelIdeal.main_arg10) := W14_keep m ρ c Cert.KernelIdeal.main_arg10 (by decide)
    _ = W12 m ρ c (Proc.devRef .tc Cert.KernelIdeal.main_arg10) := W13_keep m ρ c Cert.KernelIdeal.main_arg10 (by decide)
    _ = W11 m ρ c (Proc.devRef .tc Cert.KernelIdeal.main_arg10) := W12_keep m ρ c Cert.KernelIdeal.main_arg10 (by decide)
    _ = W10 m ρ c (Proc.devRef .tc Cert.KernelIdeal.main_arg10) := W11_keep m ρ c Cert.KernelIdeal.main_arg10 (by decide)
    _ = W9 m ρ c (Proc.devRef .tc Cert.KernelIdeal.main_arg10) := W10_keep m ρ c Cert.KernelIdeal.main_arg10 (by decide)
    _ = W8 m ρ c (Proc.devRef .tc Cert.KernelIdeal.main_arg10) := W9_keep m ρ c Cert.KernelIdeal.main_arg10 (by decide)
    _ = W7 m ρ c (Proc.devRef .tc Cert.KernelIdeal.main_arg10) := W8_keep m ρ c Cert.KernelIdeal.main_arg10 (by decide)
    _ = W6 m ρ c (Proc.devRef .tc Cert.KernelIdeal.main_arg10) := W7_keep m ρ c Cert.KernelIdeal.main_arg10 (by decide)
    _ = W5 m ρ c (Proc.devRef .tc Cert.KernelIdeal.main_arg10) := W6_keep m ρ c Cert.KernelIdeal.main_arg10 (by decide)
    _ = W4 m ρ c (Proc.devRef .tc Cert.KernelIdeal.main_arg10) := W5_keep m ρ c Cert.KernelIdeal.main_arg10 (by decide)
    _ = W3 m ρ c (Proc.devRef .tc Cert.KernelIdeal.main_arg10) := W4_keep m ρ c Cert.KernelIdeal.main_arg10 (by decide)
    _ = W2 m ρ c (Proc.devRef .tc Cert.KernelIdeal.main_arg10) := W3_keep m ρ c Cert.KernelIdeal.main_arg10 (by decide)
    _ = W1 m ρ c (Proc.devRef .tc Cert.KernelIdeal.main_arg10) := W2_keep m ρ c Cert.KernelIdeal.main_arg10 (by decide)
    _ = W0 m ρ c (Proc.devRef .tc Cert.KernelIdeal.main_arg10) := W1_keep m ρ c Cert.KernelIdeal.main_arg10 (by decide)

/-- Nor before boundary 23. -/
theorem k_arg10_23 (c : Dev Cert.KernelIdeal.nD) : W23 m ρ c (Proc.devRef .tc Cert.KernelIdeal.main_arg10) = W0 m ρ c (Proc.devRef .tc Cert.KernelIdeal.main_arg10) :=
  calc W23 m ρ c (Proc.devRef .tc Cert.KernelIdeal.main_arg10)
    _ = W22 m ρ c (Proc.devRef .tc Cert.KernelIdeal.main_arg10) := W23_keep m ρ c Cert.KernelIdeal.main_arg10 (by decide)
    _ = W21 m ρ c (Proc.devRef .tc Cert.KernelIdeal.main_arg10) := W22_keep m ρ c Cert.KernelIdeal.main_arg10 (by decide)
    _ = W20 m ρ c (Proc.devRef .tc Cert.KernelIdeal.main_arg10) := W21_keep m ρ c Cert.KernelIdeal.main_arg10 (by decide)
    _ = W19 m ρ c (Proc.devRef .tc Cert.KernelIdeal.main_arg10) := W20_keep m ρ c Cert.KernelIdeal.main_arg10 (by decide)
    _ = W18 m ρ c (Proc.devRef .tc Cert.KernelIdeal.main_arg10) := W19_keep m ρ c Cert.KernelIdeal.main_arg10 (by decide)
    _ = W17 m ρ c (Proc.devRef .tc Cert.KernelIdeal.main_arg10) := W18_keep m ρ c Cert.KernelIdeal.main_arg10 (by decide)
    _ = W16 m ρ c (Proc.devRef .tc Cert.KernelIdeal.main_arg10) := W17_keep m ρ c Cert.KernelIdeal.main_arg10 (by decide)
    _ = W15 m ρ c (Proc.devRef .tc Cert.KernelIdeal.main_arg10) := W16_keep m ρ c Cert.KernelIdeal.main_arg10 (by decide)
    _ = W14 m ρ c (Proc.devRef .tc Cert.KernelIdeal.main_arg10) := W15_keep m ρ c Cert.KernelIdeal.main_arg10 (by decide)
    _ = W13 m ρ c (Proc.devRef .tc Cert.KernelIdeal.main_arg10) := W14_keep m ρ c Cert.KernelIdeal.main_arg10 (by decide)
    _ = W12 m ρ c (Proc.devRef .tc Cert.KernelIdeal.main_arg10) := W13_keep m ρ c Cert.KernelIdeal.main_arg10 (by decide)
    _ = W11 m ρ c (Proc.devRef .tc Cert.KernelIdeal.main_arg10) := W12_keep m ρ c Cert.KernelIdeal.main_arg10 (by decide)
    _ = W10 m ρ c (Proc.devRef .tc Cert.KernelIdeal.main_arg10) := W11_keep m ρ c Cert.KernelIdeal.main_arg10 (by decide)
    _ = W9 m ρ c (Proc.devRef .tc Cert.KernelIdeal.main_arg10) := W10_keep m ρ c Cert.KernelIdeal.main_arg10 (by decide)
    _ = W8 m ρ c (Proc.devRef .tc Cert.KernelIdeal.main_arg10) := W9_keep m ρ c Cert.KernelIdeal.main_arg10 (by decide)
    _ = W7 m ρ c (Proc.devRef .tc Cert.KernelIdeal.main_arg10) := W8_keep m ρ c Cert.KernelIdeal.main_arg10 (by decide)
    _ = W6 m ρ c (Proc.devRef .tc Cert.KernelIdeal.main_arg10) := W7_keep m ρ c Cert.KernelIdeal.main_arg10 (by decide)
    _ = W5 m ρ c (Proc.devRef .tc Cert.KernelIdeal.main_arg10) := W6_keep m ρ c Cert.KernelIdeal.main_arg10 (by decide)
    _ = W4 m ρ c (Proc.devRef .tc Cert.KernelIdeal.main_arg10) := W5_keep m ρ c Cert.KernelIdeal.main_arg10 (by decide)
    _ = W3 m ρ c (Proc.devRef .tc Cert.KernelIdeal.main_arg10) := W4_keep m ρ c Cert.KernelIdeal.main_arg10 (by decide)
    _ = W2 m ρ c (Proc.devRef .tc Cert.KernelIdeal.main_arg10) := W3_keep m ρ c Cert.KernelIdeal.main_arg10 (by decide)
    _ = W1 m ρ c (Proc.devRef .tc Cert.KernelIdeal.main_arg10) := W2_keep m ρ c Cert.KernelIdeal.main_arg10 (by decide)
    _ = W0 m ρ c (Proc.devRef .tc Cert.KernelIdeal.main_arg10) := W1_keep m ρ c Cert.KernelIdeal.main_arg10 (by decide)

/-- No stretch before boundary 22 changes it in the reference. -/
theorem r_arg10_22 (c : Dev Cert.ReferenceIdeal.nD) : Rv22 m' c (Proc.devRef .tc Cert.ReferenceIdeal.main_arg10) = Rv0 m' c (Proc.devRef .tc Cert.ReferenceIdeal.main_arg10) :=
  calc Rv22 m' c (Proc.devRef .tc Cert.ReferenceIdeal.main_arg10)
    _ = Rv21 m' c (Proc.devRef .tc Cert.ReferenceIdeal.main_arg10) := Rv22_keep m' c Cert.ReferenceIdeal.main_arg10 (by decide)
    _ = Rv20 m' c (Proc.devRef .tc Cert.ReferenceIdeal.main_arg10) := Rv21_keep m' c Cert.ReferenceIdeal.main_arg10 (by decide)
    _ = Rv19 m' c (Proc.devRef .tc Cert.ReferenceIdeal.main_arg10) := Rv20_keep m' c Cert.ReferenceIdeal.main_arg10 (by decide)
    _ = Rv18 m' c (Proc.devRef .tc Cert.ReferenceIdeal.main_arg10) := Rv19_keep m' c Cert.ReferenceIdeal.main_arg10 (by decide)
    _ = Rv17 m' c (Proc.devRef .tc Cert.ReferenceIdeal.main_arg10) := Rv18_keep m' c Cert.ReferenceIdeal.main_arg10 (by decide)
    _ = Rv16 m' c (Proc.devRef .tc Cert.ReferenceIdeal.main_arg10) := Rv17_keep m' c Cert.ReferenceIdeal.main_arg10 (by decide)
    _ = Rv15 m' c (Proc.devRef .tc Cert.ReferenceIdeal.main_arg10) := Rv16_keep m' c Cert.ReferenceIdeal.main_arg10 (by decide)
    _ = Rv14 m' c (Proc.devRef .tc Cert.ReferenceIdeal.main_arg10) := Rv15_keep m' c Cert.ReferenceIdeal.main_arg10 (by decide)
    _ = Rv13 m' c (Proc.devRef .tc Cert.ReferenceIdeal.main_arg10) := Rv14_keep m' c Cert.ReferenceIdeal.main_arg10 (by decide)
    _ = Rv12 m' c (Proc.devRef .tc Cert.ReferenceIdeal.main_arg10) := Rv13_keep m' c Cert.ReferenceIdeal.main_arg10 (by decide)
    _ = Rv11 m' c (Proc.devRef .tc Cert.ReferenceIdeal.main_arg10) := Rv12_keep m' c Cert.ReferenceIdeal.main_arg10 (by decide)
    _ = Rv10 m' c (Proc.devRef .tc Cert.ReferenceIdeal.main_arg10) := Rv11_keep m' c Cert.ReferenceIdeal.main_arg10 (by decide)
    _ = Rv9 m' c (Proc.devRef .tc Cert.ReferenceIdeal.main_arg10) := Rv10_keep m' c Cert.ReferenceIdeal.main_arg10 (by decide)
    _ = Rv8 m' c (Proc.devRef .tc Cert.ReferenceIdeal.main_arg10) := Rv9_keep m' c Cert.ReferenceIdeal.main_arg10 (by decide)
    _ = Rv7 m' c (Proc.devRef .tc Cert.ReferenceIdeal.main_arg10) := Rv8_keep m' c Cert.ReferenceIdeal.main_arg10 (by decide)
    _ = Rv6 m' c (Proc.devRef .tc Cert.ReferenceIdeal.main_arg10) := Rv7_keep m' c Cert.ReferenceIdeal.main_arg10 (by decide)
    _ = Rv5 m' c (Proc.devRef .tc Cert.ReferenceIdeal.main_arg10) := Rv6_keep m' c Cert.ReferenceIdeal.main_arg10 (by decide)
    _ = Rv4 m' c (Proc.devRef .tc Cert.ReferenceIdeal.main_arg10) := Rv5_keep m' c Cert.ReferenceIdeal.main_arg10 (by decide)
    _ = Rv3 m' c (Proc.devRef .tc Cert.ReferenceIdeal.main_arg10) := Rv4_keep m' c Cert.ReferenceIdeal.main_arg10 (by decide)
    _ = Rv2 m' c (Proc.devRef .tc Cert.ReferenceIdeal.main_arg10) := Rv3_keep m' c Cert.ReferenceIdeal.main_arg10 (by decide)
    _ = Rv1 m' c (Proc.devRef .tc Cert.ReferenceIdeal.main_arg10) := Rv2_keep m' c Cert.ReferenceIdeal.main_arg10 (by decide)
    _ = Rv0 m' c (Proc.devRef .tc Cert.ReferenceIdeal.main_arg10) := Rv1_keep m' c Cert.ReferenceIdeal.main_arg10 (by decide)

/-- Nor before boundary 20. -/
theorem r_arg10_20 (c : Dev Cert.ReferenceIdeal.nD) : Rv20 m' c (Proc.devRef .tc Cert.ReferenceIdeal.main_arg10) = Rv0 m' c (Proc.devRef .tc Cert.ReferenceIdeal.main_arg10) :=
  calc Rv20 m' c (Proc.devRef .tc Cert.ReferenceIdeal.main_arg10)
    _ = Rv19 m' c (Proc.devRef .tc Cert.ReferenceIdeal.main_arg10) := Rv20_keep m' c Cert.ReferenceIdeal.main_arg10 (by decide)
    _ = Rv18 m' c (Proc.devRef .tc Cert.ReferenceIdeal.main_arg10) := Rv19_keep m' c Cert.ReferenceIdeal.main_arg10 (by decide)
    _ = Rv17 m' c (Proc.devRef .tc Cert.ReferenceIdeal.main_arg10) := Rv18_keep m' c Cert.ReferenceIdeal.main_arg10 (by decide)
    _ = Rv16 m' c (Proc.devRef .tc Cert.ReferenceIdeal.main_arg10) := Rv17_keep m' c Cert.ReferenceIdeal.main_arg10 (by decide)
    _ = Rv15 m' c (Proc.devRef .tc Cert.ReferenceIdeal.main_arg10) := Rv16_keep m' c Cert.ReferenceIdeal.main_arg10 (by decide)
    _ = Rv14 m' c (Proc.devRef .tc Cert.ReferenceIdeal.main_arg10) := Rv15_keep m' c Cert.ReferenceIdeal.main_arg10 (by decide)
    _ = Rv13 m' c (Proc.devRef .tc Cert.ReferenceIdeal.main_arg10) := Rv14_keep m' c Cert.ReferenceIdeal.main_arg10 (by decide)
    _ = Rv12 m' c (Proc.devRef .tc Cert.ReferenceIdeal.main_arg10) := Rv13_keep m' c Cert.ReferenceIdeal.main_arg10 (by decide)
    _ = Rv11 m' c (Proc.devRef .tc Cert.ReferenceIdeal.main_arg10) := Rv12_keep m' c Cert.ReferenceIdeal.main_arg10 (by decide)
    _ = Rv10 m' c (Proc.devRef .tc Cert.ReferenceIdeal.main_arg10) := Rv11_keep m' c Cert.ReferenceIdeal.main_arg10 (by decide)
    _ = Rv9 m' c (Proc.devRef .tc Cert.ReferenceIdeal.main_arg10) := Rv10_keep m' c Cert.ReferenceIdeal.main_arg10 (by decide)
    _ = Rv8 m' c (Proc.devRef .tc Cert.ReferenceIdeal.main_arg10) := Rv9_keep m' c Cert.ReferenceIdeal.main_arg10 (by decide)
    _ = Rv7 m' c (Proc.devRef .tc Cert.ReferenceIdeal.main_arg10) := Rv8_keep m' c Cert.ReferenceIdeal.main_arg10 (by decide)
    _ = Rv6 m' c (Proc.devRef .tc Cert.ReferenceIdeal.main_arg10) := Rv7_keep m' c Cert.ReferenceIdeal.main_arg10 (by decide)
    _ = Rv5 m' c (Proc.devRef .tc Cert.ReferenceIdeal.main_arg10) := Rv6_keep m' c Cert.ReferenceIdeal.main_arg10 (by decide)
    _ = Rv4 m' c (Proc.devRef .tc Cert.ReferenceIdeal.main_arg10) := Rv5_keep m' c Cert.ReferenceIdeal.main_arg10 (by decide)
    _ = Rv3 m' c (Proc.devRef .tc Cert.ReferenceIdeal.main_arg10) := Rv4_keep m' c Cert.ReferenceIdeal.main_arg10 (by decide)
    _ = Rv2 m' c (Proc.devRef .tc Cert.ReferenceIdeal.main_arg10) := Rv3_keep m' c Cert.ReferenceIdeal.main_arg10 (by decide)
    _ = Rv1 m' c (Proc.devRef .tc Cert.ReferenceIdeal.main_arg10) := Rv2_keep m' c Cert.ReferenceIdeal.main_arg10 (by decide)
    _ = Rv0 m' c (Proc.devRef .tc Cert.ReferenceIdeal.main_arg10) := Rv1_keep m' c Cert.ReferenceIdeal.main_arg10 (by decide)

/-! ## The object features: mean, variance, scale, shift, and region 8 -/

/-- The mean of the object features. -/
theorem p_v214 (c : Dev Cert.KernelIdeal.nD) (h211 : Rv20 m' c (Proc.devRef .tc Cert.ReferenceIdeal.main_v333) = W19 m ρ c (Proc.devRef .tc Cert.KernelIdeal.main_v211)) :
    Rv21 m' c (Proc.devRef .tc Cert.ReferenceIdeal.main_v340) = W20 m ρ c (Proc.devRef .tc Cert.KernelIdeal.main_v214) := by
  rw [Rv21_eq, W20_eq]
  exact s_v214 _ _ h211

/-- Their variance. -/
theorem p_v215 (c : Dev Cert.KernelIdeal.nD) (h211 : Rv20 m' c (Proc.devRef .tc Cert.ReferenceIdeal.main_v333) = W19 m ρ c (Proc.devRef .tc Cert.KernelIdeal.main_v211)) :
    Rv21 m' c (Proc.devRef .tc Cert.ReferenceIdeal.main_v341) = W21 m ρ c (Proc.devRef .tc Cert.KernelIdeal.main_v215) := by
  have hx : Rv20 m' c (Proc.devRef .tc Cert.ReferenceIdeal.main_v333) = W20 m ρ c (Proc.devRef .tc Cert.KernelIdeal.main_v211) :=
    h211.trans (W20_keep m ρ c Cert.KernelIdeal.main_v211 (by decide)).symm
  have hc : @Eq (IVec Cert.KernelIdeal.S_ 32) (W20 m ρ c (Proc.devRef .tc Cert.KernelIdeal.main_c_46)) (constantI Cert.KernelIdeal.S_ 32 0#32) := by
    rw [W20_eq]; exact s_c_46 _
  rw [Rv21_eq, W21_eq]
  exact s_v215 _ _ hx hc

/-- The scale of layer 1's object batch-norm. -/
theorem p_v221 (hag : Agree m m') (c : Dev Cert.KernelIdeal.nD) :
    Rv21 m' c (Proc.devRef .tc Cert.ReferenceIdeal.main_v335) = W24 m ρ c (Proc.devRef .tc Cert.KernelIdeal.main_v221) := by
  rw [Rv21_eq, W24_eq]
  exact s_v221 _ _ ((r_arg9_20 c).trans ((arg9 ρ hag c).trans (k_arg9_23 ρ c).symm))

/-- Its shift. -/
theorem p_v223 (hag : Agree m m') (c : Dev Cert.KernelIdeal.nD) :
    Rv21 m' c (Proc.devRef .tc Cert.ReferenceIdeal.main_v337) = W24 m ρ c (Proc.devRef .tc Cert.KernelIdeal.main_v223) := by
  rw [Rv21_eq, W24_eq]
  exact s_v223 _ _ ((r_arg10_20 c).trans ((arg10 ρ hag c).trans (k_arg10_23 ρ c).symm))

/-- Region 8's output array against the reference's normalisation of the object features. -/
theorem p_v224 (hag : Agree m m') (c : Dev Cert.KernelIdeal.nD) (h211 : Rv20 m' c (Proc.devRef .tc Cert.ReferenceIdeal.main_v333) = W19 m ρ c (Proc.devRef .tc Cert.KernelIdeal.main_v211)) :
    Rv22 m' c (Proc.devRef .tc Cert.ReferenceIdeal.main_v356) = W25 m ρ c (Proc.devRef .tc Cert.KernelIdeal.main_v224) := by
  rw [W25_out, Cert.Val.val8 (V24 m ρ) c (hvar8 m ρ c), Rv22_eq, s_r356]
  simp only [arrRef8_0, arrRef8_1, arrRef8_2, arrRef8_3, arrRef8_4]
  have e0 : Rv21 m' c (Proc.devRef .tc Cert.ReferenceIdeal.main_v333) = W24 m ρ c (Proc.devRef .tc Cert.KernelIdeal.main_v211) :=
    (Rv21_keep m' c Cert.ReferenceIdeal.main_v333 (by decide)).trans (h211.trans ((W24_keep m ρ c Cert.KernelIdeal.main_v211 (by decide)).trans ((W23_keep m ρ c Cert.KernelIdeal.main_v211 (by decide)).trans ((W22_keep m ρ c Cert.KernelIdeal.main_v211 (by decide)).trans ((W21_keep m ρ c Cert.KernelIdeal.main_v211 (by decide)).trans (W20_keep m ρ c Cert.KernelIdeal.main_v211 (by decide)))))).symm)
  have e3 : Rv21 m' c (Proc.devRef .tc Cert.ReferenceIdeal.main_v340) = W24 m ρ c (Proc.devRef .tc Cert.KernelIdeal.main_v214) :=
    (p_v214 ρ c h211).trans ((W24_keep m ρ c Cert.KernelIdeal.main_v214 (by decide)).trans ((W23_keep m ρ c Cert.KernelIdeal.main_v214 (by decide)).trans ((W22_keep m ρ c Cert.KernelIdeal.main_v214 (by decide)).trans (W21_keep m ρ c Cert.KernelIdeal.main_v214 (by decide))))).symm
  have e4 : Rv21 m' c (Proc.devRef .tc Cert.ReferenceIdeal.main_v341) = W24 m ρ c (Proc.devRef .tc Cert.KernelIdeal.main_v215) :=
    (p_v215 ρ c h211).trans ((W24_keep m ρ c Cert.KernelIdeal.main_v215 (by decide)).trans ((W23_keep m ρ c Cert.KernelIdeal.main_v215 (by decide)).trans (W22_keep m ρ c Cert.KernelIdeal.main_v215 (by decide)))).symm
  rw [e0, p_v221 ρ hag c, p_v223 ρ hag c, e3, e4]

/-! ## The attribute features: mean, variance, scale, shift, and region 9 -/

/-- The mean of the attribute features. -/
theorem p_v218 (c : Dev Cert.KernelIdeal.nD) (h198 : Rv16 m' c (Proc.devRef .tc Cert.ReferenceIdeal.main_v262) = W17 m ρ c (Proc.devRef .tc Cert.KernelIdeal.main_v198)) :
    Rv23 m' c (Proc.devRef .tc Cert.ReferenceIdeal.main_v363) = W22 m ρ c (Proc.devRef .tc Cert.KernelIdeal.main_v218) := by
  have hx : Rv22 m' c (Proc.devRef .tc Cert.ReferenceIdeal.main_v262) = W21 m ρ c (Proc.devRef .tc Cert.KernelIdeal.main_v198) :=
    ((Rv22_keep m' c Cert.ReferenceIdeal.main_v262 (by decide)).trans ((Rv21_keep m' c Cert.ReferenceIdeal.main_v262 (by decide)).trans ((Rv20_keep m' c Cert.ReferenceIdeal.main_v262 (by decide)).trans ((Rv19_keep m' c Cert.ReferenceIdeal.main_v262 (by decide)).trans ((Rv18_keep m' c Cert.ReferenceIdeal.main_v262 (by decide)).trans (Rv17_keep m' c Cert.ReferenceIdeal.main_v262 (by decide))))))).trans (h198.trans ((W21_keep m ρ c Cert.KernelIdeal.main_v198 (by decide)).trans ((W20_keep m ρ c Cert.KernelIdeal.main_v198 (by decide)).trans ((W19_keep m ρ c Cert.KernelIdeal.main_v198 (by decide)).trans (W18_keep m ρ c Cert.KernelIdeal.main_v198 (by decide))))).symm)
  rw [Rv23_eq, W22_eq]
  exact s_v218 _ _ hx

/-- Their variance. -/
theorem p_v219 (c : Dev Cert.KernelIdeal.nD) (h198 : Rv16 m' c (Proc.devRef .tc Cert.ReferenceIdeal.main_v262) = W17 m ρ c (Proc.devRef .tc Cert.KernelIdeal.main_v198)) :
    Rv23 m' c (Proc.devRef .tc Cert.ReferenceIdeal.main_v364) = W23 m ρ c (Proc.devRef .tc Cert.KernelIdeal.main_v219) := by
  have hx : Rv22 m' c (Proc.devRef .tc Cert.ReferenceIdeal.main_v262) = W22 m ρ c (Proc.devRef .tc Cert.KernelIdeal.main_v198) :=
    ((Rv22_keep m' c Cert.ReferenceIdeal.main_v262 (by decide)).trans ((Rv21_keep m' c Cert.ReferenceIdeal.main_v262 (by decide)).trans ((Rv20_keep m' c Cert.ReferenceIdeal.main_v262 (by decide)).trans ((Rv19_keep m' c Cert.ReferenceIdeal.main_v262 (by decide)).trans ((Rv18_keep m' c Cert.ReferenceIdeal.main_v262 (by decide)).trans (Rv17_keep m' c Cert.ReferenceIdeal.main_v262 (by decide))))))).trans (h198.trans ((W22_keep m ρ c Cert.KernelIdeal.main_v198 (by decide)).trans ((W21_keep m ρ c Cert.KernelIdeal.main_v198 (by decide)).trans ((W20_keep m ρ c Cert.KernelIdeal.main_v198 (by decide)).trans ((W19_keep m ρ c Cert.KernelIdeal.main_v198 (by decide)).trans (W18_keep m ρ c Cert.KernelIdeal.main_v198 (by decide)))))).symm)
  have hc : @Eq (IVec Cert.KernelIdeal.S_ 32) (W22 m ρ c (Proc.devRef .tc Cert.KernelIdeal.main_c_49)) (constantI Cert.KernelIdeal.S_ 32 0#32) := by
    rw [W22_eq]; exact s_c_49 _
  rw [Rv23_eq, W23_eq]
  exact s_v219 _ _ hx hc

/-- The scale of layer 1's attribute batch-norm. -/
theorem p_v226 (hag : Agree m m') (c : Dev Cert.KernelIdeal.nD) :
    Rv23 m' c (Proc.devRef .tc Cert.ReferenceIdeal.main_v358) = W26 m ρ c (Proc.devRef .tc Cert.KernelIdeal.main_v226) := by
  rw [Rv23_eq, W26_eq]
  exact s_v226 _ _ ((r_arg9_22 c).trans ((arg9 ρ hag c).trans (k_arg9_25 ρ c).symm))

/-- Its shift. -/
theorem p_v228 (hag : Agree m m') (c : Dev Cert.KernelIdeal.nD) :
    Rv23 m' c (Proc.devRef .tc Cert.ReferenceIdeal.main_v360) = W26 m ρ c (Proc.devRef .tc Cert.KernelIdeal.main_v228) := by
  rw [Rv23_eq, W26_eq]
  exact s_v228 _ _ ((r_arg10_22 c).trans ((arg10 ρ hag c).trans (k_arg10_25 ρ c).symm))

/-- Region 9's output array against the reference's normalisation of the attribute features. -/
theorem p_v229 (hag : Agree m m') (c : Dev Cert.KernelIdeal.nD) (h198 : Rv16 m' c (Proc.devRef .tc Cert.ReferenceIdeal.main_v262) = W17 m ρ c (Proc.devRef .tc Cert.KernelIdeal.main_v198)) :
    Rv24 m' c (Proc.devRef .tc Cert.ReferenceIdeal.main_v379) = W27 m ρ c (Proc.devRef .tc Cert.KernelIdeal.main_v229) := by
  rw [W27_out, Cert.Val.val9 (V26 m ρ) c (hvar9 m ρ c), Rv24_eq, s_r379]
  simp only [arrRef9_0, arrRef9_1, arrRef9_2, arrRef9_3, arrRef9_4]
  have e0 : Rv23 m' c (Proc.devRef .tc Cert.ReferenceIdeal.main_v262) = W26 m ρ c (Proc.devRef .tc Cert.KernelIdeal.main_v198) :=
    ((Rv23_keep m' c Cert.ReferenceIdeal.main_v262 (by decide)).trans ((Rv22_keep m' c Cert.ReferenceIdeal.main_v262 (by decide)).trans ((Rv21_keep m' c Cert.ReferenceIdeal.main_v262 (by decide)).trans ((Rv20_keep m' c Cert.ReferenceIdeal.main_v262 (by decide)).trans ((Rv19_keep m' c Cert.ReferenceIdeal.main_v262 (by decide)).trans ((Rv18_keep m' c Cert.ReferenceIdeal.main_v262 (by decide)).trans (Rv17_keep m' c Cert.ReferenceIdeal.main_v262 (by decide)))))))).trans (h198.trans ((W26_keep m ρ c Cert.KernelIdeal.main_v198 (by decide)).trans ((W25_keep m ρ c Cert.KernelIdeal.main_v198 (by decide)).trans ((W24_keep m ρ c Cert.KernelIdeal.main_v198 (by decide)).trans ((W23_keep m ρ c Cert.KernelIdeal.main_v198 (by decide)).trans ((W22_keep m ρ c Cert.KernelIdeal.main_v198 (by decide)).trans ((W21_keep m ρ c Cert.KernelIdeal.main_v198 (by decide)).trans ((W20_keep m ρ c Cert.KernelIdeal.main_v198 (by decide)).trans ((W19_keep m ρ c Cert.KernelIdeal.main_v198 (by decide)).trans (W18_keep m ρ c Cert.KernelIdeal.main_v198 (by decide)))))))))).symm)
  have e3 : Rv23 m' c (Proc.devRef .tc Cert.ReferenceIdeal.main_v363) = W26 m ρ c (Proc.devRef .tc Cert.KernelIdeal.main_v218) :=
    (p_v218 ρ c h198).trans ((W26_keep m ρ c Cert.KernelIdeal.main_v218 (by decide)).trans ((W25_keep m ρ c Cert.KernelIdeal.main_v218 (by decide)).trans ((W24_keep m ρ c Cert.KernelIdeal.main_v218 (by decide)).trans (W23_keep m ρ c Cert.KernelIdeal.main_v218 (by decide))))).symm
  have e4 : Rv23 m' c (Proc.devRef .tc Cert.ReferenceIdeal.main_v364) = W26 m ρ c (Proc.devRef .tc Cert.KernelIdeal.main_v219) :=
    (p_v219 ρ c h198).trans ((W26_keep m ρ c Cert.KernelIdeal.main_v219 (by decide)).trans ((W25_keep m ρ c Cert.KernelIdeal.main_v219 (by decide)).trans (W24_keep m ρ c Cert.KernelIdeal.main_v219 (by decide)))).symm
  rw [e0, p_v226 ρ hag c, p_v228 ρ hag c, e3, e4]

end Cert.Bridge

end
-- ==== Proof.Val.DotRef.lean ====
/- The edge scoring's row-wise dot product on the reference's side, as a pure term of the two gathered arrays of
   100000 rows by 64 lanes: the lane-by-lane product, summed over the lanes from zero (one value per row), and that flat
   array of 100000 sums laid out as a column of 100000 rows. At the extended reals each row's value is the plain sum of
   its 64 products. -/
import proofs.«151172_j14164802142730_2_alg».proof.ReferenceIdeal
import Idealize.ShloMosaic.Lib.IdealHost
import Idealize.ShloMosaic.Lib.Pipeline.Value

noncomputable section

namespace Cert.Val

open Idealize.ShloMosaic Idealize.ShloMosaic.ValueIdx Idealize.SL.Sem Cert.ReferenceIdeal Cert.ReferenceIdeal.Facts₀
open scoped BigOperators

section Terms
variable {F : FTy → Type} [FloatOps F] [Cert.ReferenceIdeal.Facts₀]

/-- The rows' dot products as a flat array, term for term as the reference computes them: the product of the two
    arrays, reduced by addition over the lanes from the constant zero. -/
def refDotFlat (l r : FVec F S100000x64 .f32) : FVec F S100000 .f32 :=
  Host.reduceAdd (mulf l r) (constant S_ .f32 0x00000000#32) reducesTo_S100000x64_S100000_d1 h_S_

/-- A flat array of 100000 elements and a column of 100000 rows have the same elements in the same order. -/
theorem casts_S100000_S100000x1 : S100000.ShapeCasts S100000x1 := by decide

/-- The same values as a column: the flat array recast to 100000 rows of one element. -/
def refDot (l r : FVec F S100000x64 .f32) : FVec F S100000x1 .f32 :=
  shapeCast S100000x1 (refDotFlat l r) casts_S100000_S100000x1

/-- Recasting the column to a flat array gives the reference's flat array back. -/
theorem shapeCast_refDot (l r : FVec F S100000x64 .f32) (h : S100000x1.ShapeCasts S100000) :
    shapeCast S100000 (refDot l r) h = refDotFlat l r :=
  shapeCast_shapeCast _ _ _

end Terms

/-- Row `p`'s dot product at the extended reals: its 64 products summed. -/
def rowDot (l r : FVec Ideal S100000x64 .f32) (p : Fin 100000) : EReal :=
  ∑ k : Fin 64, l (ix2 p k) * r (ix2 p k)

/-- The lanes of row `p`: the flat index `p` with lane `k` put back on the reduced axis. -/
theorem lift_row (h : S100000x64.Reduces [1] S100000) (p : Fin 100000) (k : Fin 64) :
    h.lift (ix1 p) k = ix2 p k := by
  funext a; apply Fin.ext
  match a with
  | ⟨0, _⟩ => rfl
  | ⟨1, _⟩ => rfl

/-- The reference's flat array at row `p` is that row's dot product: zero plus the sum over the lanes. -/
theorem refDotFlat_apply [Cert.ReferenceIdeal.Facts₀] (l r : FVec Ideal S100000x64 .f32) (p : Fin 100000) :
    refDotFlat (F := Ideal) l r (ix1 p) = rowDot l r p := by
  unfold refDotFlat
  rw [hostReduceAdd_apply]
  have h : S100000x64.Reduces [1] S100000 := by decide
  refine (Ideal.hostReduceAdd_single reducesTo_S100000x64_S100000_d1 h _ _ (ix1 p)).trans ?_
  rw [constant_apply, Ideal.ofBits_zero_f32, zero_add]
  unfold rowDot
  refine Finset.sum_congr rfl fun k _ => ?_
  rw [mulf_apply]
  exact congrArg (fun i => l i * r i) (lift_row h p k)

/-- The column at row `p` (its one lane `q`) is the flat array at `p`. -/
theorem refDot_apply [Cert.ReferenceIdeal.Facts₀] (l r : FVec Ideal S100000x64 .f32) (p : Fin 100000) (q : Fin 1) :
    refDot (F := Ideal) l r (ix2 p q) = rowDot l r p := by
  unfold refDot
  refine (shapeCast_apply _ _ (ix2 p q) (ix1 p) ?_).trans (refDotFlat_apply l r p)
  rw [Shape.rowMajor_val_one, Shape.rowMajor_val_two]
  show p.val = p.val * 1 + q.val
  omega

end Cert.Val

end
-- ==== Proof.Bridge.BES.lean ====
/-
  The edge-scoring stages and the final stacking, side by side, over ARBITRARY contents of the buffers before each stage.
  Both programs gather the rows of the node features, and the node labels, by the same host operations on the same edge
  lists, so what they gather agrees when the features, labels and edge lists do. The reference then multiplies the two
  gathered arrays and sums over the lanes; that is the function the regions' values are stated with. The kernel program
  recasts each region's column to a flat array. Last, both programs lay six flat arrays out as rows and stack them.
-/
import proofs.«151172_j14164802142730_2_alg».proof.Proof.Gen.KernelIdeal.Launch
import proofs.«151172_j14164802142730_2_alg».proof.Proof.Ref.Chunks
import proofs.«151172_j14164802142730_2_alg».proof.Proof.Val.DotRef
import proofs.«151172_j14164802142730_2_alg».proof.Proof.Gen.ReferenceIdeal
import Idealize.ShloMosaic.Lib.StableHlo.Run
import Idealize.ShloMosaic.PureOps.Ideal

set_option maxRecDepth 16384

noncomputable section

namespace Cert.Bridge

open Idealize.ShloMosaic Idealize.ShloMosaic.TcCoe Idealize.SL.Sem Idealize.ShloMosaic.StableHlo

/-- A concatenation of six literal operands reads each operand's contents at its own reference. -/
theorem nary6_result {τ : Topo} {sig : RefSig} {Val : EltTy → Type} {x0 x1 x2 x3 x4 x5 y : Ref sig .tc}
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5)) (fun i => i.elim0))))))) := by
  rw [nary_result]; congr 1; funext k; fin_cases k <;> rfl
/-- The same, stated for the simplifier. -/
theorem nary6_result' {τ : Topo} {sig : RefSig} {Val : EltTy → Type} {x0 x1 x2 x3 x4 x5 y : Ref sig .tc}
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5)) (fun i => i.elim0))))))) :=
  nary6_result f hxs hy F

variable (V : Valuation Cert.KernelIdeal.τ Cert.KernelIdeal.sig (Elt Ideal)) (V' : Valuation Cert.ReferenceIdeal.τ Cert.ReferenceIdeal.sig (Elt Ideal))

/-! ## The first edge list: the gathers, the reference's product and lane sum, the recast column, the labels -/

set_option maxHeartbeats 1000000 in
/-- The object features' rows at the first edge list's sources. -/
theorem s_v238 (h18 : V' (Proc.devRef .tc Cert.ReferenceIdeal.main_arg18) = V (Proc.devRef .tc Cert.KernelIdeal.main_arg18))
    (h224 : V' (Proc.devRef .tc Cert.ReferenceIdeal.main_v356) = V (Proc.devRef .tc Cert.KernelIdeal.main_v224)) :
    after Cert.ReferenceIdeal.Hand.C24 V' (Proc.devRef .tc Cert.ReferenceIdeal.main_v388) = after Cert.KernelIdeal.Gen.hostOps10 V (Proc.devRef .tc Cert.KernelIdeal.main_v238) := by
  after_results_simp
  rw [h18, h224]
  rfl

set_option maxHeartbeats 1000000 in
/-- The attribute features' rows at the first edge list's targets. -/
theorem s_v247 (h18 : V' (Proc.devRef .tc Cert.ReferenceIdeal.main_arg18) = V (Proc.devRef .tc Cert.KernelIdeal.main_arg18))
    (h229 : V' (Proc.devRef .tc Cert.ReferenceIdeal.main_v379) = V (Proc.devRef .tc Cert.KernelIdeal.main_v229)) :
    after Cert.ReferenceIdeal.Hand.C24 V' (Proc.devRef .tc Cert.ReferenceIdeal.main_v397) = after Cert.KernelIdeal.Gen.hostOps10 V (Proc.devRef .tc Cert.KernelIdeal.main_v247) := by
  after_results_simp
  rw [h18, h229]
  rfl

set_option maxHeartbeats 1000000 in
/-- The reference's scores of the first edge list: the product of the two gathered arrays summed over the lanes. -/
theorem s_r399 : after Cert.ReferenceIdeal.Hand.C25 V' (Proc.devRef .tc Cert.ReferenceIdeal.main_v399)
      = Cert.Val.refDotFlat (F := Ideal) (V' (Proc.devRef .tc Cert.ReferenceIdeal.main_v388)) (V' (Proc.devRef .tc Cert.ReferenceIdeal.main_v397)) := by
  after_results_simp
  rfl

set_option maxHeartbeats 1000000 in
/-- The kernel program's scores of the first edge list: region 10's column recast to a flat array. -/
theorem s_k249 : after Cert.KernelIdeal.Gen.hostOps11 V (Proc.devRef .tc Cert.KernelIdeal.main_v249)
      = shapeCast Cert.KernelIdeal.S100000 (V (Proc.devRef .tc Cert.KernelIdeal.main_v248)) Cert.KernelIdeal.Facts₀.shapeCasts_S100000x1_S100000 := by
  after_results_simp
  rfl

set_option maxHeartbeats 1000000 in
/-- The attribute nodes' labels at the first edge list's targets. -/
theorem s_v258 (h18 : V' (Proc.devRef .tc Cert.ReferenceIdeal.main_arg18) = V (Proc.devRef .tc Cert.KernelIdeal.main_arg18))
    (h12 : V' (Proc.devRef .tc Cert.ReferenceIdeal.main_arg12) = V (Proc.devRef .tc Cert.KernelIdeal.main_arg12)) :
    after Cert.ReferenceIdeal.Hand.C26 V' (Proc.devRef .tc Cert.ReferenceIdeal.main_v408) = after Cert.KernelIdeal.Gen.hostOps11 V (Proc.devRef .tc Cert.KernelIdeal.main_v258) := by
  after_results_simp
  rw [h18, h12]
  rfl

/-! ## The second edge list -/

set_option maxHeartbeats 1000000 in
/-- The attribute features' rows at the second edge list's sources. -/
theorem s_v267 (h19 : V' (Proc.devRef .tc Cert.ReferenceIdeal.main_arg19) = V (Proc.devRef .tc Cert.KernelIdeal.main_arg19))
    (h229 : V' (Proc.devRef .tc Cert.ReferenceIdeal.main_v379) = V (Proc.devRef .tc Cert.KernelIdeal.main_v229)) :
    after Cert.ReferenceIdeal.Hand.C27 V' (Proc.devRef .tc Cert.ReferenceIdeal.main_v417) = after Cert.KernelIdeal.Gen.hostOps11 V (Proc.devRef .tc Cert.KernelIdeal.main_v267) := by
  after_results_simp
  rw [h19, h229]
  rfl

set_option maxHeartbeats 1000000 in
/-- The object features' rows at the second edge list's targets. -/
theorem s_v276 (h19 : V' (Proc.devRef .tc Cert.ReferenceIdeal.main_arg19) = V (Proc.devRef .tc Cert.KernelIdeal.main_arg19))
    (h224 : V' (Proc.devRef .tc Cert.ReferenceIdeal.main_v356) = V (Proc.devRef .tc Cert.KernelIdeal.main_v224)) :
    after Cert.ReferenceIdeal.Hand.C27 V' (Proc.devRef .tc Cert.ReferenceIdeal.main_v426) = after Cert.KernelIdeal.Gen.hostOps11 V (Proc.devRef .tc Cert.KernelIdeal.main_v276) := by
  after_results_simp
  rw [h19, h224]
  rfl

set_option maxHeartbeats 1000000 in
/-- The reference's scores of the second edge list. -/
theorem s_r428 : after Cert.ReferenceIdeal.Hand.C28 V' (Proc.devRef .tc Cert.ReferenceIdeal.main_v428)
      = Cert.Val.refDotFlat (F := Ideal) (V' (Proc.devRef .tc Cert.ReferenceIdeal.main_v417)) (V' (Proc.devRef .tc Cert.ReferenceIdeal.main_v426)) := by
  after_results_simp
  rfl

set_option maxHeartbeats 1000000 in
/-- The kernel program's scores of the second edge list: region 11's column recast to a flat array. -/
theorem s_k278 : after Cert.KernelIdeal.Gen.hostOps12 V (Proc.devRef .tc Cert.KernelIdeal.main_v278)
      = shapeCast Cert.KernelIdeal.S100000 (V (Proc.devRef .tc Cert.KernelIdeal.main_v277)) Cert.KernelIdeal.Facts₀.shapeCasts_S100000x1_S100000 := by
  after_results_simp
  rfl

set_option maxHeartbeats 1000000 in
/-- The object nodes' labels at the second edge list's targets. -/
theorem s_v287 (h19 : V' (Proc.devRef .tc Cert.ReferenceIdeal.main_arg19) = V (Proc.devRef .tc Cert.KernelIdeal.main_arg19))
    (h11 : V' (Proc.devRef .tc Cert.ReferenceIdeal.main_arg11) = V (Proc.devRef .tc Cert.KernelIdeal.main_arg11)) :
    after Cert.ReferenceIdeal.Hand.C29 V' (Proc.devRef .tc Cert.ReferenceIdeal.main_v437) = after Cert.KernelIdeal.Gen.hostOps12 V (Proc.devRef .tc Cert.KernelIdeal.main_v287) := by
  after_results_simp
  rw [h19, h11]
  rfl

/-! ## The third edge list -/

set_option maxHeartbeats 1000000 in
/-- The object features' rows at the third edge list's sources. -/
theorem s_v296 (h20 : V' (Proc.devRef .tc Cert.ReferenceIdeal.main_arg20) = V (Proc.devRef .tc Cert.KernelIdeal.main_arg20))
    (h224 : V' (Proc.devRef .tc Cert.ReferenceIdeal.main_v356) = V (Proc.devRef .tc Cert.KernelIdeal.main_v224)) :
    after Cert.ReferenceIdeal.Hand.C30 V' (Proc.devRef .tc Cert.ReferenceIdeal.main_v446) = after Cert.KernelIdeal.Gen.hostOps12 V (Proc.devRef .tc Cert.KernelIdeal.main_v296) := by
  after_results_simp
  rw [h20, h224]
  rfl

set_option maxHeartbeats 1000000 in
/-- The object features' rows at the third edge list's targets. -/
theorem s_v305 (h20 : V' (Proc.devRef .tc Cert.ReferenceIdeal.main_arg20) = V (Proc.devRef .tc Cert.KernelIdeal.main_arg20))
    (h224 : V' (Proc.devRef .tc Cert.ReferenceIdeal.main_v356) = V (Proc.devRef .tc Cert.KernelIdeal.main_v224)) :
    after Cert.ReferenceIdeal.Hand.C30 V' (Proc.devRef .tc Cert.ReferenceIdeal.main_v455) = after Cert.KernelIdeal.Gen.hostOps12 V (Proc.devRef .tc Cert.KernelIdeal.main_v305) := by
  after_results_simp
  rw [h20, h224]
  rfl

set_option maxHeartbeats 1000000 in
/-- The reference's scores of the third edge list. -/
theorem s_r457 : after Cert.ReferenceIdeal.Hand.C31 V' (Proc.devRef .tc Cert.ReferenceIdeal.main_v457)
      = Cert.Val.refDotFlat (F := Ideal) (V' (Proc.devRef .tc Cert.ReferenceIdeal.main_v446)) (V' (Proc.devRef .tc Cert.ReferenceIdeal.main_v455)) := by
  after_results_simp
  rfl

set_option maxHeartbeats 1000000 in
/-- The kernel program's scores of the third edge list: region 12's column recast to a flat array. -/
theorem s_k307 : after Cert.KernelIdeal.Gen.hostOps13 V (Proc.devRef .tc Cert.KernelIdeal.main_v307)
      = shapeCast Cert.KernelIdeal.S100000 (V (Proc.devRef .tc Cert.KernelIdeal.main_v306)) Cert.KernelIdeal.Facts₀.shapeCasts_S100000x1_S100000 := by
  after_results_simp
  rfl

set_option maxHeartbeats 1000000 in
/-- The object nodes' labels at the third edge list's targets. -/
theorem s_v316 (h20 : V' (Proc.devRef .tc Cert.ReferenceIdeal.main_arg20) = V (Proc.devRef .tc Cert.KernelIdeal.main_arg20))
    (h11 : V' (Proc.devRef .tc Cert.ReferenceIdeal.main_arg11) = V (Proc.devRef .tc Cert.KernelIdeal.main_arg11)) :
    after Cert.ReferenceIdeal.Hand.C32 V' (Proc.devRef .tc Cert.ReferenceIdeal.main_v466) = after Cert.KernelIdeal.Gen.hostOps13 V (Proc.devRef .tc Cert.KernelIdeal.main_v316) := by
  after_results_simp
  rw [h20, h11]
  rfl

/-! ## The result: three score arrays and three label arrays as rows, stacked -/

/-- The contents after two stretches run one after the other are the second's from the first's. -/
theorem after_app {τ : Topo} {sig : RefSig} {Val : EltTy → Type} (l₁ l₂ : List (HloOp τ sig Val)) (F : Valuation τ sig Val) :
    after (l₁ ++ l₂) F = after l₂ (after l₁ F) := by
  induction l₁ generalizing F with
  | nil => rfl
  | cons op l ih => simp only [List.cons_append, after_cons, ih]

/-- The results of a short stretch that ends in a six-way concatenation, operation by operation. -/
macro "after_results6" : tactic =>
  `(tactic| (simp only [after_cons, after_nil]
             repeat (first
               | rw [nullary_result] | rw [unary_result] | rw [binary_result] | rw [ternary_result] | rw [reshape_result]
               | rw [nary6_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

set_option maxHeartbeats 4000000 in
/-- The kernel program's last stretch stacks, as rows, six arrays as they are after the stretch: three score arrays and
    three label arrays, the third of each computed by the stretch itself before it lays them out. -/
theorem s_k323 : after Cert.KernelIdeal.Gen.hostOps13 V (Proc.devRef .tc Cert.KernelIdeal.main_v323)
      = concatenate Cert.KernelIdeal.S6x100000 0
          [⟨Cert.KernelIdeal.S1x100000, broadcastInDim Cert.KernelIdeal.S1x100000 ![1] Cert.KernelIdeal.Facts₀.bcast_S100000_S1x100000_1 (after Cert.KernelIdeal.Gen.hostOps13 V (Proc.devRef .tc Cert.KernelIdeal.main_v249))⟩,
           ⟨Cert.KernelIdeal.S1x100000, broadcastInDim Cert.KernelIdeal.S1x100000 ![1] Cert.KernelIdeal.Facts₀.bcast_S100000_S1x100000_1 (after Cert.KernelIdeal.Gen.hostOps13 V (Proc.devRef .tc Cert.KernelIdeal.main_v278))⟩,
           ⟨Cert.KernelIdeal.S1x100000, broadcastInDim Cert.KernelIdeal.S1x100000 ![1] Cert.KernelIdeal.Facts₀.bcast_S100000_S1x100000_1 (after Cert.KernelIdeal.Gen.hostOps13 V (Proc.devRef .tc Cert.KernelIdeal.main_v307))⟩,
           ⟨Cert.KernelIdeal.S1x100000, broadcastInDim Cert.KernelIdeal.S1x100000 ![1] Cert.KernelIdeal.Facts₀.bcast_S100000_S1x100000_1 (after Cert.KernelIdeal.Gen.hostOps13 V (Proc.devRef .tc Cert.KernelIdeal.main_v258))⟩,
           ⟨Cert.KernelIdeal.S1x100000, broadcastInDim Cert.KernelIdeal.S1x100000 ![1] Cert.KernelIdeal.Facts₀.bcast_S100000_S1x100000_1 (after Cert.KernelIdeal.Gen.hostOps13 V (Proc.devRef .tc Cert.KernelIdeal.main_v287))⟩,
           ⟨Cert.KernelIdeal.S1x100000, broadcastInDim Cert.KernelIdeal.S1x100000 ![1] Cert.KernelIdeal.Facts₀.bcast_S100000_S1x100000_1 (after Cert.KernelIdeal.Gen.hostOps13 V (Proc.devRef .tc Cert.KernelIdeal.main_v316))⟩]
          Cert.KernelIdeal.Facts₀.concatenates_S1x100000_S1x100000_S1x100000_S1x100000_S1x100000_S1x100000_S6x100000_d0 := by
  have hsplit : after Cert.KernelIdeal.Gen.hostOps13 V
      = after (List.drop 12 Cert.KernelIdeal.Gen.hostOps13) (after (List.take 12 Cert.KernelIdeal.Gen.hostOps13) V) := by
    rw [← after_app, List.take_append_drop]
  rw [hsplit]
  generalize after (List.take 12 Cert.KernelIdeal.Gen.hostOps13) V = U
  simp only [Cert.KernelIdeal.Gen.hostOps13, List.drop_succ_cons, List.drop_zero]
  after_results6
  rfl

set_option maxHeartbeats 4000000 in
/-- The two results agree when the six stacked arrays do. -/
theorem s_final (h249 : V' (Proc.devRef .tc Cert.ReferenceIdeal.main_v399) = after Cert.KernelIdeal.Gen.hostOps13 V (Proc.devRef .tc Cert.KernelIdeal.main_v249))
    (h278 : V' (Proc.devRef .tc Cert.ReferenceIdeal.main_v428) = after Cert.KernelIdeal.Gen.hostOps13 V (Proc.devRef .tc Cert.KernelIdeal.main_v278))
    (h307 : V' (Proc.devRef .tc Cert.ReferenceIdeal.main_v457) = after Cert.KernelIdeal.Gen.hostOps13 V (Proc.devRef .tc Cert.KernelIdeal.main_v307))
    (h258 : V' (Proc.devRef .tc Cert.ReferenceIdeal.main_v408) = after Cert.KernelIdeal.Gen.hostOps13 V (Proc.devRef .tc Cert.KernelIdeal.main_v258))
    (h287 : V' (Proc.devRef .tc Cert.ReferenceIdeal.main_v437) = after Cert.KernelIdeal.Gen.hostOps13 V (Proc.devRef .tc Cert.KernelIdeal.main_v287))
    (h316 : V' (Proc.devRef .tc Cert.ReferenceIdeal.main_v466) = after Cert.KernelIdeal.Gen.hostOps13 V (Proc.devRef .tc Cert.KernelIdeal.main_v316)) :
    after Cert.ReferenceIdeal.Hand.C33 V' (Proc.devRef .tc Cert.ReferenceIdeal.main_v473) = after Cert.KernelIdeal.Gen.hostOps13 V (Proc.devRef .tc Cert.KernelIdeal.main_v323) := by
  rw [s_k323 V]
  generalize after Cert.KernelIdeal.Gen.hostOps13 V (Proc.devRef .tc Cert.KernelIdeal.main_v249) = x249 at h249 ⊢
  generalize after Cert.KernelIdeal.Gen.hostOps13 V (Proc.devRef .tc Cert.KernelIdeal.main_v278) = x278 at h278 ⊢
  generalize after Cert.KernelIdeal.Gen.hostOps13 V (Proc.devRef .tc Cert.KernelIdeal.main_v307) = x307 at h307 ⊢
  generalize after Cert.KernelIdeal.Gen.hostOps13 V (Proc.devRef .tc Cert.KernelIdeal.main_v258) = x258 at h258 ⊢
  generalize after Cert.KernelIdeal.Gen.hostOps13 V (Proc.devRef .tc Cert.KernelIdeal.main_v287) = x287 at h287 ⊢
  generalize after Cert.KernelIdeal.Gen.hostOps13 V (Proc.devRef .tc Cert.KernelIdeal.main_v316) = x316 at h316 ⊢
  after_results6
  rw [h249, h278, h307, h258, h287, h316]
  rfl

end Cert.Bridge

end
-- ==== Proof.Val.Dot.lean ====
/- The value of region 10 at the extended reals: after the 25 grid points the output array of 100000 rows by one
   column holds, at row `r`, the sum over the 64 lanes of the products of row `r` of the two input arrays as the region
   finds them, which is the reference's row-wise dot product laid out as a column.

   Point `t` writes back rows `4000 t … 4000 t + 3999`: the body's one store, of the lane sums of the products of the two
   input blocks, which are the same rows of the input arrays. The 25 blocks tile the 100000 rows, row `r` lying in block
   `r / 4000`. -/
import proofs.«151172_j14164802142730_2_alg».proof.Proof.KI.R10
import proofs.«151172_j14164802142730_2_alg».proof.Proof.Val.DotRef
import Idealize.ShloMosaic.Lib.Pipeline.Value
import Idealize.ShloMosaic.Lib.ValueIdx
import Idealize.ShloMosaic.PureOps.Ideal.Laws

noncomputable section

namespace Cert.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)
open scoped BigOperators

variable [Cert.ReferenceIdeal.Facts₀]

theorem hz10 : (![0, 0] : Fin 2 → Nat) = fun _ => 0 := funext fun a => by fin_cases a <;> rfl

/-! ## The body's stored value at an index -/

/-- The lanes of row `p` of a block: the flat index `p` with lane `k` put back on the reduced axis. -/
theorem lift_row10 (h : S4000x64.Reduces [1] S4000) (p : Fin 4000) (k : Fin 64) : h.lift (ix1 p) k = ix2 p k := by
  funext a; apply Fin.ext
  match a with
  | ⟨0, _⟩ => rfl
  | ⟨1, _⟩ => rfl

/-- The stored column at row `p` is the sum over the lanes of the products of row `p` of the two loaded blocks. -/
theorem pay10_apply (x0 x1 : FVec Ideal S4000x64 .f32) (p : Fin 4000) (q : Fin 1) :
    k10_pay1 x0 x1 (ix2 p q) = ∑ k : Fin 64, x0 (ix2 p k) * x1 (ix2 p k) := by
  unfold k10_pay1
  refine (shapeCast_apply _ _ (ix2 p q) (ix1 p) ?_).trans ?_
  · rw [Shape.rowMajor_val_one, Shape.rowMajor_val_two]
    show p.val = p.val * 1 + q.val
    omega
  refine (Ideal.multiReduction_add_single _ 0x00000000#32 reduces_S4000x64_S4000 _ _ (ix1 p)).trans ?_
  refine Finset.sum_congr rfl fun k _ => ?_
  rw [mulf_apply, shapeCast_self, shapeCast_self]
  exact congrArg (fun i => x0 i * x1 i) (lift_row10 _ p k)

/-- The stored column at a block index `y`, when the two loaded blocks are rows `b … b + 3999` of arrays `L` and `R` and
    `i` is row `b + y 0` of the column: the reference's column of `L` and `R` at `i`. -/
theorem pay10_at (x0 x1 : FVec Ideal S4000x64 .f32) (L R : FVec Ideal S100000x64 .f32) (y : S4000x1.Idx) (i : S100000x1.Idx) (b : ℕ)
    (hx0 : ∀ (p : Fin 4000) (k : Fin 64) (P : Fin 100000), P.val = b + p.val → x0 (ix2 p k) = L (ix2 P k))
    (hx1 : ∀ (p : Fin 4000) (k : Fin 64) (P : Fin 100000), P.val = b + p.val → x1 (ix2 p k) = R (ix2 P k))
    (hi : (i 0).val = b + (y 0).val) :
    k10_pay1 x0 x1 y = refDot (F := Ideal) L R i := by
  obtain ⟨p, q, rfl⟩ : ∃ (p : Fin 4000) (q : Fin 1), y = ix2 p q := ⟨y 0, y 1, eq_ix2 y⟩
  obtain ⟨P, Q, rfl⟩ : ∃ (P : Fin 100000) (Q : Fin 1), i = ix2 P Q := ⟨i 0, i 1, eq_ix2 i⟩
  rw [pay10_apply, refDot_apply]
  unfold rowDot
  refine Finset.sum_congr rfl fun k _ => ?_
  rw [hx0 p k P hi, hx1 p k P hi]

/-! ## From blocks to the array -/

/-- The printed index maps over the grid: each window's block index is the point's number on the rows and zero on the
    lanes. -/
theorem idx_facts10 : ∀ t : Fin cfg10.N, win10_0.index t (0 : Fin 2) = win10_2.index t (0 : Fin 2)
    ∧ win10_0.index t (1 : Fin 2) = 0
    ∧ win10_1.index t (0 : Fin 2) = win10_2.index t (0 : Fin 2)
    ∧ win10_1.index t (1 : Fin 2) = 0
    ∧ win10_2.index t (0 : Fin 2) ≤ 24
    ∧ win10_2.index t (1 : Fin 2) = 0 :=
  (by decide +kernel : ∀ t : Fin grid10.N, _)

/-- Every block of rows is some point's. -/
theorem idx_onto10 : ∀ (q0 : Fin 25), ∃ t : Fin cfg10.N, win10_2.index t = ![q0.val, 0] :=
  (by decide +kernel : ∀ (q0 : Fin 25), ∃ t : Fin grid10.N, win10_2.index t = ![q0.val, 0])

variable (V : (c : Dev nD) → (b : Ref sig .tc) → Buf (Elt Ideal) ((c : Thread nD τ).loc b))

/-- What point `t` writes back is block `t` of the reference's column of the two input arrays as the region finds them. -/
theorem flushed10_eq (c : Dev nD) (t : Fin cfg10.N) :
    (dat10 (F := Ideal) V c).flushed 2 t
      = ((cfg10.win 2).blk t).view.read (Elt Ideal) (refDot (F := Ideal) (V c (Pipeline.arrRef spec10 0)) (V c (Pipeline.arrRef spec10 1))) := by
  show (cfg10.win 2).cut (grid10.coords t) ((dat10 (F := Ideal) V c).after 2 t) = _
  rw [after10_2]
  unfold out10_2
  rw [View.canon_unit_zero hz10]
  simp only [View.ld_unit_zero (S := S4000x64) hz10]
  obtain ⟨e0, e1, e2, e3, e4, e5⟩ := idx_facts10 t
  funext j
  show k10_pay1 (iblk10 V c 0 t) (iblk10 V c 1 t) j
    = refDot (F := Ideal) (V c (Pipeline.arrRef spec10 0)) (V c (Pipeline.arrRef spec10 1)) (((cfg10.win 2).blk t).view.emb j)
  refine pay10_at _ _ _ _ j _ (win10_2.index t (0 : Fin 2) * 4000) (fun p k P hP => ?_) (fun p k P hP => ?_) ?_
  · show V c (Pipeline.arrRef spec10 0) (((cfg10.win 0).blk t).view.emb (ix2 p k)) = V c (Pipeline.arrRef spec10 0) (ix2 P k)
    refine congrArg (V c (Pipeline.arrRef spec10 0)) (funext fun a => Fin.ext ?_)
    match a with
    | ⟨0, _⟩ => show win10_0.index t (0 : Fin 2) * 4000 + 1 * p.val = P.val; omega
    | ⟨1, _⟩ => show win10_0.index t (1 : Fin 2) * 64 + 1 * k.val = k.val; omega
  · show V c (Pipeline.arrRef spec10 1) (((cfg10.win 1).blk t).view.emb (ix2 p k)) = V c (Pipeline.arrRef spec10 1) (ix2 P k)
    refine congrArg (V c (Pipeline.arrRef spec10 1)) (funext fun a => Fin.ext ?_)
    match a with
    | ⟨0, _⟩ => show win10_1.index t (0 : Fin 2) * 4000 + 1 * p.val = P.val; omega
    | ⟨1, _⟩ => show win10_1.index t (1 : Fin 2) * 64 + 1 * k.val = k.val; omega
  · show win10_2.index t (0 : Fin 2) * 4000 + 1 * (j 0).val = win10_2.index t (0 : Fin 2) * 4000 + (j 0).val
    omega

/-- A row of the column is in point `t`'s block iff each coordinate is in the block's range on its axis. -/
theorem mem_blk10 (t : Fin cfg10.N) (i : S100000x1.Idx) :
    i ∈ ((cfg10.win 2).blk t).view.set ↔ ∀ a : Fin 2, win10_2.index t a * S4000x1.size a ≤ (i a).val ∧ (i a).val < win10_2.index t a * S4000x1.size a + S4000x1.size a := by
  show i ∈ ((View.whole (Pipeline.arrRef spec10 2)).slice (win10_2.rect t)).set ↔ _
  rw [View.set_slice_whole, Rect.mem_set_unit]
  exact Iff.rfl

/-- Every row of the column is in some point's block: row `r` in block `r / 4000`. -/
theorem covered10 (i : S100000x1.Idx) :
    ∃ t : Fin cfg10.N, (cfg10.win 2).flush t = true ∧ i ∈ ((cfg10.win 2).blk t).view.set := by
  have hi0 : (i 0).val < 100000 := (i 0).isLt
  have hi1 : (i 1).val < 1 := (i 1).isLt
  obtain ⟨t, ht⟩ := idx_onto10 ⟨(i 0).val / 4000, by omega⟩
  have q0 : win10_2.index t (0 : Fin 2) = (i 0).val / 4000 := congrFun ht 0
  have q1 : win10_2.index t (1 : Fin 2) = 0 := congrFun ht 1
  refine ⟨t, flush10_2 t, ?_⟩
  rw [mem_blk10]
  intro a
  match a with
  | ⟨0, _⟩ => show win10_2.index t (0 : Fin 2) * 4000 ≤ (i 0).val ∧ (i 0).val < win10_2.index t (0 : Fin 2) * 4000 + 4000; omega
  | ⟨1, _⟩ => show win10_2.index t (1 : Fin 2) * 1 ≤ (i 1).val ∧ (i 1).val < win10_2.index t (1 : Fin 2) * 1 + 1; omega

/-- The output array after region 10: the reference's column of the two input arrays as the region finds them. -/
theorem val10 (c : Dev nD) :
    (dat10 (F := Ideal) V c).arrAt 2 cfg10.N
      = refDot (F := Ideal) (V c (Pipeline.arrRef spec10 0)) (V c (Pipeline.arrRef spec10 1)) :=
  (dat10 (F := Ideal) V c).arrAt_eq_of_cover 2 _ (fun t _ => flushed10_eq V c t) covered10

/-- Recast to a flat array, as the program does next on the host, it is the reference's flat array of row-wise dot
    products. -/
theorem val10_flat (c : Dev nD) (h : S100000x1.ShapeCasts S100000) :
    shapeCast S100000 ((dat10 (F := Ideal) V c).arrAt 2 cfg10.N) h
      = refDotFlat (F := Ideal) (V c (Pipeline.arrRef spec10 0)) (V c (Pipeline.arrRef spec10 1)) := by
  rw [val10]
  exact shapeCast_refDot _ _ h

end Cert.Val

end
-- ==== Proof.Val.Dotr11.lean ====
/- The value of region 11 at the extended reals: after the 25 grid points the output array of 100000 rows by one
   column holds, at row `r`, the sum over the 64 lanes of the products of row `r` of the two input arrays as the region
   finds them, which is the reference's row-wise dot product laid out as a column.

   Point `t` writes back rows `4000 t … 4000 t + 3999`: the body's one store, of the lane sums of the products of the two
   input blocks, which are the same rows of the input arrays. The 25 blocks tile the 100000 rows, row `r` lying in block
   `r / 4000`. -/
import proofs.«151172_j14164802142730_2_alg».proof.Proof.KI.R11
import proofs.«151172_j14164802142730_2_alg».proof.Proof.Val.DotRef
import Idealize.ShloMosaic.Lib.Pipeline.Value
import Idealize.ShloMosaic.Lib.ValueIdx
import Idealize.ShloMosaic.PureOps.Ideal.Laws

noncomputable section

namespace Cert.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)
open scoped BigOperators

variable [Cert.ReferenceIdeal.Facts₀]

theorem hz11 : (![0, 0] : Fin 2 → Nat) = fun _ => 0 := funext fun a => by fin_cases a <;> rfl

/-! ## The body's stored value at an index -/

/-- The lanes of row `p` of a block: the flat index `p` with lane `k` put back on the reduced axis. -/
theorem lift_row11 (h : S4000x64.Reduces [1] S4000) (p : Fin 4000) (k : Fin 64) : h.lift (ix1 p) k = ix2 p k := by
  funext a; apply Fin.ext
  match a with
  | ⟨0, _⟩ => rfl
  | ⟨1, _⟩ => rfl

/-- The stored column at row `p` is the sum over the lanes of the products of row `p` of the two loaded blocks. -/
theorem pay11_apply (x0 x1 : FVec Ideal S4000x64 .f32) (p : Fin 4000) (q : Fin 1) :
    k11_pay1 x0 x1 (ix2 p q) = ∑ k : Fin 64, x0 (ix2 p k) * x1 (ix2 p k) := by
  unfold k11_pay1
  refine (shapeCast_apply _ _ (ix2 p q) (ix1 p) ?_).trans ?_
  · rw [Shape.rowMajor_val_one, Shape.rowMajor_val_two]
    show p.val = p.val * 1 + q.val
    omega
  refine (Ideal.multiReduction_add_single _ 0x00000000#32 reduces_S4000x64_S4000 _ _ (ix1 p)).trans ?_
  refine Finset.sum_congr rfl fun k _ => ?_
  rw [mulf_apply, shapeCast_self, shapeCast_self]
  exact congrArg (fun i => x0 i * x1 i) (lift_row11 _ p k)

/-- The stored column at a block index `y`, when the two loaded blocks are rows `b … b + 3999` of arrays `L` and `R` and
    `i` is row `b + y 0` of the column: the reference's column of `L` and `R` at `i`. -/
theorem pay11_at (x0 x1 : FVec Ideal S4000x64 .f32) (L R : FVec Ideal S100000x64 .f32) (y : S4000x1.Idx) (i : S100000x1.Idx) (b : ℕ)
    (hx0 : ∀ (p : Fin 4000) (k : Fin 64) (P : Fin 100000), P.val = b + p.val → x0 (ix2 p k) = L (ix2 P k))
    (hx1 : ∀ (p : Fin 4000) (k : Fin 64) (P : Fin 100000), P.val = b + p.val → x1 (ix2 p k) = R (ix2 P k))
    (hi : (i 0).val = b + (y 0).val) :
    k11_pay1 x0 x1 y = refDot (F := Ideal) L R i := by
  obtain ⟨p, q, rfl⟩ : ∃ (p : Fin 4000) (q : Fin 1), y = ix2 p q := ⟨y 0, y 1, eq_ix2 y⟩
  obtain ⟨P, Q, rfl⟩ : ∃ (P : Fin 100000) (Q : Fin 1), i = ix2 P Q := ⟨i 0, i 1, eq_ix2 i⟩
  rw [pay11_apply, refDot_apply]
  unfold rowDot
  refine Finset.sum_congr rfl fun k _ => ?_
  rw [hx0 p k P hi, hx1 p k P hi]

/-! ## From blocks to the array -/

/-- The printed index maps over the grid: each window's block index is the point's number on the rows and zero on the
    lanes. -/
theorem idx_facts11 : ∀ t : Fin cfg11.N, win11_0.index t (0 : Fin 2) = win11_2.index t (0 : Fin 2)
    ∧ win11_0.index t (1 : Fin 2) = 0
    ∧ win11_1.index t (0 : Fin 2) = win11_2.index t (0 : Fin 2)
    ∧ win11_1.index t (1 : Fin 2) = 0
    ∧ win11_2.index t (0 : Fin 2) ≤ 24
    ∧ win11_2.index t (1 : Fin 2) = 0 :=
  (by decide +kernel : ∀ t : Fin grid11.N, _)

/-- Every block of rows is some point's. -/
theorem idx_onto11 : ∀ (q0 : Fin 25), ∃ t : Fin cfg11.N, win11_2.index t = ![q0.val, 0] :=
  (by decide +kernel : ∀ (q0 : Fin 25), ∃ t : Fin grid11.N, win11_2.index t = ![q0.val, 0])

variable (V : (c : Dev nD) → (b : Ref sig .tc) → Buf (Elt Ideal) ((c : Thread nD τ).loc b))

/-- What point `t` writes back is block `t` of the reference's column of the two input arrays as the region finds them. -/
theorem flushed11_eq (c : Dev nD) (t : Fin cfg11.N) :
    (dat11 (F := Ideal) V c).flushed 2 t
      = ((cfg11.win 2).blk t).view.read (Elt Ideal) (refDot (F := Ideal) (V c (Pipeline.arrRef spec11 0)) (V c (Pipeline.arrRef spec11 1))) := by
  show (cfg11.win 2).cut (grid11.coords t) ((dat11 (F := Ideal) V c).after 2 t) = _
  rw [after11_2]
  unfold out11_2
  rw [View.canon_unit_zero hz11]
  simp only [View.ld_unit_zero (S := S4000x64) hz11]
  obtain ⟨e0, e1, e2, e3, e4, e5⟩ := idx_facts11 t
  funext j
  show k11_pay1 (iblk11 V c 0 t) (iblk11 V c 1 t) j
    = refDot (F := Ideal) (V c (Pipeline.arrRef spec11 0)) (V c (Pipeline.arrRef spec11 1)) (((cfg11.win 2).blk t).view.emb j)
  refine pay11_at _ _ _ _ j _ (win11_2.index t (0 : Fin 2) * 4000) (fun p k P hP => ?_) (fun p k P hP => ?_) ?_
  · show V c (Pipeline.arrRef spec11 0) (((cfg11.win 0).blk t).view.emb (ix2 p k)) = V c (Pipeline.arrRef spec11 0) (ix2 P k)
    refine congrArg (V c (Pipeline.arrRef spec11 0)) (funext fun a => Fin.ext ?_)
    match a with
    | ⟨0, _⟩ => show win11_0.index t (0 : Fin 2) * 4000 + 1 * p.val = P.val; omega
    | ⟨1, _⟩ => show win11_0.index t (1 : Fin 2) * 64 + 1 * k.val = k.val; omega
  · show V c (Pipeline.arrRef spec11 1) (((cfg11.win 1).blk t).view.emb (ix2 p k)) = V c (Pipeline.arrRef spec11 1) (ix2 P k)
    refine congrArg (V c (Pipeline.arrRef spec11 1)) (funext fun a => Fin.ext ?_)
    match a with
    | ⟨0, _⟩ => show win11_1.index t (0 : Fin 2) * 4000 + 1 * p.val = P.val; omega
    | ⟨1, _⟩ => show win11_1.index t (1 : Fin 2) * 64 + 1 * k.val = k.val; omega
  · show win11_2.index t (0 : Fin 2) * 4000 + 1 * (j 0).val = win11_2.index t (0 : Fin 2) * 4000 + (j 0).val
    omega

/-- A row of the column is in point `t`'s block iff each coordinate is in the block's range on its axis. -/
theorem mem_blk11 (t : Fin cfg11.N) (i : S100000x1.Idx) :
    i ∈ ((cfg11.win 2).blk t).view.set ↔ ∀ a : Fin 2, win11_2.index t a * S4000x1.size a ≤ (i a).val ∧ (i a).val < win11_2.index t a * S4000x1.size a + S4000x1.size a := by
  show i ∈ ((View.whole (Pipeline.arrRef spec11 2)).slice (win11_2.rect t)).set ↔ _
  rw [View.set_slice_whole, Rect.mem_set_unit]
  exact Iff.rfl

/-- Every row of the column is in some point's block: row `r` in block `r / 4000`. -/
theorem covered11 (i : S100000x1.Idx) :
    ∃ t : Fin cfg11.N, (cfg11.win 2).flush t = true ∧ i ∈ ((cfg11.win 2).blk t).view.set := by
  have hi0 : (i 0).val < 100000 := (i 0).isLt
  have hi1 : (i 1).val < 1 := (i 1).isLt
  obtain ⟨t, ht⟩ := idx_onto11 ⟨(i 0).val / 4000, by omega⟩
  have q0 : win11_2.index t (0 : Fin 2) = (i 0).val / 4000 := congrFun ht 0
  have q1 : win11_2.index t (1 : Fin 2) = 0 := congrFun ht 1
  refine ⟨t, flush11_2 t, ?_⟩
  rw [mem_blk11]
  intro a
  match a with
  | ⟨0, _⟩ => show win11_2.index t (0 : Fin 2) * 4000 ≤ (i 0).val ∧ (i 0).val < win11_2.index t (0 : Fin 2) * 4000 + 4000; omega
  | ⟨1, _⟩ => show win11_2.index t (1 : Fin 2) * 1 ≤ (i 1).val ∧ (i 1).val < win11_2.index t (1 : Fin 2) * 1 + 1; omega

/-- The output array after region 11: the reference's column of the two input arrays as the region finds them. -/
theorem val11 (c : Dev nD) :
    (dat11 (F := Ideal) V c).arrAt 2 cfg11.N
      = refDot (F := Ideal) (V c (Pipeline.arrRef spec11 0)) (V c (Pipeline.arrRef spec11 1)) :=
  (dat11 (F := Ideal) V c).arrAt_eq_of_cover 2 _ (fun t _ => flushed11_eq V c t) covered11

/-- Recast to a flat array, as the program does next on the host, it is the reference's flat array of row-wise dot
    products. -/
theorem val11_flat (c : Dev nD) (h : S100000x1.ShapeCasts S100000) :
    shapeCast S100000 ((dat11 (F := Ideal) V c).arrAt 2 cfg11.N) h
      = refDotFlat (F := Ideal) (V c (Pipeline.arrRef spec11 0)) (V c (Pipeline.arrRef spec11 1)) := by
  rw [val11]
  exact shapeCast_refDot _ _ h

end Cert.Val

end
-- ==== Proof.Val.Dotr12.lean ====
/- The value of region 12 at the extended reals: after the 25 grid points the output array of 100000 rows by one
   column holds, at row `r`, the sum over the 64 lanes of the products of row `r` of the two input arrays as the region
   finds them, which is the reference's row-wise dot product laid out as a column.

   Point `t` writes back rows `4000 t … 4000 t + 3999`: the body's one store, of the lane sums of the products of the two
   input blocks, which are the same rows of the input arrays. The 25 blocks tile the 100000 rows, row `r` lying in block
   `r / 4000`. -/
import proofs.«151172_j14164802142730_2_alg».proof.Proof.KI.R12
import proofs.«151172_j14164802142730_2_alg».proof.Proof.Val.DotRef
import Idealize.ShloMosaic.Lib.Pipeline.Value
import Idealize.ShloMosaic.Lib.ValueIdx
import Idealize.ShloMosaic.PureOps.Ideal.Laws

noncomputable section

namespace Cert.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)
open scoped BigOperators

variable [Cert.ReferenceIdeal.Facts₀]

theorem hz12 : (![0, 0] : Fin 2 → Nat) = fun _ => 0 := funext fun a => by fin_cases a <;> rfl

/-! ## The body's stored value at an index -/

/-- The lanes of row `p` of a block: the flat index `p` with lane `k` put back on the reduced axis. -/
theorem lift_row12 (h : S4000x64.Reduces [1] S4000) (p : Fin 4000) (k : Fin 64) : h.lift (ix1 p) k = ix2 p k := by
  funext a; apply Fin.ext
  match a with
  | ⟨0, _⟩ => rfl
  | ⟨1, _⟩ => rfl

/-- The stored column at row `p` is the sum over the lanes of the products of row `p` of the two loaded blocks. -/
theorem pay12_apply (x0 x1 : FVec Ideal S4000x64 .f32) (p : Fin 4000) (q : Fin 1) :
    k12_pay1 x0 x1 (ix2 p q) = ∑ k : Fin 64, x0 (ix2 p k) * x1 (ix2 p k) := by
  unfold k12_pay1
  refine (shapeCast_apply _ _ (ix2 p q) (ix1 p) ?_).trans ?_
  · rw [Shape.rowMajor_val_one, Shape.rowMajor_val_two]
    show p.val = p.val * 1 + q.val
    omega
  refine (Ideal.multiReduction_add_single _ 0x00000000#32 reduces_S4000x64_S4000 _ _ (ix1 p)).trans ?_
  refine Finset.sum_congr rfl fun k _ => ?_
  rw [mulf_apply, shapeCast_self, shapeCast_self]
  exact congrArg (fun i => x0 i * x1 i) (lift_row12 _ p k)

/-- The stored column at a block index `y`, when the two loaded blocks are rows `b … b + 3999` of arrays `L` and `R` and
    `i` is row `b + y 0` of the column: the reference's column of `L` and `R` at `i`. -/
theorem pay12_at (x0 x1 : FVec Ideal S4000x64 .f32) (L R : FVec Ideal S100000x64 .f32) (y : S4000x1.Idx) (i : S100000x1.Idx) (b : ℕ)
    (hx0 : ∀ (p : Fin 4000) (k : Fin 64) (P : Fin 100000), P.val = b + p.val → x0 (ix2 p k) = L (ix2 P k))
    (hx1 : ∀ (p : Fin 4000) (k : Fin 64) (P : Fin 100000), P.val = b + p.val → x1 (ix2 p k) = R (ix2 P k))
    (hi : (i 0).val = b + (y 0).val) :
    k12_pay1 x0 x1 y = refDot (F := Ideal) L R i := by
  obtain ⟨p, q, rfl⟩ : ∃ (p : Fin 4000) (q : Fin 1), y = ix2 p q := ⟨y 0, y 1, eq_ix2 y⟩
  obtain ⟨P, Q, rfl⟩ : ∃ (P : Fin 100000) (Q : Fin 1), i = ix2 P Q := ⟨i 0, i 1, eq_ix2 i⟩
  rw [pay12_apply, refDot_apply]
  unfold rowDot
  refine Finset.sum_congr rfl fun k _ => ?_
  rw [hx0 p k P hi, hx1 p k P hi]

/-! ## From blocks to the array -/

/-- The printed index maps over the grid: each window's block index is the point's number on the rows and zero on the
    lanes. -/
theorem idx_facts12 : ∀ t : Fin cfg12.N, win12_0.index t (0 : Fin 2) = win12_2.index t (0 : Fin 2)
    ∧ win12_0.index t (1 : Fin 2) = 0
    ∧ win12_1.index t (0 : Fin 2) = win12_2.index t (0 : Fin 2)
    ∧ win12_1.index t (1 : Fin 2) = 0
    ∧ win12_2.index t (0 : Fin 2) ≤ 24
    ∧ win12_2.index t (1 : Fin 2) = 0 :=
  (by decide +kernel : ∀ t : Fin grid12.N, _)

/-- Every block of rows is some point's. -/
theorem idx_onto12 : ∀ (q0 : Fin 25), ∃ t : Fin cfg12.N, win12_2.index t = ![q0.val, 0] :=
  (by decide +kernel : ∀ (q0 : Fin 25), ∃ t : Fin grid12.N, win12_2.index t = ![q0.val, 0])

variable (V : (c : Dev nD) → (b : Ref sig .tc) → Buf (Elt Ideal) ((c : Thread nD τ).loc b))

/-- What point `t` writes back is block `t` of the reference's column of the two input arrays as the region finds them. -/
theorem flushed12_eq (c : Dev nD) (t : Fin cfg12.N) :
    (dat12 (F := Ideal) V c).flushed 2 t
      = ((cfg12.win 2).blk t).view.read (Elt Ideal) (refDot (F := Ideal) (V c (Pipeline.arrRef spec12 0)) (V c (Pipeline.arrRef spec12 1))) := by
  show (cfg12.win 2).cut (grid12.coords t) ((dat12 (F := Ideal) V c).after 2 t) = _
  rw [after12_2]
  unfold out12_2
  rw [View.canon_unit_zero hz12]
  simp only [View.ld_unit_zero (S := S4000x64) hz12]
  obtain ⟨e0, e1, e2, e3, e4, e5⟩ := idx_facts12 t
  funext j
  show k12_pay1 (iblk12 V c 0 t) (iblk12 V c 1 t) j
    = refDot (F := Ideal) (V c (Pipeline.arrRef spec12 0)) (V c (Pipeline.arrRef spec12 1)) (((cfg12.win 2).blk t).view.emb j)
  refine pay12_at _ _ _ _ j _ (win12_2.index t (0 : Fin 2) * 4000) (fun p k P hP => ?_) (fun p k P hP => ?_) ?_
  · show V c (Pipeline.arrRef spec12 0) (((cfg12.win 0).blk t).view.emb (ix2 p k)) = V c (Pipeline.arrRef spec12 0) (ix2 P k)
    refine congrArg (V c (Pipeline.arrRef spec12 0)) (funext fun a => Fin.ext ?_)
    match a with
    | ⟨0, _⟩ => show win12_0.index t (0 : Fin 2) * 4000 + 1 * p.val = P.val; omega
    | ⟨1, _⟩ => show win12_0.index t (1 : Fin 2) * 64 + 1 * k.val = k.val; omega
  · show V c (Pipeline.arrRef spec12 1) (((cfg12.win 1).blk t).view.emb (ix2 p k)) = V c (Pipeline.arrRef spec12 1) (ix2 P k)
    refine congrArg (V c (Pipeline.arrRef spec12 1)) (funext fun a => Fin.ext ?_)
    match a with
    | ⟨0, _⟩ => show win12_1.index t (0 : Fin 2) * 4000 + 1 * p.val = P.val; omega
    | ⟨1, _⟩ => show win12_1.index t (1 : Fin 2) * 64 + 1 * k.val = k.val; omega
  · show win12_2.index t (0 : Fin 2) * 4000 + 1 * (j 0).val = win12_2.index t (0 : Fin 2) * 4000 + (j 0).val
    omega

/-- A row of the column is in point `t`'s block iff each coordinate is in the block's range on its axis. -/
theorem mem_blk12 (t : Fin cfg12.N) (i : S100000x1.Idx) :
    i ∈ ((cfg12.win 2).blk t).view.set ↔ ∀ a : Fin 2, win12_2.index t a * S4000x1.size a ≤ (i a).val ∧ (i a).val < win12_2.index t a * S4000x1.size a + S4000x1.size a := by
  show i ∈ ((View.whole (Pipeline.arrRef spec12 2)).slice (win12_2.rect t)).set ↔ _
  rw [View.set_slice_whole, Rect.mem_set_unit]
  exact Iff.rfl

/-- Every row of the column is in some point's block: row `r` in block `r / 4000`. -/
theorem covered12 (i : S100000x1.Idx) :
    ∃ t : Fin cfg12.N, (cfg12.win 2).flush t = true ∧ i ∈ ((cfg12.win 2).blk t).view.set := by
  have hi0 : (i 0).val < 100000 := (i 0).isLt
  have hi1 : (i 1).val < 1 := (i 1).isLt
  obtain ⟨t, ht⟩ := idx_onto12 ⟨(i 0).val / 4000, by omega⟩
  have q0 : win12_2.index t (0 : Fin 2) = (i 0).val / 4000 := congrFun ht 0
  have q1 : win12_2.index t (1 : Fin 2) = 0 := congrFun ht 1
  refine ⟨t, flush12_2 t, ?_⟩
  rw [mem_blk12]
  intro a
  match a with
  | ⟨0, _⟩ => show win12_2.index t (0 : Fin 2) * 4000 ≤ (i 0).val ∧ (i 0).val < win12_2.index t (0 : Fin 2) * 4000 + 4000; omega
  | ⟨1, _⟩ => show win12_2.index t (1 : Fin 2) * 1 ≤ (i 1).val ∧ (i 1).val < win12_2.index t (1 : Fin 2) * 1 + 1; omega

/-- The output array after region 12: the reference's column of the two input arrays as the region finds them. -/
theorem val12 (c : Dev nD) :
    (dat12 (F := Ideal) V c).arrAt 2 cfg12.N
      = refDot (F := Ideal) (V c (Pipeline.arrRef spec12 0)) (V c (Pipeline.arrRef spec12 1)) :=
  (dat12 (F := Ideal) V c).arrAt_eq_of_cover 2 _ (fun t _ => flushed12_eq V c t) covered12

/-- Recast to a flat array, as the program does next on the host, it is the reference's flat array of row-wise dot
    products. -/
theorem val12_flat (c : Dev nD) (h : S100000x1.ShapeCasts S100000) :
    shapeCast S100000 ((dat12 (F := Ideal) V c).arrAt 2 cfg12.N) h
      = refDotFlat (F := Ideal) (V c (Pipeline.arrRef spec12 0)) (V c (Pipeline.arrRef spec12 1)) := by
  rw [val12]
  exact shapeCast_refDot _ _ h

end Cert.Val

end
-- ==== Proof.Bridge.BE.lean ====
/-
  The edge-scoring stages and the final stacking at the boundaries. Each pair lemma says that a buffer of the reference and
  a buffer of the kernel program hold the same array, given the earlier pairs it rests on: the gathered feature rows and
  labels because the same host operations gather them from arrays that agree; each score array because the region's column,
  recast flat, is the reference's product summed over the lanes of the two gathered arrays; the result because both programs
  stack the same six arrays. An array read some boundaries after it was written is carried there unchanged, no stretch
  or region in between writing it.
-/
import proofs.«151172_j14164802142730_2_alg».proof.Proof.Bridge.Base
import proofs.«151172_j14164802142730_2_alg».proof.Proof.Bridge.BES
import proofs.«151172_j14164802142730_2_alg».proof.Proof.KI.Args
import proofs.«151172_j14164802142730_2_alg».proof.Proof.Ref.Args
import proofs.«151172_j14164802142730_2_alg».proof.Proof.Val.Dot
import proofs.«151172_j14164802142730_2_alg».proof.Proof.Val.Dotr11
import proofs.«151172_j14164802142730_2_alg».proof.Proof.Val.Dotr12
import proofs.«151172_j14164802142730_2_alg».proof.Proof.Gen.ReferenceIdeal
import proofs.«151172_j14164802142730_2_alg».proof.Proof.Gen.KernelIdeal

set_option maxRecDepth 16384

noncomputable section

namespace Cert.Bridge

open Idealize.ShloMosaic Idealize.ShloMosaic.TcCoe Idealize.SL.Sem Idealize.ShloMosaic.StableHlo
open Cert.KernelIdeal.Frame Cert.ReferenceIdeal.Hand

variable {m : (ℓ : Loc Cert.KernelIdeal.nD Cert.KernelIdeal.τ Cert.KernelIdeal.sig) → Buf (Elt Ideal) ℓ} (ρ : Dev Cert.KernelIdeal.nD → PrngReg)
  {m' : (ℓ : Loc Cert.ReferenceIdeal.nD Cert.ReferenceIdeal.τ Cert.ReferenceIdeal.sig) → Buf (Elt Ideal) ℓ}

/-! ## Arrays carried unchanged across the late boundaries -/

section Late
variable (c : Dev Cert.KernelIdeal.nD)

/-- A reference that the reference's last stretches do not write holds before them what it holds at the last boundary:
    from boundary 32, -/
theorem rv32_late (r : Ref Cert.ReferenceIdeal.sig .tc) (h32 : r ∉ C32_W) (h33 : r ∉ C33_W) :
    Rv32 m' c (Proc.devRef .tc r) = Rv34 m' c (Proc.devRef .tc r) :=
  (Rv33_keep m' c r h32).symm.trans (Rv34_keep m' c r h33).symm
/-- from boundary 30, -/
theorem rv30_late (r : Ref Cert.ReferenceIdeal.sig .tc) (h30 : r ∉ C30_W) (h31 : r ∉ C31_W) (h32 : r ∉ C32_W) (h33 : r ∉ C33_W) :
    Rv30 m' c (Proc.devRef .tc r) = Rv34 m' c (Proc.devRef .tc r) :=
  (Rv31_keep m' c r h30).symm.trans ((Rv32_keep m' c r h31).symm.trans (rv32_late c r h32 h33))
/-- from boundary 29, -/
theorem rv29_late (r : Ref Cert.ReferenceIdeal.sig .tc) (h29 : r ∉ C29_W) (h30 : r ∉ C30_W) (h31 : r ∉ C31_W) (h32 : r ∉ C32_W)
    (h33 : r ∉ C33_W) : Rv29 m' c (Proc.devRef .tc r) = Rv34 m' c (Proc.devRef .tc r) :=
  (Rv30_keep m' c r h29).symm.trans (rv30_late c r h30 h31 h32 h33)
/-- from boundary 27, -/
theorem rv27_late (r : Ref Cert.ReferenceIdeal.sig .tc) (h27 : r ∉ C27_W) (h28 : r ∉ C28_W) (h29 : r ∉ C29_W) (h30 : r ∉ C30_W)
    (h31 : r ∉ C31_W) (h32 : r ∉ C32_W) (h33 : r ∉ C33_W) : Rv27 m' c (Proc.devRef .tc r) = Rv34 m' c (Proc.devRef .tc r) :=
  (Rv28_keep m' c r h27).symm.trans ((Rv29_keep m' c r h28).symm.trans (rv29_late c r h29 h30 h31 h32 h33))
/-- from boundary 26, -/
theorem rv26_late (r : Ref Cert.ReferenceIdeal.sig .tc) (h26 : r ∉ C26_W) (h27 : r ∉ C27_W) (h28 : r ∉ C28_W) (h29 : r ∉ C29_W)
    (h30 : r ∉ C30_W) (h31 : r ∉ C31_W) (h32 : r ∉ C32_W) (h33 : r ∉ C33_W) : Rv26 m' c (Proc.devRef .tc r) = Rv34 m' c (Proc.devRef .tc r) :=
  (Rv27_keep m' c r h26).symm.trans (rv27_late c r h27 h28 h29 h30 h31 h32 h33)
/-- from boundary 24. -/
theorem rv24_late (r : Ref Cert.ReferenceIdeal.sig .tc) (h24 : r ∉ C24_W) (h25 : r ∉ C25_W) (h26 : r ∉ C26_W) (h27 : r ∉ C27_W)
    (h28 : r ∉ C28_W) (h29 : r ∉ C29_W) (h30 : r ∉ C30_W) (h31 : r ∉ C31_W) (h32 : r ∉ C32_W) (h33 : r ∉ C33_W) :
    Rv24 m' c (Proc.devRef .tc r) = Rv34 m' c (Proc.devRef .tc r) :=
  (Rv25_keep m' c r h24).symm.trans ((Rv26_keep m' c r h25).symm.trans (rv26_late c r h26 h27 h28 h29 h30 h31 h32 h33))

/-- A reference that the kernel program's last items do not write holds before them what it holds at the last boundary:
    from boundary 33, -/
theorem kw33_late (r : Ref Cert.KernelIdeal.sig .tc) (h34 : r ∉ hostOps13_W) :
    W33 m ρ c (Proc.devRef .tc r) = W34 m ρ c (Proc.devRef .tc r) :=
  (W34_keep m ρ c r h34).symm
/-- from boundary 31, -/
theorem kw31_late (r : Ref Cert.KernelIdeal.sig .tc) (h32 : r ∉ hostOps12_W) (h33 : r ≠ Cert.KernelIdeal.main_v306) (h34 : r ∉ hostOps13_W) :
    W31 m ρ c (Proc.devRef .tc r) = W34 m ρ c (Proc.devRef .tc r) :=
  (W32_keep m ρ c r h32).symm.trans ((W33_keep m ρ c r h33).symm.trans (kw33_late ρ c r h34))
/-- from boundary 29, -/
theorem kw29_late (r : Ref Cert.KernelIdeal.sig .tc) (h30 : r ∉ hostOps11_W) (h31 : r ≠ Cert.KernelIdeal.main_v277)
    (h32 : r ∉ hostOps12_W) (h33 : r ≠ Cert.KernelIdeal.main_v306) (h34 : r ∉ hostOps13_W) :
    W29 m ρ c (Proc.devRef .tc r) = W34 m ρ c (Proc.devRef .tc r) :=
  (W30_keep m ρ c r h30).symm.trans ((W31_keep m ρ c r h31).symm.trans (kw31_late ρ c r h32 h33 h34))
/-- from boundary 27. -/
theorem kw27_late (r : Ref Cert.KernelIdeal.sig .tc) (h28 : r ∉ hostOps10_W) (h29 : r ≠ Cert.KernelIdeal.main_v248)
    (h30 : r ∉ hostOps11_W) (h31 : r ≠ Cert.KernelIdeal.main_v277) (h32 : r ∉ hostOps12_W) (h33 : r ≠ Cert.KernelIdeal.main_v306)
    (h34 : r ∉ hostOps13_W) : W27 m ρ c (Proc.devRef .tc r) = W34 m ρ c (Proc.devRef .tc r) :=
  (W28_keep m ρ c r h28).symm.trans ((W29_keep m ρ c r h29).symm.trans (kw29_late ρ c r h30 h31 h32 h33 h34))

/-! ## The argument arrays the last stages read, the same on both sides where they are read -/

/-- At the last boundary each still is the launch array, on both sides: the object nodes' labels, -/
theorem a34_11 (hag : Agree m m') : Rv34 m' c (Proc.devRef .tc Cert.ReferenceIdeal.main_arg11) = W34 m ρ c (Proc.devRef .tc Cert.KernelIdeal.main_arg11) :=
  (show Rv34 m' c (Proc.devRef .tc Cert.ReferenceIdeal.main_arg11) = Rv0 m' c (Proc.devRef .tc Cert.ReferenceIdeal.main_arg11) from Rv34_main_arg11 m' c).trans
    ((arg11 ρ hag c).trans (show W0 m ρ c (Proc.devRef .tc Cert.KernelIdeal.main_arg11) = W34 m ρ c (Proc.devRef .tc Cert.KernelIdeal.main_arg11) from (W34_main_arg11 m ρ c).symm))
/-- the attribute nodes' labels, -/
theorem a34_12 (hag : Agree m m') : Rv34 m' c (Proc.devRef .tc Cert.ReferenceIdeal.main_arg12) = W34 m ρ c (Proc.devRef .tc Cert.KernelIdeal.main_arg12) :=
  (show Rv34 m' c (Proc.devRef .tc Cert.ReferenceIdeal.main_arg12) = Rv0 m' c (Proc.devRef .tc Cert.ReferenceIdeal.main_arg12) from Rv34_main_arg12 m' c).trans
    ((arg12 ρ hag c).trans (show W0 m ρ c (Proc.devRef .tc Cert.KernelIdeal.main_arg12) = W34 m ρ c (Proc.devRef .tc Cert.KernelIdeal.main_arg12) from (W34_main_arg12 m ρ c).symm))
/-- the first edge list, -/
theorem a34_18 (hag : Agree m m') : Rv34 m' c (Proc.devRef .tc Cert.ReferenceIdeal.main_arg18) = W34 m ρ c (Proc.devRef .tc Cert.KernelIdeal.main_arg18) :=
  (show Rv34 m' c (Proc.devRef .tc Cert.ReferenceIdeal.main_arg18) = Rv0 m' c (Proc.devRef .tc Cert.ReferenceIdeal.main_arg18) from Rv34_main_arg18 m' c).trans
    ((arg18 ρ hag c).trans (show W0 m ρ c (Proc.devRef .tc Cert.KernelIdeal.main_arg18) = W34 m ρ c (Proc.devRef .tc Cert.KernelIdeal.main_arg18) from (W34_main_arg18 m ρ c).symm))
/-- the second edge list, -/
theorem a34_19 (hag : Agree m m') : Rv34 m' c (Proc.devRef .tc Cert.ReferenceIdeal.main_arg19) = W34 m ρ c (Proc.devRef .tc Cert.KernelIdeal.main_arg19) :=
  (show Rv34 m' c (Proc.devRef .tc Cert.ReferenceIdeal.main_arg19) = Rv0 m' c (Proc.devRef .tc Cert.ReferenceIdeal.main_arg19) from Rv34_main_arg19 m' c).trans
    ((arg19 ρ hag c).trans (show W0 m ρ c (Proc.devRef .tc Cert.KernelIdeal.main_arg19) = W34 m ρ c (Proc.devRef .tc Cert.KernelIdeal.main_arg19) from (W34_main_arg19 m ρ c).symm))
/-- the third edge list. -/
theorem a34_20 (hag : Agree m m') : Rv34 m' c (Proc.devRef .tc Cert.ReferenceIdeal.main_arg20) = W34 m ρ c (Proc.devRef .tc Cert.KernelIdeal.main_arg20) :=
  (show Rv34 m' c (Proc.devRef .tc Cert.ReferenceIdeal.main_arg20) = Rv0 m' c (Proc.devRef .tc Cert.ReferenceIdeal.main_arg20) from Rv34_main_arg20 m' c).trans
    ((arg20 ρ hag c).trans (show W0 m ρ c (Proc.devRef .tc Cert.KernelIdeal.main_arg20) = W34 m ρ c (Proc.devRef .tc Cert.KernelIdeal.main_arg20) from (W34_main_arg20 m ρ c).symm))

/-- The first edge list where the feature gathers read it, -/
theorem e18_a (hag : Agree m m') : Rv24 m' c (Proc.devRef .tc Cert.ReferenceIdeal.main_arg18) = W27 m ρ c (Proc.devRef .tc Cert.KernelIdeal.main_arg18) :=
  (rv24_late c _ (by decide) (by decide) (by decide) (by decide) (by decide) (by decide) (by decide) (by decide) (by decide) (by decide)).trans
    ((a34_18 ρ c hag).trans (kw27_late ρ c _ (by decide) (by decide) (by decide) (by decide) (by decide) (by decide) (by decide)).symm)
/-- and where the label gather reads it. -/
theorem e18_b (hag : Agree m m') : Rv26 m' c (Proc.devRef .tc Cert.ReferenceIdeal.main_arg18) = W29 m ρ c (Proc.devRef .tc Cert.KernelIdeal.main_arg18) :=
  (rv26_late c _ (by decide) (by decide) (by decide) (by decide) (by decide) (by decide) (by decide) (by decide)).trans
    ((a34_18 ρ c hag).trans (kw29_late ρ c _ (by decide) (by decide) (by decide) (by decide) (by decide)).symm)
/-- The attribute nodes' labels where their gather reads them. -/
theorem e12_b (hag : Agree m m') : Rv26 m' c (Proc.devRef .tc Cert.ReferenceIdeal.main_arg12) = W29 m ρ c (Proc.devRef .tc Cert.KernelIdeal.main_arg12) :=
  (rv26_late c _ (by decide) (by decide) (by decide) (by decide) (by decide) (by decide) (by decide) (by decide)).trans
    ((a34_12 ρ c hag).trans (kw29_late ρ c _ (by decide) (by decide) (by decide) (by decide) (by decide)).symm)
/-- The second edge list where the feature gathers read it, -/
theorem e19_a (hag : Agree m m') : Rv27 m' c (Proc.devRef .tc Cert.ReferenceIdeal.main_arg19) = W29 m ρ c (Proc.devRef .tc Cert.KernelIdeal.main_arg19) :=
  (rv27_late c _ (by decide) (by decide) (by decide) (by decide) (by decide) (by decide) (by decide)).trans
    ((a34_19 ρ c hag).trans (kw29_late ρ c _ (by decide) (by decide) (by decide) (by decide) (by decide)).symm)
/-- and where the label gather reads it. -/
theorem e19_b (hag : Agree m m') : Rv29 m' c (Proc.devRef .tc Cert.ReferenceIdeal.main_arg19) = W31 m ρ c (Proc.devRef .tc Cert.KernelIdeal.main_arg19) :=
  (rv29_late c _ (by decide) (by decide) (by decide) (by decide) (by decide)).trans
    ((a34_19 ρ c hag).trans (kw31_late ρ c _ (by decide) (by decide) (by decide)).symm)
/-- The object nodes' labels where the second edge list's gather reads them, -/
theorem e11_b (hag : Agree m m') : Rv29 m' c (Proc.devRef .tc Cert.ReferenceIdeal.main_arg11) = W31 m ρ c (Proc.devRef .tc Cert.KernelIdeal.main_arg11) :=
  (rv29_late c _ (by decide) (by decide) (by decide) (by decide) (by decide)).trans
    ((a34_11 ρ c hag).trans (kw31_late ρ c _ (by decide) (by decide) (by decide)).symm)
/-- and where the third's reads them. -/
theorem e11_c (hag : Agree m m') : Rv32 m' c (Proc.devRef .tc Cert.ReferenceIdeal.main_arg11) = W33 m ρ c (Proc.devRef .tc Cert.KernelIdeal.main_arg11) :=
  (rv32_late c _ (by decide) (by decide)).trans ((a34_11 ρ c hag).trans (kw33_late ρ c _ (by decide)).symm)
/-- The third edge list where the feature gathers read it, -/
theorem e20_a (hag : Agree m m') : Rv30 m' c (Proc.devRef .tc Cert.ReferenceIdeal.main_arg20) = W31 m ρ c (Proc.devRef .tc Cert.KernelIdeal.main_arg20) :=
  (rv30_late c _ (by decide) (by decide) (by decide) (by decide)).trans
    ((a34_20 ρ c hag).trans (kw31_late ρ c _ (by decide) (by decide) (by decide)).symm)
/-- and where the label gather reads it. -/
theorem e20_b (hag : Agree m m') : Rv32 m' c (Proc.devRef .tc Cert.ReferenceIdeal.main_arg20) = W33 m ρ c (Proc.devRef .tc Cert.KernelIdeal.main_arg20) :=
  (rv32_late c _ (by decide) (by decide)).trans ((a34_20 ρ c hag).trans (kw33_late ρ c _ (by decide)).symm)

end Late

/-! ## The final node features where the gathers read them -/

variable (c : Dev Cert.KernelIdeal.nD)

/-- The object features where the first edge list's gather reads them, -/
theorem m224_a (h224 : Rv22 m' c (Proc.devRef .tc Cert.ReferenceIdeal.main_v356) = W25 m ρ c (Proc.devRef .tc Cert.KernelIdeal.main_v224)) :
    Rv24 m' c (Proc.devRef .tc Cert.ReferenceIdeal.main_v356) = W27 m ρ c (Proc.devRef .tc Cert.KernelIdeal.main_v224) :=
  ((Rv24_keep m' c _ (by decide)).trans (Rv23_keep m' c _ (by decide))).trans
    (h224.trans ((W27_keep m ρ c _ (by decide)).trans (W26_keep m ρ c _ (by decide))).symm)

/-- where the second's reads them, -/
theorem m224_b (h224 : Rv22 m' c (Proc.devRef .tc Cert.ReferenceIdeal.main_v356) = W25 m ρ c (Proc.devRef .tc Cert.KernelIdeal.main_v224)) :
    Rv27 m' c (Proc.devRef .tc Cert.ReferenceIdeal.main_v356) = W29 m ρ c (Proc.devRef .tc Cert.KernelIdeal.main_v224) :=
  ((Rv27_keep m' c _ (by decide)).trans ((Rv26_keep m' c _ (by decide)).trans (Rv25_keep m' c _ (by decide)))).trans
    ((m224_a ρ c h224).trans ((W29_keep m ρ c _ (by decide)).trans (W28_keep m ρ c _ (by decide))).symm)

/-- and where the third's reads them. -/
theorem m224_c (h224 : Rv22 m' c (Proc.devRef .tc Cert.ReferenceIdeal.main_v356) = W25 m ρ c (Proc.devRef .tc Cert.KernelIdeal.main_v224)) :
    Rv30 m' c (Proc.devRef .tc Cert.ReferenceIdeal.main_v356) = W31 m ρ c (Proc.devRef .tc Cert.KernelIdeal.main_v224) :=
  ((Rv30_keep m' c _ (by decide)).trans ((Rv29_keep m' c _ (by decide)).trans (Rv28_keep m' c _ (by decide)))).trans
    ((m224_b ρ c h224).trans ((W31_keep m ρ c _ (by decide)).trans (W30_keep m ρ c _ (by decide))).symm)

/-- The attribute features where the second edge list's gather reads them. -/
theorem m229_b (h229 : Rv24 m' c (Proc.devRef .tc Cert.ReferenceIdeal.main_v379) = W27 m ρ c (Proc.devRef .tc Cert.KernelIdeal.main_v229)) :
    Rv27 m' c (Proc.devRef .tc Cert.ReferenceIdeal.main_v379) = W29 m ρ c (Proc.devRef .tc Cert.KernelIdeal.main_v229) :=
  ((Rv27_keep m' c _ (by decide)).trans ((Rv26_keep m' c _ (by decide)).trans (Rv25_keep m' c _ (by decide)))).trans
    (h229.trans ((W29_keep m ρ c _ (by decide)).trans (W28_keep m ρ c _ (by decide))).symm)

/-! ## The first edge list -/

/-- The object features' rows at its sources. -/
theorem p_v238 (hag : Agree m m') (h224 : Rv22 m' c (Proc.devRef .tc Cert.ReferenceIdeal.main_v356) = W25 m ρ c (Proc.devRef .tc Cert.KernelIdeal.main_v224)) :
    Rv25 m' c (Proc.devRef .tc Cert.ReferenceIdeal.main_v388) = W28 m ρ c (Proc.devRef .tc Cert.KernelIdeal.main_v238) := by
  rw [Rv25_eq, W28_eq]
  exact s_v238 _ _ (e18_a ρ c hag) (m224_a ρ c h224)

/-- The attribute features' rows at its targets. -/
theorem p_v247 (hag : Agree m m') (h229 : Rv24 m' c (Proc.devRef .tc Cert.ReferenceIdeal.main_v379) = W27 m ρ c (Proc.devRef .tc Cert.KernelIdeal.main_v229)) :
    Rv25 m' c (Proc.devRef .tc Cert.ReferenceIdeal.main_v397) = W28 m ρ c (Proc.devRef .tc Cert.KernelIdeal.main_v247) := by
  rw [Rv25_eq, W28_eq]
  exact s_v247 _ _ (e18_a ρ c hag) h229

/-- Its scores: region 10's column recast flat against the reference's product summed over the lanes. -/
theorem p_v249 (h238 : Rv25 m' c (Proc.devRef .tc Cert.ReferenceIdeal.main_v388) = W28 m ρ c (Proc.devRef .tc Cert.KernelIdeal.main_v238))
    (h247 : Rv25 m' c (Proc.devRef .tc Cert.ReferenceIdeal.main_v397) = W28 m ρ c (Proc.devRef .tc Cert.KernelIdeal.main_v247)) :
    Rv26 m' c (Proc.devRef .tc Cert.ReferenceIdeal.main_v399) = W30 m ρ c (Proc.devRef .tc Cert.KernelIdeal.main_v249) := by
  rw [Rv26_eq, s_r399, W30_eq, s_k249, W29_out, Cert.Val.val10 (V28 m ρ) c]
  simp only [arrRef10_0, arrRef10_1]
  rw [h238, h247]
  exact (Cert.Val.shapeCast_refDot _ _ _).symm

/-- The attribute nodes' labels at its targets. -/
theorem p_v258 (hag : Agree m m') :
    Rv27 m' c (Proc.devRef .tc Cert.ReferenceIdeal.main_v408) = W30 m ρ c (Proc.devRef .tc Cert.KernelIdeal.main_v258) := by
  rw [Rv27_eq, W30_eq]
  exact s_v258 _ _ (e18_b ρ c hag) (e12_b ρ c hag)

/-! ## The second edge list -/

/-- The attribute features' rows at its sources. -/
theorem p_v267 (hag : Agree m m') (h229 : Rv24 m' c (Proc.devRef .tc Cert.ReferenceIdeal.main_v379) = W27 m ρ c (Proc.devRef .tc Cert.KernelIdeal.main_v229)) :
    Rv28 m' c (Proc.devRef .tc Cert.ReferenceIdeal.main_v417) = W30 m ρ c (Proc.devRef .tc Cert.KernelIdeal.main_v267) := by
  rw [Rv28_eq, W30_eq]
  exact s_v267 _ _ (e19_a ρ c hag) (m229_b ρ c h229)

/-- The object features' rows at its targets. -/
theorem p_v276 (hag : Agree m m') (h224 : Rv22 m' c (Proc.devRef .tc Cert.ReferenceIdeal.main_v356) = W25 m ρ c (Proc.devRef .tc Cert.KernelIdeal.main_v224)) :
    Rv28 m' c (Proc.devRef .tc Cert.ReferenceIdeal.main_v426) = W30 m ρ c (Proc.devRef .tc Cert.KernelIdeal.main_v276) := by
  rw [Rv28_eq, W30_eq]
  exact s_v276 _ _ (e19_a ρ c hag) (m224_b ρ c h224)

/-- Its scores: region 11's column recast flat. -/
theorem p_v278 (h267 : Rv28 m' c (Proc.devRef .tc Cert.ReferenceIdeal.main_v417) = W30 m ρ c (Proc.devRef .tc Cert.KernelIdeal.main_v267))
    (h276 : Rv28 m' c (Proc.devRef .tc Cert.ReferenceIdeal.main_v426) = W30 m ρ c (Proc.devRef .tc Cert.KernelIdeal.main_v276)) :
    Rv29 m' c (Proc.devRef .tc Cert.ReferenceIdeal.main_v428) = W32 m ρ c (Proc.devRef .tc Cert.KernelIdeal.main_v278) := by
  rw [Rv29_eq, s_r428, W32_eq, s_k278, W31_out, Cert.Val.val11 (V30 m ρ) c]
  simp only [arrRef11_0, arrRef11_1]
  rw [h267, h276]
  exact (Cert.Val.shapeCast_refDot _ _ _).symm

/-- The object nodes' labels at its targets. -/
theorem p_v287 (hag : Agree m m') :
    Rv30 m' c (Proc.devRef .tc Cert.ReferenceIdeal.main_v437) = W32 m ρ c (Proc.devRef .tc Cert.KernelIdeal.main_v287) := by
  rw [Rv30_eq, W32_eq]
  exact s_v287 _ _ (e19_b ρ c hag) (e11_b ρ c hag)

/-! ## The third edge list -/

/-- The object features' rows at its sources. -/
theorem p_v296 (hag : Agree m m') (h224 : Rv22 m' c (Proc.devRef .tc Cert.ReferenceIdeal.main_v356) = W25 m ρ c (Proc.devRef .tc Cert.KernelIdeal.main_v224)) :
    Rv31 m' c (Proc.devRef .tc Cert.ReferenceIdeal.main_v446) = W32 m ρ c (Proc.devRef .tc Cert.KernelIdeal.main_v296) := by
  rw [Rv31_eq, W32_eq]
  exact s_v296 _ _ (e20_a ρ c hag) (m224_c ρ c h224)

/-- The object features' rows at its targets. -/
theorem p_v305 (hag : Agree m m') (h224 : Rv22 m' c (Proc.devRef .tc Cert.ReferenceIdeal.main_v356) = W25 m ρ c (Proc.devRef .tc Cert.KernelIdeal.main_v224)) :
    Rv31 m' c (Proc.devRef .tc Cert.ReferenceIdeal.main_v455) = W32 m ρ c (Proc.devRef .tc Cert.KernelIdeal.main_v305) := by
  rw [Rv31_eq, W32_eq]
  exact s_v305 _ _ (e20_a ρ c hag) (m224_c ρ c h224)

/-- Its scores: region 12's column recast flat. -/
theorem p_v307 (h296 : Rv31 m' c (Proc.devRef .tc Cert.ReferenceIdeal.main_v446) = W32 m ρ c (Proc.devRef .tc Cert.KernelIdeal.main_v296))
    (h305 : Rv31 m' c (Proc.devRef .tc Cert.ReferenceIdeal.main_v455) = W32 m ρ c (Proc.devRef .tc Cert.KernelIdeal.main_v305)) :
    Rv32 m' c (Proc.devRef .tc Cert.ReferenceIdeal.main_v457) = W34 m ρ c (Proc.devRef .tc Cert.KernelIdeal.main_v307) := by
  rw [Rv32_eq, s_r457, W34_eq, s_k307, W33_out, Cert.Val.val12 (V32 m ρ) c]
  simp only [arrRef12_0, arrRef12_1]
  rw [h296, h305]
  exact (Cert.Val.shapeCast_refDot _ _ _).symm

/-- The object nodes' labels at its targets. -/
theorem p_v316 (hag : Agree m m') :
    Rv33 m' c (Proc.devRef .tc Cert.ReferenceIdeal.main_v466) = W34 m ρ c (Proc.devRef .tc Cert.KernelIdeal.main_v316) := by
  rw [Rv33_eq, W34_eq]
  exact s_v316 _ _ (e20_b ρ c hag) (e11_c ρ c hag)

/-! ## The result -/

/-- Both programs stack the three score arrays and the three label arrays, each laid out as a row. -/
theorem final_of (h249 : Rv26 m' c (Proc.devRef .tc Cert.ReferenceIdeal.main_v399) = W30 m ρ c (Proc.devRef .tc Cert.KernelIdeal.main_v249))
    (h258 : Rv27 m' c (Proc.devRef .tc Cert.ReferenceIdeal.main_v408) = W30 m ρ c (Proc.devRef .tc Cert.KernelIdeal.main_v258))
    (h278 : Rv29 m' c (Proc.devRef .tc Cert.ReferenceIdeal.main_v428) = W32 m ρ c (Proc.devRef .tc Cert.KernelIdeal.main_v278))
    (h287 : Rv30 m' c (Proc.devRef .tc Cert.ReferenceIdeal.main_v437) = W32 m ρ c (Proc.devRef .tc Cert.KernelIdeal.main_v287))
    (h307 : Rv32 m' c (Proc.devRef .tc Cert.ReferenceIdeal.main_v457) = W34 m ρ c (Proc.devRef .tc Cert.KernelIdeal.main_v307))
    (h316 : Rv33 m' c (Proc.devRef .tc Cert.ReferenceIdeal.main_v466) = W34 m ρ c (Proc.devRef .tc Cert.KernelIdeal.main_v316)) :
    Rv34 m' c (Proc.devRef .tc Cert.ReferenceIdeal.main_v473) = W34 m ρ c (Proc.devRef .tc Cert.KernelIdeal.main_v323) := by
  have e249 : Rv33 m' c (Proc.devRef .tc Cert.ReferenceIdeal.main_v399) = after Cert.KernelIdeal.Gen.hostOps13 (W33 m ρ c) (Proc.devRef .tc Cert.KernelIdeal.main_v249) := by
    rw [← W34_eq]
    exact ((Rv33_keep m' c _ (by decide)).trans ((Rv32_keep m' c _ (by decide)).trans ((Rv31_keep m' c _ (by decide)).trans
      ((Rv30_keep m' c _ (by decide)).trans ((Rv29_keep m' c _ (by decide)).trans ((Rv28_keep m' c _ (by decide)).trans
        (Rv27_keep m' c _ (by decide)))))))).trans
      (h249.trans ((W34_keep m ρ c _ (by decide)).trans ((W33_keep m ρ c _ (by decide)).trans ((W32_keep m ρ c _ (by decide)).trans
        (W31_keep m ρ c _ (by decide))))).symm)
  have e258 : Rv33 m' c (Proc.devRef .tc Cert.ReferenceIdeal.main_v408) = after Cert.KernelIdeal.Gen.hostOps13 (W33 m ρ c) (Proc.devRef .tc Cert.KernelIdeal.main_v258) := by
    rw [← W34_eq]
    exact ((Rv33_keep m' c _ (by decide)).trans ((Rv32_keep m' c _ (by decide)).trans ((Rv31_keep m' c _ (by decide)).trans
      ((Rv30_keep m' c _ (by decide)).trans ((Rv29_keep m' c _ (by decide)).trans (Rv28_keep m' c _ (by decide))))))).trans
      (h258.trans ((W34_keep m ρ c _ (by decide)).trans ((W33_keep m ρ c _ (by decide)).trans ((W32_keep m ρ c _ (by decide)).trans
        (W31_keep m ρ c _ (by decide))))).symm)
  have e278 : Rv33 m' c (Proc.devRef .tc Cert.ReferenceIdeal.main_v428) = after Cert.KernelIdeal.Gen.hostOps13 (W33 m ρ c) (Proc.devRef .tc Cert.KernelIdeal.main_v278) := by
    rw [← W34_eq]
    exact ((Rv33_keep m' c _ (by decide)).trans ((Rv32_keep m' c _ (by decide)).trans ((Rv31_keep m' c _ (by decide)).trans
      (Rv30_keep m' c _ (by decide))))).trans
      (h278.trans ((W34_keep m ρ c _ (by decide)).trans (W33_keep m ρ c _ (by decide))).symm)
  have e287 : Rv33 m' c (Proc.devRef .tc Cert.ReferenceIdeal.main_v437) = after Cert.KernelIdeal.Gen.hostOps13 (W33 m ρ c) (Proc.devRef .tc Cert.KernelIdeal.main_v287) := by
    rw [← W34_eq]
    exact ((Rv33_keep m' c _ (by decide)).trans ((Rv32_keep m' c _ (by decide)).trans (Rv31_keep m' c _ (by decide)))).trans
      (h287.trans ((W34_keep m ρ c _ (by decide)).trans (W33_keep m ρ c _ (by decide))).symm)
  have e307 : Rv33 m' c (Proc.devRef .tc Cert.ReferenceIdeal.main_v457) = after Cert.KernelIdeal.Gen.hostOps13 (W33 m ρ c) (Proc.devRef .tc Cert.KernelIdeal.main_v307) := by
    rw [← W34_eq]; exact (Rv33_keep m' c _ (by decide)).trans h307
  have e316 : Rv33 m' c (Proc.devRef .tc Cert.ReferenceIdeal.main_v466) = after Cert.KernelIdeal.Gen.hostOps13 (W33 m ρ c) (Proc.devRef .tc Cert.KernelIdeal.main_v316) := by
    rw [← W34_eq]; exact h316
  rw [Rv34_eq, W34_eq]
  exact s_final _ _ e249 e278 e307 e258 e287 e316

end Cert.Bridge

end
-- ==== Proof.Bridge.Final.lean ====
/-
  The bridge composed. The two idealized programs are compared stage by stage in the sibling modules: each pair lemma says
  that a buffer of the reference at one of its boundaries equals a buffer of the kernel program at one of its own, given the
  pairs of the stage's inputs. Here the stages are chained from the argument arrays to the result: the encoders' outputs feed
  layer 0's aggregations and combines, those its batch statistics and batch-norm, those layer 1's combines and batch-norm,
  and the two final feature arrays feed the three edge scorings, whose predictions and labels are stacked into the result on
  both sides. Only the agreement of the two launch memories on the argument arrays is assumed.
-/
import proofs.«151172_j14164802142730_2_alg».proof.Proof.Bridge.B0
import proofs.«151172_j14164802142730_2_alg».proof.Proof.Bridge.BL0a
import proofs.«151172_j14164802142730_2_alg».proof.Proof.Bridge.BL0b
import proofs.«151172_j14164802142730_2_alg».proof.Proof.Bridge.BL1a
import proofs.«151172_j14164802142730_2_alg».proof.Proof.Bridge.BL1b
import proofs.«151172_j14164802142730_2_alg».proof.Proof.Bridge.BE

set_option maxRecDepth 16384

noncomputable section

namespace Cert.Bridge

open Idealize.ShloMosaic Idealize.ShloMosaic.TcCoe Idealize.SL.Sem Idealize.ShloMosaic.StableHlo
open Cert.KernelIdeal.Frame Cert.ReferenceIdeal.Hand

variable {m : (ℓ : Loc Cert.KernelIdeal.nD Cert.KernelIdeal.τ Cert.KernelIdeal.sig) → Buf (Elt Ideal) ℓ} (ρ : Dev Cert.KernelIdeal.nD → PrngReg)
  {m' : (ℓ : Loc Cert.ReferenceIdeal.nD Cert.ReferenceIdeal.τ Cert.ReferenceIdeal.sig) → Buf (Elt Ideal) ℓ}

/-- THE RESULT: the reference's stacked predictions and labels at its last boundary are the kernel program's at its own,
    whenever the two launch memories agree on the argument arrays. -/
theorem final (hag : Agree m m') (c : Dev Cert.KernelIdeal.nD) :
    Rv34 m' c (Proc.devRef .tc Cert.ReferenceIdeal.main_v473) = W34 m ρ c (Proc.devRef .tc Cert.KernelIdeal.main_v323) := by
  -- the encoders' outputs
  have h14 := p_v14 (ρ := ρ) (hag := hag) (c := c)
  have h15 := p_v15 (ρ := ρ) (hag := hag) (c := c)
  -- layer 0: the aggregations and the SAGEConv combines
  have h91 := p_v91 (ρ := ρ) (hag := hag) (c := c) (h14 := h14) (h15 := h15)
  have h104 := p_v104 (ρ := ρ) (hag := hag) (c := c) (h14 := h14) (h15 := h15)
  -- layer 0: the batch statistics and batch-norm
  have h117 := p_v117 (ρ := ρ) (hag := hag) (c := c) (h104 := h104)
  have h122 := p_v122 (ρ := ρ) (hag := hag) (c := c) (h91 := h91)
  -- layer 1: the aggregations and the SAGEConv combines
  have h193 := p_v193 (ρ := ρ) (hag := hag) (c := c)
  have h195 := p_v195 (ρ := ρ) (hag := hag) (c := c)
  have h197 := p_v197 (ρ := ρ) (hag := hag) (c := c)
  have h145 := p_v145 (ρ := ρ) (h117 := h117) (hag := hag) (c := c)
  have h198 := p_v198 (ρ := ρ) (h122 := h122) (h145 := h145) (h193 := h193) (h195 := h195) (h197 := h197) (c := c)
  have h200 := p_v200 (ρ := ρ) (hag := hag) (c := c)
  have h202 := p_v202 (ρ := ρ) (hag := hag) (c := c)
  have h204 := p_v204 (ρ := ρ) (hag := hag) (c := c)
  have h168 := p_v168 (ρ := ρ) (h122 := h122) (hag := hag) (c := c)
  have h206 := p_v206 (ρ := ρ) (hag := hag) (c := c)
  have h208 := p_v208 (ρ := ρ) (hag := hag) (c := c)
  have h210 := p_v210 (ρ := ρ) (hag := hag) (c := c)
  have h191 := p_v191 (ρ := ρ) (h117 := h117) (hag := hag) (c := c)
  have h211 := p_v211 (ρ := ρ) (h117 := h117) (h168 := h168) (h191 := h191) (h200 := h200) (h202 := h202) (h204 := h204) (h206 := h206) (h208 := h208) (h210 := h210) (c := c)
  -- layer 1: the batch statistics and batch-norm
  have h224 := p_v224 (ρ := ρ) (hag := hag) (c := c) (h211 := h211)
  have h229 := p_v229 (ρ := ρ) (hag := hag) (c := c) (h198 := h198)
  -- the edge scorings, the labels and the stacking
  have h238 := p_v238 (ρ := ρ) (c := c) (hag := hag) (h224 := h224)
  have h247 := p_v247 (ρ := ρ) (c := c) (hag := hag) (h229 := h229)
  have h249 := p_v249 (ρ := ρ) (c := c) (h238 := h238) (h247 := h247)
  have h258 := p_v258 (ρ := ρ) (c := c) (hag := hag)
  have h267 := p_v267 (ρ := ρ) (c := c) (hag := hag) (h229 := h229)
  have h276 := p_v276 (ρ := ρ) (c := c) (hag := hag) (h224 := h224)
  have h278 := p_v278 (ρ := ρ) (c := c) (h267 := h267) (h276 := h276)
  have h287 := p_v287 (ρ := ρ) (c := c) (hag := hag)
  have h296 := p_v296 (ρ := ρ) (c := c) (hag := hag) (h224 := h224)
  have h305 := p_v305 (ρ := ρ) (c := c) (hag := hag) (h224 := h224)
  have h307 := p_v307 (ρ := ρ) (c := c) (h296 := h296) (h305 := h305)
  have h316 := p_v316 (ρ := ρ) (c := c) (hag := hag)
  exact final_of (ρ := ρ) (c := c) (h249 := h249) (h258 := h258) (h278 := h278) (h287 := h287) (h307 := h307) (h316 := h316)

end Cert.Bridge

end
-- ==== Proof.Bridge.BaseLaunch.lean ====
/-
  The agreement of the two launch memories on the argument arrays, as the certificate's statement spells it (one equation per
  argument, at the launch memories), gives the agreement at the first boundaries: each program's first boundary is its launch
  memory.
-/
import proofs.«151172_j14164802142730_2_alg».proof.Proof.Bridge.Base

set_option maxRecDepth 16384

noncomputable section

namespace Cert.Bridge

open Idealize.ShloMosaic Idealize.ShloMosaic.TcCoe Idealize.SL.Sem Idealize.ShloMosaic.StableHlo
open Cert.KernelIdeal.Frame Cert.ReferenceIdeal.Hand

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

set_option maxHeartbeats 4000000 in
theorem Agree.of_launch (h : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) : Agree m m' := fun n =>
  match n with
  | 0 => fun ρ c => (h c).1
  | 1 => fun ρ c => (h c).2.1
  | 2 => fun ρ c => (h c).2.2.1
  | 3 => fun ρ c => (h c).2.2.2.1
  | 4 => fun ρ c => (h c).2.2.2.2.1
  | 5 => fun ρ c => (h c).2.2.2.2.2.1
  | 6 => fun ρ c => (h c).2.2.2.2.2.2.1
  | 7 => fun ρ c => (h c).2.2.2.2.2.2.2.1
  | 8 => fun ρ c => (h c).2.2.2.2.2.2.2.2.1
  | 9 => fun ρ c => (h c).2.2.2.2.2.2.2.2.2.1
  | 10 => fun ρ c => (h c).2.2.2.2.2.2.2.2.2.2.1
  | 11 => fun ρ c => (h c).2.2.2.2.2.2.2.2.2.2.2.1
  | 12 => fun ρ c => (h c).2.2.2.2.2.2.2.2.2.2.2.2.1
  | 13 => fun ρ c => (h c).2.2.2.2.2.2.2.2.2.2.2.2.2.1
  | 14 => fun ρ c => (h c).2.2.2.2.2.2.2.2.2.2.2.2.2.2.1
  | 15 => fun ρ c => (h c).2.2.2.2.2.2.2.2.2.2.2.2.2.2.2.1
  | 16 => fun ρ c => (h c).2.2.2.2.2.2.2.2.2.2.2.2.2.2.2.2.1
  | 17 => fun ρ c => (h c).2.2.2.2.2.2.2.2.2.2.2.2.2.2.2.2.2.1
  | 18 => fun ρ c => (h c).2.2.2.2.2.2.2.2.2.2.2.2.2.2.2.2.2.2.1
  | 19 => fun ρ c => (h c).2.2.2.2.2.2.2.2.2.2.2.2.2.2.2.2.2.2.2.1
  | 20 => fun ρ c => (h c).2.2.2.2.2.2.2.2.2.2.2.2.2.2.2.2.2.2.2.2
  | _ + 21 => trivial

end Cert.Bridge

end
-- ==== Proof.lean ====
/-
  The certificate. Both printed kernel programs (the word-level one and its idealization, the same text read at two float
  instances) run as the chain of 34 items — 21 stretches of host operations and 13 kernel regions — and end with every
  unscoped buffer at the last boundary's contents; no item changes an argument array, which gives the two frames. The
  reference runs as one list of host operations, which gives its frame. At the ideal values the two results are compared
  stage by stage: the embedding gathers, the mean aggregations over edges, the batch statistics, the edge gathers and the final
  stacking are the same host operations on both sides; each kernel region's output array is the reference's composition of
  its input arrays — the encoder's two Linear + LeakyReLU layers, the SAGEConv linear combines (the kernel adds the two
  convolutions' terms left to right, the reference conv by conv: addition of extended reals is associative), the row-wise
  dot product, and the batch-norm step, where the kernel multiplies by the reciprocal square root of `var + ε` and the
  reference divides by its square root: equal on the extended reals because the variance, a mean of squares, is ≥ 0, so
  `var + ε > 0`. No finiteness of the inputs is needed.
-/
import proofs.«151172_j14164802142730_2_alg».proof.Defs
import proofs.«151172_j14164802142730_2_alg».proof.Proof.K.Run
import proofs.«151172_j14164802142730_2_alg».proof.Proof.K.Args
import proofs.«151172_j14164802142730_2_alg».proof.Proof.KI.Run
import proofs.«151172_j14164802142730_2_alg».proof.Proof.KI.Args
import proofs.«151172_j14164802142730_2_alg».proof.Proof.Ref.Args
import proofs.«151172_j14164802142730_2_alg».proof.Proof.Bridge.Final
import proofs.«151172_j14164802142730_2_alg».proof.Proof.Bridge.BaseLaunch
import proofs.«151172_j14164802142730_2_alg».proof.Proof.Gen.Kernel
import proofs.«151172_j14164802142730_2_alg».proof.Proof.Gen.KernelIdeal
import proofs.«151172_j14164802142730_2_alg».proof.Proof.Gen.ReferenceIdeal
import proofs.«151172_j14164802142730_2_alg».proof.Proof.Gen.Pre_finite_inputs

set_option maxRecDepth 16384

noncomputable section

namespace Cert.Proof

open Idealize.ShloMosaic Idealize.ShloMosaic.TcCoe Idealize.SL.Sem

/-- The word-level program runs and leaves its argument arrays as launched. -/
theorem frame_k : Cert.frame_Kernel (hKernel := Cert.Kernel.Gen.facts) (hPre_finite_inputs := Cert.Pre_finite_inputs.Gen.facts) := fun m ρ _ =>
  (θ_run (Cert.Kernel.defs (F := Bits)) _ _).mono (fun r h c =>
    ⟨(h c _ (Cert.Kernel.Frame.mem_uc Cert.Kernel.main_arg0 (by decide))).trans (Cert.Kernel.Frame.W34_main_arg0 m ρ c),
     (h c _ (Cert.Kernel.Frame.mem_uc Cert.Kernel.main_arg1 (by decide))).trans (Cert.Kernel.Frame.W34_main_arg1 m ρ c),
     (h c _ (Cert.Kernel.Frame.mem_uc Cert.Kernel.main_arg2 (by decide))).trans (Cert.Kernel.Frame.W34_main_arg2 m ρ c),
     (h c _ (Cert.Kernel.Frame.mem_uc Cert.Kernel.main_arg3 (by decide))).trans (Cert.Kernel.Frame.W34_main_arg3 m ρ c),
     (h c _ (Cert.Kernel.Frame.mem_uc Cert.Kernel.main_arg4 (by decide))).trans (Cert.Kernel.Frame.W34_main_arg4 m ρ c),
     (h c _ (Cert.Kernel.Frame.mem_uc Cert.Kernel.main_arg5 (by decide))).trans (Cert.Kernel.Frame.W34_main_arg5 m ρ c),
     (h c _ (Cert.Kernel.Frame.mem_uc Cert.Kernel.main_arg6 (by decide))).trans (Cert.Kernel.Frame.W34_main_arg6 m ρ c),
     (h c _ (Cert.Kernel.Frame.mem_uc Cert.Kernel.main_arg7 (by decide))).trans (Cert.Kernel.Frame.W34_main_arg7 m ρ c),
     (h c _ (Cert.Kernel.Frame.mem_uc Cert.Kernel.main_arg8 (by decide))).trans (Cert.Kernel.Frame.W34_main_arg8 m ρ c),
     (h c _ (Cert.Kernel.Frame.mem_uc Cert.Kernel.main_arg9 (by decide))).trans (Cert.Kernel.Frame.W34_main_arg9 m ρ c),
     (h c _ (Cert.Kernel.Frame.mem_uc Cert.Kernel.main_arg10 (by decide))).trans (Cert.Kernel.Frame.W34_main_arg10 m ρ c),
     (h c _ (Cert.Kernel.Frame.mem_uc Cert.Kernel.main_arg11 (by decide))).trans (Cert.Kernel.Frame.W34_main_arg11 m ρ c),
     (h c _ (Cert.Kernel.Frame.mem_uc Cert.Kernel.main_arg12 (by decide))).trans (Cert.Kernel.Frame.W34_main_arg12 m ρ c),
     (h c _ (Cert.Kernel.Frame.mem_uc Cert.Kernel.main_arg13 (by decide))).trans (Cert.Kernel.Frame.W34_main_arg13 m ρ c),
     (h c _ (Cert.Kernel.Frame.mem_uc Cert.Kernel.main_arg14 (by decide))).trans (Cert.Kernel.Frame.W34_main_arg14 m ρ c),
     (h c _ (Cert.Kernel.Frame.mem_uc Cert.Kernel.main_arg15 (by decide))).trans (Cert.Kernel.Frame.W34_main_arg15 m ρ c),
     (h c _ (Cert.Kernel.Frame.mem_uc Cert.Kernel.main_arg16 (by decide))).trans (Cert.Kernel.Frame.W34_main_arg16 m ρ c),
     (h c _ (Cert.Kernel.Frame.mem_uc Cert.Kernel.main_arg17 (by decide))).trans (Cert.Kernel.Frame.W34_main_arg17 m ρ c),
     (h c _ (Cert.Kernel.Frame.mem_uc Cert.Kernel.main_arg18 (by decide))).trans (Cert.Kernel.Frame.W34_main_arg18 m ρ c),
     (h c _ (Cert.Kernel.Frame.mem_uc Cert.Kernel.main_arg19 (by decide))).trans (Cert.Kernel.Frame.W34_main_arg19 m ρ c),
     (h c _ (Cert.Kernel.Frame.mem_uc Cert.Kernel.main_arg20 (by decide))).trans (Cert.Kernel.Frame.W34_main_arg20 m ρ c)⟩)
    (Cert.Kernel.Frame.run_main (F := Bits) m ρ)

/-- So does the idealized program. -/
theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun r h c =>
    ⟨(h c _ (Cert.KernelIdeal.Frame.mem_uc Cert.KernelIdeal.main_arg0 (by decide))).trans (Cert.KernelIdeal.Frame.W34_main_arg0 m ρ c),
     (h c _ (Cert.KernelIdeal.Frame.mem_uc Cert.KernelIdeal.main_arg1 (by decide))).trans (Cert.KernelIdeal.Frame.W34_main_arg1 m ρ c),
     (h c _ (Cert.KernelIdeal.Frame.mem_uc Cert.KernelIdeal.main_arg2 (by decide))).trans (Cert.KernelIdeal.Frame.W34_main_arg2 m ρ c),
     (h c _ (Cert.KernelIdeal.Frame.mem_uc Cert.KernelIdeal.main_arg3 (by decide))).trans (Cert.KernelIdeal.Frame.W34_main_arg3 m ρ c),
     (h c _ (Cert.KernelIdeal.Frame.mem_uc Cert.KernelIdeal.main_arg4 (by decide))).trans (Cert.KernelIdeal.Frame.W34_main_arg4 m ρ c),
     (h c _ (Cert.KernelIdeal.Frame.mem_uc Cert.KernelIdeal.main_arg5 (by decide))).trans (Cert.KernelIdeal.Frame.W34_main_arg5 m ρ c),
     (h c _ (Cert.KernelIdeal.Frame.mem_uc Cert.KernelIdeal.main_arg6 (by decide))).trans (Cert.KernelIdeal.Frame.W34_main_arg6 m ρ c),
     (h c _ (Cert.KernelIdeal.Frame.mem_uc Cert.KernelIdeal.main_arg7 (by decide))).trans (Cert.KernelIdeal.Frame.W34_main_arg7 m ρ c),
     (h c _ (Cert.KernelIdeal.Frame.mem_uc Cert.KernelIdeal.main_arg8 (by decide))).trans (Cert.KernelIdeal.Frame.W34_main_arg8 m ρ c),
     (h c _ (Cert.KernelIdeal.Frame.mem_uc Cert.KernelIdeal.main_arg9 (by decide))).trans (Cert.KernelIdeal.Frame.W34_main_arg9 m ρ c),
     (h c _ (Cert.KernelIdeal.Frame.mem_uc Cert.KernelIdeal.main_arg10 (by decide))).trans (Cert.KernelIdeal.Frame.W34_main_arg10 m ρ c),
     (h c _ (Cert.KernelIdeal.Frame.mem_uc Cert.KernelIdeal.main_arg11 (by decide))).trans (Cert.KernelIdeal.Frame.W34_main_arg11 m ρ c),
     (h c _ (Cert.KernelIdeal.Frame.mem_uc Cert.KernelIdeal.main_arg12 (by decide))).trans (Cert.KernelIdeal.Frame.W34_main_arg12 m ρ c),
     (h c _ (Cert.KernelIdeal.Frame.mem_uc Cert.KernelIdeal.main_arg13 (by decide))).trans (Cert.KernelIdeal.Frame.W34_main_arg13 m ρ c),
     (h c _ (Cert.KernelIdeal.Frame.mem_uc Cert.KernelIdeal.main_arg14 (by decide))).trans (Cert.KernelIdeal.Frame.W34_main_arg14 m ρ c),
     (h c _ (Cert.KernelIdeal.Frame.mem_uc Cert.KernelIdeal.main_arg15 (by decide))).trans (Cert.KernelIdeal.Frame.W34_main_arg15 m ρ c),
     (h c _ (Cert.KernelIdeal.Frame.mem_uc Cert.KernelIdeal.main_arg16 (by decide))).trans (Cert.KernelIdeal.Frame.W34_main_arg16 m ρ c),
     (h c _ (Cert.KernelIdeal.Frame.mem_uc Cert.KernelIdeal.main_arg17 (by decide))).trans (Cert.KernelIdeal.Frame.W34_main_arg17 m ρ c),
     (h c _ (Cert.KernelIdeal.Frame.mem_uc Cert.KernelIdeal.main_arg18 (by decide))).trans (Cert.KernelIdeal.Frame.W34_main_arg18 m ρ c),
     (h c _ (Cert.KernelIdeal.Frame.mem_uc Cert.KernelIdeal.main_arg19 (by decide))).trans (Cert.KernelIdeal.Frame.W34_main_arg19 m ρ c),
     (h c _ (Cert.KernelIdeal.Frame.mem_uc Cert.KernelIdeal.main_arg20 (by decide))).trans (Cert.KernelIdeal.Frame.W34_main_arg20 m ρ c)⟩)
    (Cert.KernelIdeal.Frame.run_main (F := Ideal) m ρ)

/-- The reference runs and leaves its argument arrays as launched. -/
theorem frame_ri : Cert.frame_ReferenceIdeal (hReferenceIdeal := Cert.ReferenceIdeal.Gen.facts) (hPre_finite_inputs := Cert.Pre_finite_inputs.Gen.facts) := fun m ρ _ =>
  (θ_run (Cert.ReferenceIdeal.defs (F := Ideal)) _ _).mono (fun r h c =>
    ⟨((h c Cert.ReferenceIdeal.main_arg0).trans ((congrFun (Cert.ReferenceIdeal.Hand.after_ops m c) _).trans (Cert.ReferenceIdeal.Hand.Rv34_main_arg0 m c))),
     ((h c Cert.ReferenceIdeal.main_arg1).trans ((congrFun (Cert.ReferenceIdeal.Hand.after_ops m c) _).trans (Cert.ReferenceIdeal.Hand.Rv34_main_arg1 m c))),
     ((h c Cert.ReferenceIdeal.main_arg2).trans ((congrFun (Cert.ReferenceIdeal.Hand.after_ops m c) _).trans (Cert.ReferenceIdeal.Hand.Rv34_main_arg2 m c))),
     ((h c Cert.ReferenceIdeal.main_arg3).trans ((congrFun (Cert.ReferenceIdeal.Hand.after_ops m c) _).trans (Cert.ReferenceIdeal.Hand.Rv34_main_arg3 m c))),
     ((h c Cert.ReferenceIdeal.main_arg4).trans ((congrFun (Cert.ReferenceIdeal.Hand.after_ops m c) _).trans (Cert.ReferenceIdeal.Hand.Rv34_main_arg4 m c))),
     ((h c Cert.ReferenceIdeal.main_arg5).trans ((congrFun (Cert.ReferenceIdeal.Hand.after_ops m c) _).trans (Cert.ReferenceIdeal.Hand.Rv34_main_arg5 m c))),
     ((h c Cert.ReferenceIdeal.main_arg6).trans ((congrFun (Cert.ReferenceIdeal.Hand.after_ops m c) _).trans (Cert.ReferenceIdeal.Hand.Rv34_main_arg6 m c))),
     ((h c Cert.ReferenceIdeal.main_arg7).trans ((congrFun (Cert.ReferenceIdeal.Hand.after_ops m c) _).trans (Cert.ReferenceIdeal.Hand.Rv34_main_arg7 m c))),
     ((h c Cert.ReferenceIdeal.main_arg8).trans ((congrFun (Cert.ReferenceIdeal.Hand.after_ops m c) _).trans (Cert.ReferenceIdeal.Hand.Rv34_main_arg8 m c))),
     ((h c Cert.ReferenceIdeal.main_arg9).trans ((congrFun (Cert.ReferenceIdeal.Hand.after_ops m c) _).trans (Cert.ReferenceIdeal.Hand.Rv34_main_arg9 m c))),
     ((h c Cert.ReferenceIdeal.main_arg10).trans ((congrFun (Cert.ReferenceIdeal.Hand.after_ops m c) _).trans (Cert.ReferenceIdeal.Hand.Rv34_main_arg10 m c))),
     ((h c Cert.ReferenceIdeal.main_arg11).trans ((congrFun (Cert.ReferenceIdeal.Hand.after_ops m c) _).trans (Cert.ReferenceIdeal.Hand.Rv34_main_arg11 m c))),
     ((h c Cert.ReferenceIdeal.main_arg12).trans ((congrFun (Cert.ReferenceIdeal.Hand.after_ops m c) _).trans (Cert.ReferenceIdeal.Hand.Rv34_main_arg12 m c))),
     ((h c Cert.ReferenceIdeal.main_arg13).trans ((congrFun (Cert.ReferenceIdeal.Hand.after_ops m c) _).trans (Cert.ReferenceIdeal.Hand.Rv34_main_arg13 m c))),
     ((h c Cert.ReferenceIdeal.main_arg14).trans ((congrFun (Cert.ReferenceIdeal.Hand.after_ops m c) _).trans (Cert.ReferenceIdeal.Hand.Rv34_main_arg14 m c))),
     ((h c Cert.ReferenceIdeal.main_arg15).trans ((congrFun (Cert.ReferenceIdeal.Hand.after_ops m c) _).trans (Cert.ReferenceIdeal.Hand.Rv34_main_arg15 m c))),
     ((h c Cert.ReferenceIdeal.main_arg16).trans ((congrFun (Cert.ReferenceIdeal.Hand.after_ops m c) _).trans (Cert.ReferenceIdeal.Hand.Rv34_main_arg16 m c))),
     ((h c Cert.ReferenceIdeal.main_arg17).trans ((congrFun (Cert.ReferenceIdeal.Hand.after_ops m c) _).trans (Cert.ReferenceIdeal.Hand.Rv34_main_arg17 m c))),
     ((h c Cert.ReferenceIdeal.main_arg18).trans ((congrFun (Cert.ReferenceIdeal.Hand.after_ops m c) _).trans (Cert.ReferenceIdeal.Hand.Rv34_main_arg18 m c))),
     ((h c Cert.ReferenceIdeal.main_arg19).trans ((congrFun (Cert.ReferenceIdeal.Hand.after_ops m c) _).trans (Cert.ReferenceIdeal.Hand.Rv34_main_arg19 m c))),
     ((h c Cert.ReferenceIdeal.main_arg20).trans ((congrFun (Cert.ReferenceIdeal.Hand.after_ops m c) _).trans (Cert.ReferenceIdeal.Hand.Rv34_main_arg20 m c)))⟩)
    (Cert.ReferenceIdeal.Hand.run_main (F := Ideal) m ρ)

/-- At the ideal values, from memories agreeing on the arguments, both programs end with the same result array. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.KernelIdeal.Frame.W34 m ρ c (Proc.devRef .tc Cert.KernelIdeal.main_v323), ?_, ?_⟩
  · exact (θ_run (Cert.KernelIdeal.defs (F := Ideal)) _ _).mono (fun r h c =>
      ⟨h c _ (Cert.KernelIdeal.Frame.mem_uc Cert.KernelIdeal.main_v323 (by decide)),
       (h c _ (Cert.KernelIdeal.Frame.mem_uc Cert.KernelIdeal.main_arg0 (by decide))).trans (Cert.KernelIdeal.Frame.W34_main_arg0 m ρ c),
       (h c _ (Cert.KernelIdeal.Frame.mem_uc Cert.KernelIdeal.main_arg1 (by decide))).trans (Cert.KernelIdeal.Frame.W34_main_arg1 m ρ c),
       (h c _ (Cert.KernelIdeal.Frame.mem_uc Cert.KernelIdeal.main_arg2 (by decide))).trans (Cert.KernelIdeal.Frame.W34_main_arg2 m ρ c),
       (h c _ (Cert.KernelIdeal.Frame.mem_uc Cert.KernelIdeal.main_arg3 (by decide))).trans (Cert.KernelIdeal.Frame.W34_main_arg3 m ρ c),
       (h c _ (Cert.KernelIdeal.Frame.mem_uc Cert.KernelIdeal.main_arg4 (by decide))).trans (Cert.KernelIdeal.Frame.W34_main_arg4 m ρ c),
       (h c _ (Cert.KernelIdeal.Frame.mem_uc Cert.KernelIdeal.main_arg5 (by decide))).trans (Cert.KernelIdeal.Frame.W34_main_arg5 m ρ c),
       (h c _ (Cert.KernelIdeal.Frame.mem_uc Cert.KernelIdeal.main_arg6 (by decide))).trans (Cert.KernelIdeal.Frame.W34_main_arg6 m ρ c),
       (h c _ (Cert.KernelIdeal.Frame.mem_uc Cert.KernelIdeal.main_arg7 (by decide))).trans (Cert.KernelIdeal.Frame.W34_main_arg7 m ρ c),
       (h c _ (Cert.KernelIdeal.Frame.mem_uc Cert.KernelIdeal.main_arg8 (by decide))).trans (Cert.KernelIdeal.Frame.W34_main_arg8 m ρ c),
       (h c _ (Cert.KernelIdeal.Frame.mem_uc Cert.KernelIdeal.main_arg9 (by decide))).trans (Cert.KernelIdeal.Frame.W34_main_arg9 m ρ c),
       (h c _ (Cert.KernelIdeal.Frame.mem_uc Cert.KernelIdeal.main_arg10 (by decide))).trans (Cert.KernelIdeal.Frame.W34_main_arg10 m ρ c),
       (h c _ (Cert.KernelIdeal.Frame.mem_uc Cert.KernelIdeal.main_arg11 (by decide))).trans (Cert.KernelIdeal.Frame.W34_main_arg11 m ρ c),
       (h c _ (Cert.KernelIdeal.Frame.mem_uc Cert.KernelIdeal.main_arg12 (by decide))).trans (Cert.KernelIdeal.Frame.W34_main_arg12 m ρ c),
       (h c _ (Cert.KernelIdeal.Frame.mem_uc Cert.KernelIdeal.main_arg13 (by decide))).trans (Cert.KernelIdeal.Frame.W34_main_arg13 m ρ c),
       (h c _ (Cert.KernelIdeal.Frame.mem_uc Cert.KernelIdeal.main_arg14 (by decide))).trans (Cert.KernelIdeal.Frame.W34_main_arg14 m ρ c),
       (h c _ (Cert.KernelIdeal.Frame.mem_uc Cert.KernelIdeal.main_arg15 (by decide))).trans (Cert.KernelIdeal.Frame.W34_main_arg15 m ρ c),
       (h c _ (Cert.KernelIdeal.Frame.mem_uc Cert.KernelIdeal.main_arg16 (by decide))).trans (Cert.KernelIdeal.Frame.W34_main_arg16 m ρ c),
       (h c _ (Cert.KernelIdeal.Frame.mem_uc Cert.KernelIdeal.main_arg17 (by decide))).trans (Cert.KernelIdeal.Frame.W34_main_arg17 m ρ c),
       (h c _ (Cert.KernelIdeal.Frame.mem_uc Cert.KernelIdeal.main_arg18 (by decide))).trans (Cert.KernelIdeal.Frame.W34_main_arg18 m ρ c),
       (h c _ (Cert.KernelIdeal.Frame.mem_uc Cert.KernelIdeal.main_arg19 (by decide))).trans (Cert.KernelIdeal.Frame.W34_main_arg19 m ρ c),
       (h c _ (Cert.KernelIdeal.Frame.mem_uc Cert.KernelIdeal.main_arg20 (by decide))).trans (Cert.KernelIdeal.Frame.W34_main_arg20 m ρ c)⟩)
      (Cert.KernelIdeal.Frame.run_main (F := Ideal) m ρ)
  · exact (θ_run (Cert.ReferenceIdeal.defs (F := Ideal)) _ _).mono (fun r h c =>
      ⟨(h c Cert.ReferenceIdeal.main_v473).trans ((congrFun (Cert.ReferenceIdeal.Hand.after_ops m' c) _).trans (Cert.Bridge.final ρ (Cert.Bridge.Agree.of_launch hagree) c)),
       ((h c Cert.ReferenceIdeal.main_arg0).trans ((congrFun (Cert.ReferenceIdeal.Hand.after_ops m' c) _).trans (Cert.ReferenceIdeal.Hand.Rv34_main_arg0 m' c))),
       ((h c Cert.ReferenceIdeal.main_arg1).trans ((congrFun (Cert.ReferenceIdeal.Hand.after_ops m' c) _).trans (Cert.ReferenceIdeal.Hand.Rv34_main_arg1 m' c))),
       ((h c Cert.ReferenceIdeal.main_arg2).trans ((congrFun (Cert.ReferenceIdeal.Hand.after_ops m' c) _).trans (Cert.ReferenceIdeal.Hand.Rv34_main_arg2 m' c))),
       ((h c Cert.ReferenceIdeal.main_arg3).trans ((congrFun (Cert.ReferenceIdeal.Hand.after_ops m' c) _).trans (Cert.ReferenceIdeal.Hand.Rv34_main_arg3 m' c))),
       ((h c Cert.ReferenceIdeal.main_arg4).trans ((congrFun (Cert.ReferenceIdeal.Hand.after_ops m' c) _).trans (Cert.ReferenceIdeal.Hand.Rv34_main_arg4 m' c))),
       ((h c Cert.ReferenceIdeal.main_arg5).trans ((congrFun (Cert.ReferenceIdeal.Hand.after_ops m' c) _).trans (Cert.ReferenceIdeal.Hand.Rv34_main_arg5 m' c))),
       ((h c Cert.ReferenceIdeal.main_arg6).trans ((congrFun (Cert.ReferenceIdeal.Hand.after_ops m' c) _).trans (Cert.ReferenceIdeal.Hand.Rv34_main_arg6 m' c))),
       ((h c Cert.ReferenceIdeal.main_arg7).trans ((congrFun (Cert.ReferenceIdeal.Hand.after_ops m' c) _).trans (Cert.ReferenceIdeal.Hand.Rv34_main_arg7 m' c))),
       ((h c Cert.ReferenceIdeal.main_arg8).trans ((congrFun (Cert.ReferenceIdeal.Hand.after_ops m' c) _).trans (Cert.ReferenceIdeal.Hand.Rv34_main_arg8 m' c))),
       ((h c Cert.ReferenceIdeal.main_arg9).trans ((congrFun (Cert.ReferenceIdeal.Hand.after_ops m' c) _).trans (Cert.ReferenceIdeal.Hand.Rv34_main_arg9 m' c))),
       ((h c Cert.ReferenceIdeal.main_arg10).trans ((congrFun (Cert.ReferenceIdeal.Hand.after_ops m' c) _).trans (Cert.ReferenceIdeal.Hand.Rv34_main_arg10 m' c))),
       ((h c Cert.ReferenceIdeal.main_arg11).trans ((congrFun (Cert.ReferenceIdeal.Hand.after_ops m' c) _).trans (Cert.ReferenceIdeal.Hand.Rv34_main_arg11 m' c))),
       ((h c Cert.ReferenceIdeal.main_arg12).trans ((congrFun (Cert.ReferenceIdeal.Hand.after_ops m' c) _).trans (Cert.ReferenceIdeal.Hand.Rv34_main_arg12 m' c))),
       ((h c Cert.ReferenceIdeal.main_arg13).trans ((congrFun (Cert.ReferenceIdeal.Hand.after_ops m' c) _).trans (Cert.ReferenceIdeal.Hand.Rv34_main_arg13 m' c))),
       ((h c Cert.ReferenceIdeal.main_arg14).trans ((congrFun (Cert.ReferenceIdeal.Hand.after_ops m' c) _).trans (Cert.ReferenceIdeal.Hand.Rv34_main_arg14 m' c))),
       ((h c Cert.ReferenceIdeal.main_arg15).trans ((congrFun (Cert.ReferenceIdeal.Hand.after_ops m' c) _).trans (Cert.ReferenceIdeal.Hand.Rv34_main_arg15 m' c))),
       ((h c Cert.ReferenceIdeal.main_arg16).trans ((congrFun (Cert.ReferenceIdeal.Hand.after_ops m' c) _).trans (Cert.ReferenceIdeal.Hand.Rv34_main_arg16 m' c))),
       ((h c Cert.ReferenceIdeal.main_arg17).trans ((congrFun (Cert.ReferenceIdeal.Hand.after_ops m' c) _).trans (Cert.ReferenceIdeal.Hand.Rv34_main_arg17 m' c))),
       ((h c Cert.ReferenceIdeal.main_arg18).trans ((congrFun (Cert.ReferenceIdeal.Hand.after_ops m' c) _).trans (Cert.ReferenceIdeal.Hand.Rv34_main_arg18 m' c))),
       ((h c Cert.ReferenceIdeal.main_arg19).trans ((congrFun (Cert.ReferenceIdeal.Hand.after_ops m' c) _).trans (Cert.ReferenceIdeal.Hand.Rv34_main_arg19 m' c))),
       ((h c Cert.ReferenceIdeal.main_arg20).trans ((congrFun (Cert.ReferenceIdeal.Hand.after_ops m' c) _).trans (Cert.ReferenceIdeal.Hand.Rv34_main_arg20 m' c)))⟩)
      (Cert.ReferenceIdeal.Hand.run_main (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
